-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v280)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v280) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v408) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S5x128x256 : Shape := ⟨3, ![5, 128, 256]⟩
abbrev S5x256 : Shape := ⟨2, ![5, 256]⟩
abbrev S5x256x128 : Shape := ⟨3, ![5, 256, 128]⟩
abbrev S5x128 : Shape := ⟨2, ![5, 128]⟩
abbrev S5 : Shape := ⟨1, ![5]⟩
abbrev S128x128 : Shape := ⟨2, ![128, 128]⟩
abbrev S128 : Shape := ⟨1, ![128]⟩
abbrev S128x41 : Shape := ⟨2, ![128, 41]⟩
abbrev S41 : Shape := ⟨1, ![41]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S5x128x256 : S_.BroadcastsInDim S5x128x256 (![] : Fin 0 → Fin S5x128x256.rank)
  reducesTo_S5x128x256_S_d0_1_2 : S5x128x256.ReducesTo [0, 1, 2] S_
  bcast_S_S5x256 : S_.BroadcastsInDim S5x256 (![] : Fin 0 → Fin S5x256.rank)
  reducesTo_S5x256_S_d0_1 : S5x256.ReducesTo [0, 1] S_
  bcast_S_S5x256x128 : S_.BroadcastsInDim S5x256x128 (![] : Fin 0 → Fin S5x256x128.rank)
  reducesTo_S5x256x128_S_d0_1_2 : S5x256x128.ReducesTo [0, 1, 2] S_
  bcast_S_S5x128 : S_.BroadcastsInDim S5x128 (![] : Fin 0 → Fin S5x128.rank)
  reducesTo_S5x128_S_d0_1 : S5x128.ReducesTo [0, 1] S_
  bcast_S_S5 : S_.BroadcastsInDim S5 (![] : Fin 0 → Fin S5.rank)
  reducesTo_S5_S_d0 : S5.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x41 : S_.BroadcastsInDim S128x41 (![] : Fin 0 → Fin S128x41.rank)
  reducesTo_S128x41_S_d0_1 : S128x41.ReducesTo [0, 1] S_
  bcast_S_S41 : S_.BroadcastsInDim S41 (![] : Fin 0 → Fin S41.rank)
  reducesTo_S41_S_d0 : S41.ReducesTo [0] S_

variable [Facts]

def fn_part4 {F : FTy → Type} [FloatOps F] (main_arg15 : FVec F S128x41 .f32) (main_arg16 : FVec F S41 .f32) (main_v63 : IVec S_ 1) (main_v67 : IVec S_ 1) : IVec S_ 1 :=
  let main_v68 : IVec S_ 1 := andi main_v63 main_v67
  let main_v69 : FVec F S128x41 .f32 := Host.absf main_arg15
  let main_cst_26 : FVec F S_ .f32 := constant S_ .f32 0x7F800000#32
  let main_v70 : FVec F S128x41 .f32 := broadcastInDim S128x41 ![] bcast_S_S128x41 main_cst_26
  let main_v71 : IVec S128x41 1 := cmpf .olt main_v69 main_v70
  let main_c_27 : IVec S_ 1 := constantI S_ 1 1#1
  let main_v72 : IVec S_ 1 := (fun x v => Host.reduce IntOp.andi x v reducesTo_S128x41_S_d0_1 h_S_) main_v71 main_c_27
  let main_v73 : IVec S_ 1 := andi main_v68 main_v72
  let main_v74 : FVec F S41 .f32 := Host.absf main_arg16
  let main_cst_28 : FVec F S_ .f32 := constant S_ .f32 0x7F800000#32
  let main_v75 : FVec F S41 .f32 := broadcastInDim S41 ![] bcast_S_S41 main_cst_28
  let main_v76 : IVec S41 1 := cmpf .olt main_v74 main_v75
  let main_c_29 : IVec S_ 1 := constantI S_ 1 1#1
  let main_v77 : IVec S_ 1 := (fun x v => Host.reduce IntOp.andi x v reducesTo_S41_S_d0 h_S_) main_v76 main_c_29
  let main_v78 : IVec S_ 1 := andi main_v73 main_v77
  main_v78

def fn_part3 {F : FTy → Type} [FloatOps F] (main_arg12 : FVec F S128 .f32) (main_arg13 : FVec F S128 .f32) (main_arg14 : FVec F S128 .f32) (main_arg15 : FVec F S128x41 .f32) (main_arg16 : FVec F S41 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_v63 main_v67

def fn_part2 {F : FTy → Type} [FloatOps F] (main_arg8 : FVec F S5 .f32) (main_arg9 : FVec F S5x128 .f32) (main_arg10 : FVec F S5x128 .f32) (main_arg11 : FVec F S128x128 .f32) (main_arg12 : FVec F S128 .f32) (main_arg13 : FVec F S128 .f32) (main_arg14 : FVec F S128 .f32) (main_arg15 : FVec F S128x41 .f32) (main_arg16 : FVec F S41 .f32) (main_v33 : IVec S_ 1) : IVec S_ 1 :=
  let main_v34 : FVec F S5 .f32 := Host.absf main_arg8
  let main_cst_12 : FVec F S_ .f32 := constant S_ .f32 0x7F800000#32
  let main_v35 : FVec F S5 .f32 := broadcastInDim S5 ![] bcast_S_S5 main_cst_12
  let main_v36 : IVec S5 1 := cmpf .olt main_v34 main_v35
  let main_c_13 : IVec S_ 1 := constantI S_ 1 1#1
  let main_v37 : IVec S_ 1 := (fun x v => Host.reduce IntOp.andi x v reducesTo_S5_S_d0 h_S_) main_v36 main_c_13
  let main_v38 : IVec S_ 1 := andi main_v33 main_v37
  let main_v39 : FVec F S5x128 .f32 := Host.absf main_arg9
  let main_cst_14 : FVec F S_ .f32 := constant S_ .f32 0x7F800000#32
  let main_v40 : FVec F S5x128 .f32 := broadcastInDim S5x128 ![] bcast_S_S5x128 main_cst_14
  let main_v41 : IVec S5x128 1 := cmpf .olt main_v39 main_v40
  let main_c_15 : IVec S_ 1 := constantI S_ 1 1#1
  let main_v42 : IVec S_ 1 := (fun x v => Host.reduce IntOp.andi x v reducesTo_S5x128_S_d0_1 h_S_) main_v41 main_c_15
  let main_v43 : IVec S_ 1 := andi main_v38 main_v42
  let main_v44 : FVec F S5x128 .f32 := Host.absf main_arg10
  let main_cst_16 : FVec F S_ .f32 := constant S_ .f32 0x7F800000#32
  let main_v45 : FVec F S5x128 .f32 := broadcastInDim S5x128 ![] bcast_S_S5x128 main_cst_16
  let main_v46 : IVec S5x128 1 := cmpf .olt main_v44 main_v45
  let main_c_17 : IVec S_ 1 := constantI S_ 1 1#1
  let main_v47 : IVec S_ 1 := (fun x v => Host.reduce IntOp.andi x v reducesTo_S5x128_S_d0_1 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_arg13 main_arg14 main_arg15 main_arg16 main_v48 main_v49 main_v50

def fn_part1 {F : FTy → Type} [FloatOps F] (main_arg5 : FVec F S5x256 .f32) (main_arg6 : FVec F S5x256x128 .f32) (main_arg7 : FVec F S5x128 .f32) (main_arg8 : FVec F S5 .f32) (main_arg9 : FVec F S5x128 .f32) (main_arg10 : FVec F S5x128 .f32) (main_arg11 : FVec F S128x128 .f32) (main_arg12 : FVec F S128 .f32) (main_arg13 : FVec F S128 .f32) (main_arg14 : FVec F S128 .f32) (main_arg15 : FVec F S128x41 .f32) (main_arg16 : FVec F S41 .f32) (main_v13 : IVec S_ 1) (main_v16 : IVec S5x256 1) : IVec S_ 1 :=
  let main_c_5 : IVec S_ 1 := constantI S_ 1 1#1
  let main_v17 : IVec S_ 1 := (fun x v => Host.reduce IntOp.andi x v reducesTo_S5x256_S_d0_1 h_S_) main_v16 main_c_5
  let main_v18 : IVec S_ 1 := andi main_v13 main_v17
  let main_v19 : FVec F S5x256 .f32 := Host.absf main_arg5
  let main_cst_6 : FVec F S_ .f32 := constant S_ .f32 0x7F800000#32
  let main_v20 : FVec F S5x256 .f32 := broadcastInDim S5x256 ![] bcast_S_S5x256 main_cst_6
  let main_v21 : IVec S5x256 1 := cmpf .olt main_v19 main_v20
  let main_c_7 : IVec S_ 1 := constantI S_ 1 1#1
  let main_v22 : IVec S_ 1 := (fun x v => Host.reduce IntOp.andi x v reducesTo_S5x256_S_d0_1 h_S_) main_v21 main_c_7
  let main_v23 : IVec S_ 1 := andi main_v18 main_v22
  let main_v24 : FVec F S5x256x128 .f32 := Host.absf main_arg6
  let main_cst_8 : FVec F S_ .f32 := constant S_ .f32 0x7F800000#32
  let main_v25 : FVec F S5x256x128 .f32 := broadcastInDim S5x256x128 ![] bcast_S_S5x256x128 main_cst_8
  let main_v26 : IVec S5x256x128 1 := cmpf .olt main_v24 main_v25
  let main_c_9 : IVec S_ 1 := constantI S_ 1 1#1
  let main_v27 : IVec S_ 1 := (fun x v => Host.reduce IntOp.andi x v reducesTo_S5x256x128_S_d0_1_2 h_S_) main_v26 main_c_9
  let main_v28 : IVec S_ 1 := andi main_v23 main_v27
  let main_v29 : FVec F S5x128 .f32 := Host.absf main_arg7
  let main_cst_10 : FVec F S_ .f32 := constant S_ .f32 0x7F800000#32
  let main_v30 : FVec F S5x128 .f32 := broadcastInDim S5x128 ![] bcast_S_S5x128 main_cst_10
  let main_v31 : IVec S5x128 1 := cmpf .olt main_v29 main_v30
  let main_c_11 : IVec S_ 1 := constantI S_ 1 1#1
  let main_v32 : IVec S_ 1 := (fun x v => Host.reduce IntOp.andi x v reducesTo_S5x128_S_d0_1 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S50000x128 .f32) (main_arg1 : IVec S2x800000 32) (main_arg2 : FVec F S5x128x256 .f32) (main_arg3 : FVec F S5x256 .f32) (main_arg4 : FVec F S5x256 .f32) (main_arg5 : FVec F S5x256 .f32) (main_arg6 : FVec F S5x256x128 .f32) (main_arg7 : FVec F S5x128 .f32) (main_arg8 : FVec F S5 .f32) (main_arg9 : FVec F S5x128 .f32) (main_arg10 : FVec F S5x128 .f32) (main_arg11 : FVec F S128x128 .f32) (main_arg12 : FVec F S128 .f32) (main_arg13 : FVec F S128 .f32) (main_arg14 : FVec F S128 .f32) (main_arg15 : FVec F S128x41 .f32) (main_arg16 : FVec F S41 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S5x128x256 .f32 := Host.absf main_arg2
  let main_cst_0 : FVec F S_ .f32 := constant S_ .f32 0x7F800000#32
  let main_v5 : FVec F S5x128x256 .f32 := broadcastInDim S5x128x256 ![] bcast_S_S5x128x256 main_cst_0
  let main_v6 : IVec S5x128x256 1 := cmpf .olt main_v4 main_v5
  let main_c_1 : IVec S_ 1 := constantI S_ 1 1#1
  let main_v7 : IVec S_ 1 := (fun x v => Host.reduce IntOp.andi x v reducesTo_S5x128x256_S_d0_1_2 h_S_) main_v6 main_c_1
  let main_v8 : IVec S_ 1 := andi main_v3 main_v7
  let main_v9 : FVec F S5x256 .f32 := Host.absf main_arg3
  let main_cst_2 : FVec F S_ .f32 := constant S_ .f32 0x7F800000#32
  let main_v10 : FVec F S5x256 .f32 := broadcastInDim S5x256 ![] bcast_S_S5x256 main_cst_2
  let main_v11 : IVec S5x256 1 := cmpf .olt main_v9 main_v10
  let main_c_3 : IVec S_ 1 := constantI S_ 1 1#1
  let main_v12 : IVec S_ 1 := (fun x v => Host.reduce IntOp.andi x v reducesTo_S5x256_S_d0_1 h_S_) main_v11 main_c_3
  let main_v13 : IVec S_ 1 := andi main_v8 main_v12
  let main_v14 : FVec F S5x256 .f32 := Host.absf main_arg4
  let main_cst_4 : FVec F S_ .f32 := constant S_ .f32 0x7F800000#32
  let main_v15 : FVec F S5x256 .f32 := broadcastInDim S5x256 ![] bcast_S_S5x256 main_cst_4
  let main_v16 : IVec S5x256 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S50000x128 : Shape := ⟨2, ![50000, 128]⟩
abbrev S2x800000 : Shape := ⟨2, ![2, 800000]⟩
abbrev S5x128x256 : Shape := ⟨3, ![5, 128, 256]⟩
abbrev S5x256 : Shape := ⟨2, ![5, 256]⟩
abbrev S5x256x128 : Shape := ⟨3, ![5, 256, 128]⟩
abbrev S5x128 : Shape := ⟨2, ![5, 128]⟩
abbrev S5 : Shape := ⟨1, ![5]⟩
abbrev S128x128 : Shape := ⟨2, ![128, 128]⟩
abbrev S128 : Shape := ⟨1, ![128]⟩
abbrev S128x41 : Shape := ⟨2, ![128, 41]⟩
abbrev S41 : Shape := ⟨1, ![41]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1 : Shape := ⟨1, ![1]⟩
abbrev S1x128x256 : Shape := ⟨3, ![1, 128, 256]⟩
abbrev S128x256 : Shape := ⟨2, ![128, 256]⟩
abbrev S1x256 : Shape := ⟨2, ![1, 256]⟩
abbrev S256 : Shape := ⟨1, ![256]⟩
abbrev S50000x256 : Shape := ⟨2, ![50000, 256]⟩
abbrev S2000x128 : Shape := ⟨2, ![2000, 128]⟩
abbrev S2000x256 : Shape := ⟨2, ![2000, 256]⟩
abbrev S1x256x128 : Shape := ⟨3, ![1, 256, 128]⟩
abbrev S256x128 : Shape := ⟨2, ![256, 128]⟩
abbrev S1x128 : Shape := ⟨2, ![1, 128]⟩
abbrev S1x41 : Shape := ⟨2, ![1, 41]⟩
abbrev S50000x41 : Shape := ⟨2, ![50000, 41]⟩
abbrev S2000x41 : Shape := ⟨2, ![2000, 41]⟩
abbrev S50000 : Shape := ⟨1, ![50000]⟩
abbrev S50000x1 : Shape := ⟨2, ![50000, 1]⟩

abbrev nBuf : Space → Nat
  | .hbm => 572
  | .vmem => 128
  | .smem => 0
  | _ => 0

abbrev hbmTy0_0 (i : Nat) : BufTy := match i % 128 with
  | 0 => ⟨S50000x128, .f32⟩
  | 1 => ⟨S2x800000, .i32⟩
  | 2 => ⟨S5x128x256, .f32⟩
  | 3 => ⟨S5x256, .f32⟩
  | 4 => ⟨S5x256, .f32⟩
  | 5 => ⟨S5x256, .f32⟩
  | 6 => ⟨S5x256x128, .f32⟩
  | 7 => ⟨S5x128, .f32⟩
  | 8 => ⟨S5, .f32⟩
  | 9 => ⟨S5x128, .f32⟩
  | 10 => ⟨S5x128, .f32⟩
  | 11 => ⟨S128x128, .f32⟩
  | 12 => ⟨S128, .f32⟩
  | 13 => ⟨S128, .f32⟩
  | 14 => ⟨S128, .f32⟩
  | 15 => ⟨S128x41, .f32⟩
  | 16 => ⟨S41, .f32⟩
  | 17 => ⟨S1x800000, .i32⟩
  | 18 => ⟨S800000, .i32⟩
  | 19 => ⟨S1x800000, .i32⟩
  | 20 => ⟨S800000, .i32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000x128, .f32⟩
  | 30 => ⟨S_, .f32⟩
  | 31 => ⟨S50000x128, .f32⟩
  | 32 => ⟨S800000x1, .i32⟩
  | 33 => ⟨S50000x128, .f32⟩
  | 34 => ⟨S1, .f32⟩
  | 35 => ⟨S_, .f32⟩
  | 36 => ⟨S_, .f32⟩
  | 37 => ⟨S_, .f32⟩
  | 38 => ⟨S50000x128, .f32⟩
  | 39 => ⟨S50000x128, .f32⟩
  | 40 => ⟨S50000x128, .f32⟩
  | 41 => ⟨S1x128x256, .f32⟩
  | 42 => ⟨S128x256, .f32⟩
  | 43 => ⟨S1x256, .f32⟩
  | 44 => ⟨S256, .f32⟩
  | 45 => ⟨S128x256, .bf16⟩
  | 46 => ⟨S1x256, .f32⟩
  | 47 => ⟨S50000x256, .f32⟩
  | 48 => ⟨S_, .f32⟩
  | 49 => ⟨S256, .f32⟩
  | 50 => ⟨S_, .f32⟩
  | 51 => ⟨S256, .f32⟩
  | 52 => ⟨S256, .f32⟩
  | 53 => ⟨S_, .i32⟩
  | 54 => ⟨S_, .f32⟩
  | 55 => ⟨S256, .f32⟩
  | 56 => ⟨S1x256, .f32⟩
  | 57 => ⟨S_, .f32⟩
  | 58 => ⟨S1x256, .f32⟩
  | 59 => ⟨S1x256, .f32⟩
  | 60 => ⟨S50000x256, .f32⟩
  | 61 => ⟨S50000x256, .f32⟩
  | 62 => ⟨S50000x256, .f32⟩
  | 63 => ⟨S_, .f32⟩
  | 64 => ⟨S_, .f32⟩
  | 65 => ⟨S_, .f32⟩
  | 66 => ⟨S_, .f32⟩
  | 67 => ⟨S256, .f32⟩
  | 68 => ⟨S256, .f32⟩
  | 69 => ⟨S256, .f32⟩
  | 70 => ⟨S_, .f32⟩
  | 71 => ⟨S_, .i1⟩
  | 72 => ⟨S_, .f32⟩
  | 73 => ⟨S_, .f32⟩
  | 74 => ⟨S256, .f32⟩
  | 75 => ⟨S256, .f32⟩
  | 76 => ⟨S1x256, .f32⟩
  | 77 => ⟨S256, .f32⟩
  | 78 => ⟨S1x256, .f32⟩
  | 79 => ⟨S256, .f32⟩
  | 80 => ⟨S1x256x128, .f32⟩
  | 81 => ⟨S256x128, .f32⟩
  | 82 => ⟨S1x128, .f32⟩
  | 83 => ⟨S128, .f32⟩
  | 84 => ⟨S256x128, .bf16⟩
  | 85 => ⟨S1x128, .f32⟩
  | 86 => ⟨S1x256, .f32⟩
  | 87 => ⟨S1x256, .f32⟩
  | 88 => ⟨S1x256, .f32⟩
  | 89 => ⟨S1x256, .f32⟩
  | 90 => ⟨S50000x128, .f32⟩
  | 91 => ⟨S_, .f32⟩
  | 92 => ⟨S128, .f32⟩
  | 93 => ⟨S_, .f32⟩
  | 94 => ⟨S128, .f32⟩
  | 95 => ⟨S128, .f32⟩
  | 96 => ⟨S_, .i32⟩
  | 97 => ⟨S_, .f32⟩
  | 98 => ⟨S128, .f32⟩
  | 99 => ⟨S1x128, .f32⟩
  | 100 => ⟨S_, .f32⟩
  | 101 => ⟨S1x128, .f32⟩
  | 102 => ⟨S1x128, .f32⟩
  | 103 => ⟨S50000x128, .f32⟩
  | 104 => ⟨S50000x128, .f32⟩
  | 105 => ⟨S50000x128, .f32⟩
  | 106 => ⟨S_, .f32⟩
  | 107 => ⟨S_, .f32⟩
  | 108 => ⟨S_, .f32⟩
  | 109 => ⟨S_, .f32⟩
  | 110 => ⟨S128, .f32⟩
  | 111 => ⟨S128, .f32⟩
  | 112 => ⟨S128, .f32⟩
  | 113 => ⟨S_, .f32⟩
  | 114 => ⟨S_, .i1⟩
  | 115 => ⟨S_, .f32⟩
  | 116 => ⟨S_, .f32⟩
  | 117 => ⟨S128, .f32⟩
  | 118 => ⟨S128, .f32⟩
  | 119 => ⟨S1x128, .f32⟩
  | 120 => ⟨S128, .f32⟩
  | 121 => ⟨S1x128, .f32⟩
  | 122 => ⟨S128, .f32⟩
  | 123 => ⟨S1x128, .f32⟩
  | 124 => ⟨S1x128, .f32⟩
  | 125 => ⟨S1x128, .f32⟩
  | 126 => ⟨S1x128, .f32⟩
  | 127 => ⟨S50000x128, .f32⟩
  | _ => ⟨S50000x128, .f32⟩

abbrev hbmTy0_1 (i : Nat) : BufTy := match i % 128 with
  | 0 => ⟨S_, .i32⟩
  | 1 => ⟨S800000, .i32⟩
  | 2 => ⟨S800000, .i1⟩
  | 3 => ⟨S_, .i32⟩
  | 4 => ⟨S800000, .i32⟩
  | 5 => ⟨S800000, .i32⟩
  | 6 => ⟨S800000, .i32⟩
  | 7 => ⟨S800000x1, .i32⟩
  | 8 => ⟨S800000x128, .f32⟩
  | 9 => ⟨S_, .f32⟩
  | 10 => ⟨S50000x128, .f32⟩
  | 11 => ⟨S800000x1, .i32⟩
  | 12 => ⟨S50000x128, .f32⟩
  | 13 => ⟨S1, .f32⟩
  | 14 => ⟨S_, .f32⟩
  | 15 => ⟨S_, .f32⟩
  | 16 => ⟨S_, .f32⟩
  | 17 => ⟨S50000x128, .f32⟩
  | 18 => ⟨S50000x128, .f32⟩
  | 19 => ⟨S50000x128, .f32⟩
  | 20 => ⟨S1x128x256, .f32⟩
  | 21 => ⟨S128x256, .f32⟩
  | 22 => ⟨S1x256, .f32⟩
  | 23 => ⟨S256, .f32⟩
  | 24 => ⟨S128x256, .bf16⟩
  | 25 => ⟨S1x256, .f32⟩
  | 26 => ⟨S50000x256, .f32⟩
  | 27 => ⟨S_, .f32⟩
  | 28 => ⟨S256, .f32⟩
  | 29 => ⟨S_, .f32⟩
  | 30 => ⟨S256, .f32⟩
  | 31 => ⟨S256, .f32⟩
  | 32 => ⟨S_, .i32⟩
  | 33 => ⟨S_, .f32⟩
  | 34 => ⟨S256, .f32⟩
  | 35 => ⟨S1x256, .f32⟩
  | 36 => ⟨S_, .f32⟩
  | 37 => ⟨S1x256, .f32⟩
  | 38 => ⟨S1x256, .f32⟩
  | 39 => ⟨S50000x256, .f32⟩
  | 40 => ⟨S50000x256, .f32⟩
  | 41 => ⟨S50000x256, .f32⟩
  | 42 => ⟨S_, .f32⟩
  | 43 => ⟨S_, .f32⟩
  | 44 => ⟨S_, .f32⟩
  | 45 => ⟨S_, .f32⟩
  | 46 => ⟨S256, .f32⟩
  | 47 => ⟨S256, .f32⟩
  | 48 => ⟨S256, .f32⟩
  | 49 => ⟨S_, .f32⟩
  | 50 => ⟨S_, .i1⟩
  | 51 => ⟨S_, .f32⟩
  | 52 => ⟨S_, .f32⟩
  | 53 => ⟨S256, .f32⟩
  | 54 => ⟨S256, .f32⟩
  | 55 => ⟨S1x256, .f32⟩
  | 56 => ⟨S256, .f32⟩
  | 57 => ⟨S1x256, .f32⟩
  | 58 => ⟨S256, .f32⟩
  | 59 => ⟨S1x256x128, .f32⟩
  | 60 => ⟨S256x128, .f32⟩
  | 61 => ⟨S1x128, .f32⟩
  | 62 => ⟨S128, .f32⟩
  | 63 => ⟨S256x128, .bf16⟩
  | 64 => ⟨S1x128, .f32⟩
  | 65 => ⟨S1x256, .f32⟩
  | 66 => ⟨S1x256, .f32⟩
  | 67 => ⟨S1x256, .f32⟩
  | 68 => ⟨S1x256, .f32⟩
  | 69 => ⟨S50000x128, .f32⟩
  | 70 => ⟨S_, .f32⟩
  | 71 => ⟨S128, .f32⟩
  | 72 => ⟨S_, .f32⟩
  | 73 => ⟨S128, .f32⟩
  | 74 => ⟨S128, .f32⟩
  | 75 => ⟨S_, .i32⟩
  | 76 => ⟨S_, .f32⟩
  | 77 => ⟨S128, .f32⟩
  | 78 => ⟨S1x128, .f32⟩
  | 79 => ⟨S_, .f32⟩
  | 80 => ⟨S1x128, .f32⟩
  | 81 => ⟨S1x128, .f32⟩
  | 82 => ⟨S50000x128, .f32⟩
  | 83 => ⟨S50000x128, .f32⟩
  | 84 => ⟨S50000x128, .f32⟩
  | 85 => ⟨S_, .f32⟩
  | 86 => ⟨S_, .f32⟩
  | 87 => ⟨S_, .f32⟩
  | 88 => ⟨S_, .f32⟩
  | 89 => ⟨S128, .f32⟩
  | 90 => ⟨S128, .f32⟩
  | 91 => ⟨S128, .f32⟩
  | 92 => ⟨S_, .f32⟩
  | 93 => ⟨S_, .i1⟩
  | 94 => ⟨S_, .f32⟩
  | 95 => ⟨S_, .f32⟩
  | 96 => ⟨S128, .f32⟩
  | 97 => ⟨S128, .f32⟩
  | 98 => ⟨S1x128, .f32⟩
  | 99 => ⟨S128, .f32⟩
  | 100 => ⟨S1x128, .f32⟩
  | 101 => ⟨S128, .f32⟩
  | 102 => ⟨S1x128, .f32⟩
  | 103 => ⟨S1x128, .f32⟩
  | 104 => ⟨S1x128, .f32⟩
  | 105 => ⟨S1x128, .f32⟩
  | 106 => ⟨S50000x128, .f32⟩
  | 107 => ⟨S_, .i32⟩
  | 108 => ⟨S800000, .i32⟩
  | 109 => ⟨S800000, .i1⟩
  | 110 => ⟨S_, .i32⟩
  | 111 => ⟨S800000, .i32⟩
  | 112 => ⟨S800000, .i32⟩
  | 113 => ⟨S800000, .i32⟩
  | 114 => ⟨S800000x1, .i32⟩
  | 115 => ⟨S800000x128, .f32⟩
  | 116 => ⟨S_, .f32⟩
  | 117 => ⟨S50000x128, .f32⟩
  | 118 => ⟨S800000x1, .i32⟩
  | 119 => ⟨S50000x128, .f32⟩
  | 120 => ⟨S1, .f32⟩
  | 121 => ⟨S_, .f32⟩
  | 122 => ⟨S_, .f32⟩
  | 123 => ⟨S_, .f32⟩
  | 124 => ⟨S50000x128, .f32⟩
  | 125 => ⟨S50000x128, .f32⟩
  | 126 => ⟨S50000x128, .f32⟩
  | 127 => ⟨S1x128x256, .f32⟩
  | _ => ⟨S50000x128, .f32⟩

abbrev hbmTy0_2 (i : Nat) : BufTy := match i % 128 with
  | 0 => ⟨S128x256, .f32⟩
  | 1 => ⟨S1x256, .f32⟩
  | 2 => ⟨S256, .f32⟩
  | 3 => ⟨S128x256, .bf16⟩
  | 4 => ⟨S1x256, .f32⟩
  | 5 => ⟨S50000x256, .f32⟩
  | 6 => ⟨S_, .f32⟩
  | 7 => ⟨S256, .f32⟩
  | 8 => ⟨S_, .f32⟩
  | 9 => ⟨S256, .f32⟩
  | 10 => ⟨S256, .f32⟩
  | 11 => ⟨S_, .i32⟩
  | 12 => ⟨S_, .f32⟩
  | 13 => ⟨S256, .f32⟩
  | 14 => ⟨S1x256, .f32⟩
  | 15 => ⟨S_, .f32⟩
  | 16 => ⟨S1x256, .f32⟩
  | 17 => ⟨S1x256, .f32⟩
  | 18 => ⟨S50000x256, .f32⟩
  | 19 => ⟨S50000x256, .f32⟩
  | 20 => ⟨S50000x256, .f32⟩
  | 21 => ⟨S_, .f32⟩
  | 22 => ⟨S_, .f32⟩
  | 23 => ⟨S_, .f32⟩
  | 24 => ⟨S_, .f32⟩
  | 25 => ⟨S256, .f32⟩
  | 26 => ⟨S256, .f32⟩
  | 27 => ⟨S256, .f32⟩
  | 28 => ⟨S_, .f32⟩
  | 29 => ⟨S_, .i1⟩
  | 30 => ⟨S_, .f32⟩
  | 31 => ⟨S_, .f32⟩
  | 32 => ⟨S256, .f32⟩
  | 33 => ⟨S256, .f32⟩
  | 34 => ⟨S1x256, .f32⟩
  | 35 => ⟨S256, .f32⟩
  | 36 => ⟨S1x256, .f32⟩
  | 37 => ⟨S256, .f32⟩
  | 38 => ⟨S1x256x128, .f32⟩
  | 39 => ⟨S256x128, .f32⟩
  | 40 => ⟨S1x128, .f32⟩
  | 41 => ⟨S128, .f32⟩
  | 42 => ⟨S256x128, .bf16⟩
  | 43 => ⟨S1x128, .f32⟩
  | 44 => ⟨S1x256, .f32⟩
  | 45 => ⟨S1x256, .f32⟩
  | 46 => ⟨S1x256, .f32⟩
  | 47 => ⟨S1x256, .f32⟩
  | 48 => ⟨S50000x128, .f32⟩
  | 49 => ⟨S_, .f32⟩
  | 50 => ⟨S128, .f32⟩
  | 51 => ⟨S_, .f32⟩
  | 52 => ⟨S128, .f32⟩
  | 53 => ⟨S128, .f32⟩
  | 54 => ⟨S_, .i32⟩
  | 55 => ⟨S_, .f32⟩
  | 56 => ⟨S128, .f32⟩
  | 57 => ⟨S1x128, .f32⟩
  | 58 => ⟨S_, .f32⟩
  | 59 => ⟨S1x128, .f32⟩
  | 60 => ⟨S1x128, .f32⟩
  | 61 => ⟨S50000x128, .f32⟩
  | 62 => ⟨S50000x128, .f32⟩
  | 63 => ⟨S50000x128, .f32⟩
  | 64 => ⟨S_, .f32⟩
  | 65 => ⟨S_, .f32⟩
  | 66 => ⟨S_, .f32⟩
  | 67 => ⟨S_, .f32⟩
  | 68 => ⟨S128, .f32⟩
  | 69 => ⟨S128, .f32⟩
  | 70 => ⟨S128, .f32⟩
  | 71 => ⟨S_, .f32⟩
  | 72 => ⟨S_, .i1⟩
  | 73 => ⟨S_, .f32⟩
  | 74 => ⟨S_, .f32⟩
  | 75 => ⟨S128, .f32⟩
  | 76 => ⟨S128, .f32⟩
  | 77 => ⟨S1x128, .f32⟩
  | 78 => ⟨S128, .f32⟩
  | 79 => ⟨S1x128, .f32⟩
  | 80 => ⟨S128, .f32⟩
  | 81 => ⟨S1x128, .f32⟩
  | 82 => ⟨S1x128, .f32⟩
  | 83 => ⟨S1x128, .f32⟩
  | 84 => ⟨S1x128, .f32⟩
  | 85 => ⟨S50000x128, .f32⟩
  | 86 => ⟨S_, .i32⟩
  | 87 => ⟨S800000, .i32⟩
  | 88 => ⟨S800000, .i1⟩
  | 89 => ⟨S_, .i32⟩
  | 90 => ⟨S800000, .i32⟩
  | 91 => ⟨S800000, .i32⟩
  | 92 => ⟨S800000, .i32⟩
  | 93 => ⟨S800000x1, .i32⟩
  | 94 => ⟨S800000x128, .f32⟩
  | 95 => ⟨S_, .f32⟩
  | 96 => ⟨S50000x128, .f32⟩
  | 97 => ⟨S800000x1, .i32⟩
  | 98 => ⟨S50000x128, .f32⟩
  | 99 => ⟨S1, .f32⟩
  | 100 => ⟨S_, .f32⟩
  | 101 => ⟨S_, .f32⟩
  | 102 => ⟨S_, .f32⟩
  | 103 => ⟨S50000x128, .f32⟩
  | 104 => ⟨S50000x128, .f32⟩
  | 105 => ⟨S50000x128, .f32⟩
  | 106 => ⟨S1x128x256, .f32⟩
  | 107 => ⟨S128x256, .f32⟩
  | 108 => ⟨S1x256, .f32⟩
  | 109 => ⟨S256, .f32⟩
  | 110 => ⟨S128x256, .bf16⟩
  | 111 => ⟨S1x256, .f32⟩
  | 112 => ⟨S50000x256, .f32⟩
  | 113 => ⟨S_, .f32⟩
  | 114 => ⟨S256, .f32⟩
  | 115 => ⟨S_, .f32⟩
  | 116 => ⟨S256, .f32⟩
  | 117 => ⟨S256, .f32⟩
  | 118 => ⟨S_, .i32⟩
  | 119 => ⟨S_, .f32⟩
  | 120 => ⟨S256, .f32⟩
  | 121 => ⟨S1x256, .f32⟩
  | 122 => ⟨S_, .f32⟩
  | 123 => ⟨S1x256, .f32⟩
  | 124 => ⟨S1x256, .f32⟩
  | 125 => ⟨S50000x256, .f32⟩
  | 126 => ⟨S50000x256, .f32⟩
  | 127 => ⟨S50000x256, .f32⟩
  | _ => ⟨S50000x128, .f32⟩

abbrev hbmTy0_3 (i : Nat) : BufTy := match i % 128 with
  | 0 => ⟨S_, .f32⟩
  | 1 => ⟨S_, .f32⟩
  | 2 => ⟨S_, .f32⟩
  | 3 => ⟨S_, .f32⟩
  | 4 => ⟨S256, .f32⟩
  | 5 => ⟨S256, .f32⟩
  | 6 => ⟨S256, .f32⟩
  | 7 => ⟨S_, .f32⟩
  | 8 => ⟨S_, .i1⟩
  | 9 => ⟨S_, .f32⟩
  | 10 => ⟨S_, .f32⟩
  | 11 => ⟨S256, .f32⟩
  | 12 => ⟨S256, .f32⟩
  | 13 => ⟨S1x256, .f32⟩
  | 14 => ⟨S256, .f32⟩
  | 15 => ⟨S1x256, .f32⟩
  | 16 => ⟨S256, .f32⟩
  | 17 => ⟨S1x256x128, .f32⟩
  | 18 => ⟨S256x128, .f32⟩
  | 19 => ⟨S1x128, .f32⟩
  | 20 => ⟨S128, .f32⟩
  | 21 => ⟨S256x128, .bf16⟩
  | 22 => ⟨S1x128, .f32⟩
  | 23 => ⟨S1x256, .f32⟩
  | 24 => ⟨S1x256, .f32⟩
  | 25 => ⟨S1x256, .f32⟩
  | 26 => ⟨S1x256, .f32⟩
  | 27 => ⟨S50000x128, .f32⟩
  | 28 => ⟨S_, .f32⟩
  | 29 => ⟨S128, .f32⟩
  | 30 => ⟨S_, .f32⟩
  | 31 => ⟨S128, .f32⟩
  | 32 => ⟨S128, .f32⟩
  | 33 => ⟨S_, .i32⟩
  | 34 => ⟨S_, .f32⟩
  | 35 => ⟨S128, .f32⟩
  | 36 => ⟨S1x128, .f32⟩
  | 37 => ⟨S_, .f32⟩
  | 38 => ⟨S1x128, .f32⟩
  | 39 => ⟨S1x128, .f32⟩
  | 40 => ⟨S50000x128, .f32⟩
  | 41 => ⟨S50000x128, .f32⟩
  | 42 => ⟨S50000x128, .f32⟩
  | 43 => ⟨S_, .f32⟩
  | 44 => ⟨S_, .f32⟩
  | 45 => ⟨S_, .f32⟩
  | 46 => ⟨S_, .f32⟩
  | 47 => ⟨S128, .f32⟩
  | 48 => ⟨S128, .f32⟩
  | 49 => ⟨S128, .f32⟩
  | 50 => ⟨S_, .f32⟩
  | 51 => ⟨S_, .i1⟩
  | 52 => ⟨S_, .f32⟩
  | 53 => ⟨S_, .f32⟩
  | 54 => ⟨S128, .f32⟩
  | 55 => ⟨S128, .f32⟩
  | 56 => ⟨S1x128, .f32⟩
  | 57 => ⟨S128, .f32⟩
  | 58 => ⟨S1x128, .f32⟩
  | 59 => ⟨S128, .f32⟩
  | 60 => ⟨S1x128, .f32⟩
  | 61 => ⟨S1x128, .f32⟩
  | 62 => ⟨S1x128, .f32⟩
  | 63 => ⟨S1x128, .f32⟩
  | 64 => ⟨S50000x128, .f32⟩
  | 65 => ⟨S_, .i32⟩
  | 66 => ⟨S800000, .i32⟩
  | 67 => ⟨S800000, .i1⟩
  | 68 => ⟨S_, .i32⟩
  | 69 => ⟨S800000, .i32⟩
  | 70 => ⟨S800000, .i32⟩
  | 71 => ⟨S800000, .i32⟩
  | 72 => ⟨S800000x1, .i32⟩
  | 73 => ⟨S800000x128, .f32⟩
  | 74 => ⟨S_, .f32⟩
  | 75 => ⟨S50000x128, .f32⟩
  | 76 => ⟨S800000x1, .i32⟩
  | 77 => ⟨S50000x128, .f32⟩
  | 78 => ⟨S1, .f32⟩
  | 79 => ⟨S_, .f32⟩
  | 80 => ⟨S_, .f32⟩
  | 81 => ⟨S_, .f32⟩
  | 82 => ⟨S50000x128, .f32⟩
  | 83 => ⟨S50000x128, .f32⟩
  | 84 => ⟨S50000x128, .f32⟩
  | 85 => ⟨S1x128x256, .f32⟩
  | 86 => ⟨S128x256, .f32⟩
  | 87 => ⟨S1x256, .f32⟩
  | 88 => ⟨S256, .f32⟩
  | 89 => ⟨S128x256, .bf16⟩
  | 90 => ⟨S1x256, .f32⟩
  | 91 => ⟨S50000x256, .f32⟩
  | 92 => ⟨S_, .f32⟩
  | 93 => ⟨S256, .f32⟩
  | 94 => ⟨S_, .f32⟩
  | 95 => ⟨S256, .f32⟩
  | 96 => ⟨S256, .f32⟩
  | 97 => ⟨S_, .i32⟩
  | 98 => ⟨S_, .f32⟩
  | 99 => ⟨S256, .f32⟩
  | 100 => ⟨S1x256, .f32⟩
  | 101 => ⟨S_, .f32⟩
  | 102 => ⟨S1x256, .f32⟩
  | 103 => ⟨S1x256, .f32⟩
  | 104 => ⟨S50000x256, .f32⟩
  | 105 => ⟨S50000x256, .f32⟩
  | 106 => ⟨S50000x256, .f32⟩
  | 107 => ⟨S_, .f32⟩
  | 108 => ⟨S_, .f32⟩
  | 109 => ⟨S_, .f32⟩
  | 110 => ⟨S_, .f32⟩
  | 111 => ⟨S256, .f32⟩
  | 112 => ⟨S256, .f32⟩
  | 113 => ⟨S256, .f32⟩
  | 114 => ⟨S_, .f32⟩
  | 115 => ⟨S_, .i1⟩
  | 116 => ⟨S_, .f32⟩
  | 117 => ⟨S_, .f32⟩
  | 118 => ⟨S256, .f32⟩
  | 119 => ⟨S256, .f32⟩
  | 120 => ⟨S1x256, .f32⟩
  | 121 => ⟨S256, .f32⟩
  | 122 => ⟨S1x256, .f32⟩
  | 123 => ⟨S256, .f32⟩
  | 124 => ⟨S1x256x128, .f32⟩
  | 125 => ⟨S256x128, .f32⟩
  | 126 => ⟨S1x128, .f32⟩
  | 127 => ⟨S128, .f32⟩
  | _ => ⟨S50000x128, .f32⟩

abbrev hbmTy0_4 (i : Nat) : BufTy := match i % 128 with
  | 0 => ⟨S256x128, .bf16⟩
  | 1 => ⟨S1x128, .f32⟩
  | 2 => ⟨S1x256, .f32⟩
  | 3 => ⟨S1x256, .f32⟩
  | 4 => ⟨S1x256, .f32⟩
  | 5 => ⟨S1x256, .f32⟩
  | 6 => ⟨S50000x128, .f32⟩
  | 7 => ⟨S128x128, .bf16⟩
  | 8 => ⟨S1x128, .f32⟩
  | 9 => ⟨S50000x128, .f32⟩
  | 10 => ⟨S_, .f32⟩
  | 11 => ⟨S128, .f32⟩
  | 12 => ⟨S_, .f32⟩
  | 13 => ⟨S128, .f32⟩
  | 14 => ⟨S128, .f32⟩
  | 15 => ⟨S_, .i32⟩
  | 16 => ⟨S_, .f32⟩
  | 17 => ⟨S128, .f32⟩
  | 18 => ⟨S1x128, .f32⟩
  | 19 => ⟨S_, .f32⟩
  | 20 => ⟨S1x128, .f32⟩
  | 21 => ⟨S1x128, .f32⟩
  | 22 => ⟨S50000x128, .f32⟩
  | 23 => ⟨S50000x128, .f32⟩
  | 24 => ⟨S50000x128, .f32⟩
  | 25 => ⟨S_, .f32⟩
  | 26 => ⟨S_, .f32⟩
  | 27 => ⟨S_, .f32⟩
  | 28 => ⟨S_, .f32⟩
  | 29 => ⟨S128, .f32⟩
  | 30 => ⟨S128, .f32⟩
  | 31 => ⟨S128, .f32⟩
  | 32 => ⟨S_, .f32⟩
  | 33 => ⟨S_, .i1⟩
  | 34 => ⟨S_, .f32⟩
  | 35 => ⟨S_, .f32⟩
  | 36 => ⟨S128, .f32⟩
  | 37 => ⟨S128, .f32⟩
  | 38 => ⟨S128x41, .bf16⟩
  | 39 => ⟨S1x41, .f32⟩
  | 40 => ⟨S1x128, .f32⟩
  | 41 => ⟨S1x128, .f32⟩
  | 42 => ⟨S1x128, .f32⟩
  | 43 => ⟨S1x128, .f32⟩
  | 44 => ⟨S50000x41, .f32⟩
  | 45 => ⟨S_, .f32⟩
  | 46 => ⟨S50000, .f32⟩
  | 47 => ⟨S_, .f32⟩
  | 48 => ⟨S50000, .f32⟩
  | 49 => ⟨S50000, .f32⟩
  | 50 => ⟨S50000x1, .f32⟩
  | 51 => ⟨S50000x41, .f32⟩
  | 52 => ⟨S50000x41, .f32⟩
  | 53 => ⟨S50000x41, .f32⟩
  | 54 => ⟨S_, .f32⟩
  | 55 => ⟨S50000, .f32⟩
  | 56 => ⟨S50000x1, .f32⟩
  | 57 => ⟨S50000x1, .f32⟩
  | 58 => ⟨S50000x41, .f32⟩
  | 59 => ⟨S50000x41, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x256, .bf16⟩
  | .local _ .vmem, ⟨3, _⟩ => ⟨S1x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S256x128, .bf16⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S128x256, .bf16⟩
  | .local _ .vmem, ⟨27, _⟩ => ⟨S1x256, .f32⟩
  | .local _ .vmem, ⟨28, _⟩ => ⟨S2000x256, .f32⟩
  | .local _ .vmem, ⟨29, _⟩ => ⟨S2000x256, .f32⟩
  | .local _ .vmem, ⟨30, _⟩ => ⟨S2000x256, .f32⟩
  | .local _ .vmem, ⟨31, _⟩ => ⟨S2000x256, .f32⟩
  | .local _ .vmem, ⟨32, _⟩ => ⟨S1x256, .f32⟩
  | .local _ .vmem, ⟨33, _⟩ => ⟨S1x256, .f32⟩
  | .local _ .vmem, ⟨34, _⟩ => ⟨S1x256, .f32⟩
  | .local _ .vmem, ⟨35, _⟩ => ⟨S1x256, .f32⟩
  | .local _ .vmem, ⟨36, _⟩ => ⟨S256x128, .bf16⟩
  | .local _ .vmem, ⟨37, _⟩ => ⟨S1x128, .f32⟩
  | .local _ .vmem, ⟨38, _⟩ => ⟨S2000x128, .f32⟩
  | .local _ .vmem, ⟨39, _⟩ => ⟨S2000x128, .f32⟩
  | .local _ .vmem, ⟨40, _⟩ => ⟨S2000x128, .f32⟩
  | .local _ .vmem, ⟨41, _⟩ => ⟨S2000x128, .f32⟩
  | .local _ .vmem, ⟨42, _⟩ => ⟨S1x128, .f32⟩
  | .local _ .vmem, ⟨43, _⟩ => ⟨S1x128, .f32⟩
  | .local _ .vmem, ⟨44, _⟩ => ⟨S1x128, .f32⟩
  | .local _ .vmem, ⟨45, _⟩ => ⟨S1x128, .f32⟩
  | .local _ .vmem, ⟨46, _⟩ => ⟨S2000x128, .f32⟩
  | .local _ .vmem, ⟨47, _⟩ => ⟨S2000x128, .f32⟩
  | .local _ .vmem, ⟨48, _⟩ => ⟨S2000x128, .f32⟩
  | .local _ .vmem, ⟨49, _⟩ => ⟨S2000x128, .f32⟩
  | .local _ .vmem, ⟨50, _⟩ => ⟨S128x256, .bf16⟩
  | .local _ .vmem, ⟨51, _⟩ => ⟨S1x256, .f32⟩
  | .local _ .vmem, ⟨52, _⟩ => ⟨S2000x256, .f32⟩
  | .local _ .vmem, ⟨53, _⟩ => ⟨S2000x256, .f32⟩
  | .local _ .vmem, ⟨54, _⟩ => ⟨S2000x256, .f32⟩
  | .local _ .vmem, ⟨55, _⟩ => ⟨S2000x256, .f32⟩
  | .local _ .vmem, ⟨56, _⟩ => ⟨S1x256, .f32⟩
  | .local _ .vmem, ⟨57, _⟩ => ⟨S1x256, .f32⟩
  | .local _ .vmem, ⟨58, _⟩ => ⟨S1x256, .f32⟩
  | .local _ .vmem, ⟨59, _⟩ => ⟨S1x256, .f32⟩
  | .local _ .vmem, ⟨60, _⟩ => ⟨S256x128, .bf16⟩
  | .local _ .vmem, ⟨61, _⟩ => ⟨S1x128, .f32⟩
  | .local _ .vmem, ⟨62, _⟩ => ⟨S2000x128, .f32⟩
  | .local _ .vmem, ⟨63, _⟩ => ⟨S2000x128, .f32⟩
  | .local _ .vmem, ⟨64, _⟩ => ⟨S2000x128, .f32⟩
  | .local _ .vmem, ⟨65, _⟩ => ⟨S2000x128, .f32⟩
  | .local _ .vmem, ⟨66, _⟩ => ⟨S1x128, .f32⟩
  | .local _ .vmem, ⟨67, _⟩ => ⟨S1x128, .f32⟩
  | .local _ .vmem, ⟨68, _⟩ => ⟨S1x128, .f32⟩
  | .local _ .vmem, ⟨69, _⟩ => ⟨S1x128, .f32⟩
  | .local _ .vmem, ⟨70, _⟩ => ⟨S2000x128, .f32⟩
  | .local _ .vmem, ⟨71, _⟩ => ⟨S2000x128, .f32⟩
  | .local _ .vmem, ⟨72, _⟩ => ⟨S2000x128, .f32⟩
  | .local _ .vmem, ⟨73, _⟩ => ⟨S2000x128, .f32⟩
  | .local _ .vmem, ⟨74, _⟩ => ⟨S128x256, .bf16⟩
  | .local _ .vmem, ⟨75, _⟩ => ⟨S1x256, .f32⟩
  | .local _ .vmem, ⟨76, _⟩ => ⟨S2000x256, .f32⟩
  | .local _ .vmem, ⟨77, _⟩ => ⟨S2000x256, .f32⟩
  | .local _ .vmem, ⟨78, _⟩ => ⟨S2000x256, .f32⟩
  | .local _ .vmem, ⟨79, _⟩ => ⟨S2000x256, .f32⟩
  | .local _ .vmem, ⟨80, _⟩ => ⟨S1x256, .f32⟩
  | .local _ .vmem, ⟨81, _⟩ => ⟨S1x256, .f32⟩
  | .local _ .vmem, ⟨82, _⟩ => ⟨S1x256, .f32⟩
  | .local _ .vmem, ⟨83, _⟩ => ⟨S1x256, .f32⟩
  | .local _ .vmem, ⟨84, _⟩ => ⟨S256x128, .bf16⟩
  | .local _ .vmem, ⟨85, _⟩ => ⟨S1x128, .f32⟩
  | .local _ .vmem, ⟨86, _⟩ => ⟨S2000x128, .f32⟩
  | .local _ .vmem, ⟨87, _⟩ => ⟨S2000x128, .f32⟩
  | .local _ .vmem, ⟨88, _⟩ => ⟨S2000x128, .f32⟩
  | .local _ .vmem, ⟨89, _⟩ => ⟨S2000x128, .f32⟩
  | .local _ .vmem, ⟨90, _⟩ => ⟨S1x128, .f32⟩
  | .local _ .vmem, ⟨91, _⟩ => ⟨S1x128, .f32⟩
  | .local _ .vmem, ⟨92, _⟩ => ⟨S1x128, .f32⟩
  | .local _ .vmem, ⟨93, _⟩ => ⟨S1x128, .f32⟩
  | .local _ .vmem, ⟨94, _⟩ => ⟨S2000x128, .f32⟩
  | .local _ .vmem, ⟨95, _⟩ => ⟨S2000x128, .f32⟩
  | .local _ .vmem, ⟨96, _⟩ => ⟨S2000x128, .f32⟩
  | .local _ .vmem, ⟨97, _⟩ => ⟨S2000x128, .f32⟩
  | .local _ .vmem, ⟨98, _⟩ => ⟨S128x256, .bf16⟩
  | .local _ .vmem, ⟨99, _⟩ => ⟨S1x256, .f32⟩
  | .local _ .vmem, ⟨100, _⟩ => ⟨S2000x256, .f32⟩
  | .local _ .vmem, ⟨101, _⟩ => ⟨S2000x256, .f32⟩
  | .local _ .vmem, ⟨102, _⟩ => ⟨S2000x256, .f32⟩
  | .local _ .vmem, ⟨103, _⟩ => ⟨S2000x256, .f32⟩
  | .local _ .vmem, ⟨104, _⟩ => ⟨S1x256, .f32⟩
  | .local _ .vmem, ⟨105, _⟩ => ⟨S1x256, .f32⟩
  | .local _ .vmem, ⟨106, _⟩ => ⟨S1x256, .f32⟩
  | .local _ .vmem, ⟨107, _⟩ => ⟨S1x256, .f32⟩
  | .local _ .vmem, ⟨108, _⟩ => ⟨S256x128, .bf16⟩
  | .local _ .vmem, ⟨109, _⟩ => ⟨S1x128, .f32⟩
  | .local _ .vmem, ⟨110, _⟩ => ⟨S2000x128, .f32⟩
  | .local _ .vmem, ⟨111, _⟩ => ⟨S2000x128, .f32⟩
  | .local _ .vmem, ⟨112, _⟩ => ⟨S2000x128, .f32⟩
  | .local _ .vmem, ⟨113, _⟩ => ⟨S2000x128, .f32⟩
  | .local _ .vmem, ⟨114, _⟩ => ⟨S128x128, .bf16⟩
  | .local _ .vmem, ⟨115, _⟩ => ⟨S1x128, .f32⟩
  | .local _ .vmem, ⟨116, _⟩ => ⟨S2000x128, .f32⟩
  | .local _ .vmem, ⟨117, _⟩ => ⟨S2000x128, .f32⟩
  | .local _ .vmem, ⟨118, _⟩ => ⟨S2000x128, .f32⟩
  | .local _ .vmem, ⟨119, _⟩ => ⟨S2000x128, .f32⟩
  | .local _ .vmem, ⟨120, _⟩ => ⟨S1x128, .f32⟩
  | .local _ .vmem, ⟨121, _⟩ => ⟨S1x128, .f32⟩
  | .local _ .vmem, ⟨122, _⟩ => ⟨S1x128, .f32⟩
  | .local _ .vmem, ⟨123, _⟩ => ⟨S1x128, .f32⟩
  | .local _ .vmem, ⟨124, _⟩ => ⟨S128x41, .bf16⟩
  | .local _ .vmem, ⟨125, _⟩ => ⟨S1x41, .f32⟩
  | .local _ .vmem, ⟨126, _⟩ => ⟨S2000x41, .f32⟩
  | .local _ .vmem, ⟨127, _⟩ => ⟨S2000x41, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | .vmem, ⟨118, _⟩ => true
  | .vmem, ⟨119, _⟩ => true
  | .vmem, ⟨120, _⟩ => true
  | .vmem, ⟨121, _⟩ => true
  | .vmem, ⟨122, _⟩ => true
  | .vmem, ⟨123, _⟩ => true
  | .vmem, ⟨124, _⟩ => true
  | .vmem, ⟨125, _⟩ => true
  | .vmem, ⟨126, _⟩ => true
  | .vmem, ⟨127, _⟩ => true
  | _, _ => false

abbrev semScoped : Fin 0 → Bool
  | ⟨_, h⟩ => absurd h (Nat.not_lt_zero _)

abbrev dmaSemScoped : Fin 128 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | ⟨124, _⟩ => true
  | ⟨125, _⟩ => true
  | ⟨126, _⟩ => true
  | ⟨127, _⟩ => true
  | _ => false

abbrev sig : RefSig :=
  ofTc nBuf bufTy 0 128 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_1 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_2 : Ref sig .tc := ⟨.hbm, 48, rfl⟩
abbrev main_v27 : Ref sig .tc := ⟨.hbm, 49, rfl⟩
abbrev main_cst_3 : Ref sig .tc := ⟨.hbm, 50, rfl⟩
abbrev main_v28 : Ref sig .tc := ⟨.hbm, 51, rfl⟩
abbrev main_v29 : Ref sig .tc := ⟨.hbm, 52, rfl⟩
abbrev main_c_4 : Ref sig .tc := ⟨.hbm, 53, rfl⟩
abbrev main_call0_cst : Ref sig .tc := ⟨.hbm, 54, rfl⟩
abbrev main_call0_v0 : Ref sig .tc := ⟨.hbm, 55, rfl⟩
abbrev main_call0_v1 : Ref sig .tc := ⟨.hbm, 56, rfl⟩
abbrev main_call0_cst_0 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_call0_v5 : Ref sig .tc := ⟨.hbm, 61, rfl⟩
abbrev main_call0_v6 : Ref sig .tc := ⟨.hbm, 62, rfl⟩
abbrev main_call0_v7 : Ref sig .tc := ⟨.hbm, 63, rfl⟩
abbrev main_call0_cst_1 : Ref sig .tc := ⟨.hbm, 64, rfl⟩
abbrev main_call0_v8 : Ref sig .tc := ⟨.hbm, 65, rfl⟩
abbrev main_call0_cst_2 : Ref sig .tc := ⟨.hbm, 66, rfl⟩
abbrev main_call0_v9 : Ref sig .tc := ⟨.hbm, 67, rfl⟩
abbrev main_call0_v10 : Ref sig .tc := ⟨.hbm, 68, rfl⟩
abbrev main_call0_v11 : Ref sig .tc := ⟨.hbm, 69, rfl⟩
abbrev main_call0_cst_3 : Ref sig .tc := ⟨.hbm, 70, rfl⟩
abbrev main_call0_v12 : Ref sig .tc := ⟨.hbm, 71, rfl⟩
abbrev main_call0_cst_4 : Ref sig .tc := ⟨.hbm, 72, rfl⟩
abbrev main_call0_call0_v0 : Ref sig .tc := ⟨.hbm, 73, rfl⟩
abbrev main_call0_call0_v1 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_cst_5 : Ref sig .tc := ⟨.hbm, 91, rfl⟩
abbrev main_v46 : Ref sig .tc := ⟨.hbm, 92, rfl⟩
abbrev main_cst_6 : Ref sig .tc := ⟨.hbm, 93, rfl⟩
abbrev main_v47 : Ref sig .tc := ⟨.hbm, 94, rfl⟩
abbrev main_v48 : Ref sig .tc := ⟨.hbm, 95, rfl⟩
abbrev main_c_7 : Ref sig .tc := ⟨.hbm, 96, rfl⟩
abbrev main_call1_cst : Ref sig .tc := ⟨.hbm, 97, rfl⟩
abbrev main_call1_v0 : Ref sig .tc := ⟨.hbm, 98, rfl⟩
abbrev main_call1_v1 : Ref sig .tc := ⟨.hbm, 99, rfl⟩
abbrev main_call1_cst_0 : Ref sig .tc := ⟨.hbm, 100, rfl⟩
abbrev main_call1_v2 : Ref sig .tc := ⟨.hbm, 101, rfl⟩
abbrev main_call1_v3 : Ref sig .tc := ⟨.hbm, 102, rfl⟩
abbrev main_call1_v4 : Ref sig .tc := ⟨.hbm, 103, rfl⟩
abbrev main_call1_v5 : Ref sig .tc := ⟨.hbm, 104, rfl⟩
abbrev main_call1_v6 : Ref sig .tc := ⟨.hbm, 105, rfl⟩
abbrev main_call1_v7 : Ref sig .tc := ⟨.hbm, 106, rfl⟩
abbrev main_call1_cst_1 : Ref sig .tc := ⟨.hbm, 107, rfl⟩
abbrev main_call1_v8 : Ref sig .tc := ⟨.hbm, 108, rfl⟩
abbrev main_call1_cst_2 : Ref sig .tc := ⟨.hbm, 109, rfl⟩
abbrev main_call1_v9 : Ref sig .tc := ⟨.hbm, 110, rfl⟩
abbrev main_call1_v10 : Ref sig .tc := ⟨.hbm, 111, rfl⟩
abbrev main_call1_v11 : Ref sig .tc := ⟨.hbm, 112, rfl⟩
abbrev main_call1_cst_3 : Ref sig .tc := ⟨.hbm, 113, rfl⟩
abbrev main_call1_v12 : Ref sig .tc := ⟨.hbm, 114, rfl⟩
abbrev main_call1_cst_4 : Ref sig .tc := ⟨.hbm, 115, rfl⟩
abbrev main_call1_call0_v0 : Ref sig .tc := ⟨.hbm, 116, rfl⟩
abbrev main_call1_call0_v1 : Ref sig .tc := ⟨.hbm, 117, rfl⟩
abbrev main_v49 : Ref sig .tc := ⟨.hbm, 118, rfl⟩
abbrev main_v50 : Ref sig .tc := ⟨.hbm, 119, rfl⟩
abbrev main_v51 : Ref sig .tc := ⟨.hbm, 120, rfl⟩
abbrev main_v52 : Ref sig .tc := ⟨.hbm, 121, rfl⟩
abbrev main_v53 : Ref sig .tc := ⟨.hbm, 122, rfl⟩
abbrev main_v54 : Ref sig .tc := ⟨.hbm, 123, rfl⟩
abbrev main_v55 : Ref sig .tc := ⟨.hbm, 124, rfl⟩
abbrev main_v56 : Ref sig .tc := ⟨.hbm, 125, rfl⟩
abbrev main_v57 : Ref sig .tc := ⟨.hbm, 126, rfl⟩
abbrev main_v58 : Ref sig .tc := ⟨.hbm, 127, rfl⟩
abbrev main_c_8 : Ref sig .tc := ⟨.hbm, 128, rfl⟩
abbrev main_v59 : Ref sig .tc := ⟨.hbm, 129, rfl⟩
abbrev main_v60 : Ref sig .tc := ⟨.hbm, 130, rfl⟩
abbrev main_c_9 : Ref sig .tc := ⟨.hbm, 131, rfl⟩
abbrev main_v61 : Ref sig .tc := ⟨.hbm, 132, rfl⟩
abbrev main_v62 : Ref sig .tc := ⟨.hbm, 133, rfl⟩
abbrev main_v63 : Ref sig .tc := ⟨.hbm, 134, rfl⟩
abbrev main_v64 : Ref sig .tc := ⟨.hbm, 135, rfl⟩
abbrev main_v65 : Ref sig .tc := ⟨.hbm, 136, rfl⟩
abbrev main_cst_10 : Ref sig .tc := ⟨.hbm, 137, rfl⟩
abbrev main_v66 : Ref sig .tc := ⟨.hbm, 138, rfl⟩
abbrev main_v67 : Ref sig .tc := ⟨.hbm, 139, rfl⟩
abbrev main_v68 : Ref sig .tc := ⟨.hbm, 140, rfl⟩
abbrev main_v69 : Ref sig .tc := ⟨.hbm, 141, rfl⟩
abbrev main_v70 : Ref sig .tc := ⟨.hbm, 142, rfl⟩
abbrev main_cst_11 : Ref sig .tc := ⟨.hbm, 143, rfl⟩
abbrev main_v71 : Ref sig .tc := ⟨.hbm, 144, rfl⟩
abbrev main_v72 : Ref sig .tc := ⟨.hbm, 145, rfl⟩
abbrev main_v73 : Ref sig .tc := ⟨.hbm, 146, rfl⟩
abbrev main_v74 : Ref sig .tc := ⟨.hbm, 147, rfl⟩
abbrev main_v75 : Ref sig .tc := ⟨.hbm, 148, rfl⟩
abbrev main_v76 : Ref sig .tc := ⟨.hbm, 149, rfl⟩
abbrev main_v77 : Ref sig .tc := ⟨.hbm, 150, rfl⟩
abbrev main_v78 : Ref sig .tc := ⟨.hbm, 151, rfl⟩
abbrev main_v79 : Ref sig .tc := ⟨.hbm, 152, rfl⟩
abbrev main_v80 : Ref sig .tc := ⟨.hbm, 153, rfl⟩
abbrev main_v81 : Ref sig .tc := ⟨.hbm, 154, rfl⟩
abbrev main_cst_12 : Ref sig .tc := ⟨.hbm, 155, rfl⟩
abbrev main_v82 : Ref sig .tc := ⟨.hbm, 156, rfl⟩
abbrev main_cst_13 : Ref sig .tc := ⟨.hbm, 157, rfl⟩
abbrev main_v83 : Ref sig .tc := ⟨.hbm, 158, rfl⟩
abbrev main_v84 : Ref sig .tc := ⟨.hbm, 159, rfl⟩
abbrev main_c_14 : Ref sig .tc := ⟨.hbm, 160, rfl⟩
abbrev main_call2_cst : Ref sig .tc := ⟨.hbm, 161, rfl⟩
abbrev main_call2_v0 : Ref sig .tc := ⟨.hbm, 162, rfl⟩
abbrev main_call2_v1 : Ref sig .tc := ⟨.hbm, 163, rfl⟩
abbrev main_call2_cst_0 : Ref sig .tc := ⟨.hbm, 164, rfl⟩
abbrev main_call2_v2 : Ref sig .tc := ⟨.hbm, 165, rfl⟩
abbrev main_call2_v3 : Ref sig .tc := ⟨.hbm, 166, rfl⟩
abbrev main_call2_v4 : Ref sig .tc := ⟨.hbm, 167, rfl⟩
abbrev main_call2_v5 : Ref sig .tc := ⟨.hbm, 168, rfl⟩
abbrev main_call2_v6 : Ref sig .tc := ⟨.hbm, 169, rfl⟩
abbrev main_call2_v7 : Ref sig .tc := ⟨.hbm, 170, rfl⟩
abbrev main_call2_cst_1 : Ref sig .tc := ⟨.hbm, 171, rfl⟩
abbrev main_call2_v8 : Ref sig .tc := ⟨.hbm, 172, rfl⟩
abbrev main_call2_cst_2 : Ref sig .tc := ⟨.hbm, 173, rfl⟩
abbrev main_call2_v9 : Ref sig .tc := ⟨.hbm, 174, rfl⟩
abbrev main_call2_v10 : Ref sig .tc := ⟨.hbm, 175, rfl⟩
abbrev main_call2_v11 : Ref sig .tc := ⟨.hbm, 176, rfl⟩
abbrev main_call2_cst_3 : Ref sig .tc := ⟨.hbm, 177, rfl⟩
abbrev main_call2_v12 : Ref sig .tc := ⟨.hbm, 178, rfl⟩
abbrev main_call2_cst_4 : Ref sig .tc := ⟨.hbm, 179, rfl⟩
abbrev main_call2_call0_v0 : Ref sig .tc := ⟨.hbm, 180, rfl⟩
abbrev main_call2_call0_v1 : Ref sig .tc := ⟨.hbm, 181, rfl⟩
abbrev main_v85 : Ref sig .tc := ⟨.hbm, 182, rfl⟩
abbrev main_v86 : Ref sig .tc := ⟨.hbm, 183, rfl⟩
abbrev main_v87 : Ref sig .tc := ⟨.hbm, 184, rfl⟩
abbrev main_v88 : Ref sig .tc := ⟨.hbm, 185, rfl⟩
abbrev main_v89 : Ref sig .tc := ⟨.hbm, 186, rfl⟩
abbrev main_v90 : Ref sig .tc := ⟨.hbm, 187, rfl⟩
abbrev main_v91 : Ref sig .tc := ⟨.hbm, 188, rfl⟩
abbrev main_v92 : Ref sig .tc := ⟨.hbm, 189, rfl⟩
abbrev main_v93 : Ref sig .tc := ⟨.hbm, 190, rfl⟩
abbrev main_v94 : Ref sig .tc := ⟨.hbm, 191, rfl⟩
abbrev main_v95 : Ref sig .tc := ⟨.hbm, 192, rfl⟩
abbrev main_v96 : Ref sig .tc := ⟨.hbm, 193, rfl⟩
abbrev main_v97 : Ref sig .tc := ⟨.hbm, 194, rfl⟩
abbrev main_v98 : Ref sig .tc := ⟨.hbm, 195, rfl⟩
abbrev main_v99 : Ref sig .tc := ⟨.hbm, 196, rfl⟩
abbrev main_v100 : Ref sig .tc := ⟨.hbm, 197, rfl⟩
abbrev main_cst_15 : Ref sig .tc := ⟨.hbm, 198, rfl⟩
abbrev main_v101 : Ref sig .tc := ⟨.hbm, 199, rfl⟩
abbrev main_cst_16 : Ref sig .tc := ⟨.hbm, 200, rfl⟩
abbrev main_v102 : Ref sig .tc := ⟨.hbm, 201, rfl⟩
abbrev main_v103 : Ref sig .tc := ⟨.hbm, 202, rfl⟩
abbrev main_c_17 : Ref sig .tc := ⟨.hbm, 203, rfl⟩
abbrev main_call3_cst : Ref sig .tc := ⟨.hbm, 204, rfl⟩
abbrev main_call3_v0 : Ref sig .tc := ⟨.hbm, 205, rfl⟩
abbrev main_call3_v1 : Ref sig .tc := ⟨.hbm, 206, rfl⟩
abbrev main_call3_cst_0 : Ref sig .tc := ⟨.hbm, 207, rfl⟩
abbrev main_call3_v2 : Ref sig .tc := ⟨.hbm, 208, rfl⟩
abbrev main_call3_v3 : Ref sig .tc := ⟨.hbm, 209, rfl⟩
abbrev main_call3_v4 : Ref sig .tc := ⟨.hbm, 210, rfl⟩
abbrev main_call3_v5 : Ref sig .tc := ⟨.hbm, 211, rfl⟩
abbrev main_call3_v6 : Ref sig .tc := ⟨.hbm, 212, rfl⟩
abbrev main_call3_v7 : Ref sig .tc := ⟨.hbm, 213, rfl⟩
abbrev main_call3_cst_1 : Ref sig .tc := ⟨.hbm, 214, rfl⟩
abbrev main_call3_v8 : Ref sig .tc := ⟨.hbm, 215, rfl⟩
abbrev main_call3_cst_2 : Ref sig .tc := ⟨.hbm, 216, rfl⟩
abbrev main_call3_v9 : Ref sig .tc := ⟨.hbm, 217, rfl⟩
abbrev main_call3_v10 : Ref sig .tc := ⟨.hbm, 218, rfl⟩
abbrev main_call3_v11 : Ref sig .tc := ⟨.hbm, 219, rfl⟩
abbrev main_call3_cst_3 : Ref sig .tc := ⟨.hbm, 220, rfl⟩
abbrev main_call3_v12 : Ref sig .tc := ⟨.hbm, 221, rfl⟩
abbrev main_call3_cst_4 : Ref sig .tc := ⟨.hbm, 222, rfl⟩
abbrev main_call3_call0_v0 : Ref sig .tc := ⟨.hbm, 223, rfl⟩
abbrev main_call3_call0_v1 : Ref sig .tc := ⟨.hbm, 224, rfl⟩
abbrev main_v104 : Ref sig .tc := ⟨.hbm, 225, rfl⟩
abbrev main_v105 : Ref sig .tc := ⟨.hbm, 226, rfl⟩
abbrev main_v106 : Ref sig .tc := ⟨.hbm, 227, rfl⟩
abbrev main_v107 : Ref sig .tc := ⟨.hbm, 228, rfl⟩
abbrev main_v108 : Ref sig .tc := ⟨.hbm, 229, rfl⟩
abbrev main_v109 : Ref sig .tc := ⟨.hbm, 230, rfl⟩
abbrev main_v110 : Ref sig .tc := ⟨.hbm, 231, rfl⟩
abbrev main_v111 : Ref sig .tc := ⟨.hbm, 232, rfl⟩
abbrev main_v112 : Ref sig .tc := ⟨.hbm, 233, rfl⟩
abbrev main_v113 : Ref sig .tc := ⟨.hbm, 234, rfl⟩
abbrev main_c_18 : Ref sig .tc := ⟨.hbm, 235, rfl⟩
abbrev main_v114 : Ref sig .tc := ⟨.hbm, 236, rfl⟩
abbrev main_v115 : Ref sig .tc := ⟨.hbm, 237, rfl⟩
abbrev main_c_19 : Ref sig .tc := ⟨.hbm, 238, rfl⟩
abbrev main_v116 : Ref sig .tc := ⟨.hbm, 239, rfl⟩
abbrev main_v117 : Ref sig .tc := ⟨.hbm, 240, rfl⟩
abbrev main_v118 : Ref sig .tc := ⟨.hbm, 241, rfl⟩
abbrev main_v119 : Ref sig .tc := ⟨.hbm, 242, rfl⟩
abbrev main_v120 : Ref sig .tc := ⟨.hbm, 243, rfl⟩
abbrev main_cst_20 : Ref sig .tc := ⟨.hbm, 244, rfl⟩
abbrev main_v121 : Ref sig .tc := ⟨.hbm, 245, rfl⟩
abbrev main_v122 : Ref sig .tc := ⟨.hbm, 246, rfl⟩
abbrev main_v123 : Ref sig .tc := ⟨.hbm, 247, rfl⟩
abbrev main_v124 : Ref sig .tc := ⟨.hbm, 248, rfl⟩
abbrev main_v125 : Ref sig .tc := ⟨.hbm, 249, rfl⟩
abbrev main_cst_21 : Ref sig .tc := ⟨.hbm, 250, rfl⟩
abbrev main_v126 : Ref sig .tc := ⟨.hbm, 251, rfl⟩
abbrev main_v127 : Ref sig .tc := ⟨.hbm, 252, rfl⟩
abbrev main_v128 : Ref sig .tc := ⟨.hbm, 253, rfl⟩
abbrev main_v129 : Ref sig .tc := ⟨.hbm, 254, rfl⟩
abbrev main_v130 : Ref sig .tc := ⟨.hbm, 255, rfl⟩
abbrev main_v131 : Ref sig .tc := ⟨.hbm, 256, rfl⟩
abbrev main_v132 : Ref sig .tc := ⟨.hbm, 257, rfl⟩
abbrev main_v133 : Ref sig .tc := ⟨.hbm, 258, rfl⟩
abbrev main_v134 : Ref sig .tc := ⟨.hbm, 259, rfl⟩
abbrev main_v135 : Ref sig .tc := ⟨.hbm, 260, rfl⟩
abbrev main_v136 : Ref sig .tc := ⟨.hbm, 261, rfl⟩
abbrev main_cst_22 : Ref sig .tc := ⟨.hbm, 262, rfl⟩
abbrev main_v137 : Ref sig .tc := ⟨.hbm, 263, rfl⟩
abbrev main_cst_23 : Ref sig .tc := ⟨.hbm, 264, rfl⟩
abbrev main_v138 : Ref sig .tc := ⟨.hbm, 265, rfl⟩
abbrev main_v139 : Ref sig .tc := ⟨.hbm, 266, rfl⟩
abbrev main_c_24 : Ref sig .tc := ⟨.hbm, 267, rfl⟩
abbrev main_call4_cst : Ref sig .tc := ⟨.hbm, 268, rfl⟩
abbrev main_call4_v0 : Ref sig .tc := ⟨.hbm, 269, rfl⟩
abbrev main_call4_v1 : Ref sig .tc := ⟨.hbm, 270, rfl⟩
abbrev main_call4_cst_0 : Ref sig .tc := ⟨.hbm, 271, rfl⟩
abbrev main_call4_v2 : Ref sig .tc := ⟨.hbm, 272, rfl⟩
abbrev main_call4_v3 : Ref sig .tc := ⟨.hbm, 273, rfl⟩
abbrev main_call4_v4 : Ref sig .tc := ⟨.hbm, 274, rfl⟩
abbrev main_call4_v5 : Ref sig .tc := ⟨.hbm, 275, rfl⟩
abbrev main_call4_v6 : Ref sig .tc := ⟨.hbm, 276, rfl⟩
abbrev main_call4_v7 : Ref sig .tc := ⟨.hbm, 277, rfl⟩
abbrev main_call4_cst_1 : Ref sig .tc := ⟨.hbm, 278, rfl⟩
abbrev main_call4_v8 : Ref sig .tc := ⟨.hbm, 279, rfl⟩
abbrev main_call4_cst_2 : Ref sig .tc := ⟨.hbm, 280, rfl⟩
abbrev main_call4_v9 : Ref sig .tc := ⟨.hbm, 281, rfl⟩
abbrev main_call4_v10 : Ref sig .tc := ⟨.hbm, 282, rfl⟩
abbrev main_call4_v11 : Ref sig .tc := ⟨.hbm, 283, rfl⟩
abbrev main_call4_cst_3 : Ref sig .tc := ⟨.hbm, 284, rfl⟩
abbrev main_call4_v12 : Ref sig .tc := ⟨.hbm, 285, rfl⟩
abbrev main_call4_cst_4 : Ref sig .tc := ⟨.hbm, 286, rfl⟩
abbrev main_call4_call0_v0 : Ref sig .tc := ⟨.hbm, 287, rfl⟩
abbrev main_call4_call0_v1 : Ref sig .tc := ⟨.hbm, 288, rfl⟩
abbrev main_v140 : Ref sig .tc := ⟨.hbm, 289, rfl⟩
abbrev main_v141 : Ref sig .tc := ⟨.hbm, 290, rfl⟩
abbrev main_v142 : Ref sig .tc := ⟨.hbm, 291, rfl⟩
abbrev main_v143 : Ref sig .tc := ⟨.hbm, 292, rfl⟩
abbrev main_v144 : Ref sig .tc := ⟨.hbm, 293, rfl⟩
abbrev main_v145 : Ref sig .tc := ⟨.hbm, 294, rfl⟩
abbrev main_v146 : Ref sig .tc := ⟨.hbm, 295, rfl⟩
abbrev main_v147 : Ref sig .tc := ⟨.hbm, 296, rfl⟩
abbrev main_v148 : Ref sig .tc := ⟨.hbm, 297, rfl⟩
abbrev main_v149 : Ref sig .tc := ⟨.hbm, 298, rfl⟩
abbrev main_v150 : Ref sig .tc := ⟨.hbm, 299, rfl⟩
abbrev main_v151 : Ref sig .tc := ⟨.hbm, 300, rfl⟩
abbrev main_v152 : Ref sig .tc := ⟨.hbm, 301, rfl⟩
abbrev main_v153 : Ref sig .tc := ⟨.hbm, 302, rfl⟩
abbrev main_v154 : Ref sig .tc := ⟨.hbm, 303, rfl⟩
abbrev main_v155 : Ref sig .tc := ⟨.hbm, 304, rfl⟩
abbrev main_cst_25 : Ref sig .tc := ⟨.hbm, 305, rfl⟩
abbrev main_v156 : Ref sig .tc := ⟨.hbm, 306, rfl⟩
abbrev main_cst_26 : Ref sig .tc := ⟨.hbm, 307, rfl⟩
abbrev main_v157 : Ref sig .tc := ⟨.hbm, 308, rfl⟩
abbrev main_v158 : Ref sig .tc := ⟨.hbm, 309, rfl⟩
abbrev main_c_27 : Ref sig .tc := ⟨.hbm, 310, rfl⟩
abbrev main_call5_cst : Ref sig .tc := ⟨.hbm, 311, rfl⟩
abbrev main_call5_v0 : Ref sig .tc := ⟨.hbm, 312, rfl⟩
abbrev main_call5_v1 : Ref sig .tc := ⟨.hbm, 313, rfl⟩
abbrev main_call5_cst_0 : Ref sig .tc := ⟨.hbm, 314, rfl⟩
abbrev main_call5_v2 : Ref sig .tc := ⟨.hbm, 315, rfl⟩
abbrev main_call5_v3 : Ref sig .tc := ⟨.hbm, 316, rfl⟩
abbrev main_call5_v4 : Ref sig .tc := ⟨.hbm, 317, rfl⟩
abbrev main_call5_v5 : Ref sig .tc := ⟨.hbm, 318, rfl⟩
abbrev main_call5_v6 : Ref sig .tc := ⟨.hbm, 319, rfl⟩
abbrev main_call5_v7 : Ref sig .tc := ⟨.hbm, 320, rfl⟩
abbrev main_call5_cst_1 : Ref sig .tc := ⟨.hbm, 321, rfl⟩
abbrev main_call5_v8 : Ref sig .tc := ⟨.hbm, 322, rfl⟩
abbrev main_call5_cst_2 : Ref sig .tc := ⟨.hbm, 323, rfl⟩
abbrev main_call5_v9 : Ref sig .tc := ⟨.hbm, 324, rfl⟩
abbrev main_call5_v10 : Ref sig .tc := ⟨.hbm, 325, rfl⟩
abbrev main_call5_v11 : Ref sig .tc := ⟨.hbm, 326, rfl⟩
abbrev main_call5_cst_3 : Ref sig .tc := ⟨.hbm, 327, rfl⟩
abbrev main_call5_v12 : Ref sig .tc := ⟨.hbm, 328, rfl⟩
abbrev main_call5_cst_4 : Ref sig .tc := ⟨.hbm, 329, rfl⟩
abbrev main_call5_call0_v0 : Ref sig .tc := ⟨.hbm, 330, rfl⟩
abbrev main_call5_call0_v1 : Ref sig .tc := ⟨.hbm, 331, rfl⟩
abbrev main_v159 : Ref sig .tc := ⟨.hbm, 332, rfl⟩
abbrev main_v160 : Ref sig .tc := ⟨.hbm, 333, rfl⟩
abbrev main_v161 : Ref sig .tc := ⟨.hbm, 334, rfl⟩
abbrev main_v162 : Ref sig .tc := ⟨.hbm, 335, rfl⟩
abbrev main_v163 : Ref sig .tc := ⟨.hbm, 336, rfl⟩
abbrev main_v164 : Ref sig .tc := ⟨.hbm, 337, rfl⟩
abbrev main_v165 : Ref sig .tc := ⟨.hbm, 338, rfl⟩
abbrev main_v166 : Ref sig .tc := ⟨.hbm, 339, rfl⟩
abbrev main_v167 : Ref sig .tc := ⟨.hbm, 340, rfl⟩
abbrev main_v168 : Ref sig .tc := ⟨.hbm, 341, rfl⟩
abbrev main_c_28 : Ref sig .tc := ⟨.hbm, 342, rfl⟩
abbrev main_v169 : Ref sig .tc := ⟨.hbm, 343, rfl⟩
abbrev main_v170 : Ref sig .tc := ⟨.hbm, 344, rfl⟩
abbrev main_c_29 : Ref sig .tc := ⟨.hbm, 345, rfl⟩
abbrev main_v171 : Ref sig .tc := ⟨.hbm, 346, rfl⟩
abbrev main_v172 : Ref sig .tc := ⟨.hbm, 347, rfl⟩
abbrev main_v173 : Ref sig .tc := ⟨.hbm, 348, rfl⟩
abbrev main_v174 : Ref sig .tc := ⟨.hbm, 349, rfl⟩
abbrev main_v175 : Ref sig .tc := ⟨.hbm, 350, rfl⟩
abbrev main_cst_30 : Ref sig .tc := ⟨.hbm, 351, rfl⟩
abbrev main_v176 : Ref sig .tc := ⟨.hbm, 352, rfl⟩
abbrev main_v177 : Ref sig .tc := ⟨.hbm, 353, rfl⟩
abbrev main_v178 : Ref sig .tc := ⟨.hbm, 354, rfl⟩
abbrev main_v179 : Ref sig .tc := ⟨.hbm, 355, rfl⟩
abbrev main_v180 : Ref sig .tc := ⟨.hbm, 356, rfl⟩
abbrev main_cst_31 : Ref sig .tc := ⟨.hbm, 357, rfl⟩
abbrev main_v181 : Ref sig .tc := ⟨.hbm, 358, rfl⟩
abbrev main_v182 : Ref sig .tc := ⟨.hbm, 359, rfl⟩
abbrev main_v183 : Ref sig .tc := ⟨.hbm, 360, rfl⟩
abbrev main_v184 : Ref sig .tc := ⟨.hbm, 361, rfl⟩
abbrev main_v185 : Ref sig .tc := ⟨.hbm, 362, rfl⟩
abbrev main_v186 : Ref sig .tc := ⟨.hbm, 363, rfl⟩
abbrev main_v187 : Ref sig .tc := ⟨.hbm, 364, rfl⟩
abbrev main_v188 : Ref sig .tc := ⟨.hbm, 365, rfl⟩
abbrev main_v189 : Ref sig .tc := ⟨.hbm, 366, rfl⟩
abbrev main_v190 : Ref sig .tc := ⟨.hbm, 367, rfl⟩
abbrev main_v191 : Ref sig .tc := ⟨.hbm, 368, rfl⟩
abbrev main_cst_32 : Ref sig .tc := ⟨.hbm, 369, rfl⟩
abbrev main_v192 : Ref sig .tc := ⟨.hbm, 370, rfl⟩
abbrev main_cst_33 : Ref sig .tc := ⟨.hbm, 371, rfl⟩
abbrev main_v193 : Ref sig .tc := ⟨.hbm, 372, rfl⟩
abbrev main_v194 : Ref sig .tc := ⟨.hbm, 373, rfl⟩
abbrev main_c_34 : Ref sig .tc := ⟨.hbm, 374, rfl⟩
abbrev main_call6_cst : Ref sig .tc := ⟨.hbm, 375, rfl⟩
abbrev main_call6_v0 : Ref sig .tc := ⟨.hbm, 376, rfl⟩
abbrev main_call6_v1 : Ref sig .tc := ⟨.hbm, 377, rfl⟩
abbrev main_call6_cst_0 : Ref sig .tc := ⟨.hbm, 378, rfl⟩
abbrev main_call6_v2 : Ref sig .tc := ⟨.hbm, 379, rfl⟩
abbrev main_call6_v3 : Ref sig .tc := ⟨.hbm, 380, rfl⟩
abbrev main_call6_v4 : Ref sig .tc := ⟨.hbm, 381, rfl⟩
abbrev main_call6_v5 : Ref sig .tc := ⟨.hbm, 382, rfl⟩
abbrev main_call6_v6 : Ref sig .tc := ⟨.hbm, 383, rfl⟩
abbrev main_call6_v7 : Ref sig .tc := ⟨.hbm, 384, rfl⟩
abbrev main_call6_cst_1 : Ref sig .tc := ⟨.hbm, 385, rfl⟩
abbrev main_call6_v8 : Ref sig .tc := ⟨.hbm, 386, rfl⟩
abbrev main_call6_cst_2 : Ref sig .tc := ⟨.hbm, 387, rfl⟩
abbrev main_call6_v9 : Ref sig .tc := ⟨.hbm, 388, rfl⟩
abbrev main_call6_v10 : Ref sig .tc := ⟨.hbm, 389, rfl⟩
abbrev main_call6_v11 : Ref sig .tc := ⟨.hbm, 390, rfl⟩
abbrev main_call6_cst_3 : Ref sig .tc := ⟨.hbm, 391, rfl⟩
abbrev main_call6_v12 : Ref sig .tc := ⟨.hbm, 392, rfl⟩
abbrev main_call6_cst_4 : Ref sig .tc := ⟨.hbm, 393, rfl⟩
abbrev main_call6_call0_v0 : Ref sig .tc := ⟨.hbm, 394, rfl⟩
abbrev main_call6_call0_v1 : Ref sig .tc := ⟨.hbm, 395, rfl⟩
abbrev main_v195 : Ref sig .tc := ⟨.hbm, 396, rfl⟩
abbrev main_v196 : Ref sig .tc := ⟨.hbm, 397, rfl⟩
abbrev main_v197 : Ref sig .tc := ⟨.hbm, 398, rfl⟩
abbrev main_v198 : Ref sig .tc := ⟨.hbm, 399, rfl⟩
abbrev main_v199 : Ref sig .tc := ⟨.hbm, 400, rfl⟩
abbrev main_v200 : Ref sig .tc := ⟨.hbm, 401, rfl⟩
abbrev main_v201 : Ref sig .tc := ⟨.hbm, 402, rfl⟩
abbrev main_v202 : Ref sig .tc := ⟨.hbm, 403, rfl⟩
abbrev main_v203 : Ref sig .tc := ⟨.hbm, 404, rfl⟩
abbrev main_v204 : Ref sig .tc := ⟨.hbm, 405, rfl⟩
abbrev main_v205 : Ref sig .tc := ⟨.hbm, 406, rfl⟩
abbrev main_v206 : Ref sig .tc := ⟨.hbm, 407, rfl⟩
abbrev main_v207 : Ref sig .tc := ⟨.hbm, 408, rfl⟩
abbrev main_v208 : Ref sig .tc := ⟨.hbm, 409, rfl⟩
abbrev main_v209 : Ref sig .tc := ⟨.hbm, 410, rfl⟩
abbrev main_v210 : Ref sig .tc := ⟨.hbm, 411, rfl⟩
abbrev main_cst_35 : Ref sig .tc := ⟨.hbm, 412, rfl⟩
abbrev main_v211 : Ref sig .tc := ⟨.hbm, 413, rfl⟩
abbrev main_cst_36 : Ref sig .tc := ⟨.hbm, 414, rfl⟩
abbrev main_v212 : Ref sig .tc := ⟨.hbm, 415, rfl⟩
abbrev main_v213 : Ref sig .tc := ⟨.hbm, 416, rfl⟩
abbrev main_c_37 : Ref sig .tc := ⟨.hbm, 417, rfl⟩
abbrev main_call7_cst : Ref sig .tc := ⟨.hbm, 418, rfl⟩
abbrev main_call7_v0 : Ref sig .tc := ⟨.hbm, 419, rfl⟩
abbrev main_call7_v1 : Ref sig .tc := ⟨.hbm, 420, rfl⟩
abbrev main_call7_cst_0 : Ref sig .tc := ⟨.hbm, 421, rfl⟩
abbrev main_call7_v2 : Ref sig .tc := ⟨.hbm, 422, rfl⟩
abbrev main_call7_v3 : Ref sig .tc := ⟨.hbm, 423, rfl⟩
abbrev main_call7_v4 : Ref sig .tc := ⟨.hbm, 424, rfl⟩
abbrev main_call7_v5 : Ref sig .tc := ⟨.hbm, 425, rfl⟩
abbrev main_call7_v6 : Ref sig .tc := ⟨.hbm, 426, rfl⟩
abbrev main_call7_v7 : Ref sig .tc := ⟨.hbm, 427, rfl⟩
abbrev main_call7_cst_1 : Ref sig .tc := ⟨.hbm, 428, rfl⟩
abbrev main_call7_v8 : Ref sig .tc := ⟨.hbm, 429, rfl⟩
abbrev main_call7_cst_2 : Ref sig .tc := ⟨.hbm, 430, rfl⟩
abbrev main_call7_v9 : Ref sig .tc := ⟨.hbm, 431, rfl⟩
abbrev main_call7_v10 : Ref sig .tc := ⟨.hbm, 432, rfl⟩
abbrev main_call7_v11 : Ref sig .tc := ⟨.hbm, 433, rfl⟩
abbrev main_call7_cst_3 : Ref sig .tc := ⟨.hbm, 434, rfl⟩
abbrev main_call7_v12 : Ref sig .tc := ⟨.hbm, 435, rfl⟩
abbrev main_call7_cst_4 : Ref sig .tc := ⟨.hbm, 436, rfl⟩
abbrev main_call7_call0_v0 : Ref sig .tc := ⟨.hbm, 437, rfl⟩
abbrev main_call7_call0_v1 : Ref sig .tc := ⟨.hbm, 438, rfl⟩
abbrev main_v214 : Ref sig .tc := ⟨.hbm, 439, rfl⟩
abbrev main_v215 : Ref sig .tc := ⟨.hbm, 440, rfl⟩
abbrev main_v216 : Ref sig .tc := ⟨.hbm, 441, rfl⟩
abbrev main_v217 : Ref sig .tc := ⟨.hbm, 442, rfl⟩
abbrev main_v218 : Ref sig .tc := ⟨.hbm, 443, rfl⟩
abbrev main_v219 : Ref sig .tc := ⟨.hbm, 444, rfl⟩
abbrev main_v220 : Ref sig .tc := ⟨.hbm, 445, rfl⟩
abbrev main_v221 : Ref sig .tc := ⟨.hbm, 446, rfl⟩
abbrev main_v222 : Ref sig .tc := ⟨.hbm, 447, rfl⟩
abbrev main_v223 : Ref sig .tc := ⟨.hbm, 448, rfl⟩
abbrev main_c_38 : Ref sig .tc := ⟨.hbm, 449, rfl⟩
abbrev main_v224 : Ref sig .tc := ⟨.hbm, 450, rfl⟩
abbrev main_v225 : Ref sig .tc := ⟨.hbm, 451, rfl⟩
abbrev main_c_39 : Ref sig .tc := ⟨.hbm, 452, rfl⟩
abbrev main_v226 : Ref sig .tc := ⟨.hbm, 453, rfl⟩
abbrev main_v227 : Ref sig .tc := ⟨.hbm, 454, rfl⟩
abbrev main_v228 : Ref sig .tc := ⟨.hbm, 455, rfl⟩
abbrev main_v229 : Ref sig .tc := ⟨.hbm, 456, rfl⟩
abbrev main_v230 : Ref sig .tc := ⟨.hbm, 457, rfl⟩
abbrev main_cst_40 : Ref sig .tc := ⟨.hbm, 458, rfl⟩
abbrev main_v231 : Ref sig .tc := ⟨.hbm, 459, rfl⟩
abbrev main_v232 : Ref sig .tc := ⟨.hbm, 460, rfl⟩
abbrev main_v233 : Ref sig .tc := ⟨.hbm, 461, rfl⟩
abbrev main_v234 : Ref sig .tc := ⟨.hbm, 462, rfl⟩
abbrev main_v235 : Ref sig .tc := ⟨.hbm, 463, rfl⟩
abbrev main_cst_41 : Ref sig .tc := ⟨.hbm, 464, rfl⟩
abbrev main_v236 : Ref sig .tc := ⟨.hbm, 465, rfl⟩
abbrev main_v237 : Ref sig .tc := ⟨.hbm, 466, rfl⟩
abbrev main_v238 : Ref sig .tc := ⟨.hbm, 467, rfl⟩
abbrev main_v239 : Ref sig .tc := ⟨.hbm, 468, rfl⟩
abbrev main_v240 : Ref sig .tc := ⟨.hbm, 469, rfl⟩
abbrev main_v241 : Ref sig .tc := ⟨.hbm, 470, rfl⟩
abbrev main_v242 : Ref sig .tc := ⟨.hbm, 471, rfl⟩
abbrev main_v243 : Ref sig .tc := ⟨.hbm, 472, rfl⟩
abbrev main_v244 : Ref sig .tc := ⟨.hbm, 473, rfl⟩
abbrev main_v245 : Ref sig .tc := ⟨.hbm, 474, rfl⟩
abbrev main_v246 : Ref sig .tc := ⟨.hbm, 475, rfl⟩
abbrev main_cst_42 : Ref sig .tc := ⟨.hbm, 476, rfl⟩
abbrev main_v247 : Ref sig .tc := ⟨.hbm, 477, rfl⟩
abbrev main_cst_43 : Ref sig .tc := ⟨.hbm, 478, rfl⟩
abbrev main_v248 : Ref sig .tc := ⟨.hbm, 479, rfl⟩
abbrev main_v249 : Ref sig .tc := ⟨.hbm, 480, rfl⟩
abbrev main_c_44 : Ref sig .tc := ⟨.hbm, 481, rfl⟩
abbrev main_call8_cst : Ref sig .tc := ⟨.hbm, 482, rfl⟩
abbrev main_call8_v0 : Ref sig .tc := ⟨.hbm, 483, rfl⟩
abbrev main_call8_v1 : Ref sig .tc := ⟨.hbm, 484, rfl⟩
abbrev main_call8_cst_0 : Ref sig .tc := ⟨.hbm, 485, rfl⟩
abbrev main_call8_v2 : Ref sig .tc := ⟨.hbm, 486, rfl⟩
abbrev main_call8_v3 : Ref sig .tc := ⟨.hbm, 487, rfl⟩
abbrev main_call8_v4 : Ref sig .tc := ⟨.hbm, 488, rfl⟩
abbrev main_call8_v5 : Ref sig .tc := ⟨.hbm, 489, rfl⟩
abbrev main_call8_v6 : Ref sig .tc := ⟨.hbm, 490, rfl⟩
abbrev main_call8_v7 : Ref sig .tc := ⟨.hbm, 491, rfl⟩
abbrev main_call8_cst_1 : Ref sig .tc := ⟨.hbm, 492, rfl⟩
abbrev main_call8_v8 : Ref sig .tc := ⟨.hbm, 493, rfl⟩
abbrev main_call8_cst_2 : Ref sig .tc := ⟨.hbm, 494, rfl⟩
abbrev main_call8_v9 : Ref sig .tc := ⟨.hbm, 495, rfl⟩
abbrev main_call8_v10 : Ref sig .tc := ⟨.hbm, 496, rfl⟩
abbrev main_call8_v11 : Ref sig .tc := ⟨.hbm, 497, rfl⟩
abbrev main_call8_cst_3 : Ref sig .tc := ⟨.hbm, 498, rfl⟩
abbrev main_call8_v12 : Ref sig .tc := ⟨.hbm, 499, rfl⟩
abbrev main_call8_cst_4 : Ref sig .tc := ⟨.hbm, 500, rfl⟩
abbrev main_call8_call0_v0 : Ref sig .tc := ⟨.hbm, 501, rfl⟩
abbrev main_call8_call0_v1 : Ref sig .tc := ⟨.hbm, 502, rfl⟩
abbrev main_v250 : Ref sig .tc := ⟨.hbm, 503, rfl⟩
abbrev main_v251 : Ref sig .tc := ⟨.hbm, 504, rfl⟩
abbrev main_v252 : Ref sig .tc := ⟨.hbm, 505, rfl⟩
abbrev main_v253 : Ref sig .tc := ⟨.hbm, 506, rfl⟩
abbrev main_v254 : Ref sig .tc := ⟨.hbm, 507, rfl⟩
abbrev main_v255 : Ref sig .tc := ⟨.hbm, 508, rfl⟩
abbrev main_v256 : Ref sig .tc := ⟨.hbm, 509, rfl⟩
abbrev main_v257 : Ref sig .tc := ⟨.hbm, 510, rfl⟩
abbrev main_v258 : Ref sig .tc := ⟨.hbm, 511, rfl⟩
abbrev main_v259 : Ref sig .tc := ⟨.hbm, 512, rfl⟩
abbrev main_v260 : Ref sig .tc := ⟨.hbm, 513, rfl⟩
abbrev main_v261 : Ref sig .tc := ⟨.hbm, 514, rfl⟩
abbrev main_v262 : Ref sig .tc := ⟨.hbm, 515, rfl⟩
abbrev main_v263 : Ref sig .tc := ⟨.hbm, 516, rfl⟩
abbrev main_v264 : Ref sig .tc := ⟨.hbm, 517, rfl⟩
abbrev main_v265 : Ref sig .tc := ⟨.hbm, 518, rfl⟩
abbrev main_v266 : Ref sig .tc := ⟨.hbm, 519, rfl⟩
abbrev main_v267 : Ref sig .tc := ⟨.hbm, 520, rfl⟩
abbrev main_v268 : Ref sig .tc := ⟨.hbm, 521, rfl⟩
abbrev main_cst_45 : Ref sig .tc := ⟨.hbm, 522, rfl⟩
abbrev main_v269 : Ref sig .tc := ⟨.hbm, 523, rfl⟩
abbrev main_cst_46 : Ref sig .tc := ⟨.hbm, 524, rfl⟩
abbrev main_v270 : Ref sig .tc := ⟨.hbm, 525, rfl⟩
abbrev main_v271 : Ref sig .tc := ⟨.hbm, 526, rfl⟩
abbrev main_c_47 : Ref sig .tc := ⟨.hbm, 527, rfl⟩
abbrev main_call9_cst : Ref sig .tc := ⟨.hbm, 528, rfl⟩
abbrev main_call9_v0 : Ref sig .tc := ⟨.hbm, 529, rfl⟩
abbrev main_call9_v1 : Ref sig .tc := ⟨.hbm, 530, rfl⟩
abbrev main_call9_cst_0 : Ref sig .tc := ⟨.hbm, 531, rfl⟩
abbrev main_call9_v2 : Ref sig .tc := ⟨.hbm, 532, rfl⟩
abbrev main_call9_v3 : Ref sig .tc := ⟨.hbm, 533, rfl⟩
abbrev main_call9_v4 : Ref sig .tc := ⟨.hbm, 534, rfl⟩
abbrev main_call9_v5 : Ref sig .tc := ⟨.hbm, 535, rfl⟩
abbrev main_call9_v6 : Ref sig .tc := ⟨.hbm, 536, rfl⟩
abbrev main_call9_v7 : Ref sig .tc := ⟨.hbm, 537, rfl⟩
abbrev main_call9_cst_1 : Ref sig .tc := ⟨.hbm, 538, rfl⟩
abbrev main_call9_v8 : Ref sig .tc := ⟨.hbm, 539, rfl⟩
abbrev main_call9_cst_2 : Ref sig .tc := ⟨.hbm, 540, rfl⟩
abbrev main_call9_v9 : Ref sig .tc := ⟨.hbm, 541, rfl⟩
abbrev main_call9_v10 : Ref sig .tc := ⟨.hbm, 542, rfl⟩
abbrev main_call9_v11 : Ref sig .tc := ⟨.hbm, 543, rfl⟩
abbrev main_call9_cst_3 : Ref sig .tc := ⟨.hbm, 544, rfl⟩
abbrev main_call9_v12 : Ref sig .tc := ⟨.hbm, 545, rfl⟩
abbrev main_call9_cst_4 : Ref sig .tc := ⟨.hbm, 546, rfl⟩
abbrev main_call9_call0_v0 : Ref sig .tc := ⟨.hbm, 547, rfl⟩
abbrev main_call9_call0_v1 : Ref sig .tc := ⟨.hbm, 548, rfl⟩
abbrev main_v272 : Ref sig .tc := ⟨.hbm, 549, rfl⟩
abbrev main_v273 : Ref sig .tc := ⟨.hbm, 550, rfl⟩
abbrev main_v274 : Ref sig .tc := ⟨.hbm, 551, rfl⟩
abbrev main_v275 : Ref sig .tc := ⟨.hbm, 552, rfl⟩
abbrev main_v276 : Ref sig .tc := ⟨.hbm, 553, rfl⟩
abbrev main_v277 : Ref sig .tc := ⟨.hbm, 554, rfl⟩
abbrev main_v278 : Ref sig .tc := ⟨.hbm, 555, rfl⟩
abbrev main_v279 : Ref sig .tc := ⟨.hbm, 556, rfl⟩
abbrev main_call10_cst : Ref sig .tc := ⟨.hbm, 557, rfl⟩
abbrev main_call10_v0 : Ref sig .tc := ⟨.hbm, 558, rfl⟩
abbrev main_call10_cst_0 : Ref sig .tc := ⟨.hbm, 559, rfl⟩
abbrev main_call10_v1 : Ref sig .tc := ⟨.hbm, 560, rfl⟩
abbrev main_call10_v2 : Ref sig .tc := ⟨.hbm, 561, rfl⟩
abbrev main_call10_v3 : Ref sig .tc := ⟨.hbm, 562, rfl⟩
abbrev main_call10_v4 : Ref sig .tc := ⟨.hbm, 563, rfl⟩
abbrev main_call10_v5 : Ref sig .tc := ⟨.hbm, 564, rfl⟩
abbrev main_call10_v6 : Ref sig .tc := ⟨.hbm, 565, rfl⟩
abbrev main_call10_cst_1 : Ref sig .tc := ⟨.hbm, 566, rfl⟩
abbrev main_call10_v7 : Ref sig .tc := ⟨.hbm, 567, rfl⟩
abbrev main_call10_v8 : Ref sig .tc := ⟨.hbm, 568, rfl⟩
abbrev main_call10_v9 : Ref sig .tc := ⟨.hbm, 569, rfl⟩
abbrev main_call10_v10 : Ref sig .tc := ⟨.hbm, 570, rfl⟩
abbrev main_v280 : Ref sig .tc := ⟨.hbm, 571, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg7_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg4_0 : Ref sig .tc := ⟨.vmem, 35, rfl⟩
abbrev cc4_stg5_0 : Ref sig .tc := ⟨.vmem, 36, rfl⟩
abbrev cc4_stg6_0 : Ref sig .tc := ⟨.vmem, 37, rfl⟩
abbrev cc4_stg7_0 : Ref sig .tc := ⟨.vmem, 38, rfl⟩
abbrev cc4_stg7_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg2_0 : Ref sig .tc := ⟨.vmem, 43, rfl⟩
abbrev cc5_stg3_0 : Ref sig .tc := ⟨.vmem, 44, rfl⟩
abbrev cc5_stg4_0 : Ref sig .tc := ⟨.vmem, 45, rfl⟩
abbrev cc5_stg5_0 : Ref sig .tc := ⟨.vmem, 46, rfl⟩
abbrev cc5_stg5_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg3_0 : Ref sig .tc := ⟨.vmem, 52, rfl⟩
abbrev cc6_stg3_1 : Ref sig .tc := ⟨.vmem, 53, rfl⟩
abbrev cc7_stg0_0 : Ref sig .tc := ⟨.vmem, 54, rfl⟩
abbrev cc7_stg0_1 : Ref sig .tc := ⟨.vmem, 55, rfl⟩
abbrev cc7_stg1_0 : Ref sig .tc := ⟨.vmem, 56, rfl⟩
abbrev cc7_stg2_0 : Ref sig .tc := ⟨.vmem, 57, rfl⟩
abbrev cc7_stg3_0 : Ref sig .tc := ⟨.vmem, 58, rfl⟩
abbrev cc7_stg4_0 : Ref sig .tc := ⟨.vmem, 59, rfl⟩
abbrev cc7_stg5_0 : Ref sig .tc := ⟨.vmem, 60, rfl⟩
abbrev cc7_stg6_0 : Ref sig .tc := ⟨.vmem, 61, rfl⟩
abbrev cc7_stg7_0 : Ref sig .tc := ⟨.vmem, 62, rfl⟩
abbrev cc7_stg7_1 : Ref sig .tc := ⟨.vmem, 63, rfl⟩
abbrev cc8_stg0_0 : Ref sig .tc := ⟨.vmem, 64, rfl⟩
abbrev cc8_stg0_1 : Ref sig .tc := ⟨.vmem, 65, rfl⟩
abbrev cc8_stg1_0 : Ref sig .tc := ⟨.vmem, 66, rfl⟩
abbrev cc8_stg2_0 : Ref sig .tc := ⟨.vmem, 67, rfl⟩
abbrev cc8_stg3_0 : Ref sig .tc := ⟨.vmem, 68, rfl⟩
abbrev cc8_stg4_0 : Ref sig .tc := ⟨.vmem, 69, rfl⟩
abbrev cc8_stg5_0 : Ref sig .tc := ⟨.vmem, 70, rfl⟩
abbrev cc8_stg5_1 : Ref sig .tc := ⟨.vmem, 71, rfl⟩
abbrev cc9_stg0_0 : Ref sig .tc := ⟨.vmem, 72, rfl⟩
abbrev cc9_stg0_1 : Ref sig .tc := ⟨.vmem, 73, rfl⟩
abbrev cc9_stg1_0 : Ref sig .tc := ⟨.vmem, 74, rfl⟩
abbrev cc9_stg2_0 : Ref sig .tc := ⟨.vmem, 75, rfl⟩
abbrev cc9_stg3_0 : Ref sig .tc := ⟨.vmem, 76, rfl⟩
abbrev cc9_stg3_1 : Ref sig .tc := ⟨.vmem, 77, rfl⟩
abbrev cc10_stg0_0 : Ref sig .tc := ⟨.vmem, 78, rfl⟩
abbrev cc10_stg0_1 : Ref sig .tc := ⟨.vmem, 79, rfl⟩
abbrev cc10_stg1_0 : Ref sig .tc := ⟨.vmem, 80, rfl⟩
abbrev cc10_stg2_0 : Ref sig .tc := ⟨.vmem, 81, rfl⟩
abbrev cc10_stg3_0 : Ref sig .tc := ⟨.vmem, 82, rfl⟩
abbrev cc10_stg4_0 : Ref sig .tc := ⟨.vmem, 83, rfl⟩
abbrev cc10_stg5_0 : Ref sig .tc := ⟨.vmem, 84, rfl⟩
abbrev cc10_stg6_0 : Ref sig .tc := ⟨.vmem, 85, rfl⟩
abbrev cc10_stg7_0 : Ref sig .tc := ⟨.vmem, 86, rfl⟩
abbrev cc10_stg7_1 : Ref sig .tc := ⟨.vmem, 87, rfl⟩
abbrev cc11_stg0_0 : Ref sig .tc := ⟨.vmem, 88, rfl⟩
abbrev cc11_stg0_1 : Ref sig .tc := ⟨.vmem, 89, rfl⟩
abbrev cc11_stg1_0 : Ref sig .tc := ⟨.vmem, 90, rfl⟩
abbrev cc11_stg2_0 : Ref sig .tc := ⟨.vmem, 91, rfl⟩
abbrev cc11_stg3_0 : Ref sig .tc := ⟨.vmem, 92, rfl⟩
abbrev cc11_stg4_0 : Ref sig .tc := ⟨.vmem, 93, rfl⟩
abbrev cc11_stg5_0 : Ref sig .tc := ⟨.vmem, 94, rfl⟩
abbrev cc11_stg5_1 : Ref sig .tc := ⟨.vmem, 95, rfl⟩
abbrev cc12_stg0_0 : Ref sig .tc := ⟨.vmem, 96, rfl⟩
abbrev cc12_stg0_1 : Ref sig .tc := ⟨.vmem, 97, rfl⟩
abbrev cc12_stg1_0 : Ref sig .tc := ⟨.vmem, 98, rfl⟩
abbrev cc12_stg2_0 : Ref sig .tc := ⟨.vmem, 99, rfl⟩
abbrev cc12_stg3_0 : Ref sig .tc := ⟨.vmem, 100, rfl⟩
abbrev cc12_stg3_1 : Ref sig .tc := ⟨.vmem, 101, rfl⟩
abbrev cc13_stg0_0 : Ref sig .tc := ⟨.vmem, 102, rfl⟩
abbrev cc13_stg0_1 : Ref sig .tc := ⟨.vmem, 103, rfl⟩
abbrev cc13_stg1_0 : Ref sig .tc := ⟨.vmem, 104, rfl⟩
abbrev cc13_stg2_0 : Ref sig .tc := ⟨.vmem, 105, rfl⟩
abbrev cc13_stg3_0 : Ref sig .tc := ⟨.vmem, 106, rfl⟩
abbrev cc13_stg4_0 : Ref sig .tc := ⟨.vmem, 107, rfl⟩
abbrev cc13_stg5_0 : Ref sig .tc := ⟨.vmem, 108, rfl⟩
abbrev cc13_stg6_0 : Ref sig .tc := ⟨.vmem, 109, rfl⟩
abbrev cc13_stg7_0 : Ref sig .tc := ⟨.vmem, 110, rfl⟩
abbrev cc13_stg7_1 : Ref sig .tc := ⟨.vmem, 111, rfl⟩
abbrev cc14_stg0_0 : Ref sig .tc := ⟨.vmem, 112, rfl⟩
abbrev cc14_stg0_1 : Ref sig .tc := ⟨.vmem, 113, rfl⟩
abbrev cc14_stg1_0 : Ref sig .tc := ⟨.vmem, 114, rfl⟩
abbrev cc14_stg2_0 : Ref sig .tc := ⟨.vmem, 115, rfl⟩
abbrev cc14_stg3_0 : Ref sig .tc := ⟨.vmem, 116, rfl⟩
abbrev cc14_stg3_1 : Ref sig .tc := ⟨.vmem, 117, rfl⟩
abbrev cc15_stg0_0 : Ref sig .tc := ⟨.vmem, 118, rfl⟩
abbrev cc15_stg0_1 : Ref sig .tc := ⟨.vmem, 119, rfl⟩
abbrev cc15_stg1_0 : Ref sig .tc := ⟨.vmem, 120, rfl⟩
abbrev cc15_stg2_0 : Ref sig .tc := ⟨.vmem, 121, rfl⟩
abbrev cc15_stg3_0 : Ref sig .tc := ⟨.vmem, 122, rfl⟩
abbrev cc15_stg4_0 : Ref sig .tc := ⟨.vmem, 123, rfl⟩
abbrev cc15_stg5_0 : Ref sig .tc := ⟨.vmem, 124, rfl⟩
abbrev cc15_stg6_0 : Ref sig .tc := ⟨.vmem, 125, rfl⟩
abbrev cc15_stg7_0 : Ref sig .tc := ⟨.vmem, 126, rfl⟩
abbrev cc15_stg7_1 : Ref sig .tc := ⟨.vmem, 127, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem7_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem3_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc4_sem4_0 : DmaSem sig := 35
abbrev cc4_sem5_0 : DmaSem sig := 36
abbrev cc4_sem6_0 : DmaSem sig := 37
abbrev cc4_sem7_0 : DmaSem sig := 38
abbrev cc4_sem7_1 : DmaSem sig := 39
abbrev cc5_sem0_0 : DmaSem sig := 40
abbrev cc5_sem0_1 : DmaSem sig := 41
abbrev cc5_sem1_0 : DmaSem sig := 42
abbrev cc5_sem2_0 : DmaSem sig := 43
abbrev cc5_sem3_0 : DmaSem sig := 44
abbrev cc5_sem4_0 : DmaSem sig := 45
abbrev cc5_sem5_0 : DmaSem sig := 46
abbrev cc5_sem5_1 : DmaSem sig := 47
abbrev cc6_sem0_0 : DmaSem sig := 48
abbrev cc6_sem0_1 : DmaSem sig := 49
abbrev cc6_sem1_0 : DmaSem sig := 50
abbrev cc6_sem2_0 : DmaSem sig := 51
abbrev cc6_sem3_0 : DmaSem sig := 52
abbrev cc6_sem3_1 : DmaSem sig := 53
abbrev cc7_sem0_0 : DmaSem sig := 54
abbrev cc7_sem0_1 : DmaSem sig := 55
abbrev cc7_sem1_0 : DmaSem sig := 56
abbrev cc7_sem2_0 : DmaSem sig := 57
abbrev cc7_sem3_0 : DmaSem sig := 58
abbrev cc7_sem4_0 : DmaSem sig := 59
abbrev cc7_sem5_0 : DmaSem sig := 60
abbrev cc7_sem6_0 : DmaSem sig := 61
abbrev cc7_sem7_0 : DmaSem sig := 62
abbrev cc7_sem7_1 : DmaSem sig := 63
abbrev cc8_sem0_0 : DmaSem sig := 64
abbrev cc8_sem0_1 : DmaSem sig := 65
abbrev cc8_sem1_0 : DmaSem sig := 66
abbrev cc8_sem2_0 : DmaSem sig := 67
abbrev cc8_sem3_0 : DmaSem sig := 68
abbrev cc8_sem4_0 : DmaSem sig := 69
abbrev cc8_sem5_0 : DmaSem sig := 70
abbrev cc8_sem5_1 : DmaSem sig := 71
abbrev cc9_sem0_0 : DmaSem sig := 72
abbrev cc9_sem0_1 : DmaSem sig := 73
abbrev cc9_sem1_0 : DmaSem sig := 74
abbrev cc9_sem2_0 : DmaSem sig := 75
abbrev cc9_sem3_0 : DmaSem sig := 76
abbrev cc9_sem3_1 : DmaSem sig := 77
abbrev cc10_sem0_0 : DmaSem sig := 78
abbrev cc10_sem0_1 : DmaSem sig := 79
abbrev cc10_sem1_0 : DmaSem sig := 80
abbrev cc10_sem2_0 : DmaSem sig := 81
abbrev cc10_sem3_0 : DmaSem sig := 82
abbrev cc10_sem4_0 : DmaSem sig := 83
abbrev cc10_sem5_0 : DmaSem sig := 84
abbrev cc10_sem6_0 : DmaSem sig := 85
abbrev cc10_sem7_0 : DmaSem sig := 86
abbrev cc10_sem7_1 : DmaSem sig := 87
abbrev cc11_sem0_0 : DmaSem sig := 88
abbrev cc11_sem0_1 : DmaSem sig := 89
abbrev cc11_sem1_0 : DmaSem sig := 90
abbrev cc11_sem2_0 : DmaSem sig := 91
abbrev cc11_sem3_0 : DmaSem sig := 92
abbrev cc11_sem4_0 : DmaSem sig := 93
abbrev cc11_sem5_0 : DmaSem sig := 94
abbrev cc11_sem5_1 : DmaSem sig := 95
abbrev cc12_sem0_0 : DmaSem sig := 96
abbrev cc12_sem0_1 : DmaSem sig := 97
abbrev cc12_sem1_0 : DmaSem sig := 98
abbrev cc12_sem2_0 : DmaSem sig := 99
abbrev cc12_sem3_0 : DmaSem sig := 100
abbrev cc12_sem3_1 : DmaSem sig := 101
abbrev cc13_sem0_0 : DmaSem sig := 102
abbrev cc13_sem0_1 : DmaSem sig := 103
abbrev cc13_sem1_0 : DmaSem sig := 104
abbrev cc13_sem2_0 : DmaSem sig := 105
abbrev cc13_sem3_0 : DmaSem sig := 106
abbrev cc13_sem4_0 : DmaSem sig := 107
abbrev cc13_sem5_0 : DmaSem sig := 108
abbrev cc13_sem6_0 : DmaSem sig := 109
abbrev cc13_sem7_0 : DmaSem sig := 110
abbrev cc13_sem7_1 : DmaSem sig := 111
abbrev cc14_sem0_0 : DmaSem sig := 112
abbrev cc14_sem0_1 : DmaSem sig := 113
abbrev cc14_sem1_0 : DmaSem sig := 114
abbrev cc14_sem2_0 : DmaSem sig := 115
abbrev cc14_sem3_0 : DmaSem sig := 116
abbrev cc14_sem3_1 : DmaSem sig := 117
abbrev cc15_sem0_0 : DmaSem sig := 118
abbrev cc15_sem0_1 : DmaSem sig := 119
abbrev cc15_sem1_0 : DmaSem sig := 120
abbrev cc15_sem2_0 : DmaSem sig := 121
abbrev cc15_sem3_0 : DmaSem sig := 122
abbrev cc15_sem4_0 : DmaSem sig := 123
abbrev cc15_sem5_0 : DmaSem sig := 124
abbrev cc15_sem6_0 : DmaSem sig := 125
abbrev cc15_sem7_0 : DmaSem sig := 126
abbrev cc15_sem7_1 : DmaSem sig := 127

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x256 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S256x128 .bf16 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S2000x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x256 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2000x256 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x256 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x256 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x256 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S256x128 .bf16 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 2 → Memref sig .tc .vmem S2000x128 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S2000x128 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S128x256 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x256 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S2000x256 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨1, ![25], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_7 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S2000x256 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x256 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x256 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x256 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x256 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S256x128 .bf16 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 1 → Memref sig .tc .vmem S1x128 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev stage10_7 : Fin 2 → Memref sig .tc .vmem S2000x128 .f32 := fun | 0 => Memref.whole cc10_stg7_0 | 1 => Memref.whole cc10_stg7_1 | ⟨_ + 2, h⟩ => absurd h (Nat.not_lt.2 (Nat.le_add_left _ _))
abbrev sem10_7 : Fin 2 → DmaSem sig := fun | 0 => cc10_sem7_0 | 1 => cc10_sem7_1 | ⟨_ + 2, h⟩ => absurd h (Nat.not_lt.2 (Nat.le_add_left _ _))
abbrev reads10_7 : Fin grid10.rank → Bool := ![true]

abbrev grid11 : Pipeline.Grid := ⟨1, ![25], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S2000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x128 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S2000x128 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev grid12 : Pipeline.Grid := ⟨1, ![25], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S2000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S128x256 .bf16 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x256 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 2 → Memref sig .tc .vmem S2000x256 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]

abbrev grid13 : Pipeline.Grid := ⟨1, ![25], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_6 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_7 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S2000x256 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S1x256 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x256 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S1x256 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S1x256 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 1 → Memref sig .tc .vmem S256x128 .bf16 := fun | 0 => Memref.whole cc13_stg5_0 | ⟨_ + 1, h⟩ => absurd h (Nat.not_lt.2 (Nat.le_add_left _ _))
abbrev sem13_5 : Fin 1 → DmaSem sig := fun | 0 => cc13_sem5_0 | ⟨_ + 1, h⟩ => absurd h (Nat.not_lt.2 (Nat.le_add_left _ _))
abbrev reads13_5 : Fin grid13.rank → Bool := ![false]

abbrev stage13_6 : Fin 1 → Memref sig .tc .vmem S1x128 .f32 := fun | 0 => Memref.whole cc13_stg6_0 | ⟨_ + 1, h⟩ => absurd h (Nat.not_lt.2 (Nat.le_add_left _ _))
abbrev sem13_6 : Fin 1 → DmaSem sig := fun | 0 => cc13_sem6_0 | ⟨_ + 1, h⟩ => absurd h (Nat.not_lt.2 (Nat.le_add_left _ _))
abbrev reads13_6 : Fin grid13.rank → Bool := ![false]

abbrev stage13_7 : Fin 2 → Memref sig .tc .vmem S2000x128 .f32 := fun | 0 => Memref.whole cc13_stg7_0 | 1 => Memref.whole cc13_stg7_1 | ⟨_ + 2, h⟩ => absurd h (Nat.not_lt.2 (Nat.le_add_left _ _))
abbrev sem13_7 : Fin 2 → DmaSem sig := fun | 0 => cc13_sem7_0 | 1 => cc13_sem7_1 | ⟨_ + 2, h⟩ => absurd h (Nat.not_lt.2 (Nat.le_add_left _ _))
abbrev reads13_7 : Fin grid13.rank → Bool := ![true]

abbrev grid14 : Pipeline.Grid := ⟨1, ![25], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S2000x128 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S128x128 .bf16 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S1x128 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 2 → Memref sig .tc .vmem S2000x128 .f32 := fun | 0 => Memref.whole cc14_stg3_0 | 1 => Memref.whole cc14_stg3_1 | ⟨_ + 2, h⟩ => absurd h (Nat.not_lt.2 (Nat.le_add_left _ _))
abbrev sem14_3 : Fin 2 → DmaSem sig := fun | 0 => cc14_sem3_0 | 1 => cc14_sem3_1 | ⟨_ + 2, h⟩ => absurd h (Nat.not_lt.2 (Nat.le_add_left _ _))
abbrev reads14_3 : Fin grid14.rank → Bool := ![true]

abbrev grid15 : Pipeline.Grid := ⟨1, ![25], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_4 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_5 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_6 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_7 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S2000x128 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S1x128 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 1 → Memref sig .tc .vmem S1x128 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 1 → Memref sig .tc .vmem S1x128 .f32 := fun | 0 => Memref.whole cc15_stg3_0 | ⟨_ + 1, h⟩ => absurd h (Nat.not_lt.2 (Nat.le_add_left _ _))
abbrev sem15_3 : Fin 1 → DmaSem sig := fun | 0 => cc15_sem3_0 | ⟨_ + 1, h⟩ => absurd h (Nat.not_lt.2 (Nat.le_add_left _ _))
abbrev reads15_3 : Fin grid15.rank → Bool := ![false]

abbrev stage15_4 : Fin 1 → Memref sig .tc .vmem S1x128 .f32 := fun | 0 => Memref.whole cc15_stg4_0 | ⟨_ + 1, h⟩ => absurd h (Nat.not_lt.2 (Nat.le_add_left _ _))
abbrev sem15_4 : Fin 1 → DmaSem sig := fun | 0 => cc15_sem4_0 | ⟨_ + 1, h⟩ => absurd h (Nat.not_lt.2 (Nat.le_add_left _ _))
abbrev reads15_4 : Fin grid15.rank → Bool := ![false]

abbrev stage15_5 : Fin 1 → Memref sig .tc .vmem S128x41 .bf16 := fun | 0 => Memref.whole cc15_stg5_0 | ⟨_ + 1, h⟩ => absurd h (Nat.not_lt.2 (Nat.le_add_left _ _))
abbrev sem15_5 : Fin 1 → DmaSem sig := fun | 0 => cc15_sem5_0 | ⟨_ + 1, h⟩ => absurd h (Nat.not_lt.2 (Nat.le_add_left _ _))
abbrev reads15_5 : Fin grid15.rank → Bool := ![false]

abbrev stage15_6 : Fin 1 → Memref sig .tc .vmem S1x41 .f32 := fun | 0 => Memref.whole cc15_stg6_0 | ⟨_ + 1, h⟩ => absurd h (Nat.not_lt.2 (Nat.le_add_left _ _))
abbrev sem15_6 : Fin 1 → DmaSem sig := fun | 0 => cc15_sem6_0 | ⟨_ + 1, h⟩ => absurd h (Nat.not_lt.2 (Nat.le_add_left _ _))
abbrev reads15_6 : Fin grid15.rank → Bool := ![false]

abbrev stage15_7 : Fin 2 → Memref sig .tc .vmem S2000x41 .f32 := fun | 0 => Memref.whole cc15_stg7_0 | 1 => Memref.whole cc15_stg7_1 | ⟨_ + 2, h⟩ => absurd h (Nat.not_lt.2 (Nat.le_add_left _ _))
abbrev sem15_7 : Fin 2 → DmaSem sig := fun | 0 => cc15_sem7_0 | 1 => cc15_sem7_1 | ⟨_ + 2, h⟩ => absurd h (Nat.not_lt.2 (Nat.le_add_left _ _))
abbrev reads15_7 : Fin grid15.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S5_S1_0 : S5.Slices ![0] S1
  shapeCasts_S1_S_ : S1.ShapeCasts S_
  slices_S5x128x256_S1x128x256_0_0_0 : S5x128x256.Slices ![0, 0, 0] S1x128x256
  shapeCasts_S1x128x256_S128x256 : S1x128x256.ShapeCasts S128x256
  slices_S5x256_S1x256_0_0 : S5x256.Slices ![0, 0] S1x256
  shapeCasts_S1x256_S256 : S1x256.ShapeCasts S256
  bitsLt_bf16_f32 : FTy.bits .bf16 < FTy.bits .f32
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  reducesTo_S50000x256_S256_d0 : S50000x256.ReducesTo [0] S256
  h_S_ : 0 < S_.numel
  bcast_S_S256 : S_.BroadcastsInDim S256 (![] : Fin 0 → Fin S256.rank)
  bcast_S256_S1x256_1 : S256.BroadcastsInDim S1x256 (![1] : Fin 1 → Fin S1x256.rank)
  bcast_S_S1x256 : S_.BroadcastsInDim S1x256 (![] : Fin 0 → Fin S1x256.rank)
  bcast_S1x256_S50000x256_0_1 : S1x256.BroadcastsInDim S50000x256 (![0, 1] : Fin 2 → Fin S50000x256.rank)
  slices_S5x256x128_S1x256x128_0_0_0 : S5x256x128.Slices ![0, 0, 0] S1x256x128
  shapeCasts_S1x256x128_S256x128 : S1x256x128.ShapeCasts S256x128
  slices_S5x128_S1x128_0_0 : S5x128.Slices ![0, 0] S1x128
  shapeCasts_S1x128_S128 : S1x128.ShapeCasts S128
  shapeCasts_S128_S1x128 : S128.ShapeCasts S1x128
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reducesTo_S50000x128_S128_d0 : S50000x128.ReducesTo [0] S128
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  slices_S5_S1_1 : S5.Slices ![1] S1
  slices_S5x128x256_S1x128x256_1_0_0 : S5x128x256.Slices ![1, 0, 0] S1x128x256
  slices_S5x256_S1x256_1_0 : S5x256.Slices ![1, 0] S1x256
  slices_S5x256x128_S1x256x128_1_0_0 : S5x256x128.Slices ![1, 0, 0] S1x256x128
  slices_S5x128_S1x128_1_0 : S5x128.Slices ![1, 0] S1x128
  slices_S5_S1_2 : S5.Slices ![2] S1
  slices_S5x128x256_S1x128x256_2_0_0 : S5x128x256.Slices ![2, 0, 0] S1x128x256
  slices_S5x256_S1x256_2_0 : S5x256.Slices ![2, 0] S1x256
  slices_S5x256x128_S1x256x128_2_0_0 : S5x256x128.Slices ![2, 0, 0] S1x256x128
  slices_S5x128_S1x128_2_0 : S5x128.Slices ![2, 0] S1x128
  slices_S5_S1_3 : S5.Slices ![3] S1
  slices_S5x128x256_S1x128x256_3_0_0 : S5x128x256.Slices ![3, 0, 0] S1x128x256
  slices_S5x256_S1x256_3_0 : S5x256.Slices ![3, 0] S1x256
  slices_S5x256x128_S1x256x128_3_0_0 : S5x256x128.Slices ![3, 0, 0] S1x256x128
  slices_S5x128_S1x128_3_0 : S5x128.Slices ![3, 0] S1x128
  slices_S5_S1_4 : S5.Slices ![4] S1
  slices_S5x128x256_S1x128x256_4_0_0 : S5x128x256.Slices ![4, 0, 0] S1x128x256
  slices_S5x256_S1x256_4_0 : S5x256.Slices ![4, 0] S1x256
  slices_S5x256x128_S1x256x128_4_0_0 : S5x256x128.Slices ![4, 0, 0] S1x256x128
  slices_S5x128_S1x128_4_0 : S5x128.Slices ![4, 0] S1x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S41_S1x41 : S41.ShapeCasts S1x41
  inb_S128x41_S128x41_0_0 : ∀ a, (![0, 0] : Fin 2 → Nat) a + S128x41.size a ≤ S128x41.size a
  h_S128x41 : 0 < S128x41.numel
  shapeCasts_S128x41_S128x41 : S128x41.ShapeCasts S128x41
  inb_S1x41_S1x41_0_0 : ∀ a, (![0, 0] : Fin 2 → Nat) a + S1x41.size a ≤ S1x41.size a
  h_S1x41 : 0 < S1x41.numel
  shapeCasts_S1x41_S1x41 : S1x41.ShapeCasts S1x41
  broadcasts_S1x41_S2000x41 : S1x41.Broadcasts S2000x41
  inb_S2000x41_S2000x41_0_0 : ∀ a, (![0, 0] : Fin 2 → Nat) a + S2000x41.size a ≤ S2000x41.size a
  h_S2000x41 : 0 < S2000x41.numel
  reducesTo_S50000x41_S50000_d1 : S50000x41.ReducesTo [1] S50000
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x41_0_1 : S50000x1.BroadcastsInDim S50000x41 (![0, 1] : Fin 2 → Fin S50000x41.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  dot_S2000x256_S256x128_S2000x128_1_0_0_1_n_n_wf : DotDims.WF S2000x256 S256x128 S2000x128 [1] [0] [0] [1] [] []
  dot_S2000x128_S128x128_S2000x128_1_0_0_1_n_n_wf : DotDims.WF S2000x128 S128x128 S2000x128 [1] [0] [0] [1] [] []
  dot_S2000x128_S128x41_S2000x41_1_0_0_1_n_n_wf : DotDims.WF S2000x128 S128x41 S2000x41 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .bf16 = 32 ∨ (Rect.block (s := S128x256) S128x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x128.size a ≤ S256x128.size a
  hwx1_5 : ∀ i : grid1.Coords, EltTy.bits .bf16 = 32 ∨ (Rect.block (s := S256x128) S256x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S50000x128.size a
  hwx1_7 : ∀ i : grid1.Coords, EltTy.bits .f32 = 32 ∨ (Rect.block (s := S50000x128) S2000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x256.size a ≤ S128x256.size a
  hwx3_1 : ∀ i : grid3.Coords, EltTy.bits .bf16 = 32 ∨ (Rect.block (s := S128x256) S128x256.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x256.size a ≤ S50000x256.size a
  hwx3_3 : ∀ i : grid3.Coords, EltTy.bits .f32 = 32 ∨ (Rect.block (s := S50000x256) S2000x256.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x256.size a ≤ S1x256.size a
  hwx4_1 : ∀ i : grid4.Coords, EltTy.bits .f32 = 32 ∨ (Rect.block (s := S1x256) S1x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S256x128.size a ≤ S256x128.size a
  hwx4_5 : ∀ i : grid4.Coords, EltTy.bits .bf16 = 32 ∨ (Rect.block (s := S256x128) S256x128.size (cc4_transform_5 i) (hinb4_5 i)).WholeWords (EltTy.packing .bf16)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S2000x128.size a ≤ S50000x128.size a
  hwx4_7 : ∀ i : grid4.Coords, EltTy.bits .f32 = 32 ∨ (Rect.block (s := S50000x128) S2000x128.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x128.size a ≤ S50000x128.size a
  hwx5_5 : ∀ i : grid5.Coords, EltTy.bits .f32 = 32 ∨ (Rect.block (s := S50000x128) S2000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x256.size a ≤ S128x256.size a
  hwx6_1 : ∀ i : grid6.Coords, EltTy.bits .bf16 = 32 ∨ (Rect.block (s := S128x256) S128x256.size (cc6_transform_1 i) (hinb6_1 i)).WholeWords (EltTy.packing .bf16)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x256.size a ≤ S1x256.size a
  hwx6_2 : ∀ i : grid6.Coords, EltTy.bits .f32 = 32 ∨ (Rect.block (s := S1x256) S1x256.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x256.size a ≤ S50000x256.size a
  hwx6_3 : ∀ i : grid6.Coords, EltTy.bits .f32 = 32 ∨ (Rect.block (s := S50000x256) S2000x256.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x256.size a ≤ S50000x256.size a
  hwx7_0 : ∀ i : grid7.Coords, EltTy.bits .f32 = 32 ∨ (Rect.block (s := S50000x256) S2000x256.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x256.size a ≤ S1x256.size a
  hwx7_1 : ∀ i : grid7.Coords, EltTy.bits .f32 = 32 ∨ (Rect.block (s := S1x256) S1x256.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x256.size a ≤ S1x256.size a
  hwx7_2 : ∀ i : grid7.Coords, EltTy.bits .f32 = 32 ∨ (Rect.block (s := S1x256) S1x256.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x256.size a ≤ S1x256.size a
  hwx7_3 : ∀ i : grid7.Coords, EltTy.bits .f32 = 32 ∨ (Rect.block (s := S1x256) S1x256.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x256.size a ≤ S1x256.size a
  hwx7_4 : ∀ i : grid7.Coords, EltTy.bits .f32 = 32 ∨ (Rect.block (s := S1x256) S1x256.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S256x128.size a ≤ S256x128.size a
  hwx7_5 : ∀ i : grid7.Coords, EltTy.bits .bf16 = 32 ∨ (Rect.block (s := S256x128) S256x128.size (cc7_transform_5 i) (hinb7_5 i)).WholeWords (EltTy.packing .bf16)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x128.size a ≤ S1x128.size a
  hwx7_6 : ∀ i : grid7.Coords, EltTy.bits .f32 = 32 ∨ (Rect.block (s := S1x128) S1x128.size (cc7_transform_6 i) (hinb7_6 i)).WholeWords (EltTy.packing .f32)
  hstage7_7 : ∀ j, (stage7_7 j).IsWhole
  nbuf7_7 : grid7.bufCount reads7_7 false = 2
  hreads7_7 : ∀ i i' : grid7.Coords, (∀ a, reads7_7 a = true → i a = i' a) → cc7_transform_7 i = cc7_transform_7 i'
  hinb7_7 : ∀ (i : grid7.Coords) a, (cc7_transform_7 i a + 1) * S2000x128.size a ≤ S50000x128.size a
  hwx7_7 : ∀ i : grid7.Coords, EltTy.bits .f32 = 32 ∨ (Rect.block (s := S50000x128) S2000x128.size (cc7_transform_7 i) (hinb7_7 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x128.size a ≤ S50000x128.size a
  hwx8_0 : ∀ i : grid8.Coords, EltTy.bits .f32 = 32 ∨ (Rect.block (s := S50000x128) S2000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S2000x128.size a ≤ S50000x128.size a
  hwx8_5 : ∀ i : grid8.Coords, EltTy.bits .f32 = 32 ∨ (Rect.block (s := S50000x128) S2000x128.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x128.size a ≤ S50000x128.size a
  hwx9_0 : ∀ i : grid9.Coords, EltTy.bits .f32 = 32 ∨ (Rect.block (s := S50000x128) S2000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x256.size a ≤ S128x256.size a
  hwx9_1 : ∀ i : grid9.Coords, EltTy.bits .bf16 = 32 ∨ (Rect.block (s := S128x256) S128x256.size (cc9_transform_1 i) (hinb9_1 i)).WholeWords (EltTy.packing .bf16)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x256.size a ≤ S1x256.size a
  hwx9_2 : ∀ i : grid9.Coords, EltTy.bits .f32 = 32 ∨ (Rect.block (s := S1x256) S1x256.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S2000x256.size a ≤ S50000x256.size a
  hwx9_3 : ∀ i : grid9.Coords, EltTy.bits .f32 = 32 ∨ (Rect.block (s := S50000x256) S2000x256.size (cc9_transform_3 i) (hinb9_3 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x256.size a ≤ S50000x256.size a
  hwx10_0 : ∀ i : grid10.Coords, EltTy.bits .f32 = 32 ∨ (Rect.block (s := S50000x256) S2000x256.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x256.size a ≤ S1x256.size a
  hwx10_1 : ∀ i : grid10.Coords, EltTy.bits .f32 = 32 ∨ (Rect.block (s := S1x256) S1x256.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x256.size a ≤ S1x256.size a
  hwx10_2 : ∀ i : grid10.Coords, EltTy.bits .f32 = 32 ∨ (Rect.block (s := S1x256) S1x256.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x256.size a ≤ S1x256.size a
  hwx10_3 : ∀ i : grid10.Coords, EltTy.bits .f32 = 32 ∨ (Rect.block (s := S1x256) S1x256.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x256.size a ≤ S1x256.size a
  hwx10_4 : ∀ i : grid10.Coords, EltTy.bits .f32 = 32 ∨ (Rect.block (s := S1x256) S1x256.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S256x128.size a ≤ S256x128.size a
  hwx10_5 : ∀ i : grid10.Coords, EltTy.bits .bf16 = 32 ∨ (Rect.block (s := S256x128) S256x128.size (cc10_transform_5 i) (hinb10_5 i)).WholeWords (EltTy.packing .bf16)
  hstage10_6 : ∀ j, (stage10_6 j).IsWhole
  nbuf10_6 : grid10.bufCount reads10_6 true = 1
  hreads10_6 : ∀ i i' : grid10.Coords, (∀ a, reads10_6 a = true → i a = i' a) → cc10_transform_6 i = cc10_transform_6 i'
  hinb10_6 : ∀ (i : grid10.Coords) a, (cc10_transform_6 i a + 1) * S1x128.size a ≤ S1x128.size a
  hwx10_6 : ∀ i : grid10.Coords, EltTy.bits .f32 = 32 ∨ (Rect.block (s := S1x128) S1x128.size (cc10_transform_6 i) (hinb10_6 i)).WholeWords (EltTy.packing .f32)
  hstage10_7 : ∀ j, (stage10_7 j).IsWhole
  nbuf10_7 : grid10.bufCount reads10_7 false = 2
  hreads10_7 : ∀ i i' : grid10.Coords, (∀ a, reads10_7 a = true → i a = i' a) → cc10_transform_7 i = cc10_transform_7 i'
  hinb10_7 : ∀ (i : grid10.Coords) a, (cc10_transform_7 i a + 1) * S2000x128.size a ≤ S50000x128.size a
  hwx10_7 : ∀ i : grid10.Coords, EltTy.bits .f32 = 32 ∨ (Rect.block (s := S50000x128) S2000x128.size (cc10_transform_7 i) (hinb10_7 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S2000x128.size a ≤ S50000x128.size a
  hwx11_0 : ∀ i : grid11.Coords, EltTy.bits .f32 = 32 ∨ (Rect.block (s := S50000x128) S2000x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x128.size a ≤ S1x128.size a
  hwx11_1 : ∀ i : grid11.Coords, EltTy.bits .f32 = 32 ∨ (Rect.block (s := S1x128) S1x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x128.size a ≤ S1x128.size a
  hwx11_2 : ∀ i : grid11.Coords, EltTy.bits .f32 = 32 ∨ (Rect.block (s := S1x128) S1x128.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x128.size a ≤ S1x128.size a
  hwx11_3 : ∀ i : grid11.Coords, EltTy.bits .f32 = 32 ∨ (Rect.block (s := S1x128) S1x128.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x128.size a ≤ S1x128.size a
  hwx11_4 : ∀ i : grid11.Coords, EltTy.bits .f32 = 32 ∨ (Rect.block (s := S1x128) S1x128.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S2000x128.size a ≤ S50000x128.size a
  hwx11_5 : ∀ i : grid11.Coords, EltTy.bits .f32 = 32 ∨ (Rect.block (s := S50000x128) S2000x128.size (cc11_transform_5 i) (hinb11_5 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S2000x128.size a ≤ S50000x128.size a
  hwx12_0 : ∀ i : grid12.Coords, EltTy.bits .f32 = 32 ∨ (Rect.block (s := S50000x128) S2000x128.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S128x256.size a ≤ S128x256.size a
  hwx12_1 : ∀ i : grid12.Coords, EltTy.bits .bf16 = 32 ∨ (Rect.block (s := S128x256) S128x256.size (cc12_transform_1 i) (hinb12_1 i)).WholeWords (EltTy.packing .bf16)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x256.size a ≤ S1x256.size a
  hwx12_2 : ∀ i : grid12.Coords, EltTy.bits .f32 = 32 ∨ (Rect.block (s := S1x256) S1x256.size (cc12_transform_2 i) (hinb12_2 i)).WholeWords (EltTy.packing .f32)
  hstage12_3 : ∀ j, (stage12_3 j).IsWhole
  nbuf12_3 : grid12.bufCount reads12_3 false = 2
  hreads12_3 : ∀ i i' : grid12.Coords, (∀ a, reads12_3 a = true → i a = i' a) → cc12_transform_3 i = cc12_transform_3 i'
  hinb12_3 : ∀ (i : grid12.Coords) a, (cc12_transform_3 i a + 1) * S2000x256.size a ≤ S50000x256.size a
  hwx12_3 : ∀ i : grid12.Coords, EltTy.bits .f32 = 32 ∨ (Rect.block (s := S50000x256) S2000x256.size (cc12_transform_3 i) (hinb12_3 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S2000x256.size a ≤ S50000x256.size a
  hwx13_0 : ∀ i : grid13.Coords, EltTy.bits .f32 = 32 ∨ (Rect.block (s := S50000x256) S2000x256.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S1x256.size a ≤ S1x256.size a
  hwx13_1 : ∀ i : grid13.Coords, EltTy.bits .f32 = 32 ∨ (Rect.block (s := S1x256) S1x256.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x256.size a ≤ S1x256.size a
  hwx13_2 : ∀ i : grid13.Coords, EltTy.bits .f32 = 32 ∨ (Rect.block (s := S1x256) S1x256.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S1x256.size a ≤ S1x256.size a
  hwx13_3 : ∀ i : grid13.Coords, EltTy.bits .f32 = 32 ∨ (Rect.block (s := S1x256) S1x256.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S1x256.size a ≤ S1x256.size a
  hwx13_4 : ∀ i : grid13.Coords, EltTy.bits .f32 = 32 ∨ (Rect.block (s := S1x256) S1x256.size (cc13_transform_4 i) (hinb13_4 i)).WholeWords (EltTy.packing .f32)
  hstage13_5 : ∀ j, (stage13_5 j).IsWhole
  nbuf13_5 : grid13.bufCount reads13_5 true = 1
  hreads13_5 : ∀ i i' : grid13.Coords, (∀ a, reads13_5 a = true → i a = i' a) → cc13_transform_5 i = cc13_transform_5 i'
  hinb13_5 : ∀ (i : grid13.Coords) a, (cc13_transform_5 i a + 1) * S256x128.size a ≤ S256x128.size a
  hwx13_5 : ∀ i : grid13.Coords, EltTy.bits .bf16 = 32 ∨ (Rect.block (s := S256x128) S256x128.size (cc13_transform_5 i) (hinb13_5 i)).WholeWords (EltTy.packing .bf16)
  hstage13_6 : ∀ j, (stage13_6 j).IsWhole
  nbuf13_6 : grid13.bufCount reads13_6 true = 1
  hreads13_6 : ∀ i i' : grid13.Coords, (∀ a, reads13_6 a = true → i a = i' a) → cc13_transform_6 i = cc13_transform_6 i'
  hinb13_6 : ∀ (i : grid13.Coords) a, (cc13_transform_6 i a + 1) * S1x128.size a ≤ S1x128.size a
  hwx13_6 : ∀ i : grid13.Coords, EltTy.bits .f32 = 32 ∨ (Rect.block (s := S1x128) S1x128.size (cc13_transform_6 i) (hinb13_6 i)).WholeWords (EltTy.packing .f32)
  hstage13_7 : ∀ j, (stage13_7 j).IsWhole
  nbuf13_7 : grid13.bufCount reads13_7 false = 2
  hreads13_7 : ∀ i i' : grid13.Coords, (∀ a, reads13_7 a = true → i a = i' a) → cc13_transform_7 i = cc13_transform_7 i'
  hinb13_7 : ∀ (i : grid13.Coords) a, (cc13_transform_7 i a + 1) * S2000x128.size a ≤ S50000x128.size a
  hwx13_7 : ∀ i : grid13.Coords, EltTy.bits .f32 = 32 ∨ (Rect.block (s := S50000x128) S2000x128.size (cc13_transform_7 i) (hinb13_7 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S2000x128.size a ≤ S50000x128.size a
  hwx14_0 : ∀ i : grid14.Coords, EltTy.bits .f32 = 32 ∨ (Rect.block (s := S50000x128) S2000x128.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S128x128.size a ≤ S128x128.size a
  hwx14_1 : ∀ i : grid14.Coords, EltTy.bits .bf16 = 32 ∨ (Rect.block (s := S128x128) S128x128.size (cc14_transform_1 i) (hinb14_1 i)).WholeWords (EltTy.packing .bf16)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x128.size a ≤ S1x128.size a
  hwx14_2 : ∀ i : grid14.Coords, EltTy.bits .f32 = 32 ∨ (Rect.block (s := S1x128) S1x128.size (cc14_transform_2 i) (hinb14_2 i)).WholeWords (EltTy.packing .f32)
  hstage14_3 : ∀ j, (stage14_3 j).IsWhole
  nbuf14_3 : grid14.bufCount reads14_3 false = 2
  hreads14_3 : ∀ i i' : grid14.Coords, (∀ a, reads14_3 a = true → i a = i' a) → cc14_transform_3 i = cc14_transform_3 i'
  hinb14_3 : ∀ (i : grid14.Coords) a, (cc14_transform_3 i a + 1) * S2000x128.size a ≤ S50000x128.size a
  hwx14_3 : ∀ i : grid14.Coords, EltTy.bits .f32 = 32 ∨ (Rect.block (s := S50000x128) S2000x128.size (cc14_transform_3 i) (hinb14_3 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S2000x128.size a ≤ S50000x128.size a
  hwx15_0 : ∀ i : grid15.Coords, EltTy.bits .f32 = 32 ∨ (Rect.block (s := S50000x128) S2000x128.size (cc15_transform_0 i) (hinb15_0 i)).WholeWords (EltTy.packing .f32)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S1x128.size a ≤ S1x128.size a
  hwx15_1 : ∀ i : grid15.Coords, EltTy.bits .f32 = 32 ∨ (Rect.block (s := S1x128) S1x128.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S1x128.size a ≤ S1x128.size a
  hwx15_2 : ∀ i : grid15.Coords, EltTy.bits .f32 = 32 ∨ (Rect.block (s := S1x128) S1x128.size (cc15_transform_2 i) (hinb15_2 i)).WholeWords (EltTy.packing .f32)
  hstage15_3 : ∀ j, (stage15_3 j).IsWhole
  nbuf15_3 : grid15.bufCount reads15_3 true = 1
  hreads15_3 : ∀ i i' : grid15.Coords, (∀ a, reads15_3 a = true → i a = i' a) → cc15_transform_3 i = cc15_transform_3 i'
  hinb15_3 : ∀ (i : grid15.Coords) a, (cc15_transform_3 i a + 1) * S1x128.size a ≤ S1x128.size a
  hwx15_3 : ∀ i : grid15.Coords, EltTy.bits .f32 = 32 ∨ (Rect.block (s := S1x128) S1x128.size (cc15_transform_3 i) (hinb15_3 i)).WholeWords (EltTy.packing .f32)
  hstage15_4 : ∀ j, (stage15_4 j).IsWhole
  nbuf15_4 : grid15.bufCount reads15_4 true = 1
  hreads15_4 : ∀ i i' : grid15.Coords, (∀ a, reads15_4 a = true → i a = i' a) → cc15_transform_4 i = cc15_transform_4 i'
  hinb15_4 : ∀ (i : grid15.Coords) a, (cc15_transform_4 i a + 1) * S1x128.size a ≤ S1x128.size a
  hwx15_4 : ∀ i : grid15.Coords, EltTy.bits .f32 = 32 ∨ (Rect.block (s := S1x128) S1x128.size (cc15_transform_4 i) (hinb15_4 i)).WholeWords (EltTy.packing .f32)
  hstage15_5 : ∀ j, (stage15_5 j).IsWhole
  nbuf15_5 : grid15.bufCount reads15_5 true = 1
  hreads15_5 : ∀ i i' : grid15.Coords, (∀ a, reads15_5 a = true → i a = i' a) → cc15_transform_5 i = cc15_transform_5 i'
  hinb15_5 : ∀ (i : grid15.Coords) a, (cc15_transform_5 i a + 1) * S128x41.size a ≤ S128x41.size a
  hwx15_5 : ∀ i : grid15.Coords, EltTy.bits .bf16 = 32 ∨ (Rect.block (s := S128x41) S128x41.size (cc15_transform_5 i) (hinb15_5 i)).WholeWords (EltTy.packing .bf16)
  hstage15_6 : ∀ j, (stage15_6 j).IsWhole
  nbuf15_6 : grid15.bufCount reads15_6 true = 1
  hreads15_6 : ∀ i i' : grid15.Coords, (∀ a, reads15_6 a = true → i a = i' a) → cc15_transform_6 i = cc15_transform_6 i'
  hinb15_6 : ∀ (i : grid15.Coords) a, (cc15_transform_6 i a + 1) * S1x41.size a ≤ S1x41.size a
  hwx15_6 : ∀ i : grid15.Coords, EltTy.bits .f32 = 32 ∨ (Rect.block (s := S1x41) S1x41.size (cc15_transform_6 i) (hinb15_6 i)).WholeWords (EltTy.packing .f32)
  hstage15_7 : ∀ j, (stage15_7 j).IsWhole
  nbuf15_7 : grid15.bufCount reads15_7 false = 2
  hreads15_7 : ∀ i i' : grid15.Coords, (∀ a, reads15_7 a = true → i a = i' a) → cc15_transform_7 i = cc15_transform_7 i'
  hinb15_7 : ∀ (i : grid15.Coords) a, (cc15_transform_7 i a + 1) * S2000x41.size a ≤ S50000x41.size a
  hwx15_7 : ∀ i : grid15.Coords, EltTy.bits .f32 = 32 ∨ (Rect.block (s := S50000x41) S2000x41.size (cc15_transform_7 i) (hinb15_7 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x41_S2000x41_1_0_0_1_n_n : DotDims S2000x128 S128x41 S2000x41 where
  lhsContracting := [1]
  rhsContracting := [0]
  lhsNonContracting := [0]
  rhsNonContracting := [1]
  lhsBatch := []
  rhsBatch := []
  wf := dot_S2000x128_S128x41_S2000x41_1_0_0_1_n_n_wf

abbrev win0_0 : Pipeline.Window sig grid0 :=
  Pipeline.Window.ofSpec (Memref.whole main_v19) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v25) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S256x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v40) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v45) S2000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v45) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v54) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v55) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v56) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v57) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v58) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v74) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v79) S128x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v80) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v81) S2000x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v81) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v96) S1x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v97) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v98) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v99) S1x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v94) S256x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v95) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v100) S2000x128.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v100) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v109) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v110) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v111) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v112) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v113) S2000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v129) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v134) S128x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v135) S1x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v136) S2000x256.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v136) S2000x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v151) S1x256.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v152) S1x256.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v153) S1x256.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v154) S1x256.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v149) S256x128.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v150) S1x128.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v155) S2000x128.size cc7_transform_7 reads7_7 true false 2 stage7_7 sem7_7
    hrank7 hreads7_7 hinb7_7 nbuf7_7 (Memref.isWhole_whole _) hwx7_7 hstage7_7

abbrev win7 : Fin 8 → Pipeline.Window sig grid7 := fun | 0 => win7_0 | 1 => win7_1 | 2 => win7_2 | 3 => win7_3 | 4 => win7_4 | 5 => win7_5 | 6 => win7_6 | 7 => win7_7 | ⟨_ + 8, h⟩ => absurd h (Nat.not_lt.2 (Nat.le_add_left _ _))
abbrev spec7 : Fin 8 → Pipeline.WinSpec sig grid7.rank := fun w => (win7 w).toWinSpec

abbrev win8_0 : Pipeline.Window sig grid8 :=
  Pipeline.Window.ofSpec (Memref.whole main_v155) S2000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v164) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v165) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v166) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v167) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v168) S2000x128.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v184) S2000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v189) S128x256.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v190) S1x256.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v191) S2000x256.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v191) S2000x256.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v206) S1x256.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v207) S1x256.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v208) S1x256.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v209) S1x256.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v204) S256x128.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v205) S1x128.size cc10_transform_6 reads10_6 false true 1 stage10_6 sem10_6
    hrank10 hreads10_6 hinb10_6 nbuf10_6 (Memref.isWhole_whole _) hwx10_6 hstage10_6

abbrev win10_7 : Pipeline.Window sig grid10 :=
  Pipeline.Window.ofSpec (Memref.whole main_v210) S2000x128.size cc10_transform_7 reads10_7 true false 2 stage10_7 sem10_7
    hrank10 hreads10_7 hinb10_7 nbuf10_7 (Memref.isWhole_whole _) hwx10_7 hstage10_7

abbrev win10 : Fin 8 → Pipeline.Window sig grid10 := fun | 0 => win10_0 | 1 => win10_1 | 2 => win10_2 | 3 => win10_3 | 4 => win10_4 | 5 => win10_5 | 6 => win10_6 | 7 => win10_7 | ⟨_ + 8, h⟩ => absurd h (Nat.not_lt.2 (Nat.le_add_left _ _))
abbrev spec10 : Fin 8 → Pipeline.WinSpec sig grid10.rank := fun w => (win10 w).toWinSpec

abbrev win11_0 : Pipeline.Window sig grid11 :=
  Pipeline.Window.ofSpec (Memref.whole main_v210) S2000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v219) S1x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v220) S1x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v221) S1x128.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v222) S1x128.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v223) S2000x128.size cc11_transform_5 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

abbrev win12_0 : Pipeline.Window sig grid12 :=
  Pipeline.Window.ofSpec (Memref.whole main_v239) S2000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v244) S128x256.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v245) S1x256.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v246) S2000x256.size cc12_transform_3 reads12_3 true false 2 stage12_3 sem12_3
    hrank12 hreads12_3 hinb12_3 nbuf12_3 (Memref.isWhole_whole _) hwx12_3 hstage12_3

abbrev win12 : Fin 4 → Pipeline.Window sig grid12 := fun | 0 => win12_0 | 1 => win12_1 | 2 => win12_2 | 3 => win12_3 | ⟨_ + 4, h⟩ => absurd h (Nat.not_lt.2 (Nat.le_add_left _ _))
abbrev spec12 : Fin 4 → Pipeline.WinSpec sig grid12.rank := fun w => (win12 w).toWinSpec

abbrev win13_0 : Pipeline.Window sig grid13 :=
  Pipeline.Window.ofSpec (Memref.whole main_v246) S2000x256.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v261) S1x256.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v262) S1x256.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v263) S1x256.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v264) S1x256.size cc13_transform_4 reads13_4 false true 1 stage13_4 sem13_4
    hrank13 hreads13_4 hinb13_4 nbuf13_4 (Memref.isWhole_whole _) hwx13_4 hstage13_4

abbrev win13_5 : Pipeline.Window sig grid13 :=
  Pipeline.Window.ofSpec (Memref.whole main_v259) S256x128.size cc13_transform_5 reads13_5 false true 1 stage13_5 sem13_5
    hrank13 hreads13_5 hinb13_5 nbuf13_5 (Memref.isWhole_whole _) hwx13_5 hstage13_5

abbrev win13_6 : Pipeline.Window sig grid13 :=
  Pipeline.Window.ofSpec (Memref.whole main_v260) S1x128.size cc13_transform_6 reads13_6 false true 1 stage13_6 sem13_6
    hrank13 hreads13_6 hinb13_6 nbuf13_6 (Memref.isWhole_whole _) hwx13_6 hstage13_6

abbrev win13_7 : Pipeline.Window sig grid13 :=
  Pipeline.Window.ofSpec (Memref.whole main_v265) S2000x128.size cc13_transform_7 reads13_7 true false 2 stage13_7 sem13_7
    hrank13 hreads13_7 hinb13_7 nbuf13_7 (Memref.isWhole_whole _) hwx13_7 hstage13_7

abbrev win13 : Fin 8 → Pipeline.Window sig grid13 := fun | 0 => win13_0 | 1 => win13_1 | 2 => win13_2 | 3 => win13_3 | 4 => win13_4 | 5 => win13_5 | 6 => win13_6 | 7 => win13_7 | ⟨_ + 8, h⟩ => absurd h (Nat.not_lt.2 (Nat.le_add_left _ _))
abbrev spec13 : Fin 8 → Pipeline.WinSpec sig grid13.rank := fun w => (win13 w).toWinSpec

abbrev win14_0 : Pipeline.Window sig grid14 :=
  Pipeline.Window.ofSpec (Memref.whole main_v265) S2000x128.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v266) S128x128.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v267) S1x128.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v268) S2000x128.size cc14_transform_3 reads14_3 true false 2 stage14_3 sem14_3
    hrank14 hreads14_3 hinb14_3 nbuf14_3 (Memref.isWhole_whole _) hwx14_3 hstage14_3

abbrev win14 : Fin 4 → Pipeline.Window sig grid14 := fun | 0 => win14_0 | 1 => win14_1 | 2 => win14_2 | 3 => win14_3 | ⟨_ + 4, h⟩ => absurd h (Nat.not_lt.2 (Nat.le_add_left _ _))
abbrev spec14 : Fin 4 → Pipeline.WinSpec sig grid14.rank := fun w => (win14 w).toWinSpec

abbrev win15_0 : Pipeline.Window sig grid15 :=
  Pipeline.Window.ofSpec (Memref.whole main_v268) S2000x128.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v275) S1x128.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v276) S1x128.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_v277) S1x128.size cc15_transform_3 reads15_3 false true 1 stage15_3 sem15_3
    hrank15 hreads15_3 hinb15_3 nbuf15_3 (Memref.isWhole_whole _) hwx15_3 hstage15_3

abbrev win15_4 : Pipeline.Window sig grid15 :=
  Pipeline.Window.ofSpec (Memref.whole main_v278) S1x128.size cc15_transform_4 reads15_4 false true 1 stage15_4 sem15_4
    hrank15 hreads15_4 hinb15_4 nbuf15_4 (Memref.isWhole_whole _) hwx15_4 hstage15_4

abbrev win15_5 : Pipeline.Window sig grid15 :=
  Pipeline.Window.ofSpec (Memref.whole main_v273) S128x41.size cc15_transform_5 reads15_5 false true 1 stage15_5 sem15_5
    hrank15 hreads15_5 hinb15_5 nbuf15_5 (Memref.isWhole_whole _) hwx15_5 hstage15_5

abbrev win15_6 : Pipeline.Window sig grid15 :=
  Pipeline.Window.ofSpec (Memref.whole main_v274) S1x41.size cc15_transform_6 reads15_6 false true 1 stage15_6 sem15_6
    hrank15 hreads15_6 hinb15_6 nbuf15_6 (Memref.isWhole_whole _) hwx15_6 hstage15_6

abbrev win15_7 : Pipeline.Window sig grid15 :=
  Pipeline.Window.ofSpec (Memref.whole main_v279) S2000x41.size cc15_transform_7 reads15_7 true false 2 stage15_7 sem15_7
    hrank15 hreads15_7 hinb15_7 nbuf15_7 (Memref.isWhole_whole _) hwx15_7 hstage15_7

abbrev win15 : Fin 8 → Pipeline.Window sig grid15 := fun | 0 => win15_0 | 1 => win15_1 | 2 => win15_2 | 3 => win15_3 | 4 => win15_4 | 5 => win15_5 | 6 => win15_6 | 7 => win15_7 | ⟨_ + 8, h⟩ => absurd h (Nat.not_lt.2 (Nat.le_add_left _ _))
abbrev spec15 : Fin 8 → Pipeline.WinSpec sig grid15.rank := fun w => (win15 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S5x128x256 : Shape := ⟨3, ![5, 128, 256]⟩
abbrev S5x256 : Shape := ⟨2, ![5, 256]⟩
abbrev S5x256x128 : Shape := ⟨3, ![5, 256, 128]⟩
abbrev S5x128 : Shape := ⟨2, ![5, 128]⟩
abbrev S5 : Shape := ⟨1, ![5]⟩
abbrev S128x128 : Shape := ⟨2, ![128, 128]⟩
abbrev S128 : Shape := ⟨1, ![128]⟩
abbrev S128x41 : Shape := ⟨2, ![128, 41]⟩
abbrev S41 : Shape := ⟨1, ![41]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1 : Shape := ⟨1, ![1]⟩
abbrev S1x128x256 : Shape := ⟨3, ![1, 128, 256]⟩
abbrev S128x256 : Shape := ⟨2, ![128, 256]⟩
abbrev S50000x256 : Shape := ⟨2, ![50000, 256]⟩
abbrev S1x256 : Shape := ⟨2, ![1, 256]⟩
abbrev S256 : Shape := ⟨1, ![256]⟩
abbrev S1x256x128 : Shape := ⟨3, ![1, 256, 128]⟩
abbrev S256x128 : Shape := ⟨2, ![256, 128]⟩
abbrev S1x128 : Shape := ⟨2, ![1, 128]⟩
abbrev S50000x41 : Shape := ⟨2, ![50000, 41]⟩
abbrev S1x41 : Shape := ⟨2, ![1, 41]⟩
abbrev S50000 : Shape := ⟨1, ![50000]⟩
abbrev S50000x1 : Shape := ⟨2, ![50000, 1]⟩

abbrev nBuf : Space → Nat
  | .hbm => 730
  | .vmem => 0
  | .smem => 0
  | _ => 0

abbrev hbmTy0_0 (i : Nat) : BufTy := match i % 128 with
  | 0 => ⟨S50000x128, .f32⟩
  | 1 => ⟨S2x800000, .i32⟩
  | 2 => ⟨S5x128x256, .f32⟩
  | 3 => ⟨S5x256, .f32⟩
  | 4 => ⟨S5x256, .f32⟩
  | 5 => ⟨S5x256, .f32⟩
  | 6 => ⟨S5x256x128, .f32⟩
  | 7 => ⟨S5x128, .f32⟩
  | 8 => ⟨S5, .f32⟩
  | 9 => ⟨S5x128, .f32⟩
  | 10 => ⟨S5x128, .f32⟩
  | 11 => ⟨S128x128, .f32⟩
  | 12 => ⟨S128, .f32⟩
  | 13 => ⟨S128, .f32⟩
  | 14 => ⟨S128, .f32⟩
  | 15 => ⟨S128x41, .f32⟩
  | 16 => ⟨S41, .f32⟩
  | 17 => ⟨S1x800000, .i32⟩
  | 18 => ⟨S800000, .i32⟩
  | 19 => ⟨S1x800000, .i32⟩
  | 20 => ⟨S800000, .i32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000x128, .f32⟩
  | 30 => ⟨S_, .f32⟩
  | 31 => ⟨S50000x128, .f32⟩
  | 32 => ⟨S800000x1, .i32⟩
  | 33 => ⟨S50000x128, .f32⟩
  | 34 => ⟨S1, .f32⟩
  | 35 => ⟨S_, .f32⟩
  | 36 => ⟨S_, .f32⟩
  | 37 => ⟨S_, .f32⟩
  | 38 => ⟨S50000x128, .f32⟩
  | 39 => ⟨S50000x128, .f32⟩
  | 40 => ⟨S50000x128, .f32⟩
  | 41 => ⟨S1x128x256, .f32⟩
  | 42 => ⟨S128x256, .f32⟩
  | 43 => ⟨S50000x256, .f32⟩
  | 44 => ⟨S1x256, .f32⟩
  | 45 => ⟨S256, .f32⟩
  | 46 => ⟨S1x256, .f32⟩
  | 47 => ⟨S50000x256, .f32⟩
  | 48 => ⟨S50000x256, .f32⟩
  | 49 => ⟨S1x256, .f32⟩
  | 50 => ⟨S256, .f32⟩
  | 51 => ⟨S1x256, .f32⟩
  | 52 => ⟨S256, .f32⟩
  | 53 => ⟨S_, .f32⟩
  | 54 => ⟨S256, .f32⟩
  | 55 => ⟨S_, .f32⟩
  | 56 => ⟨S256, .f32⟩
  | 57 => ⟨S256, .f32⟩
  | 58 => ⟨S_, .i32⟩
  | 59 => ⟨S_, .f32⟩
  | 60 => ⟨S256, .f32⟩
  | 61 => ⟨S1x256, .f32⟩
  | 62 => ⟨S_, .f32⟩
  | 63 => ⟨S1x256, .f32⟩
  | 64 => ⟨S1x256, .f32⟩
  | 65 => ⟨S50000x256, .f32⟩
  | 66 => ⟨S50000x256, .f32⟩
  | 67 => ⟨S50000x256, .f32⟩
  | 68 => ⟨S_, .f32⟩
  | 69 => ⟨S_, .f32⟩
  | 70 => ⟨S_, .f32⟩
  | 71 => ⟨S_, .f32⟩
  | 72 => ⟨S256, .f32⟩
  | 73 => ⟨S256, .f32⟩
  | 74 => ⟨S256, .f32⟩
  | 75 => ⟨S_, .f32⟩
  | 76 => ⟨S_, .i1⟩
  | 77 => ⟨S_, .f32⟩
  | 78 => ⟨S_, .f32⟩
  | 79 => ⟨S256, .f32⟩
  | 80 => ⟨S256, .f32⟩
  | 81 => ⟨S1x256, .f32⟩
  | 82 => ⟨S50000x256, .f32⟩
  | 83 => ⟨S50000x256, .f32⟩
  | 84 => ⟨S1x256, .f32⟩
  | 85 => ⟨S50000x256, .f32⟩
  | 86 => ⟨S50000x256, .f32⟩
  | 87 => ⟨S_, .f32⟩
  | 88 => ⟨S256, .f32⟩
  | 89 => ⟨S256, .f32⟩
  | 90 => ⟨S256, .f32⟩
  | 91 => ⟨S1x256, .f32⟩
  | 92 => ⟨S50000x256, .f32⟩
  | 93 => ⟨S50000x256, .f32⟩
  | 94 => ⟨S1x256, .f32⟩
  | 95 => ⟨S50000x256, .f32⟩
  | 96 => ⟨S50000x256, .f32⟩
  | 97 => ⟨S_, .f32⟩
  | 98 => ⟨S50000x256, .f32⟩
  | 99 => ⟨S50000x256, .f32⟩
  | 100 => ⟨S1x256x128, .f32⟩
  | 101 => ⟨S256x128, .f32⟩
  | 102 => ⟨S50000x128, .f32⟩
  | 103 => ⟨S1x128, .f32⟩
  | 104 => ⟨S128, .f32⟩
  | 105 => ⟨S1x128, .f32⟩
  | 106 => ⟨S50000x128, .f32⟩
  | 107 => ⟨S50000x128, .f32⟩
  | 108 => ⟨S1x128, .f32⟩
  | 109 => ⟨S128, .f32⟩
  | 110 => ⟨S1x128, .f32⟩
  | 111 => ⟨S128, .f32⟩
  | 112 => ⟨S_, .f32⟩
  | 113 => ⟨S128, .f32⟩
  | 114 => ⟨S_, .f32⟩
  | 115 => ⟨S128, .f32⟩
  | 116 => ⟨S128, .f32⟩
  | 117 => ⟨S_, .i32⟩
  | 118 => ⟨S_, .f32⟩
  | 119 => ⟨S128, .f32⟩
  | 120 => ⟨S1x128, .f32⟩
  | 121 => ⟨S_, .f32⟩
  | 122 => ⟨S1x128, .f32⟩
  | 123 => ⟨S1x128, .f32⟩
  | 124 => ⟨S50000x128, .f32⟩
  | 125 => ⟨S50000x128, .f32⟩
  | 126 => ⟨S50000x128, .f32⟩
  | 127 => ⟨S_, .f32⟩
  | _ => ⟨S50000x128, .f32⟩

abbrev hbmTy0_1 (i : Nat) : BufTy := match i % 128 with
  | 0 => ⟨S_, .f32⟩
  | 1 => ⟨S_, .f32⟩
  | 2 => ⟨S_, .f32⟩
  | 3 => ⟨S128, .f32⟩
  | 4 => ⟨S128, .f32⟩
  | 5 => ⟨S128, .f32⟩
  | 6 => ⟨S_, .f32⟩
  | 7 => ⟨S_, .i1⟩
  | 8 => ⟨S_, .f32⟩
  | 9 => ⟨S_, .f32⟩
  | 10 => ⟨S128, .f32⟩
  | 11 => ⟨S128, .f32⟩
  | 12 => ⟨S1x128, .f32⟩
  | 13 => ⟨S50000x128, .f32⟩
  | 14 => ⟨S50000x128, .f32⟩
  | 15 => ⟨S1x128, .f32⟩
  | 16 => ⟨S50000x128, .f32⟩
  | 17 => ⟨S50000x128, .f32⟩
  | 18 => ⟨S_, .f32⟩
  | 19 => ⟨S128, .f32⟩
  | 20 => ⟨S128, .f32⟩
  | 21 => ⟨S128, .f32⟩
  | 22 => ⟨S1x128, .f32⟩
  | 23 => ⟨S50000x128, .f32⟩
  | 24 => ⟨S50000x128, .f32⟩
  | 25 => ⟨S1x128, .f32⟩
  | 26 => ⟨S50000x128, .f32⟩
  | 27 => ⟨S50000x128, .f32⟩
  | 28 => ⟨S_, .f32⟩
  | 29 => ⟨S50000x128, .f32⟩
  | 30 => ⟨S50000x128, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000x128, .f32⟩
  | 40 => ⟨S_, .f32⟩
  | 41 => ⟨S50000x128, .f32⟩
  | 42 => ⟨S800000x1, .i32⟩
  | 43 => ⟨S50000x128, .f32⟩
  | 44 => ⟨S1, .f32⟩
  | 45 => ⟨S_, .f32⟩
  | 46 => ⟨S_, .f32⟩
  | 47 => ⟨S_, .f32⟩
  | 48 => ⟨S50000x128, .f32⟩
  | 49 => ⟨S50000x128, .f32⟩
  | 50 => ⟨S50000x128, .f32⟩
  | 51 => ⟨S1x128x256, .f32⟩
  | 52 => ⟨S128x256, .f32⟩
  | 53 => ⟨S50000x256, .f32⟩
  | 54 => ⟨S1x256, .f32⟩
  | 55 => ⟨S256, .f32⟩
  | 56 => ⟨S1x256, .f32⟩
  | 57 => ⟨S50000x256, .f32⟩
  | 58 => ⟨S50000x256, .f32⟩
  | 59 => ⟨S1x256, .f32⟩
  | 60 => ⟨S256, .f32⟩
  | 61 => ⟨S1x256, .f32⟩
  | 62 => ⟨S256, .f32⟩
  | 63 => ⟨S_, .f32⟩
  | 64 => ⟨S256, .f32⟩
  | 65 => ⟨S_, .f32⟩
  | 66 => ⟨S256, .f32⟩
  | 67 => ⟨S256, .f32⟩
  | 68 => ⟨S_, .i32⟩
  | 69 => ⟨S_, .f32⟩
  | 70 => ⟨S256, .f32⟩
  | 71 => ⟨S1x256, .f32⟩
  | 72 => ⟨S_, .f32⟩
  | 73 => ⟨S1x256, .f32⟩
  | 74 => ⟨S1x256, .f32⟩
  | 75 => ⟨S50000x256, .f32⟩
  | 76 => ⟨S50000x256, .f32⟩
  | 77 => ⟨S50000x256, .f32⟩
  | 78 => ⟨S_, .f32⟩
  | 79 => ⟨S_, .f32⟩
  | 80 => ⟨S_, .f32⟩
  | 81 => ⟨S_, .f32⟩
  | 82 => ⟨S256, .f32⟩
  | 83 => ⟨S256, .f32⟩
  | 84 => ⟨S256, .f32⟩
  | 85 => ⟨S_, .f32⟩
  | 86 => ⟨S_, .i1⟩
  | 87 => ⟨S_, .f32⟩
  | 88 => ⟨S_, .f32⟩
  | 89 => ⟨S256, .f32⟩
  | 90 => ⟨S256, .f32⟩
  | 91 => ⟨S1x256, .f32⟩
  | 92 => ⟨S50000x256, .f32⟩
  | 93 => ⟨S50000x256, .f32⟩
  | 94 => ⟨S1x256, .f32⟩
  | 95 => ⟨S50000x256, .f32⟩
  | 96 => ⟨S50000x256, .f32⟩
  | 97 => ⟨S_, .f32⟩
  | 98 => ⟨S256, .f32⟩
  | 99 => ⟨S256, .f32⟩
  | 100 => ⟨S256, .f32⟩
  | 101 => ⟨S1x256, .f32⟩
  | 102 => ⟨S50000x256, .f32⟩
  | 103 => ⟨S50000x256, .f32⟩
  | 104 => ⟨S1x256, .f32⟩
  | 105 => ⟨S50000x256, .f32⟩
  | 106 => ⟨S50000x256, .f32⟩
  | 107 => ⟨S_, .f32⟩
  | 108 => ⟨S50000x256, .f32⟩
  | 109 => ⟨S50000x256, .f32⟩
  | 110 => ⟨S1x256x128, .f32⟩
  | 111 => ⟨S256x128, .f32⟩
  | 112 => ⟨S50000x128, .f32⟩
  | 113 => ⟨S1x128, .f32⟩
  | 114 => ⟨S128, .f32⟩
  | 115 => ⟨S1x128, .f32⟩
  | 116 => ⟨S50000x128, .f32⟩
  | 117 => ⟨S50000x128, .f32⟩
  | 118 => ⟨S1x128, .f32⟩
  | 119 => ⟨S128, .f32⟩
  | 120 => ⟨S1x128, .f32⟩
  | 121 => ⟨S128, .f32⟩
  | 122 => ⟨S_, .f32⟩
  | 123 => ⟨S128, .f32⟩
  | 124 => ⟨S_, .f32⟩
  | 125 => ⟨S128, .f32⟩
  | 126 => ⟨S128, .f32⟩
  | 127 => ⟨S_, .i32⟩
  | _ => ⟨S50000x128, .f32⟩

abbrev hbmTy0_2 (i : Nat) : BufTy := match i % 128 with
  | 0 => ⟨S_, .f32⟩
  | 1 => ⟨S128, .f32⟩
  | 2 => ⟨S1x128, .f32⟩
  | 3 => ⟨S_, .f32⟩
  | 4 => ⟨S1x128, .f32⟩
  | 5 => ⟨S1x128, .f32⟩
  | 6 => ⟨S50000x128, .f32⟩
  | 7 => ⟨S50000x128, .f32⟩
  | 8 => ⟨S50000x128, .f32⟩
  | 9 => ⟨S_, .f32⟩
  | 10 => ⟨S_, .f32⟩
  | 11 => ⟨S_, .f32⟩
  | 12 => ⟨S_, .f32⟩
  | 13 => ⟨S128, .f32⟩
  | 14 => ⟨S128, .f32⟩
  | 15 => ⟨S128, .f32⟩
  | 16 => ⟨S_, .f32⟩
  | 17 => ⟨S_, .i1⟩
  | 18 => ⟨S_, .f32⟩
  | 19 => ⟨S_, .f32⟩
  | 20 => ⟨S128, .f32⟩
  | 21 => ⟨S128, .f32⟩
  | 22 => ⟨S1x128, .f32⟩
  | 23 => ⟨S50000x128, .f32⟩
  | 24 => ⟨S50000x128, .f32⟩
  | 25 => ⟨S1x128, .f32⟩
  | 26 => ⟨S50000x128, .f32⟩
  | 27 => ⟨S50000x128, .f32⟩
  | 28 => ⟨S_, .f32⟩
  | 29 => ⟨S128, .f32⟩
  | 30 => ⟨S128, .f32⟩
  | 31 => ⟨S128, .f32⟩
  | 32 => ⟨S1x128, .f32⟩
  | 33 => ⟨S50000x128, .f32⟩
  | 34 => ⟨S50000x128, .f32⟩
  | 35 => ⟨S1x128, .f32⟩
  | 36 => ⟨S50000x128, .f32⟩
  | 37 => ⟨S50000x128, .f32⟩
  | 38 => ⟨S_, .f32⟩
  | 39 => ⟨S50000x128, .f32⟩
  | 40 => ⟨S50000x128, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000x128, .f32⟩
  | 50 => ⟨S_, .f32⟩
  | 51 => ⟨S50000x128, .f32⟩
  | 52 => ⟨S800000x1, .i32⟩
  | 53 => ⟨S50000x128, .f32⟩
  | 54 => ⟨S1, .f32⟩
  | 55 => ⟨S_, .f32⟩
  | 56 => ⟨S_, .f32⟩
  | 57 => ⟨S_, .f32⟩
  | 58 => ⟨S50000x128, .f32⟩
  | 59 => ⟨S50000x128, .f32⟩
  | 60 => ⟨S50000x128, .f32⟩
  | 61 => ⟨S1x128x256, .f32⟩
  | 62 => ⟨S128x256, .f32⟩
  | 63 => ⟨S50000x256, .f32⟩
  | 64 => ⟨S1x256, .f32⟩
  | 65 => ⟨S256, .f32⟩
  | 66 => ⟨S1x256, .f32⟩
  | 67 => ⟨S50000x256, .f32⟩
  | 68 => ⟨S50000x256, .f32⟩
  | 69 => ⟨S1x256, .f32⟩
  | 70 => ⟨S256, .f32⟩
  | 71 => ⟨S1x256, .f32⟩
  | 72 => ⟨S256, .f32⟩
  | 73 => ⟨S_, .f32⟩
  | 74 => ⟨S256, .f32⟩
  | 75 => ⟨S_, .f32⟩
  | 76 => ⟨S256, .f32⟩
  | 77 => ⟨S256, .f32⟩
  | 78 => ⟨S_, .i32⟩
  | 79 => ⟨S_, .f32⟩
  | 80 => ⟨S256, .f32⟩
  | 81 => ⟨S1x256, .f32⟩
  | 82 => ⟨S_, .f32⟩
  | 83 => ⟨S1x256, .f32⟩
  | 84 => ⟨S1x256, .f32⟩
  | 85 => ⟨S50000x256, .f32⟩
  | 86 => ⟨S50000x256, .f32⟩
  | 87 => ⟨S50000x256, .f32⟩
  | 88 => ⟨S_, .f32⟩
  | 89 => ⟨S_, .f32⟩
  | 90 => ⟨S_, .f32⟩
  | 91 => ⟨S_, .f32⟩
  | 92 => ⟨S256, .f32⟩
  | 93 => ⟨S256, .f32⟩
  | 94 => ⟨S256, .f32⟩
  | 95 => ⟨S_, .f32⟩
  | 96 => ⟨S_, .i1⟩
  | 97 => ⟨S_, .f32⟩
  | 98 => ⟨S_, .f32⟩
  | 99 => ⟨S256, .f32⟩
  | 100 => ⟨S256, .f32⟩
  | 101 => ⟨S1x256, .f32⟩
  | 102 => ⟨S50000x256, .f32⟩
  | 103 => ⟨S50000x256, .f32⟩
  | 104 => ⟨S1x256, .f32⟩
  | 105 => ⟨S50000x256, .f32⟩
  | 106 => ⟨S50000x256, .f32⟩
  | 107 => ⟨S_, .f32⟩
  | 108 => ⟨S256, .f32⟩
  | 109 => ⟨S256, .f32⟩
  | 110 => ⟨S256, .f32⟩
  | 111 => ⟨S1x256, .f32⟩
  | 112 => ⟨S50000x256, .f32⟩
  | 113 => ⟨S50000x256, .f32⟩
  | 114 => ⟨S1x256, .f32⟩
  | 115 => ⟨S50000x256, .f32⟩
  | 116 => ⟨S50000x256, .f32⟩
  | 117 => ⟨S_, .f32⟩
  | 118 => ⟨S50000x256, .f32⟩
  | 119 => ⟨S50000x256, .f32⟩
  | 120 => ⟨S1x256x128, .f32⟩
  | 121 => ⟨S256x128, .f32⟩
  | 122 => ⟨S50000x128, .f32⟩
  | 123 => ⟨S1x128, .f32⟩
  | 124 => ⟨S128, .f32⟩
  | 125 => ⟨S1x128, .f32⟩
  | 126 => ⟨S50000x128, .f32⟩
  | 127 => ⟨S50000x128, .f32⟩
  | _ => ⟨S50000x128, .f32⟩

abbrev hbmTy0_3 (i : Nat) : BufTy := match i % 128 with
  | 0 => ⟨S1x128, .f32⟩
  | 1 => ⟨S128, .f32⟩
  | 2 => ⟨S1x128, .f32⟩
  | 3 => ⟨S128, .f32⟩
  | 4 => ⟨S_, .f32⟩
  | 5 => ⟨S128, .f32⟩
  | 6 => ⟨S_, .f32⟩
  | 7 => ⟨S128, .f32⟩
  | 8 => ⟨S128, .f32⟩
  | 9 => ⟨S_, .i32⟩
  | 10 => ⟨S_, .f32⟩
  | 11 => ⟨S128, .f32⟩
  | 12 => ⟨S1x128, .f32⟩
  | 13 => ⟨S_, .f32⟩
  | 14 => ⟨S1x128, .f32⟩
  | 15 => ⟨S1x128, .f32⟩
  | 16 => ⟨S50000x128, .f32⟩
  | 17 => ⟨S50000x128, .f32⟩
  | 18 => ⟨S50000x128, .f32⟩
  | 19 => ⟨S_, .f32⟩
  | 20 => ⟨S_, .f32⟩
  | 21 => ⟨S_, .f32⟩
  | 22 => ⟨S_, .f32⟩
  | 23 => ⟨S128, .f32⟩
  | 24 => ⟨S128, .f32⟩
  | 25 => ⟨S128, .f32⟩
  | 26 => ⟨S_, .f32⟩
  | 27 => ⟨S_, .i1⟩
  | 28 => ⟨S_, .f32⟩
  | 29 => ⟨S_, .f32⟩
  | 30 => ⟨S128, .f32⟩
  | 31 => ⟨S128, .f32⟩
  | 32 => ⟨S1x128, .f32⟩
  | 33 => ⟨S50000x128, .f32⟩
  | 34 => ⟨S50000x128, .f32⟩
  | 35 => ⟨S1x128, .f32⟩
  | 36 => ⟨S50000x128, .f32⟩
  | 37 => ⟨S50000x128, .f32⟩
  | 38 => ⟨S_, .f32⟩
  | 39 => ⟨S128, .f32⟩
  | 40 => ⟨S128, .f32⟩
  | 41 => ⟨S128, .f32⟩
  | 42 => ⟨S1x128, .f32⟩
  | 43 => ⟨S50000x128, .f32⟩
  | 44 => ⟨S50000x128, .f32⟩
  | 45 => ⟨S1x128, .f32⟩
  | 46 => ⟨S50000x128, .f32⟩
  | 47 => ⟨S50000x128, .f32⟩
  | 48 => ⟨S_, .f32⟩
  | 49 => ⟨S50000x128, .f32⟩
  | 50 => ⟨S50000x128, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000x128, .f32⟩
  | 60 => ⟨S_, .f32⟩
  | 61 => ⟨S50000x128, .f32⟩
  | 62 => ⟨S800000x1, .i32⟩
  | 63 => ⟨S50000x128, .f32⟩
  | 64 => ⟨S1, .f32⟩
  | 65 => ⟨S_, .f32⟩
  | 66 => ⟨S_, .f32⟩
  | 67 => ⟨S_, .f32⟩
  | 68 => ⟨S50000x128, .f32⟩
  | 69 => ⟨S50000x128, .f32⟩
  | 70 => ⟨S50000x128, .f32⟩
  | 71 => ⟨S1x128x256, .f32⟩
  | 72 => ⟨S128x256, .f32⟩
  | 73 => ⟨S50000x256, .f32⟩
  | 74 => ⟨S1x256, .f32⟩
  | 75 => ⟨S256, .f32⟩
  | 76 => ⟨S1x256, .f32⟩
  | 77 => ⟨S50000x256, .f32⟩
  | 78 => ⟨S50000x256, .f32⟩
  | 79 => ⟨S1x256, .f32⟩
  | 80 => ⟨S256, .f32⟩
  | 81 => ⟨S1x256, .f32⟩
  | 82 => ⟨S256, .f32⟩
  | 83 => ⟨S_, .f32⟩
  | 84 => ⟨S256, .f32⟩
  | 85 => ⟨S_, .f32⟩
  | 86 => ⟨S256, .f32⟩
  | 87 => ⟨S256, .f32⟩
  | 88 => ⟨S_, .i32⟩
  | 89 => ⟨S_, .f32⟩
  | 90 => ⟨S256, .f32⟩
  | 91 => ⟨S1x256, .f32⟩
  | 92 => ⟨S_, .f32⟩
  | 93 => ⟨S1x256, .f32⟩
  | 94 => ⟨S1x256, .f32⟩
  | 95 => ⟨S50000x256, .f32⟩
  | 96 => ⟨S50000x256, .f32⟩
  | 97 => ⟨S50000x256, .f32⟩
  | 98 => ⟨S_, .f32⟩
  | 99 => ⟨S_, .f32⟩
  | 100 => ⟨S_, .f32⟩
  | 101 => ⟨S_, .f32⟩
  | 102 => ⟨S256, .f32⟩
  | 103 => ⟨S256, .f32⟩
  | 104 => ⟨S256, .f32⟩
  | 105 => ⟨S_, .f32⟩
  | 106 => ⟨S_, .i1⟩
  | 107 => ⟨S_, .f32⟩
  | 108 => ⟨S_, .f32⟩
  | 109 => ⟨S256, .f32⟩
  | 110 => ⟨S256, .f32⟩
  | 111 => ⟨S1x256, .f32⟩
  | 112 => ⟨S50000x256, .f32⟩
  | 113 => ⟨S50000x256, .f32⟩
  | 114 => ⟨S1x256, .f32⟩
  | 115 => ⟨S50000x256, .f32⟩
  | 116 => ⟨S50000x256, .f32⟩
  | 117 => ⟨S_, .f32⟩
  | 118 => ⟨S256, .f32⟩
  | 119 => ⟨S256, .f32⟩
  | 120 => ⟨S256, .f32⟩
  | 121 => ⟨S1x256, .f32⟩
  | 122 => ⟨S50000x256, .f32⟩
  | 123 => ⟨S50000x256, .f32⟩
  | 124 => ⟨S1x256, .f32⟩
  | 125 => ⟨S50000x256, .f32⟩
  | 126 => ⟨S50000x256, .f32⟩
  | 127 => ⟨S_, .f32⟩
  | _ => ⟨S50000x128, .f32⟩

abbrev hbmTy0_4 (i : Nat) : BufTy := match i % 128 with
  | 0 => ⟨S50000x256, .f32⟩
  | 1 => ⟨S50000x256, .f32⟩
  | 2 => ⟨S1x256x128, .f32⟩
  | 3 => ⟨S256x128, .f32⟩
  | 4 => ⟨S50000x128, .f32⟩
  | 5 => ⟨S1x128, .f32⟩
  | 6 => ⟨S128, .f32⟩
  | 7 => ⟨S1x128, .f32⟩
  | 8 => ⟨S50000x128, .f32⟩
  | 9 => ⟨S50000x128, .f32⟩
  | 10 => ⟨S1x128, .f32⟩
  | 11 => ⟨S128, .f32⟩
  | 12 => ⟨S1x128, .f32⟩
  | 13 => ⟨S128, .f32⟩
  | 14 => ⟨S_, .f32⟩
  | 15 => ⟨S128, .f32⟩
  | 16 => ⟨S_, .f32⟩
  | 17 => ⟨S128, .f32⟩
  | 18 => ⟨S128, .f32⟩
  | 19 => ⟨S_, .i32⟩
  | 20 => ⟨S_, .f32⟩
  | 21 => ⟨S128, .f32⟩
  | 22 => ⟨S1x128, .f32⟩
  | 23 => ⟨S_, .f32⟩
  | 24 => ⟨S1x128, .f32⟩
  | 25 => ⟨S1x128, .f32⟩
  | 26 => ⟨S50000x128, .f32⟩
  | 27 => ⟨S50000x128, .f32⟩
  | 28 => ⟨S50000x128, .f32⟩
  | 29 => ⟨S_, .f32⟩
  | 30 => ⟨S_, .f32⟩
  | 31 => ⟨S_, .f32⟩
  | 32 => ⟨S_, .f32⟩
  | 33 => ⟨S128, .f32⟩
  | 34 => ⟨S128, .f32⟩
  | 35 => ⟨S128, .f32⟩
  | 36 => ⟨S_, .f32⟩
  | 37 => ⟨S_, .i1⟩
  | 38 => ⟨S_, .f32⟩
  | 39 => ⟨S_, .f32⟩
  | 40 => ⟨S128, .f32⟩
  | 41 => ⟨S128, .f32⟩
  | 42 => ⟨S1x128, .f32⟩
  | 43 => ⟨S50000x128, .f32⟩
  | 44 => ⟨S50000x128, .f32⟩
  | 45 => ⟨S1x128, .f32⟩
  | 46 => ⟨S50000x128, .f32⟩
  | 47 => ⟨S50000x128, .f32⟩
  | 48 => ⟨S_, .f32⟩
  | 49 => ⟨S128, .f32⟩
  | 50 => ⟨S128, .f32⟩
  | 51 => ⟨S128, .f32⟩
  | 52 => ⟨S1x128, .f32⟩
  | 53 => ⟨S50000x128, .f32⟩
  | 54 => ⟨S50000x128, .f32⟩
  | 55 => ⟨S1x128, .f32⟩
  | 56 => ⟨S50000x128, .f32⟩
  | 57 => ⟨S50000x128, .f32⟩
  | 58 => ⟨S_, .f32⟩
  | 59 => ⟨S50000x128, .f32⟩
  | 60 => ⟨S50000x128, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000x128, .f32⟩
  | 70 => ⟨S_, .f32⟩
  | 71 => ⟨S50000x128, .f32⟩
  | 72 => ⟨S800000x1, .i32⟩
  | 73 => ⟨S50000x128, .f32⟩
  | 74 => ⟨S1, .f32⟩
  | 75 => ⟨S_, .f32⟩
  | 76 => ⟨S_, .f32⟩
  | 77 => ⟨S_, .f32⟩
  | 78 => ⟨S50000x128, .f32⟩
  | 79 => ⟨S50000x128, .f32⟩
  | 80 => ⟨S50000x128, .f32⟩
  | 81 => ⟨S1x128x256, .f32⟩
  | 82 => ⟨S128x256, .f32⟩
  | 83 => ⟨S50000x256, .f32⟩
  | 84 => ⟨S1x256, .f32⟩
  | 85 => ⟨S256, .f32⟩
  | 86 => ⟨S1x256, .f32⟩
  | 87 => ⟨S50000x256, .f32⟩
  | 88 => ⟨S50000x256, .f32⟩
  | 89 => ⟨S1x256, .f32⟩
  | 90 => ⟨S256, .f32⟩
  | 91 => ⟨S1x256, .f32⟩
  | 92 => ⟨S256, .f32⟩
  | 93 => ⟨S_, .f32⟩
  | 94 => ⟨S256, .f32⟩
  | 95 => ⟨S_, .f32⟩
  | 96 => ⟨S256, .f32⟩
  | 97 => ⟨S256, .f32⟩
  | 98 => ⟨S_, .i32⟩
  | 99 => ⟨S_, .f32⟩
  | 100 => ⟨S256, .f32⟩
  | 101 => ⟨S1x256, .f32⟩
  | 102 => ⟨S_, .f32⟩
  | 103 => ⟨S1x256, .f32⟩
  | 104 => ⟨S1x256, .f32⟩
  | 105 => ⟨S50000x256, .f32⟩
  | 106 => ⟨S50000x256, .f32⟩
  | 107 => ⟨S50000x256, .f32⟩
  | 108 => ⟨S_, .f32⟩
  | 109 => ⟨S_, .f32⟩
  | 110 => ⟨S_, .f32⟩
  | 111 => ⟨S_, .f32⟩
  | 112 => ⟨S256, .f32⟩
  | 113 => ⟨S256, .f32⟩
  | 114 => ⟨S256, .f32⟩
  | 115 => ⟨S_, .f32⟩
  | 116 => ⟨S_, .i1⟩
  | 117 => ⟨S_, .f32⟩
  | 118 => ⟨S_, .f32⟩
  | 119 => ⟨S256, .f32⟩
  | 120 => ⟨S256, .f32⟩
  | 121 => ⟨S1x256, .f32⟩
  | 122 => ⟨S50000x256, .f32⟩
  | 123 => ⟨S50000x256, .f32⟩
  | 124 => ⟨S1x256, .f32⟩
  | 125 => ⟨S50000x256, .f32⟩
  | 126 => ⟨S50000x256, .f32⟩
  | 127 => ⟨S_, .f32⟩
  | _ => ⟨S50000x128, .f32⟩

abbrev hbmTy0_5 (i : Nat) : BufTy := match i % 128 with
  | 0 => ⟨S256, .f32⟩
  | 1 => ⟨S256, .f32⟩
  | 2 => ⟨S256, .f32⟩
  | 3 => ⟨S1x256, .f32⟩
  | 4 => ⟨S50000x256, .f32⟩
  | 5 => ⟨S50000x256, .f32⟩
  | 6 => ⟨S1x256, .f32⟩
  | 7 => ⟨S50000x256, .f32⟩
  | 8 => ⟨S50000x256, .f32⟩
  | 9 => ⟨S_, .f32⟩
  | 10 => ⟨S50000x256, .f32⟩
  | 11 => ⟨S50000x256, .f32⟩
  | 12 => ⟨S1x256x128, .f32⟩
  | 13 => ⟨S256x128, .f32⟩
  | 14 => ⟨S50000x128, .f32⟩
  | 15 => ⟨S1x128, .f32⟩
  | 16 => ⟨S128, .f32⟩
  | 17 => ⟨S1x128, .f32⟩
  | 18 => ⟨S50000x128, .f32⟩
  | 19 => ⟨S50000x128, .f32⟩
  | 20 => ⟨S50000x128, .f32⟩
  | 21 => ⟨S1x128, .f32⟩
  | 22 => ⟨S50000x128, .f32⟩
  | 23 => ⟨S50000x128, .f32⟩
  | 24 => ⟨S_, .f32⟩
  | 25 => ⟨S128, .f32⟩
  | 26 => ⟨S_, .f32⟩
  | 27 => ⟨S128, .f32⟩
  | 28 => ⟨S128, .f32⟩
  | 29 => ⟨S_, .i32⟩
  | 30 => ⟨S_, .f32⟩
  | 31 => ⟨S128, .f32⟩
  | 32 => ⟨S1x128, .f32⟩
  | 33 => ⟨S_, .f32⟩
  | 34 => ⟨S1x128, .f32⟩
  | 35 => ⟨S1x128, .f32⟩
  | 36 => ⟨S50000x128, .f32⟩
  | 37 => ⟨S50000x128, .f32⟩
  | 38 => ⟨S50000x128, .f32⟩
  | 39 => ⟨S_, .f32⟩
  | 40 => ⟨S_, .f32⟩
  | 41 => ⟨S_, .f32⟩
  | 42 => ⟨S_, .f32⟩
  | 43 => ⟨S128, .f32⟩
  | 44 => ⟨S128, .f32⟩
  | 45 => ⟨S128, .f32⟩
  | 46 => ⟨S_, .f32⟩
  | 47 => ⟨S_, .i1⟩
  | 48 => ⟨S_, .f32⟩
  | 49 => ⟨S_, .f32⟩
  | 50 => ⟨S128, .f32⟩
  | 51 => ⟨S128, .f32⟩
  | 52 => ⟨S1x128, .f32⟩
  | 53 => ⟨S50000x128, .f32⟩
  | 54 => ⟨S50000x128, .f32⟩
  | 55 => ⟨S1x128, .f32⟩
  | 56 => ⟨S50000x128, .f32⟩
  | 57 => ⟨S50000x128, .f32⟩
  | 58 => ⟨S_, .f32⟩
  | 59 => ⟨S128, .f32⟩
  | 60 => ⟨S128, .f32⟩
  | 61 => ⟨S128, .f32⟩
  | 62 => ⟨S1x128, .f32⟩
  | 63 => ⟨S50000x128, .f32⟩
  | 64 => ⟨S50000x128, .f32⟩
  | 65 => ⟨S1x128, .f32⟩
  | 66 => ⟨S50000x128, .f32⟩
  | 67 => ⟨S50000x128, .f32⟩
  | 68 => ⟨S_, .f32⟩
  | 69 => ⟨S50000x128, .f32⟩
  | 70 => ⟨S50000x128, .f32⟩
  | 71 => ⟨S50000x41, .f32⟩
  | 72 => ⟨S1x41, .f32⟩
  | 73 => ⟨S50000x41, .f32⟩
  | 74 => ⟨S50000x41, .f32⟩
  | 75 => ⟨S_, .f32⟩
  | 76 => ⟨S50000, .f32⟩
  | 77 => ⟨S_, .f32⟩
  | 78 => ⟨S50000, .f32⟩
  | 79 => ⟨S50000, .f32⟩
  | 80 => ⟨S50000x1, .f32⟩
  | 81 => ⟨S50000x41, .f32⟩
  | 82 => ⟨S50000x41, .f32⟩
  | 83 => ⟨S50000x41, .f32⟩
  | 84 => ⟨S_, .f32⟩
  | 85 => ⟨S50000, .f32⟩
  | 86 => ⟨S50000x1, .f32⟩
  | 87 => ⟨S50000x1, .f32⟩
  | 88 => ⟨S50000x41, .f32⟩
  | 89 => ⟨S50000x41, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_1 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_2 : Ref sig .tc := ⟨.hbm, 53, rfl⟩
abbrev main_v32 : Ref sig .tc := ⟨.hbm, 54, rfl⟩
abbrev main_cst_3 : Ref sig .tc := ⟨.hbm, 55, rfl⟩
abbrev main_v33 : Ref sig .tc := ⟨.hbm, 56, rfl⟩
abbrev main_v34 : Ref sig .tc := ⟨.hbm, 57, rfl⟩
abbrev main_c_4 : Ref sig .tc := ⟨.hbm, 58, rfl⟩
abbrev main_call0_cst : Ref sig .tc := ⟨.hbm, 59, rfl⟩
abbrev main_call0_v0 : Ref sig .tc := ⟨.hbm, 60, rfl⟩
abbrev main_call0_v1 : Ref sig .tc := ⟨.hbm, 61, rfl⟩
abbrev main_call0_cst_0 : Ref sig .tc := ⟨.hbm, 62, rfl⟩
abbrev main_call0_v2 : Ref sig .tc := ⟨.hbm, 63, rfl⟩
abbrev main_call0_v3 : Ref sig .tc := ⟨.hbm, 64, rfl⟩
abbrev main_call0_v4 : Ref sig .tc := ⟨.hbm, 65, rfl⟩
abbrev main_call0_v5 : Ref sig .tc := ⟨.hbm, 66, rfl⟩
abbrev main_call0_v6 : Ref sig .tc := ⟨.hbm, 67, rfl⟩
abbrev main_call0_v7 : Ref sig .tc := ⟨.hbm, 68, rfl⟩
abbrev main_call0_cst_1 : Ref sig .tc := ⟨.hbm, 69, rfl⟩
abbrev main_call0_v8 : Ref sig .tc := ⟨.hbm, 70, rfl⟩
abbrev main_call0_cst_2 : Ref sig .tc := ⟨.hbm, 71, rfl⟩
abbrev main_call0_v9 : Ref sig .tc := ⟨.hbm, 72, rfl⟩
abbrev main_call0_v10 : Ref sig .tc := ⟨.hbm, 73, rfl⟩
abbrev main_call0_v11 : Ref sig .tc := ⟨.hbm, 74, rfl⟩
abbrev main_call0_cst_3 : Ref sig .tc := ⟨.hbm, 75, rfl⟩
abbrev main_call0_v12 : Ref sig .tc := ⟨.hbm, 76, rfl⟩
abbrev main_call0_cst_4 : Ref sig .tc := ⟨.hbm, 77, rfl⟩
abbrev main_call0_call0_v0 : Ref sig .tc := ⟨.hbm, 78, rfl⟩
abbrev main_call0_call0_v1 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_cst_5 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_call1_cst : Ref sig .tc := ⟨.hbm, 97, rfl⟩
abbrev main_call1_v0 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_cst_6 : Ref sig .tc := ⟨.hbm, 112, rfl⟩
abbrev main_v64 : Ref sig .tc := ⟨.hbm, 113, rfl⟩
abbrev main_cst_7 : Ref sig .tc := ⟨.hbm, 114, rfl⟩
abbrev main_v65 : Ref sig .tc := ⟨.hbm, 115, rfl⟩
abbrev main_v66 : Ref sig .tc := ⟨.hbm, 116, rfl⟩
abbrev main_c_8 : Ref sig .tc := ⟨.hbm, 117, rfl⟩
abbrev main_call2_cst : Ref sig .tc := ⟨.hbm, 118, rfl⟩
abbrev main_call2_v0 : Ref sig .tc := ⟨.hbm, 119, rfl⟩
abbrev main_call2_v1 : Ref sig .tc := ⟨.hbm, 120, rfl⟩
abbrev main_call2_cst_0 : Ref sig .tc := ⟨.hbm, 121, rfl⟩
abbrev main_call2_v2 : Ref sig .tc := ⟨.hbm, 122, rfl⟩
abbrev main_call2_v3 : Ref sig .tc := ⟨.hbm, 123, rfl⟩
abbrev main_call2_v4 : Ref sig .tc := ⟨.hbm, 124, rfl⟩
abbrev main_call2_v5 : Ref sig .tc := ⟨.hbm, 125, rfl⟩
abbrev main_call2_v6 : Ref sig .tc := ⟨.hbm, 126, rfl⟩
abbrev main_call2_v7 : Ref sig .tc := ⟨.hbm, 127, rfl⟩
abbrev main_call2_cst_1 : Ref sig .tc := ⟨.hbm, 128, rfl⟩
abbrev main_call2_v8 : Ref sig .tc := ⟨.hbm, 129, rfl⟩
abbrev main_call2_cst_2 : Ref sig .tc := ⟨.hbm, 130, rfl⟩
abbrev main_call2_v9 : Ref sig .tc := ⟨.hbm, 131, rfl⟩
abbrev main_call2_v10 : Ref sig .tc := ⟨.hbm, 132, rfl⟩
abbrev main_call2_v11 : Ref sig .tc := ⟨.hbm, 133, rfl⟩
abbrev main_call2_cst_3 : Ref sig .tc := ⟨.hbm, 134, rfl⟩
abbrev main_call2_v12 : Ref sig .tc := ⟨.hbm, 135, rfl⟩
abbrev main_call2_cst_4 : Ref sig .tc := ⟨.hbm, 136, rfl⟩
abbrev main_call2_call0_v0 : Ref sig .tc := ⟨.hbm, 137, rfl⟩
abbrev main_call2_call0_v1 : Ref sig .tc := ⟨.hbm, 138, rfl⟩
abbrev main_v67 : Ref sig .tc := ⟨.hbm, 139, rfl⟩
abbrev main_v68 : Ref sig .tc := ⟨.hbm, 140, rfl⟩
abbrev main_v69 : Ref sig .tc := ⟨.hbm, 141, rfl⟩
abbrev main_v70 : Ref sig .tc := ⟨.hbm, 142, rfl⟩
abbrev main_v71 : Ref sig .tc := ⟨.hbm, 143, rfl⟩
abbrev main_v72 : Ref sig .tc := ⟨.hbm, 144, rfl⟩
abbrev main_v73 : Ref sig .tc := ⟨.hbm, 145, rfl⟩
abbrev main_cst_9 : Ref sig .tc := ⟨.hbm, 146, rfl⟩
abbrev main_v74 : Ref sig .tc := ⟨.hbm, 147, rfl⟩
abbrev main_v75 : Ref sig .tc := ⟨.hbm, 148, rfl⟩
abbrev main_v76 : Ref sig .tc := ⟨.hbm, 149, rfl⟩
abbrev main_v77 : Ref sig .tc := ⟨.hbm, 150, rfl⟩
abbrev main_v78 : Ref sig .tc := ⟨.hbm, 151, rfl⟩
abbrev main_v79 : Ref sig .tc := ⟨.hbm, 152, rfl⟩
abbrev main_v80 : Ref sig .tc := ⟨.hbm, 153, rfl⟩
abbrev main_v81 : Ref sig .tc := ⟨.hbm, 154, rfl⟩
abbrev main_v82 : Ref sig .tc := ⟨.hbm, 155, rfl⟩
abbrev main_call3_cst : Ref sig .tc := ⟨.hbm, 156, rfl⟩
abbrev main_call3_v0 : Ref sig .tc := ⟨.hbm, 157, rfl⟩
abbrev main_v83 : Ref sig .tc := ⟨.hbm, 158, rfl⟩
abbrev main_c_10 : Ref sig .tc := ⟨.hbm, 159, rfl⟩
abbrev main_v84 : Ref sig .tc := ⟨.hbm, 160, rfl⟩
abbrev main_v85 : Ref sig .tc := ⟨.hbm, 161, rfl⟩
abbrev main_c_11 : Ref sig .tc := ⟨.hbm, 162, rfl⟩
abbrev main_v86 : Ref sig .tc := ⟨.hbm, 163, rfl⟩
abbrev main_v87 : Ref sig .tc := ⟨.hbm, 164, rfl⟩
abbrev main_v88 : Ref sig .tc := ⟨.hbm, 165, rfl⟩
abbrev main_v89 : Ref sig .tc := ⟨.hbm, 166, rfl⟩
abbrev main_v90 : Ref sig .tc := ⟨.hbm, 167, rfl⟩
abbrev main_cst_12 : Ref sig .tc := ⟨.hbm, 168, rfl⟩
abbrev main_v91 : Ref sig .tc := ⟨.hbm, 169, rfl⟩
abbrev main_v92 : Ref sig .tc := ⟨.hbm, 170, rfl⟩
abbrev main_v93 : Ref sig .tc := ⟨.hbm, 171, rfl⟩
abbrev main_v94 : Ref sig .tc := ⟨.hbm, 172, rfl⟩
abbrev main_v95 : Ref sig .tc := ⟨.hbm, 173, rfl⟩
abbrev main_cst_13 : Ref sig .tc := ⟨.hbm, 174, rfl⟩
abbrev main_v96 : Ref sig .tc := ⟨.hbm, 175, rfl⟩
abbrev main_v97 : Ref sig .tc := ⟨.hbm, 176, rfl⟩
abbrev main_v98 : Ref sig .tc := ⟨.hbm, 177, rfl⟩
abbrev main_v99 : Ref sig .tc := ⟨.hbm, 178, rfl⟩
abbrev main_v100 : Ref sig .tc := ⟨.hbm, 179, rfl⟩
abbrev main_v101 : Ref sig .tc := ⟨.hbm, 180, rfl⟩
abbrev main_v102 : Ref sig .tc := ⟨.hbm, 181, rfl⟩
abbrev main_v103 : Ref sig .tc := ⟨.hbm, 182, rfl⟩
abbrev main_v104 : Ref sig .tc := ⟨.hbm, 183, rfl⟩
abbrev main_v105 : Ref sig .tc := ⟨.hbm, 184, rfl⟩
abbrev main_v106 : Ref sig .tc := ⟨.hbm, 185, rfl⟩
abbrev main_v107 : Ref sig .tc := ⟨.hbm, 186, rfl⟩
abbrev main_v108 : Ref sig .tc := ⟨.hbm, 187, rfl⟩
abbrev main_v109 : Ref sig .tc := ⟨.hbm, 188, rfl⟩
abbrev main_v110 : Ref sig .tc := ⟨.hbm, 189, rfl⟩
abbrev main_v111 : Ref sig .tc := ⟨.hbm, 190, rfl⟩
abbrev main_cst_14 : Ref sig .tc := ⟨.hbm, 191, rfl⟩
abbrev main_v112 : Ref sig .tc := ⟨.hbm, 192, rfl⟩
abbrev main_cst_15 : Ref sig .tc := ⟨.hbm, 193, rfl⟩
abbrev main_v113 : Ref sig .tc := ⟨.hbm, 194, rfl⟩
abbrev main_v114 : Ref sig .tc := ⟨.hbm, 195, rfl⟩
abbrev main_c_16 : Ref sig .tc := ⟨.hbm, 196, rfl⟩
abbrev main_call4_cst : Ref sig .tc := ⟨.hbm, 197, rfl⟩
abbrev main_call4_v0 : Ref sig .tc := ⟨.hbm, 198, rfl⟩
abbrev main_call4_v1 : Ref sig .tc := ⟨.hbm, 199, rfl⟩
abbrev main_call4_cst_0 : Ref sig .tc := ⟨.hbm, 200, rfl⟩
abbrev main_call4_v2 : Ref sig .tc := ⟨.hbm, 201, rfl⟩
abbrev main_call4_v3 : Ref sig .tc := ⟨.hbm, 202, rfl⟩
abbrev main_call4_v4 : Ref sig .tc := ⟨.hbm, 203, rfl⟩
abbrev main_call4_v5 : Ref sig .tc := ⟨.hbm, 204, rfl⟩
abbrev main_call4_v6 : Ref sig .tc := ⟨.hbm, 205, rfl⟩
abbrev main_call4_v7 : Ref sig .tc := ⟨.hbm, 206, rfl⟩
abbrev main_call4_cst_1 : Ref sig .tc := ⟨.hbm, 207, rfl⟩
abbrev main_call4_v8 : Ref sig .tc := ⟨.hbm, 208, rfl⟩
abbrev main_call4_cst_2 : Ref sig .tc := ⟨.hbm, 209, rfl⟩
abbrev main_call4_v9 : Ref sig .tc := ⟨.hbm, 210, rfl⟩
abbrev main_call4_v10 : Ref sig .tc := ⟨.hbm, 211, rfl⟩
abbrev main_call4_v11 : Ref sig .tc := ⟨.hbm, 212, rfl⟩
abbrev main_call4_cst_3 : Ref sig .tc := ⟨.hbm, 213, rfl⟩
abbrev main_call4_v12 : Ref sig .tc := ⟨.hbm, 214, rfl⟩
abbrev main_call4_cst_4 : Ref sig .tc := ⟨.hbm, 215, rfl⟩
abbrev main_call4_call0_v0 : Ref sig .tc := ⟨.hbm, 216, rfl⟩
abbrev main_call4_call0_v1 : Ref sig .tc := ⟨.hbm, 217, rfl⟩
abbrev main_v115 : Ref sig .tc := ⟨.hbm, 218, rfl⟩
abbrev main_v116 : Ref sig .tc := ⟨.hbm, 219, rfl⟩
abbrev main_v117 : Ref sig .tc := ⟨.hbm, 220, rfl⟩
abbrev main_v118 : Ref sig .tc := ⟨.hbm, 221, rfl⟩
abbrev main_v119 : Ref sig .tc := ⟨.hbm, 222, rfl⟩
abbrev main_v120 : Ref sig .tc := ⟨.hbm, 223, rfl⟩
abbrev main_v121 : Ref sig .tc := ⟨.hbm, 224, rfl⟩
abbrev main_cst_17 : Ref sig .tc := ⟨.hbm, 225, rfl⟩
abbrev main_v122 : Ref sig .tc := ⟨.hbm, 226, rfl⟩
abbrev main_v123 : Ref sig .tc := ⟨.hbm, 227, rfl⟩
abbrev main_v124 : Ref sig .tc := ⟨.hbm, 228, rfl⟩
abbrev main_v125 : Ref sig .tc := ⟨.hbm, 229, rfl⟩
abbrev main_v126 : Ref sig .tc := ⟨.hbm, 230, rfl⟩
abbrev main_v127 : Ref sig .tc := ⟨.hbm, 231, rfl⟩
abbrev main_v128 : Ref sig .tc := ⟨.hbm, 232, rfl⟩
abbrev main_v129 : Ref sig .tc := ⟨.hbm, 233, rfl⟩
abbrev main_v130 : Ref sig .tc := ⟨.hbm, 234, rfl⟩
abbrev main_call5_cst : Ref sig .tc := ⟨.hbm, 235, rfl⟩
abbrev main_call5_v0 : Ref sig .tc := ⟨.hbm, 236, rfl⟩
abbrev main_v131 : Ref sig .tc := ⟨.hbm, 237, rfl⟩
abbrev main_v132 : Ref sig .tc := ⟨.hbm, 238, rfl⟩
abbrev main_v133 : Ref sig .tc := ⟨.hbm, 239, rfl⟩
abbrev main_v134 : Ref sig .tc := ⟨.hbm, 240, rfl⟩
abbrev main_v135 : Ref sig .tc := ⟨.hbm, 241, rfl⟩
abbrev main_v136 : Ref sig .tc := ⟨.hbm, 242, rfl⟩
abbrev main_v137 : Ref sig .tc := ⟨.hbm, 243, rfl⟩
abbrev main_v138 : Ref sig .tc := ⟨.hbm, 244, rfl⟩
abbrev main_v139 : Ref sig .tc := ⟨.hbm, 245, rfl⟩
abbrev main_v140 : Ref sig .tc := ⟨.hbm, 246, rfl⟩
abbrev main_v141 : Ref sig .tc := ⟨.hbm, 247, rfl⟩
abbrev main_v142 : Ref sig .tc := ⟨.hbm, 248, rfl⟩
abbrev main_v143 : Ref sig .tc := ⟨.hbm, 249, rfl⟩
abbrev main_cst_18 : Ref sig .tc := ⟨.hbm, 250, rfl⟩
abbrev main_v144 : Ref sig .tc := ⟨.hbm, 251, rfl⟩
abbrev main_cst_19 : Ref sig .tc := ⟨.hbm, 252, rfl⟩
abbrev main_v145 : Ref sig .tc := ⟨.hbm, 253, rfl⟩
abbrev main_v146 : Ref sig .tc := ⟨.hbm, 254, rfl⟩
abbrev main_c_20 : Ref sig .tc := ⟨.hbm, 255, rfl⟩
abbrev main_call6_cst : Ref sig .tc := ⟨.hbm, 256, rfl⟩
abbrev main_call6_v0 : Ref sig .tc := ⟨.hbm, 257, rfl⟩
abbrev main_call6_v1 : Ref sig .tc := ⟨.hbm, 258, rfl⟩
abbrev main_call6_cst_0 : Ref sig .tc := ⟨.hbm, 259, rfl⟩
abbrev main_call6_v2 : Ref sig .tc := ⟨.hbm, 260, rfl⟩
abbrev main_call6_v3 : Ref sig .tc := ⟨.hbm, 261, rfl⟩
abbrev main_call6_v4 : Ref sig .tc := ⟨.hbm, 262, rfl⟩
abbrev main_call6_v5 : Ref sig .tc := ⟨.hbm, 263, rfl⟩
abbrev main_call6_v6 : Ref sig .tc := ⟨.hbm, 264, rfl⟩
abbrev main_call6_v7 : Ref sig .tc := ⟨.hbm, 265, rfl⟩
abbrev main_call6_cst_1 : Ref sig .tc := ⟨.hbm, 266, rfl⟩
abbrev main_call6_v8 : Ref sig .tc := ⟨.hbm, 267, rfl⟩
abbrev main_call6_cst_2 : Ref sig .tc := ⟨.hbm, 268, rfl⟩
abbrev main_call6_v9 : Ref sig .tc := ⟨.hbm, 269, rfl⟩
abbrev main_call6_v10 : Ref sig .tc := ⟨.hbm, 270, rfl⟩
abbrev main_call6_v11 : Ref sig .tc := ⟨.hbm, 271, rfl⟩
abbrev main_call6_cst_3 : Ref sig .tc := ⟨.hbm, 272, rfl⟩
abbrev main_call6_v12 : Ref sig .tc := ⟨.hbm, 273, rfl⟩
abbrev main_call6_cst_4 : Ref sig .tc := ⟨.hbm, 274, rfl⟩
abbrev main_call6_call0_v0 : Ref sig .tc := ⟨.hbm, 275, rfl⟩
abbrev main_call6_call0_v1 : Ref sig .tc := ⟨.hbm, 276, rfl⟩
abbrev main_v147 : Ref sig .tc := ⟨.hbm, 277, rfl⟩
abbrev main_v148 : Ref sig .tc := ⟨.hbm, 278, rfl⟩
abbrev main_v149 : Ref sig .tc := ⟨.hbm, 279, rfl⟩
abbrev main_v150 : Ref sig .tc := ⟨.hbm, 280, rfl⟩
abbrev main_v151 : Ref sig .tc := ⟨.hbm, 281, rfl⟩
abbrev main_v152 : Ref sig .tc := ⟨.hbm, 282, rfl⟩
abbrev main_v153 : Ref sig .tc := ⟨.hbm, 283, rfl⟩
abbrev main_cst_21 : Ref sig .tc := ⟨.hbm, 284, rfl⟩
abbrev main_v154 : Ref sig .tc := ⟨.hbm, 285, rfl⟩
abbrev main_v155 : Ref sig .tc := ⟨.hbm, 286, rfl⟩
abbrev main_v156 : Ref sig .tc := ⟨.hbm, 287, rfl⟩
abbrev main_v157 : Ref sig .tc := ⟨.hbm, 288, rfl⟩
abbrev main_v158 : Ref sig .tc := ⟨.hbm, 289, rfl⟩
abbrev main_v159 : Ref sig .tc := ⟨.hbm, 290, rfl⟩
abbrev main_v160 : Ref sig .tc := ⟨.hbm, 291, rfl⟩
abbrev main_v161 : Ref sig .tc := ⟨.hbm, 292, rfl⟩
abbrev main_v162 : Ref sig .tc := ⟨.hbm, 293, rfl⟩
abbrev main_call7_cst : Ref sig .tc := ⟨.hbm, 294, rfl⟩
abbrev main_call7_v0 : Ref sig .tc := ⟨.hbm, 295, rfl⟩
abbrev main_v163 : Ref sig .tc := ⟨.hbm, 296, rfl⟩
abbrev main_c_22 : Ref sig .tc := ⟨.hbm, 297, rfl⟩
abbrev main_v164 : Ref sig .tc := ⟨.hbm, 298, rfl⟩
abbrev main_v165 : Ref sig .tc := ⟨.hbm, 299, rfl⟩
abbrev main_c_23 : Ref sig .tc := ⟨.hbm, 300, rfl⟩
abbrev main_v166 : Ref sig .tc := ⟨.hbm, 301, rfl⟩
abbrev main_v167 : Ref sig .tc := ⟨.hbm, 302, rfl⟩
abbrev main_v168 : Ref sig .tc := ⟨.hbm, 303, rfl⟩
abbrev main_v169 : Ref sig .tc := ⟨.hbm, 304, rfl⟩
abbrev main_v170 : Ref sig .tc := ⟨.hbm, 305, rfl⟩
abbrev main_cst_24 : Ref sig .tc := ⟨.hbm, 306, rfl⟩
abbrev main_v171 : Ref sig .tc := ⟨.hbm, 307, rfl⟩
abbrev main_v172 : Ref sig .tc := ⟨.hbm, 308, rfl⟩
abbrev main_v173 : Ref sig .tc := ⟨.hbm, 309, rfl⟩
abbrev main_v174 : Ref sig .tc := ⟨.hbm, 310, rfl⟩
abbrev main_v175 : Ref sig .tc := ⟨.hbm, 311, rfl⟩
abbrev main_cst_25 : Ref sig .tc := ⟨.hbm, 312, rfl⟩
abbrev main_v176 : Ref sig .tc := ⟨.hbm, 313, rfl⟩
abbrev main_v177 : Ref sig .tc := ⟨.hbm, 314, rfl⟩
abbrev main_v178 : Ref sig .tc := ⟨.hbm, 315, rfl⟩
abbrev main_v179 : Ref sig .tc := ⟨.hbm, 316, rfl⟩
abbrev main_v180 : Ref sig .tc := ⟨.hbm, 317, rfl⟩
abbrev main_v181 : Ref sig .tc := ⟨.hbm, 318, rfl⟩
abbrev main_v182 : Ref sig .tc := ⟨.hbm, 319, rfl⟩
abbrev main_v183 : Ref sig .tc := ⟨.hbm, 320, rfl⟩
abbrev main_v184 : Ref sig .tc := ⟨.hbm, 321, rfl⟩
abbrev main_v185 : Ref sig .tc := ⟨.hbm, 322, rfl⟩
abbrev main_v186 : Ref sig .tc := ⟨.hbm, 323, rfl⟩
abbrev main_v187 : Ref sig .tc := ⟨.hbm, 324, rfl⟩
abbrev main_v188 : Ref sig .tc := ⟨.hbm, 325, rfl⟩
abbrev main_v189 : Ref sig .tc := ⟨.hbm, 326, rfl⟩
abbrev main_v190 : Ref sig .tc := ⟨.hbm, 327, rfl⟩
abbrev main_v191 : Ref sig .tc := ⟨.hbm, 328, rfl⟩
abbrev main_cst_26 : Ref sig .tc := ⟨.hbm, 329, rfl⟩
abbrev main_v192 : Ref sig .tc := ⟨.hbm, 330, rfl⟩
abbrev main_cst_27 : Ref sig .tc := ⟨.hbm, 331, rfl⟩
abbrev main_v193 : Ref sig .tc := ⟨.hbm, 332, rfl⟩
abbrev main_v194 : Ref sig .tc := ⟨.hbm, 333, rfl⟩
abbrev main_c_28 : Ref sig .tc := ⟨.hbm, 334, rfl⟩
abbrev main_call8_cst : Ref sig .tc := ⟨.hbm, 335, rfl⟩
abbrev main_call8_v0 : Ref sig .tc := ⟨.hbm, 336, rfl⟩
abbrev main_call8_v1 : Ref sig .tc := ⟨.hbm, 337, rfl⟩
abbrev main_call8_cst_0 : Ref sig .tc := ⟨.hbm, 338, rfl⟩
abbrev main_call8_v2 : Ref sig .tc := ⟨.hbm, 339, rfl⟩
abbrev main_call8_v3 : Ref sig .tc := ⟨.hbm, 340, rfl⟩
abbrev main_call8_v4 : Ref sig .tc := ⟨.hbm, 341, rfl⟩
abbrev main_call8_v5 : Ref sig .tc := ⟨.hbm, 342, rfl⟩
abbrev main_call8_v6 : Ref sig .tc := ⟨.hbm, 343, rfl⟩
abbrev main_call8_v7 : Ref sig .tc := ⟨.hbm, 344, rfl⟩
abbrev main_call8_cst_1 : Ref sig .tc := ⟨.hbm, 345, rfl⟩
abbrev main_call8_v8 : Ref sig .tc := ⟨.hbm, 346, rfl⟩
abbrev main_call8_cst_2 : Ref sig .tc := ⟨.hbm, 347, rfl⟩
abbrev main_call8_v9 : Ref sig .tc := ⟨.hbm, 348, rfl⟩
abbrev main_call8_v10 : Ref sig .tc := ⟨.hbm, 349, rfl⟩
abbrev main_call8_v11 : Ref sig .tc := ⟨.hbm, 350, rfl⟩
abbrev main_call8_cst_3 : Ref sig .tc := ⟨.hbm, 351, rfl⟩
abbrev main_call8_v12 : Ref sig .tc := ⟨.hbm, 352, rfl⟩
abbrev main_call8_cst_4 : Ref sig .tc := ⟨.hbm, 353, rfl⟩
abbrev main_call8_call0_v0 : Ref sig .tc := ⟨.hbm, 354, rfl⟩
abbrev main_call8_call0_v1 : Ref sig .tc := ⟨.hbm, 355, rfl⟩
abbrev main_v195 : Ref sig .tc := ⟨.hbm, 356, rfl⟩
abbrev main_v196 : Ref sig .tc := ⟨.hbm, 357, rfl⟩
abbrev main_v197 : Ref sig .tc := ⟨.hbm, 358, rfl⟩
abbrev main_v198 : Ref sig .tc := ⟨.hbm, 359, rfl⟩
abbrev main_v199 : Ref sig .tc := ⟨.hbm, 360, rfl⟩
abbrev main_v200 : Ref sig .tc := ⟨.hbm, 361, rfl⟩
abbrev main_v201 : Ref sig .tc := ⟨.hbm, 362, rfl⟩
abbrev main_cst_29 : Ref sig .tc := ⟨.hbm, 363, rfl⟩
abbrev main_v202 : Ref sig .tc := ⟨.hbm, 364, rfl⟩
abbrev main_v203 : Ref sig .tc := ⟨.hbm, 365, rfl⟩
abbrev main_v204 : Ref sig .tc := ⟨.hbm, 366, rfl⟩
abbrev main_v205 : Ref sig .tc := ⟨.hbm, 367, rfl⟩
abbrev main_v206 : Ref sig .tc := ⟨.hbm, 368, rfl⟩
abbrev main_v207 : Ref sig .tc := ⟨.hbm, 369, rfl⟩
abbrev main_v208 : Ref sig .tc := ⟨.hbm, 370, rfl⟩
abbrev main_v209 : Ref sig .tc := ⟨.hbm, 371, rfl⟩
abbrev main_v210 : Ref sig .tc := ⟨.hbm, 372, rfl⟩
abbrev main_call9_cst : Ref sig .tc := ⟨.hbm, 373, rfl⟩
abbrev main_call9_v0 : Ref sig .tc := ⟨.hbm, 374, rfl⟩
abbrev main_v211 : Ref sig .tc := ⟨.hbm, 375, rfl⟩
abbrev main_v212 : Ref sig .tc := ⟨.hbm, 376, rfl⟩
abbrev main_v213 : Ref sig .tc := ⟨.hbm, 377, rfl⟩
abbrev main_v214 : Ref sig .tc := ⟨.hbm, 378, rfl⟩
abbrev main_v215 : Ref sig .tc := ⟨.hbm, 379, rfl⟩
abbrev main_v216 : Ref sig .tc := ⟨.hbm, 380, rfl⟩
abbrev main_v217 : Ref sig .tc := ⟨.hbm, 381, rfl⟩
abbrev main_v218 : Ref sig .tc := ⟨.hbm, 382, rfl⟩
abbrev main_v219 : Ref sig .tc := ⟨.hbm, 383, rfl⟩
abbrev main_v220 : Ref sig .tc := ⟨.hbm, 384, rfl⟩
abbrev main_v221 : Ref sig .tc := ⟨.hbm, 385, rfl⟩
abbrev main_v222 : Ref sig .tc := ⟨.hbm, 386, rfl⟩
abbrev main_v223 : Ref sig .tc := ⟨.hbm, 387, rfl⟩
abbrev main_cst_30 : Ref sig .tc := ⟨.hbm, 388, rfl⟩
abbrev main_v224 : Ref sig .tc := ⟨.hbm, 389, rfl⟩
abbrev main_cst_31 : Ref sig .tc := ⟨.hbm, 390, rfl⟩
abbrev main_v225 : Ref sig .tc := ⟨.hbm, 391, rfl⟩
abbrev main_v226 : Ref sig .tc := ⟨.hbm, 392, rfl⟩
abbrev main_c_32 : Ref sig .tc := ⟨.hbm, 393, rfl⟩
abbrev main_call10_cst : Ref sig .tc := ⟨.hbm, 394, rfl⟩
abbrev main_call10_v0 : Ref sig .tc := ⟨.hbm, 395, rfl⟩
abbrev main_call10_v1 : Ref sig .tc := ⟨.hbm, 396, rfl⟩
abbrev main_call10_cst_0 : Ref sig .tc := ⟨.hbm, 397, rfl⟩
abbrev main_call10_v2 : Ref sig .tc := ⟨.hbm, 398, rfl⟩
abbrev main_call10_v3 : Ref sig .tc := ⟨.hbm, 399, rfl⟩
abbrev main_call10_v4 : Ref sig .tc := ⟨.hbm, 400, rfl⟩
abbrev main_call10_v5 : Ref sig .tc := ⟨.hbm, 401, rfl⟩
abbrev main_call10_v6 : Ref sig .tc := ⟨.hbm, 402, rfl⟩
abbrev main_call10_v7 : Ref sig .tc := ⟨.hbm, 403, rfl⟩
abbrev main_call10_cst_1 : Ref sig .tc := ⟨.hbm, 404, rfl⟩
abbrev main_call10_v8 : Ref sig .tc := ⟨.hbm, 405, rfl⟩
abbrev main_call10_cst_2 : Ref sig .tc := ⟨.hbm, 406, rfl⟩
abbrev main_call10_v9 : Ref sig .tc := ⟨.hbm, 407, rfl⟩
abbrev main_call10_v10 : Ref sig .tc := ⟨.hbm, 408, rfl⟩
abbrev main_call10_v11 : Ref sig .tc := ⟨.hbm, 409, rfl⟩
abbrev main_call10_cst_3 : Ref sig .tc := ⟨.hbm, 410, rfl⟩
abbrev main_call10_v12 : Ref sig .tc := ⟨.hbm, 411, rfl⟩
abbrev main_call10_cst_4 : Ref sig .tc := ⟨.hbm, 412, rfl⟩
abbrev main_call10_call0_v0 : Ref sig .tc := ⟨.hbm, 413, rfl⟩
abbrev main_call10_call0_v1 : Ref sig .tc := ⟨.hbm, 414, rfl⟩
abbrev main_v227 : Ref sig .tc := ⟨.hbm, 415, rfl⟩
abbrev main_v228 : Ref sig .tc := ⟨.hbm, 416, rfl⟩
abbrev main_v229 : Ref sig .tc := ⟨.hbm, 417, rfl⟩
abbrev main_v230 : Ref sig .tc := ⟨.hbm, 418, rfl⟩
abbrev main_v231 : Ref sig .tc := ⟨.hbm, 419, rfl⟩
abbrev main_v232 : Ref sig .tc := ⟨.hbm, 420, rfl⟩
abbrev main_v233 : Ref sig .tc := ⟨.hbm, 421, rfl⟩
abbrev main_cst_33 : Ref sig .tc := ⟨.hbm, 422, rfl⟩
abbrev main_v234 : Ref sig .tc := ⟨.hbm, 423, rfl⟩
abbrev main_v235 : Ref sig .tc := ⟨.hbm, 424, rfl⟩
abbrev main_v236 : Ref sig .tc := ⟨.hbm, 425, rfl⟩
abbrev main_v237 : Ref sig .tc := ⟨.hbm, 426, rfl⟩
abbrev main_v238 : Ref sig .tc := ⟨.hbm, 427, rfl⟩
abbrev main_v239 : Ref sig .tc := ⟨.hbm, 428, rfl⟩
abbrev main_v240 : Ref sig .tc := ⟨.hbm, 429, rfl⟩
abbrev main_v241 : Ref sig .tc := ⟨.hbm, 430, rfl⟩
abbrev main_v242 : Ref sig .tc := ⟨.hbm, 431, rfl⟩
abbrev main_call11_cst : Ref sig .tc := ⟨.hbm, 432, rfl⟩
abbrev main_call11_v0 : Ref sig .tc := ⟨.hbm, 433, rfl⟩
abbrev main_v243 : Ref sig .tc := ⟨.hbm, 434, rfl⟩
abbrev main_c_34 : Ref sig .tc := ⟨.hbm, 435, rfl⟩
abbrev main_v244 : Ref sig .tc := ⟨.hbm, 436, rfl⟩
abbrev main_v245 : Ref sig .tc := ⟨.hbm, 437, rfl⟩
abbrev main_c_35 : Ref sig .tc := ⟨.hbm, 438, rfl⟩
abbrev main_v246 : Ref sig .tc := ⟨.hbm, 439, rfl⟩
abbrev main_v247 : Ref sig .tc := ⟨.hbm, 440, rfl⟩
abbrev main_v248 : Ref sig .tc := ⟨.hbm, 441, rfl⟩
abbrev main_v249 : Ref sig .tc := ⟨.hbm, 442, rfl⟩
abbrev main_v250 : Ref sig .tc := ⟨.hbm, 443, rfl⟩
abbrev main_cst_36 : Ref sig .tc := ⟨.hbm, 444, rfl⟩
abbrev main_v251 : Ref sig .tc := ⟨.hbm, 445, rfl⟩
abbrev main_v252 : Ref sig .tc := ⟨.hbm, 446, rfl⟩
abbrev main_v253 : Ref sig .tc := ⟨.hbm, 447, rfl⟩
abbrev main_v254 : Ref sig .tc := ⟨.hbm, 448, rfl⟩
abbrev main_v255 : Ref sig .tc := ⟨.hbm, 449, rfl⟩
abbrev main_cst_37 : Ref sig .tc := ⟨.hbm, 450, rfl⟩
abbrev main_v256 : Ref sig .tc := ⟨.hbm, 451, rfl⟩
abbrev main_v257 : Ref sig .tc := ⟨.hbm, 452, rfl⟩
abbrev main_v258 : Ref sig .tc := ⟨.hbm, 453, rfl⟩
abbrev main_v259 : Ref sig .tc := ⟨.hbm, 454, rfl⟩
abbrev main_v260 : Ref sig .tc := ⟨.hbm, 455, rfl⟩
abbrev main_v261 : Ref sig .tc := ⟨.hbm, 456, rfl⟩
abbrev main_v262 : Ref sig .tc := ⟨.hbm, 457, rfl⟩
abbrev main_v263 : Ref sig .tc := ⟨.hbm, 458, rfl⟩
abbrev main_v264 : Ref sig .tc := ⟨.hbm, 459, rfl⟩
abbrev main_v265 : Ref sig .tc := ⟨.hbm, 460, rfl⟩
abbrev main_v266 : Ref sig .tc := ⟨.hbm, 461, rfl⟩
abbrev main_v267 : Ref sig .tc := ⟨.hbm, 462, rfl⟩
abbrev main_v268 : Ref sig .tc := ⟨.hbm, 463, rfl⟩
abbrev main_v269 : Ref sig .tc := ⟨.hbm, 464, rfl⟩
abbrev main_v270 : Ref sig .tc := ⟨.hbm, 465, rfl⟩
abbrev main_v271 : Ref sig .tc := ⟨.hbm, 466, rfl⟩
abbrev main_cst_38 : Ref sig .tc := ⟨.hbm, 467, rfl⟩
abbrev main_v272 : Ref sig .tc := ⟨.hbm, 468, rfl⟩
abbrev main_cst_39 : Ref sig .tc := ⟨.hbm, 469, rfl⟩
abbrev main_v273 : Ref sig .tc := ⟨.hbm, 470, rfl⟩
abbrev main_v274 : Ref sig .tc := ⟨.hbm, 471, rfl⟩
abbrev main_c_40 : Ref sig .tc := ⟨.hbm, 472, rfl⟩
abbrev main_call12_cst : Ref sig .tc := ⟨.hbm, 473, rfl⟩
abbrev main_call12_v0 : Ref sig .tc := ⟨.hbm, 474, rfl⟩
abbrev main_call12_v1 : Ref sig .tc := ⟨.hbm, 475, rfl⟩
abbrev main_call12_cst_0 : Ref sig .tc := ⟨.hbm, 476, rfl⟩
abbrev main_call12_v2 : Ref sig .tc := ⟨.hbm, 477, rfl⟩
abbrev main_call12_v3 : Ref sig .tc := ⟨.hbm, 478, rfl⟩
abbrev main_call12_v4 : Ref sig .tc := ⟨.hbm, 479, rfl⟩
abbrev main_call12_v5 : Ref sig .tc := ⟨.hbm, 480, rfl⟩
abbrev main_call12_v6 : Ref sig .tc := ⟨.hbm, 481, rfl⟩
abbrev main_call12_v7 : Ref sig .tc := ⟨.hbm, 482, rfl⟩
abbrev main_call12_cst_1 : Ref sig .tc := ⟨.hbm, 483, rfl⟩
abbrev main_call12_v8 : Ref sig .tc := ⟨.hbm, 484, rfl⟩
abbrev main_call12_cst_2 : Ref sig .tc := ⟨.hbm, 485, rfl⟩
abbrev main_call12_v9 : Ref sig .tc := ⟨.hbm, 486, rfl⟩
abbrev main_call12_v10 : Ref sig .tc := ⟨.hbm, 487, rfl⟩
abbrev main_call12_v11 : Ref sig .tc := ⟨.hbm, 488, rfl⟩
abbrev main_call12_cst_3 : Ref sig .tc := ⟨.hbm, 489, rfl⟩
abbrev main_call12_v12 : Ref sig .tc := ⟨.hbm, 490, rfl⟩
abbrev main_call12_cst_4 : Ref sig .tc := ⟨.hbm, 491, rfl⟩
abbrev main_call12_call0_v0 : Ref sig .tc := ⟨.hbm, 492, rfl⟩
abbrev main_call12_call0_v1 : Ref sig .tc := ⟨.hbm, 493, rfl⟩
abbrev main_v275 : Ref sig .tc := ⟨.hbm, 494, rfl⟩
abbrev main_v276 : Ref sig .tc := ⟨.hbm, 495, rfl⟩
abbrev main_v277 : Ref sig .tc := ⟨.hbm, 496, rfl⟩
abbrev main_v278 : Ref sig .tc := ⟨.hbm, 497, rfl⟩
abbrev main_v279 : Ref sig .tc := ⟨.hbm, 498, rfl⟩
abbrev main_v280 : Ref sig .tc := ⟨.hbm, 499, rfl⟩
abbrev main_v281 : Ref sig .tc := ⟨.hbm, 500, rfl⟩
abbrev main_cst_41 : Ref sig .tc := ⟨.hbm, 501, rfl⟩
abbrev main_v282 : Ref sig .tc := ⟨.hbm, 502, rfl⟩
abbrev main_v283 : Ref sig .tc := ⟨.hbm, 503, rfl⟩
abbrev main_v284 : Ref sig .tc := ⟨.hbm, 504, rfl⟩
abbrev main_v285 : Ref sig .tc := ⟨.hbm, 505, rfl⟩
abbrev main_v286 : Ref sig .tc := ⟨.hbm, 506, rfl⟩
abbrev main_v287 : Ref sig .tc := ⟨.hbm, 507, rfl⟩
abbrev main_v288 : Ref sig .tc := ⟨.hbm, 508, rfl⟩
abbrev main_v289 : Ref sig .tc := ⟨.hbm, 509, rfl⟩
abbrev main_v290 : Ref sig .tc := ⟨.hbm, 510, rfl⟩
abbrev main_call13_cst : Ref sig .tc := ⟨.hbm, 511, rfl⟩
abbrev main_call13_v0 : Ref sig .tc := ⟨.hbm, 512, rfl⟩
abbrev main_v291 : Ref sig .tc := ⟨.hbm, 513, rfl⟩
abbrev main_v292 : Ref sig .tc := ⟨.hbm, 514, rfl⟩
abbrev main_v293 : Ref sig .tc := ⟨.hbm, 515, rfl⟩
abbrev main_v294 : Ref sig .tc := ⟨.hbm, 516, rfl⟩
abbrev main_v295 : Ref sig .tc := ⟨.hbm, 517, rfl⟩
abbrev main_v296 : Ref sig .tc := ⟨.hbm, 518, rfl⟩
abbrev main_v297 : Ref sig .tc := ⟨.hbm, 519, rfl⟩
abbrev main_v298 : Ref sig .tc := ⟨.hbm, 520, rfl⟩
abbrev main_v299 : Ref sig .tc := ⟨.hbm, 521, rfl⟩
abbrev main_v300 : Ref sig .tc := ⟨.hbm, 522, rfl⟩
abbrev main_v301 : Ref sig .tc := ⟨.hbm, 523, rfl⟩
abbrev main_v302 : Ref sig .tc := ⟨.hbm, 524, rfl⟩
abbrev main_v303 : Ref sig .tc := ⟨.hbm, 525, rfl⟩
abbrev main_cst_42 : Ref sig .tc := ⟨.hbm, 526, rfl⟩
abbrev main_v304 : Ref sig .tc := ⟨.hbm, 527, rfl⟩
abbrev main_cst_43 : Ref sig .tc := ⟨.hbm, 528, rfl⟩
abbrev main_v305 : Ref sig .tc := ⟨.hbm, 529, rfl⟩
abbrev main_v306 : Ref sig .tc := ⟨.hbm, 530, rfl⟩
abbrev main_c_44 : Ref sig .tc := ⟨.hbm, 531, rfl⟩
abbrev main_call14_cst : Ref sig .tc := ⟨.hbm, 532, rfl⟩
abbrev main_call14_v0 : Ref sig .tc := ⟨.hbm, 533, rfl⟩
abbrev main_call14_v1 : Ref sig .tc := ⟨.hbm, 534, rfl⟩
abbrev main_call14_cst_0 : Ref sig .tc := ⟨.hbm, 535, rfl⟩
abbrev main_call14_v2 : Ref sig .tc := ⟨.hbm, 536, rfl⟩
abbrev main_call14_v3 : Ref sig .tc := ⟨.hbm, 537, rfl⟩
abbrev main_call14_v4 : Ref sig .tc := ⟨.hbm, 538, rfl⟩
abbrev main_call14_v5 : Ref sig .tc := ⟨.hbm, 539, rfl⟩
abbrev main_call14_v6 : Ref sig .tc := ⟨.hbm, 540, rfl⟩
abbrev main_call14_v7 : Ref sig .tc := ⟨.hbm, 541, rfl⟩
abbrev main_call14_cst_1 : Ref sig .tc := ⟨.hbm, 542, rfl⟩
abbrev main_call14_v8 : Ref sig .tc := ⟨.hbm, 543, rfl⟩
abbrev main_call14_cst_2 : Ref sig .tc := ⟨.hbm, 544, rfl⟩
abbrev main_call14_v9 : Ref sig .tc := ⟨.hbm, 545, rfl⟩
abbrev main_call14_v10 : Ref sig .tc := ⟨.hbm, 546, rfl⟩
abbrev main_call14_v11 : Ref sig .tc := ⟨.hbm, 547, rfl⟩
abbrev main_call14_cst_3 : Ref sig .tc := ⟨.hbm, 548, rfl⟩
abbrev main_call14_v12 : Ref sig .tc := ⟨.hbm, 549, rfl⟩
abbrev main_call14_cst_4 : Ref sig .tc := ⟨.hbm, 550, rfl⟩
abbrev main_call14_call0_v0 : Ref sig .tc := ⟨.hbm, 551, rfl⟩
abbrev main_call14_call0_v1 : Ref sig .tc := ⟨.hbm, 552, rfl⟩
abbrev main_v307 : Ref sig .tc := ⟨.hbm, 553, rfl⟩
abbrev main_v308 : Ref sig .tc := ⟨.hbm, 554, rfl⟩
abbrev main_v309 : Ref sig .tc := ⟨.hbm, 555, rfl⟩
abbrev main_v310 : Ref sig .tc := ⟨.hbm, 556, rfl⟩
abbrev main_v311 : Ref sig .tc := ⟨.hbm, 557, rfl⟩
abbrev main_v312 : Ref sig .tc := ⟨.hbm, 558, rfl⟩
abbrev main_v313 : Ref sig .tc := ⟨.hbm, 559, rfl⟩
abbrev main_cst_45 : Ref sig .tc := ⟨.hbm, 560, rfl⟩
abbrev main_v314 : Ref sig .tc := ⟨.hbm, 561, rfl⟩
abbrev main_v315 : Ref sig .tc := ⟨.hbm, 562, rfl⟩
abbrev main_v316 : Ref sig .tc := ⟨.hbm, 563, rfl⟩
abbrev main_v317 : Ref sig .tc := ⟨.hbm, 564, rfl⟩
abbrev main_v318 : Ref sig .tc := ⟨.hbm, 565, rfl⟩
abbrev main_v319 : Ref sig .tc := ⟨.hbm, 566, rfl⟩
abbrev main_v320 : Ref sig .tc := ⟨.hbm, 567, rfl⟩
abbrev main_v321 : Ref sig .tc := ⟨.hbm, 568, rfl⟩
abbrev main_v322 : Ref sig .tc := ⟨.hbm, 569, rfl⟩
abbrev main_call15_cst : Ref sig .tc := ⟨.hbm, 570, rfl⟩
abbrev main_call15_v0 : Ref sig .tc := ⟨.hbm, 571, rfl⟩
abbrev main_v323 : Ref sig .tc := ⟨.hbm, 572, rfl⟩
abbrev main_c_46 : Ref sig .tc := ⟨.hbm, 573, rfl⟩
abbrev main_v324 : Ref sig .tc := ⟨.hbm, 574, rfl⟩
abbrev main_v325 : Ref sig .tc := ⟨.hbm, 575, rfl⟩
abbrev main_c_47 : Ref sig .tc := ⟨.hbm, 576, rfl⟩
abbrev main_v326 : Ref sig .tc := ⟨.hbm, 577, rfl⟩
abbrev main_v327 : Ref sig .tc := ⟨.hbm, 578, rfl⟩
abbrev main_v328 : Ref sig .tc := ⟨.hbm, 579, rfl⟩
abbrev main_v329 : Ref sig .tc := ⟨.hbm, 580, rfl⟩
abbrev main_v330 : Ref sig .tc := ⟨.hbm, 581, rfl⟩
abbrev main_cst_48 : Ref sig .tc := ⟨.hbm, 582, rfl⟩
abbrev main_v331 : Ref sig .tc := ⟨.hbm, 583, rfl⟩
abbrev main_v332 : Ref sig .tc := ⟨.hbm, 584, rfl⟩
abbrev main_v333 : Ref sig .tc := ⟨.hbm, 585, rfl⟩
abbrev main_v334 : Ref sig .tc := ⟨.hbm, 586, rfl⟩
abbrev main_v335 : Ref sig .tc := ⟨.hbm, 587, rfl⟩
abbrev main_cst_49 : Ref sig .tc := ⟨.hbm, 588, rfl⟩
abbrev main_v336 : Ref sig .tc := ⟨.hbm, 589, rfl⟩
abbrev main_v337 : Ref sig .tc := ⟨.hbm, 590, rfl⟩
abbrev main_v338 : Ref sig .tc := ⟨.hbm, 591, rfl⟩
abbrev main_v339 : Ref sig .tc := ⟨.hbm, 592, rfl⟩
abbrev main_v340 : Ref sig .tc := ⟨.hbm, 593, rfl⟩
abbrev main_v341 : Ref sig .tc := ⟨.hbm, 594, rfl⟩
abbrev main_v342 : Ref sig .tc := ⟨.hbm, 595, rfl⟩
abbrev main_v343 : Ref sig .tc := ⟨.hbm, 596, rfl⟩
abbrev main_v344 : Ref sig .tc := ⟨.hbm, 597, rfl⟩
abbrev main_v345 : Ref sig .tc := ⟨.hbm, 598, rfl⟩
abbrev main_v346 : Ref sig .tc := ⟨.hbm, 599, rfl⟩
abbrev main_v347 : Ref sig .tc := ⟨.hbm, 600, rfl⟩
abbrev main_v348 : Ref sig .tc := ⟨.hbm, 601, rfl⟩
abbrev main_v349 : Ref sig .tc := ⟨.hbm, 602, rfl⟩
abbrev main_v350 : Ref sig .tc := ⟨.hbm, 603, rfl⟩
abbrev main_v351 : Ref sig .tc := ⟨.hbm, 604, rfl⟩
abbrev main_cst_50 : Ref sig .tc := ⟨.hbm, 605, rfl⟩
abbrev main_v352 : Ref sig .tc := ⟨.hbm, 606, rfl⟩
abbrev main_cst_51 : Ref sig .tc := ⟨.hbm, 607, rfl⟩
abbrev main_v353 : Ref sig .tc := ⟨.hbm, 608, rfl⟩
abbrev main_v354 : Ref sig .tc := ⟨.hbm, 609, rfl⟩
abbrev main_c_52 : Ref sig .tc := ⟨.hbm, 610, rfl⟩
abbrev main_call16_cst : Ref sig .tc := ⟨.hbm, 611, rfl⟩
abbrev main_call16_v0 : Ref sig .tc := ⟨.hbm, 612, rfl⟩
abbrev main_call16_v1 : Ref sig .tc := ⟨.hbm, 613, rfl⟩
abbrev main_call16_cst_0 : Ref sig .tc := ⟨.hbm, 614, rfl⟩
abbrev main_call16_v2 : Ref sig .tc := ⟨.hbm, 615, rfl⟩
abbrev main_call16_v3 : Ref sig .tc := ⟨.hbm, 616, rfl⟩
abbrev main_call16_v4 : Ref sig .tc := ⟨.hbm, 617, rfl⟩
abbrev main_call16_v5 : Ref sig .tc := ⟨.hbm, 618, rfl⟩
abbrev main_call16_v6 : Ref sig .tc := ⟨.hbm, 619, rfl⟩
abbrev main_call16_v7 : Ref sig .tc := ⟨.hbm, 620, rfl⟩
abbrev main_call16_cst_1 : Ref sig .tc := ⟨.hbm, 621, rfl⟩
abbrev main_call16_v8 : Ref sig .tc := ⟨.hbm, 622, rfl⟩
abbrev main_call16_cst_2 : Ref sig .tc := ⟨.hbm, 623, rfl⟩
abbrev main_call16_v9 : Ref sig .tc := ⟨.hbm, 624, rfl⟩
abbrev main_call16_v10 : Ref sig .tc := ⟨.hbm, 625, rfl⟩
abbrev main_call16_v11 : Ref sig .tc := ⟨.hbm, 626, rfl⟩
abbrev main_call16_cst_3 : Ref sig .tc := ⟨.hbm, 627, rfl⟩
abbrev main_call16_v12 : Ref sig .tc := ⟨.hbm, 628, rfl⟩
abbrev main_call16_cst_4 : Ref sig .tc := ⟨.hbm, 629, rfl⟩
abbrev main_call16_call0_v0 : Ref sig .tc := ⟨.hbm, 630, rfl⟩
abbrev main_call16_call0_v1 : Ref sig .tc := ⟨.hbm, 631, rfl⟩
abbrev main_v355 : Ref sig .tc := ⟨.hbm, 632, rfl⟩
abbrev main_v356 : Ref sig .tc := ⟨.hbm, 633, rfl⟩
abbrev main_v357 : Ref sig .tc := ⟨.hbm, 634, rfl⟩
abbrev main_v358 : Ref sig .tc := ⟨.hbm, 635, rfl⟩
abbrev main_v359 : Ref sig .tc := ⟨.hbm, 636, rfl⟩
abbrev main_v360 : Ref sig .tc := ⟨.hbm, 637, rfl⟩
abbrev main_v361 : Ref sig .tc := ⟨.hbm, 638, rfl⟩
abbrev main_cst_53 : Ref sig .tc := ⟨.hbm, 639, rfl⟩
abbrev main_v362 : Ref sig .tc := ⟨.hbm, 640, rfl⟩
abbrev main_v363 : Ref sig .tc := ⟨.hbm, 641, rfl⟩
abbrev main_v364 : Ref sig .tc := ⟨.hbm, 642, rfl⟩
abbrev main_v365 : Ref sig .tc := ⟨.hbm, 643, rfl⟩
abbrev main_v366 : Ref sig .tc := ⟨.hbm, 644, rfl⟩
abbrev main_v367 : Ref sig .tc := ⟨.hbm, 645, rfl⟩
abbrev main_v368 : Ref sig .tc := ⟨.hbm, 646, rfl⟩
abbrev main_v369 : Ref sig .tc := ⟨.hbm, 647, rfl⟩
abbrev main_v370 : Ref sig .tc := ⟨.hbm, 648, rfl⟩
abbrev main_call17_cst : Ref sig .tc := ⟨.hbm, 649, rfl⟩
abbrev main_call17_v0 : Ref sig .tc := ⟨.hbm, 650, rfl⟩
abbrev main_v371 : Ref sig .tc := ⟨.hbm, 651, rfl⟩
abbrev main_v372 : Ref sig .tc := ⟨.hbm, 652, rfl⟩
abbrev main_v373 : Ref sig .tc := ⟨.hbm, 653, rfl⟩
abbrev main_v374 : Ref sig .tc := ⟨.hbm, 654, rfl⟩
abbrev main_v375 : Ref sig .tc := ⟨.hbm, 655, rfl⟩
abbrev main_v376 : Ref sig .tc := ⟨.hbm, 656, rfl⟩
abbrev main_v377 : Ref sig .tc := ⟨.hbm, 657, rfl⟩
abbrev main_v378 : Ref sig .tc := ⟨.hbm, 658, rfl⟩
abbrev main_v379 : Ref sig .tc := ⟨.hbm, 659, rfl⟩
abbrev main_v380 : Ref sig .tc := ⟨.hbm, 660, rfl⟩
abbrev main_v381 : Ref sig .tc := ⟨.hbm, 661, rfl⟩
abbrev main_v382 : Ref sig .tc := ⟨.hbm, 662, rfl⟩
abbrev main_v383 : Ref sig .tc := ⟨.hbm, 663, rfl⟩
abbrev main_cst_54 : Ref sig .tc := ⟨.hbm, 664, rfl⟩
abbrev main_v384 : Ref sig .tc := ⟨.hbm, 665, rfl⟩
abbrev main_cst_55 : Ref sig .tc := ⟨.hbm, 666, rfl⟩
abbrev main_v385 : Ref sig .tc := ⟨.hbm, 667, rfl⟩
abbrev main_v386 : Ref sig .tc := ⟨.hbm, 668, rfl⟩
abbrev main_c_56 : Ref sig .tc := ⟨.hbm, 669, rfl⟩
abbrev main_call18_cst : Ref sig .tc := ⟨.hbm, 670, rfl⟩
abbrev main_call18_v0 : Ref sig .tc := ⟨.hbm, 671, rfl⟩
abbrev main_call18_v1 : Ref sig .tc := ⟨.hbm, 672, rfl⟩
abbrev main_call18_cst_0 : Ref sig .tc := ⟨.hbm, 673, rfl⟩
abbrev main_call18_v2 : Ref sig .tc := ⟨.hbm, 674, rfl⟩
abbrev main_call18_v3 : Ref sig .tc := ⟨.hbm, 675, rfl⟩
abbrev main_call18_v4 : Ref sig .tc := ⟨.hbm, 676, rfl⟩
abbrev main_call18_v5 : Ref sig .tc := ⟨.hbm, 677, rfl⟩
abbrev main_call18_v6 : Ref sig .tc := ⟨.hbm, 678, rfl⟩
abbrev main_call18_v7 : Ref sig .tc := ⟨.hbm, 679, rfl⟩
abbrev main_call18_cst_1 : Ref sig .tc := ⟨.hbm, 680, rfl⟩
abbrev main_call18_v8 : Ref sig .tc := ⟨.hbm, 681, rfl⟩
abbrev main_call18_cst_2 : Ref sig .tc := ⟨.hbm, 682, rfl⟩
abbrev main_call18_v9 : Ref sig .tc := ⟨.hbm, 683, rfl⟩
abbrev main_call18_v10 : Ref sig .tc := ⟨.hbm, 684, rfl⟩
abbrev main_call18_v11 : Ref sig .tc := ⟨.hbm, 685, rfl⟩
abbrev main_call18_cst_3 : Ref sig .tc := ⟨.hbm, 686, rfl⟩
abbrev main_call18_v12 : Ref sig .tc := ⟨.hbm, 687, rfl⟩
abbrev main_call18_cst_4 : Ref sig .tc := ⟨.hbm, 688, rfl⟩
abbrev main_call18_call0_v0 : Ref sig .tc := ⟨.hbm, 689, rfl⟩
abbrev main_call18_call0_v1 : Ref sig .tc := ⟨.hbm, 690, rfl⟩
abbrev main_v387 : Ref sig .tc := ⟨.hbm, 691, rfl⟩
abbrev main_v388 : Ref sig .tc := ⟨.hbm, 692, rfl⟩
abbrev main_v389 : Ref sig .tc := ⟨.hbm, 693, rfl⟩
abbrev main_v390 : Ref sig .tc := ⟨.hbm, 694, rfl⟩
abbrev main_v391 : Ref sig .tc := ⟨.hbm, 695, rfl⟩
abbrev main_v392 : Ref sig .tc := ⟨.hbm, 696, rfl⟩
abbrev main_v393 : Ref sig .tc := ⟨.hbm, 697, rfl⟩
abbrev main_cst_57 : Ref sig .tc := ⟨.hbm, 698, rfl⟩
abbrev main_v394 : Ref sig .tc := ⟨.hbm, 699, rfl⟩
abbrev main_v395 : Ref sig .tc := ⟨.hbm, 700, rfl⟩
abbrev main_v396 : Ref sig .tc := ⟨.hbm, 701, rfl⟩
abbrev main_v397 : Ref sig .tc := ⟨.hbm, 702, rfl⟩
abbrev main_v398 : Ref sig .tc := ⟨.hbm, 703, rfl⟩
abbrev main_v399 : Ref sig .tc := ⟨.hbm, 704, rfl⟩
abbrev main_v400 : Ref sig .tc := ⟨.hbm, 705, rfl⟩
abbrev main_v401 : Ref sig .tc := ⟨.hbm, 706, rfl⟩
abbrev main_v402 : Ref sig .tc := ⟨.hbm, 707, rfl⟩
abbrev main_call19_cst : Ref sig .tc := ⟨.hbm, 708, rfl⟩
abbrev main_call19_v0 : Ref sig .tc := ⟨.hbm, 709, rfl⟩
abbrev main_v403 : Ref sig .tc := ⟨.hbm, 710, rfl⟩
abbrev main_v404 : Ref sig .tc := ⟨.hbm, 711, rfl⟩
abbrev main_v405 : Ref sig .tc := ⟨.hbm, 712, rfl⟩
abbrev main_v406 : Ref sig .tc := ⟨.hbm, 713, rfl⟩
abbrev main_v407 : Ref sig .tc := ⟨.hbm, 714, rfl⟩
abbrev main_call20_cst : Ref sig .tc := ⟨.hbm, 715, rfl⟩
abbrev main_call20_v0 : Ref sig .tc := ⟨.hbm, 716, rfl⟩
abbrev main_call20_cst_0 : Ref sig .tc := ⟨.hbm, 717, rfl⟩
abbrev main_call20_v1 : Ref sig .tc := ⟨.hbm, 718, rfl⟩
abbrev main_call20_v2 : Ref sig .tc := ⟨.hbm, 719, rfl⟩
abbrev main_call20_v3 : Ref sig .tc := ⟨.hbm, 720, rfl⟩
abbrev main_call20_v4 : Ref sig .tc := ⟨.hbm, 721, rfl⟩
abbrev main_call20_v5 : Ref sig .tc := ⟨.hbm, 722, rfl⟩
abbrev main_call20_v6 : Ref sig .tc := ⟨.hbm, 723, rfl⟩
abbrev main_call20_cst_1 : Ref sig .tc := ⟨.hbm, 724, rfl⟩
abbrev main_call20_v7 : Ref sig .tc := ⟨.hbm, 725, rfl⟩
abbrev main_call20_v8 : Ref sig .tc := ⟨.hbm, 726, rfl⟩
abbrev main_call20_v9 : Ref sig .tc := ⟨.hbm, 727, rfl⟩
abbrev main_call20_v10 : Ref sig .tc := ⟨.hbm, 728, rfl⟩
abbrev main_v408 : Ref sig .tc := ⟨.hbm, 729, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S5_S1_0 : S5.Slices ![0] S1
  shapeCasts_S1_S_ : S1.ShapeCasts S_
  slices_S5x128x256_S1x128x256_0_0_0 : S5x128x256.Slices ![0, 0, 0] S1x128x256
  shapeCasts_S1x128x256_S128x256 : S1x128x256.ShapeCasts S128x256
  slices_S5x256_S1x256_0_0 : S5x256.Slices ![0, 0] S1x256
  shapeCasts_S1x256_S256 : S1x256.ShapeCasts S256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S256_d0 : S50000x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  bcast_S_S50000x256 : S_.BroadcastsInDim S50000x256 (![] : Fin 0 → Fin S50000x256.rank)
  slices_S5x256x128_S1x256x128_0_0_0 : S5x256x128.Slices ![0, 0, 0] S1x256x128
  shapeCasts_S1x256x128_S256x128 : S1x256x128.ShapeCasts S256x128
  slices_S5x128_S1x128_0_0 : S5x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  bcast_S_S128 : S_.BroadcastsInDim S128 (![] : Fin 0 → Fin S128.rank)
  bcast_S_S1x128 : S_.BroadcastsInDim S1x128 (![] : Fin 0 → Fin S1x128.rank)
  slices_S5_S1_1 : S5.Slices ![1] S1
  slices_S5x128x256_S1x128x256_1_0_0 : S5x128x256.Slices ![1, 0, 0] S1x128x256
  slices_S5x256_S1x256_1_0 : S5x256.Slices ![1, 0] S1x256
  slices_S5x256x128_S1x256x128_1_0_0 : S5x256x128.Slices ![1, 0, 0] S1x256x128
  slices_S5x128_S1x128_1_0 : S5x128.Slices ![1, 0] S1x128
  slices_S5_S1_2 : S5.Slices ![2] S1
  slices_S5x128x256_S1x128x256_2_0_0 : S5x128x256.Slices ![2, 0, 0] S1x128x256
  slices_S5x256_S1x256_2_0 : S5x256.Slices ![2, 0] S1x256
  slices_S5x256x128_S1x256x128_2_0_0 : S5x256x128.Slices ![2, 0, 0] S1x256x128
  slices_S5x128_S1x128_2_0 : S5x128.Slices ![2, 0] S1x128
  slices_S5_S1_3 : S5.Slices ![3] S1
  slices_S5x128x256_S1x128x256_3_0_0 : S5x128x256.Slices ![3, 0, 0] S1x128x256
  slices_S5x256_S1x256_3_0 : S5x256.Slices ![3, 0] S1x256
  slices_S5x256x128_S1x256x128_3_0_0 : S5x256x128.Slices ![3, 0, 0] S1x256x128
  slices_S5x128_S1x128_3_0 : S5x128.Slices ![3, 0] S1x128
  slices_S5_S1_4 : S5.Slices ![4] S1
  slices_S5x128x256_S1x128x256_4_0_0 : S5x128x256.Slices ![4, 0, 0] S1x128x256
  slices_S5x256_S1x256_4_0 : S5x256.Slices ![4, 0] S1x256
  slices_S5x256x128_S1x256x128_4_0_0 : S5x256x128.Slices ![4, 0, 0] S1x256x128
  slices_S5x128_S1x128_4_0 : S5x128.Slices ![4, 0] S1x128
  bcast_S41_S1x41_1 : S41.BroadcastsInDim S1x41 (![1] : Fin 1 → Fin S1x41.rank)
  bcast_S1x41_S50000x41_0_1 : S1x41.BroadcastsInDim S50000x41 (![0, 1] : Fin 2 → Fin S50000x41.rank)
  reducesTo_S50000x41_S50000_d1 : S50000x41.ReducesTo [1] S50000
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x41_0_1 : S50000x1.BroadcastsInDim S50000x41 (![0, 1] : Fin 2 → Fin S50000x41.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []
  dot_S50000x128_S128x41_S50000x41_1_0_0_1_n_n_wf : DotDims.WF S50000x128 S128x41 S50000x41 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x41_S50000x41_1_0_0_1_n_n : DotDims S50000x128 S128x41 S50000x41 where
  lhsContracting := [1]
  rhsContracting := [0]
  lhsNonContracting := [0]
  rhsNonContracting := [1]
  lhsBatch := []
  rhsBatch := []
  wf := dot_S50000x128_S128x41_S50000x41_1_0_0_1_n_n_wf

class Facts : Prop extends Facts₀ where

variable [Facts]
-- ==== Proof.KeepArgsKernel.lean ====
/-
  No host operation and no kernel region of the blocked program writes an argument array, so at the last boundary of the
  run every argument buffer holds what the launch gave it.

  For one stretch of host operations this is a fact about the stretch's written buffers: each operation writes its one
  result buffer, and none of those is among the seventeen argument buffers. It is proved once per stretch for an
  ARBITRARY argument buffer `b` (membership in the list of the seventeen is all that is used), and a region leaves every
  buffer that is not one of its own arrays as it was; the walk from the last boundary back to the launch is then one
  chain of equalities, for every argument at once.
-/
import proofs.«107430_j24575802868448_1_alg».proof.Proof.FPKernelW

set_option maxRecDepth 16384

noncomputable section

namespace Cert.Kernel.Keep

open Idealize.ShloMosaic Idealize.ShloMosaic.TcCoe Idealize.SL.Sem Idealize.ShloMosaic.StableHlo Cert.Kernel Cert.Kernel.Gen

variable {F : FTy → Type} [FloatOps F]

/-- The seventeen argument buffers. -/
def argRefs : List (Ref sig .tc) :=
  [main_arg0, main_arg1, main_arg2, main_arg3, main_arg4, main_arg5, main_arg6, main_arg7, main_arg8, main_arg9, main_arg10,
   main_arg11, main_arg12, main_arg13, main_arg14, main_arg15, main_arg16]

/-- An argument buffer is not a buffer outside the list. -/
theorem ne_of_mem {b y : Ref sig .tc} (hb : b ∈ argRefs) (hy : y ∉ argRefs) : b ≠ y := fun e => hy (e ▸ hb)

/-- A stretch of host operations leaves every argument buffer as it found it. -/
def Keeps (ops : List (HloOp τ sig (Elt F))) : Prop :=
  ∀ b ∈ argRefs, ∀ V : Valuation τ sig (Elt F), after ops V (Proc.devRef .tc b) = V (Proc.devRef .tc b)

/-- The written buffers of the stretch `l`, one per operation, each outside the list of arguments. -/
local macro "keeps_stretch" l:ident : tactic => `(tactic| (
  intro b hb V
  refine after_of_forall_not_mem (b := Proc.devRef .tc b) _ _ (List.forall_iff_forall_mem.mp ?_)
  simp only [$l:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact devRef_ne_of_ne (ne_of_mem hb (by decide))))

set_option maxHeartbeats 1000000 in
theorem keep0 : Keeps (hostOps0 (F := F)) := by keeps_stretch hostOps0
set_option maxHeartbeats 1000000 in
theorem keep1 : Keeps (hostOps1 (F := F)) := by keeps_stretch hostOps1
set_option maxHeartbeats 1000000 in
theorem keep1_1 : Keeps (hostOps1_1 (F := F)) := by keeps_stretch hostOps1_1
set_option maxHeartbeats 1000000 in
theorem keep1_2 : Keeps (hostOps1_2 (F := F)) := by keeps_stretch hostOps1_2
set_option maxHeartbeats 1000000 in
theorem keep2 : Keeps (hostOps2 (F := F)) := by keeps_stretch hostOps2
set_option maxHeartbeats 1000000 in
theorem keep2_1 : Keeps (hostOps2_1 (F := F)) := by keeps_stretch hostOps2_1
set_option maxHeartbeats 1000000 in
theorem keep2_2 : Keeps (hostOps2_2 (F := F)) := by keeps_stretch hostOps2_2
set_option maxHeartbeats 1000000 in
theorem keep3 : Keeps (hostOps3 (F := F)) := by keeps_stretch hostOps3
set_option maxHeartbeats 1000000 in
theorem keep4 : Keeps (hostOps4 (F := F)) := by keeps_stretch hostOps4
set_option maxHeartbeats 1000000 in
theorem keep4_1 : Keeps (hostOps4_1 (F := F)) := by keeps_stretch hostOps4_1
set_option maxHeartbeats 1000000 in
theorem keep4_2 : Keeps (hostOps4_2 (F := F)) := by keeps_stretch hostOps4_2
set_option maxHeartbeats 1000000 in
theorem keep5 : Keeps (hostOps5 (F := F)) := by keeps_stretch hostOps5
set_option maxHeartbeats 1000000 in
theorem keep5_1 : Keeps (hostOps5_1 (F := F)) := by keeps_stretch hostOps5_1
set_option maxHeartbeats 1000000 in
theorem keep5_2 : Keeps (hostOps5_2 (F := F)) := by keeps_stretch hostOps5_2
set_option maxHeartbeats 1000000 in
theorem keep6 : Keeps (hostOps6 (F := F)) := by keeps_stretch hostOps6
set_option maxHeartbeats 1000000 in
theorem keep7 : Keeps (hostOps7 (F := F)) := by keeps_stretch hostOps7
set_option maxHeartbeats 1000000 in
theorem keep7_1 : Keeps (hostOps7_1 (F := F)) := by keeps_stretch hostOps7_1
set_option maxHeartbeats 1000000 in
theorem keep7_2 : Keeps (hostOps7_2 (F := F)) := by keeps_stretch hostOps7_2
set_option maxHeartbeats 1000000 in
theorem keep8 : Keeps (hostOps8 (F := F)) := by keeps_stretch hostOps8
set_option maxHeartbeats 1000000 in
theorem keep8_1 : Keeps (hostOps8_1 (F := F)) := by keeps_stretch hostOps8_1
set_option maxHeartbeats 1000000 in
theorem keep8_2 : Keeps (hostOps8_2 (F := F)) := by keeps_stretch hostOps8_2
set_option maxHeartbeats 1000000 in
theorem keep9 : Keeps (hostOps9 (F := F)) := by keeps_stretch hostOps9
set_option maxHeartbeats 1000000 in
theorem keep10 : Keeps (hostOps10 (F := F)) := by keeps_stretch hostOps10
set_option maxHeartbeats 1000000 in
theorem keep10_1 : Keeps (hostOps10_1 (F := F)) := by keeps_stretch hostOps10_1
set_option maxHeartbeats 1000000 in
theorem keep10_2 : Keeps (hostOps10_2 (F := F)) := by keeps_stretch hostOps10_2
set_option maxHeartbeats 1000000 in
theorem keep11 : Keeps (hostOps11 (F := F)) := by keeps_stretch hostOps11
set_option maxHeartbeats 1000000 in
theorem keep11_1 : Keeps (hostOps11_1 (F := F)) := by keeps_stretch hostOps11_1
set_option maxHeartbeats 1000000 in
theorem keep11_2 : Keeps (hostOps11_2 (F := F)) := by keeps_stretch hostOps11_2
set_option maxHeartbeats 1000000 in
theorem keep12 : Keeps (hostOps12 (F := F)) := by keeps_stretch hostOps12
set_option maxHeartbeats 1000000 in
theorem keep13 : Keeps (hostOps13 (F := F)) := by keeps_stretch hostOps13
set_option maxHeartbeats 1000000 in
theorem keep13_1 : Keeps (hostOps13_1 (F := F)) := by keeps_stretch hostOps13_1
set_option maxHeartbeats 1000000 in
theorem keep13_2 : Keeps (hostOps13_2 (F := F)) := by keeps_stretch hostOps13_2
set_option maxHeartbeats 1000000 in
theorem keep14 : Keeps (hostOps14 (F := F)) := by keeps_stretch hostOps14
set_option maxHeartbeats 1000000 in
theorem keep15 : Keeps (hostOps15 (F := F)) := by keeps_stretch hostOps15
set_option maxHeartbeats 1000000 in
theorem keep15_1 : Keeps (hostOps15_1 (F := F)) := by keeps_stretch hostOps15_1
set_option maxHeartbeats 1000000 in
theorem keep15_2 : Keeps (hostOps15_2 (F := F)) := by keeps_stretch hostOps15_2
set_option maxHeartbeats 1000000 in
theorem keep16 : Keeps (hostOps16 (F := F)) := by keeps_stretch hostOps16

/-! ## A region's arrays are none of the arguments -/

theorem reg_ne0 (b : Ref sig .tc) (hb : b ∈ argRefs) : ∀ w, Pipeline.arrRef spec0 w ≠ b :=
  fun w e => (by decide : ∀ w, Pipeline.arrRef spec0 w ∉ argRefs) w (e ▸ hb)
theorem reg_ne1 (b : Ref sig .tc) (hb : b ∈ argRefs) : ∀ w, Pipeline.arrRef spec1 w ≠ b :=
  fun w e => (by decide : ∀ w, Pipeline.arrRef spec1 w ∉ argRefs) w (e ▸ hb)
theorem reg_ne2 (b : Ref sig .tc) (hb : b ∈ argRefs) : ∀ w, Pipeline.arrRef spec2 w ≠ b :=
  fun w e => (by decide : ∀ w, Pipeline.arrRef spec2 w ∉ argRefs) w (e ▸ hb)
theorem reg_ne3 (b : Ref sig .tc) (hb : b ∈ argRefs) : ∀ w, Pipeline.arrRef spec3 w ≠ b :=
  fun w e => (by decide : ∀ w, Pipeline.arrRef spec3 w ∉ argRefs) w (e ▸ hb)
theorem reg_ne4 (b : Ref sig .tc) (hb : b ∈ argRefs) : ∀ w, Pipeline.arrRef spec4 w ≠ b :=
  fun w e => (by decide : ∀ w, Pipeline.arrRef spec4 w ∉ argRefs) w (e ▸ hb)
theorem reg_ne5 (b : Ref sig .tc) (hb : b ∈ argRefs) : ∀ w, Pipeline.arrRef spec5 w ≠ b :=
  fun w e => (by decide : ∀ w, Pipeline.arrRef spec5 w ∉ argRefs) w (e ▸ hb)
theorem reg_ne6 (b : Ref sig .tc) (hb : b ∈ argRefs) : ∀ w, Pipeline.arrRef spec6 w ≠ b :=
  fun w e => (by decide : ∀ w, Pipeline.arrRef spec6 w ∉ argRefs) w (e ▸ hb)
theorem reg_ne7 (b : Ref sig .tc) (hb : b ∈ argRefs) : ∀ w, Pipeline.arrRef spec7 w ≠ b :=
  fun w e => (by decide : ∀ w, Pipeline.arrRef spec7 w ∉ argRefs) w (e ▸ hb)
theorem reg_ne8 (b : Ref sig .tc) (hb : b ∈ argRefs) : ∀ w, Pipeline.arrRef spec8 w ≠ b :=
  fun w e => (by decide : ∀ w, Pipeline.arrRef spec8 w ∉ argRefs) w (e ▸ hb)
theorem reg_ne9 (b : Ref sig .tc) (hb : b ∈ argRefs) : ∀ w, Pipeline.arrRef spec9 w ≠ b :=
  fun w e => (by decide : ∀ w, Pipeline.arrRef spec9 w ∉ argRefs) w (e ▸ hb)
theorem reg_ne10 (b : Ref sig .tc) (hb : b ∈ argRefs) : ∀ w, Pipeline.arrRef spec10 w ≠ b :=
  fun w e => (by decide : ∀ w, Pipeline.arrRef spec10 w ∉ argRefs) w (e ▸ hb)
theorem reg_ne11 (b : Ref sig .tc) (hb : b ∈ argRefs) : ∀ w, Pipeline.arrRef spec11 w ≠ b :=
  fun w e => (by decide : ∀ w, Pipeline.arrRef spec11 w ∉ argRefs) w (e ▸ hb)
theorem reg_ne12 (b : Ref sig .tc) (hb : b ∈ argRefs) : ∀ w, Pipeline.arrRef spec12 w ≠ b :=
  fun w e => (by decide : ∀ w, Pipeline.arrRef spec12 w ∉ argRefs) w (e ▸ hb)
theorem reg_ne13 (b : Ref sig .tc) (hb : b ∈ argRefs) : ∀ w, Pipeline.arrRef spec13 w ≠ b :=
  fun w e => (by decide : ∀ w, Pipeline.arrRef spec13 w ∉ argRefs) w (e ▸ hb)
theorem reg_ne14 (b : Ref sig .tc) (hb : b ∈ argRefs) : ∀ w, Pipeline.arrRef spec14 w ≠ b :=
  fun w e => (by decide : ∀ w, Pipeline.arrRef spec14 w ∉ argRefs) w (e ▸ hb)
theorem reg_ne15 (b : Ref sig .tc) (hb : b ∈ argRefs) : ∀ w, Pipeline.arrRef spec15 w ≠ b :=
  fun w e => (by decide : ∀ w, Pipeline.arrRef spec15 w ∉ argRefs) w (e ▸ hb)

/-! ## The walk from the last boundary back to the launch -/

variable (m : (ℓ : Loc nD τ sig) → Buf (Elt F) ℓ) (ρ : Dev nD → PrngReg)

/-- At the last boundary an argument buffer holds the launch's contents. -/
theorem end_arg (c : Dev nD) (b : Ref sig .tc) (hb : b ∈ argRefs) :
    W53 m ρ c (Proc.devRef .tc b) = m ((c : Thread nD τ).loc b) :=
  calc W53 m ρ c (Proc.devRef .tc b)
    _ = W52 m ρ c (Proc.devRef .tc b) := keep16 b hb _
    _ = W51 m ρ c (Proc.devRef .tc b) := W52_of_ne m ρ c b (reg_ne15 b hb)
    _ = W50 m ρ c (Proc.devRef .tc b) := keep15_2 b hb _
    _ = W49 m ρ c (Proc.devRef .tc b) := keep15_1 b hb _
    _ = W48 m ρ c (Proc.devRef .tc b) := keep15 b hb _
    _ = W47 m ρ c (Proc.devRef .tc b) := W48_of_ne m ρ c b (reg_ne14 b hb)
    _ = W46 m ρ c (Proc.devRef .tc b) := keep14 b hb _
    _ = W45 m ρ c (Proc.devRef .tc b) := W46_of_ne m ρ c b (reg_ne13 b hb)
    _ = W44 m ρ c (Proc.devRef .tc b) := keep13_2 b hb _
    _ = W43 m ρ c (Proc.devRef .tc b) := keep13_1 b hb _
    _ = W42 m ρ c (Proc.devRef .tc b) := keep13 b hb _
    _ = W41 m ρ c (Proc.devRef .tc b) := W42_of_ne m ρ c b (reg_ne12 b hb)
    _ = W40 m ρ c (Proc.devRef .tc b) := keep12 b hb _
    _ = W39 m ρ c (Proc.devRef .tc b) := W40_of_ne m ρ c b (reg_ne11 b hb)
    _ = W38 m ρ c (Proc.devRef .tc b) := keep11_2 b hb _
    _ = W37 m ρ c (Proc.devRef .tc b) := keep11_1 b hb _
    _ = W36 m ρ c (Proc.devRef .tc b) := keep11 b hb _
    _ = W35 m ρ c (Proc.devRef .tc b) := W36_of_ne m ρ c b (reg_ne10 b hb)
    _ = W34 m ρ c (Proc.devRef .tc b) := keep10_2 b hb _
    _ = W33 m ρ c (Proc.devRef .tc b) := keep10_1 b hb _
    _ = W32 m ρ c (Proc.devRef .tc b) := keep10 b hb _
    _ = W31 m ρ c (Proc.devRef .tc b) := W32_of_ne m ρ c b (reg_ne9 b hb)
    _ = W30 m ρ c (Proc.devRef .tc b) := keep9 b hb _
    _ = W29 m ρ c (Proc.devRef .tc b) := W30_of_ne m ρ c b (reg_ne8 b hb)
    _ = W28 m ρ c (Proc.devRef .tc b) := keep8_2 b hb _
    _ = W27 m ρ c (Proc.devRef .tc b) := keep8_1 b hb _
    _ = W26 m ρ c (Proc.devRef .tc b) := keep8 b hb _
    _ = W25 m ρ c (Proc.devRef .tc b) := W26_of_ne m ρ c b (reg_ne7 b hb)
    _ = W24 m ρ c (Proc.devRef .tc b) := keep7_2 b hb _
    _ = W23 m ρ c (Proc.devRef .tc b) := keep7_1 b hb _
    _ = W22 m ρ c (Proc.devRef .tc b) := keep7 b hb _
    _ = W21 m ρ c (Proc.devRef .tc b) := W22_of_ne m ρ c b (reg_ne6 b hb)
    _ = W20 m ρ c (Proc.devRef .tc b) := keep6 b hb _
    _ = W19 m ρ c (Proc.devRef .tc b) := W20_of_ne m ρ c b (reg_ne5 b hb)
    _ = W18 m ρ c (Proc.devRef .tc b) := keep5_2 b hb _
    _ = W17 m ρ c (Proc.devRef .tc b) := keep5_1 b hb _
    _ = W16 m ρ c (Proc.devRef .tc b) := keep5 b hb _
    _ = W15 m ρ c (Proc.devRef .tc b) := W16_of_ne m ρ c b (reg_ne4 b hb)
    _ = W14 m ρ c (Proc.devRef .tc b) := keep4_2 b hb _
    _ = W13 m ρ c (Proc.devRef .tc b) := keep4_1 b hb _
    _ = W12 m ρ c (Proc.devRef .tc b) := keep4 b hb _
    _ = W11 m ρ c (Proc.devRef .tc b) := W12_of_ne m ρ c b (reg_ne3 b hb)
    _ = W10 m ρ c (Proc.devRef .tc b) := keep3 b hb _
    _ = W9 m ρ c (Proc.devRef .tc b) := W10_of_ne m ρ c b (reg_ne2 b hb)
    _ = W8 m ρ c (Proc.devRef .tc b) := keep2_2 b hb _
    _ = W7 m ρ c (Proc.devRef .tc b) := keep2_1 b hb _
    _ = W6 m ρ c (Proc.devRef .tc b) := keep2 b hb _
    _ = W5 m ρ c (Proc.devRef .tc b) := W6_of_ne m ρ c b (reg_ne1 b hb)
    _ = W4 m ρ c (Proc.devRef .tc b) := keep1_2 b hb _
    _ = W3 m ρ c (Proc.devRef .tc b) := keep1_1 b hb _
    _ = W2 m ρ c (Proc.devRef .tc b) := keep1 b hb _
    _ = W1 m ρ c (Proc.devRef .tc b) := W2_of_ne m ρ c b (reg_ne0 b hb)
    _ = W0 m ρ c (Proc.devRef .tc b) := keep0 b hb _
    _ = m ((c : Thread nD τ).loc b) := rfl

end Cert.Kernel.Keep

end
-- ==== Proof.Spec.lean ====
/-
  The common language of the two programs, at the exact instance (floats are extended reals).

  Both programs are the same network: five graph-isomorphism layers — a neighbour sum over the edge list added to
  (1 + ε) times the node features, a linear map, batch normalisation with the batch's own mean and biased variance, a
  rectifier, a second linear map and (all layers but the last) another normalisation and rectifier — then a head of a
  linear map, normalisation, rectifier, a last linear map and a row-wise log-softmax. One program computes the linear
  maps and the normalise-and-rectify steps block by block over 25 row blocks; the other computes them on whole arrays.
  Each stage below is written once, as a function of whole arrays in the whole-array program's own operations, so that
  "both programs compute the same" becomes: each program's buffers hold these functions of its arguments.
-/
import proofs.«107430_j24575802868448_1_alg».proof.Proof.Gen.ReferenceIdeal
import Idealize.ShloMosaic.PureOps.Ideal

noncomputable section

namespace Cert.Spec

open Idealize.ShloMosaic Cert.ReferenceIdeal Cert.ReferenceIdeal.Facts₀ Cert.ReferenceIdeal.Facts

/-- An array of extended reals of the given shape (the exact instance's reading of an f32 array). -/
abbrev RA (s : Shape) : Type := FVec Ideal s .f32
/-- An array of 32-bit integers of the given shape. -/
abbrev IA (s : Shape) : Type := Vec Ideal s .i32

/-! ## The edge list -/

/-- Row 0 of the edge list: each edge's source node. -/
def src (ei : IA S2x800000) : IA S800000 :=
  shapeCast S800000 (extractStridedSlice S1x800000 ![0, 0] ei slices_S2x800000_S1x800000_0_0) shapeCasts_S1x800000_S800000
/-- Row 1 of the edge list: each edge's destination node. -/
def dst (ei : IA S2x800000) : IA S800000 :=
  shapeCast S800000 (extractStridedSlice S1x800000 ![1, 0] ei slices_S2x800000_S1x800000_1_0) shapeCasts_S1x800000_S800000

/-- The neighbour sum: row `d` of the result is the sum of the rows `h[s]` over the edges `s → d` (a negative source
    index counted from the end, as the gather's index normalisation does). -/
def agg (h : RA S50000x128) (s d : IA S800000) : RA S50000x128 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 d)
    (Host.gather gather_S50000x128_S800000x1_S800000x128_1_0_n_n_0_1_1128 h
      (broadcastInDim S800000x1 ![0] bcast_S800000_S800000x1_0
        (select (cmpi .slt s (broadcastInDim S800000 ![] bcast_S_S800000 (constantI S_ 32 0#32)))
          (addi s (broadcastInDim S800000 ![] bcast_S_S800000 (constantI S_ 32 50000#32))) s)))

/-- `(1 + ε) · h + a`. -/
def mix (e : RA S_) (h a : RA S50000x128) : RA S50000x128 :=
  addf (mulf (broadcastInDim S50000x128 ![] bcast_S_S50000x128 (addf (constant S_ .f32 0x3F800000#32) e)) h) a

/-! ## Linear maps: `x · w + b`, the bias a vector over the columns -/

def lin128x256 (x : RA S50000x128) (w : RA S128x256) (b : RA S256) : RA S50000x256 :=
  addf (Host.dotGeneral dot_S50000x128_S128x256_S50000x256_1_0_0_1_n_n none x w)
    (broadcastInDim S50000x256 ![0, 1] bcast_S1x256_S50000x256_0_1 (broadcastInDim S1x256 ![1] bcast_S256_S1x256_1 b))
def lin256x128 (x : RA S50000x256) (w : RA S256x128) (b : RA S128) : RA S50000x128 :=
  addf (Host.dotGeneral dot_S50000x256_S256x128_S50000x128_1_0_0_1_n_n none x w)
    (broadcastInDim S50000x128 ![0, 1] bcast_S1x128_S50000x128_0_1 (broadcastInDim S1x128 ![1] bcast_S128_S1x128_1 b))
def lin128x128 (x : RA S50000x128) (w : RA S128x128) (b : RA S128) : RA S50000x128 :=
  addf (Host.dotGeneral dot_S50000x128_S128x128_S50000x128_1_0_0_1_n_n none x w)
    (broadcastInDim S50000x128 ![0, 1] bcast_S1x128_S50000x128_0_1 (broadcastInDim S1x128 ![1] bcast_S128_S1x128_1 b))
def lin128x41 (x : RA S50000x128) (w : RA S128x41) (b : RA S41) : RA S50000x41 :=
  addf (Host.dotGeneral dot_S50000x128_S128x41_S50000x41_1_0_0_1_n_n none x w)
    (broadcastInDim S50000x41 ![0, 1] bcast_S1x41_S50000x41_0_1 (broadcastInDim S1x41 ![1] bcast_S41_S1x41_1 b))

/-! ## The batch's statistics, column by column -/

/-- The column means: the column sums over 50000. -/
def mean256 (x : RA S50000x256) : RA S256 :=
  Host.divf (Host.reduceAdd x (constant S_ .f32 0x00000000#32) reducesTo_S50000x256_S256_d0 h_S_)
    (broadcastInDim S256 ![] bcast_S_S256 (constant S_ .f32 0x47435000#32))
def mean128 (x : RA S50000x128) : RA S128 :=
  Host.divf (Host.reduceAdd x (constant S_ .f32 0x00000000#32) reducesTo_S50000x128_S128_d0 h_S_)
    (broadcastInDim S128 ![] bcast_S_S128 (constant S_ .f32 0x47435000#32))

/-- Normalise with the given column statistics, scale, shift and rectify:
    `max (g · (x − mean) · rsqrt (var + 1e-5) + β) 0`, the statistics and parameters vectors over the columns. -/
def bnrelu256 (x : RA S50000x256) (mean var g beta : RA S256) : RA S50000x256 :=
  maximumf
    (addf
      (mulf
        (mulf (broadcastInDim S50000x256 ![0, 1] bcast_S1x256_S50000x256_0_1 (broadcastInDim S1x256 ![1] bcast_S256_S1x256_1 g))
          (subf x (broadcastInDim S50000x256 ![0, 1] bcast_S1x256_S50000x256_0_1 (broadcastInDim S1x256 ![1] bcast_S256_S1x256_1 mean))))
        (broadcastInDim S50000x256 ![0, 1] bcast_S1x256_S50000x256_0_1 (broadcastInDim S1x256 ![1] bcast_S256_S1x256_1
          (Host.rsqrt (addf var (broadcastInDim S256 ![] bcast_S_S256 (constant S_ .f32 0x3727C5AC#32)))))))
      (broadcastInDim S50000x256 ![0, 1] bcast_S1x256_S50000x256_0_1 (broadcastInDim S1x256 ![1] bcast_S256_S1x256_1 beta)))
    (broadcastInDim S50000x256 ![] bcast_S_S50000x256 (constant S_ .f32 0x00000000#32))
def bnrelu128 (x : RA S50000x128) (mean var g beta : RA S128) : RA S50000x128 :=
  maximumf
    (addf
      (mulf
        (mulf (broadcastInDim S50000x128 ![0, 1] bcast_S1x128_S50000x128_0_1 (broadcastInDim S1x128 ![1] bcast_S128_S1x128_1 g))
          (subf x (broadcastInDim S50000x128 ![0, 1] bcast_S1x128_S50000x128_0_1 (broadcastInDim S1x128 ![1] bcast_S128_S1x128_1 mean))))
        (broadcastInDim S50000x128 ![0, 1] bcast_S1x128_S50000x128_0_1 (broadcastInDim S1x128 ![1] bcast_S128_S1x128_1
          (Host.rsqrt (addf var (broadcastInDim S128 ![] bcast_S_S128 (constant S_ .f32 0x3727C5AC#32)))))))
      (broadcastInDim S50000x128 ![0, 1] bcast_S1x128_S50000x128_0_1 (broadcastInDim S1x128 ![1] bcast_S128_S1x128_1 beta)))
    (broadcastInDim S50000x128 ![] bcast_S_S50000x128 (constant S_ .f32 0x00000000#32))

/-- `x` with each column's mean taken off. -/
def center256 (x : RA S50000x256) : RA S50000x256 :=
  subf (F := Ideal) x (broadcastInDim S50000x256 ![0, 1] bcast_S1x256_S50000x256_0_1
    (Host.divf (broadcastInDim S1x256 ![1] bcast_S256_S1x256_1 (Host.reduceAdd x (constant S_ .f32 0x00000000#32) reducesTo_S50000x256_S256_d0 h_S_))
      (broadcastInDim S1x256 ![] bcast_S_S1x256 (constant S_ .f32 0x47435000#32))))
def center128 (x : RA S50000x128) : RA S50000x128 :=
  subf (F := Ideal) x (broadcastInDim S50000x128 ![0, 1] bcast_S1x128_S50000x128_0_1
    (Host.divf (broadcastInDim S1x128 ![1] bcast_S128_S1x128_1 (Host.reduceAdd x (constant S_ .f32 0x00000000#32) reducesTo_S50000x128_S128_d0 h_S_))
      (broadcastInDim S1x128 ![] bcast_S_S1x128 (constant S_ .f32 0x47435000#32))))

/-- The divisor of the biased variance, `50000 − 0`, as the program computes it. -/
def nvar : RA S_ := subf (F := Ideal) (constant S_ .f32 0x47435000#32) (sitofp .f32 (constantI S_ 32 0#32))

/-- The column variances (biased): the column sums of the centred squares over `nvar`, guarded by `nvar > 0`. -/
def var256 (x : RA S50000x256) : RA S256 :=
  select (broadcastInDim S256 ![] bcast_S_S256 (cmpf .ogt nvar (constant S_ .f32 0x00000000#32)))
    (Host.divf (Host.reduceAdd (mulf (center256 x) (center256 x)) (constant S_ .f32 0x00000000#32) reducesTo_S50000x256_S256_d0 h_S_)
      (broadcastInDim S256 ![] bcast_S_S256 nvar))
    (broadcastInDim S256 ![] bcast_S_S256 (id (constant (F := Ideal) S_ .f32 0x7FC00000#32)))
def var128 (x : RA S50000x128) : RA S128 :=
  select (broadcastInDim S128 ![] bcast_S_S128 (cmpf .ogt nvar (constant S_ .f32 0x00000000#32)))
    (Host.divf (Host.reduceAdd (mulf (center128 x) (center128 x)) (constant S_ .f32 0x00000000#32) reducesTo_S50000x128_S128_d0 h_S_)
      (broadcastInDim S128 ![] bcast_S_S128 nvar))
    (broadcastInDim S128 ![] bcast_S_S128 (id (constant (F := Ideal) S_ .f32 0x7FC00000#32)))

/-- Normalise-and-rectify with the batch's own statistics. -/
def bn256 (x : RA S50000x256) (g beta : RA S256) : RA S50000x256 := bnrelu256 x (mean256 x) (var256 x) g beta
def bn128 (x : RA S50000x128) (g beta : RA S128) : RA S50000x128 := bnrelu128 x (mean128 x) (var128 x) g beta

/-! ## The row-wise log-softmax -/

/-- Each row with its maximum taken off. -/
def shifted (x : RA S50000x41) : RA S50000x41 :=
  subf (F := Ideal) x (broadcastInDim S50000x41 ![0, 1] bcast_S50000x1_S50000x41_0_1 (broadcastInDim S50000x1 ![0] bcast_S50000_S50000x1_0
    (maximumf (broadcastInDim S50000 ![] bcast_S_S50000 (constant S_ .f32 0xFF800000#32))
      (Host.reduce FloatOps.maximumf x (constant S_ .f32 0xFF800000#32) reducesTo_S50000x41_S50000_d1 h_S_))))
/-- `x − max − log (Σ exp (x − max))`, row by row. -/
def logsoftmax (x : RA S50000x41) : RA S50000x41 :=
  subf (F := Ideal) (shifted x) (broadcastInDim S50000x41 ![0, 1] bcast_S50000x1_S50000x41_0_1
    (Host.log (broadcastInDim S50000x1 ![0] bcast_S50000_S50000x1_0
      (Host.reduceAdd (Host.exp (shifted x)) (constant S_ .f32 0x00000000#32) reducesTo_S50000x41_S50000_d1 h_S_))))

/-! ## The network -/

/-- The seventeen argument arrays. -/
structure Args where
  x : RA S50000x128
  ei : IA S2x800000
  W1 : RA S5x128x256
  b1 : RA S5x256
  g1 : RA S5x256
  beta1 : RA S5x256
  W2 : RA S5x256x128
  b2 : RA S5x128
  eps : RA S5
  g2 : RA S5x128
  beta2 : RA S5x128
  lin1_w : RA S128x128
  lin1_b : RA S128
  bn1_g : RA S128
  bn1_b : RA S128
  lin2_w : RA S128x41
  lin2_b : RA S41

/-- One layer's parameters. -/
structure LayerP where
  e : RA S_
  w1 : RA S128x256
  b1 : RA S256
  g1 : RA S256
  be1 : RA S256
  w2 : RA S256x128
  b2 : RA S128
  g2 : RA S128
  be2 : RA S128

/-- Row `l` of each stacked parameter array, as one layer's parameters (each slice given the evidence that row `l`
    lies inside its array). -/
def layerP (A : Args) (l : Nat)
    (s1 : S5.Slices ![l] S1) (s3 : S5x128x256.Slices ![l, 0, 0] S1x128x256) (s2 : S5x256.Slices ![l, 0] S1x256)
    (s4 : S5x256x128.Slices ![l, 0, 0] S1x256x128) (s5 : S5x128.Slices ![l, 0] S1x128) : LayerP where
  e := shapeCast S_ (extractStridedSlice S1 ![l] A.eps s1) shapeCasts_S1_S_
  w1 := shapeCast S128x256 (extractStridedSlice S1x128x256 ![l, 0, 0] A.W1 s3) shapeCasts_S1x128x256_S128x256
  b1 := shapeCast S256 (extractStridedSlice S1x256 ![l, 0] A.b1 s2) shapeCasts_S1x256_S256
  g1 := shapeCast S256 (extractStridedSlice S1x256 ![l, 0] A.g1 s2) shapeCasts_S1x256_S256
  be1 := shapeCast S256 (extractStridedSlice S1x256 ![l, 0] A.beta1 s2) shapeCasts_S1x256_S256
  w2 := shapeCast S256x128 (extractStridedSlice S1x256x128 ![l, 0, 0] A.W2 s4) shapeCasts_S1x256x128_S256x128
  b2 := shapeCast S128 (extractStridedSlice S1x128 ![l, 0] A.b2 s5) shapeCasts_S1x128_S128
  g2 := shapeCast S128 (extractStridedSlice S1x128 ![l, 0] A.g2 s5) shapeCasts_S1x128_S128
  be2 := shapeCast S128 (extractStridedSlice S1x128 ![l, 0] A.beta2 s5) shapeCasts_S1x128_S128

/-- The five layers' parameters. -/
def P0 (A : Args) : LayerP :=
  layerP A 0 slices_S5_S1_0 slices_S5x128x256_S1x128x256_0_0_0 slices_S5x256_S1x256_0_0 slices_S5x256x128_S1x256x128_0_0_0 slices_S5x128_S1x128_0_0
def P1 (A : Args) : LayerP :=
  layerP A 1 slices_S5_S1_1 slices_S5x128x256_S1x128x256_1_0_0 slices_S5x256_S1x256_1_0 slices_S5x256x128_S1x256x128_1_0_0 slices_S5x128_S1x128_1_0
def P2 (A : Args) : LayerP :=
  layerP A 2 slices_S5_S1_2 slices_S5x128x256_S1x128x256_2_0_0 slices_S5x256_S1x256_2_0 slices_S5x256x128_S1x256x128_2_0_0 slices_S5x128_S1x128_2_0
def P3 (A : Args) : LayerP :=
  layerP A 3 slices_S5_S1_3 slices_S5x128x256_S1x128x256_3_0_0 slices_S5x256_S1x256_3_0 slices_S5x256x128_S1x256x128_3_0_0 slices_S5x128_S1x128_3_0
def P4 (A : Args) : LayerP :=
  layerP A 4 slices_S5_S1_4 slices_S5x128x256_S1x128x256_4_0_0 slices_S5x256_S1x256_4_0 slices_S5x256x128_S1x256x128_4_0_0 slices_S5x128_S1x128_4_0

/-- A layer's first linear map on the mixed features. -/
def z1 (p : LayerP) (h : RA S50000x128) (s d : IA S800000) : RA S50000x256 :=
  lin128x256 (mix p.e h (agg h s d)) p.w1 p.b1
/-- A layer up to its second linear map. -/
def z2 (p : LayerP) (h : RA S50000x128) (s d : IA S800000) : RA S50000x128 :=
  lin256x128 (bn256 (z1 p h s d) p.g1 p.be1) p.w2 p.b2
/-- A whole layer other than the last: its output normalised and rectified again. -/
def layer (p : LayerP) (h : RA S50000x128) (s d : IA S800000) : RA S50000x128 :=
  bn128 (z2 p h s d) p.g2 p.be2

/-- The node features entering layers 1 to 4. -/
def h1 (A : Args) : RA S50000x128 := layer (P0 A) A.x (src A.ei) (dst A.ei)
def h2 (A : Args) : RA S50000x128 := layer (P1 A) (h1 A) (src A.ei) (dst A.ei)
def h3 (A : Args) : RA S50000x128 := layer (P2 A) (h2 A) (src A.ei) (dst A.ei)
def h4 (A : Args) : RA S50000x128 := layer (P3 A) (h3 A) (src A.ei) (dst A.ei)
/-- The last layer's output (no second normalisation). -/
def h5 (A : Args) : RA S50000x128 := z2 (P4 A) (h4 A) (src A.ei) (dst A.ei)
/-- The head's first linear map. -/
def y1 (A : Args) : RA S50000x128 := lin128x128 (h5 A) A.lin1_w A.lin1_b
/-- The class scores before the log-softmax. -/
def logits (A : Args) : RA S50000x41 := lin128x41 (bn128 (y1 A) A.bn1_g A.bn1_b) A.lin2_w A.lin2_b
/-- The network's result. -/
def out (A : Args) : RA S50000x41 := logsoftmax (logits A)

end Cert.Spec

end
-- ==== Proof.KArgs.lean ====
/-
  The blocked program's argument arrays, read off a device's buffer contents, as the record the specification's functions
  take; and the same for the launch memory.
-/
import proofs.«107430_j24575802868448_1_alg».proof.Proof.Gen.KernelIdeal
import proofs.«107430_j24575802868448_1_alg».proof.Proof.Spec
import Idealize.ShloMosaic.Lib.StableHlo.Run

noncomputable section

namespace Cert.KernelIdeal.Host

open Idealize.ShloMosaic Idealize.ShloMosaic.TcCoe Idealize.SL.Sem Idealize.ShloMosaic.StableHlo Cert.KernelIdeal

/-- The seventeen argument arrays as a valuation holds them. -/
def argsOf (V : Valuation τ sig (Elt Ideal)) : Cert.Spec.Args where
  x := V (Proc.devRef .tc main_arg0)
  ei := V (Proc.devRef .tc main_arg1)
  W1 := V (Proc.devRef .tc main_arg2)
  b1 := V (Proc.devRef .tc main_arg3)
  g1 := V (Proc.devRef .tc main_arg4)
  beta1 := V (Proc.devRef .tc main_arg5)
  W2 := V (Proc.devRef .tc main_arg6)
  b2 := V (Proc.devRef .tc main_arg7)
  eps := V (Proc.devRef .tc main_arg8)
  g2 := V (Proc.devRef .tc main_arg9)
  beta2 := V (Proc.devRef .tc main_arg10)
  lin1_w := V (Proc.devRef .tc main_arg11)
  lin1_b := V (Proc.devRef .tc main_arg12)
  bn1_g := V (Proc.devRef .tc main_arg13)
  bn1_b := V (Proc.devRef .tc main_arg14)
  lin2_w := V (Proc.devRef .tc main_arg15)
  lin2_b := V (Proc.devRef .tc main_arg16)

/-- Two valuations that agree on the seventeen argument buffers give the same record. -/
theorem argsOf_congr {V V' : Valuation τ sig (Elt Ideal)}
    (h0 : V' (Proc.devRef .tc main_arg0) = V (Proc.devRef .tc main_arg0)) (h1 : V' (Proc.devRef .tc main_arg1) = V (Proc.devRef .tc main_arg1))
    (h2 : V' (Proc.devRef .tc main_arg2) = V (Proc.devRef .tc main_arg2)) (h3 : V' (Proc.devRef .tc main_arg3) = V (Proc.devRef .tc main_arg3))
    (h4 : V' (Proc.devRef .tc main_arg4) = V (Proc.devRef .tc main_arg4)) (h5 : V' (Proc.devRef .tc main_arg5) = V (Proc.devRef .tc main_arg5))
    (h6 : V' (Proc.devRef .tc main_arg6) = V (Proc.devRef .tc main_arg6)) (h7 : V' (Proc.devRef .tc main_arg7) = V (Proc.devRef .tc main_arg7))
    (h8 : V' (Proc.devRef .tc main_arg8) = V (Proc.devRef .tc main_arg8)) (h9 : V' (Proc.devRef .tc main_arg9) = V (Proc.devRef .tc main_arg9))
    (h10 : V' (Proc.devRef .tc main_arg10) = V (Proc.devRef .tc main_arg10)) (h11 : V' (Proc.devRef .tc main_arg11) = V (Proc.devRef .tc main_arg11))
    (h12 : V' (Proc.devRef .tc main_arg12) = V (Proc.devRef .tc main_arg12)) (h13 : V' (Proc.devRef .tc main_arg13) = V (Proc.devRef .tc main_arg13))
    (h14 : V' (Proc.devRef .tc main_arg14) = V (Proc.devRef .tc main_arg14)) (h15 : V' (Proc.devRef .tc main_arg15) = V (Proc.devRef .tc main_arg15))
    (h16 : V' (Proc.devRef .tc main_arg16) = V (Proc.devRef .tc main_arg16)) : argsOf V' = argsOf V := by
  unfold argsOf
  rw [h0, h1, h2, h3, h4, h5, h6, h7, h8, h9, h10, h11, h12, h13, h14, h15, h16]

/-- The seventeen argument buffers. -/
def argRefs : List (Ref sig .tc) :=
  [main_arg0, main_arg1, main_arg2, main_arg3, main_arg4, main_arg5, main_arg6, main_arg7, main_arg8, main_arg9, main_arg10,
   main_arg11, main_arg12, main_arg13, main_arg14, main_arg15, main_arg16]

/-- The same, from agreement on every buffer of the list. -/
theorem argsOf_congr_of {V V' : Valuation τ sig (Elt Ideal)}
    (h : ∀ b ∈ argRefs, V' (Proc.devRef .tc b) = V (Proc.devRef .tc b)) : argsOf V' = argsOf V :=
  argsOf_congr (h _ (by decide)) (h _ (by decide)) (h _ (by decide)) (h _ (by decide)) (h _ (by decide)) (h _ (by decide))
    (h _ (by decide)) (h _ (by decide)) (h _ (by decide)) (h _ (by decide)) (h _ (by decide)) (h _ (by decide))
    (h _ (by decide)) (h _ (by decide)) (h _ (by decide)) (h _ (by decide)) (h _ (by decide))

end Cert.KernelIdeal.Host

end
-- ==== Proof.LibTypedRead.lean ====
/-
  Reading a host operation's result through a TYPED reference, without transports.

  A function that jax outlined (a softmax, a clip) prints once, over references that carry the type of the tensor they
  hold (`StableHlo.TRef sig T`); each of its operations moves its function to the reference's own buffer type along the
  equation `ref.ty = T` (`TRef.toBuf` / `TRef.ofBuf`: a `cast` each way). Read back with the untyped result lemmas, every
  intermediate value comes out wrapped in such a pair of casts, and a term with a cast at its head above a large
  operation is expensive to compare with anything: the comparison opens the operation before it opens the cast.

  So read a typed reference AT ITS TYPE: `read x V` is `V` at `x`'s buffer, moved to `T`. Then every typed builder has a
  result lemma with no cast in it — `read y` of a `TRef.binary a b y f` is `f (read a V) (read b V)` — because moving a value
  to the buffer's type and back is the identity for ANY typed reference (`ofBuf_toBuf`: by `subst` of the reference's
  type equation, no computation). At a literal reference `read (.of r) V = V r` by `rfl`, on a term with nothing under it.
-/
import Idealize.ShloMosaic.Lib.StableHlo.Run

noncomputable section

namespace Cert.TypedRead

open Idealize.ShloMosaic Idealize.ShloMosaic.StableHlo

variable {τ : Topo} {sig : RefSig} {Val : EltTy → Type} {T Tx Ta Tb Ty : BufTy}

/-- The contents of a typed reference's buffer, at the reference's type. -/
def read (x : TRef sig T) (V : Valuation τ sig Val) : T.Contents Val := x.ofBuf (V (Proc.devRef .tc x.ref))

/-- To the buffer's type and back is the identity, whatever the reference. -/
theorem ofBuf_toBuf (x : TRef sig T) (v : T.Contents Val) : x.ofBuf (x.toBuf (Val := Val) v) = v := by
  obtain ⟨r, h, h2, h3⟩ := x
  subst h
  rfl

/-! ## A typed builder's result at its own reference -/

theorem read_nullary (y : TRef sig Ty) (v : Ty.Contents Val) (V : Valuation τ sig Val) :
    read y ((no_index (TRef.nullary (τ := τ) y v)).result V) = v := by
  unfold read
  exact (congrArg y.ofBuf (nullary_result y.ref (y.toBuf v) y.dev V)).trans (ofBuf_toBuf y v)

theorem read_unary (x : TRef sig Tx) (y : TRef sig Ty) (f : Tx.Contents Val → Ty.Contents Val) (V : Valuation τ sig Val) :
    read y ((no_index (TRef.unary (τ := τ) x y f)).result V) = f (read x V) := by
  unfold read
  exact (congrArg y.ofBuf (unary_result x.ref y.ref (fun u => y.toBuf (f (x.ofBuf u))) x.dev y.dev V)).trans
    (ofBuf_toBuf y _)

theorem read_binary (a : TRef sig Ta) (b : TRef sig Tb) (y : TRef sig Ty)
    (f : Ta.Contents Val → Tb.Contents Val → Ty.Contents Val) (V : Valuation τ sig Val) :
    read y ((no_index (TRef.binary (τ := τ) a b y f)).result V) = f (read a V) (read b V) := by
  unfold read
  exact (congrArg y.ofBuf (binary_result a.ref b.ref y.ref (fun u v => y.toBuf (f (a.ofBuf u) (b.ofBuf v))) a.dev b.dev y.dev V)).trans
    (ofBuf_toBuf y _)

/-! ## … and at any other reference: what was there -/

theorem read_nullary_ne (z : TRef sig T) (y : TRef sig Ty) (v : Ty.Contents Val) (V : Valuation τ sig Val) (h : z.ref ≠ y.ref) :
    read z ((no_index (TRef.nullary (τ := τ) y v)).result V) = read z V := by
  unfold read
  exact congrArg z.ofBuf (nullary_result_ne (y := y.ref) (y.toBuf v) y.dev V h)

theorem read_unary_ne (z : TRef sig T) (x : TRef sig Tx) (y : TRef sig Ty) (f : Tx.Contents Val → Ty.Contents Val)
    (V : Valuation τ sig Val) (h : z.ref ≠ y.ref) :
    read z ((no_index (TRef.unary (τ := τ) x y f)).result V) = read z V := by
  unfold read
  exact congrArg z.ofBuf (unary_result_ne (x := x.ref) (y := y.ref) (fun u => y.toBuf (f (x.ofBuf u))) x.dev y.dev V h)

theorem read_binary_ne (z : TRef sig T) (a : TRef sig Ta) (b : TRef sig Tb) (y : TRef sig Ty)
    (f : Ta.Contents Val → Tb.Contents Val → Ty.Contents Val) (V : Valuation τ sig Val) (h : z.ref ≠ y.ref) :
    read z ((no_index (TRef.binary (τ := τ) a b y f)).result V) = read z V := by
  unfold read
  exact congrArg z.ofBuf (binary_result_ne (a := a.ref) (b := b.ref) (y := y.ref) (fun u v => y.toBuf (f (a.ofBuf u) (b.ofBuf v))) a.dev b.dev y.dev V h)

end Cert.TypedRead

end
-- ==== Proof.KHostTail.lean ====
/-
  The last layer, the head and the closing log-softmax of the blocked program, host side: what the host operations
  before regions 12 to 15 and after the last region leave in the buffers read next, for ANY buffer contents `V` they
  start from.

  Layer 4 is a layer without the outer normalisation: before region 12 the mixed features of the previous output and
  row 4 of the first weight and bias; before region 13 the column statistics of region 12's result and the remaining
  parameters. The head reads its parameters straight from the argument arrays: before region 14 the first head weight
  and bias; before region 15 the column statistics of region 14's result, the head's scale and shift and the last weight
  and bias. After region 15 the outlined row-wise log-softmax of its result is the program's result.
-/
import proofs.«107430_j24575802868448_1_alg».proof.Proof.Gen.KernelIdeal.Launch
import proofs.«107430_j24575802868448_1_alg».proof.Proof.Spec
import proofs.«107430_j24575802868448_1_alg».proof.Proof.KArgs
import proofs.«107430_j24575802868448_1_alg».proof.Proof.LibTypedRead
import Idealize.ShloMosaic.Lib.StableHlo.Run

set_option maxHeartbeats 1000000

noncomputable section

namespace Cert.KernelIdeal.Host

open Idealize.ShloMosaic Idealize.ShloMosaic.TcCoe Idealize.SL.Sem Idealize.ShloMosaic.StableHlo Cert.KernelIdeal Cert.KernelIdeal.Gen
open Cert.Spec

variable (V : Valuation τ sig (Elt Ideal))

/-! ## Before region 12 -/

abbrev E12 : Valuation τ sig (Elt Ideal) := after (hostOps12 (F := Ideal)) V

theorem e12_x : E12 V (Proc.devRef .tc main_v239)
    = mix (P4 (argsOf V)).e (V (Proc.devRef .tc main_v223))
        (agg (V (Proc.devRef .tc main_v223)) (V (Proc.devRef .tc main_v1)) (V (Proc.devRef .tc main_v3))) := by
  dsimp only [E12, hostOps12]; after_results_simp; rfl
theorem e12_w : E12 V (Proc.devRef .tc main_v244) = truncf .bf16 (P4 (argsOf V)).w1 bitsLt_bf16_f32 := by
  dsimp only [E12, hostOps12]; after_results_simp; rfl
theorem e12_b : E12 V (Proc.devRef .tc main_v245) = shapeCast S1x256 (P4 (argsOf V)).b1 shapeCasts_S256_S1x256 := by
  dsimp only [E12, hostOps12]; after_results_simp; rfl
theorem e12_args : argsOf (E12 V) = argsOf V := by
  refine argsOf_congr ?_ ?_ ?_ ?_ ?_ ?_ ?_ ?_ ?_ ?_ ?_ ?_ ?_ ?_ ?_ ?_ ?_ <;> (dsimp only [E12, hostOps12]; after_results_simp)

/-! ## Before region 13 -/

abbrev E13 : Valuation τ sig (Elt Ideal) := after (hostOps13_2 (F := Ideal)) (after hostOps13_1 (after hostOps13 V))

theorem e13_x : E13 V (Proc.devRef .tc main_v246) = V (Proc.devRef .tc main_v246) := by
  dsimp only [E13, hostOps13, hostOps13_1, hostOps13_2]; after_results_simp
theorem e13_mean : E13 V (Proc.devRef .tc main_v261) = shapeCast S1x256 (mean256 (V (Proc.devRef .tc main_v246))) shapeCasts_S256_S1x256 := by
  dsimp only [E13, hostOps13, hostOps13_1, hostOps13_2]; after_results_simp; rfl
theorem e13_var : E13 V (Proc.devRef .tc main_v262) = shapeCast S1x256 (var256 (V (Proc.devRef .tc main_v246))) shapeCasts_S256_S1x256 := by
  dsimp only [E13, hostOps13, hostOps13_1, hostOps13_2]; after_results_simp; rfl
theorem e13_g : E13 V (Proc.devRef .tc main_v263) = shapeCast S1x256 (P4 (argsOf V)).g1 shapeCasts_S256_S1x256 := by
  dsimp only [E13, hostOps13, hostOps13_1, hostOps13_2]; after_results_simp; rfl
theorem e13_beta : E13 V (Proc.devRef .tc main_v264) = shapeCast S1x256 (P4 (argsOf V)).be1 shapeCasts_S256_S1x256 := by
  dsimp only [E13, hostOps13, hostOps13_1, hostOps13_2]; after_results_simp; rfl
theorem e13_w : E13 V (Proc.devRef .tc main_v259) = truncf .bf16 (P4 (argsOf V)).w2 bitsLt_bf16_f32 := by
  dsimp only [E13, hostOps13, hostOps13_1, hostOps13_2]; after_results_simp; rfl
theorem e13_b : E13 V (Proc.devRef .tc main_v260) = shapeCast S1x128 (P4 (argsOf V)).b2 shapeCasts_S128_S1x128 := by
  dsimp only [E13, hostOps13, hostOps13_1, hostOps13_2]; after_results_simp; rfl
theorem e13_args : argsOf (E13 V) = argsOf V := by
  refine argsOf_congr ?_ ?_ ?_ ?_ ?_ ?_ ?_ ?_ ?_ ?_ ?_ ?_ ?_ ?_ ?_ ?_ ?_ <;> (dsimp only [E13, hostOps13, hostOps13_1, hostOps13_2]; after_results_simp)

/-! ## Before region 14 -/

abbrev E14 : Valuation τ sig (Elt Ideal) := after (hostOps14 (F := Ideal)) V

theorem e14_x : E14 V (Proc.devRef .tc main_v265) = V (Proc.devRef .tc main_v265) := by
  dsimp only [E14, hostOps14]; after_results_simp
theorem e14_w : E14 V (Proc.devRef .tc main_v266) = truncf .bf16 (argsOf V).lin1_w bitsLt_bf16_f32 := by
  dsimp only [E14, hostOps14]; after_results_simp; rfl
theorem e14_b : E14 V (Proc.devRef .tc main_v267) = shapeCast S1x128 (argsOf V).lin1_b shapeCasts_S128_S1x128 := by
  dsimp only [E14, hostOps14]; after_results_simp; rfl
theorem e14_args : argsOf (E14 V) = argsOf V := by
  refine argsOf_congr ?_ ?_ ?_ ?_ ?_ ?_ ?_ ?_ ?_ ?_ ?_ ?_ ?_ ?_ ?_ ?_ ?_ <;> (dsimp only [E14, hostOps14]; after_results_simp)

/-! ## Before region 15 -/

abbrev E15 : Valuation τ sig (Elt Ideal) := after (hostOps15_2 (F := Ideal)) (after hostOps15_1 (after hostOps15 V))

theorem e15_x : E15 V (Proc.devRef .tc main_v268) = V (Proc.devRef .tc main_v268) := by
  dsimp only [E15, hostOps15, hostOps15_1, hostOps15_2]; after_results_simp
theorem e15_mean : E15 V (Proc.devRef .tc main_v275) = shapeCast S1x128 (mean128 (V (Proc.devRef .tc main_v268))) shapeCasts_S128_S1x128 := by
  dsimp only [E15, hostOps15, hostOps15_1, hostOps15_2]; after_results_simp; rfl
theorem e15_var : E15 V (Proc.devRef .tc main_v276) = shapeCast S1x128 (var128 (V (Proc.devRef .tc main_v268))) shapeCasts_S128_S1x128 := by
  dsimp only [E15, hostOps15, hostOps15_1, hostOps15_2]; after_results_simp; rfl
theorem e15_g : E15 V (Proc.devRef .tc main_v277) = shapeCast S1x128 (argsOf V).bn1_g shapeCasts_S128_S1x128 := by
  dsimp only [E15, hostOps15, hostOps15_1, hostOps15_2]; after_results_simp; rfl
theorem e15_beta : E15 V (Proc.devRef .tc main_v278) = shapeCast S1x128 (argsOf V).bn1_b shapeCasts_S128_S1x128 := by
  dsimp only [E15, hostOps15, hostOps15_1, hostOps15_2]; after_results_simp; rfl
theorem e15_w : E15 V (Proc.devRef .tc main_v273) = truncf .bf16 (argsOf V).lin2_w bitsLt_bf16_f32 := by
  dsimp only [E15, hostOps15, hostOps15_1, hostOps15_2]; after_results_simp; rfl
theorem e15_b : E15 V (Proc.devRef .tc main_v274) = shapeCast S1x41 (argsOf V).lin2_b shapeCasts_S41_S1x41 := by
  dsimp only [E15, hostOps15, hostOps15_1, hostOps15_2]; after_results_simp; rfl
theorem e15_args : argsOf (E15 V) = argsOf V := by
  refine argsOf_congr ?_ ?_ ?_ ?_ ?_ ?_ ?_ ?_ ?_ ?_ ?_ ?_ ?_ ?_ ?_ ?_ ?_ <;> (dsimp only [E15, hostOps15, hostOps15_1, hostOps15_2]; after_results_simp)

/-! ## After region 15 -/

abbrev E16 : Valuation τ sig (Elt Ideal) := after (hostOps16 (F := Ideal)) V

/-- Every operation of this stretch belongs to the outlined log-softmax, whose values pass through their buffers' own
    types and back; with those round trips removed (they are the identity) the result is the specification's term. -/
theorem e16_out : E16 V (Proc.devRef .tc main_v280) = logsoftmax (V (Proc.devRef .tc main_v279)) := by
  dsimp only [E16, hostOps16]; after_results_simp
  simp only [Cert.TypedRead.ofBuf_toBuf]
  rfl
theorem e16_args : argsOf (E16 V) = argsOf V := by
  refine argsOf_congr ?_ ?_ ?_ ?_ ?_ ?_ ?_ ?_ ?_ ?_ ?_ ?_ ?_ ?_ ?_ ?_ ?_ <;> (dsimp only [E16, hostOps16]; after_results_simp)

end Cert.KernelIdeal.Host

end
-- ==== Proof.KHostL3.lean ====
/-
  Layer 3 of the blocked program, host side: what the host operations before its three kernel regions leave in the
  buffers those regions read, for ANY buffer contents `V` they start from.

  Before region 9 (the layer's first linear map): the previous layer's output `h` (read from its buffer) mixed with its
  neighbour sum over the edge list's two rows (read from their buffers, where layer 0's host operations left them),
  `(1 + ε₃)·h + Σ_{s→d} h[s]`, and row 3 of the first weight and bias. Before region 10: the column means and variances of
  region 9's result, the first normalisation's scale and shift, the second weight and bias. Before region 11: the same
  statistics of region 10's result and the outer normalisation's scale and shift. The edge rows and the argument arrays
  are left as they were.
-/
import proofs.«107430_j24575802868448_1_alg».proof.Proof.Gen.KernelIdeal.Launch
import proofs.«107430_j24575802868448_1_alg».proof.Proof.Spec
import proofs.«107430_j24575802868448_1_alg».proof.Proof.KArgs
import Idealize.ShloMosaic.Lib.StableHlo.Run

set_option maxHeartbeats 1000000

noncomputable section

namespace Cert.KernelIdeal.Host

open Idealize.ShloMosaic Idealize.ShloMosaic.TcCoe Idealize.SL.Sem Idealize.ShloMosaic.StableHlo Cert.KernelIdeal Cert.KernelIdeal.Gen
open Cert.Spec

variable (V : Valuation τ sig (Elt Ideal))

/-! ## Before region 9 -/

/-- The buffer contents after the host operations before region 9. -/
abbrev E9 : Valuation τ sig (Elt Ideal) := after (hostOps9 (F := Ideal)) V

theorem e9_x : E9 V (Proc.devRef .tc main_v184)
    = mix (P3 (argsOf V)).e (V (Proc.devRef .tc main_v168))
        (agg (V (Proc.devRef .tc main_v168)) (V (Proc.devRef .tc main_v1)) (V (Proc.devRef .tc main_v3))) := by
  dsimp only [E9, hostOps9]; after_results_simp; rfl
theorem e9_w : E9 V (Proc.devRef .tc main_v189) = truncf .bf16 (P3 (argsOf V)).w1 bitsLt_bf16_f32 := by
  dsimp only [E9, hostOps9]; after_results_simp; rfl
theorem e9_b : E9 V (Proc.devRef .tc main_v190) = shapeCast S1x256 (P3 (argsOf V)).b1 shapeCasts_S256_S1x256 := by
  dsimp only [E9, hostOps9]; after_results_simp; rfl
theorem e9_src : E9 V (Proc.devRef .tc main_v1) = V (Proc.devRef .tc main_v1) := by
  dsimp only [E9, hostOps9]; after_results_simp
theorem e9_dst : E9 V (Proc.devRef .tc main_v3) = V (Proc.devRef .tc main_v3) := by
  dsimp only [E9, hostOps9]; after_results_simp
theorem e9_args : argsOf (E9 V) = argsOf V := by
  refine argsOf_congr ?_ ?_ ?_ ?_ ?_ ?_ ?_ ?_ ?_ ?_ ?_ ?_ ?_ ?_ ?_ ?_ ?_ <;> (dsimp only [E9, hostOps9]; after_results_simp)

/-! ## Before region 10 -/

/-- The buffer contents after the three stretches of host operations between regions 9 and 10. -/
abbrev E10 : Valuation τ sig (Elt Ideal) := after (hostOps10_2 (F := Ideal)) (after hostOps10_1 (after hostOps10 V))

theorem e10_x : E10 V (Proc.devRef .tc main_v191) = V (Proc.devRef .tc main_v191) := by
  dsimp only [E10, hostOps10, hostOps10_1, hostOps10_2]; after_results_simp
theorem e10_mean : E10 V (Proc.devRef .tc main_v206) = shapeCast S1x256 (mean256 (V (Proc.devRef .tc main_v191))) shapeCasts_S256_S1x256 := by
  dsimp only [E10, hostOps10, hostOps10_1, hostOps10_2]; after_results_simp; rfl
theorem e10_var : E10 V (Proc.devRef .tc main_v207) = shapeCast S1x256 (var256 (V (Proc.devRef .tc main_v191))) shapeCasts_S256_S1x256 := by
  dsimp only [E10, hostOps10, hostOps10_1, hostOps10_2]; after_results_simp; rfl
theorem e10_g : E10 V (Proc.devRef .tc main_v208) = shapeCast S1x256 (P3 (argsOf V)).g1 shapeCasts_S256_S1x256 := by
  dsimp only [E10, hostOps10, hostOps10_1, hostOps10_2]; after_results_simp; rfl
theorem e10_beta : E10 V (Proc.devRef .tc main_v209) = shapeCast S1x256 (P3 (argsOf V)).be1 shapeCasts_S256_S1x256 := by
  dsimp only [E10, hostOps10, hostOps10_1, hostOps10_2]; after_results_simp; rfl
theorem e10_w : E10 V (Proc.devRef .tc main_v204) = truncf .bf16 (P3 (argsOf V)).w2 bitsLt_bf16_f32 := by
  dsimp only [E10, hostOps10, hostOps10_1, hostOps10_2]; after_results_simp; rfl
theorem e10_b : E10 V (Proc.devRef .tc main_v205) = shapeCast S1x128 (P3 (argsOf V)).b2 shapeCasts_S128_S1x128 := by
  dsimp only [E10, hostOps10, hostOps10_1, hostOps10_2]; after_results_simp; rfl
theorem e10_src : E10 V (Proc.devRef .tc main_v1) = V (Proc.devRef .tc main_v1) := by
  dsimp only [E10, hostOps10, hostOps10_1, hostOps10_2]; after_results_simp
theorem e10_dst : E10 V (Proc.devRef .tc main_v3) = V (Proc.devRef .tc main_v3) := by
  dsimp only [E10, hostOps10, hostOps10_1, hostOps10_2]; after_results_simp
theorem e10_args : argsOf (E10 V) = argsOf V := by
  refine argsOf_congr ?_ ?_ ?_ ?_ ?_ ?_ ?_ ?_ ?_ ?_ ?_ ?_ ?_ ?_ ?_ ?_ ?_ <;> (dsimp only [E10, hostOps10, hostOps10_1, hostOps10_2]; after_results_simp)

/-! ## Before region 11 -/

/-- The buffer contents after the three stretches of host operations between regions 10 and 11. -/
abbrev E11 : Valuation τ sig (Elt Ideal) := after (hostOps11_2 (F := Ideal)) (after hostOps11_1 (after hostOps11 V))

theorem e11_x : E11 V (Proc.devRef .tc main_v210) = V (Proc.devRef .tc main_v210) := by
  dsimp only [E11, hostOps11, hostOps11_1, hostOps11_2]; after_results_simp
theorem e11_mean : E11 V (Proc.devRef .tc main_v219) = shapeCast S1x128 (mean128 (V (Proc.devRef .tc main_v210))) shapeCasts_S128_S1x128 := by
  dsimp only [E11, hostOps11, hostOps11_1, hostOps11_2]; after_results_simp; rfl
theorem e11_var : E11 V (Proc.devRef .tc main_v220) = shapeCast S1x128 (var128 (V (Proc.devRef .tc main_v210))) shapeCasts_S128_S1x128 := by
  dsimp only [E11, hostOps11, hostOps11_1, hostOps11_2]; after_results_simp; rfl
theorem e11_g : E11 V (Proc.devRef .tc main_v221) = shapeCast S1x128 (P3 (argsOf V)).g2 shapeCasts_S128_S1x128 := by
  dsimp only [E11, hostOps11, hostOps11_1, hostOps11_2]; after_results_simp; rfl
theorem e11_beta : E11 V (Proc.devRef .tc main_v222) = shapeCast S1x128 (P3 (argsOf V)).be2 shapeCasts_S128_S1x128 := by
  dsimp only [E11, hostOps11, hostOps11_1, hostOps11_2]; after_results_simp; rfl
theorem e11_src : E11 V (Proc.devRef .tc main_v1) = V (Proc.devRef .tc main_v1) := by
  dsimp only [E11, hostOps11, hostOps11_1, hostOps11_2]; after_results_simp
theorem e11_dst : E11 V (Proc.devRef .tc main_v3) = V (Proc.devRef .tc main_v3) := by
  dsimp only [E11, hostOps11, hostOps11_1, hostOps11_2]; after_results_simp
theorem e11_args : argsOf (E11 V) = argsOf V := by
  refine argsOf_congr ?_ ?_ ?_ ?_ ?_ ?_ ?_ ?_ ?_ ?_ ?_ ?_ ?_ ?_ ?_ ?_ ?_ <;> (dsimp only [E11, hostOps11, hostOps11_1, hostOps11_2]; after_results_simp)

end Cert.KernelIdeal.Host

end
-- ==== Proof.KHostL2.lean ====
/-
  Layer 2 of the blocked program, host side: what the host operations before its three kernel regions leave in the
  buffers those regions read, for ANY buffer contents `V` they start from.

  Before region 6 (the layer's first linear map): the previous layer's output `h` (read from its buffer) mixed with its
  neighbour sum over the edge list's two rows (read from their buffers, where layer 0's host operations left them),
  `(1 + ε₂)·h + Σ_{s→d} h[s]`, and row 2 of the first weight and bias. Before region 7: the column means and variances of
  region 6's result, the first normalisation's scale and shift, the second weight and bias. Before region 8: the same
  statistics of region 7's result and the outer normalisation's scale and shift. The edge rows and the argument arrays
  are left as they were.
-/
import proofs.«107430_j24575802868448_1_alg».proof.Proof.Gen.KernelIdeal.Launch
import proofs.«107430_j24575802868448_1_alg».proof.Proof.Spec
import proofs.«107430_j24575802868448_1_alg».proof.Proof.KArgs
import Idealize.ShloMosaic.Lib.StableHlo.Run

set_option maxHeartbeats 1000000

noncomputable section

namespace Cert.KernelIdeal.Host

open Idealize.ShloMosaic Idealize.ShloMosaic.TcCoe Idealize.SL.Sem Idealize.ShloMosaic.StableHlo Cert.KernelIdeal Cert.KernelIdeal.Gen
open Cert.Spec

variable (V : Valuation τ sig (Elt Ideal))

/-! ## Before region 6 -/

/-- The buffer contents after the host operations before region 6. -/
abbrev E6 : Valuation τ sig (Elt Ideal) := after (hostOps6 (F := Ideal)) V

theorem e6_x : E6 V (Proc.devRef .tc main_v129)
    = mix (P2 (argsOf V)).e (V (Proc.devRef .tc main_v113))
        (agg (V (Proc.devRef .tc main_v113)) (V (Proc.devRef .tc main_v1)) (V (Proc.devRef .tc main_v3))) := by
  dsimp only [E6, hostOps6]; after_results_simp; rfl
theorem e6_w : E6 V (Proc.devRef .tc main_v134) = truncf .bf16 (P2 (argsOf V)).w1 bitsLt_bf16_f32 := by
  dsimp only [E6, hostOps6]; after_results_simp; rfl
theorem e6_b : E6 V (Proc.devRef .tc main_v135) = shapeCast S1x256 (P2 (argsOf V)).b1 shapeCasts_S256_S1x256 := by
  dsimp only [E6, hostOps6]; after_results_simp; rfl
theorem e6_src : E6 V (Proc.devRef .tc main_v1) = V (Proc.devRef .tc main_v1) := by
  dsimp only [E6, hostOps6]; after_results_simp
theorem e6_dst : E6 V (Proc.devRef .tc main_v3) = V (Proc.devRef .tc main_v3) := by
  dsimp only [E6, hostOps6]; after_results_simp
theorem e6_args : argsOf (E6 V) = argsOf V := by
  refine argsOf_congr ?_ ?_ ?_ ?_ ?_ ?_ ?_ ?_ ?_ ?_ ?_ ?_ ?_ ?_ ?_ ?_ ?_ <;> (dsimp only [E6, hostOps6]; after_results_simp)

/-! ## Before region 7 -/

/-- The buffer contents after the three stretches of host operations between regions 6 and 7. -/
abbrev E7 : Valuation τ sig (Elt Ideal) := after (hostOps7_2 (F := Ideal)) (after hostOps7_1 (after hostOps7 V))

theorem e7_x : E7 V (Proc.devRef .tc main_v136) = V (Proc.devRef .tc main_v136) := by
  dsimp only [E7, hostOps7, hostOps7_1, hostOps7_2]; after_results_simp
theorem e7_mean : E7 V (Proc.devRef .tc main_v151) = shapeCast S1x256 (mean256 (V (Proc.devRef .tc main_v136))) shapeCasts_S256_S1x256 := by
  dsimp only [E7, hostOps7, hostOps7_1, hostOps7_2]; after_results_simp; rfl
theorem e7_var : E7 V (Proc.devRef .tc main_v152) = shapeCast S1x256 (var256 (V (Proc.devRef .tc main_v136))) shapeCasts_S256_S1x256 := by
  dsimp only [E7, hostOps7, hostOps7_1, hostOps7_2]; after_results_simp; rfl
theorem e7_g : E7 V (Proc.devRef .tc main_v153) = shapeCast S1x256 (P2 (argsOf V)).g1 shapeCasts_S256_S1x256 := by
  dsimp only [E7, hostOps7, hostOps7_1, hostOps7_2]; after_results_simp; rfl
theorem e7_beta : E7 V (Proc.devRef .tc main_v154) = shapeCast S1x256 (P2 (argsOf V)).be1 shapeCasts_S256_S1x256 := by
  dsimp only [E7, hostOps7, hostOps7_1, hostOps7_2]; after_results_simp; rfl
theorem e7_w : E7 V (Proc.devRef .tc main_v149) = truncf .bf16 (P2 (argsOf V)).w2 bitsLt_bf16_f32 := by
  dsimp only [E7, hostOps7, hostOps7_1, hostOps7_2]; after_results_simp; rfl
theorem e7_b : E7 V (Proc.devRef .tc main_v150) = shapeCast S1x128 (P2 (argsOf V)).b2 shapeCasts_S128_S1x128 := by
  dsimp only [E7, hostOps7, hostOps7_1, hostOps7_2]; after_results_simp; rfl
theorem e7_src : E7 V (Proc.devRef .tc main_v1) = V (Proc.devRef .tc main_v1) := by
  dsimp only [E7, hostOps7, hostOps7_1, hostOps7_2]; after_results_simp
theorem e7_dst : E7 V (Proc.devRef .tc main_v3) = V (Proc.devRef .tc main_v3) := by
  dsimp only [E7, hostOps7, hostOps7_1, hostOps7_2]; after_results_simp
theorem e7_args : argsOf (E7 V) = argsOf V := by
  refine argsOf_congr ?_ ?_ ?_ ?_ ?_ ?_ ?_ ?_ ?_ ?_ ?_ ?_ ?_ ?_ ?_ ?_ ?_ <;> (dsimp only [E7, hostOps7, hostOps7_1, hostOps7_2]; after_results_simp)

/-! ## Before region 8 -/

/-- The buffer contents after the three stretches of host operations between regions 7 and 8. -/
abbrev E8 : Valuation τ sig (Elt Ideal) := after (hostOps8_2 (F := Ideal)) (after hostOps8_1 (after hostOps8 V))

theorem e8_x : E8 V (Proc.devRef .tc main_v155) = V (Proc.devRef .tc main_v155) := by
  dsimp only [E8, hostOps8, hostOps8_1, hostOps8_2]; after_results_simp
theorem e8_mean : E8 V (Proc.devRef .tc main_v164) = shapeCast S1x128 (mean128 (V (Proc.devRef .tc main_v155))) shapeCasts_S128_S1x128 := by
  dsimp only [E8, hostOps8, hostOps8_1, hostOps8_2]; after_results_simp; rfl
theorem e8_var : E8 V (Proc.devRef .tc main_v165) = shapeCast S1x128 (var128 (V (Proc.devRef .tc main_v155))) shapeCasts_S128_S1x128 := by
  dsimp only [E8, hostOps8, hostOps8_1, hostOps8_2]; after_results_simp; rfl
theorem e8_g : E8 V (Proc.devRef .tc main_v166) = shapeCast S1x128 (P2 (argsOf V)).g2 shapeCasts_S128_S1x128 := by
  dsimp only [E8, hostOps8, hostOps8_1, hostOps8_2]; after_results_simp; rfl
theorem e8_beta : E8 V (Proc.devRef .tc main_v167) = shapeCast S1x128 (P2 (argsOf V)).be2 shapeCasts_S128_S1x128 := by
  dsimp only [E8, hostOps8, hostOps8_1, hostOps8_2]; after_results_simp; rfl
theorem e8_src : E8 V (Proc.devRef .tc main_v1) = V (Proc.devRef .tc main_v1) := by
  dsimp only [E8, hostOps8, hostOps8_1, hostOps8_2]; after_results_simp
theorem e8_dst : E8 V (Proc.devRef .tc main_v3) = V (Proc.devRef .tc main_v3) := by
  dsimp only [E8, hostOps8, hostOps8_1, hostOps8_2]; after_results_simp
theorem e8_args : argsOf (E8 V) = argsOf V := by
  refine argsOf_congr ?_ ?_ ?_ ?_ ?_ ?_ ?_ ?_ ?_ ?_ ?_ ?_ ?_ ?_ ?_ ?_ ?_ <;> (dsimp only [E8, hostOps8, hostOps8_1, hostOps8_2]; after_results_simp)

end Cert.KernelIdeal.Host

end
-- ==== Proof.KHostL1.lean ====
/-
  Layer 1 of the blocked program, host side: what the host operations before its three kernel regions leave in the
  buffers those regions read, for ANY buffer contents `V` they start from.

  Before region 3 (the layer's first linear map): the previous layer's output `h` (read from its buffer) mixed with its
  neighbour sum over the edge list's two rows (read from their buffers, where layer 0's host operations left them),
  `(1 + ε₁)·h + Σ_{s→d} h[s]`, and row 1 of the first weight and bias. Before region 4: the column means and variances of
  region 3's result, the first normalisation's scale and shift, the second weight and bias. Before region 5: the same
  statistics of region 4's result and the outer normalisation's scale and shift. The edge rows and the argument arrays
  are left as they were.
-/
import proofs.«107430_j24575802868448_1_alg».proof.Proof.Gen.KernelIdeal.Launch
import proofs.«107430_j24575802868448_1_alg».proof.Proof.Spec
import proofs.«107430_j24575802868448_1_alg».proof.Proof.KArgs
import Idealize.ShloMosaic.Lib.StableHlo.Run

set_option maxHeartbeats 1000000

noncomputable section

namespace Cert.KernelIdeal.Host

open Idealize.ShloMosaic Idealize.ShloMosaic.TcCoe Idealize.SL.Sem Idealize.ShloMosaic.StableHlo Cert.KernelIdeal Cert.KernelIdeal.Gen
open Cert.Spec

variable (V : Valuation τ sig (Elt Ideal))

/-! ## Before region 3 -/

/-- The buffer contents after the host operations before region 3. -/
abbrev E3 : Valuation τ sig (Elt Ideal) := after (hostOps3 (F := Ideal)) V

theorem e3_x : E3 V (Proc.devRef .tc main_v74)
    = mix (P1 (argsOf V)).e (V (Proc.devRef .tc main_v58))
        (agg (V (Proc.devRef .tc main_v58)) (V (Proc.devRef .tc main_v1)) (V (Proc.devRef .tc main_v3))) := by
  dsimp only [E3, hostOps3]; after_results_simp; rfl
theorem e3_w : E3 V (Proc.devRef .tc main_v79) = truncf .bf16 (P1 (argsOf V)).w1 bitsLt_bf16_f32 := by
  dsimp only [E3, hostOps3]; after_results_simp; rfl
theorem e3_b : E3 V (Proc.devRef .tc main_v80) = shapeCast S1x256 (P1 (argsOf V)).b1 shapeCasts_S256_S1x256 := by
  dsimp only [E3, hostOps3]; after_results_simp; rfl
theorem e3_src : E3 V (Proc.devRef .tc main_v1) = V (Proc.devRef .tc main_v1) := by
  dsimp only [E3, hostOps3]; after_results_simp
theorem e3_dst : E3 V (Proc.devRef .tc main_v3) = V (Proc.devRef .tc main_v3) := by
  dsimp only [E3, hostOps3]; after_results_simp
theorem e3_args : argsOf (E3 V) = argsOf V := by
  refine argsOf_congr ?_ ?_ ?_ ?_ ?_ ?_ ?_ ?_ ?_ ?_ ?_ ?_ ?_ ?_ ?_ ?_ ?_ <;> (dsimp only [E3, hostOps3]; after_results_simp)

/-! ## Before region 4 -/

/-- The buffer contents after the three stretches of host operations between regions 3 and 4. -/
abbrev E4 : Valuation τ sig (Elt Ideal) := after (hostOps4_2 (F := Ideal)) (after hostOps4_1 (after hostOps4 V))

theorem e4_x : E4 V (Proc.devRef .tc main_v81) = V (Proc.devRef .tc main_v81) := by
  dsimp only [E4, hostOps4, hostOps4_1, hostOps4_2]; after_results_simp
theorem e4_mean : E4 V (Proc.devRef .tc main_v96) = shapeCast S1x256 (mean256 (V (Proc.devRef .tc main_v81))) shapeCasts_S256_S1x256 := by
  dsimp only [E4, hostOps4, hostOps4_1, hostOps4_2]; after_results_simp; rfl
theorem e4_var : E4 V (Proc.devRef .tc main_v97) = shapeCast S1x256 (var256 (V (Proc.devRef .tc main_v81))) shapeCasts_S256_S1x256 := by
  dsimp only [E4, hostOps4, hostOps4_1, hostOps4_2]; after_results_simp; rfl
theorem e4_g : E4 V (Proc.devRef .tc main_v98) = shapeCast S1x256 (P1 (argsOf V)).g1 shapeCasts_S256_S1x256 := by
  dsimp only [E4, hostOps4, hostOps4_1, hostOps4_2]; after_results_simp; rfl
theorem e4_beta : E4 V (Proc.devRef .tc main_v99) = shapeCast S1x256 (P1 (argsOf V)).be1 shapeCasts_S256_S1x256 := by
  dsimp only [E4, hostOps4, hostOps4_1, hostOps4_2]; after_results_simp; rfl
theorem e4_w : E4 V (Proc.devRef .tc main_v94) = truncf .bf16 (P1 (argsOf V)).w2 bitsLt_bf16_f32 := by
  dsimp only [E4, hostOps4, hostOps4_1, hostOps4_2]; after_results_simp; rfl
theorem e4_b : E4 V (Proc.devRef .tc main_v95) = shapeCast S1x128 (P1 (argsOf V)).b2 shapeCasts_S128_S1x128 := by
  dsimp only [E4, hostOps4, hostOps4_1, hostOps4_2]; after_results_simp; rfl
theorem e4_src : E4 V (Proc.devRef .tc main_v1) = V (Proc.devRef .tc main_v1) := by
  dsimp only [E4, hostOps4, hostOps4_1, hostOps4_2]; after_results_simp
theorem e4_dst : E4 V (Proc.devRef .tc main_v3) = V (Proc.devRef .tc main_v3) := by
  dsimp only [E4, hostOps4, hostOps4_1, hostOps4_2]; after_results_simp
theorem e4_args : argsOf (E4 V) = argsOf V := by
  refine argsOf_congr ?_ ?_ ?_ ?_ ?_ ?_ ?_ ?_ ?_ ?_ ?_ ?_ ?_ ?_ ?_ ?_ ?_ <;> (dsimp only [E4, hostOps4, hostOps4_1, hostOps4_2]; after_results_simp)

/-! ## Before region 5 -/

/-- The buffer contents after the three stretches of host operations between regions 4 and 5. -/
abbrev E5 : Valuation τ sig (Elt Ideal) := after (hostOps5_2 (F := Ideal)) (after hostOps5_1 (after hostOps5 V))

theorem e5_x : E5 V (Proc.devRef .tc main_v100) = V (Proc.devRef .tc main_v100) := by
  dsimp only [E5, hostOps5, hostOps5_1, hostOps5_2]; after_results_simp
theorem e5_mean : E5 V (Proc.devRef .tc main_v109) = shapeCast S1x128 (mean128 (V (Proc.devRef .tc main_v100))) shapeCasts_S128_S1x128 := by
  dsimp only [E5, hostOps5, hostOps5_1, hostOps5_2]; after_results_simp; rfl
theorem e5_var : E5 V (Proc.devRef .tc main_v110) = shapeCast S1x128 (var128 (V (Proc.devRef .tc main_v100))) shapeCasts_S128_S1x128 := by
  dsimp only [E5, hostOps5, hostOps5_1, hostOps5_2]; after_results_simp; rfl
theorem e5_g : E5 V (Proc.devRef .tc main_v111) = shapeCast S1x128 (P1 (argsOf V)).g2 shapeCasts_S128_S1x128 := by
  dsimp only [E5, hostOps5, hostOps5_1, hostOps5_2]; after_results_simp; rfl
theorem e5_beta : E5 V (Proc.devRef .tc main_v112) = shapeCast S1x128 (P1 (argsOf V)).be2 shapeCasts_S128_S1x128 := by
  dsimp only [E5, hostOps5, hostOps5_1, hostOps5_2]; after_results_simp; rfl
theorem e5_src : E5 V (Proc.devRef .tc main_v1) = V (Proc.devRef .tc main_v1) := by
  dsimp only [E5, hostOps5, hostOps5_1, hostOps5_2]; after_results_simp
theorem e5_dst : E5 V (Proc.devRef .tc main_v3) = V (Proc.devRef .tc main_v3) := by
  dsimp only [E5, hostOps5, hostOps5_1, hostOps5_2]; after_results_simp
theorem e5_args : argsOf (E5 V) = argsOf V := by
  refine argsOf_congr ?_ ?_ ?_ ?_ ?_ ?_ ?_ ?_ ?_ ?_ ?_ ?_ ?_ ?_ ?_ ?_ ?_ <;> (dsimp only [E5, hostOps5, hostOps5_1, hostOps5_2]; after_results_simp)

end Cert.KernelIdeal.Host

end
-- ==== Proof.KHostL0.lean ====
/-
  Layer 0 of the blocked program, host side: what the host operations between the launch and the first three kernel
  regions leave in the buffers those regions read, for ANY buffer contents `V` they start from.

  Before region 0 (the first linear map): the mixed features `(1 + ε₀)·x + Σ_{s→d} x[s]`, the layer's first weight (converted to
  the narrow float format, which is the identity on extended reals) and its bias as a row; also the two rows of the
  edge list, which every later layer's neighbour sum reads again. Before region 1: the column means and variances of
  region 0's result, the first normalisation's scale and shift, the second weight and bias, each vector as a one-row
  array. Before region 2: the same statistics of region 1's result and the outer normalisation's scale and shift.
  Every argument array is left as it was.
-/
import proofs.«107430_j24575802868448_1_alg».proof.Proof.Gen.KernelIdeal.Launch
import proofs.«107430_j24575802868448_1_alg».proof.Proof.Spec
import proofs.«107430_j24575802868448_1_alg».proof.Proof.KArgs
import Idealize.ShloMosaic.Lib.StableHlo.Run

set_option maxHeartbeats 1000000

noncomputable section

namespace Cert.KernelIdeal.Host

open Idealize.ShloMosaic Idealize.ShloMosaic.TcCoe Idealize.SL.Sem Idealize.ShloMosaic.StableHlo Cert.KernelIdeal Cert.KernelIdeal.Gen
open Cert.Spec

variable (V : Valuation τ sig (Elt Ideal))

/-! ## Before region 0 -/

/-- The buffer contents after the host operations before region 0. -/
abbrev E0 : Valuation τ sig (Elt Ideal) := after (hostOps0 (F := Ideal)) V

theorem e0_x : E0 V (Proc.devRef .tc main_v19)
    = mix (P0 (argsOf V)).e (argsOf V).x (agg (argsOf V).x (src (argsOf V).ei) (dst (argsOf V).ei)) := by
  dsimp only [E0, hostOps0]; after_results_simp; rfl
theorem e0_w : E0 V (Proc.devRef .tc main_v24) = truncf .bf16 (P0 (argsOf V)).w1 bitsLt_bf16_f32 := by
  dsimp only [E0, hostOps0]; after_results_simp; rfl
theorem e0_b : E0 V (Proc.devRef .tc main_v25) = shapeCast S1x256 (P0 (argsOf V)).b1 shapeCasts_S256_S1x256 := by
  dsimp only [E0, hostOps0]; after_results_simp; rfl
theorem e0_src : E0 V (Proc.devRef .tc main_v1) = src (argsOf V).ei := by
  dsimp only [E0, hostOps0]; after_results_simp; rfl
theorem e0_dst : E0 V (Proc.devRef .tc main_v3) = dst (argsOf V).ei := by
  dsimp only [E0, hostOps0]; after_results_simp; rfl
theorem e0_args : argsOf (E0 V) = argsOf V := by
  refine argsOf_congr ?_ ?_ ?_ ?_ ?_ ?_ ?_ ?_ ?_ ?_ ?_ ?_ ?_ ?_ ?_ ?_ ?_ <;> (dsimp only [E0, hostOps0]; after_results_simp)

/-! ## Before region 1 -/

/-- The buffer contents after the three stretches of host operations between regions 0 and 1 (the column sums and
    means, the outlined variance, the parameter slices and the one-row reshapes). -/
abbrev E1 : Valuation τ sig (Elt Ideal) := after (hostOps1_2 (F := Ideal)) (after hostOps1_1 (after hostOps1 V))

theorem e1_x : E1 V (Proc.devRef .tc main_v26) = V (Proc.devRef .tc main_v26) := by
  dsimp only [E1, hostOps1, hostOps1_1, hostOps1_2]; after_results_simp
theorem e1_mean : E1 V (Proc.devRef .tc main_v41) = shapeCast S1x256 (mean256 (V (Proc.devRef .tc main_v26))) shapeCasts_S256_S1x256 := by
  dsimp only [E1, hostOps1, hostOps1_1, hostOps1_2]; after_results_simp; rfl
theorem e1_var : E1 V (Proc.devRef .tc main_v42) = shapeCast S1x256 (var256 (V (Proc.devRef .tc main_v26))) shapeCasts_S256_S1x256 := by
  dsimp only [E1, hostOps1, hostOps1_1, hostOps1_2]; after_results_simp; rfl
theorem e1_g : E1 V (Proc.devRef .tc main_v43) = shapeCast S1x256 (P0 (argsOf V)).g1 shapeCasts_S256_S1x256 := by
  dsimp only [E1, hostOps1, hostOps1_1, hostOps1_2]; after_results_simp; rfl
theorem e1_beta : E1 V (Proc.devRef .tc main_v44) = shapeCast S1x256 (P0 (argsOf V)).be1 shapeCasts_S256_S1x256 := by
  dsimp only [E1, hostOps1, hostOps1_1, hostOps1_2]; after_results_simp; rfl
theorem e1_w : E1 V (Proc.devRef .tc main_v39) = truncf .bf16 (P0 (argsOf V)).w2 bitsLt_bf16_f32 := by
  dsimp only [E1, hostOps1, hostOps1_1, hostOps1_2]; after_results_simp; rfl
theorem e1_b : E1 V (Proc.devRef .tc main_v40) = shapeCast S1x128 (P0 (argsOf V)).b2 shapeCasts_S128_S1x128 := by
  dsimp only [E1, hostOps1, hostOps1_1, hostOps1_2]; after_results_simp; rfl
theorem e1_src : E1 V (Proc.devRef .tc main_v1) = V (Proc.devRef .tc main_v1) := by
  dsimp only [E1, hostOps1, hostOps1_1, hostOps1_2]; after_results_simp
theorem e1_dst : E1 V (Proc.devRef .tc main_v3) = V (Proc.devRef .tc main_v3) := by
  dsimp only [E1, hostOps1, hostOps1_1, hostOps1_2]; after_results_simp
theorem e1_args : argsOf (E1 V) = argsOf V := by
  refine argsOf_congr ?_ ?_ ?_ ?_ ?_ ?_ ?_ ?_ ?_ ?_ ?_ ?_ ?_ ?_ ?_ ?_ ?_ <;> (dsimp only [E1, hostOps1, hostOps1_1, hostOps1_2]; after_results_simp)

/-! ## Before region 2 -/

/-- The buffer contents after the three stretches of host operations between regions 1 and 2. -/
abbrev E2 : Valuation τ sig (Elt Ideal) := after (hostOps2_2 (F := Ideal)) (after hostOps2_1 (after hostOps2 V))

theorem e2_x : E2 V (Proc.devRef .tc main_v45) = V (Proc.devRef .tc main_v45) := by
  dsimp only [E2, hostOps2, hostOps2_1, hostOps2_2]; after_results_simp
theorem e2_mean : E2 V (Proc.devRef .tc main_v54) = shapeCast S1x128 (mean128 (V (Proc.devRef .tc main_v45))) shapeCasts_S128_S1x128 := by
  dsimp only [E2, hostOps2, hostOps2_1, hostOps2_2]; after_results_simp; rfl
theorem e2_var : E2 V (Proc.devRef .tc main_v55) = shapeCast S1x128 (var128 (V (Proc.devRef .tc main_v45))) shapeCasts_S128_S1x128 := by
  dsimp only [E2, hostOps2, hostOps2_1, hostOps2_2]; after_results_simp; rfl
theorem e2_g : E2 V (Proc.devRef .tc main_v56) = shapeCast S1x128 (P0 (argsOf V)).g2 shapeCasts_S128_S1x128 := by
  dsimp only [E2, hostOps2, hostOps2_1, hostOps2_2]; after_results_simp; rfl
theorem e2_beta : E2 V (Proc.devRef .tc main_v57) = shapeCast S1x128 (P0 (argsOf V)).be2 shapeCasts_S128_S1x128 := by
  dsimp only [E2, hostOps2, hostOps2_1, hostOps2_2]; after_results_simp; rfl
theorem e2_src : E2 V (Proc.devRef .tc main_v1) = V (Proc.devRef .tc main_v1) := by
  dsimp only [E2, hostOps2, hostOps2_1, hostOps2_2]; after_results_simp
theorem e2_dst : E2 V (Proc.devRef .tc main_v3) = V (Proc.devRef .tc main_v3) := by
  dsimp only [E2, hostOps2, hostOps2_1, hostOps2_2]; after_results_simp
theorem e2_args : argsOf (E2 V) = argsOf V := by
  refine argsOf_congr ?_ ?_ ?_ ?_ ?_ ?_ ?_ ?_ ?_ ?_ ?_ ?_ ?_ ?_ ?_ ?_ ?_ <;> (dsimp only [E2, hostOps2, hostOps2_1, hostOps2_2]; after_results_simp)

end Cert.KernelIdeal.Host

end
-- ==== Proof.RegLin0.lean ====
/-
  A linear map of the network, computed block by block, is the linear map on whole arrays.

  The launch cuts the 50000 × 128 array `x` into 25 blocks of 2000 rows. At grid point `t` the body reads rows
  `2000·t … 2000·t + 1999` of `x`, the whole 128 × 256 weight matrix and the whole 1 × 256 bias row, and leaves in
  the output's block the matrix product of the row block with the weights plus the bias row repeated over the 2000
  rows. Over the extended reals a change of float format is the identity and a matrix product is an exact sum, so entry
  `(p, q)` of that block is `Σ_k x[2000·t + p, k] · w[k, q] + b[q]`: entry `(2000·t + p, q)` of `x · w + b`. The 25
  blocks tile the 50000 × 256 result, row `r` lying in the block of point `r / 2000`, so after the last write-back
  the result array is `x · w + b` — whatever the three input arrays held when the launch began, as long as the
  weight buffer holds `w` (narrowed to bf16: the identity here) and the bias buffer holds `b` laid out as one row.
-/
import proofs.«107430_j24575802868448_1_alg».proof.Proof.FPKernelIdealR0
import proofs.«107430_j24575802868448_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegVal.Lin0

open Idealize.ShloMosaic Idealize.ShloMosaic.TcCoe Idealize.SL.Sem
open Idealize.ShloMosaic.Pipeline (Dat)
open Cert.KernelIdeal Cert.KernelIdeal.Gen
open Idealize.ShloMosaic.ValueIdx

/-! ## The block product: which entries of its operands an entry of the product reads

For the product of a 2000 × 128 block with the 128 × 256 weights, at result entry `i` and contraction position `q` the
left operand is read at (row of `i`, `q`) and the right one at (`q`, column of `i`): one statement per operand axis. -/

theorem blk_lhs_row (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide),
    dif_pos (show (0 : Fin S2000x128.rank) ∈ dot_S2000x128_S128x256_S2000x256_1_0_0_1_n_n.lhsNonContracting by decide)]
  rfl
theorem blk_lhs_col (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
theorem blk_rhs_row (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
theorem blk_rhs_col (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide),
    dif_pos (show (1 : Fin S128x256.rank) ∈ dot_S2000x128_S128x256_S2000x256_1_0_0_1_n_n.rhsNonContracting by decide)]
  rfl

/-- Entry `(p, q)` of the block product accumulated from zero is `Σ_k x[p, k] · w[k, q]`. -/
theorem blk_product_entry (x : FVec Ideal S2000x128 .bf16) (w : FVec Ideal S128x256 .bf16) (p : Fin 2000) (q : Fin 256) :
    matmul dot_S2000x128_S128x256_S2000x256_1_0_0_1_n_n none x w (constant S2000x256 .f32 0x00000000#32) (ix2 p q)
      = ∑ k : Fin 128, x (ix2 p k) * w (ix2 k q) := by
  simp only [matmul]
  rw [Ideal.matmul_constant_zero_apply, ← Equiv.sum_comp (contrEquiv1 dot_S2000x128_S128x256_S2000x256_1_0_0_1_n_n 128 rfl rfl).symm]
  refine Finset.sum_congr rfl fun k _ => ?_
  have hk := contrEquiv1_symm_val dot_S2000x128_S128x256_S2000x256_1_0_0_1_n_n 128 rfl rfl k
  have el : dot_S2000x128_S128x256_S2000x256_1_0_0_1_n_n.lhsIdx (ix2 p q) ((contrEquiv1 dot_S2000x128_S128x256_S2000x256_1_0_0_1_n_n 128 rfl rfl).symm k) = ix2 p k := funext fun a => Fin.ext (by
    match a with
    | ⟨0, _⟩ => exact blk_lhs_row _ _
    | ⟨1, _⟩ => exact (blk_lhs_col _ _).trans hk)
  have er : dot_S2000x128_S128x256_S2000x256_1_0_0_1_n_n.rhsIdx (ix2 p q) ((contrEquiv1 dot_S2000x128_S128x256_S2000x256_1_0_0_1_n_n 128 rfl rfl).symm k) = ix2 k q := funext fun a => Fin.ext (by
    match a with
    | ⟨0, _⟩ => exact (blk_rhs_row _ _).trans hk
    | ⟨1, _⟩ => exact blk_rhs_col _ _)
  rw [el, er]

/-- What the body stores, entry by entry: `Σ_k x₀[p, k] · x₁[k, q] + x₂[0, q]` of the three blocks it loaded
    (the narrowing of `x₀` to bf16 is the identity on extended reals). -/
theorem stored_entry (x0 : Vec Ideal S2000x128 .f32) (x1 : Vec Ideal S128x256 .bf16) (x2 : Vec Ideal S1x256 .f32)
    (p : Fin 2000) (q : Fin 256) :
    (k0_pay1 (F := Ideal) x0 x1 x2) (ix2 p q) = (∑ k : Fin 128, x0 (ix2 p k) * x1 (ix2 k q)) + x2 (ix2 (0 : Fin 1) q) := by
  unfold k0_pay1
  simp only [shapeCast_self]
  rw [addf_apply, blk_product_entry, broadcastTo_1b_ab_apply]
  rfl

/-! ## The whole-array product, the same way -/

theorem arr_lhs_row (i : Cert.ReferenceIdeal.S50000x256.Idx) (q : Cert.ReferenceIdeal.dot_S50000x128_S128x256_S50000x256_1_0_0_1_n_n.contr.Idx) :
    (Cert.ReferenceIdeal.dot_S50000x128_S128x256_S50000x256_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x256_S50000x256_1_0_0_1_n_n.lhsBatch by decide),
    dif_pos (show (0 : Fin Cert.ReferenceIdeal.S50000x128.rank) ∈ Cert.ReferenceIdeal.dot_S50000x128_S128x256_S50000x256_1_0_0_1_n_n.lhsNonContracting by decide)]
  rfl
theorem arr_lhs_col (i : Cert.ReferenceIdeal.S50000x256.Idx) (q : Cert.ReferenceIdeal.dot_S50000x128_S128x256_S50000x256_1_0_0_1_n_n.contr.Idx) :
    (Cert.ReferenceIdeal.dot_S50000x128_S128x256_S50000x256_1_0_0_1_n_n.lhsIdx i q 1).val = (q ⟨0, by decide⟩).val :=
  Cert.ReferenceIdeal.dot_S50000x128_S128x256_S50000x256_1_0_0_1_n_n.lhsIdx_val_of_single rfl i q
theorem arr_rhs_row (i : Cert.ReferenceIdeal.S50000x256.Idx) (q : Cert.ReferenceIdeal.dot_S50000x128_S128x256_S50000x256_1_0_0_1_n_n.contr.Idx) :
    (Cert.ReferenceIdeal.dot_S50000x128_S128x256_S50000x256_1_0_0_1_n_n.rhsIdx i q 0).val = (q ⟨0, by decide⟩).val :=
  Cert.ReferenceIdeal.dot_S50000x128_S128x256_S50000x256_1_0_0_1_n_n.rhsIdx_val_of_single rfl i q
theorem arr_rhs_col (i : Cert.ReferenceIdeal.S50000x256.Idx) (q : Cert.ReferenceIdeal.dot_S50000x128_S128x256_S50000x256_1_0_0_1_n_n.contr.Idx) :
    (Cert.ReferenceIdeal.dot_S50000x128_S128x256_S50000x256_1_0_0_1_n_n.rhsIdx i q 1).val = (i 1).val := by
  unfold DotDims.rhsIdx
  rw [dif_neg (show ¬(1 : Fin Cert.ReferenceIdeal.S128x256.rank) ∈ Cert.ReferenceIdeal.dot_S50000x128_S128x256_S50000x256_1_0_0_1_n_n.rhsBatch by decide),
    dif_pos (show (1 : Fin Cert.ReferenceIdeal.S128x256.rank) ∈ Cert.ReferenceIdeal.dot_S50000x128_S128x256_S50000x256_1_0_0_1_n_n.rhsNonContracting by decide)]
  rfl

/-- Entry `(r, q)` of the whole-array product is `Σ_k x[r, k] · w[k, q]`. -/
theorem arr_product_entry (x : FVec Ideal Cert.ReferenceIdeal.S50000x128 .f32) (w : FVec Ideal Cert.ReferenceIdeal.S128x256 .f32)
    (r : Fin 50000) (q : Fin 256) :
    Host.dotGeneral Cert.ReferenceIdeal.dot_S50000x128_S128x256_S50000x256_1_0_0_1_n_n none x w (ix2 r q) = ∑ k : Fin 128, x (ix2 r k) * w (ix2 k q) := by
  simp only [Host.dotGeneral]
  rw [Ideal.dotGeneral_apply, ← Equiv.sum_comp (contrEquiv1 Cert.ReferenceIdeal.dot_S50000x128_S128x256_S50000x256_1_0_0_1_n_n 128 rfl rfl).symm]
  refine Finset.sum_congr rfl fun k _ => ?_
  have hk := contrEquiv1_symm_val Cert.ReferenceIdeal.dot_S50000x128_S128x256_S50000x256_1_0_0_1_n_n 128 rfl rfl k
  have el : Cert.ReferenceIdeal.dot_S50000x128_S128x256_S50000x256_1_0_0_1_n_n.lhsIdx (ix2 r q) ((contrEquiv1 Cert.ReferenceIdeal.dot_S50000x128_S128x256_S50000x256_1_0_0_1_n_n 128 rfl rfl).symm k) = ix2 r k := funext fun a => Fin.ext (by
    match a with
    | ⟨0, _⟩ => exact arr_lhs_row _ _
    | ⟨1, _⟩ => exact (arr_lhs_col _ _).trans hk)
  have er : Cert.ReferenceIdeal.dot_S50000x128_S128x256_S50000x256_1_0_0_1_n_n.rhsIdx (ix2 r q) ((contrEquiv1 Cert.ReferenceIdeal.dot_S50000x128_S128x256_S50000x256_1_0_0_1_n_n 128 rfl rfl).symm k) = ix2 k q := funext fun a => Fin.ext (by
    match a with
    | ⟨0, _⟩ => exact (arr_rhs_row _ _).trans hk
    | ⟨1, _⟩ => exact arr_rhs_col _ _)
  rw [el, er]

/-- A vector laid out as one row reads, at `(0, q)`, its entry `q`. -/
theorem vec_as_row {α : Type} {m : Nat} (v : (⟨1, ![m]⟩ : Shape).Idx → α)
    (h : (⟨1, ![m]⟩ : Shape).BroadcastsInDim ⟨2, ![1, m]⟩ ![1]) (u : Fin 1) (q : Fin m) :
    broadcastInDim ⟨2, ![1, m]⟩ ![1] h v (ix2 u q) = v (ix1 q) := by
  refine broadcastInDim_apply _ h v (ix2 u q) (ix1 q) fun a => ?_
  match a with
  | ⟨0, _⟩ =>
    show q.val = if m = 1 then 0 else q.val
    split
    · have := q.isLt; omega
    · rfl

/-- One row repeated over `n` rows reads, at `(r, q)`, the row's entry `q`. -/
theorem row_over_rows {α : Type} {n m : Nat} (v : (⟨2, ![1, m]⟩ : Shape).Idx → α)
    (h : (⟨2, ![1, m]⟩ : Shape).BroadcastsInDim ⟨2, ![n, m]⟩ ![0, 1]) (r : Fin n) (q : Fin m) :
    broadcastInDim ⟨2, ![n, m]⟩ ![0, 1] h v (ix2 r q) = v (ix2 (0 : Fin 1) q) := by
  refine broadcastInDim_apply _ h v (ix2 r q) (ix2 (0 : Fin 1) q) fun a => ?_
  match a with
  | ⟨0, _⟩ => rfl
  | ⟨1, _⟩ =>
    show q.val = if m = 1 then 0 else q.val
    split
    · have := q.isLt; omega
    · rfl

/-- Entry `(r, q)` of `x · w + b` is `Σ_k x[r, k] · w[k, q] + b[q]`. -/
theorem linear_entry (x : Cert.Spec.RA Cert.ReferenceIdeal.S50000x128) (w : Cert.Spec.RA Cert.ReferenceIdeal.S128x256)
    (b : Cert.Spec.RA Cert.ReferenceIdeal.S256) (r : Fin 50000) (q : Fin 256) :
    Cert.Spec.lin128x256 x w b (ix2 r q) = (∑ k : Fin 128, x (ix2 r k) * w (ix2 k q)) + b (ix1 q) := by
  unfold Cert.Spec.lin128x256
  rw [addf_apply, arr_product_entry, row_over_rows, vec_as_row]

/-! ## The grid: which block of each array a point reads or writes -/

/-- At point `t` the row-tiled arrays (`x` and the result) are at block `(t, 0)`, the weights and the bias at
    their one block `(0, 0)`. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (c : Dev nD)

/-- The block of `x` at point `t`, at `y`, is `x` at row `2000·t + y₀`, column `y₁`. -/
theorem x_block (A : Buf (Elt Ideal) ((c : Thread nD τ).loc main_v19)) (t : Fin cfg0.N) (y : S2000x128.Idx) (k : S50000x128.Idx)
    (hk0 : (k 0).val = 2000 * t.val + (y 0).val) (hk1 : (k 1).val = (y 1).val) :
    (((cfg0.win 0).blk t).view.read (Elt Ideal) A : Vec Ideal S2000x128 .f32) y = (A : S50000x128.Idx → Elt Ideal .f32) k := by
  obtain ⟨e0, e1, -⟩ := block_indices t
  rw [View.read_apply]
  refine congrArg (A : S50000x128.Idx → Elt Ideal .f32) (funext fun a => Fin.ext ?_)
  match a with
  | ⟨0, _⟩ => show win0_0.index t (0 : Fin 2) * 2000 + 1 * (y 0).val = (k 0).val; rw [e0, hk0]; omega
  | ⟨1, _⟩ => show win0_0.index t (1 : Fin 2) * 128 + 1 * (y 1).val = (k 1).val; rw [e1, hk1]; omega

/-- The weights' block at every point is the whole weight array. -/
theorem w_block (A : Buf (Elt Ideal) ((c : Thread nD τ).loc main_v24)) (t : Fin cfg0.N) :
    (((cfg0.win 1).blk t).view.read (Elt Ideal) A : Vec Ideal S128x256 .bf16) = (A : S128x256.Idx → Elt Ideal .bf16) := by
  obtain ⟨-, -, e2, e3, -⟩ := block_indices t
  funext y
  rw [View.read_apply]
  refine congrArg (A : S128x256.Idx → Elt Ideal .bf16) (funext fun a => Fin.ext ?_)
  match a with
  | ⟨0, _⟩ => show win0_1.index t (0 : Fin 2) * 128 + 1 * (y 0).val = (y 0).val; rw [e2]; omega
  | ⟨1, _⟩ => show win0_1.index t (1 : Fin 2) * 256 + 1 * (y 1).val = (y 1).val; rw [e3]; omega

/-- The bias row's block at every point is the whole row. -/
theorem b_block (A : Buf (Elt Ideal) ((c : Thread nD τ).loc main_v25)) (t : Fin cfg0.N) :
    (((cfg0.win 2).blk t).view.read (Elt Ideal) A : Vec Ideal S1x256 .f32) = (A : S1x256.Idx → Elt Ideal .f32) := by
  obtain ⟨-, -, -, -, e4, e5, -⟩ := block_indices t
  funext y
  rw [View.read_apply]
  refine congrArg (A : S1x256.Idx → Elt Ideal .f32) (funext fun a => Fin.ext ?_)
  match a with
  | ⟨0, _⟩ => show win0_2.index t (0 : Fin 2) * 1 + 1 * (y 0).val = (y 0).val; rw [e4]; omega
  | ⟨1, _⟩ => show win0_2.index t (1 : Fin 2) * 256 + 1 * (y 1).val = (y 1).val; rw [e5]; omega

/-- What the body stores from rows `2000·n …` of `X`, the weights `W` and the bias `B` as a row is, entry by
    entry, `X · W + B` at the rows `2000·n …`. -/
theorem block_is_linear (X : Cert.Spec.RA Cert.ReferenceIdeal.S50000x128) (W : Cert.Spec.RA Cert.ReferenceIdeal.S128x256)
    (B : Cert.Spec.RA Cert.ReferenceIdeal.S256)
    (x0 : Vec Ideal S2000x128 .f32) (x1 : Vec Ideal S128x256 .bf16) (x2 : Vec Ideal S1x256 .f32) (n : Nat)
    (h0 : ∀ (y : S2000x128.Idx) (k : S50000x128.Idx), (k 0).val = 2000 * n + (y 0).val → (k 1).val = (y 1).val → x0 y = X k)
    (h1 : x1 = truncf .bf16 W bitsLt_bf16_f32) (h2 : x2 = shapeCast S1x256 B shapeCasts_S256_S1x256)
    (y : S2000x256.Idx) (i : S50000x256.Idx) (hi0 : (i 0).val = 2000 * n + (y 0).val) (hi1 : (i 1).val = (y 1).val) :
    k0_pay1 (F := Ideal) x0 x1 x2 y = Cert.Spec.lin128x256 X W B i := by
  obtain ⟨p, q, rfl⟩ : ∃ (p : Fin 2000) (q : Fin 256), y = ix2 p q := ⟨y 0, y 1, eq_ix2 y⟩
  obtain ⟨r, q', rfl⟩ : ∃ (r : Fin 50000) (q' : Fin 256), i = ix2 r q' := ⟨i 0, i 1, eq_ix2 i⟩
  obtain rfl : q' = q := Fin.ext hi1
  rw [stored_entry, linear_entry]
  have hs : ∀ k : Fin 128, x0 (ix2 p k) * x1 (ix2 k q') = X (ix2 r k) * W (ix2 k q') := fun k => by
    rw [h0 (ix2 p k) (ix2 r k) hi0 rfl, h1, truncf_apply]
  have hb : x2 (ix2 (0 : Fin 1) q') = B (ix1 q') := by
    rw [h2, shapeCast_a_1a_apply]
  rw [Finset.sum_congr rfl fun k _ => hs k, hb]

/-- Every entry of the result lies in a block that is written back: row `r` in the block of point `r / 2000`. -/
theorem rows_covered (i : ((cfg0.win 3).arr.view.loc (c.tc : Thread nD τ)).2.ty.Idx) :
    ∃ t : Fin cfg0.N, (cfg0.win 3).flush t = true ∧ i ∈ ((cfg0.win 3).blk t).view.set := by
  have h0 : (i 0 : Nat) < 50000 := (i 0).isLt
  have h1 : (i 1 : Nat) < 256 := (i 1).isLt
  have hN : cfg0.N = 25 := N_0
  let t : Fin cfg0.N := ⟨(i 0 : Nat) / 2000, by rw [hN]; omega⟩
  obtain ⟨-, -, -, -, -, -, e6, e7⟩ := block_indices t
  refine ⟨t, flush0_3 t, ?_⟩
  show i ∈ ((View.whole main_v26).slice (win0_3.rect t)).set
  rw [View.set_slice_whole, Rect.mem_set_unit]
  intro a
  match a with
  | ⟨0, _⟩ =>
    show win0_3.index t (0 : Fin 2) * 2000 ≤ (i 0 : Nat) ∧ (i 0 : Nat) < win0_3.index t (0 : Fin 2) * 2000 + 2000
    rw [e6]; show (i 0 : Nat) / 2000 * 2000 ≤ (i 0 : Nat) ∧ (i 0 : Nat) < (i 0 : Nat) / 2000 * 2000 + 2000; omega
  | ⟨1, _⟩ =>
    show win0_3.index t (1 : Fin 2) * 256 ≤ (i 1 : Nat) ∧ (i 1 : Nat) < win0_3.index t (1 : Fin 2) * 256 + 256
    rw [e7]; omega

theorem zero_offsets : (![0, 0] : Fin 2 → Nat) = fun _ => 0 := funext fun a => by fin_cases a <;> rfl

/-- What point `t` writes back is block `t` of `x · w + b`, `x` the first array's contents at entry. -/
theorem written_back (V : (c : Dev nD) → (b : Ref sig .tc) → Buf (Elt Ideal) ((c : Thread nD τ).loc b))
    (w : Cert.Spec.RA Cert.ReferenceIdeal.S128x256) (b : Cert.Spec.RA Cert.ReferenceIdeal.S256)
    (hw : V c main_v24 = truncf .bf16 w bitsLt_bf16_f32)
    (hb : V c main_v25 = shapeCast S1x256 b shapeCasts_S256_S1x256) (t : Fin cfg0.N) :
    (dat0 (F := Ideal) V c).flushed 3 t
      = ((cfg0.win 3).blk t).view.read (Elt Ideal) (Cert.Spec.lin128x256 (V c main_v19) w b) := by
  show (cfg0.win 3).cut (grid0.coords t) ((dat0 V c).after 3 t) = _
  rw [after0_3]
  unfold out0_3
  rw [View.canon_unit_zero zero_offsets]
  simp only [View.ld_unit_zero (S := S2000x128) zero_offsets, View.ld_unit_zero (S := S128x256) zero_offsets,
    View.ld_unit_zero (S := S1x256) zero_offsets]
  obtain ⟨-, -, -, -, -, -, e6, e7⟩ := block_indices t
  funext j
  rw [View.read_apply]
  refine block_is_linear (V c main_v19) w b (iblk0 V c 0 t) (iblk0 V c 1 t) (iblk0 V c 2 t) t.val
    (fun y k hk0 hk1 => x_block c (V c main_v19) t y k hk0 hk1)
    ((w_block c (V c main_v24) t).trans hw) ((b_block c (V c main_v25) t).trans hb)
    ((cfg0.win 3).xinj (grid0.coords t) j) (((cfg0.win 3).blk t).view.emb j) ?_ ?_
  · show win0_3.index t (0 : Fin 2) * 2000 + 1 * (j 0).val = 2000 * t.val + (j 0).val
    rw [e6]; omega
  · show win0_3.index t (1 : Fin 2) * 256 + 1 * (j 1).val = (j 1).val
    rw [e7]; omega

end Cert.KernelIdeal.RegVal.Lin0

namespace Cert.KernelIdeal.RegVal

open Idealize.ShloMosaic Idealize.ShloMosaic.TcCoe Idealize.SL.Sem
open Idealize.ShloMosaic.Pipeline (Dat)
open Cert.KernelIdeal Cert.KernelIdeal.Gen

/-- THE RESULT ARRAY after the launch is `x · w + b` of the first array's entry contents, for any entry contents
    whose weight buffer is `w` and whose bias buffer is `b` as a row. -/
theorem lin0 (V : (c : Dev nD) → (b : Ref sig .tc) → Buf (Elt Ideal) ((c : Thread nD τ).loc b)) (c : Dev nD)
    (w : Cert.Spec.RA Cert.ReferenceIdeal.S128x256) (b : Cert.Spec.RA Cert.ReferenceIdeal.S256)
    (hw : V c main_v24 = truncf .bf16 w bitsLt_bf16_f32)
    (hb : V c main_v25 = shapeCast S1x256 b shapeCasts_S256_S1x256) :
    (dat0 (F := Ideal) V c).arrAt 3 cfg0.N = Cert.Spec.lin128x256 (V c main_v19) w b :=
  (dat0 V c).arrAt_eq_of_cover 3 (Cert.Spec.lin128x256 (V c main_v19) w b)
    (fun t _ => Lin0.written_back c V w b hw hb t) (Lin0.rows_covered c)

end Cert.KernelIdeal.RegVal

end
-- ==== Proof.RegBnLin1.lean ====
/-
  The value of one normalise-rectify-then-linear stage, read off the block pipeline.

  The stage takes a 50000 × 256 array x, four vectors over its 256 columns (a mean, a variance, a scale g and a shift β),
  a 256 × 128 weight and a bias over the 128 output columns, and produces the 50000 × 128 array

      y[r, q] = Σ_k max (g[k] · (x[r, k] − mean[k]) · rsqrt (var[k] + 1e-5) + β[k]) 0 · w[k, q]  +  bias[q].

  The pipeline computes it in 25 steps: step t reads rows 2000·t … 2000·t + 1999 of x and the whole of every small
  operand, forms exactly this expression for those rows and writes rows 2000·t … 2000·t + 1999 of the result. Row r of
  the result depends on row r of x only, so each written block is the corresponding block of the whole-array function,
  and the 25 blocks tile the 50000 rows: the result array ends holding the whole-array function. Over the extended
  reals the change of float format before the product is the identity, the product into a zero accumulator is the
  plain sum over the contracted index, and the two reciprocal square roots are one function, so the two sides agree
  term by term.
-/
import proofs.«107430_j24575802868448_1_alg».proof.Proof.FPKernelIdealR1
import proofs.«107430_j24575802868448_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegVal

open Idealize.ShloMosaic Idealize.ShloMosaic.TcCoe Idealize.SL.Sem Idealize.ShloMosaic.ValueIdx Cert.KernelIdeal Cert.KernelIdeal.Gen
open Idealize.ShloMosaic.Pipeline (Dat)

namespace BnLin1

/-- One entry normalised with its column's statistics, scaled, shifted and rectified:
    `max (g · (x − m) · rsqrt (v + 1e-5) + b) 0`. -/
def act (x m v g b : EReal) : EReal :=
  max (g * (x - m) * Ideal.rsqrt (v + Ideal.ofBits .f32 0x3727C5AC#32) + b) (Ideal.ofBits .f32 0x00000000#32)

/-! ## The block product: a row of the left block against a column of the right one -/

/-- The left operand's row coordinate is the output's. -/
theorem klhs_0 (j : S2000x128.Idx) (k : dot_S2000x256_S256x128_S2000x128_1_0_0_1_n_n.contr.Idx) :
    (dot_S2000x256_S256x128_S2000x128_1_0_0_1_n_n.lhsIdx j k 0).val = (j 0).val := by
  simp [DotDims.lhsIdx, dot_S2000x256_S256x128_S2000x128_1_0_0_1_n_n]; rfl

/-- The left operand's column coordinate is the contracted one. -/
theorem klhs_1 (j : S2000x128.Idx) (k : dot_S2000x256_S256x128_S2000x128_1_0_0_1_n_n.contr.Idx) :
    (dot_S2000x256_S256x128_S2000x128_1_0_0_1_n_n.lhsIdx j k 1).val = (k ⟨0, by decide⟩).val :=
  dot_S2000x256_S256x128_S2000x128_1_0_0_1_n_n.lhsIdx_val_of_single rfl j k

/-- The right operand's row coordinate is the contracted one. -/
theorem krhs_0 (j : S2000x128.Idx) (k : dot_S2000x256_S256x128_S2000x128_1_0_0_1_n_n.contr.Idx) :
    (dot_S2000x256_S256x128_S2000x128_1_0_0_1_n_n.rhsIdx j k 0).val = (k ⟨0, by decide⟩).val :=
  dot_S2000x256_S256x128_S2000x128_1_0_0_1_n_n.rhsIdx_val_of_single rfl j k

/-- The right operand's column coordinate is the output's. -/
theorem krhs_1 (j : S2000x128.Idx) (k : dot_S2000x256_S256x128_S2000x128_1_0_0_1_n_n.contr.Idx) :
    (dot_S2000x256_S256x128_S2000x128_1_0_0_1_n_n.rhsIdx j k 1).val = (j 1).val := by
  simp [DotDims.rhsIdx, dot_S2000x256_S256x128_S2000x128_1_0_0_1_n_n]; rfl

/-- The block product into a zero accumulator, entry by entry: the sum over the 256 contracted columns. -/
theorem kmatmul_apply (A : FVec Ideal S2000x256 .bf16) (B : FVec Ideal S256x128 .bf16) (p : Fin 2000) (q : Fin 128) :
    matmul dot_S2000x256_S256x128_S2000x128_1_0_0_1_n_n none A B (constant S2000x128 .f32 0x00000000#32) (ix2 p q)
      = ∑ k : Fin 256, A (ix2 p k) * B (ix2 k q) := by
  show FloatOps.matmul _ none A B _ (ix2 p q) = _
  rw [Ideal.matmul_constant_zero_apply,
    ← Equiv.sum_comp (contrEquiv1 dot_S2000x256_S256x128_S2000x128_1_0_0_1_n_n 256 rfl rfl).symm]
  refine Finset.sum_congr rfl fun k _ => ?_
  have ck := contrEquiv1_symm_val dot_S2000x256_S256x128_S2000x128_1_0_0_1_n_n 256 rfl rfl k
  have hl : dot_S2000x256_S256x128_S2000x128_1_0_0_1_n_n.lhsIdx (ix2 p q) ((contrEquiv1 _ 256 rfl rfl).symm k) = ix2 p k := by
    funext a; apply Fin.ext
    match a with
    | ⟨0, _⟩ => exact klhs_0 _ _
    | ⟨1, _⟩ => exact (klhs_1 _ _).trans ck
  have hr : dot_S2000x256_S256x128_S2000x128_1_0_0_1_n_n.rhsIdx (ix2 p q) ((contrEquiv1 _ 256 rfl rfl).symm k) = ix2 k q := by
    funext a; apply Fin.ext
    match a with
    | ⟨0, _⟩ => exact (krhs_0 _ _).trans ck
    | ⟨1, _⟩ => exact krhs_1 _ _
  rw [hl, hr]

/-- The body's stored value at row `p`, column `q` of the block: the rectified normalised row against column `q` of
    the weight, plus the bias. -/
theorem pay_apply (x0 : Vec Ideal S2000x256 .f32) (x1 x2 x3 x4 : Vec Ideal S1x256 .f32) (x5 : Vec Ideal S256x128 .bf16)
    (x6 : Vec Ideal S1x128 .f32) (p : Fin 2000) (q : Fin 128) :
    k1_pay1 (F := Ideal) x0 x1 x2 x3 x4 x5 x6 (ix2 p q)
      = (∑ k : Fin 256, act (x0 (ix2 p k)) (x1 (ix2 (0 : Fin 1) k)) (x2 (ix2 (0 : Fin 1) k)) (x3 (ix2 (0 : Fin 1) k))
            (x4 (ix2 (0 : Fin 1) k)) * x5 (ix2 k q)) + x6 (ix2 (0 : Fin 1) q) := by
  unfold k1_pay1
  simp only [shapeCast_self]
  rw [addf_apply, kmatmul_apply, broadcastTo_1b_ab_apply]
  congr 1
  refine Finset.sum_congr rfl fun k _ => ?_
  congr 1
  simp only [truncf_apply, maximumf_apply, addf_apply, mulf_apply, subf_apply, broadcastTo_1b_ab_apply, broadcast_apply]
  rfl

/-! ## The whole-array stage at an entry -/

theorem rlhs_0 (j : Cert.ReferenceIdeal.S50000x128.Idx) (k : Cert.ReferenceIdeal.dot_S50000x256_S256x128_S50000x128_1_0_0_1_n_n.contr.Idx) :
    (Cert.ReferenceIdeal.dot_S50000x256_S256x128_S50000x128_1_0_0_1_n_n.lhsIdx j k 0).val = (j 0).val := by
  simp [DotDims.lhsIdx, Cert.ReferenceIdeal.dot_S50000x256_S256x128_S50000x128_1_0_0_1_n_n]; rfl

theorem rlhs_1 (j : Cert.ReferenceIdeal.S50000x128.Idx) (k : Cert.ReferenceIdeal.dot_S50000x256_S256x128_S50000x128_1_0_0_1_n_n.contr.Idx) :
    (Cert.ReferenceIdeal.dot_S50000x256_S256x128_S50000x128_1_0_0_1_n_n.lhsIdx j k 1).val = (k ⟨0, by decide⟩).val :=
  Cert.ReferenceIdeal.dot_S50000x256_S256x128_S50000x128_1_0_0_1_n_n.lhsIdx_val_of_single rfl j k

theorem rrhs_0 (j : Cert.ReferenceIdeal.S50000x128.Idx) (k : Cert.ReferenceIdeal.dot_S50000x256_S256x128_S50000x128_1_0_0_1_n_n.contr.Idx) :
    (Cert.ReferenceIdeal.dot_S50000x256_S256x128_S50000x128_1_0_0_1_n_n.rhsIdx j k 0).val = (k ⟨0, by decide⟩).val :=
  Cert.ReferenceIdeal.dot_S50000x256_S256x128_S50000x128_1_0_0_1_n_n.rhsIdx_val_of_single rfl j k

theorem rrhs_1 (j : Cert.ReferenceIdeal.S50000x128.Idx) (k : Cert.ReferenceIdeal.dot_S50000x256_S256x128_S50000x128_1_0_0_1_n_n.contr.Idx) :
    (Cert.ReferenceIdeal.dot_S50000x256_S256x128_S50000x128_1_0_0_1_n_n.rhsIdx j k 1).val = (j 1).val := by
  simp [DotDims.rhsIdx, Cert.ReferenceIdeal.dot_S50000x256_S256x128_S50000x128_1_0_0_1_n_n]; rfl

/-- The whole-array product, entry by entry: the sum over the 256 contracted columns. -/
theorem rdot_apply (A : FVec Ideal Cert.ReferenceIdeal.S50000x256 .f32) (B : FVec Ideal Cert.ReferenceIdeal.S256x128 .f32) (r : Fin 50000) (q : Fin 128) :
    Host.dotGeneral Cert.ReferenceIdeal.dot_S50000x256_S256x128_S50000x128_1_0_0_1_n_n none A B (ix2 r q)
      = ∑ k : Fin 256, A (ix2 r k) * B (ix2 k q) := by
  show FloatOps.dotGeneral _ none _ A B (ix2 r q) = _
  rw [Ideal.dotGeneral_apply,
    ← Equiv.sum_comp (contrEquiv1 Cert.ReferenceIdeal.dot_S50000x256_S256x128_S50000x128_1_0_0_1_n_n 256 rfl rfl).symm]
  refine Finset.sum_congr rfl fun k _ => ?_
  have ck := contrEquiv1_symm_val Cert.ReferenceIdeal.dot_S50000x256_S256x128_S50000x128_1_0_0_1_n_n 256 rfl rfl k
  have hl : Cert.ReferenceIdeal.dot_S50000x256_S256x128_S50000x128_1_0_0_1_n_n.lhsIdx (ix2 r q) ((contrEquiv1 _ 256 rfl rfl).symm k) = ix2 r k := by
    funext a; apply Fin.ext
    match a with
    | ⟨0, _⟩ => exact rlhs_0 _ _
    | ⟨1, _⟩ => exact (rlhs_1 _ _).trans ck
  have hr : Cert.ReferenceIdeal.dot_S50000x256_S256x128_S50000x128_1_0_0_1_n_n.rhsIdx (ix2 r q) ((contrEquiv1 _ 256 rfl rfl).symm k) = ix2 k q := by
    funext a; apply Fin.ext
    match a with
    | ⟨0, _⟩ => exact (rrhs_0 _ _).trans ck
    | ⟨1, _⟩ => exact rrhs_1 _ _
  rw [hl, hr]

/-- A vector over the 256 columns laid out as one row and copied down the 50000 rows reads, at `(r, k)`, its entry `k`. -/
theorem rowB256_apply (v : FVec Ideal Cert.ReferenceIdeal.S256 .f32)
    (h1 : Cert.ReferenceIdeal.S256.BroadcastsInDim Cert.ReferenceIdeal.S1x256 (![1] : Fin 1 → Fin Cert.ReferenceIdeal.S1x256.rank))
    (h2 : Cert.ReferenceIdeal.S1x256.BroadcastsInDim Cert.ReferenceIdeal.S50000x256 (![0, 1] : Fin 2 → Fin Cert.ReferenceIdeal.S50000x256.rank))
    (r : Fin 50000) (k : Fin 256) :
    broadcastInDim Cert.ReferenceIdeal.S50000x256 ![0, 1] h2 (broadcastInDim Cert.ReferenceIdeal.S1x256 ![1] h1 v) (ix2 r k) = v (ix1 k) := by
  refine (broadcastInDim_apply _ h2 _ (ix2 r k) (ix2 (0 : Fin 1) k) fun a => ?_).trans
    (broadcastInDim_apply _ h1 v (ix2 (0 : Fin 1) k) (ix1 k) fun a => ?_)
  · match a with
    | ⟨0, _⟩ => rfl
    | ⟨1, _⟩ => rfl
  · match a with
    | ⟨0, _⟩ => rfl

/-- The same for a vector over the 128 output columns. -/
theorem rowB128_apply (v : FVec Ideal Cert.ReferenceIdeal.S128 .f32)
    (h1 : Cert.ReferenceIdeal.S128.BroadcastsInDim Cert.ReferenceIdeal.S1x128 (![1] : Fin 1 → Fin Cert.ReferenceIdeal.S1x128.rank))
    (h2 : Cert.ReferenceIdeal.S1x128.BroadcastsInDim Cert.ReferenceIdeal.S50000x128 (![0, 1] : Fin 2 → Fin Cert.ReferenceIdeal.S50000x128.rank))
    (r : Fin 50000) (k : Fin 128) :
    broadcastInDim Cert.ReferenceIdeal.S50000x128 ![0, 1] h2 (broadcastInDim Cert.ReferenceIdeal.S1x128 ![1] h1 v) (ix2 r k) = v (ix1 k) := by
  refine (broadcastInDim_apply _ h2 _ (ix2 r k) (ix2 (0 : Fin 1) k) fun a => ?_).trans
    (broadcastInDim_apply _ h1 v (ix2 (0 : Fin 1) k) (ix1 k) fun a => ?_)
  · match a with
    | ⟨0, _⟩ => rfl
    | ⟨1, _⟩ => rfl
  · match a with
    | ⟨0, _⟩ => rfl

/-- The whole-array stage at row `r`, column `q`. -/
theorem spec_apply (X : Cert.Spec.RA Cert.ReferenceIdeal.S50000x256) (mean var g beta : Cert.Spec.RA Cert.ReferenceIdeal.S256)
    (w : Cert.Spec.RA Cert.ReferenceIdeal.S256x128) (b : Cert.Spec.RA Cert.ReferenceIdeal.S128) (r : Fin 50000) (q : Fin 128) :
    Cert.Spec.lin256x128 (Cert.Spec.bnrelu256 X mean var g beta) w b (ix2 r q)
      = (∑ k : Fin 256, act (X (ix2 r k)) (mean (ix1 k)) (var (ix1 k)) (g (ix1 k)) (beta (ix1 k)) * w (ix2 k q)) + b (ix1 q) := by
  unfold Cert.Spec.lin256x128 Cert.Spec.bnrelu256
  rw [addf_apply, rdot_apply, rowB128_apply]
  congr 1
  refine Finset.sum_congr rfl fun k _ => ?_
  congr 1
  rw [maximumf_apply, addf_apply, mulf_apply, mulf_apply, subf_apply, rowB256_apply, rowB256_apply, rowB256_apply, rowB256_apply]
  rfl

/-! ## A block of the pipeline against the rows of the whole array it stands for -/

/-- If a block `xb` holds the rows of `X` from some row on, and the small blocks hold the statistics, the parameters,
    the weight and the bias, then the body's stored value at `(p, q)` is the whole-array stage at the row `r` that
    block row `p` stands for. -/
theorem block_value (xb : Vec Ideal S2000x256 .f32) (mb vb gb bb : Vec Ideal S1x256 .f32) (wb : Vec Ideal S256x128 .bf16)
    (cb : Vec Ideal S1x128 .f32)
    (X : Cert.Spec.RA Cert.ReferenceIdeal.S50000x256) (mean var g beta : Cert.Spec.RA Cert.ReferenceIdeal.S256)
    (w : Cert.Spec.RA Cert.ReferenceIdeal.S256x128) (b : Cert.Spec.RA Cert.ReferenceIdeal.S128) (p : Fin 2000) (q : Fin 128) (r : Fin 50000)
    (hx : ∀ k : Fin 256, xb (ix2 p k) = X (ix2 r k))
    (hm : ∀ k : Fin 256, mb (ix2 (0 : Fin 1) k) = mean (ix1 k)) (hv : ∀ k : Fin 256, vb (ix2 (0 : Fin 1) k) = var (ix1 k))
    (hg : ∀ k : Fin 256, gb (ix2 (0 : Fin 1) k) = g (ix1 k)) (hb : ∀ k : Fin 256, bb (ix2 (0 : Fin 1) k) = beta (ix1 k))
    (hw : ∀ k : Fin 256, wb (ix2 k q) = w (ix2 k q)) (hc : cb (ix2 (0 : Fin 1) q) = b (ix1 q)) :
    k1_pay1 (F := Ideal) xb mb vb gb bb wb cb (ix2 p q)
      = Cert.Spec.lin256x128 (Cert.Spec.bnrelu256 X mean var g beta) w b (ix2 r q) := by
  rw [pay_apply, spec_apply, hc]
  congr 1
  refine Finset.sum_congr rfl fun k _ => ?_
  rw [hx k, hm k, hv k, hg k, hb k, hw k]

/-! ## The pipeline's blocks as parts of the arrays -/

variable (V : (c : Dev nD) → (b : Ref sig .tc) → Buf (Elt Ideal) ((c : Thread nD τ).loc b))

theorem hz : (![0, 0] : Fin 2 → Nat) = fun _ => 0 := funext fun a => by fin_cases a <;> rfl

/-- The block index maps, decided over the 25 steps: the row-tiled operand and the result sit at block `(t, 0)`,
    every small operand at block `(0, 0)`. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Row `p` of the row-tiled operand's block at step `t` is row `2000·t + p` of the array. -/
theorem xblk_apply (c : Dev nD) (t : Fin cfg1.N) (p : Fin 2000) (k : Fin 256) (i : S50000x256.Idx)
    (h0 : (i 0).val = 2000 * t.val + p.val) (h1 : (i 1).val = k.val) :
    (iblk1 V c 0 t : Vec Ideal S2000x256 .f32) (ix2 p k) = (V c main_v26 : S50000x256.Idx → Elt Ideal .f32) i := by
  obtain ⟨e0, e1, -⟩ := idx_facts t
  unfold iblk1
  rw [View.read_apply]
  show V c main_v26 _ = V c main_v26 i
  congr 1
  funext a
  apply Fin.ext
  match a with
  | ⟨0, _⟩ => show win1_0.index t (0 : Fin 2) * 2000 + 1 * p.val = (i 0).val; rw [e0, h0]; omega
  | ⟨1, _⟩ => show win1_0.index t (1 : Fin 2) * 256 + 1 * k.val = (i 1).val; rw [e1, h1]; omega

/-- A small operand's one block is its whole array, at every step. -/
theorem blk1_eq (c : Dev nD) (t : Fin cfg1.N) :
    (iblk1 V c 1 t : Vec Ideal S1x256 .f32) = V c main_v41 := by
  obtain ⟨-, -, e0, e1, -⟩ := idx_facts t
  unfold iblk1
  funext y
  rw [View.read_apply]
  show V c main_v41 _ = V c main_v41 y
  congr 1
  funext a
  apply Fin.ext
  match a with
  | ⟨0, _⟩ => show win1_1.index t (0 : Fin 2) * 1 + 1 * (y 0).val = (y 0).val; rw [e0]; omega
  | ⟨1, _⟩ => show win1_1.index t (1 : Fin 2) * 256 + 1 * (y 1).val = (y 1).val; rw [e1]; omega

theorem blk2_eq (c : Dev nD) (t : Fin cfg1.N) :
    (iblk1 V c 2 t : Vec Ideal S1x256 .f32) = V c main_v42 := by
  obtain ⟨-, -, -, -, e0, e1, -⟩ := idx_facts t
  unfold iblk1
  funext y
  rw [View.read_apply]
  show V c main_v42 _ = V c main_v42 y
  congr 1
  funext a
  apply Fin.ext
  match a with
  | ⟨0, _⟩ => show win1_2.index t (0 : Fin 2) * 1 + 1 * (y 0).val = (y 0).val; rw [e0]; omega
  | ⟨1, _⟩ => show win1_2.index t (1 : Fin 2) * 256 + 1 * (y 1).val = (y 1).val; rw [e1]; omega

theorem blk3_eq (c : Dev nD) (t : Fin cfg1.N) :
    (iblk1 V c 3 t : Vec Ideal S1x256 .f32) = V c main_v43 := by
  obtain ⟨-, -, -, -, -, -, e0, e1, -⟩ := idx_facts t
  unfold iblk1
  funext y
  rw [View.read_apply]
  show V c main_v43 _ = V c main_v43 y
  congr 1
  funext a
  apply Fin.ext
  match a with
  | ⟨0, _⟩ => show win1_3.index t (0 : Fin 2) * 1 + 1 * (y 0).val = (y 0).val; rw [e0]; omega
  | ⟨1, _⟩ => show win1_3.index t (1 : Fin 2) * 256 + 1 * (y 1).val = (y 1).val; rw [e1]; omega

theorem blk4_eq (c : Dev nD) (t : Fin cfg1.N) :
    (iblk1 V c 4 t : Vec Ideal S1x256 .f32) = V c main_v44 := by
  obtain ⟨-, -, -, -, -, -, -, -, e0, e1, -⟩ := idx_facts t
  unfold iblk1
  funext y
  rw [View.read_apply]
  show V c main_v44 _ = V c main_v44 y
  congr 1
  funext a
  apply Fin.ext
  match a with
  | ⟨0, _⟩ => show win1_4.index t (0 : Fin 2) * 1 + 1 * (y 0).val = (y 0).val; rw [e0]; omega
  | ⟨1, _⟩ => show win1_4.index t (1 : Fin 2) * 256 + 1 * (y 1).val = (y 1).val; rw [e1]; omega

theorem blk5_eq (c : Dev nD) (t : Fin cfg1.N) :
    (iblk1 V c 5 t : Vec Ideal S256x128 .bf16) = V c main_v39 := by
  obtain ⟨-, -, -, -, -, -, -, -, -, -, e0, e1, -⟩ := idx_facts t
  unfold iblk1
  funext y
  rw [View.read_apply]
  show V c main_v39 _ = V c main_v39 y
  congr 1
  funext a
  apply Fin.ext
  match a with
  | ⟨0, _⟩ => show win1_5.index t (0 : Fin 2) * 256 + 1 * (y 0).val = (y 0).val; rw [e0]; omega
  | ⟨1, _⟩ => show win1_5.index t (1 : Fin 2) * 128 + 1 * (y 1).val = (y 1).val; rw [e1]; omega

theorem blk6_eq (c : Dev nD) (t : Fin cfg1.N) :
    (iblk1 V c 6 t : Vec Ideal S1x128 .f32) = V c main_v40 := by
  obtain ⟨-, -, -, -, -, -, -, -, -, -, -, -, e0, e1, -⟩ := idx_facts t
  unfold iblk1
  funext y
  rw [View.read_apply]
  show V c main_v40 _ = V c main_v40 y
  congr 1
  funext a
  apply Fin.ext
  match a with
  | ⟨0, _⟩ => show win1_6.index t (0 : Fin 2) * 1 + 1 * (y 0).val = (y 0).val; rw [e0]; omega
  | ⟨1, _⟩ => show win1_6.index t (1 : Fin 2) * 128 + 1 * (y 1).val = (y 1).val; rw [e1]; omega

/-! ## What each step writes back, and the array after the last step -/

/-- Step `t` writes back rows `2000·t … 2000·t + 1999` of the whole-array stage. -/
theorem flushed_eq (c : Dev nD) (mean var g beta : Cert.Spec.RA Cert.ReferenceIdeal.S256) (w : Cert.Spec.RA Cert.ReferenceIdeal.S256x128) (b : Cert.Spec.RA Cert.ReferenceIdeal.S128)
    (h1 : V c main_v41 = shapeCast S1x256 mean shapeCasts_S256_S1x256) (h2 : V c main_v42 = shapeCast S1x256 var shapeCasts_S256_S1x256)
    (h3 : V c main_v43 = shapeCast S1x256 g shapeCasts_S256_S1x256) (h4 : V c main_v44 = shapeCast S1x256 beta shapeCasts_S256_S1x256)
    (hw : V c main_v39 = truncf .bf16 w bitsLt_bf16_f32) (hb : V c main_v40 = shapeCast S1x128 b shapeCasts_S128_S1x128)
    (t : Fin cfg1.N) :
    (dat1 (F := Ideal) V c).flushed 7 t = ((cfg1.win 7).blk t).view.read (Elt Ideal) (Cert.Spec.lin256x128 (Cert.Spec.bnrelu256 (V c main_v26) mean var g beta) w b) := by
  show (cfg1.win 7).cut (grid1.coords t) ((dat1 V c).after 7 t) = _
  rw [after1_7]
  unfold out1_7
  rw [View.canon_unit_zero hz]
  simp only [View.ld_unit_zero (S := S2000x256) hz, View.ld_unit_zero (S := S1x256) hz, View.ld_unit_zero (S := S256x128) hz,
    View.ld_unit_zero (S := S1x128) hz]
  rw [blk1_eq V c t, blk2_eq V c t, blk3_eq V c t, blk4_eq V c t, blk5_eq V c t, blk6_eq V c t]
  have ht : t.val < 25 := lt_of_lt_of_eq t.isLt N_1
  obtain ⟨-, -, -, -, -, -, -, -, -, -, -, -, -, -, e0, e1⟩ := idx_facts t
  funext y
  obtain ⟨p, q, rfl⟩ : ∃ (p : Fin 2000) (q : Fin 128), y = ix2 p q := ⟨y 0, y 1, eq_ix2 y⟩
  have hr : 2000 * t.val + p.val < 50000 := by have hp := p.isLt; omega
  have hemb : ((cfg1.win 7).blk t).view.emb (ix2 p q) = ix2 (⟨2000 * t.val + p.val, hr⟩ : Fin 50000) q := by
    funext a
    apply Fin.ext
    match a with
    | ⟨0, _⟩ => show win1_7.index t (0 : Fin 2) * 2000 + 1 * p.val = 2000 * t.val + p.val; rw [e0]; omega
    | ⟨1, _⟩ => show win1_7.index t (1 : Fin 2) * 128 + 1 * q.val = q.val; rw [e1]; omega
  rw [View.read_apply, hemb]
  exact block_value (iblk1 V c 0 t) (V c main_v41) (V c main_v42) (V c main_v43) (V c main_v44) (V c main_v39) (V c main_v40)
    (V c main_v26) mean var g beta w b p q ⟨2000 * t.val + p.val, hr⟩
    (fun k => xblk_apply V c t p k _ rfl rfl)
    (fun k => (congrFun h1 _).trans (shapeCast_a_1a_apply mean _ 0 k))
    (fun k => (congrFun h2 _).trans (shapeCast_a_1a_apply var _ 0 k))
    (fun k => (congrFun h3 _).trans (shapeCast_a_1a_apply g _ 0 k))
    (fun k => (congrFun h4 _).trans (shapeCast_a_1a_apply beta _ 0 k))
    (fun k => congrFun hw _)
    ((congrFun hb _).trans (shapeCast_a_1a_apply b _ 0 q))

/-- Row `r` of the result lies in the block of step `r / 2000`, which is written back. -/
theorem cover (i : S50000x128.Idx) :
    ∃ t : Fin cfg1.N, (cfg1.win 7).flush t = true ∧ i ∈ ((cfg1.win 7).blk t).view.set := by
  have hi0 : (i 0).val < 50000 := (i 0).isLt
  have hi1 : (i 1).val < 128 := (i 1).isLt
  have hN : cfg1.N = 25 := N_1
  have ht0 : (i 0).val / 2000 < cfg1.N := by rw [hN]; omega
  refine ⟨⟨(i 0).val / 2000, ht0⟩, flush1_7 _, ?_⟩
  obtain ⟨-, -, -, -, -, -, -, -, -, -, -, -, -, -, e0, e1⟩ := idx_facts ⟨(i 0).val / 2000, ht0⟩
  have e0' : win1_7.index ⟨(i 0).val / 2000, ht0⟩ (0 : Fin 2) = (i 0).val / 2000 := e0
  show i ∈ ((View.whole main_v45).slice (win1_7.rect ⟨(i 0).val / 2000, ht0⟩)).set
  rw [View.set_slice_whole, Rect.mem_set_unit]
  intro a
  match a with
  | ⟨0, _⟩ =>
    show win1_7.index ⟨(i 0).val / 2000, ht0⟩ (0 : Fin 2) * 2000 ≤ (i 0).val
      ∧ (i 0).val < win1_7.index ⟨(i 0).val / 2000, ht0⟩ (0 : Fin 2) * 2000 + 2000
    rw [e0']; omega
  | ⟨1, _⟩ =>
    show win1_7.index ⟨(i 0).val / 2000, ht0⟩ (1 : Fin 2) * 128 ≤ (i 1).val
      ∧ (i 1).val < win1_7.index ⟨(i 0).val / 2000, ht0⟩ (1 : Fin 2) * 128 + 128
    rw [e1]; omega

end BnLin1

/-- After the 25 steps the result array holds the whole-array stage of the row-tiled operand as the stage found it:
    the normalisation with the given statistics, the rectifier, the product with the weight and the bias. -/
theorem bnlin1 (V : (c : Dev nD) → (b : Ref sig .tc) → Buf (Elt Ideal) ((c : Thread nD τ).loc b)) (c : Dev nD)
    (mean var g beta : Cert.Spec.RA Cert.ReferenceIdeal.S256) (w : Cert.Spec.RA Cert.ReferenceIdeal.S256x128) (b : Cert.Spec.RA Cert.ReferenceIdeal.S128)
    (h1 : V c main_v41 = shapeCast S1x256 mean shapeCasts_S256_S1x256) (h2 : V c main_v42 = shapeCast S1x256 var shapeCasts_S256_S1x256)
    (h3 : V c main_v43 = shapeCast S1x256 g shapeCasts_S256_S1x256) (h4 : V c main_v44 = shapeCast S1x256 beta shapeCasts_S256_S1x256)
    (hw : V c main_v39 = truncf .bf16 w bitsLt_bf16_f32) (hb : V c main_v40 = shapeCast S1x128 b shapeCasts_S128_S1x128) :
    (dat1 (F := Ideal) V c).arrAt 7 cfg1.N = Cert.Spec.lin256x128 (Cert.Spec.bnrelu256 (V c main_v26) mean var g beta) w b :=
  (dat1 (F := Ideal) V c).arrAt_eq_of_cover 7 (Cert.Spec.lin256x128 (Cert.Spec.bnrelu256 (V c main_v26) mean var g beta) w b)
    (fun t _ => BnLin1.flushed_eq V c mean var g beta w b h1 h2 h3 h4 hw hb t) BnLin1.cover

end Cert.KernelIdeal.RegVal

end
-- ==== Proof.RegBn2.lean ====
/-
  The value of the network's third block-wise step: a normalise-and-rectify step on a 50000 × 128 array.

  The step walks 25 row blocks of 2000 rows. At block t it reads rows 2000·t … 2000·t + 1999 of the array x and the four
  1 × 128 rows mean, var, g, β whole, and writes, to the same rows of its result,
      max (g · (x − mean) · rsqrt (var + 1e-5) + β) 0,
  each row laid over the 2000 rows of the block. When the four rows are the reshapes [128] → [1, 128] of four column
  vectors, this is, entry by entry, what the whole-array normalise-and-rectify function of those column vectors gives at
  the entry (2000·t + p, q): there each vector is first laid out as a 1 × 128 row and then over all 50000 rows, so both
  sides read column q of the vector; the difference, the products, the sum and the maximum are the extended reals' on
  both sides, and so is the reciprocal square root. The 25 blocks cover every row (row r lies in block r / 2000), so after
  the step the result array is that function of the array x as the step found it, whatever the other buffers held.

  In order: the whole-array function at an entry; the block function at an entry, and the two joined; each window's
  block at a point as entries of its array; the block a point writes back; the cover; the array after the step.
-/
import proofs.«107430_j24575802868448_1_alg».proof.Proof.FPKernelIdealR2
import proofs.«107430_j24575802868448_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.RegVal

open Idealize.ShloMosaic Idealize.ShloMosaic.TcCoe Idealize.SL.Sem Cert.KernelIdeal Cert.KernelIdeal.Gen
open Idealize.ShloMosaic.Pipeline (Dat)
open Idealize.ShloMosaic.ValueIdx

/-! ## The whole-array function at an entry -/

/-- A vector over the 128 columns, laid out as one row and that row over the 50000 rows, reads column `q` of the vector
    at the entry `(r, q)`. -/
theorem bn2_rows (v : Cert.Spec.RA Cert.ReferenceIdeal.S128)
    (hb : Cert.ReferenceIdeal.S128.BroadcastsInDim Cert.ReferenceIdeal.S1x128 (![1] : Fin 1 → Fin Cert.ReferenceIdeal.S1x128.rank))
    (hB : Cert.ReferenceIdeal.S1x128.BroadcastsInDim Cert.ReferenceIdeal.S50000x128 (![0, 1] : Fin 2 → Fin Cert.ReferenceIdeal.S50000x128.rank))
    (r : Fin 50000) (q : Fin 128) :
    broadcastInDim Cert.ReferenceIdeal.S50000x128 ![0, 1] hB (broadcastInDim Cert.ReferenceIdeal.S1x128 ![1] hb v) (ix2 r q) = v (ix1 q) := by
  refine (broadcastInDim_apply _ hB _ (ix2 r q) (ix2 (0 : Fin 1) q) fun a => ?_).trans ?_
  · match a with
    | ⟨0, _⟩ => rfl
    | ⟨1, _⟩ => rfl
  · refine broadcastInDim_apply _ hb v (ix2 (0 : Fin 1) q) (ix1 q) fun a => ?_
    match a with
    | ⟨0, _⟩ => rfl

/-- The normalise-and-rectify function of a whole array at the entry `(r, q)`:
    `max (g q · (x (r, q) − mean q) · rsqrt (var q + 1e-5) + β q) 0`. -/
theorem bn2_spec_at (x : Cert.Spec.RA Cert.ReferenceIdeal.S50000x128) (mean var g beta : Cert.Spec.RA Cert.ReferenceIdeal.S128)
    (r : Fin 50000) (q : Fin 128) :
    Cert.Spec.bnrelu128 x mean var g beta (ix2 r q)
      = max (g (ix1 q) * (x (ix2 r q) - mean (ix1 q)) * Ideal.rsqrt (var (ix1 q) + Ideal.ofBits .f32 0x3727C5AC#32) + beta (ix1 q))
          (Ideal.ofBits .f32 0x00000000#32) := by
  unfold Cert.Spec.bnrelu128
  rw [maximumf_apply, addf_apply, mulf_apply, mulf_apply, subf_apply, bn2_rows, bn2_rows, bn2_rows, bn2_rows]
  rfl

/-! ## The block function at an entry -/

/-- What one grid point computes from its blocks, at the entry `(p, q)` of the block: the same expression, each
    1 × 128 row read at column `q`. -/
theorem bn2_pay_at (x0 : Vec Ideal S2000x128 .f32) (x1 x2 x3 x4 : Vec Ideal S1x128 .f32) (p : Fin 2000) (q : Fin 128) :
    k2_pay1 (F := Ideal) x0 x1 x2 x3 x4 (ix2 p q)
      = max (x3 (ix2 (0 : Fin 1) q) * (x0 (ix2 p q) - x1 (ix2 (0 : Fin 1) q)) * Ideal.rsqrt (x2 (ix2 (0 : Fin 1) q) + Ideal.ofBits .f32 0x3727C5AC#32)
              + x4 (ix2 (0 : Fin 1) q))
          (Ideal.ofBits .f32 0x00000000#32) := by
  unfold k2_pay1
  simp only [shapeCast_self]
  rw [maximumf_apply, addf_apply, mulf_apply, mulf_apply, subf_apply, broadcastTo_1b_ab_apply, broadcastTo_1b_ab_apply,
    broadcastTo_1b_ab_apply, broadcastTo_1b_ab_apply]
  rfl

/-- ONE ENTRY. If the block of `x` holds at `y` what the array holds at `i`, `i` and `y` in the same column, and the four
    rows are the column vectors reshaped, the block function at `y` is the whole-array function at `i`. -/
theorem bn2_entry (x0 : Vec Ideal S2000x128 .f32) (x1 x2 x3 x4 : Vec Ideal S1x128 .f32)
    (X : Cert.Spec.RA Cert.ReferenceIdeal.S50000x128) (mean var g beta : Cert.Spec.RA Cert.ReferenceIdeal.S128)
    (e1 : x1 = shapeCast S1x128 mean shapeCasts_S128_S1x128) (e2 : x2 = shapeCast S1x128 var shapeCasts_S128_S1x128)
    (e3 : x3 = shapeCast S1x128 g shapeCasts_S128_S1x128) (e4 : x4 = shapeCast S1x128 beta shapeCasts_S128_S1x128)
    (y : S2000x128.Idx) (i : S50000x128.Idx) (hx : x0 y = X i) (hcol : (i 1).val = (y 1).val) :
    k2_pay1 (F := Ideal) x0 x1 x2 x3 x4 y = Cert.Spec.bnrelu128 X mean var g beta i := by
  obtain ⟨p, q, rfl⟩ : ∃ (p : Fin 2000) (q : Fin 128), y = ix2 p q := ⟨y 0, y 1, eq_ix2 y⟩
  obtain ⟨r, s, rfl⟩ : ∃ (r : Fin 50000) (s : Fin 128), i = ix2 r s := ⟨i 0, i 1, eq_ix2 i⟩
  obtain rfl : s = q := Fin.ext hcol
  rw [bn2_pay_at, bn2_spec_at, hx, e1, e2, e3, e4, shapeCast_a_1a_apply, shapeCast_a_1a_apply, shapeCast_a_1a_apply, shapeCast_a_1a_apply]

/-! ## The windows' blocks as entries of their arrays -/

theorem bn2_zero : (![0, 0] : Fin 2 → Nat) = fun _ => 0 := funext fun a => by fin_cases a <;> rfl

/-- The block indices over the 25 points: point `t` takes row block `t` of `x` and of the result, and the one block of each
    row vector. -/
theorem bn2_idx : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

variable (V : (c : Dev nD) → (b : Ref sig .tc) → Buf (Elt Ideal) ((c : Thread nD τ).loc b))

/-- The block of `x` at point `t` holds rows `2000 t … 2000 t + 1999` of `x`. -/
theorem bn2_blk_x (c : Dev nD) (t : Fin cfg2.N) (y : S2000x128.Idx) (i : S50000x128.Idx)
    (h0 : (i 0).val = 2000 * t.val + (y 0).val) (h1 : (i 1).val = (y 1).val) :
    (iblk2 V c 0 t : Vec Ideal S2000x128 .f32) y = (V c main_v45 : S50000x128.Idx → Elt Ideal .f32) i := by
  obtain ⟨e0, e1, -⟩ := bn2_idx t
  unfold iblk2
  rw [View.read_apply]
  show V c main_v45 _ = V c main_v45 _
  congr 1
  funext a
  apply Fin.ext
  match a with
  | ⟨0, _⟩ => show win2_0.index t (0 : Fin 2) * 2000 + 1 * (y 0).val = (i 0).val; rw [e0, h0]; omega
  | ⟨1, _⟩ => show win2_0.index t (1 : Fin 2) * 128 + 1 * (y 1).val = (i 1).val; rw [e1, h1]; omega

/-- The block of the mean row at any point is the whole row. -/
theorem bn2_blk_1 (c : Dev nD) (t : Fin cfg2.N) :
    (iblk2 V c 1 t : Vec Ideal S1x128 .f32) = (V c main_v54 : S1x128.Idx → Elt Ideal .f32) := by
  obtain ⟨-, -, e0, e1, -⟩ := bn2_idx t
  funext z
  unfold iblk2
  rw [View.read_apply]
  show V c main_v54 _ = V c main_v54 _
  congr 1
  funext a
  apply Fin.ext
  match a with
  | ⟨0, _⟩ => show win2_1.index t (0 : Fin 2) * 1 + 1 * (z 0).val = (z 0).val; rw [e0]; omega
  | ⟨1, _⟩ => show win2_1.index t (1 : Fin 2) * 128 + 1 * (z 1).val = (z 1).val; rw [e1]; omega

/-- The block of the variance row at any point is the whole row. -/
theorem bn2_blk_2 (c : Dev nD) (t : Fin cfg2.N) :
    (iblk2 V c 2 t : Vec Ideal S1x128 .f32) = (V c main_v55 : S1x128.Idx → Elt Ideal .f32) := by
  obtain ⟨-, -, -, -, e0, e1, -⟩ := bn2_idx t
  funext z
  unfold iblk2
  rw [View.read_apply]
  show V c main_v55 _ = V c main_v55 _
  congr 1
  funext a
  apply Fin.ext
  match a with
  | ⟨0, _⟩ => show win2_2.index t (0 : Fin 2) * 1 + 1 * (z 0).val = (z 0).val; rw [e0]; omega
  | ⟨1, _⟩ => show win2_2.index t (1 : Fin 2) * 128 + 1 * (z 1).val = (z 1).val; rw [e1]; omega

/-- The block of the scale row at any point is the whole row. -/
theorem bn2_blk_3 (c : Dev nD) (t : Fin cfg2.N) :
    (iblk2 V c 3 t : Vec Ideal S1x128 .f32) = (V c main_v56 : S1x128.Idx → Elt Ideal .f32) := by
  obtain ⟨-, -, -, -, -, -, e0, e1, -⟩ := bn2_idx t
  funext z
  unfold iblk2
  rw [View.read_apply]
  show V c main_v56 _ = V c main_v56 _
  congr 1
  funext a
  apply Fin.ext
  match a with
  | ⟨0, _⟩ => show win2_3.index t (0 : Fin 2) * 1 + 1 * (z 0).val = (z 0).val; rw [e0]; omega
  | ⟨1, _⟩ => show win2_3.index t (1 : Fin 2) * 128 + 1 * (z 1).val = (z 1).val; rw [e1]; omega

/-- The block of the shift row at any point is the whole row. -/
theorem bn2_blk_4 (c : Dev nD) (t : Fin cfg2.N) :
    (iblk2 V c 4 t : Vec Ideal S1x128 .f32) = (V c main_v57 : S1x128.Idx → Elt Ideal .f32) := by
  obtain ⟨-, -, -, -, -, -, -, -, e0, e1, -⟩ := bn2_idx t
  funext z
  unfold iblk2
  rw [View.read_apply]
  show V c main_v57 _ = V c main_v57 _
  congr 1
  funext a
  apply Fin.ext
  match a with
  | ⟨0, _⟩ => show win2_4.index t (0 : Fin 2) * 1 + 1 * (z 0).val = (z 0).val; rw [e0]; omega
  | ⟨1, _⟩ => show win2_4.index t (1 : Fin 2) * 128 + 1 * (z 1).val = (z 1).val; rw [e1]; omega

/-! ## What a point writes back, the cover, and the array after the step -/

/-- Point `t` writes back block `t` of the whole-array function of `x` as the step found it. -/
theorem bn2_flushed (c : Dev nD) (mean var g beta : Cert.Spec.RA Cert.ReferenceIdeal.S128)
    (h1 : V c main_v54 = shapeCast S1x128 mean shapeCasts_S128_S1x128) (h2 : V c main_v55 = shapeCast S1x128 var shapeCasts_S128_S1x128)
    (h3 : V c main_v56 = shapeCast S1x128 g shapeCasts_S128_S1x128) (h4 : V c main_v57 = shapeCast S1x128 beta shapeCasts_S128_S1x128)
    (t : Fin cfg2.N) :
    (dat2 (F := Ideal) V c).flushed 5 t
      = ((cfg2.win 5).blk t).view.read (Elt Ideal) (Cert.Spec.bnrelu128 (V c main_v45) mean var g beta) := by
  show (cfg2.win 5).cut (grid2.coords t) ((dat2 V c).after 5 t) = _
  rw [after2_5]
  unfold out2_5
  rw [View.canon_unit_zero bn2_zero]
  simp only [View.ld_unit_zero (S := S2000x128) bn2_zero, View.ld_unit_zero (S := S1x128) bn2_zero]
  obtain ⟨-, -, -, -, -, -, -, -, -, -, e0, e1⟩ := bn2_idx t
  funext j
  rw [View.read_apply]
  refine bn2_entry (iblk2 V c 0 t) (iblk2 V c 1 t) (iblk2 V c 2 t) (iblk2 V c 3 t) (iblk2 V c 4 t) (V c main_v45) mean var g beta
    ((bn2_blk_1 V c t).trans h1) ((bn2_blk_2 V c t).trans h2) ((bn2_blk_3 V c t).trans h3) ((bn2_blk_4 V c t).trans h4)
    j (((cfg2.win 5).blk t).view.emb j) (bn2_blk_x V c t j (((cfg2.win 5).blk t).view.emb j) ?_ ?_) ?_
  · show win2_5.index t (0 : Fin 2) * 2000 + 1 * (j 0).val = 2000 * t.val + (j 0).val; rw [e0]; omega
  · show win2_5.index t (1 : Fin 2) * 128 + 1 * (j 1).val = (j 1).val; rw [e1]; omega
  · show win2_5.index t (1 : Fin 2) * 128 + 1 * (j 1).val = (j 1).val; rw [e1]; omega

/-- Every entry of the result lies in some point's block: row `r` in the block of point `r / 2000`. -/
theorem bn2_cover (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 25 := N_2
  have ht : (i 0).val / 2000 < cfg2.N := by rw [hN]; omega
  obtain ⟨-, -, -, -, -, -, -, -, -, -, e0, e1⟩ := bn2_idx ⟨(i 0).val / 2000, ht⟩
  refine ⟨⟨(i 0).val / 2000, ht⟩, flush2_5 _, ?_⟩
  show i ∈ ((View.whole main_v58).slice (win2_5.rect ⟨(i 0).val / 2000, ht⟩)).set
  rw [View.set_slice_whole, Rect.mem_set_unit]
  intro a
  match a with
  | ⟨0, _⟩ =>
    show win2_5.index ⟨(i 0).val / 2000, ht⟩ (0 : Fin 2) * 2000 ≤ (i 0).val ∧ (i 0).val < win2_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win2_5.index ⟨(i 0).val / 2000, ht⟩ (1 : Fin 2) * 128 ≤ (i 1).val ∧ (i 1).val < win2_5.index ⟨(i 0).val / 2000, ht⟩ (1 : Fin 2) * 128 + 128
    rw [e1]; omega

/-- THE ARRAY AFTER THE STEP: the whole-array normalise-and-rectify function, with the column vectors whose reshapes
    the four rows are, of the array `x` as the step found it. -/
theorem bn2 (c : Dev nD) (mean var g beta : Cert.Spec.RA Cert.ReferenceIdeal.S128)
    (h1 : V c main_v54 = shapeCast S1x128 mean shapeCasts_S128_S1x128) (h2 : V c main_v55 = shapeCast S1x128 var shapeCasts_S128_S1x128)
    (h3 : V c main_v56 = shapeCast S1x128 g shapeCasts_S128_S1x128) (h4 : V c main_v57 = shapeCast S1x128 beta shapeCasts_S128_S1x128) :
    (dat2 (F := Ideal) V c).arrAt 5 cfg2.N = Cert.Spec.bnrelu128 (V c main_v45) mean var g beta :=
  (dat2 V c).arrAt_eq_of_cover 5 (Cert.Spec.bnrelu128 (V c main_v45) mean var g beta)
    (fun t _ => bn2_flushed V c mean var g beta h1 h2 h3 h4 t) bn2_cover

end Cert.KernelIdeal.RegVal

end
-- ==== Proof.KChainL0.lean ====
/-
  Layer 0 of the blocked program: what its buffers hold, boundary by boundary, as the specification's functions of the
  launch's argument arrays `A`.

  The blocked program's run passes through fixed buffer contents at each boundary between a stretch of host operations
  and a kernel region. Entering region 0 the three arrays it reads hold the mixed features and the first linear map's
  parameters, so it leaves `z1 = mix · W₁ + b₁`; entering region 1 the statistics' rows are the column means and variances
  of that very array, so it leaves `z2`, the normalised and rectified `z1` through the second linear map; entering region 2
  likewise, so it leaves the layer's output `h1`. The edge list's two rows and the argument arrays are carried along
  unchanged: no region and no host operation writes them.
-/
import proofs.«107430_j24575802868448_1_alg».proof.Proof.FPKernelIdealW
import proofs.«107430_j24575802868448_1_alg».proof.Proof.Spec
import proofs.«107430_j24575802868448_1_alg».proof.Proof.KArgs
import proofs.«107430_j24575802868448_1_alg».proof.Proof.KHostL0
import proofs.«107430_j24575802868448_1_alg».proof.Proof.RegLin0
import proofs.«107430_j24575802868448_1_alg».proof.Proof.RegBnLin1
import proofs.«107430_j24575802868448_1_alg».proof.Proof.RegBn2

set_option maxRecDepth 16384

noncomputable section

namespace Cert.KernelIdeal.Chain

open Idealize.ShloMosaic Idealize.ShloMosaic.TcCoe Idealize.SL.Sem Idealize.ShloMosaic.StableHlo Cert.KernelIdeal Cert.KernelIdeal.Gen
open Cert.Spec

variable (m : (ℓ : Loc nD τ sig) → Buf (Elt Ideal) ℓ) (ρ : Dev nD → PrngReg) (c : Dev nD)

/-- The argument arrays at launch. -/
abbrev A : Args := Host.argsOf (W0 m ρ c)
/-- The edge list's rows. -/
abbrev sA : IA Cert.ReferenceIdeal.S800000 := src (A m ρ c).ei
abbrev dA : IA Cert.ReferenceIdeal.S800000 := dst (A m ρ c).ei

/-! ## Entering region 0 -/

theorem b1_args : Host.argsOf (W1 m ρ c) = A m ρ c := Host.e0_args _
theorem b1_src : W1 m ρ c (Proc.devRef .tc main_v1) = sA m ρ c := Host.e0_src _
theorem b1_dst : W1 m ρ c (Proc.devRef .tc main_v3) = dA m ρ c := Host.e0_dst _

/-! ## Leaving region 0 -/

theorem b2_z1 : W2 m ρ c (Proc.devRef .tc main_v26) = z1 (P0 (A m ρ c)) (A m ρ c).x (sA m ρ c) (dA m ρ c) := by
  refine (W2_arr m ρ c 3).trans ?_
  rw [RegVal.lin0 (V1 m ρ) c (P0 (A m ρ c)).w1 (P0 (A m ρ c)).b1 (Host.e0_w _) (Host.e0_b _)]
  rw [show V1 m ρ c main_v19 = _ from Host.e0_x _]
  rfl
theorem b2_src : W2 m ρ c (Proc.devRef .tc main_v1) = sA m ρ c := (W2_of_ne m ρ c main_v1 (by decide)).trans (b1_src m ρ c)
theorem b2_dst : W2 m ρ c (Proc.devRef .tc main_v3) = dA m ρ c := (W2_of_ne m ρ c main_v3 (by decide)).trans (b1_dst m ρ c)
theorem b2_args : Host.argsOf (W2 m ρ c) = A m ρ c :=
  (Host.argsOf_congr_of fun b hb => W2_of_ne m ρ c b ((by decide : ∀ b ∈ Host.argRefs, ∀ w, Pipeline.arrRef spec0 w ≠ b) b hb)).trans (b1_args m ρ c)

/-! ## Entering region 1 -/

theorem b5_args : Host.argsOf (W5 m ρ c) = A m ρ c := (Host.e1_args _).trans (b2_args m ρ c)
theorem b5_src : W5 m ρ c (Proc.devRef .tc main_v1) = sA m ρ c := (Host.e1_src _).trans (b2_src m ρ c)
theorem b5_dst : W5 m ρ c (Proc.devRef .tc main_v3) = dA m ρ c := (Host.e1_dst _).trans (b2_dst m ρ c)
theorem b5_x : W5 m ρ c (Proc.devRef .tc main_v26) = z1 (P0 (A m ρ c)) (A m ρ c).x (sA m ρ c) (dA m ρ c) := (Host.e1_x _).trans (b2_z1 m ρ c)

/-! ## Leaving region 1 -/

theorem b6_z2 : W6 m ρ c (Proc.devRef .tc main_v45) = z2 (P0 (A m ρ c)) (A m ρ c).x (sA m ρ c) (dA m ρ c) := by
  refine (W6_arr m ρ c 7).trans ?_
  rw [RegVal.bnlin1 (V5 m ρ) c (mean256 (W2 m ρ c (Proc.devRef .tc main_v26))) (var256 (W2 m ρ c (Proc.devRef .tc main_v26)))
    (P0 (Host.argsOf (W2 m ρ c))).g1 (P0 (Host.argsOf (W2 m ρ c))).be1 (P0 (Host.argsOf (W2 m ρ c))).w2 (P0 (Host.argsOf (W2 m ρ c))).b2
    (Host.e1_mean _) (Host.e1_var _) (Host.e1_g _) (Host.e1_beta _) (Host.e1_w _) (Host.e1_b _)]
  rw [show V5 m ρ c main_v26 = _ from b5_x m ρ c, b2_z1, b2_args]
  rfl
theorem b6_src : W6 m ρ c (Proc.devRef .tc main_v1) = sA m ρ c := (W6_of_ne m ρ c main_v1 (by decide)).trans (b5_src m ρ c)
theorem b6_dst : W6 m ρ c (Proc.devRef .tc main_v3) = dA m ρ c := (W6_of_ne m ρ c main_v3 (by decide)).trans (b5_dst m ρ c)
theorem b6_args : Host.argsOf (W6 m ρ c) = A m ρ c :=
  (Host.argsOf_congr_of fun b hb => W6_of_ne m ρ c b ((by decide : ∀ b ∈ Host.argRefs, ∀ w, Pipeline.arrRef spec1 w ≠ b) b hb)).trans (b5_args m ρ c)

/-! ## Entering region 2 -/

theorem b9_args : Host.argsOf (W9 m ρ c) = A m ρ c := (Host.e2_args _).trans (b6_args m ρ c)
theorem b9_src : W9 m ρ c (Proc.devRef .tc main_v1) = sA m ρ c := (Host.e2_src _).trans (b6_src m ρ c)
theorem b9_dst : W9 m ρ c (Proc.devRef .tc main_v3) = dA m ρ c := (Host.e2_dst _).trans (b6_dst m ρ c)
theorem b9_x : W9 m ρ c (Proc.devRef .tc main_v45) = z2 (P0 (A m ρ c)) (A m ρ c).x (sA m ρ c) (dA m ρ c) := (Host.e2_x _).trans (b6_z2 m ρ c)

/-! ## Leaving region 2: the layer's output -/

theorem b10_h : W10 m ρ c (Proc.devRef .tc main_v58) = h1 (A m ρ c) := by
  refine (W10_arr m ρ c 5).trans ?_
  rw [RegVal.bn2 (V9 m ρ) c (mean128 (W6 m ρ c (Proc.devRef .tc main_v45))) (var128 (W6 m ρ c (Proc.devRef .tc main_v45)))
    (P0 (Host.argsOf (W6 m ρ c))).g2 (P0 (Host.argsOf (W6 m ρ c))).be2
    (Host.e2_mean _) (Host.e2_var _) (Host.e2_g _) (Host.e2_beta _)]
  rw [show V9 m ρ c main_v45 = _ from b9_x m ρ c, b6_z2, b6_args]
  rfl
theorem b10_src : W10 m ρ c (Proc.devRef .tc main_v1) = sA m ρ c := (W10_of_ne m ρ c main_v1 (by decide)).trans (b9_src m ρ c)
theorem b10_dst : W10 m ρ c (Proc.devRef .tc main_v3) = dA m ρ c := (W10_of_ne m ρ c main_v3 (by decide)).trans (b9_dst m ρ c)
theorem b10_args : Host.argsOf (W10 m ρ c) = A m ρ c :=
  (Host.argsOf_congr_of fun b hb => W10_of_ne m ρ c b ((by decide : ∀ b ∈ Host.argRefs, ∀ w, Pipeline.arrRef spec2 w ≠ b) b hb)).trans (b9_args m ρ c)

end Cert.KernelIdeal.Chain

end
-- ==== Proof.RegLin3.lean ====
/-
  A linear map of the network, computed block by block, is the linear map on whole arrays.

  The launch cuts the 50000 × 128 array `x` into 25 blocks of 2000 rows. At grid point `t` the body reads rows
  `2000·t … 2000·t + 1999` of `x`, the whole 128 × 256 weight matrix and the whole 1 × 256 bias row, and leaves in
  the output's block the matrix product of the row block with the weights plus the bias row repeated over the 2000
  rows. Over the extended reals a change of float format is the identity and a matrix product is an exact sum, so entry
  `(p, q)` of that block is `Σ_k x[2000·t + p, k] · w[k, q] + b[q]`: entry `(2000·t + p, q)` of `x · w + b`. The 25
  blocks tile the 50000 × 256 result, row `r` lying in the block of point `r / 2000`, so after the last write-back
  the result array is `x · w + b` — whatever the three input arrays held when the launch began, as long as the
  weight buffer holds `w` (narrowed to bf16: the identity here) and the bias buffer holds `b` laid out as one row.
-/
import proofs.«107430_j24575802868448_1_alg».proof.Proof.FPKernelIdealR3
import proofs.«107430_j24575802868448_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegVal.Lin3

open Idealize.ShloMosaic Idealize.ShloMosaic.TcCoe Idealize.SL.Sem
open Idealize.ShloMosaic.Pipeline (Dat)
open Cert.KernelIdeal Cert.KernelIdeal.Gen
open Idealize.ShloMosaic.ValueIdx

/-! ## The block product: which entries of its operands an entry of the product reads

For the product of a 2000 × 128 block with the 128 × 256 weights, at result entry `i` and contraction position `q` the
left operand is read at (row of `i`, `q`) and the right one at (`q`, column of `i`): one statement per operand axis. -/

theorem blk_lhs_row (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide),
    dif_pos (show (0 : Fin S2000x128.rank) ∈ dot_S2000x128_S128x256_S2000x256_1_0_0_1_n_n.lhsNonContracting by decide)]
  rfl
theorem blk_lhs_col (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
theorem blk_rhs_row (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
theorem blk_rhs_col (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide),
    dif_pos (show (1 : Fin S128x256.rank) ∈ dot_S2000x128_S128x256_S2000x256_1_0_0_1_n_n.rhsNonContracting by decide)]
  rfl

/-- Entry `(p, q)` of the block product accumulated from zero is `Σ_k x[p, k] · w[k, q]`. -/
theorem blk_product_entry (x : FVec Ideal S2000x128 .bf16) (w : FVec Ideal S128x256 .bf16) (p : Fin 2000) (q : Fin 256) :
    matmul dot_S2000x128_S128x256_S2000x256_1_0_0_1_n_n none x w (constant S2000x256 .f32 0x00000000#32) (ix2 p q)
      = ∑ k : Fin 128, x (ix2 p k) * w (ix2 k q) := by
  simp only [matmul]
  rw [Ideal.matmul_constant_zero_apply, ← Equiv.sum_comp (contrEquiv1 dot_S2000x128_S128x256_S2000x256_1_0_0_1_n_n 128 rfl rfl).symm]
  refine Finset.sum_congr rfl fun k _ => ?_
  have hk := contrEquiv1_symm_val dot_S2000x128_S128x256_S2000x256_1_0_0_1_n_n 128 rfl rfl k
  have el : dot_S2000x128_S128x256_S2000x256_1_0_0_1_n_n.lhsIdx (ix2 p q) ((contrEquiv1 dot_S2000x128_S128x256_S2000x256_1_0_0_1_n_n 128 rfl rfl).symm k) = ix2 p k := funext fun a => Fin.ext (by
    match a with
    | ⟨0, _⟩ => exact blk_lhs_row _ _
    | ⟨1, _⟩ => exact (blk_lhs_col _ _).trans hk)
  have er : dot_S2000x128_S128x256_S2000x256_1_0_0_1_n_n.rhsIdx (ix2 p q) ((contrEquiv1 dot_S2000x128_S128x256_S2000x256_1_0_0_1_n_n 128 rfl rfl).symm k) = ix2 k q := funext fun a => Fin.ext (by
    match a with
    | ⟨0, _⟩ => exact (blk_rhs_row _ _).trans hk
    | ⟨1, _⟩ => exact blk_rhs_col _ _)
  rw [el, er]

/-- What the body stores, entry by entry: `Σ_k x₀[p, k] · x₁[k, q] + x₂[0, q]` of the three blocks it loaded
    (the narrowing of `x₀` to bf16 is the identity on extended reals). -/
theorem stored_entry (x0 : Vec Ideal S2000x128 .f32) (x1 : Vec Ideal S128x256 .bf16) (x2 : Vec Ideal S1x256 .f32)
    (p : Fin 2000) (q : Fin 256) :
    (k3_pay1 (F := Ideal) x0 x1 x2) (ix2 p q) = (∑ k : Fin 128, x0 (ix2 p k) * x1 (ix2 k q)) + x2 (ix2 (0 : Fin 1) q) := by
  unfold k3_pay1
  simp only [shapeCast_self]
  rw [addf_apply, blk_product_entry, broadcastTo_1b_ab_apply]
  rfl

/-! ## The whole-array product, the same way -/

theorem arr_lhs_row (i : Cert.ReferenceIdeal.S50000x256.Idx) (q : Cert.ReferenceIdeal.dot_S50000x128_S128x256_S50000x256_1_0_0_1_n_n.contr.Idx) :
    (Cert.ReferenceIdeal.dot_S50000x128_S128x256_S50000x256_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x256_S50000x256_1_0_0_1_n_n.lhsBatch by decide),
    dif_pos (show (0 : Fin Cert.ReferenceIdeal.S50000x128.rank) ∈ Cert.ReferenceIdeal.dot_S50000x128_S128x256_S50000x256_1_0_0_1_n_n.lhsNonContracting by decide)]
  rfl
theorem arr_lhs_col (i : Cert.ReferenceIdeal.S50000x256.Idx) (q : Cert.ReferenceIdeal.dot_S50000x128_S128x256_S50000x256_1_0_0_1_n_n.contr.Idx) :
    (Cert.ReferenceIdeal.dot_S50000x128_S128x256_S50000x256_1_0_0_1_n_n.lhsIdx i q 1).val = (q ⟨0, by decide⟩).val :=
  Cert.ReferenceIdeal.dot_S50000x128_S128x256_S50000x256_1_0_0_1_n_n.lhsIdx_val_of_single rfl i q
theorem arr_rhs_row (i : Cert.ReferenceIdeal.S50000x256.Idx) (q : Cert.ReferenceIdeal.dot_S50000x128_S128x256_S50000x256_1_0_0_1_n_n.contr.Idx) :
    (Cert.ReferenceIdeal.dot_S50000x128_S128x256_S50000x256_1_0_0_1_n_n.rhsIdx i q 0).val = (q ⟨0, by decide⟩).val :=
  Cert.ReferenceIdeal.dot_S50000x128_S128x256_S50000x256_1_0_0_1_n_n.rhsIdx_val_of_single rfl i q
theorem arr_rhs_col (i : Cert.ReferenceIdeal.S50000x256.Idx) (q : Cert.ReferenceIdeal.dot_S50000x128_S128x256_S50000x256_1_0_0_1_n_n.contr.Idx) :
    (Cert.ReferenceIdeal.dot_S50000x128_S128x256_S50000x256_1_0_0_1_n_n.rhsIdx i q 1).val = (i 1).val := by
  unfold DotDims.rhsIdx
  rw [dif_neg (show ¬(1 : Fin Cert.ReferenceIdeal.S128x256.rank) ∈ Cert.ReferenceIdeal.dot_S50000x128_S128x256_S50000x256_1_0_0_1_n_n.rhsBatch by decide),
    dif_pos (show (1 : Fin Cert.ReferenceIdeal.S128x256.rank) ∈ Cert.ReferenceIdeal.dot_S50000x128_S128x256_S50000x256_1_0_0_1_n_n.rhsNonContracting by decide)]
  rfl

/-- Entry `(r, q)` of the whole-array product is `Σ_k x[r, k] · w[k, q]`. -/
theorem arr_product_entry (x : FVec Ideal Cert.ReferenceIdeal.S50000x128 .f32) (w : FVec Ideal Cert.ReferenceIdeal.S128x256 .f32)
    (r : Fin 50000) (q : Fin 256) :
    Host.dotGeneral Cert.ReferenceIdeal.dot_S50000x128_S128x256_S50000x256_1_0_0_1_n_n none x w (ix2 r q) = ∑ k : Fin 128, x (ix2 r k) * w (ix2 k q) := by
  simp only [Host.dotGeneral]
  rw [Ideal.dotGeneral_apply, ← Equiv.sum_comp (contrEquiv1 Cert.ReferenceIdeal.dot_S50000x128_S128x256_S50000x256_1_0_0_1_n_n 128 rfl rfl).symm]
  refine Finset.sum_congr rfl fun k _ => ?_
  have hk := contrEquiv1_symm_val Cert.ReferenceIdeal.dot_S50000x128_S128x256_S50000x256_1_0_0_1_n_n 128 rfl rfl k
  have el : Cert.ReferenceIdeal.dot_S50000x128_S128x256_S50000x256_1_0_0_1_n_n.lhsIdx (ix2 r q) ((contrEquiv1 Cert.ReferenceIdeal.dot_S50000x128_S128x256_S50000x256_1_0_0_1_n_n 128 rfl rfl).symm k) = ix2 r k := funext fun a => Fin.ext (by
    match a with
    | ⟨0, _⟩ => exact arr_lhs_row _ _
    | ⟨1, _⟩ => exact (arr_lhs_col _ _).trans hk)
  have er : Cert.ReferenceIdeal.dot_S50000x128_S128x256_S50000x256_1_0_0_1_n_n.rhsIdx (ix2 r q) ((contrEquiv1 Cert.ReferenceIdeal.dot_S50000x128_S128x256_S50000x256_1_0_0_1_n_n 128 rfl rfl).symm k) = ix2 k q := funext fun a => Fin.ext (by
    match a with
    | ⟨0, _⟩ => exact (arr_rhs_row _ _).trans hk
    | ⟨1, _⟩ => exact arr_rhs_col _ _)
  rw [el, er]

/-- A vector laid out as one row reads, at `(0, q)`, its entry `q`. -/
theorem vec_as_row {α : Type} {m : Nat} (v : (⟨1, ![m]⟩ : Shape).Idx → α)
    (h : (⟨1, ![m]⟩ : Shape).BroadcastsInDim ⟨2, ![1, m]⟩ ![1]) (u : Fin 1) (q : Fin m) :
    broadcastInDim ⟨2, ![1, m]⟩ ![1] h v (ix2 u q) = v (ix1 q) := by
  refine broadcastInDim_apply _ h v (ix2 u q) (ix1 q) fun a => ?_
  match a with
  | ⟨0, _⟩ =>
    show q.val = if m = 1 then 0 else q.val
    split
    · have := q.isLt; omega
    · rfl

/-- One row repeated over `n` rows reads, at `(r, q)`, the row's entry `q`. -/
theorem row_over_rows {α : Type} {n m : Nat} (v : (⟨2, ![1, m]⟩ : Shape).Idx → α)
    (h : (⟨2, ![1, m]⟩ : Shape).BroadcastsInDim ⟨2, ![n, m]⟩ ![0, 1]) (r : Fin n) (q : Fin m) :
    broadcastInDim ⟨2, ![n, m]⟩ ![0, 1] h v (ix2 r q) = v (ix2 (0 : Fin 1) q) := by
  refine broadcastInDim_apply _ h v (ix2 r q) (ix2 (0 : Fin 1) q) fun a => ?_
  match a with
  | ⟨0, _⟩ => rfl
  | ⟨1, _⟩ =>
    show q.val = if m = 1 then 0 else q.val
    split
    · have := q.isLt; omega
    · rfl

/-- Entry `(r, q)` of `x · w + b` is `Σ_k x[r, k] · w[k, q] + b[q]`. -/
theorem linear_entry (x : Cert.Spec.RA Cert.ReferenceIdeal.S50000x128) (w : Cert.Spec.RA Cert.ReferenceIdeal.S128x256)
    (b : Cert.Spec.RA Cert.ReferenceIdeal.S256) (r : Fin 50000) (q : Fin 256) :
    Cert.Spec.lin128x256 x w b (ix2 r q) = (∑ k : Fin 128, x (ix2 r k) * w (ix2 k q)) + b (ix1 q) := by
  unfold Cert.Spec.lin128x256
  rw [addf_apply, arr_product_entry, row_over_rows, vec_as_row]

/-! ## The grid: which block of each array a point reads or writes -/

/-- At point `t` the row-tiled arrays (`x` and the result) are at block `(t, 0)`, the weights and the bias at
    their one block `(0, 0)`. -/
theorem block_indices : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

variable (c : Dev nD)

/-- The block of `x` at point `t`, at `y`, is `x` at row `2000·t + y₀`, column `y₁`. -/
theorem x_block (A : Buf (Elt Ideal) ((c : Thread nD τ).loc main_v74)) (t : Fin cfg3.N) (y : S2000x128.Idx) (k : S50000x128.Idx)
    (hk0 : (k 0).val = 2000 * t.val + (y 0).val) (hk1 : (k 1).val = (y 1).val) :
    (((cfg3.win 0).blk t).view.read (Elt Ideal) A : Vec Ideal S2000x128 .f32) y = (A : S50000x128.Idx → Elt Ideal .f32) k := by
  obtain ⟨e0, e1, -⟩ := block_indices t
  rw [View.read_apply]
  refine congrArg (A : S50000x128.Idx → Elt Ideal .f32) (funext fun a => Fin.ext ?_)
  match a with
  | ⟨0, _⟩ => show win3_0.index t (0 : Fin 2) * 2000 + 1 * (y 0).val = (k 0).val; rw [e0, hk0]; omega
  | ⟨1, _⟩ => show win3_0.index t (1 : Fin 2) * 128 + 1 * (y 1).val = (k 1).val; rw [e1, hk1]; omega

/-- The weights' block at every point is the whole weight array. -/
theorem w_block (A : Buf (Elt Ideal) ((c : Thread nD τ).loc main_v79)) (t : Fin cfg3.N) :
    (((cfg3.win 1).blk t).view.read (Elt Ideal) A : Vec Ideal S128x256 .bf16) = (A : S128x256.Idx → Elt Ideal .bf16) := by
  obtain ⟨-, -, e2, e3, -⟩ := block_indices t
  funext y
  rw [View.read_apply]
  refine congrArg (A : S128x256.Idx → Elt Ideal .bf16) (funext fun a => Fin.ext ?_)
  match a with
  | ⟨0, _⟩ => show win3_1.index t (0 : Fin 2) * 128 + 1 * (y 0).val = (y 0).val; rw [e2]; omega
  | ⟨1, _⟩ => show win3_1.index t (1 : Fin 2) * 256 + 1 * (y 1).val = (y 1).val; rw [e3]; omega

/-- The bias row's block at every point is the whole row. -/
theorem b_block (A : Buf (Elt Ideal) ((c : Thread nD τ).loc main_v80)) (t : Fin cfg3.N) :
    (((cfg3.win 2).blk t).view.read (Elt Ideal) A : Vec Ideal S1x256 .f32) = (A : S1x256.Idx → Elt Ideal .f32) := by
  obtain ⟨-, -, -, -, e4, e5, -⟩ := block_indices t
  funext y
  rw [View.read_apply]
  refine congrArg (A : S1x256.Idx → Elt Ideal .f32) (funext fun a => Fin.ext ?_)
  match a with
  | ⟨0, _⟩ => show win3_2.index t (0 : Fin 2) * 1 + 1 * (y 0).val = (y 0).val; rw [e4]; omega
  | ⟨1, _⟩ => show win3_2.index t (1 : Fin 2) * 256 + 1 * (y 1).val = (y 1).val; rw [e5]; omega

/-- What the body stores from rows `2000·n …` of `X`, the weights `W` and the bias `B` as a row is, entry by
    entry, `X · W + B` at the rows `2000·n …`. -/
theorem block_is_linear (X : Cert.Spec.RA Cert.ReferenceIdeal.S50000x128) (W : Cert.Spec.RA Cert.ReferenceIdeal.S128x256)
    (B : Cert.Spec.RA Cert.ReferenceIdeal.S256)
    (x0 : Vec Ideal S2000x128 .f32) (x1 : Vec Ideal S128x256 .bf16) (x2 : Vec Ideal S1x256 .f32) (n : Nat)
    (h0 : ∀ (y : S2000x128.Idx) (k : S50000x128.Idx), (k 0).val = 2000 * n + (y 0).val → (k 1).val = (y 1).val → x0 y = X k)
    (h1 : x1 = truncf .bf16 W bitsLt_bf16_f32) (h2 : x2 = shapeCast S1x256 B shapeCasts_S256_S1x256)
    (y : S2000x256.Idx) (i : S50000x256.Idx) (hi0 : (i 0).val = 2000 * n + (y 0).val) (hi1 : (i 1).val = (y 1).val) :
    k3_pay1 (F := Ideal) x0 x1 x2 y = Cert.Spec.lin128x256 X W B i := by
  obtain ⟨p, q, rfl⟩ : ∃ (p : Fin 2000) (q : Fin 256), y = ix2 p q := ⟨y 0, y 1, eq_ix2 y⟩
  obtain ⟨r, q', rfl⟩ : ∃ (r : Fin 50000) (q' : Fin 256), i = ix2 r q' := ⟨i 0, i 1, eq_ix2 i⟩
  obtain rfl : q' = q := Fin.ext hi1
  rw [stored_entry, linear_entry]
  have hs : ∀ k : Fin 128, x0 (ix2 p k) * x1 (ix2 k q') = X (ix2 r k) * W (ix2 k q') := fun k => by
    rw [h0 (ix2 p k) (ix2 r k) hi0 rfl, h1, truncf_apply]
  have hb : x2 (ix2 (0 : Fin 1) q') = B (ix1 q') := by
    rw [h2, shapeCast_a_1a_apply]
  rw [Finset.sum_congr rfl fun k _ => hs k, hb]

/-- Every entry of the result lies in a block that is written back: row `r` in the block of point `r / 2000`. -/
theorem rows_covered (i : ((cfg3.win 3).arr.view.loc (c.tc : Thread nD τ)).2.ty.Idx) :
    ∃ t : Fin cfg3.N, (cfg3.win 3).flush t = true ∧ i ∈ ((cfg3.win 3).blk t).view.set := by
  have h0 : (i 0 : Nat) < 50000 := (i 0).isLt
  have h1 : (i 1 : Nat) < 256 := (i 1).isLt
  have hN : cfg3.N = 25 := N_3
  let t : Fin cfg3.N := ⟨(i 0 : Nat) / 2000, by rw [hN]; omega⟩
  obtain ⟨-, -, -, -, -, -, e6, e7⟩ := block_indices t
  refine ⟨t, flush3_3 t, ?_⟩
  show i ∈ ((View.whole main_v81).slice (win3_3.rect t)).set
  rw [View.set_slice_whole, Rect.mem_set_unit]
  intro a
  match a with
  | ⟨0, _⟩ =>
    show win3_3.index t (0 : Fin 2) * 2000 ≤ (i 0 : Nat) ∧ (i 0 : Nat) < win3_3.index t (0 : Fin 2) * 2000 + 2000
    rw [e6]; show (i 0 : Nat) / 2000 * 2000 ≤ (i 0 : Nat) ∧ (i 0 : Nat) < (i 0 : Nat) / 2000 * 2000 + 2000; omega
  | ⟨1, _⟩ =>
    show win3_3.index t (1 : Fin 2) * 256 ≤ (i 1 : Nat) ∧ (i 1 : Nat) < win3_3.index t (1 : Fin 2) * 256 + 256
    rw [e7]; omega

theorem zero_offsets : (![0, 0] : Fin 2 → Nat) = fun _ => 0 := funext fun a => by fin_cases a <;> rfl

/-- What point `t` writes back is block `t` of `x · w + b`, `x` the first array's contents at entry. -/
theorem written_back (V : (c : Dev nD) → (b : Ref sig .tc) → Buf (Elt Ideal) ((c : Thread nD τ).loc b))
    (w : Cert.Spec.RA Cert.ReferenceIdeal.S128x256) (b : Cert.Spec.RA Cert.ReferenceIdeal.S256)
    (hw : V c main_v79 = truncf .bf16 w bitsLt_bf16_f32)
    (hb : V c main_v80 = shapeCast S1x256 b shapeCasts_S256_S1x256) (t : Fin cfg3.N) :
    (dat3 (F := Ideal) V c).flushed 3 t
      = ((cfg3.win 3).blk t).view.read (Elt Ideal) (Cert.Spec.lin128x256 (V c main_v74) w b) := by
  show (cfg3.win 3).cut (grid3.coords t) ((dat3 V c).after 3 t) = _
  rw [after3_3]
  unfold out3_3
  rw [View.canon_unit_zero zero_offsets]
  simp only [View.ld_unit_zero (S := S2000x128) zero_offsets, View.ld_unit_zero (S := S128x256) zero_offsets,
    View.ld_unit_zero (S := S1x256) zero_offsets]
  obtain ⟨-, -, -, -, -, -, e6, e7⟩ := block_indices t
  funext j
  rw [View.read_apply]
  refine block_is_linear (V c main_v74) w b (iblk3 V c 0 t) (iblk3 V c 1 t) (iblk3 V c 2 t) t.val
    (fun y k hk0 hk1 => x_block c (V c main_v74) t y k hk0 hk1)
    ((w_block c (V c main_v79) t).trans hw) ((b_block c (V c main_v80) t).trans hb)
    ((cfg3.win 3).xinj (grid3.coords t) j) (((cfg3.win 3).blk t).view.emb j) ?_ ?_
  · show win3_3.index t (0 : Fin 2) * 2000 + 1 * (j 0).val = 2000 * t.val + (j 0).val
    rw [e6]; omega
  · show win3_3.index t (1 : Fin 2) * 256 + 1 * (j 1).val = (j 1).val
    rw [e7]; omega

end Cert.KernelIdeal.RegVal.Lin3

namespace Cert.KernelIdeal.RegVal

open Idealize.ShloMosaic Idealize.ShloMosaic.TcCoe Idealize.SL.Sem
open Idealize.ShloMosaic.Pipeline (Dat)
open Cert.KernelIdeal Cert.KernelIdeal.Gen

/-- THE RESULT ARRAY after the launch is `x · w + b` of the first array's entry contents, for any entry contents
    whose weight buffer is `w` and whose bias buffer is `b` as a row. -/
theorem lin3 (V : (c : Dev nD) → (b : Ref sig .tc) → Buf (Elt Ideal) ((c : Thread nD τ).loc b)) (c : Dev nD)
    (w : Cert.Spec.RA Cert.ReferenceIdeal.S128x256) (b : Cert.Spec.RA Cert.ReferenceIdeal.S256)
    (hw : V c main_v79 = truncf .bf16 w bitsLt_bf16_f32)
    (hb : V c main_v80 = shapeCast S1x256 b shapeCasts_S256_S1x256) :
    (dat3 (F := Ideal) V c).arrAt 3 cfg3.N = Cert.Spec.lin128x256 (V c main_v74) w b :=
  (dat3 V c).arrAt_eq_of_cover 3 (Cert.Spec.lin128x256 (V c main_v74) w b)
    (fun t _ => Lin3.written_back c V w b hw hb t) (Lin3.rows_covered c)

end Cert.KernelIdeal.RegVal

end
-- ==== Proof.RegBnLin4.lean ====
/-
  The value of one normalise-rectify-then-linear stage, read off the block pipeline.

  The stage takes a 50000 × 256 array x, four vectors over its 256 columns (a mean, a variance, a scale g and a shift β),
  a 256 × 128 weight and a bias over the 128 output columns, and produces the 50000 × 128 array

      y[r, q] = Σ_k max (g[k] · (x[r, k] − mean[k]) · rsqrt (var[k] + 1e-5) + β[k]) 0 · w[k, q]  +  bias[q].

  The pipeline computes it in 25 steps: step t reads rows 2000·t … 2000·t + 1999 of x and the whole of every small
  operand, forms exactly this expression for those rows and writes rows 2000·t … 2000·t + 1999 of the result. Row r of
  the result depends on row r of x only, so each written block is the corresponding block of the whole-array function,
  and the 25 blocks tile the 50000 rows: the result array ends holding the whole-array function. Over the extended
  reals the change of float format before the product is the identity, the product into a zero accumulator is the
  plain sum over the contracted index, and the two reciprocal square roots are one function, so the two sides agree
  term by term.
-/
import proofs.«107430_j24575802868448_1_alg».proof.Proof.FPKernelIdealR4
import proofs.«107430_j24575802868448_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegVal

open Idealize.ShloMosaic Idealize.ShloMosaic.TcCoe Idealize.SL.Sem Idealize.ShloMosaic.ValueIdx Cert.KernelIdeal Cert.KernelIdeal.Gen
open Idealize.ShloMosaic.Pipeline (Dat)

namespace BnLin4

/-- One entry normalised with its column's statistics, scaled, shifted and rectified:
    `max (g · (x − m) · rsqrt (v + 1e-5) + b) 0`. -/
def act (x m v g b : EReal) : EReal :=
  max (g * (x - m) * Ideal.rsqrt (v + Ideal.ofBits .f32 0x3727C5AC#32) + b) (Ideal.ofBits .f32 0x00000000#32)

/-! ## The block product: a row of the left block against a column of the right one -/

/-- The left operand's row coordinate is the output's. -/
theorem klhs_0 (j : S2000x128.Idx) (k : dot_S2000x256_S256x128_S2000x128_1_0_0_1_n_n.contr.Idx) :
    (dot_S2000x256_S256x128_S2000x128_1_0_0_1_n_n.lhsIdx j k 0).val = (j 0).val := by
  simp [DotDims.lhsIdx, dot_S2000x256_S256x128_S2000x128_1_0_0_1_n_n]; rfl

/-- The left operand's column coordinate is the contracted one. -/
theorem klhs_1 (j : S2000x128.Idx) (k : dot_S2000x256_S256x128_S2000x128_1_0_0_1_n_n.contr.Idx) :
    (dot_S2000x256_S256x128_S2000x128_1_0_0_1_n_n.lhsIdx j k 1).val = (k ⟨0, by decide⟩).val :=
  dot_S2000x256_S256x128_S2000x128_1_0_0_1_n_n.lhsIdx_val_of_single rfl j k

/-- The right operand's row coordinate is the contracted one. -/
theorem krhs_0 (j : S2000x128.Idx) (k : dot_S2000x256_S256x128_S2000x128_1_0_0_1_n_n.contr.Idx) :
    (dot_S2000x256_S256x128_S2000x128_1_0_0_1_n_n.rhsIdx j k 0).val = (k ⟨0, by decide⟩).val :=
  dot_S2000x256_S256x128_S2000x128_1_0_0_1_n_n.rhsIdx_val_of_single rfl j k

/-- The right operand's column coordinate is the output's. -/
theorem krhs_1 (j : S2000x128.Idx) (k : dot_S2000x256_S256x128_S2000x128_1_0_0_1_n_n.contr.Idx) :
    (dot_S2000x256_S256x128_S2000x128_1_0_0_1_n_n.rhsIdx j k 1).val = (j 1).val := by
  simp [DotDims.rhsIdx, dot_S2000x256_S256x128_S2000x128_1_0_0_1_n_n]; rfl

/-- The block product into a zero accumulator, entry by entry: the sum over the 256 contracted columns. -/
theorem kmatmul_apply (A : FVec Ideal S2000x256 .bf16) (B : FVec Ideal S256x128 .bf16) (p : Fin 2000) (q : Fin 128) :
    matmul dot_S2000x256_S256x128_S2000x128_1_0_0_1_n_n none A B (constant S2000x128 .f32 0x00000000#32) (ix2 p q)
      = ∑ k : Fin 256, A (ix2 p k) * B (ix2 k q) := by
  show FloatOps.matmul _ none A B _ (ix2 p q) = _
  rw [Ideal.matmul_constant_zero_apply,
    ← Equiv.sum_comp (contrEquiv1 dot_S2000x256_S256x128_S2000x128_1_0_0_1_n_n 256 rfl rfl).symm]
  refine Finset.sum_congr rfl fun k _ => ?_
  have ck := contrEquiv1_symm_val dot_S2000x256_S256x128_S2000x128_1_0_0_1_n_n 256 rfl rfl k
  have hl : dot_S2000x256_S256x128_S2000x128_1_0_0_1_n_n.lhsIdx (ix2 p q) ((contrEquiv1 _ 256 rfl rfl).symm k) = ix2 p k := by
    funext a; apply Fin.ext
    match a with
    | ⟨0, _⟩ => exact klhs_0 _ _
    | ⟨1, _⟩ => exact (klhs_1 _ _).trans ck
  have hr : dot_S2000x256_S256x128_S2000x128_1_0_0_1_n_n.rhsIdx (ix2 p q) ((contrEquiv1 _ 256 rfl rfl).symm k) = ix2 k q := by
    funext a; apply Fin.ext
    match a with
    | ⟨0, _⟩ => exact (krhs_0 _ _).trans ck
    | ⟨1, _⟩ => exact krhs_1 _ _
  rw [hl, hr]

/-- The body's stored value at row `p`, column `q` of the block: the rectified normalised row against column `q` of
    the weight, plus the bias. -/
theorem pay_apply (x0 : Vec Ideal S2000x256 .f32) (x1 x2 x3 x4 : Vec Ideal S1x256 .f32) (x5 : Vec Ideal S256x128 .bf16)
    (x6 : Vec Ideal S1x128 .f32) (p : Fin 2000) (q : Fin 128) :
    k4_pay1 (F := Ideal) x0 x1 x2 x3 x4 x5 x6 (ix2 p q)
      = (∑ k : Fin 256, act (x0 (ix2 p k)) (x1 (ix2 (0 : Fin 1) k)) (x2 (ix2 (0 : Fin 1) k)) (x3 (ix2 (0 : Fin 1) k))
            (x4 (ix2 (0 : Fin 1) k)) * x5 (ix2 k q)) + x6 (ix2 (0 : Fin 1) q) := by
  unfold k4_pay1
  simp only [shapeCast_self]
  rw [addf_apply, kmatmul_apply, broadcastTo_1b_ab_apply]
  congr 1
  refine Finset.sum_congr rfl fun k _ => ?_
  congr 1
  simp only [truncf_apply, maximumf_apply, addf_apply, mulf_apply, subf_apply, broadcastTo_1b_ab_apply, broadcast_apply]
  rfl

/-! ## The whole-array stage at an entry -/

theorem rlhs_0 (j : Cert.ReferenceIdeal.S50000x128.Idx) (k : Cert.ReferenceIdeal.dot_S50000x256_S256x128_S50000x128_1_0_0_1_n_n.contr.Idx) :
    (Cert.ReferenceIdeal.dot_S50000x256_S256x128_S50000x128_1_0_0_1_n_n.lhsIdx j k 0).val = (j 0).val := by
  simp [DotDims.lhsIdx, Cert.ReferenceIdeal.dot_S50000x256_S256x128_S50000x128_1_0_0_1_n_n]; rfl

theorem rlhs_1 (j : Cert.ReferenceIdeal.S50000x128.Idx) (k : Cert.ReferenceIdeal.dot_S50000x256_S256x128_S50000x128_1_0_0_1_n_n.contr.Idx) :
    (Cert.ReferenceIdeal.dot_S50000x256_S256x128_S50000x128_1_0_0_1_n_n.lhsIdx j k 1).val = (k ⟨0, by decide⟩).val :=
  Cert.ReferenceIdeal.dot_S50000x256_S256x128_S50000x128_1_0_0_1_n_n.lhsIdx_val_of_single rfl j k

theorem rrhs_0 (j : Cert.ReferenceIdeal.S50000x128.Idx) (k : Cert.ReferenceIdeal.dot_S50000x256_S256x128_S50000x128_1_0_0_1_n_n.contr.Idx) :
    (Cert.ReferenceIdeal.dot_S50000x256_S256x128_S50000x128_1_0_0_1_n_n.rhsIdx j k 0).val = (k ⟨0, by decide⟩).val :=
  Cert.ReferenceIdeal.dot_S50000x256_S256x128_S50000x128_1_0_0_1_n_n.rhsIdx_val_of_single rfl j k

theorem rrhs_1 (j : Cert.ReferenceIdeal.S50000x128.Idx) (k : Cert.ReferenceIdeal.dot_S50000x256_S256x128_S50000x128_1_0_0_1_n_n.contr.Idx) :
    (Cert.ReferenceIdeal.dot_S50000x256_S256x128_S50000x128_1_0_0_1_n_n.rhsIdx j k 1).val = (j 1).val := by
  simp [DotDims.rhsIdx, Cert.ReferenceIdeal.dot_S50000x256_S256x128_S50000x128_1_0_0_1_n_n]; rfl

/-- The whole-array product, entry by entry: the sum over the 256 contracted columns. -/
theorem rdot_apply (A : FVec Ideal Cert.ReferenceIdeal.S50000x256 .f32) (B : FVec Ideal Cert.ReferenceIdeal.S256x128 .f32) (r : Fin 50000) (q : Fin 128) :
    Host.dotGeneral Cert.ReferenceIdeal.dot_S50000x256_S256x128_S50000x128_1_0_0_1_n_n none A B (ix2 r q)
      = ∑ k : Fin 256, A (ix2 r k) * B (ix2 k q) := by
  show FloatOps.dotGeneral _ none _ A B (ix2 r q) = _
  rw [Ideal.dotGeneral_apply,
    ← Equiv.sum_comp (contrEquiv1 Cert.ReferenceIdeal.dot_S50000x256_S256x128_S50000x128_1_0_0_1_n_n 256 rfl rfl).symm]
  refine Finset.sum_congr rfl fun k _ => ?_
  have ck := contrEquiv1_symm_val Cert.ReferenceIdeal.dot_S50000x256_S256x128_S50000x128_1_0_0_1_n_n 256 rfl rfl k
  have hl : Cert.ReferenceIdeal.dot_S50000x256_S256x128_S50000x128_1_0_0_1_n_n.lhsIdx (ix2 r q) ((contrEquiv1 _ 256 rfl rfl).symm k) = ix2 r k := by
    funext a; apply Fin.ext
    match a with
    | ⟨0, _⟩ => exact rlhs_0 _ _
    | ⟨1, _⟩ => exact (rlhs_1 _ _).trans ck
  have hr : Cert.ReferenceIdeal.dot_S50000x256_S256x128_S50000x128_1_0_0_1_n_n.rhsIdx (ix2 r q) ((contrEquiv1 _ 256 rfl rfl).symm k) = ix2 k q := by
    funext a; apply Fin.ext
    match a with
    | ⟨0, _⟩ => exact (rrhs_0 _ _).trans ck
    | ⟨1, _⟩ => exact rrhs_1 _ _
  rw [hl, hr]

/-- A vector over the 256 columns laid out as one row and copied down the 50000 rows reads, at `(r, k)`, its entry `k`. -/
theorem rowB256_apply (v : FVec Ideal Cert.ReferenceIdeal.S256 .f32)
    (h1 : Cert.ReferenceIdeal.S256.BroadcastsInDim Cert.ReferenceIdeal.S1x256 (![1] : Fin 1 → Fin Cert.ReferenceIdeal.S1x256.rank))
    (h2 : Cert.ReferenceIdeal.S1x256.BroadcastsInDim Cert.ReferenceIdeal.S50000x256 (![0, 1] : Fin 2 → Fin Cert.ReferenceIdeal.S50000x256.rank))
    (r : Fin 50000) (k : Fin 256) :
    broadcastInDim Cert.ReferenceIdeal.S50000x256 ![0, 1] h2 (broadcastInDim Cert.ReferenceIdeal.S1x256 ![1] h1 v) (ix2 r k) = v (ix1 k) := by
  refine (broadcastInDim_apply _ h2 _ (ix2 r k) (ix2 (0 : Fin 1) k) fun a => ?_).trans
    (broadcastInDim_apply _ h1 v (ix2 (0 : Fin 1) k) (ix1 k) fun a => ?_)
  · match a with
    | ⟨0, _⟩ => rfl
    | ⟨1, _⟩ => rfl
  · match a with
    | ⟨0, _⟩ => rfl

/-- The same for a vector over the 128 output columns. -/
theorem rowB128_apply (v : FVec Ideal Cert.ReferenceIdeal.S128 .f32)
    (h1 : Cert.ReferenceIdeal.S128.BroadcastsInDim Cert.ReferenceIdeal.S1x128 (![1] : Fin 1 → Fin Cert.ReferenceIdeal.S1x128.rank))
    (h2 : Cert.ReferenceIdeal.S1x128.BroadcastsInDim Cert.ReferenceIdeal.S50000x128 (![0, 1] : Fin 2 → Fin Cert.ReferenceIdeal.S50000x128.rank))
    (r : Fin 50000) (k : Fin 128) :
    broadcastInDim Cert.ReferenceIdeal.S50000x128 ![0, 1] h2 (broadcastInDim Cert.ReferenceIdeal.S1x128 ![1] h1 v) (ix2 r k) = v (ix1 k) := by
  refine (broadcastInDim_apply _ h2 _ (ix2 r k) (ix2 (0 : Fin 1) k) fun a => ?_).trans
    (broadcastInDim_apply _ h1 v (ix2 (0 : Fin 1) k) (ix1 k) fun a => ?_)
  · match a with
    | ⟨0, _⟩ => rfl
    | ⟨1, _⟩ => rfl
  · match a with
    | ⟨0, _⟩ => rfl

/-- The whole-array stage at row `r`, column `q`. -/
theorem spec_apply (X : Cert.Spec.RA Cert.ReferenceIdeal.S50000x256) (mean var g beta : Cert.Spec.RA Cert.ReferenceIdeal.S256)
    (w : Cert.Spec.RA Cert.ReferenceIdeal.S256x128) (b : Cert.Spec.RA Cert.ReferenceIdeal.S128) (r : Fin 50000) (q : Fin 128) :
    Cert.Spec.lin256x128 (Cert.Spec.bnrelu256 X mean var g beta) w b (ix2 r q)
      = (∑ k : Fin 256, act (X (ix2 r k)) (mean (ix1 k)) (var (ix1 k)) (g (ix1 k)) (beta (ix1 k)) * w (ix2 k q)) + b (ix1 q) := by
  unfold Cert.Spec.lin256x128 Cert.Spec.bnrelu256
  rw [addf_apply, rdot_apply, rowB128_apply]
  congr 1
  refine Finset.sum_congr rfl fun k _ => ?_
  congr 1
  rw [maximumf_apply, addf_apply, mulf_apply, mulf_apply, subf_apply, rowB256_apply, rowB256_apply, rowB256_apply, rowB256_apply]
  rfl

/-! ## A block of the pipeline against the rows of the whole array it stands for -/

/-- If a block `xb` holds the rows of `X` from some row on, and the small blocks hold the statistics, the parameters,
    the weight and the bias, then the body's stored value at `(p, q)` is the whole-array stage at the row `r` that
    block row `p` stands for. -/
theorem block_value (xb : Vec Ideal S2000x256 .f32) (mb vb gb bb : Vec Ideal S1x256 .f32) (wb : Vec Ideal S256x128 .bf16)
    (cb : Vec Ideal S1x128 .f32)
    (X : Cert.Spec.RA Cert.ReferenceIdeal.S50000x256) (mean var g beta : Cert.Spec.RA Cert.ReferenceIdeal.S256)
    (w : Cert.Spec.RA Cert.ReferenceIdeal.S256x128) (b : Cert.Spec.RA Cert.ReferenceIdeal.S128) (p : Fin 2000) (q : Fin 128) (r : Fin 50000)
    (hx : ∀ k : Fin 256, xb (ix2 p k) = X (ix2 r k))
    (hm : ∀ k : Fin 256, mb (ix2 (0 : Fin 1) k) = mean (ix1 k)) (hv : ∀ k : Fin 256, vb (ix2 (0 : Fin 1) k) = var (ix1 k))
    (hg : ∀ k : Fin 256, gb (ix2 (0 : Fin 1) k) = g (ix1 k)) (hb : ∀ k : Fin 256, bb (ix2 (0 : Fin 1) k) = beta (ix1 k))
    (hw : ∀ k : Fin 256, wb (ix2 k q) = w (ix2 k q)) (hc : cb (ix2 (0 : Fin 1) q) = b (ix1 q)) :
    k4_pay1 (F := Ideal) xb mb vb gb bb wb cb (ix2 p q)
      = Cert.Spec.lin256x128 (Cert.Spec.bnrelu256 X mean var g beta) w b (ix2 r q) := by
  rw [pay_apply, spec_apply, hc]
  congr 1
  refine Finset.sum_congr rfl fun k _ => ?_
  rw [hx k, hm k, hv k, hg k, hb k, hw k]

/-! ## The pipeline's blocks as parts of the arrays -/

variable (V : (c : Dev nD) → (b : Ref sig .tc) → Buf (Elt Ideal) ((c : Thread nD τ).loc b))

theorem hz : (![0, 0] : Fin 2 → Nat) = fun _ => 0 := funext fun a => by fin_cases a <;> rfl

/-- The block index maps, decided over the 25 steps: the row-tiled operand and the result sit at block `(t, 0)`,
    every small operand at block `(0, 0)`. -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = t.val ∧ win4_7.index t (1 : Fin 2) = 0 :=
  (by decide +kernel : ∀ t : Fin grid4.N, _)

/-- Row `p` of the row-tiled operand's block at step `t` is row `2000·t + p` of the array. -/
theorem xblk_apply (c : Dev nD) (t : Fin cfg4.N) (p : Fin 2000) (k : Fin 256) (i : S50000x256.Idx)
    (h0 : (i 0).val = 2000 * t.val + p.val) (h1 : (i 1).val = k.val) :
    (iblk4 V c 0 t : Vec Ideal S2000x256 .f32) (ix2 p k) = (V c main_v81 : S50000x256.Idx → Elt Ideal .f32) i := by
  obtain ⟨e0, e1, -⟩ := idx_facts t
  unfold iblk4
  rw [View.read_apply]
  show V c main_v81 _ = V c main_v81 i
  congr 1
  funext a
  apply Fin.ext
  match a with
  | ⟨0, _⟩ => show win4_0.index t (0 : Fin 2) * 2000 + 1 * p.val = (i 0).val; rw [e0, h0]; omega
  | ⟨1, _⟩ => show win4_0.index t (1 : Fin 2) * 256 + 1 * k.val = (i 1).val; rw [e1, h1]; omega

/-- A small operand's one block is its whole array, at every step. -/
theorem blk1_eq (c : Dev nD) (t : Fin cfg4.N) :
    (iblk4 V c 1 t : Vec Ideal S1x256 .f32) = V c main_v96 := by
  obtain ⟨-, -, e0, e1, -⟩ := idx_facts t
  unfold iblk4
  funext y
  rw [View.read_apply]
  show V c main_v96 _ = V c main_v96 y
  congr 1
  funext a
  apply Fin.ext
  match a with
  | ⟨0, _⟩ => show win4_1.index t (0 : Fin 2) * 1 + 1 * (y 0).val = (y 0).val; rw [e0]; omega
  | ⟨1, _⟩ => show win4_1.index t (1 : Fin 2) * 256 + 1 * (y 1).val = (y 1).val; rw [e1]; omega

theorem blk2_eq (c : Dev nD) (t : Fin cfg4.N) :
    (iblk4 V c 2 t : Vec Ideal S1x256 .f32) = V c main_v97 := by
  obtain ⟨-, -, -, -, e0, e1, -⟩ := idx_facts t
  unfold iblk4
  funext y
  rw [View.read_apply]
  show V c main_v97 _ = V c main_v97 y
  congr 1
  funext a
  apply Fin.ext
  match a with
  | ⟨0, _⟩ => show win4_2.index t (0 : Fin 2) * 1 + 1 * (y 0).val = (y 0).val; rw [e0]; omega
  | ⟨1, _⟩ => show win4_2.index t (1 : Fin 2) * 256 + 1 * (y 1).val = (y 1).val; rw [e1]; omega

theorem blk3_eq (c : Dev nD) (t : Fin cfg4.N) :
    (iblk4 V c 3 t : Vec Ideal S1x256 .f32) = V c main_v98 := by
  obtain ⟨-, -, -, -, -, -, e0, e1, -⟩ := idx_facts t
  unfold iblk4
  funext y
  rw [View.read_apply]
  show V c main_v98 _ = V c main_v98 y
  congr 1
  funext a
  apply Fin.ext
  match a with
  | ⟨0, _⟩ => show win4_3.index t (0 : Fin 2) * 1 + 1 * (y 0).val = (y 0).val; rw [e0]; omega
  | ⟨1, _⟩ => show win4_3.index t (1 : Fin 2) * 256 + 1 * (y 1).val = (y 1).val; rw [e1]; omega

theorem blk4_eq (c : Dev nD) (t : Fin cfg4.N) :
    (iblk4 V c 4 t : Vec Ideal S1x256 .f32) = V c main_v99 := by
  obtain ⟨-, -, -, -, -, -, -, -, e0, e1, -⟩ := idx_facts t
  unfold iblk4
  funext y
  rw [View.read_apply]
  show V c main_v99 _ = V c main_v99 y
  congr 1
  funext a
  apply Fin.ext
  match a with
  | ⟨0, _⟩ => show win4_4.index t (0 : Fin 2) * 1 + 1 * (y 0).val = (y 0).val; rw [e0]; omega
  | ⟨1, _⟩ => show win4_4.index t (1 : Fin 2) * 256 + 1 * (y 1).val = (y 1).val; rw [e1]; omega

theorem blk5_eq (c : Dev nD) (t : Fin cfg4.N) :
    (iblk4 V c 5 t : Vec Ideal S256x128 .bf16) = V c main_v94 := by
  obtain ⟨-, -, -, -, -, -, -, -, -, -, e0, e1, -⟩ := idx_facts t
  unfold iblk4
  funext y
  rw [View.read_apply]
  show V c main_v94 _ = V c main_v94 y
  congr 1
  funext a
  apply Fin.ext
  match a with
  | ⟨0, _⟩ => show win4_5.index t (0 : Fin 2) * 256 + 1 * (y 0).val = (y 0).val; rw [e0]; omega
  | ⟨1, _⟩ => show win4_5.index t (1 : Fin 2) * 128 + 1 * (y 1).val = (y 1).val; rw [e1]; omega

theorem blk6_eq (c : Dev nD) (t : Fin cfg4.N) :
    (iblk4 V c 6 t : Vec Ideal S1x128 .f32) = V c main_v95 := by
  obtain ⟨-, -, -, -, -, -, -, -, -, -, -, -, e0, e1, -⟩ := idx_facts t
  unfold iblk4
  funext y
  rw [View.read_apply]
  show V c main_v95 _ = V c main_v95 y
  congr 1
  funext a
  apply Fin.ext
  match a with
  | ⟨0, _⟩ => show win4_6.index t (0 : Fin 2) * 1 + 1 * (y 0).val = (y 0).val; rw [e0]; omega
  | ⟨1, _⟩ => show win4_6.index t (1 : Fin 2) * 128 + 1 * (y 1).val = (y 1).val; rw [e1]; omega

/-! ## What each step writes back, and the array after the last step -/

/-- Step `t` writes back rows `2000·t … 2000·t + 1999` of the whole-array stage. -/
theorem flushed_eq (c : Dev nD) (mean var g beta : Cert.Spec.RA Cert.ReferenceIdeal.S256) (w : Cert.Spec.RA Cert.ReferenceIdeal.S256x128) (b : Cert.Spec.RA Cert.ReferenceIdeal.S128)
    (h1 : V c main_v96 = shapeCast S1x256 mean shapeCasts_S256_S1x256) (h2 : V c main_v97 = shapeCast S1x256 var shapeCasts_S256_S1x256)
    (h3 : V c main_v98 = shapeCast S1x256 g shapeCasts_S256_S1x256) (h4 : V c main_v99 = shapeCast S1x256 beta shapeCasts_S256_S1x256)
    (hw : V c main_v94 = truncf .bf16 w bitsLt_bf16_f32) (hb : V c main_v95 = shapeCast S1x128 b shapeCasts_S128_S1x128)
    (t : Fin cfg4.N) :
    (dat4 (F := Ideal) V c).flushed 7 t = ((cfg4.win 7).blk t).view.read (Elt Ideal) (Cert.Spec.lin256x128 (Cert.Spec.bnrelu256 (V c main_v81) mean var g beta) w b) := by
  show (cfg4.win 7).cut (grid4.coords t) ((dat4 V c).after 7 t) = _
  rw [after4_7]
  unfold out4_7
  rw [View.canon_unit_zero hz]
  simp only [View.ld_unit_zero (S := S2000x256) hz, View.ld_unit_zero (S := S1x256) hz, View.ld_unit_zero (S := S256x128) hz,
    View.ld_unit_zero (S := S1x128) hz]
  rw [blk1_eq V c t, blk2_eq V c t, blk3_eq V c t, blk4_eq V c t, blk5_eq V c t, blk6_eq V c t]
  have ht : t.val < 25 := lt_of_lt_of_eq t.isLt N_4
  obtain ⟨-, -, -, -, -, -, -, -, -, -, -, -, -, -, e0, e1⟩ := idx_facts t
  funext y
  obtain ⟨p, q, rfl⟩ : ∃ (p : Fin 2000) (q : Fin 128), y = ix2 p q := ⟨y 0, y 1, eq_ix2 y⟩
  have hr : 2000 * t.val + p.val < 50000 := by have hp := p.isLt; omega
  have hemb : ((cfg4.win 7).blk t).view.emb (ix2 p q) = ix2 (⟨2000 * t.val + p.val, hr⟩ : Fin 50000) q := by
    funext a
    apply Fin.ext
    match a with
    | ⟨0, _⟩ => show win4_7.index t (0 : Fin 2) * 2000 + 1 * p.val = 2000 * t.val + p.val; rw [e0]; omega
    | ⟨1, _⟩ => show win4_7.index t (1 : Fin 2) * 128 + 1 * q.val = q.val; rw [e1]; omega
  rw [View.read_apply, hemb]
  exact block_value (iblk4 V c 0 t) (V c main_v96) (V c main_v97) (V c main_v98) (V c main_v99) (V c main_v94) (V c main_v95)
    (V c main_v81) mean var g beta w b p q ⟨2000 * t.val + p.val, hr⟩
    (fun k => xblk_apply V c t p k _ rfl rfl)
    (fun k => (congrFun h1 _).trans (shapeCast_a_1a_apply mean _ 0 k))
    (fun k => (congrFun h2 _).trans (shapeCast_a_1a_apply var _ 0 k))
    (fun k => (congrFun h3 _).trans (shapeCast_a_1a_apply g _ 0 k))
    (fun k => (congrFun h4 _).trans (shapeCast_a_1a_apply beta _ 0 k))
    (fun k => congrFun hw _)
    ((congrFun hb _).trans (shapeCast_a_1a_apply b _ 0 q))

/-- Row `r` of the result lies in the block of step `r / 2000`, which is written back. -/
theorem cover (i : S50000x128.Idx) :
    ∃ t : Fin cfg4.N, (cfg4.win 7).flush t = true ∧ i ∈ ((cfg4.win 7).blk t).view.set := by
  have hi0 : (i 0).val < 50000 := (i 0).isLt
  have hi1 : (i 1).val < 128 := (i 1).isLt
  have hN : cfg4.N = 25 := N_4
  have ht0 : (i 0).val / 2000 < cfg4.N := by rw [hN]; omega
  refine ⟨⟨(i 0).val / 2000, ht0⟩, flush4_7 _, ?_⟩
  obtain ⟨-, -, -, -, -, -, -, -, -, -, -, -, -, -, e0, e1⟩ := idx_facts ⟨(i 0).val / 2000, ht0⟩
  have e0' : win4_7.index ⟨(i 0).val / 2000, ht0⟩ (0 : Fin 2) = (i 0).val / 2000 := e0
  show i ∈ ((View.whole main_v100).slice (win4_7.rect ⟨(i 0).val / 2000, ht0⟩)).set
  rw [View.set_slice_whole, Rect.mem_set_unit]
  intro a
  match a with
  | ⟨0, _⟩ =>
    show win4_7.index ⟨(i 0).val / 2000, ht0⟩ (0 : Fin 2) * 2000 ≤ (i 0).val
      ∧ (i 0).val < win4_7.index ⟨(i 0).val / 2000, ht0⟩ (0 : Fin 2) * 2000 + 2000
    rw [e0']; omega
  | ⟨1, _⟩ =>
    show win4_7.index ⟨(i 0).val / 2000, ht0⟩ (1 : Fin 2) * 128 ≤ (i 1).val
      ∧ (i 1).val < win4_7.index ⟨(i 0).val / 2000, ht0⟩ (1 : Fin 2) * 128 + 128
    rw [e1]; omega

end BnLin4

/-- After the 25 steps the result array holds the whole-array stage of the row-tiled operand as the stage found it:
    the normalisation with the given statistics, the rectifier, the product with the weight and the bias. -/
theorem bnlin4 (V : (c : Dev nD) → (b : Ref sig .tc) → Buf (Elt Ideal) ((c : Thread nD τ).loc b)) (c : Dev nD)
    (mean var g beta : Cert.Spec.RA Cert.ReferenceIdeal.S256) (w : Cert.Spec.RA Cert.ReferenceIdeal.S256x128) (b : Cert.Spec.RA Cert.ReferenceIdeal.S128)
    (h1 : V c main_v96 = shapeCast S1x256 mean shapeCasts_S256_S1x256) (h2 : V c main_v97 = shapeCast S1x256 var shapeCasts_S256_S1x256)
    (h3 : V c main_v98 = shapeCast S1x256 g shapeCasts_S256_S1x256) (h4 : V c main_v99 = shapeCast S1x256 beta shapeCasts_S256_S1x256)
    (hw : V c main_v94 = truncf .bf16 w bitsLt_bf16_f32) (hb : V c main_v95 = shapeCast S1x128 b shapeCasts_S128_S1x128) :
    (dat4 (F := Ideal) V c).arrAt 7 cfg4.N = Cert.Spec.lin256x128 (Cert.Spec.bnrelu256 (V c main_v81) mean var g beta) w b :=
  (dat4 (F := Ideal) V c).arrAt_eq_of_cover 7 (Cert.Spec.lin256x128 (Cert.Spec.bnrelu256 (V c main_v81) mean var g beta) w b)
    (fun t _ => BnLin4.flushed_eq V c mean var g beta w b h1 h2 h3 h4 hw hb t) BnLin4.cover

end Cert.KernelIdeal.RegVal

end
-- ==== Proof.RegBn5.lean ====
/-
  The value of the network's sixth block-wise step: a normalise-and-rectify step on a 50000 × 128 array.

  The step walks 25 row blocks of 2000 rows. At block t it reads rows 2000·t … 2000·t + 1999 of the array x and the four
  1 × 128 rows mean, var, g, β whole, and writes, to the same rows of its result,
      max (g · (x − mean) · rsqrt (var + 1e-5) + β) 0,
  each row laid over the 2000 rows of the block. When the four rows are the reshapes [128] → [1, 128] of four column
  vectors, this is, entry by entry, what the whole-array normalise-and-rectify function of those column vectors gives at
  the entry (2000·t + p, q): there each vector is first laid out as a 1 × 128 row and then over all 50000 rows, so both
  sides read column q of the vector; the difference, the products, the sum and the maximum are the extended reals' on
  both sides, and so is the reciprocal square root. The 25 blocks cover every row (row r lies in block r / 2000), so after
  the step the result array is that function of the array x as the step found it, whatever the other buffers held.

  In order: the whole-array function at an entry; the block function at an entry, and the two joined; each window's
  block at a point as entries of its array; the block a point writes back; the cover; the array after the step.
-/
import proofs.«107430_j24575802868448_1_alg».proof.Proof.FPKernelIdealR5
import proofs.«107430_j24575802868448_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.RegVal

open Idealize.ShloMosaic Idealize.ShloMosaic.TcCoe Idealize.SL.Sem Cert.KernelIdeal Cert.KernelIdeal.Gen
open Idealize.ShloMosaic.Pipeline (Dat)
open Idealize.ShloMosaic.ValueIdx

/-! ## The whole-array function at an entry -/

/-- A vector over the 128 columns, laid out as one row and that row over the 50000 rows, reads column `q` of the vector
    at the entry `(r, q)`. -/
theorem bn5_rows (v : Cert.Spec.RA Cert.ReferenceIdeal.S128)
    (hb : Cert.ReferenceIdeal.S128.BroadcastsInDim Cert.ReferenceIdeal.S1x128 (![1] : Fin 1 → Fin Cert.ReferenceIdeal.S1x128.rank))
    (hB : Cert.ReferenceIdeal.S1x128.BroadcastsInDim Cert.ReferenceIdeal.S50000x128 (![0, 1] : Fin 2 → Fin Cert.ReferenceIdeal.S50000x128.rank))
    (r : Fin 50000) (q : Fin 128) :
    broadcastInDim Cert.ReferenceIdeal.S50000x128 ![0, 1] hB (broadcastInDim Cert.ReferenceIdeal.S1x128 ![1] hb v) (ix2 r q) = v (ix1 q) := by
  refine (broadcastInDim_apply _ hB _ (ix2 r q) (ix2 (0 : Fin 1) q) fun a => ?_).trans ?_
  · match a with
    | ⟨0, _⟩ => rfl
    | ⟨1, _⟩ => rfl
  · refine broadcastInDim_apply _ hb v (ix2 (0 : Fin 1) q) (ix1 q) fun a => ?_
    match a with
    | ⟨0, _⟩ => rfl

/-- The normalise-and-rectify function of a whole array at the entry `(r, q)`:
    `max (g q · (x (r, q) − mean q) · rsqrt (var q + 1e-5) + β q) 0`. -/
theorem bn5_spec_at (x : Cert.Spec.RA Cert.ReferenceIdeal.S50000x128) (mean var g beta : Cert.Spec.RA Cert.ReferenceIdeal.S128)
    (r : Fin 50000) (q : Fin 128) :
    Cert.Spec.bnrelu128 x mean var g beta (ix2 r q)
      = max (g (ix1 q) * (x (ix2 r q) - mean (ix1 q)) * Ideal.rsqrt (var (ix1 q) + Ideal.ofBits .f32 0x3727C5AC#32) + beta (ix1 q))
          (Ideal.ofBits .f32 0x00000000#32) := by
  unfold Cert.Spec.bnrelu128
  rw [maximumf_apply, addf_apply, mulf_apply, mulf_apply, subf_apply, bn5_rows, bn5_rows, bn5_rows, bn5_rows]
  rfl

/-! ## The block function at an entry -/

/-- What one grid point computes from its blocks, at the entry `(p, q)` of the block: the same expression, each
    1 × 128 row read at column `q`. -/
theorem bn5_pay_at (x0 : Vec Ideal S2000x128 .f32) (x1 x2 x3 x4 : Vec Ideal S1x128 .f32) (p : Fin 2000) (q : Fin 128) :
    k5_pay1 (F := Ideal) x0 x1 x2 x3 x4 (ix2 p q)
      = max (x3 (ix2 (0 : Fin 1) q) * (x0 (ix2 p q) - x1 (ix2 (0 : Fin 1) q)) * Ideal.rsqrt (x2 (ix2 (0 : Fin 1) q) + Ideal.ofBits .f32 0x3727C5AC#32)
              + x4 (ix2 (0 : Fin 1) q))
          (Ideal.ofBits .f32 0x00000000#32) := by
  unfold k5_pay1
  simp only [shapeCast_self]
  rw [maximumf_apply, addf_apply, mulf_apply, mulf_apply, subf_apply, broadcastTo_1b_ab_apply, broadcastTo_1b_ab_apply,
    broadcastTo_1b_ab_apply, broadcastTo_1b_ab_apply]
  rfl

/-- ONE ENTRY. If the block of `x` holds at `y` what the array holds at `i`, `i` and `y` in the same column, and the four
    rows are the column vectors reshaped, the block function at `y` is the whole-array function at `i`. -/
theorem bn5_entry (x0 : Vec Ideal S2000x128 .f32) (x1 x2 x3 x4 : Vec Ideal S1x128 .f32)
    (X : Cert.Spec.RA Cert.ReferenceIdeal.S50000x128) (mean var g beta : Cert.Spec.RA Cert.ReferenceIdeal.S128)
    (e1 : x1 = shapeCast S1x128 mean shapeCasts_S128_S1x128) (e2 : x2 = shapeCast S1x128 var shapeCasts_S128_S1x128)
    (e3 : x3 = shapeCast S1x128 g shapeCasts_S128_S1x128) (e4 : x4 = shapeCast S1x128 beta shapeCasts_S128_S1x128)
    (y : S2000x128.Idx) (i : S50000x128.Idx) (hx : x0 y = X i) (hcol : (i 1).val = (y 1).val) :
    k5_pay1 (F := Ideal) x0 x1 x2 x3 x4 y = Cert.Spec.bnrelu128 X mean var g beta i := by
  obtain ⟨p, q, rfl⟩ : ∃ (p : Fin 2000) (q : Fin 128), y = ix2 p q := ⟨y 0, y 1, eq_ix2 y⟩
  obtain ⟨r, s, rfl⟩ : ∃ (r : Fin 50000) (s : Fin 128), i = ix2 r s := ⟨i 0, i 1, eq_ix2 i⟩
  obtain rfl : s = q := Fin.ext hcol
  rw [bn5_pay_at, bn5_spec_at, hx, e1, e2, e3, e4, shapeCast_a_1a_apply, shapeCast_a_1a_apply, shapeCast_a_1a_apply, shapeCast_a_1a_apply]

/-! ## The windows' blocks as entries of their arrays -/

theorem bn5_zero : (![0, 0] : Fin 2 → Nat) = fun _ => 0 := funext fun a => by fin_cases a <;> rfl

/-- The block indices over the 25 points: point `t` takes row block `t` of `x` and of the result, and the one block of each
    row vector. -/
theorem bn5_idx : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

variable (V : (c : Dev nD) → (b : Ref sig .tc) → Buf (Elt Ideal) ((c : Thread nD τ).loc b))

/-- The block of `x` at point `t` holds rows `2000 t … 2000 t + 1999` of `x`. -/
theorem bn5_blk_x (c : Dev nD) (t : Fin cfg5.N) (y : S2000x128.Idx) (i : S50000x128.Idx)
    (h0 : (i 0).val = 2000 * t.val + (y 0).val) (h1 : (i 1).val = (y 1).val) :
    (iblk5 V c 0 t : Vec Ideal S2000x128 .f32) y = (V c main_v100 : S50000x128.Idx → Elt Ideal .f32) i := by
  obtain ⟨e0, e1, -⟩ := bn5_idx t
  unfold iblk5
  rw [View.read_apply]
  show V c main_v100 _ = V c main_v100 _
  congr 1
  funext a
  apply Fin.ext
  match a with
  | ⟨0, _⟩ => show win5_0.index t (0 : Fin 2) * 2000 + 1 * (y 0).val = (i 0).val; rw [e0, h0]; omega
  | ⟨1, _⟩ => show win5_0.index t (1 : Fin 2) * 128 + 1 * (y 1).val = (i 1).val; rw [e1, h1]; omega

/-- The block of the mean row at any point is the whole row. -/
theorem bn5_blk_1 (c : Dev nD) (t : Fin cfg5.N) :
    (iblk5 V c 1 t : Vec Ideal S1x128 .f32) = (V c main_v109 : S1x128.Idx → Elt Ideal .f32) := by
  obtain ⟨-, -, e0, e1, -⟩ := bn5_idx t
  funext z
  unfold iblk5
  rw [View.read_apply]
  show V c main_v109 _ = V c main_v109 _
  congr 1
  funext a
  apply Fin.ext
  match a with
  | ⟨0, _⟩ => show win5_1.index t (0 : Fin 2) * 1 + 1 * (z 0).val = (z 0).val; rw [e0]; omega
  | ⟨1, _⟩ => show win5_1.index t (1 : Fin 2) * 128 + 1 * (z 1).val = (z 1).val; rw [e1]; omega

/-- The block of the variance row at any point is the whole row. -/
theorem bn5_blk_2 (c : Dev nD) (t : Fin cfg5.N) :
    (iblk5 V c 2 t : Vec Ideal S1x128 .f32) = (V c main_v110 : S1x128.Idx → Elt Ideal .f32) := by
  obtain ⟨-, -, -, -, e0, e1, -⟩ := bn5_idx t
  funext z
  unfold iblk5
  rw [View.read_apply]
  show V c main_v110 _ = V c main_v110 _
  congr 1
  funext a
  apply Fin.ext
  match a with
  | ⟨0, _⟩ => show win5_2.index t (0 : Fin 2) * 1 + 1 * (z 0).val = (z 0).val; rw [e0]; omega
  | ⟨1, _⟩ => show win5_2.index t (1 : Fin 2) * 128 + 1 * (z 1).val = (z 1).val; rw [e1]; omega

/-- The block of the scale row at any point is the whole row. -/
theorem bn5_blk_3 (c : Dev nD) (t : Fin cfg5.N) :
    (iblk5 V c 3 t : Vec Ideal S1x128 .f32) = (V c main_v111 : S1x128.Idx → Elt Ideal .f32) := by
  obtain ⟨-, -, -, -, -, -, e0, e1, -⟩ := bn5_idx t
  funext z
  unfold iblk5
  rw [View.read_apply]
  show V c main_v111 _ = V c main_v111 _
  congr 1
  funext a
  apply Fin.ext
  match a with
  | ⟨0, _⟩ => show win5_3.index t (0 : Fin 2) * 1 + 1 * (z 0).val = (z 0).val; rw [e0]; omega
  | ⟨1, _⟩ => show win5_3.index t (1 : Fin 2) * 128 + 1 * (z 1).val = (z 1).val; rw [e1]; omega

/-- The block of the shift row at any point is the whole row. -/
theorem bn5_blk_4 (c : Dev nD) (t : Fin cfg5.N) :
    (iblk5 V c 4 t : Vec Ideal S1x128 .f32) = (V c main_v112 : S1x128.Idx → Elt Ideal .f32) := by
  obtain ⟨-, -, -, -, -, -, -, -, e0, e1, -⟩ := bn5_idx t
  funext z
  unfold iblk5
  rw [View.read_apply]
  show V c main_v112 _ = V c main_v112 _
  congr 1
  funext a
  apply Fin.ext
  match a with
  | ⟨0, _⟩ => show win5_4.index t (0 : Fin 2) * 1 + 1 * (z 0).val = (z 0).val; rw [e0]; omega
  | ⟨1, _⟩ => show win5_4.index t (1 : Fin 2) * 128 + 1 * (z 1).val = (z 1).val; rw [e1]; omega

/-! ## What a point writes back, the cover, and the array after the step -/

/-- Point `t` writes back block `t` of the whole-array function of `x` as the step found it. -/
theorem bn5_flushed (c : Dev nD) (mean var g beta : Cert.Spec.RA Cert.ReferenceIdeal.S128)
    (h1 : V c main_v109 = shapeCast S1x128 mean shapeCasts_S128_S1x128) (h2 : V c main_v110 = shapeCast S1x128 var shapeCasts_S128_S1x128)
    (h3 : V c main_v111 = shapeCast S1x128 g shapeCasts_S128_S1x128) (h4 : V c main_v112 = shapeCast S1x128 beta shapeCasts_S128_S1x128)
    (t : Fin cfg5.N) :
    (dat5 (F := Ideal) V c).flushed 5 t
      = ((cfg5.win 5).blk t).view.read (Elt Ideal) (Cert.Spec.bnrelu128 (V c main_v100) mean var g beta) := by
  show (cfg5.win 5).cut (grid5.coords t) ((dat5 V c).after 5 t) = _
  rw [after5_5]
  unfold out5_5
  rw [View.canon_unit_zero bn5_zero]
  simp only [View.ld_unit_zero (S := S2000x128) bn5_zero, View.ld_unit_zero (S := S1x128) bn5_zero]
  obtain ⟨-, -, -, -, -, -, -, -, -, -, e0, e1⟩ := bn5_idx t
  funext j
  rw [View.read_apply]
  refine bn5_entry (iblk5 V c 0 t) (iblk5 V c 1 t) (iblk5 V c 2 t) (iblk5 V c 3 t) (iblk5 V c 4 t) (V c main_v100) mean var g beta
    ((bn5_blk_1 V c t).trans h1) ((bn5_blk_2 V c t).trans h2) ((bn5_blk_3 V c t).trans h3) ((bn5_blk_4 V c t).trans h4)
    j (((cfg5.win 5).blk t).view.emb j) (bn5_blk_x V c t j (((cfg5.win 5).blk t).view.emb j) ?_ ?_) ?_
  · show win5_5.index t (0 : Fin 2) * 2000 + 1 * (j 0).val = 2000 * t.val + (j 0).val; rw [e0]; omega
  · show win5_5.index t (1 : Fin 2) * 128 + 1 * (j 1).val = (j 1).val; rw [e1]; omega
  · show win5_5.index t (1 : Fin 2) * 128 + 1 * (j 1).val = (j 1).val; rw [e1]; omega

/-- Every entry of the result lies in some point's block: row `r` in the block of point `r / 2000`. -/
theorem bn5_cover (i : S50000x128.Idx) : ∃ t : Fin cfg5.N, (cfg5.win 5).flush t = true ∧ i ∈ ((cfg5.win 5).blk t).view.set := by
  have hi0 : (i 0).val < 50000 := (i 0).isLt
  have hi1 : (i 1).val < 128 := (i 1).isLt
  have hN : cfg5.N = 25 := N_5
  have ht : (i 0).val / 2000 < cfg5.N := by rw [hN]; omega
  obtain ⟨-, -, -, -, -, -, -, -, -, -, e0, e1⟩ := bn5_idx ⟨(i 0).val / 2000, ht⟩
  refine ⟨⟨(i 0).val / 2000, ht⟩, flush5_5 _, ?_⟩
  show i ∈ ((View.whole main_v113).slice (win5_5.rect ⟨(i 0).val / 2000, ht⟩)).set
  rw [View.set_slice_whole, Rect.mem_set_unit]
  intro a
  match a with
  | ⟨0, _⟩ =>
    show win5_5.index ⟨(i 0).val / 2000, ht⟩ (0 : Fin 2) * 2000 ≤ (i 0).val ∧ (i 0).val < win5_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win5_5.index ⟨(i 0).val / 2000, ht⟩ (1 : Fin 2) * 128 ≤ (i 1).val ∧ (i 1).val < win5_5.index ⟨(i 0).val / 2000, ht⟩ (1 : Fin 2) * 128 + 128
    rw [e1]; omega

/-- THE ARRAY AFTER THE STEP: the whole-array normalise-and-rectify function, with the column vectors whose reshapes
    the four rows are, of the array `x` as the step found it. -/
theorem bn5 (c : Dev nD) (mean var g beta : Cert.Spec.RA Cert.ReferenceIdeal.S128)
    (h1 : V c main_v109 = shapeCast S1x128 mean shapeCasts_S128_S1x128) (h2 : V c main_v110 = shapeCast S1x128 var shapeCasts_S128_S1x128)
    (h3 : V c main_v111 = shapeCast S1x128 g shapeCasts_S128_S1x128) (h4 : V c main_v112 = shapeCast S1x128 beta shapeCasts_S128_S1x128) :
    (dat5 (F := Ideal) V c).arrAt 5 cfg5.N = Cert.Spec.bnrelu128 (V c main_v100) mean var g beta :=
  (dat5 V c).arrAt_eq_of_cover 5 (Cert.Spec.bnrelu128 (V c main_v100) mean var g beta)
    (fun t _ => bn5_flushed V c mean var g beta h1 h2 h3 h4 t) bn5_cover

end Cert.KernelIdeal.RegVal

end
-- ==== Proof.KChainL1.lean ====
/-
  Layer 1 of the blocked program: what its buffers hold, boundary by boundary, as the specification's functions of the
  launch's argument arrays `A`.

  Entering the layer, the previous layer's output buffer holds `h1 A` and the edge list's rows sit where layer 0's host
  operations left them. Region 3 then leaves `z1` of this layer's parameters on `h1 A`, region 4 leaves `z2`, region 5
  the layer's output `h2 A`; the edge rows and the argument arrays are carried along unchanged.
-/
import proofs.«107430_j24575802868448_1_alg».proof.Proof.FPKernelIdealW
import proofs.«107430_j24575802868448_1_alg».proof.Proof.Spec
import proofs.«107430_j24575802868448_1_alg».proof.Proof.KArgs
import proofs.«107430_j24575802868448_1_alg».proof.Proof.KHostL1
import proofs.«107430_j24575802868448_1_alg».proof.Proof.KChainL0
import proofs.«107430_j24575802868448_1_alg».proof.Proof.RegLin3
import proofs.«107430_j24575802868448_1_alg».proof.Proof.RegBnLin4
import proofs.«107430_j24575802868448_1_alg».proof.Proof.RegBn5

set_option maxRecDepth 16384

noncomputable section

namespace Cert.KernelIdeal.Chain

open Idealize.ShloMosaic Idealize.ShloMosaic.TcCoe Idealize.SL.Sem Idealize.ShloMosaic.StableHlo Cert.KernelIdeal Cert.KernelIdeal.Gen
open Cert.Spec

variable (m : (ℓ : Loc nD τ sig) → Buf (Elt Ideal) ℓ) (ρ : Dev nD → PrngReg) (c : Dev nD)

/-! ## Entering region 3 -/

theorem b11_args : Host.argsOf (W11 m ρ c) = A m ρ c := (Host.e3_args _).trans (b10_args m ρ c)
theorem b11_src : W11 m ρ c (Proc.devRef .tc main_v1) = sA m ρ c := (Host.e3_src _).trans (b10_src m ρ c)
theorem b11_dst : W11 m ρ c (Proc.devRef .tc main_v3) = dA m ρ c := (Host.e3_dst _).trans (b10_dst m ρ c)

/-! ## Leaving region 3 -/

theorem b12_z1 : W12 m ρ c (Proc.devRef .tc main_v81) = z1 (P1 (A m ρ c)) (h1 (A m ρ c)) (sA m ρ c) (dA m ρ c) := by
  refine (W12_arr m ρ c 3).trans ?_
  rw [RegVal.lin3 (V11 m ρ) c (P1 (Host.argsOf (W10 m ρ c))).w1 (P1 (Host.argsOf (W10 m ρ c))).b1 (Host.e3_w _) (Host.e3_b _)]
  rw [show V11 m ρ c main_v74 = _ from Host.e3_x _, b10_h, b10_src, b10_dst, b10_args]
  rfl
theorem b12_src : W12 m ρ c (Proc.devRef .tc main_v1) = sA m ρ c := (W12_of_ne m ρ c main_v1 (by decide)).trans (b11_src m ρ c)
theorem b12_dst : W12 m ρ c (Proc.devRef .tc main_v3) = dA m ρ c := (W12_of_ne m ρ c main_v3 (by decide)).trans (b11_dst m ρ c)
theorem b12_args : Host.argsOf (W12 m ρ c) = A m ρ c :=
  (Host.argsOf_congr_of fun b hb => W12_of_ne m ρ c b ((by decide : ∀ b ∈ Host.argRefs, ∀ w, Pipeline.arrRef spec3 w ≠ b) b hb)).trans (b11_args m ρ c)

/-! ## Entering region 4 -/

theorem b15_args : Host.argsOf (W15 m ρ c) = A m ρ c := (Host.e4_args _).trans (b12_args m ρ c)
theorem b15_src : W15 m ρ c (Proc.devRef .tc main_v1) = sA m ρ c := (Host.e4_src _).trans (b12_src m ρ c)
theorem b15_dst : W15 m ρ c (Proc.devRef .tc main_v3) = dA m ρ c := (Host.e4_dst _).trans (b12_dst m ρ c)
theorem b15_x : W15 m ρ c (Proc.devRef .tc main_v81) = z1 (P1 (A m ρ c)) (h1 (A m ρ c)) (sA m ρ c) (dA m ρ c) := (Host.e4_x _).trans (b12_z1 m ρ c)

/-! ## Leaving region 4 -/

theorem b16_z2 : W16 m ρ c (Proc.devRef .tc main_v100) = z2 (P1 (A m ρ c)) (h1 (A m ρ c)) (sA m ρ c) (dA m ρ c) := by
  refine (W16_arr m ρ c 7).trans ?_
  rw [RegVal.bnlin4 (V15 m ρ) c (mean256 (W12 m ρ c (Proc.devRef .tc main_v81))) (var256 (W12 m ρ c (Proc.devRef .tc main_v81)))
    (P1 (Host.argsOf (W12 m ρ c))).g1 (P1 (Host.argsOf (W12 m ρ c))).be1 (P1 (Host.argsOf (W12 m ρ c))).w2 (P1 (Host.argsOf (W12 m ρ c))).b2
    (Host.e4_mean _) (Host.e4_var _) (Host.e4_g _) (Host.e4_beta _) (Host.e4_w _) (Host.e4_b _)]
  rw [show V15 m ρ c main_v81 = _ from b15_x m ρ c, b12_z1, b12_args]
  rfl
theorem b16_src : W16 m ρ c (Proc.devRef .tc main_v1) = sA m ρ c := (W16_of_ne m ρ c main_v1 (by decide)).trans (b15_src m ρ c)
theorem b16_dst : W16 m ρ c (Proc.devRef .tc main_v3) = dA m ρ c := (W16_of_ne m ρ c main_v3 (by decide)).trans (b15_dst m ρ c)
theorem b16_args : Host.argsOf (W16 m ρ c) = A m ρ c :=
  (Host.argsOf_congr_of fun b hb => W16_of_ne m ρ c b ((by decide : ∀ b ∈ Host.argRefs, ∀ w, Pipeline.arrRef spec4 w ≠ b) b hb)).trans (b15_args m ρ c)

/-! ## Entering region 5 -/

theorem b19_args : Host.argsOf (W19 m ρ c) = A m ρ c := (Host.e5_args _).trans (b16_args m ρ c)
theorem b19_src : W19 m ρ c (Proc.devRef .tc main_v1) = sA m ρ c := (Host.e5_src _).trans (b16_src m ρ c)
theorem b19_dst : W19 m ρ c (Proc.devRef .tc main_v3) = dA m ρ c := (Host.e5_dst _).trans (b16_dst m ρ c)
theorem b19_x : W19 m ρ c (Proc.devRef .tc main_v100) = z2 (P1 (A m ρ c)) (h1 (A m ρ c)) (sA m ρ c) (dA m ρ c) := (Host.e5_x _).trans (b16_z2 m ρ c)

/-! ## Leaving region 5: the layer's output -/

theorem b20_h : W20 m ρ c (Proc.devRef .tc main_v113) = h2 (A m ρ c) := by
  refine (W20_arr m ρ c 5).trans ?_
  rw [RegVal.bn5 (V19 m ρ) c (mean128 (W16 m ρ c (Proc.devRef .tc main_v100))) (var128 (W16 m ρ c (Proc.devRef .tc main_v100)))
    (P1 (Host.argsOf (W16 m ρ c))).g2 (P1 (Host.argsOf (W16 m ρ c))).be2
    (Host.e5_mean _) (Host.e5_var _) (Host.e5_g _) (Host.e5_beta _)]
  rw [show V19 m ρ c main_v100 = _ from b19_x m ρ c, b16_z2, b16_args]
  rfl
theorem b20_src : W20 m ρ c (Proc.devRef .tc main_v1) = sA m ρ c := (W20_of_ne m ρ c main_v1 (by decide)).trans (b19_src m ρ c)
theorem b20_dst : W20 m ρ c (Proc.devRef .tc main_v3) = dA m ρ c := (W20_of_ne m ρ c main_v3 (by decide)).trans (b19_dst m ρ c)
theorem b20_args : Host.argsOf (W20 m ρ c) = A m ρ c :=
  (Host.argsOf_congr_of fun b hb => W20_of_ne m ρ c b ((by decide : ∀ b ∈ Host.argRefs, ∀ w, Pipeline.arrRef spec5 w ≠ b) b hb)).trans (b19_args m ρ c)

end Cert.KernelIdeal.Chain

end
-- ==== Proof.RegLin6.lean ====
/-
  A linear map of the network, computed block by block, is the linear map on whole arrays.

  The launch cuts the 50000 × 128 array `x` into 25 blocks of 2000 rows. At grid point `t` the body reads rows
  `2000·t … 2000·t + 1999` of `x`, the whole 128 × 256 weight matrix and the whole 1 × 256 bias row, and leaves in
  the output's block the matrix product of the row block with the weights plus the bias row repeated over the 2000
  rows. Over the extended reals a change of float format is the identity and a matrix product is an exact sum, so entry
  `(p, q)` of that block is `Σ_k x[2000·t + p, k] · w[k, q] + b[q]`: entry `(2000·t + p, q)` of `x · w + b`. The 25
  blocks tile the 50000 × 256 result, row `r` lying in the block of point `r / 2000`, so after the last write-back
  the result array is `x · w + b` — whatever the three input arrays held when the launch began, as long as the
  weight buffer holds `w` (narrowed to bf16: the identity here) and the bias buffer holds `b` laid out as one row.
-/
import proofs.«107430_j24575802868448_1_alg».proof.Proof.FPKernelIdealR6
import proofs.«107430_j24575802868448_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegVal.Lin6

open Idealize.ShloMosaic Idealize.ShloMosaic.TcCoe Idealize.SL.Sem
open Idealize.ShloMosaic.Pipeline (Dat)
open Cert.KernelIdeal Cert.KernelIdeal.Gen
open Idealize.ShloMosaic.ValueIdx

/-! ## The block product: which entries of its operands an entry of the product reads

For the product of a 2000 × 128 block with the 128 × 256 weights, at result entry `i` and contraction position `q` the
left operand is read at (row of `i`, `q`) and the right one at (`q`, column of `i`): one statement per operand axis. -/

theorem blk_lhs_row (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide),
    dif_pos (show (0 : Fin S2000x128.rank) ∈ dot_S2000x128_S128x256_S2000x256_1_0_0_1_n_n.lhsNonContracting by decide)]
  rfl
theorem blk_lhs_col (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
theorem blk_rhs_row (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
theorem blk_rhs_col (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide),
    dif_pos (show (1 : Fin S128x256.rank) ∈ dot_S2000x128_S128x256_S2000x256_1_0_0_1_n_n.rhsNonContracting by decide)]
  rfl

/-- Entry `(p, q)` of the block product accumulated from zero is `Σ_k x[p, k] · w[k, q]`. -/
theorem blk_product_entry (x : FVec Ideal S2000x128 .bf16) (w : FVec Ideal S128x256 .bf16) (p : Fin 2000) (q : Fin 256) :
    matmul dot_S2000x128_S128x256_S2000x256_1_0_0_1_n_n none x w (constant S2000x256 .f32 0x00000000#32) (ix2 p q)
      = ∑ k : Fin 128, x (ix2 p k) * w (ix2 k q) := by
  simp only [matmul]
  rw [Ideal.matmul_constant_zero_apply, ← Equiv.sum_comp (contrEquiv1 dot_S2000x128_S128x256_S2000x256_1_0_0_1_n_n 128 rfl rfl).symm]
  refine Finset.sum_congr rfl fun k _ => ?_
  have hk := contrEquiv1_symm_val dot_S2000x128_S128x256_S2000x256_1_0_0_1_n_n 128 rfl rfl k
  have el : dot_S2000x128_S128x256_S2000x256_1_0_0_1_n_n.lhsIdx (ix2 p q) ((contrEquiv1 dot_S2000x128_S128x256_S2000x256_1_0_0_1_n_n 128 rfl rfl).symm k) = ix2 p k := funext fun a => Fin.ext (by
    match a with
    | ⟨0, _⟩ => exact blk_lhs_row _ _
    | ⟨1, _⟩ => exact (blk_lhs_col _ _).trans hk)
  have er : dot_S2000x128_S128x256_S2000x256_1_0_0_1_n_n.rhsIdx (ix2 p q) ((contrEquiv1 dot_S2000x128_S128x256_S2000x256_1_0_0_1_n_n 128 rfl rfl).symm k) = ix2 k q := funext fun a => Fin.ext (by
    match a with
    | ⟨0, _⟩ => exact (blk_rhs_row _ _).trans hk
    | ⟨1, _⟩ => exact blk_rhs_col _ _)
  rw [el, er]

/-- What the body stores, entry by entry: `Σ_k x₀[p, k] · x₁[k, q] + x₂[0, q]` of the three blocks it loaded
    (the narrowing of `x₀` to bf16 is the identity on extended reals). -/
theorem stored_entry (x0 : Vec Ideal S2000x128 .f32) (x1 : Vec Ideal S128x256 .bf16) (x2 : Vec Ideal S1x256 .f32)
    (p : Fin 2000) (q : Fin 256) :
    (k6_pay1 (F := Ideal) x0 x1 x2) (ix2 p q) = (∑ k : Fin 128, x0 (ix2 p k) * x1 (ix2 k q)) + x2 (ix2 (0 : Fin 1) q) := by
  unfold k6_pay1
  simp only [shapeCast_self]
  rw [addf_apply, blk_product_entry, broadcastTo_1b_ab_apply]
  rfl

/-! ## The whole-array product, the same way -/

theorem arr_lhs_row (i : Cert.ReferenceIdeal.S50000x256.Idx) (q : Cert.ReferenceIdeal.dot_S50000x128_S128x256_S50000x256_1_0_0_1_n_n.contr.Idx) :
    (Cert.ReferenceIdeal.dot_S50000x128_S128x256_S50000x256_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x256_S50000x256_1_0_0_1_n_n.lhsBatch by decide),
    dif_pos (show (0 : Fin Cert.ReferenceIdeal.S50000x128.rank) ∈ Cert.ReferenceIdeal.dot_S50000x128_S128x256_S50000x256_1_0_0_1_n_n.lhsNonContracting by decide)]
  rfl
theorem arr_lhs_col (i : Cert.ReferenceIdeal.S50000x256.Idx) (q : Cert.ReferenceIdeal.dot_S50000x128_S128x256_S50000x256_1_0_0_1_n_n.contr.Idx) :
    (Cert.ReferenceIdeal.dot_S50000x128_S128x256_S50000x256_1_0_0_1_n_n.lhsIdx i q 1).val = (q ⟨0, by decide⟩).val :=
  Cert.ReferenceIdeal.dot_S50000x128_S128x256_S50000x256_1_0_0_1_n_n.lhsIdx_val_of_single rfl i q
theorem arr_rhs_row (i : Cert.ReferenceIdeal.S50000x256.Idx) (q : Cert.ReferenceIdeal.dot_S50000x128_S128x256_S50000x256_1_0_0_1_n_n.contr.Idx) :
    (Cert.ReferenceIdeal.dot_S50000x128_S128x256_S50000x256_1_0_0_1_n_n.rhsIdx i q 0).val = (q ⟨0, by decide⟩).val :=
  Cert.ReferenceIdeal.dot_S50000x128_S128x256_S50000x256_1_0_0_1_n_n.rhsIdx_val_of_single rfl i q
theorem arr_rhs_col (i : Cert.ReferenceIdeal.S50000x256.Idx) (q : Cert.ReferenceIdeal.dot_S50000x128_S128x256_S50000x256_1_0_0_1_n_n.contr.Idx) :
    (Cert.ReferenceIdeal.dot_S50000x128_S128x256_S50000x256_1_0_0_1_n_n.rhsIdx i q 1).val = (i 1).val := by
  unfold DotDims.rhsIdx
  rw [dif_neg (show ¬(1 : Fin Cert.ReferenceIdeal.S128x256.rank) ∈ Cert.ReferenceIdeal.dot_S50000x128_S128x256_S50000x256_1_0_0_1_n_n.rhsBatch by decide),
    dif_pos (show (1 : Fin Cert.ReferenceIdeal.S128x256.rank) ∈ Cert.ReferenceIdeal.dot_S50000x128_S128x256_S50000x256_1_0_0_1_n_n.rhsNonContracting by decide)]
  rfl

/-- Entry `(r, q)` of the whole-array product is `Σ_k x[r, k] · w[k, q]`. -/
theorem arr_product_entry (x : FVec Ideal Cert.ReferenceIdeal.S50000x128 .f32) (w : FVec Ideal Cert.ReferenceIdeal.S128x256 .f32)
    (r : Fin 50000) (q : Fin 256) :
    Host.dotGeneral Cert.ReferenceIdeal.dot_S50000x128_S128x256_S50000x256_1_0_0_1_n_n none x w (ix2 r q) = ∑ k : Fin 128, x (ix2 r k) * w (ix2 k q) := by
  simp only [Host.dotGeneral]
  rw [Ideal.dotGeneral_apply, ← Equiv.sum_comp (contrEquiv1 Cert.ReferenceIdeal.dot_S50000x128_S128x256_S50000x256_1_0_0_1_n_n 128 rfl rfl).symm]
  refine Finset.sum_congr rfl fun k _ => ?_
  have hk := contrEquiv1_symm_val Cert.ReferenceIdeal.dot_S50000x128_S128x256_S50000x256_1_0_0_1_n_n 128 rfl rfl k
  have el : Cert.ReferenceIdeal.dot_S50000x128_S128x256_S50000x256_1_0_0_1_n_n.lhsIdx (ix2 r q) ((contrEquiv1 Cert.ReferenceIdeal.dot_S50000x128_S128x256_S50000x256_1_0_0_1_n_n 128 rfl rfl).symm k) = ix2 r k := funext fun a => Fin.ext (by
    match a with
    | ⟨0, _⟩ => exact arr_lhs_row _ _
    | ⟨1, _⟩ => exact (arr_lhs_col _ _).trans hk)
  have er : Cert.ReferenceIdeal.dot_S50000x128_S128x256_S50000x256_1_0_0_1_n_n.rhsIdx (ix2 r q) ((contrEquiv1 Cert.ReferenceIdeal.dot_S50000x128_S128x256_S50000x256_1_0_0_1_n_n 128 rfl rfl).symm k) = ix2 k q := funext fun a => Fin.ext (by
    match a with
    | ⟨0, _⟩ => exact (arr_rhs_row _ _).trans hk
    | ⟨1, _⟩ => exact arr_rhs_col _ _)
  rw [el, er]

/-- A vector laid out as one row reads, at `(0, q)`, its entry `q`. -/
theorem vec_as_row {α : Type} {m : Nat} (v : (⟨1, ![m]⟩ : Shape).Idx → α)
    (h : (⟨1, ![m]⟩ : Shape).BroadcastsInDim ⟨2, ![1, m]⟩ ![1]) (u : Fin 1) (q : Fin m) :
    broadcastInDim ⟨2, ![1, m]⟩ ![1] h v (ix2 u q) = v (ix1 q) := by
  refine broadcastInDim_apply _ h v (ix2 u q) (ix1 q) fun a => ?_
  match a with
  | ⟨0, _⟩ =>
    show q.val = if m = 1 then 0 else q.val
    split
    · have := q.isLt; omega
    · rfl

/-- One row repeated over `n` rows reads, at `(r, q)`, the row's entry `q`. -/
theorem row_over_rows {α : Type} {n m : Nat} (v : (⟨2, ![1, m]⟩ : Shape).Idx → α)
    (h : (⟨2, ![1, m]⟩ : Shape).BroadcastsInDim ⟨2, ![n, m]⟩ ![0, 1]) (r : Fin n) (q : Fin m) :
    broadcastInDim ⟨2, ![n, m]⟩ ![0, 1] h v (ix2 r q) = v (ix2 (0 : Fin 1) q) := by
  refine broadcastInDim_apply _ h v (ix2 r q) (ix2 (0 : Fin 1) q) fun a => ?_
  match a with
  | ⟨0, _⟩ => rfl
  | ⟨1, _⟩ =>
    show q.val = if m = 1 then 0 else q.val
    split
    · have := q.isLt; omega
    · rfl

/-- Entry `(r, q)` of `x · w + b` is `Σ_k x[r, k] · w[k, q] + b[q]`. -/
theorem linear_entry (x : Cert.Spec.RA Cert.ReferenceIdeal.S50000x128) (w : Cert.Spec.RA Cert.ReferenceIdeal.S128x256)
    (b : Cert.Spec.RA Cert.ReferenceIdeal.S256) (r : Fin 50000) (q : Fin 256) :
    Cert.Spec.lin128x256 x w b (ix2 r q) = (∑ k : Fin 128, x (ix2 r k) * w (ix2 k q)) + b (ix1 q) := by
  unfold Cert.Spec.lin128x256
  rw [addf_apply, arr_product_entry, row_over_rows, vec_as_row]

/-! ## The grid: which block of each array a point reads or writes -/

/-- At point `t` the row-tiled arrays (`x` and the result) are at block `(t, 0)`, the weights and the bias at
    their one block `(0, 0)`. -/
theorem block_indices : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

variable (c : Dev nD)

/-- The block of `x` at point `t`, at `y`, is `x` at row `2000·t + y₀`, column `y₁`. -/
theorem x_block (A : Buf (Elt Ideal) ((c : Thread nD τ).loc main_v129)) (t : Fin cfg6.N) (y : S2000x128.Idx) (k : S50000x128.Idx)
    (hk0 : (k 0).val = 2000 * t.val + (y 0).val) (hk1 : (k 1).val = (y 1).val) :
    (((cfg6.win 0).blk t).view.read (Elt Ideal) A : Vec Ideal S2000x128 .f32) y = (A : S50000x128.Idx → Elt Ideal .f32) k := by
  obtain ⟨e0, e1, -⟩ := block_indices t
  rw [View.read_apply]
  refine congrArg (A : S50000x128.Idx → Elt Ideal .f32) (funext fun a => Fin.ext ?_)
  match a with
  | ⟨0, _⟩ => show win6_0.index t (0 : Fin 2) * 2000 + 1 * (y 0).val = (k 0).val; rw [e0, hk0]; omega
  | ⟨1, _⟩ => show win6_0.index t (1 : Fin 2) * 128 + 1 * (y 1).val = (k 1).val; rw [e1, hk1]; omega

/-- The weights' block at every point is the whole weight array. -/
theorem w_block (A : Buf (Elt Ideal) ((c : Thread nD τ).loc main_v134)) (t : Fin cfg6.N) :
    (((cfg6.win 1).blk t).view.read (Elt Ideal) A : Vec Ideal S128x256 .bf16) = (A : S128x256.Idx → Elt Ideal .bf16) := by
  obtain ⟨-, -, e2, e3, -⟩ := block_indices t
  funext y
  rw [View.read_apply]
  refine congrArg (A : S128x256.Idx → Elt Ideal .bf16) (funext fun a => Fin.ext ?_)
  match a with
  | ⟨0, _⟩ => show win6_1.index t (0 : Fin 2) * 128 + 1 * (y 0).val = (y 0).val; rw [e2]; omega
  | ⟨1, _⟩ => show win6_1.index t (1 : Fin 2) * 256 + 1 * (y 1).val = (y 1).val; rw [e3]; omega

/-- The bias row's block at every point is the whole row. -/
theorem b_block (A : Buf (Elt Ideal) ((c : Thread nD τ).loc main_v135)) (t : Fin cfg6.N) :
    (((cfg6.win 2).blk t).view.read (Elt Ideal) A : Vec Ideal S1x256 .f32) = (A : S1x256.Idx → Elt Ideal .f32) := by
  obtain ⟨-, -, -, -, e4, e5, -⟩ := block_indices t
  funext y
  rw [View.read_apply]
  refine congrArg (A : S1x256.Idx → Elt Ideal .f32) (funext fun a => Fin.ext ?_)
  match a with
  | ⟨0, _⟩ => show win6_2.index t (0 : Fin 2) * 1 + 1 * (y 0).val = (y 0).val; rw [e4]; omega
  | ⟨1, _⟩ => show win6_2.index t (1 : Fin 2) * 256 + 1 * (y 1).val = (y 1).val; rw [e5]; omega

/-- What the body stores from rows `2000·n …` of `X`, the weights `W` and the bias `B` as a row is, entry by
    entry, `X · W + B` at the rows `2000·n …`. -/
theorem block_is_linear (X : Cert.Spec.RA Cert.ReferenceIdeal.S50000x128) (W : Cert.Spec.RA Cert.ReferenceIdeal.S128x256)
    (B : Cert.Spec.RA Cert.ReferenceIdeal.S256)
    (x0 : Vec Ideal S2000x128 .f32) (x1 : Vec Ideal S128x256 .bf16) (x2 : Vec Ideal S1x256 .f32) (n : Nat)
    (h0 : ∀ (y : S2000x128.Idx) (k : S50000x128.Idx), (k 0).val = 2000 * n + (y 0).val → (k 1).val = (y 1).val → x0 y = X k)
    (h1 : x1 = truncf .bf16 W bitsLt_bf16_f32) (h2 : x2 = shapeCast S1x256 B shapeCasts_S256_S1x256)
    (y : S2000x256.Idx) (i : S50000x256.Idx) (hi0 : (i 0).val = 2000 * n + (y 0).val) (hi1 : (i 1).val = (y 1).val) :
    k6_pay1 (F := Ideal) x0 x1 x2 y = Cert.Spec.lin128x256 X W B i := by
  obtain ⟨p, q, rfl⟩ : ∃ (p : Fin 2000) (q : Fin 256), y = ix2 p q := ⟨y 0, y 1, eq_ix2 y⟩
  obtain ⟨r, q', rfl⟩ : ∃ (r : Fin 50000) (q' : Fin 256), i = ix2 r q' := ⟨i 0, i 1, eq_ix2 i⟩
  obtain rfl : q' = q := Fin.ext hi1
  rw [stored_entry, linear_entry]
  have hs : ∀ k : Fin 128, x0 (ix2 p k) * x1 (ix2 k q') = X (ix2 r k) * W (ix2 k q') := fun k => by
    rw [h0 (ix2 p k) (ix2 r k) hi0 rfl, h1, truncf_apply]
  have hb : x2 (ix2 (0 : Fin 1) q') = B (ix1 q') := by
    rw [h2, shapeCast_a_1a_apply]
  rw [Finset.sum_congr rfl fun k _ => hs k, hb]

/-- Every entry of the result lies in a block that is written back: row `r` in the block of point `r / 2000`. -/
theorem rows_covered (i : ((cfg6.win 3).arr.view.loc (c.tc : Thread nD τ)).2.ty.Idx) :
    ∃ t : Fin cfg6.N, (cfg6.win 3).flush t = true ∧ i ∈ ((cfg6.win 3).blk t).view.set := by
  have h0 : (i 0 : Nat) < 50000 := (i 0).isLt
  have h1 : (i 1 : Nat) < 256 := (i 1).isLt
  have hN : cfg6.N = 25 := N_6
  let t : Fin cfg6.N := ⟨(i 0 : Nat) / 2000, by rw [hN]; omega⟩
  obtain ⟨-, -, -, -, -, -, e6, e7⟩ := block_indices t
  refine ⟨t, flush6_3 t, ?_⟩
  show i ∈ ((View.whole main_v136).slice (win6_3.rect t)).set
  rw [View.set_slice_whole, Rect.mem_set_unit]
  intro a
  match a with
  | ⟨0, _⟩ =>
    show win6_3.index t (0 : Fin 2) * 2000 ≤ (i 0 : Nat) ∧ (i 0 : Nat) < win6_3.index t (0 : Fin 2) * 2000 + 2000
    rw [e6]; show (i 0 : Nat) / 2000 * 2000 ≤ (i 0 : Nat) ∧ (i 0 : Nat) < (i 0 : Nat) / 2000 * 2000 + 2000; omega
  | ⟨1, _⟩ =>
    show win6_3.index t (1 : Fin 2) * 256 ≤ (i 1 : Nat) ∧ (i 1 : Nat) < win6_3.index t (1 : Fin 2) * 256 + 256
    rw [e7]; omega

theorem zero_offsets : (![0, 0] : Fin 2 → Nat) = fun _ => 0 := funext fun a => by fin_cases a <;> rfl

/-- What point `t` writes back is block `t` of `x · w + b`, `x` the first array's contents at entry. -/
theorem written_back (V : (c : Dev nD) → (b : Ref sig .tc) → Buf (Elt Ideal) ((c : Thread nD τ).loc b))
    (w : Cert.Spec.RA Cert.ReferenceIdeal.S128x256) (b : Cert.Spec.RA Cert.ReferenceIdeal.S256)
    (hw : V c main_v134 = truncf .bf16 w bitsLt_bf16_f32)
    (hb : V c main_v135 = shapeCast S1x256 b shapeCasts_S256_S1x256) (t : Fin cfg6.N) :
    (dat6 (F := Ideal) V c).flushed 3 t
      = ((cfg6.win 3).blk t).view.read (Elt Ideal) (Cert.Spec.lin128x256 (V c main_v129) w b) := by
  show (cfg6.win 3).cut (grid6.coords t) ((dat6 V c).after 3 t) = _
  rw [after6_3]
  unfold out6_3
  rw [View.canon_unit_zero zero_offsets]
  simp only [View.ld_unit_zero (S := S2000x128) zero_offsets, View.ld_unit_zero (S := S128x256) zero_offsets,
    View.ld_unit_zero (S := S1x256) zero_offsets]
  obtain ⟨-, -, -, -, -, -, e6, e7⟩ := block_indices t
  funext j
  rw [View.read_apply]
  refine block_is_linear (V c main_v129) w b (iblk6 V c 0 t) (iblk6 V c 1 t) (iblk6 V c 2 t) t.val
    (fun y k hk0 hk1 => x_block c (V c main_v129) t y k hk0 hk1)
    ((w_block c (V c main_v134) t).trans hw) ((b_block c (V c main_v135) t).trans hb)
    ((cfg6.win 3).xinj (grid6.coords t) j) (((cfg6.win 3).blk t).view.emb j) ?_ ?_
  · show win6_3.index t (0 : Fin 2) * 2000 + 1 * (j 0).val = 2000 * t.val + (j 0).val
    rw [e6]; omega
  · show win6_3.index t (1 : Fin 2) * 256 + 1 * (j 1).val = (j 1).val
    rw [e7]; omega

end Cert.KernelIdeal.RegVal.Lin6

namespace Cert.KernelIdeal.RegVal

open Idealize.ShloMosaic Idealize.ShloMosaic.TcCoe Idealize.SL.Sem
open Idealize.ShloMosaic.Pipeline (Dat)
open Cert.KernelIdeal Cert.KernelIdeal.Gen

/-- THE RESULT ARRAY after the launch is `x · w + b` of the first array's entry contents, for any entry contents
    whose weight buffer is `w` and whose bias buffer is `b` as a row. -/
theorem lin6 (V : (c : Dev nD) → (b : Ref sig .tc) → Buf (Elt Ideal) ((c : Thread nD τ).loc b)) (c : Dev nD)
    (w : Cert.Spec.RA Cert.ReferenceIdeal.S128x256) (b : Cert.Spec.RA Cert.ReferenceIdeal.S256)
    (hw : V c main_v134 = truncf .bf16 w bitsLt_bf16_f32)
    (hb : V c main_v135 = shapeCast S1x256 b shapeCasts_S256_S1x256) :
    (dat6 (F := Ideal) V c).arrAt 3 cfg6.N = Cert.Spec.lin128x256 (V c main_v129) w b :=
  (dat6 V c).arrAt_eq_of_cover 3 (Cert.Spec.lin128x256 (V c main_v129) w b)
    (fun t _ => Lin6.written_back c V w b hw hb t) (Lin6.rows_covered c)

end Cert.KernelIdeal.RegVal

end
-- ==== Proof.RegBnLin7.lean ====
/-
  The value of one normalise-rectify-then-linear stage, read off the block pipeline.

  The stage takes a 50000 × 256 array x, four vectors over its 256 columns (a mean, a variance, a scale g and a shift β),
  a 256 × 128 weight and a bias over the 128 output columns, and produces the 50000 × 128 array

      y[r, q] = Σ_k max (g[k] · (x[r, k] − mean[k]) · rsqrt (var[k] + 1e-5) + β[k]) 0 · w[k, q]  +  bias[q].

  The pipeline computes it in 25 steps: step t reads rows 2000·t … 2000·t + 1999 of x and the whole of every small
  operand, forms exactly this expression for those rows and writes rows 2000·t … 2000·t + 1999 of the result. Row r of
  the result depends on row r of x only, so each written block is the corresponding block of the whole-array function,
  and the 25 blocks tile the 50000 rows: the result array ends holding the whole-array function. Over the extended
  reals the change of float format before the product is the identity, the product into a zero accumulator is the
  plain sum over the contracted index, and the two reciprocal square roots are one function, so the two sides agree
  term by term.
-/
import proofs.«107430_j24575802868448_1_alg».proof.Proof.FPKernelIdealR7
import proofs.«107430_j24575802868448_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegVal

open Idealize.ShloMosaic Idealize.ShloMosaic.TcCoe Idealize.SL.Sem Idealize.ShloMosaic.ValueIdx Cert.KernelIdeal Cert.KernelIdeal.Gen
open Idealize.ShloMosaic.Pipeline (Dat)

namespace BnLin7

/-- One entry normalised with its column's statistics, scaled, shifted and rectified:
    `max (g · (x − m) · rsqrt (v + 1e-5) + b) 0`. -/
def act (x m v g b : EReal) : EReal :=
  max (g * (x - m) * Ideal.rsqrt (v + Ideal.ofBits .f32 0x3727C5AC#32) + b) (Ideal.ofBits .f32 0x00000000#32)

/-! ## The block product: a row of the left block against a column of the right one -/

/-- The left operand's row coordinate is the output's. -/
theorem klhs_0 (j : S2000x128.Idx) (k : dot_S2000x256_S256x128_S2000x128_1_0_0_1_n_n.contr.Idx) :
    (dot_S2000x256_S256x128_S2000x128_1_0_0_1_n_n.lhsIdx j k 0).val = (j 0).val := by
  simp [DotDims.lhsIdx, dot_S2000x256_S256x128_S2000x128_1_0_0_1_n_n]; rfl

/-- The left operand's column coordinate is the contracted one. -/
theorem klhs_1 (j : S2000x128.Idx) (k : dot_S2000x256_S256x128_S2000x128_1_0_0_1_n_n.contr.Idx) :
    (dot_S2000x256_S256x128_S2000x128_1_0_0_1_n_n.lhsIdx j k 1).val = (k ⟨0, by decide⟩).val :=
  dot_S2000x256_S256x128_S2000x128_1_0_0_1_n_n.lhsIdx_val_of_single rfl j k

/-- The right operand's row coordinate is the contracted one. -/
theorem krhs_0 (j : S2000x128.Idx) (k : dot_S2000x256_S256x128_S2000x128_1_0_0_1_n_n.contr.Idx) :
    (dot_S2000x256_S256x128_S2000x128_1_0_0_1_n_n.rhsIdx j k 0).val = (k ⟨0, by decide⟩).val :=
  dot_S2000x256_S256x128_S2000x128_1_0_0_1_n_n.rhsIdx_val_of_single rfl j k

/-- The right operand's column coordinate is the output's. -/
theorem krhs_1 (j : S2000x128.Idx) (k : dot_S2000x256_S256x128_S2000x128_1_0_0_1_n_n.contr.Idx) :
    (dot_S2000x256_S256x128_S2000x128_1_0_0_1_n_n.rhsIdx j k 1).val = (j 1).val := by
  simp [DotDims.rhsIdx, dot_S2000x256_S256x128_S2000x128_1_0_0_1_n_n]; rfl

/-- The block product into a zero accumulator, entry by entry: the sum over the 256 contracted columns. -/
theorem kmatmul_apply (A : FVec Ideal S2000x256 .bf16) (B : FVec Ideal S256x128 .bf16) (p : Fin 2000) (q : Fin 128) :
    matmul dot_S2000x256_S256x128_S2000x128_1_0_0_1_n_n none A B (constant S2000x128 .f32 0x00000000#32) (ix2 p q)
      = ∑ k : Fin 256, A (ix2 p k) * B (ix2 k q) := by
  show FloatOps.matmul _ none A B _ (ix2 p q) = _
  rw [Ideal.matmul_constant_zero_apply,
    ← Equiv.sum_comp (contrEquiv1 dot_S2000x256_S256x128_S2000x128_1_0_0_1_n_n 256 rfl rfl).symm]
  refine Finset.sum_congr rfl fun k _ => ?_
  have ck := contrEquiv1_symm_val dot_S2000x256_S256x128_S2000x128_1_0_0_1_n_n 256 rfl rfl k
  have hl : dot_S2000x256_S256x128_S2000x128_1_0_0_1_n_n.lhsIdx (ix2 p q) ((contrEquiv1 _ 256 rfl rfl).symm k) = ix2 p k := by
    funext a; apply Fin.ext
    match a with
    | ⟨0, _⟩ => exact klhs_0 _ _
    | ⟨1, _⟩ => exact (klhs_1 _ _).trans ck
  have hr : dot_S2000x256_S256x128_S2000x128_1_0_0_1_n_n.rhsIdx (ix2 p q) ((contrEquiv1 _ 256 rfl rfl).symm k) = ix2 k q := by
    funext a; apply Fin.ext
    match a with
    | ⟨0, _⟩ => exact (krhs_0 _ _).trans ck
    | ⟨1, _⟩ => exact krhs_1 _ _
  rw [hl, hr]

/-- The body's stored value at row `p`, column `q` of the block: the rectified normalised row against column `q` of
    the weight, plus the bias. -/
theorem pay_apply (x0 : Vec Ideal S2000x256 .f32) (x1 x2 x3 x4 : Vec Ideal S1x256 .f32) (x5 : Vec Ideal S256x128 .bf16)
    (x6 : Vec Ideal S1x128 .f32) (p : Fin 2000) (q : Fin 128) :
    k7_pay1 (F := Ideal) x0 x1 x2 x3 x4 x5 x6 (ix2 p q)
      = (∑ k : Fin 256, act (x0 (ix2 p k)) (x1 (ix2 (0 : Fin 1) k)) (x2 (ix2 (0 : Fin 1) k)) (x3 (ix2 (0 : Fin 1) k))
            (x4 (ix2 (0 : Fin 1) k)) * x5 (ix2 k q)) + x6 (ix2 (0 : Fin 1) q) := by
  unfold k7_pay1
  simp only [shapeCast_self]
  rw [addf_apply, kmatmul_apply, broadcastTo_1b_ab_apply]
  congr 1
  refine Finset.sum_congr rfl fun k _ => ?_
  congr 1
  simp only [truncf_apply, maximumf_apply, addf_apply, mulf_apply, subf_apply, broadcastTo_1b_ab_apply, broadcast_apply]
  rfl

/-! ## The whole-array stage at an entry -/

theorem rlhs_0 (j : Cert.ReferenceIdeal.S50000x128.Idx) (k : Cert.ReferenceIdeal.dot_S50000x256_S256x128_S50000x128_1_0_0_1_n_n.contr.Idx) :
    (Cert.ReferenceIdeal.dot_S50000x256_S256x128_S50000x128_1_0_0_1_n_n.lhsIdx j k 0).val = (j 0).val := by
  simp [DotDims.lhsIdx, Cert.ReferenceIdeal.dot_S50000x256_S256x128_S50000x128_1_0_0_1_n_n]; rfl

theorem rlhs_1 (j : Cert.ReferenceIdeal.S50000x128.Idx) (k : Cert.ReferenceIdeal.dot_S50000x256_S256x128_S50000x128_1_0_0_1_n_n.contr.Idx) :
    (Cert.ReferenceIdeal.dot_S50000x256_S256x128_S50000x128_1_0_0_1_n_n.lhsIdx j k 1).val = (k ⟨0, by decide⟩).val :=
  Cert.ReferenceIdeal.dot_S50000x256_S256x128_S50000x128_1_0_0_1_n_n.lhsIdx_val_of_single rfl j k

theorem rrhs_0 (j : Cert.ReferenceIdeal.S50000x128.Idx) (k : Cert.ReferenceIdeal.dot_S50000x256_S256x128_S50000x128_1_0_0_1_n_n.contr.Idx) :
    (Cert.ReferenceIdeal.dot_S50000x256_S256x128_S50000x128_1_0_0_1_n_n.rhsIdx j k 0).val = (k ⟨0, by decide⟩).val :=
  Cert.ReferenceIdeal.dot_S50000x256_S256x128_S50000x128_1_0_0_1_n_n.rhsIdx_val_of_single rfl j k

theorem rrhs_1 (j : Cert.ReferenceIdeal.S50000x128.Idx) (k : Cert.ReferenceIdeal.dot_S50000x256_S256x128_S50000x128_1_0_0_1_n_n.contr.Idx) :
    (Cert.ReferenceIdeal.dot_S50000x256_S256x128_S50000x128_1_0_0_1_n_n.rhsIdx j k 1).val = (j 1).val := by
  simp [DotDims.rhsIdx, Cert.ReferenceIdeal.dot_S50000x256_S256x128_S50000x128_1_0_0_1_n_n]; rfl

/-- The whole-array product, entry by entry: the sum over the 256 contracted columns. -/
theorem rdot_apply (A : FVec Ideal Cert.ReferenceIdeal.S50000x256 .f32) (B : FVec Ideal Cert.ReferenceIdeal.S256x128 .f32) (r : Fin 50000) (q : Fin 128) :
    Host.dotGeneral Cert.ReferenceIdeal.dot_S50000x256_S256x128_S50000x128_1_0_0_1_n_n none A B (ix2 r q)
      = ∑ k : Fin 256, A (ix2 r k) * B (ix2 k q) := by
  show FloatOps.dotGeneral _ none _ A B (ix2 r q) = _
  rw [Ideal.dotGeneral_apply,
    ← Equiv.sum_comp (contrEquiv1 Cert.ReferenceIdeal.dot_S50000x256_S256x128_S50000x128_1_0_0_1_n_n 256 rfl rfl).symm]
  refine Finset.sum_congr rfl fun k _ => ?_
  have ck := contrEquiv1_symm_val Cert.ReferenceIdeal.dot_S50000x256_S256x128_S50000x128_1_0_0_1_n_n 256 rfl rfl k
  have hl : Cert.ReferenceIdeal.dot_S50000x256_S256x128_S50000x128_1_0_0_1_n_n.lhsIdx (ix2 r q) ((contrEquiv1 _ 256 rfl rfl).symm k) = ix2 r k := by
    funext a; apply Fin.ext
    match a with
    | ⟨0, _⟩ => exact rlhs_0 _ _
    | ⟨1, _⟩ => exact (rlhs_1 _ _).trans ck
  have hr : Cert.ReferenceIdeal.dot_S50000x256_S256x128_S50000x128_1_0_0_1_n_n.rhsIdx (ix2 r q) ((contrEquiv1 _ 256 rfl rfl).symm k) = ix2 k q := by
    funext a; apply Fin.ext
    match a with
    | ⟨0, _⟩ => exact (rrhs_0 _ _).trans ck
    | ⟨1, _⟩ => exact rrhs_1 _ _
  rw [hl, hr]

/-- A vector over the 256 columns laid out as one row and copied down the 50000 rows reads, at `(r, k)`, its entry `k`. -/
theorem rowB256_apply (v : FVec Ideal Cert.ReferenceIdeal.S256 .f32)
    (h1 : Cert.ReferenceIdeal.S256.BroadcastsInDim Cert.ReferenceIdeal.S1x256 (![1] : Fin 1 → Fin Cert.ReferenceIdeal.S1x256.rank))
    (h2 : Cert.ReferenceIdeal.S1x256.BroadcastsInDim Cert.ReferenceIdeal.S50000x256 (![0, 1] : Fin 2 → Fin Cert.ReferenceIdeal.S50000x256.rank))
    (r : Fin 50000) (k : Fin 256) :
    broadcastInDim Cert.ReferenceIdeal.S50000x256 ![0, 1] h2 (broadcastInDim Cert.ReferenceIdeal.S1x256 ![1] h1 v) (ix2 r k) = v (ix1 k) := by
  refine (broadcastInDim_apply _ h2 _ (ix2 r k) (ix2 (0 : Fin 1) k) fun a => ?_).trans
    (broadcastInDim_apply _ h1 v (ix2 (0 : Fin 1) k) (ix1 k) fun a => ?_)
  · match a with
    | ⟨0, _⟩ => rfl
    | ⟨1, _⟩ => rfl
  · match a with
    | ⟨0, _⟩ => rfl

/-- The same for a vector over the 128 output columns. -/
theorem rowB128_apply (v : FVec Ideal Cert.ReferenceIdeal.S128 .f32)
    (h1 : Cert.ReferenceIdeal.S128.BroadcastsInDim Cert.ReferenceIdeal.S1x128 (![1] : Fin 1 → Fin Cert.ReferenceIdeal.S1x128.rank))
    (h2 : Cert.ReferenceIdeal.S1x128.BroadcastsInDim Cert.ReferenceIdeal.S50000x128 (![0, 1] : Fin 2 → Fin Cert.ReferenceIdeal.S50000x128.rank))
    (r : Fin 50000) (k : Fin 128) :
    broadcastInDim Cert.ReferenceIdeal.S50000x128 ![0, 1] h2 (broadcastInDim Cert.ReferenceIdeal.S1x128 ![1] h1 v) (ix2 r k) = v (ix1 k) := by
  refine (broadcastInDim_apply _ h2 _ (ix2 r k) (ix2 (0 : Fin 1) k) fun a => ?_).trans
    (broadcastInDim_apply _ h1 v (ix2 (0 : Fin 1) k) (ix1 k) fun a => ?_)
  · match a with
    | ⟨0, _⟩ => rfl
    | ⟨1, _⟩ => rfl
  · match a with
    | ⟨0, _⟩ => rfl

/-- The whole-array stage at row `r`, column `q`. -/
theorem spec_apply (X : Cert.Spec.RA Cert.ReferenceIdeal.S50000x256) (mean var g beta : Cert.Spec.RA Cert.ReferenceIdeal.S256)
    (w : Cert.Spec.RA Cert.ReferenceIdeal.S256x128) (b : Cert.Spec.RA Cert.ReferenceIdeal.S128) (r : Fin 50000) (q : Fin 128) :
    Cert.Spec.lin256x128 (Cert.Spec.bnrelu256 X mean var g beta) w b (ix2 r q)
      = (∑ k : Fin 256, act (X (ix2 r k)) (mean (ix1 k)) (var (ix1 k)) (g (ix1 k)) (beta (ix1 k)) * w (ix2 k q)) + b (ix1 q) := by
  unfold Cert.Spec.lin256x128 Cert.Spec.bnrelu256
  rw [addf_apply, rdot_apply, rowB128_apply]
  congr 1
  refine Finset.sum_congr rfl fun k _ => ?_
  congr 1
  rw [maximumf_apply, addf_apply, mulf_apply, mulf_apply, subf_apply, rowB256_apply, rowB256_apply, rowB256_apply, rowB256_apply]
  rfl

/-! ## A block of the pipeline against the rows of the whole array it stands for -/

/-- If a block `xb` holds the rows of `X` from some row on, and the small blocks hold the statistics, the parameters,
    the weight and the bias, then the body's stored value at `(p, q)` is the whole-array stage at the row `r` that
    block row `p` stands for. -/
theorem block_value (xb : Vec Ideal S2000x256 .f32) (mb vb gb bb : Vec Ideal S1x256 .f32) (wb : Vec Ideal S256x128 .bf16)
    (cb : Vec Ideal S1x128 .f32)
    (X : Cert.Spec.RA Cert.ReferenceIdeal.S50000x256) (mean var g beta : Cert.Spec.RA Cert.ReferenceIdeal.S256)
    (w : Cert.Spec.RA Cert.ReferenceIdeal.S256x128) (b : Cert.Spec.RA Cert.ReferenceIdeal.S128) (p : Fin 2000) (q : Fin 128) (r : Fin 50000)
    (hx : ∀ k : Fin 256, xb (ix2 p k) = X (ix2 r k))
    (hm : ∀ k : Fin 256, mb (ix2 (0 : Fin 1) k) = mean (ix1 k)) (hv : ∀ k : Fin 256, vb (ix2 (0 : Fin 1) k) = var (ix1 k))
    (hg : ∀ k : Fin 256, gb (ix2 (0 : Fin 1) k) = g (ix1 k)) (hb : ∀ k : Fin 256, bb (ix2 (0 : Fin 1) k) = beta (ix1 k))
    (hw : ∀ k : Fin 256, wb (ix2 k q) = w (ix2 k q)) (hc : cb (ix2 (0 : Fin 1) q) = b (ix1 q)) :
    k7_pay1 (F := Ideal) xb mb vb gb bb wb cb (ix2 p q)
      = Cert.Spec.lin256x128 (Cert.Spec.bnrelu256 X mean var g beta) w b (ix2 r q) := by
  rw [pay_apply, spec_apply, hc]
  congr 1
  refine Finset.sum_congr rfl fun k _ => ?_
  rw [hx k, hm k, hv k, hg k, hb k, hw k]

/-! ## The pipeline's blocks as parts of the arrays -/

variable (V : (c : Dev nD) → (b : Ref sig .tc) → Buf (Elt Ideal) ((c : Thread nD τ).loc b))

theorem hz : (![0, 0] : Fin 2 → Nat) = fun _ => 0 := funext fun a => by fin_cases a <;> rfl

/-- The block index maps, decided over the 25 steps: the row-tiled operand and the result sit at block `(t, 0)`,
    every small operand at block `(0, 0)`. -/
theorem idx_facts : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = 0 ∧ win7_6.index t (1 : Fin 2) = 0
    ∧ win7_7.index t (0 : Fin 2) = t.val ∧ win7_7.index t (1 : Fin 2) = 0 :=
  (by decide +kernel : ∀ t : Fin grid7.N, _)

/-- Row `p` of the row-tiled operand's block at step `t` is row `2000·t + p` of the array. -/
theorem xblk_apply (c : Dev nD) (t : Fin cfg7.N) (p : Fin 2000) (k : Fin 256) (i : S50000x256.Idx)
    (h0 : (i 0).val = 2000 * t.val + p.val) (h1 : (i 1).val = k.val) :
    (iblk7 V c 0 t : Vec Ideal S2000x256 .f32) (ix2 p k) = (V c main_v136 : S50000x256.Idx → Elt Ideal .f32) i := by
  obtain ⟨e0, e1, -⟩ := idx_facts t
  unfold iblk7
  rw [View.read_apply]
  show V c main_v136 _ = V c main_v136 i
  congr 1
  funext a
  apply Fin.ext
  match a with
  | ⟨0, _⟩ => show win7_0.index t (0 : Fin 2) * 2000 + 1 * p.val = (i 0).val; rw [e0, h0]; omega
  | ⟨1, _⟩ => show win7_0.index t (1 : Fin 2) * 256 + 1 * k.val = (i 1).val; rw [e1, h1]; omega

/-- A small operand's one block is its whole array, at every step. -/
theorem blk1_eq (c : Dev nD) (t : Fin cfg7.N) :
    (iblk7 V c 1 t : Vec Ideal S1x256 .f32) = V c main_v151 := by
  obtain ⟨-, -, e0, e1, -⟩ := idx_facts t
  unfold iblk7
  funext y
  rw [View.read_apply]
  show V c main_v151 _ = V c main_v151 y
  congr 1
  funext a
  apply Fin.ext
  match a with
  | ⟨0, _⟩ => show win7_1.index t (0 : Fin 2) * 1 + 1 * (y 0).val = (y 0).val; rw [e0]; omega
  | ⟨1, _⟩ => show win7_1.index t (1 : Fin 2) * 256 + 1 * (y 1).val = (y 1).val; rw [e1]; omega

theorem blk2_eq (c : Dev nD) (t : Fin cfg7.N) :
    (iblk7 V c 2 t : Vec Ideal S1x256 .f32) = V c main_v152 := by
  obtain ⟨-, -, -, -, e0, e1, -⟩ := idx_facts t
  unfold iblk7
  funext y
  rw [View.read_apply]
  show V c main_v152 _ = V c main_v152 y
  congr 1
  funext a
  apply Fin.ext
  match a with
  | ⟨0, _⟩ => show win7_2.index t (0 : Fin 2) * 1 + 1 * (y 0).val = (y 0).val; rw [e0]; omega
  | ⟨1, _⟩ => show win7_2.index t (1 : Fin 2) * 256 + 1 * (y 1).val = (y 1).val; rw [e1]; omega

theorem blk3_eq (c : Dev nD) (t : Fin cfg7.N) :
    (iblk7 V c 3 t : Vec Ideal S1x256 .f32) = V c main_v153 := by
  obtain ⟨-, -, -, -, -, -, e0, e1, -⟩ := idx_facts t
  unfold iblk7
  funext y
  rw [View.read_apply]
  show V c main_v153 _ = V c main_v153 y
  congr 1
  funext a
  apply Fin.ext
  match a with
  | ⟨0, _⟩ => show win7_3.index t (0 : Fin 2) * 1 + 1 * (y 0).val = (y 0).val; rw [e0]; omega
  | ⟨1, _⟩ => show win7_3.index t (1 : Fin 2) * 256 + 1 * (y 1).val = (y 1).val; rw [e1]; omega

theorem blk4_eq (c : Dev nD) (t : Fin cfg7.N) :
    (iblk7 V c 4 t : Vec Ideal S1x256 .f32) = V c main_v154 := by
  obtain ⟨-, -, -, -, -, -, -, -, e0, e1, -⟩ := idx_facts t
  unfold iblk7
  funext y
  rw [View.read_apply]
  show V c main_v154 _ = V c main_v154 y
  congr 1
  funext a
  apply Fin.ext
  match a with
  | ⟨0, _⟩ => show win7_4.index t (0 : Fin 2) * 1 + 1 * (y 0).val = (y 0).val; rw [e0]; omega
  | ⟨1, _⟩ => show win7_4.index t (1 : Fin 2) * 256 + 1 * (y 1).val = (y 1).val; rw [e1]; omega

theorem blk5_eq (c : Dev nD) (t : Fin cfg7.N) :
    (iblk7 V c 5 t : Vec Ideal S256x128 .bf16) = V c main_v149 := by
  obtain ⟨-, -, -, -, -, -, -, -, -, -, e0, e1, -⟩ := idx_facts t
  unfold iblk7
  funext y
  rw [View.read_apply]
  show V c main_v149 _ = V c main_v149 y
  congr 1
  funext a
  apply Fin.ext
  match a with
  | ⟨0, _⟩ => show win7_5.index t (0 : Fin 2) * 256 + 1 * (y 0).val = (y 0).val; rw [e0]; omega
  | ⟨1, _⟩ => show win7_5.index t (1 : Fin 2) * 128 + 1 * (y 1).val = (y 1).val; rw [e1]; omega

theorem blk6_eq (c : Dev nD) (t : Fin cfg7.N) :
    (iblk7 V c 6 t : Vec Ideal S1x128 .f32) = V c main_v150 := by
  obtain ⟨-, -, -, -, -, -, -, -, -, -, -, -, e0, e1, -⟩ := idx_facts t
  unfold iblk7
  funext y
  rw [View.read_apply]
  show V c main_v150 _ = V c main_v150 y
  congr 1
  funext a
  apply Fin.ext
  match a with
  | ⟨0, _⟩ => show win7_6.index t (0 : Fin 2) * 1 + 1 * (y 0).val = (y 0).val; rw [e0]; omega
  | ⟨1, _⟩ => show win7_6.index t (1 : Fin 2) * 128 + 1 * (y 1).val = (y 1).val; rw [e1]; omega

/-! ## What each step writes back, and the array after the last step -/

/-- Step `t` writes back rows `2000·t … 2000·t + 1999` of the whole-array stage. -/
theorem flushed_eq (c : Dev nD) (mean var g beta : Cert.Spec.RA Cert.ReferenceIdeal.S256) (w : Cert.Spec.RA Cert.ReferenceIdeal.S256x128) (b : Cert.Spec.RA Cert.ReferenceIdeal.S128)
    (h1 : V c main_v151 = shapeCast S1x256 mean shapeCasts_S256_S1x256) (h2 : V c main_v152 = shapeCast S1x256 var shapeCasts_S256_S1x256)
    (h3 : V c main_v153 = shapeCast S1x256 g shapeCasts_S256_S1x256) (h4 : V c main_v154 = shapeCast S1x256 beta shapeCasts_S256_S1x256)
    (hw : V c main_v149 = truncf .bf16 w bitsLt_bf16_f32) (hb : V c main_v150 = shapeCast S1x128 b shapeCasts_S128_S1x128)
    (t : Fin cfg7.N) :
    (dat7 (F := Ideal) V c).flushed 7 t = ((cfg7.win 7).blk t).view.read (Elt Ideal) (Cert.Spec.lin256x128 (Cert.Spec.bnrelu256 (V c main_v136) mean var g beta) w b) := by
  show (cfg7.win 7).cut (grid7.coords t) ((dat7 V c).after 7 t) = _
  rw [after7_7]
  unfold out7_7
  rw [View.canon_unit_zero hz]
  simp only [View.ld_unit_zero (S := S2000x256) hz, View.ld_unit_zero (S := S1x256) hz, View.ld_unit_zero (S := S256x128) hz,
    View.ld_unit_zero (S := S1x128) hz]
  rw [blk1_eq V c t, blk2_eq V c t, blk3_eq V c t, blk4_eq V c t, blk5_eq V c t, blk6_eq V c t]
  have ht : t.val < 25 := lt_of_lt_of_eq t.isLt N_7
  obtain ⟨-, -, -, -, -, -, -, -, -, -, -, -, -, -, e0, e1⟩ := idx_facts t
  funext y
  obtain ⟨p, q, rfl⟩ : ∃ (p : Fin 2000) (q : Fin 128), y = ix2 p q := ⟨y 0, y 1, eq_ix2 y⟩
  have hr : 2000 * t.val + p.val < 50000 := by have hp := p.isLt; omega
  have hemb : ((cfg7.win 7).blk t).view.emb (ix2 p q) = ix2 (⟨2000 * t.val + p.val, hr⟩ : Fin 50000) q := by
    funext a
    apply Fin.ext
    match a with
    | ⟨0, _⟩ => show win7_7.index t (0 : Fin 2) * 2000 + 1 * p.val = 2000 * t.val + p.val; rw [e0]; omega
    | ⟨1, _⟩ => show win7_7.index t (1 : Fin 2) * 128 + 1 * q.val = q.val; rw [e1]; omega
  rw [View.read_apply, hemb]
  exact block_value (iblk7 V c 0 t) (V c main_v151) (V c main_v152) (V c main_v153) (V c main_v154) (V c main_v149) (V c main_v150)
    (V c main_v136) mean var g beta w b p q ⟨2000 * t.val + p.val, hr⟩
    (fun k => xblk_apply V c t p k _ rfl rfl)
    (fun k => (congrFun h1 _).trans (shapeCast_a_1a_apply mean _ 0 k))
    (fun k => (congrFun h2 _).trans (shapeCast_a_1a_apply var _ 0 k))
    (fun k => (congrFun h3 _).trans (shapeCast_a_1a_apply g _ 0 k))
    (fun k => (congrFun h4 _).trans (shapeCast_a_1a_apply beta _ 0 k))
    (fun k => congrFun hw _)
    ((congrFun hb _).trans (shapeCast_a_1a_apply b _ 0 q))

/-- Row `r` of the result lies in the block of step `r / 2000`, which is written back. -/
theorem cover (i : S50000x128.Idx) :
    ∃ t : Fin cfg7.N, (cfg7.win 7).flush t = true ∧ i ∈ ((cfg7.win 7).blk t).view.set := by
  have hi0 : (i 0).val < 50000 := (i 0).isLt
  have hi1 : (i 1).val < 128 := (i 1).isLt
  have hN : cfg7.N = 25 := N_7
  have ht0 : (i 0).val / 2000 < cfg7.N := by rw [hN]; omega
  refine ⟨⟨(i 0).val / 2000, ht0⟩, flush7_7 _, ?_⟩
  obtain ⟨-, -, -, -, -, -, -, -, -, -, -, -, -, -, e0, e1⟩ := idx_facts ⟨(i 0).val / 2000, ht0⟩
  have e0' : win7_7.index ⟨(i 0).val / 2000, ht0⟩ (0 : Fin 2) = (i 0).val / 2000 := e0
  show i ∈ ((View.whole main_v155).slice (win7_7.rect ⟨(i 0).val / 2000, ht0⟩)).set
  rw [View.set_slice_whole, Rect.mem_set_unit]
  intro a
  match a with
  | ⟨0, _⟩ =>
    show win7_7.index ⟨(i 0).val / 2000, ht0⟩ (0 : Fin 2) * 2000 ≤ (i 0).val
      ∧ (i 0).val < win7_7.index ⟨(i 0).val / 2000, ht0⟩ (0 : Fin 2) * 2000 + 2000
    rw [e0']; omega
  | ⟨1, _⟩ =>
    show win7_7.index ⟨(i 0).val / 2000, ht0⟩ (1 : Fin 2) * 128 ≤ (i 1).val
      ∧ (i 1).val < win7_7.index ⟨(i 0).val / 2000, ht0⟩ (1 : Fin 2) * 128 + 128
    rw [e1]; omega

end BnLin7

/-- After the 25 steps the result array holds the whole-array stage of the row-tiled operand as the stage found it:
    the normalisation with the given statistics, the rectifier, the product with the weight and the bias. -/
theorem bnlin7 (V : (c : Dev nD) → (b : Ref sig .tc) → Buf (Elt Ideal) ((c : Thread nD τ).loc b)) (c : Dev nD)
    (mean var g beta : Cert.Spec.RA Cert.ReferenceIdeal.S256) (w : Cert.Spec.RA Cert.ReferenceIdeal.S256x128) (b : Cert.Spec.RA Cert.ReferenceIdeal.S128)
    (h1 : V c main_v151 = shapeCast S1x256 mean shapeCasts_S256_S1x256) (h2 : V c main_v152 = shapeCast S1x256 var shapeCasts_S256_S1x256)
    (h3 : V c main_v153 = shapeCast S1x256 g shapeCasts_S256_S1x256) (h4 : V c main_v154 = shapeCast S1x256 beta shapeCasts_S256_S1x256)
    (hw : V c main_v149 = truncf .bf16 w bitsLt_bf16_f32) (hb : V c main_v150 = shapeCast S1x128 b shapeCasts_S128_S1x128) :
    (dat7 (F := Ideal) V c).arrAt 7 cfg7.N = Cert.Spec.lin256x128 (Cert.Spec.bnrelu256 (V c main_v136) mean var g beta) w b :=
  (dat7 (F := Ideal) V c).arrAt_eq_of_cover 7 (Cert.Spec.lin256x128 (Cert.Spec.bnrelu256 (V c main_v136) mean var g beta) w b)
    (fun t _ => BnLin7.flushed_eq V c mean var g beta w b h1 h2 h3 h4 hw hb t) BnLin7.cover

end Cert.KernelIdeal.RegVal

end
-- ==== Proof.RegBn8.lean ====
/-
  The value of the network's ninth block-wise step: a normalise-and-rectify step on a 50000 × 128 array.

  The step walks 25 row blocks of 2000 rows. At block t it reads rows 2000·t … 2000·t + 1999 of the array x and the four
  1 × 128 rows mean, var, g, β whole, and writes, to the same rows of its result,
      max (g · (x − mean) · rsqrt (var + 1e-5) + β) 0,
  each row laid over the 2000 rows of the block. When the four rows are the reshapes [128] → [1, 128] of four column
  vectors, this is, entry by entry, what the whole-array normalise-and-rectify function of those column vectors gives at
  the entry (2000·t + p, q): there each vector is first laid out as a 1 × 128 row and then over all 50000 rows, so both
  sides read column q of the vector; the difference, the products, the sum and the maximum are the extended reals' on
  both sides, and so is the reciprocal square root. The 25 blocks cover every row (row r lies in block r / 2000), so after
  the step the result array is that function of the array x as the step found it, whatever the other buffers held.

  In order: the whole-array function at an entry; the block function at an entry, and the two joined; each window's
  block at a point as entries of its array; the block a point writes back; the cover; the array after the step.
-/
import proofs.«107430_j24575802868448_1_alg».proof.Proof.FPKernelIdealR8
import proofs.«107430_j24575802868448_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.RegVal

open Idealize.ShloMosaic Idealize.ShloMosaic.TcCoe Idealize.SL.Sem Cert.KernelIdeal Cert.KernelIdeal.Gen
open Idealize.ShloMosaic.Pipeline (Dat)
open Idealize.ShloMosaic.ValueIdx

/-! ## The whole-array function at an entry -/

/-- A vector over the 128 columns, laid out as one row and that row over the 50000 rows, reads column `q` of the vector
    at the entry `(r, q)`. -/
theorem bn8_rows (v : Cert.Spec.RA Cert.ReferenceIdeal.S128)
    (hb : Cert.ReferenceIdeal.S128.BroadcastsInDim Cert.ReferenceIdeal.S1x128 (![1] : Fin 1 → Fin Cert.ReferenceIdeal.S1x128.rank))
    (hB : Cert.ReferenceIdeal.S1x128.BroadcastsInDim Cert.ReferenceIdeal.S50000x128 (![0, 1] : Fin 2 → Fin Cert.ReferenceIdeal.S50000x128.rank))
    (r : Fin 50000) (q : Fin 128) :
    broadcastInDim Cert.ReferenceIdeal.S50000x128 ![0, 1] hB (broadcastInDim Cert.ReferenceIdeal.S1x128 ![1] hb v) (ix2 r q) = v (ix1 q) := by
  refine (broadcastInDim_apply _ hB _ (ix2 r q) (ix2 (0 : Fin 1) q) fun a => ?_).trans ?_
  · match a with
    | ⟨0, _⟩ => rfl
    | ⟨1, _⟩ => rfl
  · refine broadcastInDim_apply _ hb v (ix2 (0 : Fin 1) q) (ix1 q) fun a => ?_
    match a with
    | ⟨0, _⟩ => rfl

/-- The normalise-and-rectify function of a whole array at the entry `(r, q)`:
    `max (g q · (x (r, q) − mean q) · rsqrt (var q + 1e-5) + β q) 0`. -/
theorem bn8_spec_at (x : Cert.Spec.RA Cert.ReferenceIdeal.S50000x128) (mean var g beta : Cert.Spec.RA Cert.ReferenceIdeal.S128)
    (r : Fin 50000) (q : Fin 128) :
    Cert.Spec.bnrelu128 x mean var g beta (ix2 r q)
      = max (g (ix1 q) * (x (ix2 r q) - mean (ix1 q)) * Ideal.rsqrt (var (ix1 q) + Ideal.ofBits .f32 0x3727C5AC#32) + beta (ix1 q))
          (Ideal.ofBits .f32 0x00000000#32) := by
  unfold Cert.Spec.bnrelu128
  rw [maximumf_apply, addf_apply, mulf_apply, mulf_apply, subf_apply, bn8_rows, bn8_rows, bn8_rows, bn8_rows]
  rfl

/-! ## The block function at an entry -/

/-- What one grid point computes from its blocks, at the entry `(p, q)` of the block: the same expression, each
    1 × 128 row read at column `q`. -/
theorem bn8_pay_at (x0 : Vec Ideal S2000x128 .f32) (x1 x2 x3 x4 : Vec Ideal S1x128 .f32) (p : Fin 2000) (q : Fin 128) :
    k8_pay1 (F := Ideal) x0 x1 x2 x3 x4 (ix2 p q)
      = max (x3 (ix2 (0 : Fin 1) q) * (x0 (ix2 p q) - x1 (ix2 (0 : Fin 1) q)) * Ideal.rsqrt (x2 (ix2 (0 : Fin 1) q) + Ideal.ofBits .f32 0x3727C5AC#32)
              + x4 (ix2 (0 : Fin 1) q))
          (Ideal.ofBits .f32 0x00000000#32) := by
  unfold k8_pay1
  simp only [shapeCast_self]
  rw [maximumf_apply, addf_apply, mulf_apply, mulf_apply, subf_apply, broadcastTo_1b_ab_apply, broadcastTo_1b_ab_apply,
    broadcastTo_1b_ab_apply, broadcastTo_1b_ab_apply]
  rfl

/-- ONE ENTRY. If the block of `x` holds at `y` what the array holds at `i`, `i` and `y` in the same column, and the four
    rows are the column vectors reshaped, the block function at `y` is the whole-array function at `i`. -/
theorem bn8_entry (x0 : Vec Ideal S2000x128 .f32) (x1 x2 x3 x4 : Vec Ideal S1x128 .f32)
    (X : Cert.Spec.RA Cert.ReferenceIdeal.S50000x128) (mean var g beta : Cert.Spec.RA Cert.ReferenceIdeal.S128)
    (e1 : x1 = shapeCast S1x128 mean shapeCasts_S128_S1x128) (e2 : x2 = shapeCast S1x128 var shapeCasts_S128_S1x128)
    (e3 : x3 = shapeCast S1x128 g shapeCasts_S128_S1x128) (e4 : x4 = shapeCast S1x128 beta shapeCasts_S128_S1x128)
    (y : S2000x128.Idx) (i : S50000x128.Idx) (hx : x0 y = X i) (hcol : (i 1).val = (y 1).val) :
    k8_pay1 (F := Ideal) x0 x1 x2 x3 x4 y = Cert.Spec.bnrelu128 X mean var g beta i := by
  obtain ⟨p, q, rfl⟩ : ∃ (p : Fin 2000) (q : Fin 128), y = ix2 p q := ⟨y 0, y 1, eq_ix2 y⟩
  obtain ⟨r, s, rfl⟩ : ∃ (r : Fin 50000) (s : Fin 128), i = ix2 r s := ⟨i 0, i 1, eq_ix2 i⟩
  obtain rfl : s = q := Fin.ext hcol
  rw [bn8_pay_at, bn8_spec_at, hx, e1, e2, e3, e4, shapeCast_a_1a_apply, shapeCast_a_1a_apply, shapeCast_a_1a_apply, shapeCast_a_1a_apply]

/-! ## The windows' blocks as entries of their arrays -/

theorem bn8_zero : (![0, 0] : Fin 2 → Nat) = fun _ => 0 := funext fun a => by fin_cases a <;> rfl

/-- The block indices over the 25 points: point `t` takes row block `t` of `x` and of the result, and the one block of each
    row vector. -/
theorem bn8_idx : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0 :=
  (by decide +kernel : ∀ t : Fin grid8.N, _)

variable (V : (c : Dev nD) → (b : Ref sig .tc) → Buf (Elt Ideal) ((c : Thread nD τ).loc b))

/-- The block of `x` at point `t` holds rows `2000 t … 2000 t + 1999` of `x`. -/
theorem bn8_blk_x (c : Dev nD) (t : Fin cfg8.N) (y : S2000x128.Idx) (i : S50000x128.Idx)
    (h0 : (i 0).val = 2000 * t.val + (y 0).val) (h1 : (i 1).val = (y 1).val) :
    (iblk8 V c 0 t : Vec Ideal S2000x128 .f32) y = (V c main_v155 : S50000x128.Idx → Elt Ideal .f32) i := by
  obtain ⟨e0, e1, -⟩ := bn8_idx t
  unfold iblk8
  rw [View.read_apply]
  show V c main_v155 _ = V c main_v155 _
  congr 1
  funext a
  apply Fin.ext
  match a with
  | ⟨0, _⟩ => show win8_0.index t (0 : Fin 2) * 2000 + 1 * (y 0).val = (i 0).val; rw [e0, h0]; omega
  | ⟨1, _⟩ => show win8_0.index t (1 : Fin 2) * 128 + 1 * (y 1).val = (i 1).val; rw [e1, h1]; omega

/-- The block of the mean row at any point is the whole row. -/
theorem bn8_blk_1 (c : Dev nD) (t : Fin cfg8.N) :
    (iblk8 V c 1 t : Vec Ideal S1x128 .f32) = (V c main_v164 : S1x128.Idx → Elt Ideal .f32) := by
  obtain ⟨-, -, e0, e1, -⟩ := bn8_idx t
  funext z
  unfold iblk8
  rw [View.read_apply]
  show V c main_v164 _ = V c main_v164 _
  congr 1
  funext a
  apply Fin.ext
  match a with
  | ⟨0, _⟩ => show win8_1.index t (0 : Fin 2) * 1 + 1 * (z 0).val = (z 0).val; rw [e0]; omega
  | ⟨1, _⟩ => show win8_1.index t (1 : Fin 2) * 128 + 1 * (z 1).val = (z 1).val; rw [e1]; omega

/-- The block of the variance row at any point is the whole row. -/
theorem bn8_blk_2 (c : Dev nD) (t : Fin cfg8.N) :
    (iblk8 V c 2 t : Vec Ideal S1x128 .f32) = (V c main_v165 : S1x128.Idx → Elt Ideal .f32) := by
  obtain ⟨-, -, -, -, e0, e1, -⟩ := bn8_idx t
  funext z
  unfold iblk8
  rw [View.read_apply]
  show V c main_v165 _ = V c main_v165 _
  congr 1
  funext a
  apply Fin.ext
  match a with
  | ⟨0, _⟩ => show win8_2.index t (0 : Fin 2) * 1 + 1 * (z 0).val = (z 0).val; rw [e0]; omega
  | ⟨1, _⟩ => show win8_2.index t (1 : Fin 2) * 128 + 1 * (z 1).val = (z 1).val; rw [e1]; omega

/-- The block of the scale row at any point is the whole row. -/
theorem bn8_blk_3 (c : Dev nD) (t : Fin cfg8.N) :
    (iblk8 V c 3 t : Vec Ideal S1x128 .f32) = (V c main_v166 : S1x128.Idx → Elt Ideal .f32) := by
  obtain ⟨-, -, -, -, -, -, e0, e1, -⟩ := bn8_idx t
  funext z
  unfold iblk8
  rw [View.read_apply]
  show V c main_v166 _ = V c main_v166 _
  congr 1
  funext a
  apply Fin.ext
  match a with
  | ⟨0, _⟩ => show win8_3.index t (0 : Fin 2) * 1 + 1 * (z 0).val = (z 0).val; rw [e0]; omega
  | ⟨1, _⟩ => show win8_3.index t (1 : Fin 2) * 128 + 1 * (z 1).val = (z 1).val; rw [e1]; omega

/-- The block of the shift row at any point is the whole row. -/
theorem bn8_blk_4 (c : Dev nD) (t : Fin cfg8.N) :
    (iblk8 V c 4 t : Vec Ideal S1x128 .f32) = (V c main_v167 : S1x128.Idx → Elt Ideal .f32) := by
  obtain ⟨-, -, -, -, -, -, -, -, e0, e1, -⟩ := bn8_idx t
  funext z
  unfold iblk8
  rw [View.read_apply]
  show V c main_v167 _ = V c main_v167 _
  congr 1
  funext a
  apply Fin.ext
  match a with
  | ⟨0, _⟩ => show win8_4.index t (0 : Fin 2) * 1 + 1 * (z 0).val = (z 0).val; rw [e0]; omega
  | ⟨1, _⟩ => show win8_4.index t (1 : Fin 2) * 128 + 1 * (z 1).val = (z 1).val; rw [e1]; omega

/-! ## What a point writes back, the cover, and the array after the step -/

/-- Point `t` writes back block `t` of the whole-array function of `x` as the step found it. -/
theorem bn8_flushed (c : Dev nD) (mean var g beta : Cert.Spec.RA Cert.ReferenceIdeal.S128)
    (h1 : V c main_v164 = shapeCast S1x128 mean shapeCasts_S128_S1x128) (h2 : V c main_v165 = shapeCast S1x128 var shapeCasts_S128_S1x128)
    (h3 : V c main_v166 = shapeCast S1x128 g shapeCasts_S128_S1x128) (h4 : V c main_v167 = shapeCast S1x128 beta shapeCasts_S128_S1x128)
    (t : Fin cfg8.N) :
    (dat8 (F := Ideal) V c).flushed 5 t
      = ((cfg8.win 5).blk t).view.read (Elt Ideal) (Cert.Spec.bnrelu128 (V c main_v155) mean var g beta) := by
  show (cfg8.win 5).cut (grid8.coords t) ((dat8 V c).after 5 t) = _
  rw [after8_5]
  unfold out8_5
  rw [View.canon_unit_zero bn8_zero]
  simp only [View.ld_unit_zero (S := S2000x128) bn8_zero, View.ld_unit_zero (S := S1x128) bn8_zero]
  obtain ⟨-, -, -, -, -, -, -, -, -, -, e0, e1⟩ := bn8_idx t
  funext j
  rw [View.read_apply]
  refine bn8_entry (iblk8 V c 0 t) (iblk8 V c 1 t) (iblk8 V c 2 t) (iblk8 V c 3 t) (iblk8 V c 4 t) (V c main_v155) mean var g beta
    ((bn8_blk_1 V c t).trans h1) ((bn8_blk_2 V c t).trans h2) ((bn8_blk_3 V c t).trans h3) ((bn8_blk_4 V c t).trans h4)
    j (((cfg8.win 5).blk t).view.emb j) (bn8_blk_x V c t j (((cfg8.win 5).blk t).view.emb j) ?_ ?_) ?_
  · show win8_5.index t (0 : Fin 2) * 2000 + 1 * (j 0).val = 2000 * t.val + (j 0).val; rw [e0]; omega
  · show win8_5.index t (1 : Fin 2) * 128 + 1 * (j 1).val = (j 1).val; rw [e1]; omega
  · show win8_5.index t (1 : Fin 2) * 128 + 1 * (j 1).val = (j 1).val; rw [e1]; omega

/-- Every entry of the result lies in some point's block: row `r` in the block of point `r / 2000`. -/
theorem bn8_cover (i : S50000x128.Idx) : ∃ t : Fin cfg8.N, (cfg8.win 5).flush t = true ∧ i ∈ ((cfg8.win 5).blk t).view.set := by
  have hi0 : (i 0).val < 50000 := (i 0).isLt
  have hi1 : (i 1).val < 128 := (i 1).isLt
  have hN : cfg8.N = 25 := N_8
  have ht : (i 0).val / 2000 < cfg8.N := by rw [hN]; omega
  obtain ⟨-, -, -, -, -, -, -, -, -, -, e0, e1⟩ := bn8_idx ⟨(i 0).val / 2000, ht⟩
  refine ⟨⟨(i 0).val / 2000, ht⟩, flush8_5 _, ?_⟩
  show i ∈ ((View.whole main_v168).slice (win8_5.rect ⟨(i 0).val / 2000, ht⟩)).set
  rw [View.set_slice_whole, Rect.mem_set_unit]
  intro a
  match a with
  | ⟨0, _⟩ =>
    show win8_5.index ⟨(i 0).val / 2000, ht⟩ (0 : Fin 2) * 2000 ≤ (i 0).val ∧ (i 0).val < win8_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win8_5.index ⟨(i 0).val / 2000, ht⟩ (1 : Fin 2) * 128 ≤ (i 1).val ∧ (i 1).val < win8_5.index ⟨(i 0).val / 2000, ht⟩ (1 : Fin 2) * 128 + 128
    rw [e1]; omega

/-- THE ARRAY AFTER THE STEP: the whole-array normalise-and-rectify function, with the column vectors whose reshapes
    the four rows are, of the array `x` as the step found it. -/
theorem bn8 (c : Dev nD) (mean var g beta : Cert.Spec.RA Cert.ReferenceIdeal.S128)
    (h1 : V c main_v164 = shapeCast S1x128 mean shapeCasts_S128_S1x128) (h2 : V c main_v165 = shapeCast S1x128 var shapeCasts_S128_S1x128)
    (h3 : V c main_v166 = shapeCast S1x128 g shapeCasts_S128_S1x128) (h4 : V c main_v167 = shapeCast S1x128 beta shapeCasts_S128_S1x128) :
    (dat8 (F := Ideal) V c).arrAt 5 cfg8.N = Cert.Spec.bnrelu128 (V c main_v155) mean var g beta :=
  (dat8 V c).arrAt_eq_of_cover 5 (Cert.Spec.bnrelu128 (V c main_v155) mean var g beta)
    (fun t _ => bn8_flushed V c mean var g beta h1 h2 h3 h4 t) bn8_cover

end Cert.KernelIdeal.RegVal

end
-- ==== Proof.KChainL2.lean ====
/-
  Layer 2 of the blocked program: what its buffers hold, boundary by boundary, as the specification's functions of the
  launch's argument arrays `A`.

  Entering the layer, the previous layer's output buffer holds `h2 A` and the edge list's rows sit where layer 0's host
  operations left them. Region 6 then leaves `z1` of this layer's parameters on `h2 A`, region 7 leaves `z2`, region 8
  the layer's output `h3 A`; the edge rows and the argument arrays are carried along unchanged.
-/
import proofs.«107430_j24575802868448_1_alg».proof.Proof.FPKernelIdealW
import proofs.«107430_j24575802868448_1_alg».proof.Proof.Spec
import proofs.«107430_j24575802868448_1_alg».proof.Proof.KArgs
import proofs.«107430_j24575802868448_1_alg».proof.Proof.KHostL2
import proofs.«107430_j24575802868448_1_alg».proof.Proof.KChainL1
import proofs.«107430_j24575802868448_1_alg».proof.Proof.RegLin6
import proofs.«107430_j24575802868448_1_alg».proof.Proof.RegBnLin7
import proofs.«107430_j24575802868448_1_alg».proof.Proof.RegBn8

set_option maxRecDepth 16384

noncomputable section

namespace Cert.KernelIdeal.Chain

open Idealize.ShloMosaic Idealize.ShloMosaic.TcCoe Idealize.SL.Sem Idealize.ShloMosaic.StableHlo Cert.KernelIdeal Cert.KernelIdeal.Gen
open Cert.Spec

variable (m : (ℓ : Loc nD τ sig) → Buf (Elt Ideal) ℓ) (ρ : Dev nD → PrngReg) (c : Dev nD)

/-! ## Entering region 6 -/

theorem b21_args : Host.argsOf (W21 m ρ c) = A m ρ c := (Host.e6_args _).trans (b20_args m ρ c)
theorem b21_src : W21 m ρ c (Proc.devRef .tc main_v1) = sA m ρ c := (Host.e6_src _).trans (b20_src m ρ c)
theorem b21_dst : W21 m ρ c (Proc.devRef .tc main_v3) = dA m ρ c := (Host.e6_dst _).trans (b20_dst m ρ c)

/-! ## Leaving region 6 -/

theorem b22_z1 : W22 m ρ c (Proc.devRef .tc main_v136) = z1 (P2 (A m ρ c)) (h2 (A m ρ c)) (sA m ρ c) (dA m ρ c) := by
  refine (W22_arr m ρ c 3).trans ?_
  rw [RegVal.lin6 (V21 m ρ) c (P2 (Host.argsOf (W20 m ρ c))).w1 (P2 (Host.argsOf (W20 m ρ c))).b1 (Host.e6_w _) (Host.e6_b _)]
  rw [show V21 m ρ c main_v129 = _ from Host.e6_x _, b20_h, b20_src, b20_dst, b20_args]
  rfl
theorem b22_src : W22 m ρ c (Proc.devRef .tc main_v1) = sA m ρ c := (W22_of_ne m ρ c main_v1 (by decide)).trans (b21_src m ρ c)
theorem b22_dst : W22 m ρ c (Proc.devRef .tc main_v3) = dA m ρ c := (W22_of_ne m ρ c main_v3 (by decide)).trans (b21_dst m ρ c)
theorem b22_args : Host.argsOf (W22 m ρ c) = A m ρ c :=
  (Host.argsOf_congr_of fun b hb => W22_of_ne m ρ c b ((by decide : ∀ b ∈ Host.argRefs, ∀ w, Pipeline.arrRef spec6 w ≠ b) b hb)).trans (b21_args m ρ c)

/-! ## Entering region 7 -/

theorem b25_args : Host.argsOf (W25 m ρ c) = A m ρ c := (Host.e7_args _).trans (b22_args m ρ c)
theorem b25_src : W25 m ρ c (Proc.devRef .tc main_v1) = sA m ρ c := (Host.e7_src _).trans (b22_src m ρ c)
theorem b25_dst : W25 m ρ c (Proc.devRef .tc main_v3) = dA m ρ c := (Host.e7_dst _).trans (b22_dst m ρ c)
theorem b25_x : W25 m ρ c (Proc.devRef .tc main_v136) = z1 (P2 (A m ρ c)) (h2 (A m ρ c)) (sA m ρ c) (dA m ρ c) := (Host.e7_x _).trans (b22_z1 m ρ c)

/-! ## Leaving region 7 -/

theorem b26_z2 : W26 m ρ c (Proc.devRef .tc main_v155) = z2 (P2 (A m ρ c)) (h2 (A m ρ c)) (sA m ρ c) (dA m ρ c) := by
  refine (W26_arr m ρ c 7).trans ?_
  rw [RegVal.bnlin7 (V25 m ρ) c (mean256 (W22 m ρ c (Proc.devRef .tc main_v136))) (var256 (W22 m ρ c (Proc.devRef .tc main_v136)))
    (P2 (Host.argsOf (W22 m ρ c))).g1 (P2 (Host.argsOf (W22 m ρ c))).be1 (P2 (Host.argsOf (W22 m ρ c))).w2 (P2 (Host.argsOf (W22 m ρ c))).b2
    (Host.e7_mean _) (Host.e7_var _) (Host.e7_g _) (Host.e7_beta _) (Host.e7_w _) (Host.e7_b _)]
  rw [show V25 m ρ c main_v136 = _ from b25_x m ρ c, b22_z1, b22_args]
  rfl
theorem b26_src : W26 m ρ c (Proc.devRef .tc main_v1) = sA m ρ c := (W26_of_ne m ρ c main_v1 (by decide)).trans (b25_src m ρ c)
theorem b26_dst : W26 m ρ c (Proc.devRef .tc main_v3) = dA m ρ c := (W26_of_ne m ρ c main_v3 (by decide)).trans (b25_dst m ρ c)
theorem b26_args : Host.argsOf (W26 m ρ c) = A m ρ c :=
  (Host.argsOf_congr_of fun b hb => W26_of_ne m ρ c b ((by decide : ∀ b ∈ Host.argRefs, ∀ w, Pipeline.arrRef spec7 w ≠ b) b hb)).trans (b25_args m ρ c)

/-! ## Entering region 8 -/

theorem b29_args : Host.argsOf (W29 m ρ c) = A m ρ c := (Host.e8_args _).trans (b26_args m ρ c)
theorem b29_src : W29 m ρ c (Proc.devRef .tc main_v1) = sA m ρ c := (Host.e8_src _).trans (b26_src m ρ c)
theorem b29_dst : W29 m ρ c (Proc.devRef .tc main_v3) = dA m ρ c := (Host.e8_dst _).trans (b26_dst m ρ c)
theorem b29_x : W29 m ρ c (Proc.devRef .tc main_v155) = z2 (P2 (A m ρ c)) (h2 (A m ρ c)) (sA m ρ c) (dA m ρ c) := (Host.e8_x _).trans (b26_z2 m ρ c)

/-! ## Leaving region 8: the layer's output -/

theorem b30_h : W30 m ρ c (Proc.devRef .tc main_v168) = h3 (A m ρ c) := by
  refine (W30_arr m ρ c 5).trans ?_
  rw [RegVal.bn8 (V29 m ρ) c (mean128 (W26 m ρ c (Proc.devRef .tc main_v155))) (var128 (W26 m ρ c (Proc.devRef .tc main_v155)))
    (P2 (Host.argsOf (W26 m ρ c))).g2 (P2 (Host.argsOf (W26 m ρ c))).be2
    (Host.e8_mean _) (Host.e8_var _) (Host.e8_g _) (Host.e8_beta _)]
  rw [show V29 m ρ c main_v155 = _ from b29_x m ρ c, b26_z2, b26_args]
  rfl
theorem b30_src : W30 m ρ c (Proc.devRef .tc main_v1) = sA m ρ c := (W30_of_ne m ρ c main_v1 (by decide)).trans (b29_src m ρ c)
theorem b30_dst : W30 m ρ c (Proc.devRef .tc main_v3) = dA m ρ c := (W30_of_ne m ρ c main_v3 (by decide)).trans (b29_dst m ρ c)
theorem b30_args : Host.argsOf (W30 m ρ c) = A m ρ c :=
  (Host.argsOf_congr_of fun b hb => W30_of_ne m ρ c b ((by decide : ∀ b ∈ Host.argRefs, ∀ w, Pipeline.arrRef spec8 w ≠ b) b hb)).trans (b29_args m ρ c)

end Cert.KernelIdeal.Chain

end
-- ==== Proof.RegLin9.lean ====
/-
  A linear map of the network, computed block by block, is the linear map on whole arrays.

  The launch cuts the 50000 × 128 array `x` into 25 blocks of 2000 rows. At grid point `t` the body reads rows
  `2000·t … 2000·t + 1999` of `x`, the whole 128 × 256 weight matrix and the whole 1 × 256 bias row, and leaves in
  the output's block the matrix product of the row block with the weights plus the bias row repeated over the 2000
  rows. Over the extended reals a change of float format is the identity and a matrix product is an exact sum, so entry
  `(p, q)` of that block is `Σ_k x[2000·t + p, k] · w[k, q] + b[q]`: entry `(2000·t + p, q)` of `x · w + b`. The 25
  blocks tile the 50000 × 256 result, row `r` lying in the block of point `r / 2000`, so after the last write-back
  the result array is `x · w + b` — whatever the three input arrays held when the launch began, as long as the
  weight buffer holds `w` (narrowed to bf16: the identity here) and the bias buffer holds `b` laid out as one row.
-/
import proofs.«107430_j24575802868448_1_alg».proof.Proof.FPKernelIdealR9
import proofs.«107430_j24575802868448_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegVal.Lin9

open Idealize.ShloMosaic Idealize.ShloMosaic.TcCoe Idealize.SL.Sem
open Idealize.ShloMosaic.Pipeline (Dat)
open Cert.KernelIdeal Cert.KernelIdeal.Gen
open Idealize.ShloMosaic.ValueIdx

/-! ## The block product: which entries of its operands an entry of the product reads

For the product of a 2000 × 128 block with the 128 × 256 weights, at result entry `i` and contraction position `q` the
left operand is read at (row of `i`, `q`) and the right one at (`q`, column of `i`): one statement per operand axis. -/

theorem blk_lhs_row (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide),
    dif_pos (show (0 : Fin S2000x128.rank) ∈ dot_S2000x128_S128x256_S2000x256_1_0_0_1_n_n.lhsNonContracting by decide)]
  rfl
theorem blk_lhs_col (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
theorem blk_rhs_row (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
theorem blk_rhs_col (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide),
    dif_pos (show (1 : Fin S128x256.rank) ∈ dot_S2000x128_S128x256_S2000x256_1_0_0_1_n_n.rhsNonContracting by decide)]
  rfl

/-- Entry `(p, q)` of the block product accumulated from zero is `Σ_k x[p, k] · w[k, q]`. -/
theorem blk_product_entry (x : FVec Ideal S2000x128 .bf16) (w : FVec Ideal S128x256 .bf16) (p : Fin 2000) (q : Fin 256) :
    matmul dot_S2000x128_S128x256_S2000x256_1_0_0_1_n_n none x w (constant S2000x256 .f32 0x00000000#32) (ix2 p q)
      = ∑ k : Fin 128, x (ix2 p k) * w (ix2 k q) := by
  simp only [matmul]
  rw [Ideal.matmul_constant_zero_apply, ← Equiv.sum_comp (contrEquiv1 dot_S2000x128_S128x256_S2000x256_1_0_0_1_n_n 128 rfl rfl).symm]
  refine Finset.sum_congr rfl fun k _ => ?_
  have hk := contrEquiv1_symm_val dot_S2000x128_S128x256_S2000x256_1_0_0_1_n_n 128 rfl rfl k
  have el : dot_S2000x128_S128x256_S2000x256_1_0_0_1_n_n.lhsIdx (ix2 p q) ((contrEquiv1 dot_S2000x128_S128x256_S2000x256_1_0_0_1_n_n 128 rfl rfl).symm k) = ix2 p k := funext fun a => Fin.ext (by
    match a with
    | ⟨0, _⟩ => exact blk_lhs_row _ _
    | ⟨1, _⟩ => exact (blk_lhs_col _ _).trans hk)
  have er : dot_S2000x128_S128x256_S2000x256_1_0_0_1_n_n.rhsIdx (ix2 p q) ((contrEquiv1 dot_S2000x128_S128x256_S2000x256_1_0_0_1_n_n 128 rfl rfl).symm k) = ix2 k q := funext fun a => Fin.ext (by
    match a with
    | ⟨0, _⟩ => exact (blk_rhs_row _ _).trans hk
    | ⟨1, _⟩ => exact blk_rhs_col _ _)
  rw [el, er]

/-- What the body stores, entry by entry: `Σ_k x₀[p, k] · x₁[k, q] + x₂[0, q]` of the three blocks it loaded
    (the narrowing of `x₀` to bf16 is the identity on extended reals). -/
theorem stored_entry (x0 : Vec Ideal S2000x128 .f32) (x1 : Vec Ideal S128x256 .bf16) (x2 : Vec Ideal S1x256 .f32)
    (p : Fin 2000) (q : Fin 256) :
    (k9_pay1 (F := Ideal) x0 x1 x2) (ix2 p q) = (∑ k : Fin 128, x0 (ix2 p k) * x1 (ix2 k q)) + x2 (ix2 (0 : Fin 1) q) := by
  unfold k9_pay1
  simp only [shapeCast_self]
  rw [addf_apply, blk_product_entry, broadcastTo_1b_ab_apply]
  rfl

/-! ## The whole-array product, the same way -/

theorem arr_lhs_row (i : Cert.ReferenceIdeal.S50000x256.Idx) (q : Cert.ReferenceIdeal.dot_S50000x128_S128x256_S50000x256_1_0_0_1_n_n.contr.Idx) :
    (Cert.ReferenceIdeal.dot_S50000x128_S128x256_S50000x256_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x256_S50000x256_1_0_0_1_n_n.lhsBatch by decide),
    dif_pos (show (0 : Fin Cert.ReferenceIdeal.S50000x128.rank) ∈ Cert.ReferenceIdeal.dot_S50000x128_S128x256_S50000x256_1_0_0_1_n_n.lhsNonContracting by decide)]
  rfl
theorem arr_lhs_col (i : Cert.ReferenceIdeal.S50000x256.Idx) (q : Cert.ReferenceIdeal.dot_S50000x128_S128x256_S50000x256_1_0_0_1_n_n.contr.Idx) :
    (Cert.ReferenceIdeal.dot_S50000x128_S128x256_S50000x256_1_0_0_1_n_n.lhsIdx i q 1).val = (q ⟨0, by decide⟩).val :=
  Cert.ReferenceIdeal.dot_S50000x128_S128x256_S50000x256_1_0_0_1_n_n.lhsIdx_val_of_single rfl i q
theorem arr_rhs_row (i : Cert.ReferenceIdeal.S50000x256.Idx) (q : Cert.ReferenceIdeal.dot_S50000x128_S128x256_S50000x256_1_0_0_1_n_n.contr.Idx) :
    (Cert.ReferenceIdeal.dot_S50000x128_S128x256_S50000x256_1_0_0_1_n_n.rhsIdx i q 0).val = (q ⟨0, by decide⟩).val :=
  Cert.ReferenceIdeal.dot_S50000x128_S128x256_S50000x256_1_0_0_1_n_n.rhsIdx_val_of_single rfl i q
theorem arr_rhs_col (i : Cert.ReferenceIdeal.S50000x256.Idx) (q : Cert.ReferenceIdeal.dot_S50000x128_S128x256_S50000x256_1_0_0_1_n_n.contr.Idx) :
    (Cert.ReferenceIdeal.dot_S50000x128_S128x256_S50000x256_1_0_0_1_n_n.rhsIdx i q 1).val = (i 1).val := by
  unfold DotDims.rhsIdx
  rw [dif_neg (show ¬(1 : Fin Cert.ReferenceIdeal.S128x256.rank) ∈ Cert.ReferenceIdeal.dot_S50000x128_S128x256_S50000x256_1_0_0_1_n_n.rhsBatch by decide),
    dif_pos (show (1 : Fin Cert.ReferenceIdeal.S128x256.rank) ∈ Cert.ReferenceIdeal.dot_S50000x128_S128x256_S50000x256_1_0_0_1_n_n.rhsNonContracting by decide)]
  rfl

/-- Entry `(r, q)` of the whole-array product is `Σ_k x[r, k] · w[k, q]`. -/
theorem arr_product_entry (x : FVec Ideal Cert.ReferenceIdeal.S50000x128 .f32) (w : FVec Ideal Cert.ReferenceIdeal.S128x256 .f32)
    (r : Fin 50000) (q : Fin 256) :
    Host.dotGeneral Cert.ReferenceIdeal.dot_S50000x128_S128x256_S50000x256_1_0_0_1_n_n none x w (ix2 r q) = ∑ k : Fin 128, x (ix2 r k) * w (ix2 k q) := by
  simp only [Host.dotGeneral]
  rw [Ideal.dotGeneral_apply, ← Equiv.sum_comp (contrEquiv1 Cert.ReferenceIdeal.dot_S50000x128_S128x256_S50000x256_1_0_0_1_n_n 128 rfl rfl).symm]
  refine Finset.sum_congr rfl fun k _ => ?_
  have hk := contrEquiv1_symm_val Cert.ReferenceIdeal.dot_S50000x128_S128x256_S50000x256_1_0_0_1_n_n 128 rfl rfl k
  have el : Cert.ReferenceIdeal.dot_S50000x128_S128x256_S50000x256_1_0_0_1_n_n.lhsIdx (ix2 r q) ((contrEquiv1 Cert.ReferenceIdeal.dot_S50000x128_S128x256_S50000x256_1_0_0_1_n_n 128 rfl rfl).symm k) = ix2 r k := funext fun a => Fin.ext (by
    match a with
    | ⟨0, _⟩ => exact arr_lhs_row _ _
    | ⟨1, _⟩ => exact (arr_lhs_col _ _).trans hk)
  have er : Cert.ReferenceIdeal.dot_S50000x128_S128x256_S50000x256_1_0_0_1_n_n.rhsIdx (ix2 r q) ((contrEquiv1 Cert.ReferenceIdeal.dot_S50000x128_S128x256_S50000x256_1_0_0_1_n_n 128 rfl rfl).symm k) = ix2 k q := funext fun a => Fin.ext (by
    match a with
    | ⟨0, _⟩ => exact (arr_rhs_row _ _).trans hk
    | ⟨1, _⟩ => exact arr_rhs_col _ _)
  rw [el, er]

/-- A vector laid out as one row reads, at `(0, q)`, its entry `q`. -/
theorem vec_as_row {α : Type} {m : Nat} (v : (⟨1, ![m]⟩ : Shape).Idx → α)
    (h : (⟨1, ![m]⟩ : Shape).BroadcastsInDim ⟨2, ![1, m]⟩ ![1]) (u : Fin 1) (q : Fin m) :
    broadcastInDim ⟨2, ![1, m]⟩ ![1] h v (ix2 u q) = v (ix1 q) := by
  refine broadcastInDim_apply _ h v (ix2 u q) (ix1 q) fun a => ?_
  match a with
  | ⟨0, _⟩ =>
    show q.val = if m = 1 then 0 else q.val
    split
    · have := q.isLt; omega
    · rfl

/-- One row repeated over `n` rows reads, at `(r, q)`, the row's entry `q`. -/
theorem row_over_rows {α : Type} {n m : Nat} (v : (⟨2, ![1, m]⟩ : Shape).Idx → α)
    (h : (⟨2, ![1, m]⟩ : Shape).BroadcastsInDim ⟨2, ![n, m]⟩ ![0, 1]) (r : Fin n) (q : Fin m) :
    broadcastInDim ⟨2, ![n, m]⟩ ![0, 1] h v (ix2 r q) = v (ix2 (0 : Fin 1) q) := by
  refine broadcastInDim_apply _ h v (ix2 r q) (ix2 (0 : Fin 1) q) fun a => ?_
  match a with
  | ⟨0, _⟩ => rfl
  | ⟨1, _⟩ =>
    show q.val = if m = 1 then 0 else q.val
    split
    · have := q.isLt; omega
    · rfl

/-- Entry `(r, q)` of `x · w + b` is `Σ_k x[r, k] · w[k, q] + b[q]`. -/
theorem linear_entry (x : Cert.Spec.RA Cert.ReferenceIdeal.S50000x128) (w : Cert.Spec.RA Cert.ReferenceIdeal.S128x256)
    (b : Cert.Spec.RA Cert.ReferenceIdeal.S256) (r : Fin 50000) (q : Fin 256) :
    Cert.Spec.lin128x256 x w b (ix2 r q) = (∑ k : Fin 128, x (ix2 r k) * w (ix2 k q)) + b (ix1 q) := by
  unfold Cert.Spec.lin128x256
  rw [addf_apply, arr_product_entry, row_over_rows, vec_as_row]

/-! ## The grid: which block of each array a point reads or writes -/

/-- At point `t` the row-tiled arrays (`x` and the result) are at block `(t, 0)`, the weights and the bias at
    their one block `(0, 0)`. -/
theorem block_indices : ∀ t : Fin cfg9.N,
    win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = t.val ∧ win9_3.index t (1 : Fin 2) = 0 :=
  (by decide +kernel : ∀ t : Fin grid9.N, _)

variable (c : Dev nD)

/-- The block of `x` at point `t`, at `y`, is `x` at row `2000·t + y₀`, column `y₁`. -/
theorem x_block (A : Buf (Elt Ideal) ((c : Thread nD τ).loc main_v184)) (t : Fin cfg9.N) (y : S2000x128.Idx) (k : S50000x128.Idx)
    (hk0 : (k 0).val = 2000 * t.val + (y 0).val) (hk1 : (k 1).val = (y 1).val) :
    (((cfg9.win 0).blk t).view.read (Elt Ideal) A : Vec Ideal S2000x128 .f32) y = (A : S50000x128.Idx → Elt Ideal .f32) k := by
  obtain ⟨e0, e1, -⟩ := block_indices t
  rw [View.read_apply]
  refine congrArg (A : S50000x128.Idx → Elt Ideal .f32) (funext fun a => Fin.ext ?_)
  match a with
  | ⟨0, _⟩ => show win9_0.index t (0 : Fin 2) * 2000 + 1 * (y 0).val = (k 0).val; rw [e0, hk0]; omega
  | ⟨1, _⟩ => show win9_0.index t (1 : Fin 2) * 128 + 1 * (y 1).val = (k 1).val; rw [e1, hk1]; omega

/-- The weights' block at every point is the whole weight array. -/
theorem w_block (A : Buf (Elt Ideal) ((c : Thread nD τ).loc main_v189)) (t : Fin cfg9.N) :
    (((cfg9.win 1).blk t).view.read (Elt Ideal) A : Vec Ideal S128x256 .bf16) = (A : S128x256.Idx → Elt Ideal .bf16) := by
  obtain ⟨-, -, e2, e3, -⟩ := block_indices t
  funext y
  rw [View.read_apply]
  refine congrArg (A : S128x256.Idx → Elt Ideal .bf16) (funext fun a => Fin.ext ?_)
  match a with
  | ⟨0, _⟩ => show win9_1.index t (0 : Fin 2) * 128 + 1 * (y 0).val = (y 0).val; rw [e2]; omega
  | ⟨1, _⟩ => show win9_1.index t (1 : Fin 2) * 256 + 1 * (y 1).val = (y 1).val; rw [e3]; omega

/-- The bias row's block at every point is the whole row. -/
theorem b_block (A : Buf (Elt Ideal) ((c : Thread nD τ).loc main_v190)) (t : Fin cfg9.N) :
    (((cfg9.win 2).blk t).view.read (Elt Ideal) A : Vec Ideal S1x256 .f32) = (A : S1x256.Idx → Elt Ideal .f32) := by
  obtain ⟨-, -, -, -, e4, e5, -⟩ := block_indices t
  funext y
  rw [View.read_apply]
  refine congrArg (A : S1x256.Idx → Elt Ideal .f32) (funext fun a => Fin.ext ?_)
  match a with
  | ⟨0, _⟩ => show win9_2.index t (0 : Fin 2) * 1 + 1 * (y 0).val = (y 0).val; rw [e4]; omega
  | ⟨1, _⟩ => show win9_2.index t (1 : Fin 2) * 256 + 1 * (y 1).val = (y 1).val; rw [e5]; omega

/-- What the body stores from rows `2000·n …` of `X`, the weights `W` and the bias `B` as a row is, entry by
    entry, `X · W + B` at the rows `2000·n …`. -/
theorem block_is_linear (X : Cert.Spec.RA Cert.ReferenceIdeal.S50000x128) (W : Cert.Spec.RA Cert.ReferenceIdeal.S128x256)
    (B : Cert.Spec.RA Cert.ReferenceIdeal.S256)
    (x0 : Vec Ideal S2000x128 .f32) (x1 : Vec Ideal S128x256 .bf16) (x2 : Vec Ideal S1x256 .f32) (n : Nat)
    (h0 : ∀ (y : S2000x128.Idx) (k : S50000x128.Idx), (k 0).val = 2000 * n + (y 0).val → (k 1).val = (y 1).val → x0 y = X k)
    (h1 : x1 = truncf .bf16 W bitsLt_bf16_f32) (h2 : x2 = shapeCast S1x256 B shapeCasts_S256_S1x256)
    (y : S2000x256.Idx) (i : S50000x256.Idx) (hi0 : (i 0).val = 2000 * n + (y 0).val) (hi1 : (i 1).val = (y 1).val) :
    k9_pay1 (F := Ideal) x0 x1 x2 y = Cert.Spec.lin128x256 X W B i := by
  obtain ⟨p, q, rfl⟩ : ∃ (p : Fin 2000) (q : Fin 256), y = ix2 p q := ⟨y 0, y 1, eq_ix2 y⟩
  obtain ⟨r, q', rfl⟩ : ∃ (r : Fin 50000) (q' : Fin 256), i = ix2 r q' := ⟨i 0, i 1, eq_ix2 i⟩
  obtain rfl : q' = q := Fin.ext hi1
  rw [stored_entry, linear_entry]
  have hs : ∀ k : Fin 128, x0 (ix2 p k) * x1 (ix2 k q') = X (ix2 r k) * W (ix2 k q') := fun k => by
    rw [h0 (ix2 p k) (ix2 r k) hi0 rfl, h1, truncf_apply]
  have hb : x2 (ix2 (0 : Fin 1) q') = B (ix1 q') := by
    rw [h2, shapeCast_a_1a_apply]
  rw [Finset.sum_congr rfl fun k _ => hs k, hb]

/-- Every entry of the result lies in a block that is written back: row `r` in the block of point `r / 2000`. -/
theorem rows_covered (i : ((cfg9.win 3).arr.view.loc (c.tc : Thread nD τ)).2.ty.Idx) :
    ∃ t : Fin cfg9.N, (cfg9.win 3).flush t = true ∧ i ∈ ((cfg9.win 3).blk t).view.set := by
  have h0 : (i 0 : Nat) < 50000 := (i 0).isLt
  have h1 : (i 1 : Nat) < 256 := (i 1).isLt
  have hN : cfg9.N = 25 := N_9
  let t : Fin cfg9.N := ⟨(i 0 : Nat) / 2000, by rw [hN]; omega⟩
  obtain ⟨-, -, -, -, -, -, e6, e7⟩ := block_indices t
  refine ⟨t, flush9_3 t, ?_⟩
  show i ∈ ((View.whole main_v191).slice (win9_3.rect t)).set
  rw [View.set_slice_whole, Rect.mem_set_unit]
  intro a
  match a with
  | ⟨0, _⟩ =>
    show win9_3.index t (0 : Fin 2) * 2000 ≤ (i 0 : Nat) ∧ (i 0 : Nat) < win9_3.index t (0 : Fin 2) * 2000 + 2000
    rw [e6]; show (i 0 : Nat) / 2000 * 2000 ≤ (i 0 : Nat) ∧ (i 0 : Nat) < (i 0 : Nat) / 2000 * 2000 + 2000; omega
  | ⟨1, _⟩ =>
    show win9_3.index t (1 : Fin 2) * 256 ≤ (i 1 : Nat) ∧ (i 1 : Nat) < win9_3.index t (1 : Fin 2) * 256 + 256
    rw [e7]; omega

theorem zero_offsets : (![0, 0] : Fin 2 → Nat) = fun _ => 0 := funext fun a => by fin_cases a <;> rfl

/-- What point `t` writes back is block `t` of `x · w + b`, `x` the first array's contents at entry. -/
theorem written_back (V : (c : Dev nD) → (b : Ref sig .tc) → Buf (Elt Ideal) ((c : Thread nD τ).loc b))
    (w : Cert.Spec.RA Cert.ReferenceIdeal.S128x256) (b : Cert.Spec.RA Cert.ReferenceIdeal.S256)
    (hw : V c main_v189 = truncf .bf16 w bitsLt_bf16_f32)
    (hb : V c main_v190 = shapeCast S1x256 b shapeCasts_S256_S1x256) (t : Fin cfg9.N) :
    (dat9 (F := Ideal) V c).flushed 3 t
      = ((cfg9.win 3).blk t).view.read (Elt Ideal) (Cert.Spec.lin128x256 (V c main_v184) w b) := by
  show (cfg9.win 3).cut (grid9.coords t) ((dat9 V c).after 3 t) = _
  rw [after9_3]
  unfold out9_3
  rw [View.canon_unit_zero zero_offsets]
  simp only [View.ld_unit_zero (S := S2000x128) zero_offsets, View.ld_unit_zero (S := S128x256) zero_offsets,
    View.ld_unit_zero (S := S1x256) zero_offsets]
  obtain ⟨-, -, -, -, -, -, e6, e7⟩ := block_indices t
  funext j
  rw [View.read_apply]
  refine block_is_linear (V c main_v184) w b (iblk9 V c 0 t) (iblk9 V c 1 t) (iblk9 V c 2 t) t.val
    (fun y k hk0 hk1 => x_block c (V c main_v184) t y k hk0 hk1)
    ((w_block c (V c main_v189) t).trans hw) ((b_block c (V c main_v190) t).trans hb)
    ((cfg9.win 3).xinj (grid9.coords t) j) (((cfg9.win 3).blk t).view.emb j) ?_ ?_
  · show win9_3.index t (0 : Fin 2) * 2000 + 1 * (j 0).val = 2000 * t.val + (j 0).val
    rw [e6]; omega
  · show win9_3.index t (1 : Fin 2) * 256 + 1 * (j 1).val = (j 1).val
    rw [e7]; omega

end Cert.KernelIdeal.RegVal.Lin9

namespace Cert.KernelIdeal.RegVal

open Idealize.ShloMosaic Idealize.ShloMosaic.TcCoe Idealize.SL.Sem
open Idealize.ShloMosaic.Pipeline (Dat)
open Cert.KernelIdeal Cert.KernelIdeal.Gen

/-- THE RESULT ARRAY after the launch is `x · w + b` of the first array's entry contents, for any entry contents
    whose weight buffer is `w` and whose bias buffer is `b` as a row. -/
theorem lin9 (V : (c : Dev nD) → (b : Ref sig .tc) → Buf (Elt Ideal) ((c : Thread nD τ).loc b)) (c : Dev nD)
    (w : Cert.Spec.RA Cert.ReferenceIdeal.S128x256) (b : Cert.Spec.RA Cert.ReferenceIdeal.S256)
    (hw : V c main_v189 = truncf .bf16 w bitsLt_bf16_f32)
    (hb : V c main_v190 = shapeCast S1x256 b shapeCasts_S256_S1x256) :
    (dat9 (F := Ideal) V c).arrAt 3 cfg9.N = Cert.Spec.lin128x256 (V c main_v184) w b :=
  (dat9 V c).arrAt_eq_of_cover 3 (Cert.Spec.lin128x256 (V c main_v184) w b)
    (fun t _ => Lin9.written_back c V w b hw hb t) (Lin9.rows_covered c)

end Cert.KernelIdeal.RegVal

end
-- ==== Proof.RegBnLin10.lean ====
/-
  The value of one normalise-rectify-then-linear stage, read off the block pipeline.

  The stage takes a 50000 × 256 array x, four vectors over its 256 columns (a mean, a variance, a scale g and a shift β),
  a 256 × 128 weight and a bias over the 128 output columns, and produces the 50000 × 128 array

      y[r, q] = Σ_k max (g[k] · (x[r, k] − mean[k]) · rsqrt (var[k] + 1e-5) + β[k]) 0 · w[k, q]  +  bias[q].

  The pipeline computes it in 25 steps: step t reads rows 2000·t … 2000·t + 1999 of x and the whole of every small
  operand, forms exactly this expression for those rows and writes rows 2000·t … 2000·t + 1999 of the result. Row r of
  the result depends on row r of x only, so each written block is the corresponding block of the whole-array function,
  and the 25 blocks tile the 50000 rows: the result array ends holding the whole-array function. Over the extended
  reals the change of float format before the product is the identity, the product into a zero accumulator is the
  plain sum over the contracted index, and the two reciprocal square roots are one function, so the two sides agree
  term by term.
-/
import proofs.«107430_j24575802868448_1_alg».proof.Proof.FPKernelIdealR10
import proofs.«107430_j24575802868448_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegVal

open Idealize.ShloMosaic Idealize.ShloMosaic.TcCoe Idealize.SL.Sem Idealize.ShloMosaic.ValueIdx Cert.KernelIdeal Cert.KernelIdeal.Gen
open Idealize.ShloMosaic.Pipeline (Dat)

namespace BnLin10

/-- One entry normalised with its column's statistics, scaled, shifted and rectified:
    `max (g · (x − m) · rsqrt (v + 1e-5) + b) 0`. -/
def act (x m v g b : EReal) : EReal :=
  max (g * (x - m) * Ideal.rsqrt (v + Ideal.ofBits .f32 0x3727C5AC#32) + b) (Ideal.ofBits .f32 0x00000000#32)

/-! ## The block product: a row of the left block against a column of the right one -/

/-- The left operand's row coordinate is the output's. -/
theorem klhs_0 (j : S2000x128.Idx) (k : dot_S2000x256_S256x128_S2000x128_1_0_0_1_n_n.contr.Idx) :
    (dot_S2000x256_S256x128_S2000x128_1_0_0_1_n_n.lhsIdx j k 0).val = (j 0).val := by
  simp [DotDims.lhsIdx, dot_S2000x256_S256x128_S2000x128_1_0_0_1_n_n]; rfl

/-- The left operand's column coordinate is the contracted one. -/
theorem klhs_1 (j : S2000x128.Idx) (k : dot_S2000x256_S256x128_S2000x128_1_0_0_1_n_n.contr.Idx) :
    (dot_S2000x256_S256x128_S2000x128_1_0_0_1_n_n.lhsIdx j k 1).val = (k ⟨0, by decide⟩).val :=
  dot_S2000x256_S256x128_S2000x128_1_0_0_1_n_n.lhsIdx_val_of_single rfl j k

/-- The right operand's row coordinate is the contracted one. -/
theorem krhs_0 (j : S2000x128.Idx) (k : dot_S2000x256_S256x128_S2000x128_1_0_0_1_n_n.contr.Idx) :
    (dot_S2000x256_S256x128_S2000x128_1_0_0_1_n_n.rhsIdx j k 0).val = (k ⟨0, by decide⟩).val :=
  dot_S2000x256_S256x128_S2000x128_1_0_0_1_n_n.rhsIdx_val_of_single rfl j k

/-- The right operand's column coordinate is the output's. -/
theorem krhs_1 (j : S2000x128.Idx) (k : dot_S2000x256_S256x128_S2000x128_1_0_0_1_n_n.contr.Idx) :
    (dot_S2000x256_S256x128_S2000x128_1_0_0_1_n_n.rhsIdx j k 1).val = (j 1).val := by
  simp [DotDims.rhsIdx, dot_S2000x256_S256x128_S2000x128_1_0_0_1_n_n]; rfl

/-- The block product into a zero accumulator, entry by entry: the sum over the 256 contracted columns. -/
theorem kmatmul_apply (A : FVec Ideal S2000x256 .bf16) (B : FVec Ideal S256x128 .bf16) (p : Fin 2000) (q : Fin 128) :
    matmul dot_S2000x256_S256x128_S2000x128_1_0_0_1_n_n none A B (constant S2000x128 .f32 0x00000000#32) (ix2 p q)
      = ∑ k : Fin 256, A (ix2 p k) * B (ix2 k q) := by
  show FloatOps.matmul _ none A B _ (ix2 p q) = _
  rw [Ideal.matmul_constant_zero_apply,
    ← Equiv.sum_comp (contrEquiv1 dot_S2000x256_S256x128_S2000x128_1_0_0_1_n_n 256 rfl rfl).symm]
  refine Finset.sum_congr rfl fun k _ => ?_
  have ck := contrEquiv1_symm_val dot_S2000x256_S256x128_S2000x128_1_0_0_1_n_n 256 rfl rfl k
  have hl : dot_S2000x256_S256x128_S2000x128_1_0_0_1_n_n.lhsIdx (ix2 p q) ((contrEquiv1 _ 256 rfl rfl).symm k) = ix2 p k := by
    funext a; apply Fin.ext
    match a with
    | ⟨0, _⟩ => exact klhs_0 _ _
    | ⟨1, _⟩ => exact (klhs_1 _ _).trans ck
  have hr : dot_S2000x256_S256x128_S2000x128_1_0_0_1_n_n.rhsIdx (ix2 p q) ((contrEquiv1 _ 256 rfl rfl).symm k) = ix2 k q := by
    funext a; apply Fin.ext
    match a with
    | ⟨0, _⟩ => exact (krhs_0 _ _).trans ck
    | ⟨1, _⟩ => exact krhs_1 _ _
  rw [hl, hr]

/-- The body's stored value at row `p`, column `q` of the block: the rectified normalised row against column `q` of
    the weight, plus the bias. -/
theorem pay_apply (x0 : Vec Ideal S2000x256 .f32) (x1 x2 x3 x4 : Vec Ideal S1x256 .f32) (x5 : Vec Ideal S256x128 .bf16)
    (x6 : Vec Ideal S1x128 .f32) (p : Fin 2000) (q : Fin 128) :
    k10_pay1 (F := Ideal) x0 x1 x2 x3 x4 x5 x6 (ix2 p q)
      = (∑ k : Fin 256, act (x0 (ix2 p k)) (x1 (ix2 (0 : Fin 1) k)) (x2 (ix2 (0 : Fin 1) k)) (x3 (ix2 (0 : Fin 1) k))
            (x4 (ix2 (0 : Fin 1) k)) * x5 (ix2 k q)) + x6 (ix2 (0 : Fin 1) q) := by
  unfold k10_pay1
  simp only [shapeCast_self]
  rw [addf_apply, kmatmul_apply, broadcastTo_1b_ab_apply]
  congr 1
  refine Finset.sum_congr rfl fun k _ => ?_
  congr 1
  simp only [truncf_apply, maximumf_apply, addf_apply, mulf_apply, subf_apply, broadcastTo_1b_ab_apply, broadcast_apply]
  rfl

/-! ## The whole-array stage at an entry -/

theorem rlhs_0 (j : Cert.ReferenceIdeal.S50000x128.Idx) (k : Cert.ReferenceIdeal.dot_S50000x256_S256x128_S50000x128_1_0_0_1_n_n.contr.Idx) :
    (Cert.ReferenceIdeal.dot_S50000x256_S256x128_S50000x128_1_0_0_1_n_n.lhsIdx j k 0).val = (j 0).val := by
  simp [DotDims.lhsIdx, Cert.ReferenceIdeal.dot_S50000x256_S256x128_S50000x128_1_0_0_1_n_n]; rfl

theorem rlhs_1 (j : Cert.ReferenceIdeal.S50000x128.Idx) (k : Cert.ReferenceIdeal.dot_S50000x256_S256x128_S50000x128_1_0_0_1_n_n.contr.Idx) :
    (Cert.ReferenceIdeal.dot_S50000x256_S256x128_S50000x128_1_0_0_1_n_n.lhsIdx j k 1).val = (k ⟨0, by decide⟩).val :=
  Cert.ReferenceIdeal.dot_S50000x256_S256x128_S50000x128_1_0_0_1_n_n.lhsIdx_val_of_single rfl j k

theorem rrhs_0 (j : Cert.ReferenceIdeal.S50000x128.Idx) (k : Cert.ReferenceIdeal.dot_S50000x256_S256x128_S50000x128_1_0_0_1_n_n.contr.Idx) :
    (Cert.ReferenceIdeal.dot_S50000x256_S256x128_S50000x128_1_0_0_1_n_n.rhsIdx j k 0).val = (k ⟨0, by decide⟩).val :=
  Cert.ReferenceIdeal.dot_S50000x256_S256x128_S50000x128_1_0_0_1_n_n.rhsIdx_val_of_single rfl j k

theorem rrhs_1 (j : Cert.ReferenceIdeal.S50000x128.Idx) (k : Cert.ReferenceIdeal.dot_S50000x256_S256x128_S50000x128_1_0_0_1_n_n.contr.Idx) :
    (Cert.ReferenceIdeal.dot_S50000x256_S256x128_S50000x128_1_0_0_1_n_n.rhsIdx j k 1).val = (j 1).val := by
  simp [DotDims.rhsIdx, Cert.ReferenceIdeal.dot_S50000x256_S256x128_S50000x128_1_0_0_1_n_n]; rfl

/-- The whole-array product, entry by entry: the sum over the 256 contracted columns. -/
theorem rdot_apply (A : FVec Ideal Cert.ReferenceIdeal.S50000x256 .f32) (B : FVec Ideal Cert.ReferenceIdeal.S256x128 .f32) (r : Fin 50000) (q : Fin 128) :
    Host.dotGeneral Cert.ReferenceIdeal.dot_S50000x256_S256x128_S50000x128_1_0_0_1_n_n none A B (ix2 r q)
      = ∑ k : Fin 256, A (ix2 r k) * B (ix2 k q) := by
  show FloatOps.dotGeneral _ none _ A B (ix2 r q) = _
  rw [Ideal.dotGeneral_apply,
    ← Equiv.sum_comp (contrEquiv1 Cert.ReferenceIdeal.dot_S50000x256_S256x128_S50000x128_1_0_0_1_n_n 256 rfl rfl).symm]
  refine Finset.sum_congr rfl fun k _ => ?_
  have ck := contrEquiv1_symm_val Cert.ReferenceIdeal.dot_S50000x256_S256x128_S50000x128_1_0_0_1_n_n 256 rfl rfl k
  have hl : Cert.ReferenceIdeal.dot_S50000x256_S256x128_S50000x128_1_0_0_1_n_n.lhsIdx (ix2 r q) ((contrEquiv1 _ 256 rfl rfl).symm k) = ix2 r k := by
    funext a; apply Fin.ext
    match a with
    | ⟨0, _⟩ => exact rlhs_0 _ _
    | ⟨1, _⟩ => exact (rlhs_1 _ _).trans ck
  have hr : Cert.ReferenceIdeal.dot_S50000x256_S256x128_S50000x128_1_0_0_1_n_n.rhsIdx (ix2 r q) ((contrEquiv1 _ 256 rfl rfl).symm k) = ix2 k q := by
    funext a; apply Fin.ext
    match a with
    | ⟨0, _⟩ => exact (rrhs_0 _ _).trans ck
    | ⟨1, _⟩ => exact rrhs_1 _ _
  rw [hl, hr]

/-- A vector over the 256 columns laid out as one row and copied down the 50000 rows reads, at `(r, k)`, its entry `k`. -/
theorem rowB256_apply (v : FVec Ideal Cert.ReferenceIdeal.S256 .f32)
    (h1 : Cert.ReferenceIdeal.S256.BroadcastsInDim Cert.ReferenceIdeal.S1x256 (![1] : Fin 1 → Fin Cert.ReferenceIdeal.S1x256.rank))
    (h2 : Cert.ReferenceIdeal.S1x256.BroadcastsInDim Cert.ReferenceIdeal.S50000x256 (![0, 1] : Fin 2 → Fin Cert.ReferenceIdeal.S50000x256.rank))
    (r : Fin 50000) (k : Fin 256) :
    broadcastInDim Cert.ReferenceIdeal.S50000x256 ![0, 1] h2 (broadcastInDim Cert.ReferenceIdeal.S1x256 ![1] h1 v) (ix2 r k) = v (ix1 k) := by
  refine (broadcastInDim_apply _ h2 _ (ix2 r k) (ix2 (0 : Fin 1) k) fun a => ?_).trans
    (broadcastInDim_apply _ h1 v (ix2 (0 : Fin 1) k) (ix1 k) fun a => ?_)
  · match a with
    | ⟨0, _⟩ => rfl
    | ⟨1, _⟩ => rfl
  · match a with
    | ⟨0, _⟩ => rfl

/-- The same for a vector over the 128 output columns. -/
theorem rowB128_apply (v : FVec Ideal Cert.ReferenceIdeal.S128 .f32)
    (h1 : Cert.ReferenceIdeal.S128.BroadcastsInDim Cert.ReferenceIdeal.S1x128 (![1] : Fin 1 → Fin Cert.ReferenceIdeal.S1x128.rank))
    (h2 : Cert.ReferenceIdeal.S1x128.BroadcastsInDim Cert.ReferenceIdeal.S50000x128 (![0, 1] : Fin 2 → Fin Cert.ReferenceIdeal.S50000x128.rank))
    (r : Fin 50000) (k : Fin 128) :
    broadcastInDim Cert.ReferenceIdeal.S50000x128 ![0, 1] h2 (broadcastInDim Cert.ReferenceIdeal.S1x128 ![1] h1 v) (ix2 r k) = v (ix1 k) := by
  refine (broadcastInDim_apply _ h2 _ (ix2 r k) (ix2 (0 : Fin 1) k) fun a => ?_).trans
    (broadcastInDim_apply _ h1 v (ix2 (0 : Fin 1) k) (ix1 k) fun a => ?_)
  · match a with
    | ⟨0, _⟩ => rfl
    | ⟨1, _⟩ => rfl
  · match a with
    | ⟨0, _⟩ => rfl

/-- The whole-array stage at row `r`, column `q`. -/
theorem spec_apply (X : Cert.Spec.RA Cert.ReferenceIdeal.S50000x256) (mean var g beta : Cert.Spec.RA Cert.ReferenceIdeal.S256)
    (w : Cert.Spec.RA Cert.ReferenceIdeal.S256x128) (b : Cert.Spec.RA Cert.ReferenceIdeal.S128) (r : Fin 50000) (q : Fin 128) :
    Cert.Spec.lin256x128 (Cert.Spec.bnrelu256 X mean var g beta) w b (ix2 r q)
      = (∑ k : Fin 256, act (X (ix2 r k)) (mean (ix1 k)) (var (ix1 k)) (g (ix1 k)) (beta (ix1 k)) * w (ix2 k q)) + b (ix1 q) := by
  unfold Cert.Spec.lin256x128 Cert.Spec.bnrelu256
  rw [addf_apply, rdot_apply, rowB128_apply]
  congr 1
  refine Finset.sum_congr rfl fun k _ => ?_
  congr 1
  rw [maximumf_apply, addf_apply, mulf_apply, mulf_apply, subf_apply, rowB256_apply, rowB256_apply, rowB256_apply, rowB256_apply]
  rfl

/-! ## A block of the pipeline against the rows of the whole array it stands for -/

/-- If a block `xb` holds the rows of `X` from some row on, and the small blocks hold the statistics, the parameters,
    the weight and the bias, then the body's stored value at `(p, q)` is the whole-array stage at the row `r` that
    block row `p` stands for. -/
theorem block_value (xb : Vec Ideal S2000x256 .f32) (mb vb gb bb : Vec Ideal S1x256 .f32) (wb : Vec Ideal S256x128 .bf16)
    (cb : Vec Ideal S1x128 .f32)
    (X : Cert.Spec.RA Cert.ReferenceIdeal.S50000x256) (mean var g beta : Cert.Spec.RA Cert.ReferenceIdeal.S256)
    (w : Cert.Spec.RA Cert.ReferenceIdeal.S256x128) (b : Cert.Spec.RA Cert.ReferenceIdeal.S128) (p : Fin 2000) (q : Fin 128) (r : Fin 50000)
    (hx : ∀ k : Fin 256, xb (ix2 p k) = X (ix2 r k))
    (hm : ∀ k : Fin 256, mb (ix2 (0 : Fin 1) k) = mean (ix1 k)) (hv : ∀ k : Fin 256, vb (ix2 (0 : Fin 1) k) = var (ix1 k))
    (hg : ∀ k : Fin 256, gb (ix2 (0 : Fin 1) k) = g (ix1 k)) (hb : ∀ k : Fin 256, bb (ix2 (0 : Fin 1) k) = beta (ix1 k))
    (hw : ∀ k : Fin 256, wb (ix2 k q) = w (ix2 k q)) (hc : cb (ix2 (0 : Fin 1) q) = b (ix1 q)) :
    k10_pay1 (F := Ideal) xb mb vb gb bb wb cb (ix2 p q)
      = Cert.Spec.lin256x128 (Cert.Spec.bnrelu256 X mean var g beta) w b (ix2 r q) := by
  rw [pay_apply, spec_apply, hc]
  congr 1
  refine Finset.sum_congr rfl fun k _ => ?_
  rw [hx k, hm k, hv k, hg k, hb k, hw k]

/-! ## The pipeline's blocks as parts of the arrays -/

variable (V : (c : Dev nD) → (b : Ref sig .tc) → Buf (Elt Ideal) ((c : Thread nD τ).loc b))

theorem hz : (![0, 0] : Fin 2 → Nat) = fun _ => 0 := funext fun a => by fin_cases a <;> rfl

/-- The block index maps, decided over the 25 steps: the row-tiled operand and the result sit at block `(t, 0)`,
    every small operand at block `(0, 0)`. -/
theorem idx_facts : ∀ t : Fin cfg10.N,
    win10_0.index t (0 : Fin 2) = t.val ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0
    ∧ win10_5.index t (0 : Fin 2) = 0 ∧ win10_5.index t (1 : Fin 2) = 0
    ∧ win10_6.index t (0 : Fin 2) = 0 ∧ win10_6.index t (1 : Fin 2) = 0
    ∧ win10_7.index t (0 : Fin 2) = t.val ∧ win10_7.index t (1 : Fin 2) = 0 :=
  (by decide +kernel : ∀ t : Fin grid10.N, _)

/-- Row `p` of the row-tiled operand's block at step `t` is row `2000·t + p` of the array. -/
theorem xblk_apply (c : Dev nD) (t : Fin cfg10.N) (p : Fin 2000) (k : Fin 256) (i : S50000x256.Idx)
    (h0 : (i 0).val = 2000 * t.val + p.val) (h1 : (i 1).val = k.val) :
    (iblk10 V c 0 t : Vec Ideal S2000x256 .f32) (ix2 p k) = (V c main_v191 : S50000x256.Idx → Elt Ideal .f32) i := by
  obtain ⟨e0, e1, -⟩ := idx_facts t
  unfold iblk10
  rw [View.read_apply]
  show V c main_v191 _ = V c main_v191 i
  congr 1
  funext a
  apply Fin.ext
  match a with
  | ⟨0, _⟩ => show win10_0.index t (0 : Fin 2) * 2000 + 1 * p.val = (i 0).val; rw [e0, h0]; omega
  | ⟨1, _⟩ => show win10_0.index t (1 : Fin 2) * 256 + 1 * k.val = (i 1).val; rw [e1, h1]; omega

/-- A small operand's one block is its whole array, at every step. -/
theorem blk1_eq (c : Dev nD) (t : Fin cfg10.N) :
    (iblk10 V c 1 t : Vec Ideal S1x256 .f32) = V c main_v206 := by
  obtain ⟨-, -, e0, e1, -⟩ := idx_facts t
  unfold iblk10
  funext y
  rw [View.read_apply]
  show V c main_v206 _ = V c main_v206 y
  congr 1
  funext a
  apply Fin.ext
  match a with
  | ⟨0, _⟩ => show win10_1.index t (0 : Fin 2) * 1 + 1 * (y 0).val = (y 0).val; rw [e0]; omega
  | ⟨1, _⟩ => show win10_1.index t (1 : Fin 2) * 256 + 1 * (y 1).val = (y 1).val; rw [e1]; omega

theorem blk2_eq (c : Dev nD) (t : Fin cfg10.N) :
    (iblk10 V c 2 t : Vec Ideal S1x256 .f32) = V c main_v207 := by
  obtain ⟨-, -, -, -, e0, e1, -⟩ := idx_facts t
  unfold iblk10
  funext y
  rw [View.read_apply]
  show V c main_v207 _ = V c main_v207 y
  congr 1
  funext a
  apply Fin.ext
  match a with
  | ⟨0, _⟩ => show win10_2.index t (0 : Fin 2) * 1 + 1 * (y 0).val = (y 0).val; rw [e0]; omega
  | ⟨1, _⟩ => show win10_2.index t (1 : Fin 2) * 256 + 1 * (y 1).val = (y 1).val; rw [e1]; omega

theorem blk3_eq (c : Dev nD) (t : Fin cfg10.N) :
    (iblk10 V c 3 t : Vec Ideal S1x256 .f32) = V c main_v208 := by
  obtain ⟨-, -, -, -, -, -, e0, e1, -⟩ := idx_facts t
  unfold iblk10
  funext y
  rw [View.read_apply]
  show V c main_v208 _ = V c main_v208 y
  congr 1
  funext a
  apply Fin.ext
  match a with
  | ⟨0, _⟩ => show win10_3.index t (0 : Fin 2) * 1 + 1 * (y 0).val = (y 0).val; rw [e0]; omega
  | ⟨1, _⟩ => show win10_3.index t (1 : Fin 2) * 256 + 1 * (y 1).val = (y 1).val; rw [e1]; omega

theorem blk4_eq (c : Dev nD) (t : Fin cfg10.N) :
    (iblk10 V c 4 t : Vec Ideal S1x256 .f32) = V c main_v209 := by
  obtain ⟨-, -, -, -, -, -, -, -, e0, e1, -⟩ := idx_facts t
  unfold iblk10
  funext y
  rw [View.read_apply]
  show V c main_v209 _ = V c main_v209 y
  congr 1
  funext a
  apply Fin.ext
  match a with
  | ⟨0, _⟩ => show win10_4.index t (0 : Fin 2) * 1 + 1 * (y 0).val = (y 0).val; rw [e0]; omega
  | ⟨1, _⟩ => show win10_4.index t (1 : Fin 2) * 256 + 1 * (y 1).val = (y 1).val; rw [e1]; omega

theorem blk5_eq (c : Dev nD) (t : Fin cfg10.N) :
    (iblk10 V c 5 t : Vec Ideal S256x128 .bf16) = V c main_v204 := by
  obtain ⟨-, -, -, -, -, -, -, -, -, -, e0, e1, -⟩ := idx_facts t
  unfold iblk10
  funext y
  rw [View.read_apply]
  show V c main_v204 _ = V c main_v204 y
  congr 1
  funext a
  apply Fin.ext
  match a with
  | ⟨0, _⟩ => show win10_5.index t (0 : Fin 2) * 256 + 1 * (y 0).val = (y 0).val; rw [e0]; omega
  | ⟨1, _⟩ => show win10_5.index t (1 : Fin 2) * 128 + 1 * (y 1).val = (y 1).val; rw [e1]; omega

theorem blk6_eq (c : Dev nD) (t : Fin cfg10.N) :
    (iblk10 V c 6 t : Vec Ideal S1x128 .f32) = V c main_v205 := by
  obtain ⟨-, -, -, -, -, -, -, -, -, -, -, -, e0, e1, -⟩ := idx_facts t
  unfold iblk10
  funext y
  rw [View.read_apply]
  show V c main_v205 _ = V c main_v205 y
  congr 1
  funext a
  apply Fin.ext
  match a with
  | ⟨0, _⟩ => show win10_6.index t (0 : Fin 2) * 1 + 1 * (y 0).val = (y 0).val; rw [e0]; omega
  | ⟨1, _⟩ => show win10_6.index t (1 : Fin 2) * 128 + 1 * (y 1).val = (y 1).val; rw [e1]; omega

/-! ## What each step writes back, and the array after the last step -/

/-- Step `t` writes back rows `2000·t … 2000·t + 1999` of the whole-array stage. -/
theorem flushed_eq (c : Dev nD) (mean var g beta : Cert.Spec.RA Cert.ReferenceIdeal.S256) (w : Cert.Spec.RA Cert.ReferenceIdeal.S256x128) (b : Cert.Spec.RA Cert.ReferenceIdeal.S128)
    (h1 : V c main_v206 = shapeCast S1x256 mean shapeCasts_S256_S1x256) (h2 : V c main_v207 = shapeCast S1x256 var shapeCasts_S256_S1x256)
    (h3 : V c main_v208 = shapeCast S1x256 g shapeCasts_S256_S1x256) (h4 : V c main_v209 = shapeCast S1x256 beta shapeCasts_S256_S1x256)
    (hw : V c main_v204 = truncf .bf16 w bitsLt_bf16_f32) (hb : V c main_v205 = shapeCast S1x128 b shapeCasts_S128_S1x128)
    (t : Fin cfg10.N) :
    (dat10 (F := Ideal) V c).flushed 7 t = ((cfg10.win 7).blk t).view.read (Elt Ideal) (Cert.Spec.lin256x128 (Cert.Spec.bnrelu256 (V c main_v191) mean var g beta) w b) := by
  show (cfg10.win 7).cut (grid10.coords t) ((dat10 V c).after 7 t) = _
  rw [after10_7]
  unfold out10_7
  rw [View.canon_unit_zero hz]
  simp only [View.ld_unit_zero (S := S2000x256) hz, View.ld_unit_zero (S := S1x256) hz, View.ld_unit_zero (S := S256x128) hz,
    View.ld_unit_zero (S := S1x128) hz]
  rw [blk1_eq V c t, blk2_eq V c t, blk3_eq V c t, blk4_eq V c t, blk5_eq V c t, blk6_eq V c t]
  have ht : t.val < 25 := lt_of_lt_of_eq t.isLt N_10
  obtain ⟨-, -, -, -, -, -, -, -, -, -, -, -, -, -, e0, e1⟩ := idx_facts t
  funext y
  obtain ⟨p, q, rfl⟩ : ∃ (p : Fin 2000) (q : Fin 128), y = ix2 p q := ⟨y 0, y 1, eq_ix2 y⟩
  have hr : 2000 * t.val + p.val < 50000 := by have hp := p.isLt; omega
  have hemb : ((cfg10.win 7).blk t).view.emb (ix2 p q) = ix2 (⟨2000 * t.val + p.val, hr⟩ : Fin 50000) q := by
    funext a
    apply Fin.ext
    match a with
    | ⟨0, _⟩ => show win10_7.index t (0 : Fin 2) * 2000 + 1 * p.val = 2000 * t.val + p.val; rw [e0]; omega
    | ⟨1, _⟩ => show win10_7.index t (1 : Fin 2) * 128 + 1 * q.val = q.val; rw [e1]; omega
  rw [View.read_apply, hemb]
  exact block_value (iblk10 V c 0 t) (V c main_v206) (V c main_v207) (V c main_v208) (V c main_v209) (V c main_v204) (V c main_v205)
    (V c main_v191) mean var g beta w b p q ⟨2000 * t.val + p.val, hr⟩
    (fun k => xblk_apply V c t p k _ rfl rfl)
    (fun k => (congrFun h1 _).trans (shapeCast_a_1a_apply mean _ 0 k))
    (fun k => (congrFun h2 _).trans (shapeCast_a_1a_apply var _ 0 k))
    (fun k => (congrFun h3 _).trans (shapeCast_a_1a_apply g _ 0 k))
    (fun k => (congrFun h4 _).trans (shapeCast_a_1a_apply beta _ 0 k))
    (fun k => congrFun hw _)
    ((congrFun hb _).trans (shapeCast_a_1a_apply b _ 0 q))

/-- Row `r` of the result lies in the block of step `r / 2000`, which is written back. -/
theorem cover (i : S50000x128.Idx) :
    ∃ t : Fin cfg10.N, (cfg10.win 7).flush t = true ∧ i ∈ ((cfg10.win 7).blk t).view.set := by
  have hi0 : (i 0).val < 50000 := (i 0).isLt
  have hi1 : (i 1).val < 128 := (i 1).isLt
  have hN : cfg10.N = 25 := N_10
  have ht0 : (i 0).val / 2000 < cfg10.N := by rw [hN]; omega
  refine ⟨⟨(i 0).val / 2000, ht0⟩, flush10_7 _, ?_⟩
  obtain ⟨-, -, -, -, -, -, -, -, -, -, -, -, -, -, e0, e1⟩ := idx_facts ⟨(i 0).val / 2000, ht0⟩
  have e0' : win10_7.index ⟨(i 0).val / 2000, ht0⟩ (0 : Fin 2) = (i 0).val / 2000 := e0
  show i ∈ ((View.whole main_v210).slice (win10_7.rect ⟨(i 0).val / 2000, ht0⟩)).set
  rw [View.set_slice_whole, Rect.mem_set_unit]
  intro a
  match a with
  | ⟨0, _⟩ =>
    show win10_7.index ⟨(i 0).val / 2000, ht0⟩ (0 : Fin 2) * 2000 ≤ (i 0).val
      ∧ (i 0).val < win10_7.index ⟨(i 0).val / 2000, ht0⟩ (0 : Fin 2) * 2000 + 2000
    rw [e0']; omega
  | ⟨1, _⟩ =>
    show win10_7.index ⟨(i 0).val / 2000, ht0⟩ (1 : Fin 2) * 128 ≤ (i 1).val
      ∧ (i 1).val < win10_7.index ⟨(i 0).val / 2000, ht0⟩ (1 : Fin 2) * 128 + 128
    rw [e1]; omega

end BnLin10

/-- After the 25 steps the result array holds the whole-array stage of the row-tiled operand as the stage found it:
    the normalisation with the given statistics, the rectifier, the product with the weight and the bias. -/
theorem bnlin10 (V : (c : Dev nD) → (b : Ref sig .tc) → Buf (Elt Ideal) ((c : Thread nD τ).loc b)) (c : Dev nD)
    (mean var g beta : Cert.Spec.RA Cert.ReferenceIdeal.S256) (w : Cert.Spec.RA Cert.ReferenceIdeal.S256x128) (b : Cert.Spec.RA Cert.ReferenceIdeal.S128)
    (h1 : V c main_v206 = shapeCast S1x256 mean shapeCasts_S256_S1x256) (h2 : V c main_v207 = shapeCast S1x256 var shapeCasts_S256_S1x256)
    (h3 : V c main_v208 = shapeCast S1x256 g shapeCasts_S256_S1x256) (h4 : V c main_v209 = shapeCast S1x256 beta shapeCasts_S256_S1x256)
    (hw : V c main_v204 = truncf .bf16 w bitsLt_bf16_f32) (hb : V c main_v205 = shapeCast S1x128 b shapeCasts_S128_S1x128) :
    (dat10 (F := Ideal) V c).arrAt 7 cfg10.N = Cert.Spec.lin256x128 (Cert.Spec.bnrelu256 (V c main_v191) mean var g beta) w b :=
  (dat10 (F := Ideal) V c).arrAt_eq_of_cover 7 (Cert.Spec.lin256x128 (Cert.Spec.bnrelu256 (V c main_v191) mean var g beta) w b)
    (fun t _ => BnLin10.flushed_eq V c mean var g beta w b h1 h2 h3 h4 hw hb t) BnLin10.cover

end Cert.KernelIdeal.RegVal

end
-- ==== Proof.RegBn11.lean ====
/-
  The value of the network's twelfth block-wise step: a normalise-and-rectify step on a 50000 × 128 array.

  The step walks 25 row blocks of 2000 rows. At block t it reads rows 2000·t … 2000·t + 1999 of the array x and the four
  1 × 128 rows mean, var, g, β whole, and writes, to the same rows of its result,
      max (g · (x − mean) · rsqrt (var + 1e-5) + β) 0,
  each row laid over the 2000 rows of the block. When the four rows are the reshapes [128] → [1, 128] of four column
  vectors, this is, entry by entry, what the whole-array normalise-and-rectify function of those column vectors gives at
  the entry (2000·t + p, q): there each vector is first laid out as a 1 × 128 row and then over all 50000 rows, so both
  sides read column q of the vector; the difference, the products, the sum and the maximum are the extended reals' on
  both sides, and so is the reciprocal square root. The 25 blocks cover every row (row r lies in block r / 2000), so after
  the step the result array is that function of the array x as the step found it, whatever the other buffers held.

  In order: the whole-array function at an entry; the block function at an entry, and the two joined; each window's
  block at a point as entries of its array; the block a point writes back; the cover; the array after the step.
-/
import proofs.«107430_j24575802868448_1_alg».proof.Proof.FPKernelIdealR11
import proofs.«107430_j24575802868448_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.RegVal

open Idealize.ShloMosaic Idealize.ShloMosaic.TcCoe Idealize.SL.Sem Cert.KernelIdeal Cert.KernelIdeal.Gen
open Idealize.ShloMosaic.Pipeline (Dat)
open Idealize.ShloMosaic.ValueIdx

/-! ## The whole-array function at an entry -/

/-- A vector over the 128 columns, laid out as one row and that row over the 50000 rows, reads column `q` of the vector
    at the entry `(r, q)`. -/
theorem bn11_rows (v : Cert.Spec.RA Cert.ReferenceIdeal.S128)
    (hb : Cert.ReferenceIdeal.S128.BroadcastsInDim Cert.ReferenceIdeal.S1x128 (![1] : Fin 1 → Fin Cert.ReferenceIdeal.S1x128.rank))
    (hB : Cert.ReferenceIdeal.S1x128.BroadcastsInDim Cert.ReferenceIdeal.S50000x128 (![0, 1] : Fin 2 → Fin Cert.ReferenceIdeal.S50000x128.rank))
    (r : Fin 50000) (q : Fin 128) :
    broadcastInDim Cert.ReferenceIdeal.S50000x128 ![0, 1] hB (broadcastInDim Cert.ReferenceIdeal.S1x128 ![1] hb v) (ix2 r q) = v (ix1 q) := by
  refine (broadcastInDim_apply _ hB _ (ix2 r q) (ix2 (0 : Fin 1) q) fun a => ?_).trans ?_
  · match a with
    | ⟨0, _⟩ => rfl
    | ⟨1, _⟩ => rfl
  · refine broadcastInDim_apply _ hb v (ix2 (0 : Fin 1) q) (ix1 q) fun a => ?_
    match a with
    | ⟨0, _⟩ => rfl

/-- The normalise-and-rectify function of a whole array at the entry `(r, q)`:
    `max (g q · (x (r, q) − mean q) · rsqrt (var q + 1e-5) + β q) 0`. -/
theorem bn11_spec_at (x : Cert.Spec.RA Cert.ReferenceIdeal.S50000x128) (mean var g beta : Cert.Spec.RA Cert.ReferenceIdeal.S128)
    (r : Fin 50000) (q : Fin 128) :
    Cert.Spec.bnrelu128 x mean var g beta (ix2 r q)
      = max (g (ix1 q) * (x (ix2 r q) - mean (ix1 q)) * Ideal.rsqrt (var (ix1 q) + Ideal.ofBits .f32 0x3727C5AC#32) + beta (ix1 q))
          (Ideal.ofBits .f32 0x00000000#32) := by
  unfold Cert.Spec.bnrelu128
  rw [maximumf_apply, addf_apply, mulf_apply, mulf_apply, subf_apply, bn11_rows, bn11_rows, bn11_rows, bn11_rows]
  rfl

/-! ## The block function at an entry -/

/-- What one grid point computes from its blocks, at the entry `(p, q)` of the block: the same expression, each
    1 × 128 row read at column `q`. -/
theorem bn11_pay_at (x0 : Vec Ideal S2000x128 .f32) (x1 x2 x3 x4 : Vec Ideal S1x128 .f32) (p : Fin 2000) (q : Fin 128) :
    k11_pay1 (F := Ideal) x0 x1 x2 x3 x4 (ix2 p q)
      = max (x3 (ix2 (0 : Fin 1) q) * (x0 (ix2 p q) - x1 (ix2 (0 : Fin 1) q)) * Ideal.rsqrt (x2 (ix2 (0 : Fin 1) q) + Ideal.ofBits .f32 0x3727C5AC#32)
              + x4 (ix2 (0 : Fin 1) q))
          (Ideal.ofBits .f32 0x00000000#32) := by
  unfold k11_pay1
  simp only [shapeCast_self]
  rw [maximumf_apply, addf_apply, mulf_apply, mulf_apply, subf_apply, broadcastTo_1b_ab_apply, broadcastTo_1b_ab_apply,
    broadcastTo_1b_ab_apply, broadcastTo_1b_ab_apply]
  rfl

/-- ONE ENTRY. If the block of `x` holds at `y` what the array holds at `i`, `i` and `y` in the same column, and the four
    rows are the column vectors reshaped, the block function at `y` is the whole-array function at `i`. -/
theorem bn11_entry (x0 : Vec Ideal S2000x128 .f32) (x1 x2 x3 x4 : Vec Ideal S1x128 .f32)
    (X : Cert.Spec.RA Cert.ReferenceIdeal.S50000x128) (mean var g beta : Cert.Spec.RA Cert.ReferenceIdeal.S128)
    (e1 : x1 = shapeCast S1x128 mean shapeCasts_S128_S1x128) (e2 : x2 = shapeCast S1x128 var shapeCasts_S128_S1x128)
    (e3 : x3 = shapeCast S1x128 g shapeCasts_S128_S1x128) (e4 : x4 = shapeCast S1x128 beta shapeCasts_S128_S1x128)
    (y : S2000x128.Idx) (i : S50000x128.Idx) (hx : x0 y = X i) (hcol : (i 1).val = (y 1).val) :
    k11_pay1 (F := Ideal) x0 x1 x2 x3 x4 y = Cert.Spec.bnrelu128 X mean var g beta i := by
  obtain ⟨p, q, rfl⟩ : ∃ (p : Fin 2000) (q : Fin 128), y = ix2 p q := ⟨y 0, y 1, eq_ix2 y⟩
  obtain ⟨r, s, rfl⟩ : ∃ (r : Fin 50000) (s : Fin 128), i = ix2 r s := ⟨i 0, i 1, eq_ix2 i⟩
  obtain rfl : s = q := Fin.ext hcol
  rw [bn11_pay_at, bn11_spec_at, hx, e1, e2, e3, e4, shapeCast_a_1a_apply, shapeCast_a_1a_apply, shapeCast_a_1a_apply, shapeCast_a_1a_apply]

/-! ## The windows' blocks as entries of their arrays -/

theorem bn11_zero : (![0, 0] : Fin 2 → Nat) = fun _ => 0 := funext fun a => by fin_cases a <;> rfl

/-- The block indices over the 25 points: point `t` takes row block `t` of `x` and of the result, and the one block of each
    row vector. -/
theorem bn11_idx : ∀ t : Fin cfg11.N,
    win11_0.index t (0 : Fin 2) = t.val ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = 0 ∧ win11_4.index t (1 : Fin 2) = 0
    ∧ win11_5.index t (0 : Fin 2) = t.val ∧ win11_5.index t (1 : Fin 2) = 0 :=
  (by decide +kernel : ∀ t : Fin grid11.N, _)

variable (V : (c : Dev nD) → (b : Ref sig .tc) → Buf (Elt Ideal) ((c : Thread nD τ).loc b))

/-- The block of `x` at point `t` holds rows `2000 t … 2000 t + 1999` of `x`. -/
theorem bn11_blk_x (c : Dev nD) (t : Fin cfg11.N) (y : S2000x128.Idx) (i : S50000x128.Idx)
    (h0 : (i 0).val = 2000 * t.val + (y 0).val) (h1 : (i 1).val = (y 1).val) :
    (iblk11 V c 0 t : Vec Ideal S2000x128 .f32) y = (V c main_v210 : S50000x128.Idx → Elt Ideal .f32) i := by
  obtain ⟨e0, e1, -⟩ := bn11_idx t
  unfold iblk11
  rw [View.read_apply]
  show V c main_v210 _ = V c main_v210 _
  congr 1
  funext a
  apply Fin.ext
  match a with
  | ⟨0, _⟩ => show win11_0.index t (0 : Fin 2) * 2000 + 1 * (y 0).val = (i 0).val; rw [e0, h0]; omega
  | ⟨1, _⟩ => show win11_0.index t (1 : Fin 2) * 128 + 1 * (y 1).val = (i 1).val; rw [e1, h1]; omega

/-- The block of the mean row at any point is the whole row. -/
theorem bn11_blk_1 (c : Dev nD) (t : Fin cfg11.N) :
    (iblk11 V c 1 t : Vec Ideal S1x128 .f32) = (V c main_v219 : S1x128.Idx → Elt Ideal .f32) := by
  obtain ⟨-, -, e0, e1, -⟩ := bn11_idx t
  funext z
  unfold iblk11
  rw [View.read_apply]
  show V c main_v219 _ = V c main_v219 _
  congr 1
  funext a
  apply Fin.ext
  match a with
  | ⟨0, _⟩ => show win11_1.index t (0 : Fin 2) * 1 + 1 * (z 0).val = (z 0).val; rw [e0]; omega
  | ⟨1, _⟩ => show win11_1.index t (1 : Fin 2) * 128 + 1 * (z 1).val = (z 1).val; rw [e1]; omega

/-- The block of the variance row at any point is the whole row. -/
theorem bn11_blk_2 (c : Dev nD) (t : Fin cfg11.N) :
    (iblk11 V c 2 t : Vec Ideal S1x128 .f32) = (V c main_v220 : S1x128.Idx → Elt Ideal .f32) := by
  obtain ⟨-, -, -, -, e0, e1, -⟩ := bn11_idx t
  funext z
  unfold iblk11
  rw [View.read_apply]
  show V c main_v220 _ = V c main_v220 _
  congr 1
  funext a
  apply Fin.ext
  match a with
  | ⟨0, _⟩ => show win11_2.index t (0 : Fin 2) * 1 + 1 * (z 0).val = (z 0).val; rw [e0]; omega
  | ⟨1, _⟩ => show win11_2.index t (1 : Fin 2) * 128 + 1 * (z 1).val = (z 1).val; rw [e1]; omega

/-- The block of the scale row at any point is the whole row. -/
theorem bn11_blk_3 (c : Dev nD) (t : Fin cfg11.N) :
    (iblk11 V c 3 t : Vec Ideal S1x128 .f32) = (V c main_v221 : S1x128.Idx → Elt Ideal .f32) := by
  obtain ⟨-, -, -, -, -, -, e0, e1, -⟩ := bn11_idx t
  funext z
  unfold iblk11
  rw [View.read_apply]
  show V c main_v221 _ = V c main_v221 _
  congr 1
  funext a
  apply Fin.ext
  match a with
  | ⟨0, _⟩ => show win11_3.index t (0 : Fin 2) * 1 + 1 * (z 0).val = (z 0).val; rw [e0]; omega
  | ⟨1, _⟩ => show win11_3.index t (1 : Fin 2) * 128 + 1 * (z 1).val = (z 1).val; rw [e1]; omega

/-- The block of the shift row at any point is the whole row. -/
theorem bn11_blk_4 (c : Dev nD) (t : Fin cfg11.N) :
    (iblk11 V c 4 t : Vec Ideal S1x128 .f32) = (V c main_v222 : S1x128.Idx → Elt Ideal .f32) := by
  obtain ⟨-, -, -, -, -, -, -, -, e0, e1, -⟩ := bn11_idx t
  funext z
  unfold iblk11
  rw [View.read_apply]
  show V c main_v222 _ = V c main_v222 _
  congr 1
  funext a
  apply Fin.ext
  match a with
  | ⟨0, _⟩ => show win11_4.index t (0 : Fin 2) * 1 + 1 * (z 0).val = (z 0).val; rw [e0]; omega
  | ⟨1, _⟩ => show win11_4.index t (1 : Fin 2) * 128 + 1 * (z 1).val = (z 1).val; rw [e1]; omega

/-! ## What a point writes back, the cover, and the array after the step -/

/-- Point `t` writes back block `t` of the whole-array function of `x` as the step found it. -/
theorem bn11_flushed (c : Dev nD) (mean var g beta : Cert.Spec.RA Cert.ReferenceIdeal.S128)
    (h1 : V c main_v219 = shapeCast S1x128 mean shapeCasts_S128_S1x128) (h2 : V c main_v220 = shapeCast S1x128 var shapeCasts_S128_S1x128)
    (h3 : V c main_v221 = shapeCast S1x128 g shapeCasts_S128_S1x128) (h4 : V c main_v222 = shapeCast S1x128 beta shapeCasts_S128_S1x128)
    (t : Fin cfg11.N) :
    (dat11 (F := Ideal) V c).flushed 5 t
      = ((cfg11.win 5).blk t).view.read (Elt Ideal) (Cert.Spec.bnrelu128 (V c main_v210) mean var g beta) := by
  show (cfg11.win 5).cut (grid11.coords t) ((dat11 V c).after 5 t) = _
  rw [after11_5]
  unfold out11_5
  rw [View.canon_unit_zero bn11_zero]
  simp only [View.ld_unit_zero (S := S2000x128) bn11_zero, View.ld_unit_zero (S := S1x128) bn11_zero]
  obtain ⟨-, -, -, -, -, -, -, -, -, -, e0, e1⟩ := bn11_idx t
  funext j
  rw [View.read_apply]
  refine bn11_entry (iblk11 V c 0 t) (iblk11 V c 1 t) (iblk11 V c 2 t) (iblk11 V c 3 t) (iblk11 V c 4 t) (V c main_v210) mean var g beta
    ((bn11_blk_1 V c t).trans h1) ((bn11_blk_2 V c t).trans h2) ((bn11_blk_3 V c t).trans h3) ((bn11_blk_4 V c t).trans h4)
    j (((cfg11.win 5).blk t).view.emb j) (bn11_blk_x V c t j (((cfg11.win 5).blk t).view.emb j) ?_ ?_) ?_
  · show win11_5.index t (0 : Fin 2) * 2000 + 1 * (j 0).val = 2000 * t.val + (j 0).val; rw [e0]; omega
  · show win11_5.index t (1 : Fin 2) * 128 + 1 * (j 1).val = (j 1).val; rw [e1]; omega
  · show win11_5.index t (1 : Fin 2) * 128 + 1 * (j 1).val = (j 1).val; rw [e1]; omega

/-- Every entry of the result lies in some point's block: row `r` in the block of point `r / 2000`. -/
theorem bn11_cover (i : S50000x128.Idx) : ∃ t : Fin cfg11.N, (cfg11.win 5).flush t = true ∧ i ∈ ((cfg11.win 5).blk t).view.set := by
  have hi0 : (i 0).val < 50000 := (i 0).isLt
  have hi1 : (i 1).val < 128 := (i 1).isLt
  have hN : cfg11.N = 25 := N_11
  have ht : (i 0).val / 2000 < cfg11.N := by rw [hN]; omega
  obtain ⟨-, -, -, -, -, -, -, -, -, -, e0, e1⟩ := bn11_idx ⟨(i 0).val / 2000, ht⟩
  refine ⟨⟨(i 0).val / 2000, ht⟩, flush11_5 _, ?_⟩
  show i ∈ ((View.whole main_v223).slice (win11_5.rect ⟨(i 0).val / 2000, ht⟩)).set
  rw [View.set_slice_whole, Rect.mem_set_unit]
  intro a
  match a with
  | ⟨0, _⟩ =>
    show win11_5.index ⟨(i 0).val / 2000, ht⟩ (0 : Fin 2) * 2000 ≤ (i 0).val ∧ (i 0).val < win11_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win11_5.index ⟨(i 0).val / 2000, ht⟩ (1 : Fin 2) * 128 ≤ (i 1).val ∧ (i 1).val < win11_5.index ⟨(i 0).val / 2000, ht⟩ (1 : Fin 2) * 128 + 128
    rw [e1]; omega

/-- THE ARRAY AFTER THE STEP: the whole-array normalise-and-rectify function, with the column vectors whose reshapes
    the four rows are, of the array `x` as the step found it. -/
theorem bn11 (c : Dev nD) (mean var g beta : Cert.Spec.RA Cert.ReferenceIdeal.S128)
    (h1 : V c main_v219 = shapeCast S1x128 mean shapeCasts_S128_S1x128) (h2 : V c main_v220 = shapeCast S1x128 var shapeCasts_S128_S1x128)
    (h3 : V c main_v221 = shapeCast S1x128 g shapeCasts_S128_S1x128) (h4 : V c main_v222 = shapeCast S1x128 beta shapeCasts_S128_S1x128) :
    (dat11 (F := Ideal) V c).arrAt 5 cfg11.N = Cert.Spec.bnrelu128 (V c main_v210) mean var g beta :=
  (dat11 V c).arrAt_eq_of_cover 5 (Cert.Spec.bnrelu128 (V c main_v210) mean var g beta)
    (fun t _ => bn11_flushed V c mean var g beta h1 h2 h3 h4 t) bn11_cover

end Cert.KernelIdeal.RegVal

end
-- ==== Proof.KChainL3.lean ====
/-
  Layer 3 of the blocked program: what its buffers hold, boundary by boundary, as the specification's functions of the
  launch's argument arrays `A`.

  Entering the layer, the previous layer's output buffer holds `h3 A` and the edge list's rows sit where layer 0's host
  operations left them. Region 9 then leaves `z1` of this layer's parameters on `h3 A`, region 10 leaves `z2`, region 11
  the layer's output `h4 A`; the edge rows and the argument arrays are carried along unchanged.
-/
import proofs.«107430_j24575802868448_1_alg».proof.Proof.FPKernelIdealW
import proofs.«107430_j24575802868448_1_alg».proof.Proof.Spec
import proofs.«107430_j24575802868448_1_alg».proof.Proof.KArgs
import proofs.«107430_j24575802868448_1_alg».proof.Proof.KHostL3
import proofs.«107430_j24575802868448_1_alg».proof.Proof.KChainL2
import proofs.«107430_j24575802868448_1_alg».proof.Proof.RegLin9
import proofs.«107430_j24575802868448_1_alg».proof.Proof.RegBnLin10
import proofs.«107430_j24575802868448_1_alg».proof.Proof.RegBn11

set_option maxRecDepth 16384

noncomputable section

namespace Cert.KernelIdeal.Chain

open Idealize.ShloMosaic Idealize.ShloMosaic.TcCoe Idealize.SL.Sem Idealize.ShloMosaic.StableHlo Cert.KernelIdeal Cert.KernelIdeal.Gen
open Cert.Spec

variable (m : (ℓ : Loc nD τ sig) → Buf (Elt Ideal) ℓ) (ρ : Dev nD → PrngReg) (c : Dev nD)

/-! ## Entering region 9 -/

theorem b31_args : Host.argsOf (W31 m ρ c) = A m ρ c := (Host.e9_args _).trans (b30_args m ρ c)
theorem b31_src : W31 m ρ c (Proc.devRef .tc main_v1) = sA m ρ c := (Host.e9_src _).trans (b30_src m ρ c)
theorem b31_dst : W31 m ρ c (Proc.devRef .tc main_v3) = dA m ρ c := (Host.e9_dst _).trans (b30_dst m ρ c)

/-! ## Leaving region 9 -/

theorem b32_z1 : W32 m ρ c (Proc.devRef .tc main_v191) = z1 (P3 (A m ρ c)) (h3 (A m ρ c)) (sA m ρ c) (dA m ρ c) := by
  refine (W32_arr m ρ c 3).trans ?_
  rw [RegVal.lin9 (V31 m ρ) c (P3 (Host.argsOf (W30 m ρ c))).w1 (P3 (Host.argsOf (W30 m ρ c))).b1 (Host.e9_w _) (Host.e9_b _)]
  rw [show V31 m ρ c main_v184 = _ from Host.e9_x _, b30_h, b30_src, b30_dst, b30_args]
  rfl
theorem b32_src : W32 m ρ c (Proc.devRef .tc main_v1) = sA m ρ c := (W32_of_ne m ρ c main_v1 (by decide)).trans (b31_src m ρ c)
theorem b32_dst : W32 m ρ c (Proc.devRef .tc main_v3) = dA m ρ c := (W32_of_ne m ρ c main_v3 (by decide)).trans (b31_dst m ρ c)
theorem b32_args : Host.argsOf (W32 m ρ c) = A m ρ c :=
  (Host.argsOf_congr_of fun b hb => W32_of_ne m ρ c b ((by decide : ∀ b ∈ Host.argRefs, ∀ w, Pipeline.arrRef spec9 w ≠ b) b hb)).trans (b31_args m ρ c)

/-! ## Entering region 10 -/

theorem b35_args : Host.argsOf (W35 m ρ c) = A m ρ c := (Host.e10_args _).trans (b32_args m ρ c)
theorem b35_src : W35 m ρ c (Proc.devRef .tc main_v1) = sA m ρ c := (Host.e10_src _).trans (b32_src m ρ c)
theorem b35_dst : W35 m ρ c (Proc.devRef .tc main_v3) = dA m ρ c := (Host.e10_dst _).trans (b32_dst m ρ c)
theorem b35_x : W35 m ρ c (Proc.devRef .tc main_v191) = z1 (P3 (A m ρ c)) (h3 (A m ρ c)) (sA m ρ c) (dA m ρ c) := (Host.e10_x _).trans (b32_z1 m ρ c)

/-! ## Leaving region 10 -/

theorem b36_z2 : W36 m ρ c (Proc.devRef .tc main_v210) = z2 (P3 (A m ρ c)) (h3 (A m ρ c)) (sA m ρ c) (dA m ρ c) := by
  refine (W36_arr m ρ c 7).trans ?_
  rw [RegVal.bnlin10 (V35 m ρ) c (mean256 (W32 m ρ c (Proc.devRef .tc main_v191))) (var256 (W32 m ρ c (Proc.devRef .tc main_v191)))
    (P3 (Host.argsOf (W32 m ρ c))).g1 (P3 (Host.argsOf (W32 m ρ c))).be1 (P3 (Host.argsOf (W32 m ρ c))).w2 (P3 (Host.argsOf (W32 m ρ c))).b2
    (Host.e10_mean _) (Host.e10_var _) (Host.e10_g _) (Host.e10_beta _) (Host.e10_w _) (Host.e10_b _)]
  rw [show V35 m ρ c main_v191 = _ from b35_x m ρ c, b32_z1, b32_args]
  rfl
theorem b36_src : W36 m ρ c (Proc.devRef .tc main_v1) = sA m ρ c := (W36_of_ne m ρ c main_v1 (by decide)).trans (b35_src m ρ c)
theorem b36_dst : W36 m ρ c (Proc.devRef .tc main_v3) = dA m ρ c := (W36_of_ne m ρ c main_v3 (by decide)).trans (b35_dst m ρ c)
theorem b36_args : Host.argsOf (W36 m ρ c) = A m ρ c :=
  (Host.argsOf_congr_of fun b hb => W36_of_ne m ρ c b ((by decide : ∀ b ∈ Host.argRefs, ∀ w, Pipeline.arrRef spec10 w ≠ b) b hb)).trans (b35_args m ρ c)

/-! ## Entering region 11 -/

theorem b39_args : Host.argsOf (W39 m ρ c) = A m ρ c := (Host.e11_args _).trans (b36_args m ρ c)
theorem b39_src : W39 m ρ c (Proc.devRef .tc main_v1) = sA m ρ c := (Host.e11_src _).trans (b36_src m ρ c)
theorem b39_dst : W39 m ρ c (Proc.devRef .tc main_v3) = dA m ρ c := (Host.e11_dst _).trans (b36_dst m ρ c)
theorem b39_x : W39 m ρ c (Proc.devRef .tc main_v210) = z2 (P3 (A m ρ c)) (h3 (A m ρ c)) (sA m ρ c) (dA m ρ c) := (Host.e11_x _).trans (b36_z2 m ρ c)

/-! ## Leaving region 11: the layer's output -/

theorem b40_h : W40 m ρ c (Proc.devRef .tc main_v223) = h4 (A m ρ c) := by
  refine (W40_arr m ρ c 5).trans ?_
  rw [RegVal.bn11 (V39 m ρ) c (mean128 (W36 m ρ c (Proc.devRef .tc main_v210))) (var128 (W36 m ρ c (Proc.devRef .tc main_v210)))
    (P3 (Host.argsOf (W36 m ρ c))).g2 (P3 (Host.argsOf (W36 m ρ c))).be2
    (Host.e11_mean _) (Host.e11_var _) (Host.e11_g _) (Host.e11_beta _)]
  rw [show V39 m ρ c main_v210 = _ from b39_x m ρ c, b36_z2, b36_args]
  rfl
theorem b40_src : W40 m ρ c (Proc.devRef .tc main_v1) = sA m ρ c := (W40_of_ne m ρ c main_v1 (by decide)).trans (b39_src m ρ c)
theorem b40_dst : W40 m ρ c (Proc.devRef .tc main_v3) = dA m ρ c := (W40_of_ne m ρ c main_v3 (by decide)).trans (b39_dst m ρ c)
theorem b40_args : Host.argsOf (W40 m ρ c) = A m ρ c :=
  (Host.argsOf_congr_of fun b hb => W40_of_ne m ρ c b ((by decide : ∀ b ∈ Host.argRefs, ∀ w, Pipeline.arrRef spec11 w ≠ b) b hb)).trans (b39_args m ρ c)

end Cert.KernelIdeal.Chain

end
-- ==== Proof.RegLin12.lean ====
/-
  A linear map of the network, computed block by block, is the linear map on whole arrays.

  The launch cuts the 50000 × 128 array `x` into 25 blocks of 2000 rows. At grid point `t` the body reads rows
  `2000·t … 2000·t + 1999` of `x`, the whole 128 × 256 weight matrix and the whole 1 × 256 bias row, and leaves in
  the output's block the matrix product of the row block with the weights plus the bias row repeated over the 2000
  rows. Over the extended reals a change of float format is the identity and a matrix product is an exact sum, so entry
  `(p, q)` of that block is `Σ_k x[2000·t + p, k] · w[k, q] + b[q]`: entry `(2000·t + p, q)` of `x · w + b`. The 25
  blocks tile the 50000 × 256 result, row `r` lying in the block of point `r / 2000`, so after the last write-back
  the result array is `x · w + b` — whatever the three input arrays held when the launch began, as long as the
  weight buffer holds `w` (narrowed to bf16: the identity here) and the bias buffer holds `b` laid out as one row.
-/
import proofs.«107430_j24575802868448_1_alg».proof.Proof.FPKernelIdealR12
import proofs.«107430_j24575802868448_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegVal.Lin12

open Idealize.ShloMosaic Idealize.ShloMosaic.TcCoe Idealize.SL.Sem
open Idealize.ShloMosaic.Pipeline (Dat)
open Cert.KernelIdeal Cert.KernelIdeal.Gen
open Idealize.ShloMosaic.ValueIdx

/-! ## The block product: which entries of its operands an entry of the product reads

For the product of a 2000 × 128 block with the 128 × 256 weights, at result entry `i` and contraction position `q` the
left operand is read at (row of `i`, `q`) and the right one at (`q`, column of `i`): one statement per operand axis. -/

theorem blk_lhs_row (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide),
    dif_pos (show (0 : Fin S2000x128.rank) ∈ dot_S2000x128_S128x256_S2000x256_1_0_0_1_n_n.lhsNonContracting by decide)]
  rfl
theorem blk_lhs_col (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
theorem blk_rhs_row (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
theorem blk_rhs_col (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide),
    dif_pos (show (1 : Fin S128x256.rank) ∈ dot_S2000x128_S128x256_S2000x256_1_0_0_1_n_n.rhsNonContracting by decide)]
  rfl

/-- Entry `(p, q)` of the block product accumulated from zero is `Σ_k x[p, k] · w[k, q]`. -/
theorem blk_product_entry (x : FVec Ideal S2000x128 .bf16) (w : FVec Ideal S128x256 .bf16) (p : Fin 2000) (q : Fin 256) :
    matmul dot_S2000x128_S128x256_S2000x256_1_0_0_1_n_n none x w (constant S2000x256 .f32 0x00000000#32) (ix2 p q)
      = ∑ k : Fin 128, x (ix2 p k) * w (ix2 k q) := by
  simp only [matmul]
  rw [Ideal.matmul_constant_zero_apply, ← Equiv.sum_comp (contrEquiv1 dot_S2000x128_S128x256_S2000x256_1_0_0_1_n_n 128 rfl rfl).symm]
  refine Finset.sum_congr rfl fun k _ => ?_
  have hk := contrEquiv1_symm_val dot_S2000x128_S128x256_S2000x256_1_0_0_1_n_n 128 rfl rfl k
  have el : dot_S2000x128_S128x256_S2000x256_1_0_0_1_n_n.lhsIdx (ix2 p q) ((contrEquiv1 dot_S2000x128_S128x256_S2000x256_1_0_0_1_n_n 128 rfl rfl).symm k) = ix2 p k := funext fun a => Fin.ext (by
    match a with
    | ⟨0, _⟩ => exact blk_lhs_row _ _
    | ⟨1, _⟩ => exact (blk_lhs_col _ _).trans hk)
  have er : dot_S2000x128_S128x256_S2000x256_1_0_0_1_n_n.rhsIdx (ix2 p q) ((contrEquiv1 dot_S2000x128_S128x256_S2000x256_1_0_0_1_n_n 128 rfl rfl).symm k) = ix2 k q := funext fun a => Fin.ext (by
    match a with
    | ⟨0, _⟩ => exact (blk_rhs_row _ _).trans hk
    | ⟨1, _⟩ => exact blk_rhs_col _ _)
  rw [el, er]

/-- What the body stores, entry by entry: `Σ_k x₀[p, k] · x₁[k, q] + x₂[0, q]` of the three blocks it loaded
    (the narrowing of `x₀` to bf16 is the identity on extended reals). -/
theorem stored_entry (x0 : Vec Ideal S2000x128 .f32) (x1 : Vec Ideal S128x256 .bf16) (x2 : Vec Ideal S1x256 .f32)
    (p : Fin 2000) (q : Fin 256) :
    (k12_pay1 (F := Ideal) x0 x1 x2) (ix2 p q) = (∑ k : Fin 128, x0 (ix2 p k) * x1 (ix2 k q)) + x2 (ix2 (0 : Fin 1) q) := by
  unfold k12_pay1
  simp only [shapeCast_self]
  rw [addf_apply, blk_product_entry, broadcastTo_1b_ab_apply]
  rfl

/-! ## The whole-array product, the same way -/

theorem arr_lhs_row (i : Cert.ReferenceIdeal.S50000x256.Idx) (q : Cert.ReferenceIdeal.dot_S50000x128_S128x256_S50000x256_1_0_0_1_n_n.contr.Idx) :
    (Cert.ReferenceIdeal.dot_S50000x128_S128x256_S50000x256_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x256_S50000x256_1_0_0_1_n_n.lhsBatch by decide),
    dif_pos (show (0 : Fin Cert.ReferenceIdeal.S50000x128.rank) ∈ Cert.ReferenceIdeal.dot_S50000x128_S128x256_S50000x256_1_0_0_1_n_n.lhsNonContracting by decide)]
  rfl
theorem arr_lhs_col (i : Cert.ReferenceIdeal.S50000x256.Idx) (q : Cert.ReferenceIdeal.dot_S50000x128_S128x256_S50000x256_1_0_0_1_n_n.contr.Idx) :
    (Cert.ReferenceIdeal.dot_S50000x128_S128x256_S50000x256_1_0_0_1_n_n.lhsIdx i q 1).val = (q ⟨0, by decide⟩).val :=
  Cert.ReferenceIdeal.dot_S50000x128_S128x256_S50000x256_1_0_0_1_n_n.lhsIdx_val_of_single rfl i q
theorem arr_rhs_row (i : Cert.ReferenceIdeal.S50000x256.Idx) (q : Cert.ReferenceIdeal.dot_S50000x128_S128x256_S50000x256_1_0_0_1_n_n.contr.Idx) :
    (Cert.ReferenceIdeal.dot_S50000x128_S128x256_S50000x256_1_0_0_1_n_n.rhsIdx i q 0).val = (q ⟨0, by decide⟩).val :=
  Cert.ReferenceIdeal.dot_S50000x128_S128x256_S50000x256_1_0_0_1_n_n.rhsIdx_val_of_single rfl i q
theorem arr_rhs_col (i : Cert.ReferenceIdeal.S50000x256.Idx) (q : Cert.ReferenceIdeal.dot_S50000x128_S128x256_S50000x256_1_0_0_1_n_n.contr.Idx) :
    (Cert.ReferenceIdeal.dot_S50000x128_S128x256_S50000x256_1_0_0_1_n_n.rhsIdx i q 1).val = (i 1).val := by
  unfold DotDims.rhsIdx
  rw [dif_neg (show ¬(1 : Fin Cert.ReferenceIdeal.S128x256.rank) ∈ Cert.ReferenceIdeal.dot_S50000x128_S128x256_S50000x256_1_0_0_1_n_n.rhsBatch by decide),
    dif_pos (show (1 : Fin Cert.ReferenceIdeal.S128x256.rank) ∈ Cert.ReferenceIdeal.dot_S50000x128_S128x256_S50000x256_1_0_0_1_n_n.rhsNonContracting by decide)]
  rfl

/-- Entry `(r, q)` of the whole-array product is `Σ_k x[r, k] · w[k, q]`. -/
theorem arr_product_entry (x : FVec Ideal Cert.ReferenceIdeal.S50000x128 .f32) (w : FVec Ideal Cert.ReferenceIdeal.S128x256 .f32)
    (r : Fin 50000) (q : Fin 256) :
    Host.dotGeneral Cert.ReferenceIdeal.dot_S50000x128_S128x256_S50000x256_1_0_0_1_n_n none x w (ix2 r q) = ∑ k : Fin 128, x (ix2 r k) * w (ix2 k q) := by
  simp only [Host.dotGeneral]
  rw [Ideal.dotGeneral_apply, ← Equiv.sum_comp (contrEquiv1 Cert.ReferenceIdeal.dot_S50000x128_S128x256_S50000x256_1_0_0_1_n_n 128 rfl rfl).symm]
  refine Finset.sum_congr rfl fun k _ => ?_
  have hk := contrEquiv1_symm_val Cert.ReferenceIdeal.dot_S50000x128_S128x256_S50000x256_1_0_0_1_n_n 128 rfl rfl k
  have el : Cert.ReferenceIdeal.dot_S50000x128_S128x256_S50000x256_1_0_0_1_n_n.lhsIdx (ix2 r q) ((contrEquiv1 Cert.ReferenceIdeal.dot_S50000x128_S128x256_S50000x256_1_0_0_1_n_n 128 rfl rfl).symm k) = ix2 r k := funext fun a => Fin.ext (by
    match a with
    | ⟨0, _⟩ => exact arr_lhs_row _ _
    | ⟨1, _⟩ => exact (arr_lhs_col _ _).trans hk)
  have er : Cert.ReferenceIdeal.dot_S50000x128_S128x256_S50000x256_1_0_0_1_n_n.rhsIdx (ix2 r q) ((contrEquiv1 Cert.ReferenceIdeal.dot_S50000x128_S128x256_S50000x256_1_0_0_1_n_n 128 rfl rfl).symm k) = ix2 k q := funext fun a => Fin.ext (by
    match a with
    | ⟨0, _⟩ => exact (arr_rhs_row _ _).trans hk
    | ⟨1, _⟩ => exact arr_rhs_col _ _)
  rw [el, er]

/-- A vector laid out as one row reads, at `(0, q)`, its entry `q`. -/
theorem vec_as_row {α : Type} {m : Nat} (v : (⟨1, ![m]⟩ : Shape).Idx → α)
    (h : (⟨1, ![m]⟩ : Shape).BroadcastsInDim ⟨2, ![1, m]⟩ ![1]) (u : Fin 1) (q : Fin m) :
    broadcastInDim ⟨2, ![1, m]⟩ ![1] h v (ix2 u q) = v (ix1 q) := by
  refine broadcastInDim_apply _ h v (ix2 u q) (ix1 q) fun a => ?_
  match a with
  | ⟨0, _⟩ =>
    show q.val = if m = 1 then 0 else q.val
    split
    · have := q.isLt; omega
    · rfl

/-- One row repeated over `n` rows reads, at `(r, q)`, the row's entry `q`. -/
theorem row_over_rows {α : Type} {n m : Nat} (v : (⟨2, ![1, m]⟩ : Shape).Idx → α)
    (h : (⟨2, ![1, m]⟩ : Shape).BroadcastsInDim ⟨2, ![n, m]⟩ ![0, 1]) (r : Fin n) (q : Fin m) :
    broadcastInDim ⟨2, ![n, m]⟩ ![0, 1] h v (ix2 r q) = v (ix2 (0 : Fin 1) q) := by
  refine broadcastInDim_apply _ h v (ix2 r q) (ix2 (0 : Fin 1) q) fun a => ?_
  match a with
  | ⟨0, _⟩ => rfl
  | ⟨1, _⟩ =>
    show q.val = if m = 1 then 0 else q.val
    split
    · have := q.isLt; omega
    · rfl

/-- Entry `(r, q)` of `x · w + b` is `Σ_k x[r, k] · w[k, q] + b[q]`. -/
theorem linear_entry (x : Cert.Spec.RA Cert.ReferenceIdeal.S50000x128) (w : Cert.Spec.RA Cert.ReferenceIdeal.S128x256)
    (b : Cert.Spec.RA Cert.ReferenceIdeal.S256) (r : Fin 50000) (q : Fin 256) :
    Cert.Spec.lin128x256 x w b (ix2 r q) = (∑ k : Fin 128, x (ix2 r k) * w (ix2 k q)) + b (ix1 q) := by
  unfold Cert.Spec.lin128x256
  rw [addf_apply, arr_product_entry, row_over_rows, vec_as_row]

/-! ## The grid: which block of each array a point reads or writes -/

/-- At point `t` the row-tiled arrays (`x` and the result) are at block `(t, 0)`, the weights and the bias at
    their one block `(0, 0)`. -/
theorem block_indices : ∀ t : Fin cfg12.N,
    win12_0.index t (0 : Fin 2) = t.val ∧ win12_0.index t (1 : Fin 2) = 0
    ∧ win12_1.index t (0 : Fin 2) = 0 ∧ win12_1.index t (1 : Fin 2) = 0
    ∧ win12_2.index t (0 : Fin 2) = 0 ∧ win12_2.index t (1 : Fin 2) = 0
    ∧ win12_3.index t (0 : Fin 2) = t.val ∧ win12_3.index t (1 : Fin 2) = 0 :=
  (by decide +kernel : ∀ t : Fin grid12.N, _)

variable (c : Dev nD)

/-- The block of `x` at point `t`, at `y`, is `x` at row `2000·t + y₀`, column `y₁`. -/
theorem x_block (A : Buf (Elt Ideal) ((c : Thread nD τ).loc main_v239)) (t : Fin cfg12.N) (y : S2000x128.Idx) (k : S50000x128.Idx)
    (hk0 : (k 0).val = 2000 * t.val + (y 0).val) (hk1 : (k 1).val = (y 1).val) :
    (((cfg12.win 0).blk t).view.read (Elt Ideal) A : Vec Ideal S2000x128 .f32) y = (A : S50000x128.Idx → Elt Ideal .f32) k := by
  obtain ⟨e0, e1, -⟩ := block_indices t
  rw [View.read_apply]
  refine congrArg (A : S50000x128.Idx → Elt Ideal .f32) (funext fun a => Fin.ext ?_)
  match a with
  | ⟨0, _⟩ => show win12_0.index t (0 : Fin 2) * 2000 + 1 * (y 0).val = (k 0).val; rw [e0, hk0]; omega
  | ⟨1, _⟩ => show win12_0.index t (1 : Fin 2) * 128 + 1 * (y 1).val = (k 1).val; rw [e1, hk1]; omega

/-- The weights' block at every point is the whole weight array. -/
theorem w_block (A : Buf (Elt Ideal) ((c : Thread nD τ).loc main_v244)) (t : Fin cfg12.N) :
    (((cfg12.win 1).blk t).view.read (Elt Ideal) A : Vec Ideal S128x256 .bf16) = (A : S128x256.Idx → Elt Ideal .bf16) := by
  obtain ⟨-, -, e2, e3, -⟩ := block_indices t
  funext y
  rw [View.read_apply]
  refine congrArg (A : S128x256.Idx → Elt Ideal .bf16) (funext fun a => Fin.ext ?_)
  match a with
  | ⟨0, _⟩ => show win12_1.index t (0 : Fin 2) * 128 + 1 * (y 0).val = (y 0).val; rw [e2]; omega
  | ⟨1, _⟩ => show win12_1.index t (1 : Fin 2) * 256 + 1 * (y 1).val = (y 1).val; rw [e3]; omega

/-- The bias row's block at every point is the whole row. -/
theorem b_block (A : Buf (Elt Ideal) ((c : Thread nD τ).loc main_v245)) (t : Fin cfg12.N) :
    (((cfg12.win 2).blk t).view.read (Elt Ideal) A : Vec Ideal S1x256 .f32) = (A : S1x256.Idx → Elt Ideal .f32) := by
  obtain ⟨-, -, -, -, e4, e5, -⟩ := block_indices t
  funext y
  rw [View.read_apply]
  refine congrArg (A : S1x256.Idx → Elt Ideal .f32) (funext fun a => Fin.ext ?_)
  match a with
  | ⟨0, _⟩ => show win12_2.index t (0 : Fin 2) * 1 + 1 * (y 0).val = (y 0).val; rw [e4]; omega
  | ⟨1, _⟩ => show win12_2.index t (1 : Fin 2) * 256 + 1 * (y 1).val = (y 1).val; rw [e5]; omega

/-- What the body stores from rows `2000·n …` of `X`, the weights `W` and the bias `B` as a row is, entry by
    entry, `X · W + B` at the rows `2000·n …`. -/
theorem block_is_linear (X : Cert.Spec.RA Cert.ReferenceIdeal.S50000x128) (W : Cert.Spec.RA Cert.ReferenceIdeal.S128x256)
    (B : Cert.Spec.RA Cert.ReferenceIdeal.S256)
    (x0 : Vec Ideal S2000x128 .f32) (x1 : Vec Ideal S128x256 .bf16) (x2 : Vec Ideal S1x256 .f32) (n : Nat)
    (h0 : ∀ (y : S2000x128.Idx) (k : S50000x128.Idx), (k 0).val = 2000 * n + (y 0).val → (k 1).val = (y 1).val → x0 y = X k)
    (h1 : x1 = truncf .bf16 W bitsLt_bf16_f32) (h2 : x2 = shapeCast S1x256 B shapeCasts_S256_S1x256)
    (y : S2000x256.Idx) (i : S50000x256.Idx) (hi0 : (i 0).val = 2000 * n + (y 0).val) (hi1 : (i 1).val = (y 1).val) :
    k12_pay1 (F := Ideal) x0 x1 x2 y = Cert.Spec.lin128x256 X W B i := by
  obtain ⟨p, q, rfl⟩ : ∃ (p : Fin 2000) (q : Fin 256), y = ix2 p q := ⟨y 0, y 1, eq_ix2 y⟩
  obtain ⟨r, q', rfl⟩ : ∃ (r : Fin 50000) (q' : Fin 256), i = ix2 r q' := ⟨i 0, i 1, eq_ix2 i⟩
  obtain rfl : q' = q := Fin.ext hi1
  rw [stored_entry, linear_entry]
  have hs : ∀ k : Fin 128, x0 (ix2 p k) * x1 (ix2 k q') = X (ix2 r k) * W (ix2 k q') := fun k => by
    rw [h0 (ix2 p k) (ix2 r k) hi0 rfl, h1, truncf_apply]
  have hb : x2 (ix2 (0 : Fin 1) q') = B (ix1 q') := by
    rw [h2, shapeCast_a_1a_apply]
  rw [Finset.sum_congr rfl fun k _ => hs k, hb]

/-- Every entry of the result lies in a block that is written back: row `r` in the block of point `r / 2000`. -/
theorem rows_covered (i : ((cfg12.win 3).arr.view.loc (c.tc : Thread nD τ)).2.ty.Idx) :
    ∃ t : Fin cfg12.N, (cfg12.win 3).flush t = true ∧ i ∈ ((cfg12.win 3).blk t).view.set := by
  have h0 : (i 0 : Nat) < 50000 := (i 0).isLt
  have h1 : (i 1 : Nat) < 256 := (i 1).isLt
  have hN : cfg12.N = 25 := N_12
  let t : Fin cfg12.N := ⟨(i 0 : Nat) / 2000, by rw [hN]; omega⟩
  obtain ⟨-, -, -, -, -, -, e6, e7⟩ := block_indices t
  refine ⟨t, flush12_3 t, ?_⟩
  show i ∈ ((View.whole main_v246).slice (win12_3.rect t)).set
  rw [View.set_slice_whole, Rect.mem_set_unit]
  intro a
  match a with
  | ⟨0, _⟩ =>
    show win12_3.index t (0 : Fin 2) * 2000 ≤ (i 0 : Nat) ∧ (i 0 : Nat) < win12_3.index t (0 : Fin 2) * 2000 + 2000
    rw [e6]; show (i 0 : Nat) / 2000 * 2000 ≤ (i 0 : Nat) ∧ (i 0 : Nat) < (i 0 : Nat) / 2000 * 2000 + 2000; omega
  | ⟨1, _⟩ =>
    show win12_3.index t (1 : Fin 2) * 256 ≤ (i 1 : Nat) ∧ (i 1 : Nat) < win12_3.index t (1 : Fin 2) * 256 + 256
    rw [e7]; omega

theorem zero_offsets : (![0, 0] : Fin 2 → Nat) = fun _ => 0 := funext fun a => by fin_cases a <;> rfl

/-- What point `t` writes back is block `t` of `x · w + b`, `x` the first array's contents at entry. -/
theorem written_back (V : (c : Dev nD) → (b : Ref sig .tc) → Buf (Elt Ideal) ((c : Thread nD τ).loc b))
    (w : Cert.Spec.RA Cert.ReferenceIdeal.S128x256) (b : Cert.Spec.RA Cert.ReferenceIdeal.S256)
    (hw : V c main_v244 = truncf .bf16 w bitsLt_bf16_f32)
    (hb : V c main_v245 = shapeCast S1x256 b shapeCasts_S256_S1x256) (t : Fin cfg12.N) :
    (dat12 (F := Ideal) V c).flushed 3 t
      = ((cfg12.win 3).blk t).view.read (Elt Ideal) (Cert.Spec.lin128x256 (V c main_v239) w b) := by
  show (cfg12.win 3).cut (grid12.coords t) ((dat12 V c).after 3 t) = _
  rw [after12_3]
  unfold out12_3
  rw [View.canon_unit_zero zero_offsets]
  simp only [View.ld_unit_zero (S := S2000x128) zero_offsets, View.ld_unit_zero (S := S128x256) zero_offsets,
    View.ld_unit_zero (S := S1x256) zero_offsets]
  obtain ⟨-, -, -, -, -, -, e6, e7⟩ := block_indices t
  funext j
  rw [View.read_apply]
  refine block_is_linear (V c main_v239) w b (iblk12 V c 0 t) (iblk12 V c 1 t) (iblk12 V c 2 t) t.val
    (fun y k hk0 hk1 => x_block c (V c main_v239) t y k hk0 hk1)
    ((w_block c (V c main_v244) t).trans hw) ((b_block c (V c main_v245) t).trans hb)
    ((cfg12.win 3).xinj (grid12.coords t) j) (((cfg12.win 3).blk t).view.emb j) ?_ ?_
  · show win12_3.index t (0 : Fin 2) * 2000 + 1 * (j 0).val = 2000 * t.val + (j 0).val
    rw [e6]; omega
  · show win12_3.index t (1 : Fin 2) * 256 + 1 * (j 1).val = (j 1).val
    rw [e7]; omega

end Cert.KernelIdeal.RegVal.Lin12

namespace Cert.KernelIdeal.RegVal

open Idealize.ShloMosaic Idealize.ShloMosaic.TcCoe Idealize.SL.Sem
open Idealize.ShloMosaic.Pipeline (Dat)
open Cert.KernelIdeal Cert.KernelIdeal.Gen

/-- THE RESULT ARRAY after the launch is `x · w + b` of the first array's entry contents, for any entry contents
    whose weight buffer is `w` and whose bias buffer is `b` as a row. -/
theorem lin12 (V : (c : Dev nD) → (b : Ref sig .tc) → Buf (Elt Ideal) ((c : Thread nD τ).loc b)) (c : Dev nD)
    (w : Cert.Spec.RA Cert.ReferenceIdeal.S128x256) (b : Cert.Spec.RA Cert.ReferenceIdeal.S256)
    (hw : V c main_v244 = truncf .bf16 w bitsLt_bf16_f32)
    (hb : V c main_v245 = shapeCast S1x256 b shapeCasts_S256_S1x256) :
    (dat12 (F := Ideal) V c).arrAt 3 cfg12.N = Cert.Spec.lin128x256 (V c main_v239) w b :=
  (dat12 V c).arrAt_eq_of_cover 3 (Cert.Spec.lin128x256 (V c main_v239) w b)
    (fun t _ => Lin12.written_back c V w b hw hb t) (Lin12.rows_covered c)

end Cert.KernelIdeal.RegVal

end
-- ==== Proof.RegBnLin13.lean ====
/-
  The value of one normalise-rectify-then-linear stage, read off the block pipeline.

  The stage takes a 50000 × 256 array x, four vectors over its 256 columns (a mean, a variance, a scale g and a shift β),
  a 256 × 128 weight and a bias over the 128 output columns, and produces the 50000 × 128 array

      y[r, q] = Σ_k max (g[k] · (x[r, k] − mean[k]) · rsqrt (var[k] + 1e-5) + β[k]) 0 · w[k, q]  +  bias[q].

  The pipeline computes it in 25 steps: step t reads rows 2000·t … 2000·t + 1999 of x and the whole of every small
  operand, forms exactly this expression for those rows and writes rows 2000·t … 2000·t + 1999 of the result. Row r of
  the result depends on row r of x only, so each written block is the corresponding block of the whole-array function,
  and the 25 blocks tile the 50000 rows: the result array ends holding the whole-array function. Over the extended
  reals the change of float format before the product is the identity, the product into a zero accumulator is the
  plain sum over the contracted index, and the two reciprocal square roots are one function, so the two sides agree
  term by term.
-/
import proofs.«107430_j24575802868448_1_alg».proof.Proof.FPKernelIdealR13
import proofs.«107430_j24575802868448_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegVal

open Idealize.ShloMosaic Idealize.ShloMosaic.TcCoe Idealize.SL.Sem Idealize.ShloMosaic.ValueIdx Cert.KernelIdeal Cert.KernelIdeal.Gen
open Idealize.ShloMosaic.Pipeline (Dat)

namespace BnLin13

/-- One entry normalised with its column's statistics, scaled, shifted and rectified:
    `max (g · (x − m) · rsqrt (v + 1e-5) + b) 0`. -/
def act (x m v g b : EReal) : EReal :=
  max (g * (x - m) * Ideal.rsqrt (v + Ideal.ofBits .f32 0x3727C5AC#32) + b) (Ideal.ofBits .f32 0x00000000#32)

/-! ## The block product: a row of the left block against a column of the right one -/

/-- The left operand's row coordinate is the output's. -/
theorem klhs_0 (j : S2000x128.Idx) (k : dot_S2000x256_S256x128_S2000x128_1_0_0_1_n_n.contr.Idx) :
    (dot_S2000x256_S256x128_S2000x128_1_0_0_1_n_n.lhsIdx j k 0).val = (j 0).val := by
  simp [DotDims.lhsIdx, dot_S2000x256_S256x128_S2000x128_1_0_0_1_n_n]; rfl

/-- The left operand's column coordinate is the contracted one. -/
theorem klhs_1 (j : S2000x128.Idx) (k : dot_S2000x256_S256x128_S2000x128_1_0_0_1_n_n.contr.Idx) :
    (dot_S2000x256_S256x128_S2000x128_1_0_0_1_n_n.lhsIdx j k 1).val = (k ⟨0, by decide⟩).val :=
  dot_S2000x256_S256x128_S2000x128_1_0_0_1_n_n.lhsIdx_val_of_single rfl j k

/-- The right operand's row coordinate is the contracted one. -/
theorem krhs_0 (j : S2000x128.Idx) (k : dot_S2000x256_S256x128_S2000x128_1_0_0_1_n_n.contr.Idx) :
    (dot_S2000x256_S256x128_S2000x128_1_0_0_1_n_n.rhsIdx j k 0).val = (k ⟨0, by decide⟩).val :=
  dot_S2000x256_S256x128_S2000x128_1_0_0_1_n_n.rhsIdx_val_of_single rfl j k

/-- The right operand's column coordinate is the output's. -/
theorem krhs_1 (j : S2000x128.Idx) (k : dot_S2000x256_S256x128_S2000x128_1_0_0_1_n_n.contr.Idx) :
    (dot_S2000x256_S256x128_S2000x128_1_0_0_1_n_n.rhsIdx j k 1).val = (j 1).val := by
  simp [DotDims.rhsIdx, dot_S2000x256_S256x128_S2000x128_1_0_0_1_n_n]; rfl

/-- The block product into a zero accumulator, entry by entry: the sum over the 256 contracted columns. -/
theorem kmatmul_apply (A : FVec Ideal S2000x256 .bf16) (B : FVec Ideal S256x128 .bf16) (p : Fin 2000) (q : Fin 128) :
    matmul dot_S2000x256_S256x128_S2000x128_1_0_0_1_n_n none A B (constant S2000x128 .f32 0x00000000#32) (ix2 p q)
      = ∑ k : Fin 256, A (ix2 p k) * B (ix2 k q) := by
  show FloatOps.matmul _ none A B _ (ix2 p q) = _
  rw [Ideal.matmul_constant_zero_apply,
    ← Equiv.sum_comp (contrEquiv1 dot_S2000x256_S256x128_S2000x128_1_0_0_1_n_n 256 rfl rfl).symm]
  refine Finset.sum_congr rfl fun k _ => ?_
  have ck := contrEquiv1_symm_val dot_S2000x256_S256x128_S2000x128_1_0_0_1_n_n 256 rfl rfl k
  have hl : dot_S2000x256_S256x128_S2000x128_1_0_0_1_n_n.lhsIdx (ix2 p q) ((contrEquiv1 _ 256 rfl rfl).symm k) = ix2 p k := by
    funext a; apply Fin.ext
    match a with
    | ⟨0, _⟩ => exact klhs_0 _ _
    | ⟨1, _⟩ => exact (klhs_1 _ _).trans ck
  have hr : dot_S2000x256_S256x128_S2000x128_1_0_0_1_n_n.rhsIdx (ix2 p q) ((contrEquiv1 _ 256 rfl rfl).symm k) = ix2 k q := by
    funext a; apply Fin.ext
    match a with
    | ⟨0, _⟩ => exact (krhs_0 _ _).trans ck
    | ⟨1, _⟩ => exact krhs_1 _ _
  rw [hl, hr]

/-- The body's stored value at row `p`, column `q` of the block: the rectified normalised row against column `q` of
    the weight, plus the bias. -/
theorem pay_apply (x0 : Vec Ideal S2000x256 .f32) (x1 x2 x3 x4 : Vec Ideal S1x256 .f32) (x5 : Vec Ideal S256x128 .bf16)
    (x6 : Vec Ideal S1x128 .f32) (p : Fin 2000) (q : Fin 128) :
    k13_pay1 (F := Ideal) x0 x1 x2 x3 x4 x5 x6 (ix2 p q)
      = (∑ k : Fin 256, act (x0 (ix2 p k)) (x1 (ix2 (0 : Fin 1) k)) (x2 (ix2 (0 : Fin 1) k)) (x3 (ix2 (0 : Fin 1) k))
            (x4 (ix2 (0 : Fin 1) k)) * x5 (ix2 k q)) + x6 (ix2 (0 : Fin 1) q) := by
  unfold k13_pay1
  simp only [shapeCast_self]
  rw [addf_apply, kmatmul_apply, broadcastTo_1b_ab_apply]
  congr 1
  refine Finset.sum_congr rfl fun k _ => ?_
  congr 1
  simp only [truncf_apply, maximumf_apply, addf_apply, mulf_apply, subf_apply, broadcastTo_1b_ab_apply, broadcast_apply]
  rfl

/-! ## The whole-array stage at an entry -/

theorem rlhs_0 (j : Cert.ReferenceIdeal.S50000x128.Idx) (k : Cert.ReferenceIdeal.dot_S50000x256_S256x128_S50000x128_1_0_0_1_n_n.contr.Idx) :
    (Cert.ReferenceIdeal.dot_S50000x256_S256x128_S50000x128_1_0_0_1_n_n.lhsIdx j k 0).val = (j 0).val := by
  simp [DotDims.lhsIdx, Cert.ReferenceIdeal.dot_S50000x256_S256x128_S50000x128_1_0_0_1_n_n]; rfl

theorem rlhs_1 (j : Cert.ReferenceIdeal.S50000x128.Idx) (k : Cert.ReferenceIdeal.dot_S50000x256_S256x128_S50000x128_1_0_0_1_n_n.contr.Idx) :
    (Cert.ReferenceIdeal.dot_S50000x256_S256x128_S50000x128_1_0_0_1_n_n.lhsIdx j k 1).val = (k ⟨0, by decide⟩).val :=
  Cert.ReferenceIdeal.dot_S50000x256_S256x128_S50000x128_1_0_0_1_n_n.lhsIdx_val_of_single rfl j k

theorem rrhs_0 (j : Cert.ReferenceIdeal.S50000x128.Idx) (k : Cert.ReferenceIdeal.dot_S50000x256_S256x128_S50000x128_1_0_0_1_n_n.contr.Idx) :
    (Cert.ReferenceIdeal.dot_S50000x256_S256x128_S50000x128_1_0_0_1_n_n.rhsIdx j k 0).val = (k ⟨0, by decide⟩).val :=
  Cert.ReferenceIdeal.dot_S50000x256_S256x128_S50000x128_1_0_0_1_n_n.rhsIdx_val_of_single rfl j k

theorem rrhs_1 (j : Cert.ReferenceIdeal.S50000x128.Idx) (k : Cert.ReferenceIdeal.dot_S50000x256_S256x128_S50000x128_1_0_0_1_n_n.contr.Idx) :
    (Cert.ReferenceIdeal.dot_S50000x256_S256x128_S50000x128_1_0_0_1_n_n.rhsIdx j k 1).val = (j 1).val := by
  simp [DotDims.rhsIdx, Cert.ReferenceIdeal.dot_S50000x256_S256x128_S50000x128_1_0_0_1_n_n]; rfl

/-- The whole-array product, entry by entry: the sum over the 256 contracted columns. -/
theorem rdot_apply (A : FVec Ideal Cert.ReferenceIdeal.S50000x256 .f32) (B : FVec Ideal Cert.ReferenceIdeal.S256x128 .f32) (r : Fin 50000) (q : Fin 128) :
    Host.dotGeneral Cert.ReferenceIdeal.dot_S50000x256_S256x128_S50000x128_1_0_0_1_n_n none A B (ix2 r q)
      = ∑ k : Fin 256, A (ix2 r k) * B (ix2 k q) := by
  show FloatOps.dotGeneral _ none _ A B (ix2 r q) = _
  rw [Ideal.dotGeneral_apply,
    ← Equiv.sum_comp (contrEquiv1 Cert.ReferenceIdeal.dot_S50000x256_S256x128_S50000x128_1_0_0_1_n_n 256 rfl rfl).symm]
  refine Finset.sum_congr rfl fun k _ => ?_
  have ck := contrEquiv1_symm_val Cert.ReferenceIdeal.dot_S50000x256_S256x128_S50000x128_1_0_0_1_n_n 256 rfl rfl k
  have hl : Cert.ReferenceIdeal.dot_S50000x256_S256x128_S50000x128_1_0_0_1_n_n.lhsIdx (ix2 r q) ((contrEquiv1 _ 256 rfl rfl).symm k) = ix2 r k := by
    funext a; apply Fin.ext
    match a with
    | ⟨0, _⟩ => exact rlhs_0 _ _
    | ⟨1, _⟩ => exact (rlhs_1 _ _).trans ck
  have hr : Cert.ReferenceIdeal.dot_S50000x256_S256x128_S50000x128_1_0_0_1_n_n.rhsIdx (ix2 r q) ((contrEquiv1 _ 256 rfl rfl).symm k) = ix2 k q := by
    funext a; apply Fin.ext
    match a with
    | ⟨0, _⟩ => exact (rrhs_0 _ _).trans ck
    | ⟨1, _⟩ => exact rrhs_1 _ _
  rw [hl, hr]

/-- A vector over the 256 columns laid out as one row and copied down the 50000 rows reads, at `(r, k)`, its entry `k`. -/
theorem rowB256_apply (v : FVec Ideal Cert.ReferenceIdeal.S256 .f32)
    (h1 : Cert.ReferenceIdeal.S256.BroadcastsInDim Cert.ReferenceIdeal.S1x256 (![1] : Fin 1 → Fin Cert.ReferenceIdeal.S1x256.rank))
    (h2 : Cert.ReferenceIdeal.S1x256.BroadcastsInDim Cert.ReferenceIdeal.S50000x256 (![0, 1] : Fin 2 → Fin Cert.ReferenceIdeal.S50000x256.rank))
    (r : Fin 50000) (k : Fin 256) :
    broadcastInDim Cert.ReferenceIdeal.S50000x256 ![0, 1] h2 (broadcastInDim Cert.ReferenceIdeal.S1x256 ![1] h1 v) (ix2 r k) = v (ix1 k) := by
  refine (broadcastInDim_apply _ h2 _ (ix2 r k) (ix2 (0 : Fin 1) k) fun a => ?_).trans
    (broadcastInDim_apply _ h1 v (ix2 (0 : Fin 1) k) (ix1 k) fun a => ?_)
  · match a with
    | ⟨0, _⟩ => rfl
    | ⟨1, _⟩ => rfl
  · match a with
    | ⟨0, _⟩ => rfl

/-- The same for a vector over the 128 output columns. -/
theorem rowB128_apply (v : FVec Ideal Cert.ReferenceIdeal.S128 .f32)
    (h1 : Cert.ReferenceIdeal.S128.BroadcastsInDim Cert.ReferenceIdeal.S1x128 (![1] : Fin 1 → Fin Cert.ReferenceIdeal.S1x128.rank))
    (h2 : Cert.ReferenceIdeal.S1x128.BroadcastsInDim Cert.ReferenceIdeal.S50000x128 (![0, 1] : Fin 2 → Fin Cert.ReferenceIdeal.S50000x128.rank))
    (r : Fin 50000) (k : Fin 128) :
    broadcastInDim Cert.ReferenceIdeal.S50000x128 ![0, 1] h2 (broadcastInDim Cert.ReferenceIdeal.S1x128 ![1] h1 v) (ix2 r k) = v (ix1 k) := by
  refine (broadcastInDim_apply _ h2 _ (ix2 r k) (ix2 (0 : Fin 1) k) fun a => ?_).trans
    (broadcastInDim_apply _ h1 v (ix2 (0 : Fin 1) k) (ix1 k) fun a => ?_)
  · match a with
    | ⟨0, _⟩ => rfl
    | ⟨1, _⟩ => rfl
  · match a with
    | ⟨0, _⟩ => rfl

/-- The whole-array stage at row `r`, column `q`. -/
theorem spec_apply (X : Cert.Spec.RA Cert.ReferenceIdeal.S50000x256) (mean var g beta : Cert.Spec.RA Cert.ReferenceIdeal.S256)
    (w : Cert.Spec.RA Cert.ReferenceIdeal.S256x128) (b : Cert.Spec.RA Cert.ReferenceIdeal.S128) (r : Fin 50000) (q : Fin 128) :
    Cert.Spec.lin256x128 (Cert.Spec.bnrelu256 X mean var g beta) w b (ix2 r q)
      = (∑ k : Fin 256, act (X (ix2 r k)) (mean (ix1 k)) (var (ix1 k)) (g (ix1 k)) (beta (ix1 k)) * w (ix2 k q)) + b (ix1 q) := by
  unfold Cert.Spec.lin256x128 Cert.Spec.bnrelu256
  rw [addf_apply, rdot_apply, rowB128_apply]
  congr 1
  refine Finset.sum_congr rfl fun k _ => ?_
  congr 1
  rw [maximumf_apply, addf_apply, mulf_apply, mulf_apply, subf_apply, rowB256_apply, rowB256_apply, rowB256_apply, rowB256_apply]
  rfl

/-! ## A block of the pipeline against the rows of the whole array it stands for -/

/-- If a block `xb` holds the rows of `X` from some row on, and the small blocks hold the statistics, the parameters,
    the weight and the bias, then the body's stored value at `(p, q)` is the whole-array stage at the row `r` that
    block row `p` stands for. -/
theorem block_value (xb : Vec Ideal S2000x256 .f32) (mb vb gb bb : Vec Ideal S1x256 .f32) (wb : Vec Ideal S256x128 .bf16)
    (cb : Vec Ideal S1x128 .f32)
    (X : Cert.Spec.RA Cert.ReferenceIdeal.S50000x256) (mean var g beta : Cert.Spec.RA Cert.ReferenceIdeal.S256)
    (w : Cert.Spec.RA Cert.ReferenceIdeal.S256x128) (b : Cert.Spec.RA Cert.ReferenceIdeal.S128) (p : Fin 2000) (q : Fin 128) (r : Fin 50000)
    (hx : ∀ k : Fin 256, xb (ix2 p k) = X (ix2 r k))
    (hm : ∀ k : Fin 256, mb (ix2 (0 : Fin 1) k) = mean (ix1 k)) (hv : ∀ k : Fin 256, vb (ix2 (0 : Fin 1) k) = var (ix1 k))
    (hg : ∀ k : Fin 256, gb (ix2 (0 : Fin 1) k) = g (ix1 k)) (hb : ∀ k : Fin 256, bb (ix2 (0 : Fin 1) k) = beta (ix1 k))
    (hw : ∀ k : Fin 256, wb (ix2 k q) = w (ix2 k q)) (hc : cb (ix2 (0 : Fin 1) q) = b (ix1 q)) :
    k13_pay1 (F := Ideal) xb mb vb gb bb wb cb (ix2 p q)
      = Cert.Spec.lin256x128 (Cert.Spec.bnrelu256 X mean var g beta) w b (ix2 r q) := by
  rw [pay_apply, spec_apply, hc]
  congr 1
  refine Finset.sum_congr rfl fun k _ => ?_
  rw [hx k, hm k, hv k, hg k, hb k, hw k]

/-! ## The pipeline's blocks as parts of the arrays -/

variable (V : (c : Dev nD) → (b : Ref sig .tc) → Buf (Elt Ideal) ((c : Thread nD τ).loc b))

theorem hz : (![0, 0] : Fin 2 → Nat) = fun _ => 0 := funext fun a => by fin_cases a <;> rfl

/-- The block index maps, decided over the 25 steps: the row-tiled operand and the result sit at block `(t, 0)`,
    every small operand at block `(0, 0)`. -/
theorem idx_facts : ∀ t : Fin cfg13.N,
    win13_0.index t (0 : Fin 2) = t.val ∧ win13_0.index t (1 : Fin 2) = 0
    ∧ win13_1.index t (0 : Fin 2) = 0 ∧ win13_1.index t (1 : Fin 2) = 0
    ∧ win13_2.index t (0 : Fin 2) = 0 ∧ win13_2.index t (1 : Fin 2) = 0
    ∧ win13_3.index t (0 : Fin 2) = 0 ∧ win13_3.index t (1 : Fin 2) = 0
    ∧ win13_4.index t (0 : Fin 2) = 0 ∧ win13_4.index t (1 : Fin 2) = 0
    ∧ win13_5.index t (0 : Fin 2) = 0 ∧ win13_5.index t (1 : Fin 2) = 0
    ∧ win13_6.index t (0 : Fin 2) = 0 ∧ win13_6.index t (1 : Fin 2) = 0
    ∧ win13_7.index t (0 : Fin 2) = t.val ∧ win13_7.index t (1 : Fin 2) = 0 :=
  (by decide +kernel : ∀ t : Fin grid13.N, _)

/-- Row `p` of the row-tiled operand's block at step `t` is row `2000·t + p` of the array. -/
theorem xblk_apply (c : Dev nD) (t : Fin cfg13.N) (p : Fin 2000) (k : Fin 256) (i : S50000x256.Idx)
    (h0 : (i 0).val = 2000 * t.val + p.val) (h1 : (i 1).val = k.val) :
    (iblk13 V c 0 t : Vec Ideal S2000x256 .f32) (ix2 p k) = (V c main_v246 : S50000x256.Idx → Elt Ideal .f32) i := by
  obtain ⟨e0, e1, -⟩ := idx_facts t
  unfold iblk13
  rw [View.read_apply]
  show V c main_v246 _ = V c main_v246 i
  congr 1
  funext a
  apply Fin.ext
  match a with
  | ⟨0, _⟩ => show win13_0.index t (0 : Fin 2) * 2000 + 1 * p.val = (i 0).val; rw [e0, h0]; omega
  | ⟨1, _⟩ => show win13_0.index t (1 : Fin 2) * 256 + 1 * k.val = (i 1).val; rw [e1, h1]; omega

/-- A small operand's one block is its whole array, at every step. -/
theorem blk1_eq (c : Dev nD) (t : Fin cfg13.N) :
    (iblk13 V c 1 t : Vec Ideal S1x256 .f32) = V c main_v261 := by
  obtain ⟨-, -, e0, e1, -⟩ := idx_facts t
  unfold iblk13
  funext y
  rw [View.read_apply]
  show V c main_v261 _ = V c main_v261 y
  congr 1
  funext a
  apply Fin.ext
  match a with
  | ⟨0, _⟩ => show win13_1.index t (0 : Fin 2) * 1 + 1 * (y 0).val = (y 0).val; rw [e0]; omega
  | ⟨1, _⟩ => show win13_1.index t (1 : Fin 2) * 256 + 1 * (y 1).val = (y 1).val; rw [e1]; omega

theorem blk2_eq (c : Dev nD) (t : Fin cfg13.N) :
    (iblk13 V c 2 t : Vec Ideal S1x256 .f32) = V c main_v262 := by
  obtain ⟨-, -, -, -, e0, e1, -⟩ := idx_facts t
  unfold iblk13
  funext y
  rw [View.read_apply]
  show V c main_v262 _ = V c main_v262 y
  congr 1
  funext a
  apply Fin.ext
  match a with
  | ⟨0, _⟩ => show win13_2.index t (0 : Fin 2) * 1 + 1 * (y 0).val = (y 0).val; rw [e0]; omega
  | ⟨1, _⟩ => show win13_2.index t (1 : Fin 2) * 256 + 1 * (y 1).val = (y 1).val; rw [e1]; omega

theorem blk3_eq (c : Dev nD) (t : Fin cfg13.N) :
    (iblk13 V c 3 t : Vec Ideal S1x256 .f32) = V c main_v263 := by
  obtain ⟨-, -, -, -, -, -, e0, e1, -⟩ := idx_facts t
  unfold iblk13
  funext y
  rw [View.read_apply]
  show V c main_v263 _ = V c main_v263 y
  congr 1
  funext a
  apply Fin.ext
  match a with
  | ⟨0, _⟩ => show win13_3.index t (0 : Fin 2) * 1 + 1 * (y 0).val = (y 0).val; rw [e0]; omega
  | ⟨1, _⟩ => show win13_3.index t (1 : Fin 2) * 256 + 1 * (y 1).val = (y 1).val; rw [e1]; omega

theorem blk4_eq (c : Dev nD) (t : Fin cfg13.N) :
    (iblk13 V c 4 t : Vec Ideal S1x256 .f32) = V c main_v264 := by
  obtain ⟨-, -, -, -, -, -, -, -, e0, e1, -⟩ := idx_facts t
  unfold iblk13
  funext y
  rw [View.read_apply]
  show V c main_v264 _ = V c main_v264 y
  congr 1
  funext a
  apply Fin.ext
  match a with
  | ⟨0, _⟩ => show win13_4.index t (0 : Fin 2) * 1 + 1 * (y 0).val = (y 0).val; rw [e0]; omega
  | ⟨1, _⟩ => show win13_4.index t (1 : Fin 2) * 256 + 1 * (y 1).val = (y 1).val; rw [e1]; omega

theorem blk5_eq (c : Dev nD) (t : Fin cfg13.N) :
    (iblk13 V c 5 t : Vec Ideal S256x128 .bf16) = V c main_v259 := by
  obtain ⟨-, -, -, -, -, -, -, -, -, -, e0, e1, -⟩ := idx_facts t
  unfold iblk13
  funext y
  rw [View.read_apply]
  show V c main_v259 _ = V c main_v259 y
  congr 1
  funext a
  apply Fin.ext
  match a with
  | ⟨0, _⟩ => show win13_5.index t (0 : Fin 2) * 256 + 1 * (y 0).val = (y 0).val; rw [e0]; omega
  | ⟨1, _⟩ => show win13_5.index t (1 : Fin 2) * 128 + 1 * (y 1).val = (y 1).val; rw [e1]; omega

theorem blk6_eq (c : Dev nD) (t : Fin cfg13.N) :
    (iblk13 V c 6 t : Vec Ideal S1x128 .f32) = V c main_v260 := by
  obtain ⟨-, -, -, -, -, -, -, -, -, -, -, -, e0, e1, -⟩ := idx_facts t
  unfold iblk13
  funext y
  rw [View.read_apply]
  show V c main_v260 _ = V c main_v260 y
  congr 1
  funext a
  apply Fin.ext
  match a with
  | ⟨0, _⟩ => show win13_6.index t (0 : Fin 2) * 1 + 1 * (y 0).val = (y 0).val; rw [e0]; omega
  | ⟨1, _⟩ => show win13_6.index t (1 : Fin 2) * 128 + 1 * (y 1).val = (y 1).val; rw [e1]; omega

/-! ## What each step writes back, and the array after the last step -/

/-- Step `t` writes back rows `2000·t … 2000·t + 1999` of the whole-array stage. -/
theorem flushed_eq (c : Dev nD) (mean var g beta : Cert.Spec.RA Cert.ReferenceIdeal.S256) (w : Cert.Spec.RA Cert.ReferenceIdeal.S256x128) (b : Cert.Spec.RA Cert.ReferenceIdeal.S128)
    (h1 : V c main_v261 = shapeCast S1x256 mean shapeCasts_S256_S1x256) (h2 : V c main_v262 = shapeCast S1x256 var shapeCasts_S256_S1x256)
    (h3 : V c main_v263 = shapeCast S1x256 g shapeCasts_S256_S1x256) (h4 : V c main_v264 = shapeCast S1x256 beta shapeCasts_S256_S1x256)
    (hw : V c main_v259 = truncf .bf16 w bitsLt_bf16_f32) (hb : V c main_v260 = shapeCast S1x128 b shapeCasts_S128_S1x128)
    (t : Fin cfg13.N) :
    (dat13 (F := Ideal) V c).flushed 7 t = ((cfg13.win 7).blk t).view.read (Elt Ideal) (Cert.Spec.lin256x128 (Cert.Spec.bnrelu256 (V c main_v246) mean var g beta) w b) := by
  show (cfg13.win 7).cut (grid13.coords t) ((dat13 V c).after 7 t) = _
  rw [after13_7]
  unfold out13_7
  rw [View.canon_unit_zero hz]
  simp only [View.ld_unit_zero (S := S2000x256) hz, View.ld_unit_zero (S := S1x256) hz, View.ld_unit_zero (S := S256x128) hz,
    View.ld_unit_zero (S := S1x128) hz]
  rw [blk1_eq V c t, blk2_eq V c t, blk3_eq V c t, blk4_eq V c t, blk5_eq V c t, blk6_eq V c t]
  have ht : t.val < 25 := lt_of_lt_of_eq t.isLt N_13
  obtain ⟨-, -, -, -, -, -, -, -, -, -, -, -, -, -, e0, e1⟩ := idx_facts t
  funext y
  obtain ⟨p, q, rfl⟩ : ∃ (p : Fin 2000) (q : Fin 128), y = ix2 p q := ⟨y 0, y 1, eq_ix2 y⟩
  have hr : 2000 * t.val + p.val < 50000 := by have hp := p.isLt; omega
  have hemb : ((cfg13.win 7).blk t).view.emb (ix2 p q) = ix2 (⟨2000 * t.val + p.val, hr⟩ : Fin 50000) q := by
    funext a
    apply Fin.ext
    match a with
    | ⟨0, _⟩ => show win13_7.index t (0 : Fin 2) * 2000 + 1 * p.val = 2000 * t.val + p.val; rw [e0]; omega
    | ⟨1, _⟩ => show win13_7.index t (1 : Fin 2) * 128 + 1 * q.val = q.val; rw [e1]; omega
  rw [View.read_apply, hemb]
  exact block_value (iblk13 V c 0 t) (V c main_v261) (V c main_v262) (V c main_v263) (V c main_v264) (V c main_v259) (V c main_v260)
    (V c main_v246) mean var g beta w b p q ⟨2000 * t.val + p.val, hr⟩
    (fun k => xblk_apply V c t p k _ rfl rfl)
    (fun k => (congrFun h1 _).trans (shapeCast_a_1a_apply mean _ 0 k))
    (fun k => (congrFun h2 _).trans (shapeCast_a_1a_apply var _ 0 k))
    (fun k => (congrFun h3 _).trans (shapeCast_a_1a_apply g _ 0 k))
    (fun k => (congrFun h4 _).trans (shapeCast_a_1a_apply beta _ 0 k))
    (fun k => congrFun hw _)
    ((congrFun hb _).trans (shapeCast_a_1a_apply b _ 0 q))

/-- Row `r` of the result lies in the block of step `r / 2000`, which is written back. -/
theorem cover (i : S50000x128.Idx) :
    ∃ t : Fin cfg13.N, (cfg13.win 7).flush t = true ∧ i ∈ ((cfg13.win 7).blk t).view.set := by
  have hi0 : (i 0).val < 50000 := (i 0).isLt
  have hi1 : (i 1).val < 128 := (i 1).isLt
  have hN : cfg13.N = 25 := N_13
  have ht0 : (i 0).val / 2000 < cfg13.N := by rw [hN]; omega
  refine ⟨⟨(i 0).val / 2000, ht0⟩, flush13_7 _, ?_⟩
  obtain ⟨-, -, -, -, -, -, -, -, -, -, -, -, -, -, e0, e1⟩ := idx_facts ⟨(i 0).val / 2000, ht0⟩
  have e0' : win13_7.index ⟨(i 0).val / 2000, ht0⟩ (0 : Fin 2) = (i 0).val / 2000 := e0
  show i ∈ ((View.whole main_v265).slice (win13_7.rect ⟨(i 0).val / 2000, ht0⟩)).set
  rw [View.set_slice_whole, Rect.mem_set_unit]
  intro a
  match a with
  | ⟨0, _⟩ =>
    show win13_7.index ⟨(i 0).val / 2000, ht0⟩ (0 : Fin 2) * 2000 ≤ (i 0).val
      ∧ (i 0).val < win13_7.index ⟨(i 0).val / 2000, ht0⟩ (0 : Fin 2) * 2000 + 2000
    rw [e0']; omega
  | ⟨1, _⟩ =>
    show win13_7.index ⟨(i 0).val / 2000, ht0⟩ (1 : Fin 2) * 128 ≤ (i 1).val
      ∧ (i 1).val < win13_7.index ⟨(i 0).val / 2000, ht0⟩ (1 : Fin 2) * 128 + 128
    rw [e1]; omega

end BnLin13

/-- After the 25 steps the result array holds the whole-array stage of the row-tiled operand as the stage found it:
    the normalisation with the given statistics, the rectifier, the product with the weight and the bias. -/
theorem bnlin13 (V : (c : Dev nD) → (b : Ref sig .tc) → Buf (Elt Ideal) ((c : Thread nD τ).loc b)) (c : Dev nD)
    (mean var g beta : Cert.Spec.RA Cert.ReferenceIdeal.S256) (w : Cert.Spec.RA Cert.ReferenceIdeal.S256x128) (b : Cert.Spec.RA Cert.ReferenceIdeal.S128)
    (h1 : V c main_v261 = shapeCast S1x256 mean shapeCasts_S256_S1x256) (h2 : V c main_v262 = shapeCast S1x256 var shapeCasts_S256_S1x256)
    (h3 : V c main_v263 = shapeCast S1x256 g shapeCasts_S256_S1x256) (h4 : V c main_v264 = shapeCast S1x256 beta shapeCasts_S256_S1x256)
    (hw : V c main_v259 = truncf .bf16 w bitsLt_bf16_f32) (hb : V c main_v260 = shapeCast S1x128 b shapeCasts_S128_S1x128) :
    (dat13 (F := Ideal) V c).arrAt 7 cfg13.N = Cert.Spec.lin256x128 (Cert.Spec.bnrelu256 (V c main_v246) mean var g beta) w b :=
  (dat13 (F := Ideal) V c).arrAt_eq_of_cover 7 (Cert.Spec.lin256x128 (Cert.Spec.bnrelu256 (V c main_v246) mean var g beta) w b)
    (fun t _ => BnLin13.flushed_eq V c mean var g beta w b h1 h2 h3 h4 hw hb t) BnLin13.cover

end Cert.KernelIdeal.RegVal

end
-- ==== Proof.RegLin14.lean ====
/-
  A linear map of the network, computed block by block, is the linear map on whole arrays.

  The launch cuts the 50000 × 128 array `x` into 25 blocks of 2000 rows. At grid point `t` the body reads rows
  `2000·t … 2000·t + 1999` of `x`, the whole 128 × 128 weight matrix and the whole 1 × 128 bias row, and leaves in
  the output's block the matrix product of the row block with the weights plus the bias row repeated over the 2000
  rows. Over the extended reals a change of float format is the identity and a matrix product is an exact sum, so entry
  `(p, q)` of that block is `Σ_k x[2000·t + p, k] · w[k, q] + b[q]`: entry `(2000·t + p, q)` of `x · w + b`. The 25
  blocks tile the 50000 × 128 result, row `r` lying in the block of point `r / 2000`, so after the last write-back
  the result array is `x · w + b` — whatever the three input arrays held when the launch began, as long as the
  weight buffer holds `w` (narrowed to bf16: the identity here) and the bias buffer holds `b` laid out as one row.
-/
import proofs.«107430_j24575802868448_1_alg».proof.Proof.FPKernelIdealR14
import proofs.«107430_j24575802868448_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegVal.Lin14

open Idealize.ShloMosaic Idealize.ShloMosaic.TcCoe Idealize.SL.Sem
open Idealize.ShloMosaic.Pipeline (Dat)
open Cert.KernelIdeal Cert.KernelIdeal.Gen
open Idealize.ShloMosaic.ValueIdx

/-! ## The block product: which entries of its operands an entry of the product reads

For the product of a 2000 × 128 block with the 128 × 128 weights, at result entry `i` and contraction position `q` the
left operand is read at (row of `i`, `q`) and the right one at (`q`, column of `i`): one statement per operand axis. -/

theorem blk_lhs_row (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl
theorem blk_lhs_col (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem blk_rhs_row (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem blk_rhs_col (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- Entry `(p, q)` of the block product accumulated from zero is `Σ_k x[p, k] · w[k, q]`. -/
theorem blk_product_entry (x : FVec Ideal S2000x128 .bf16) (w : FVec Ideal S128x128 .bf16) (p : Fin 2000) (q : Fin 128) :
    matmul dot_S2000x128_S128x128_S2000x128_1_0_0_1_n_n none x w (constant S2000x128 .f32 0x00000000#32) (ix2 p q)
      = ∑ k : Fin 128, x (ix2 p k) * w (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact blk_lhs_row _ _
    | ⟨1, _⟩ => exact (blk_lhs_col _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (blk_rhs_row _ _).trans hk
    | ⟨1, _⟩ => exact blk_rhs_col _ _)
  rw [el, er]

/-- What the body stores, entry by entry: `Σ_k x₀[p, k] · x₁[k, q] + x₂[0, q]` of the three blocks it loaded
    (the narrowing of `x₀` to bf16 is the identity on extended reals). -/
theorem stored_entry (x0 : Vec Ideal S2000x128 .f32) (x1 : Vec Ideal S128x128 .bf16) (x2 : Vec Ideal S1x128 .f32)
    (p : Fin 2000) (q : Fin 128) :
    (k14_pay1 (F := Ideal) x0 x1 x2) (ix2 p q) = (∑ k : Fin 128, x0 (ix2 p k) * x1 (ix2 k q)) + x2 (ix2 (0 : Fin 1) q) := by
  unfold k14_pay1
  simp only [shapeCast_self]
  rw [addf_apply, blk_product_entry, broadcastTo_1b_ab_apply]
  rfl

/-! ## The whole-array product, the same way -/

theorem arr_lhs_row (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x128_S50000x128_1_0_0_1_n_n.lhsBatch by decide),
    dif_pos (show (0 : Fin Cert.ReferenceIdeal.S50000x128.rank) ∈ Cert.ReferenceIdeal.dot_S50000x128_S128x128_S50000x128_1_0_0_1_n_n.lhsNonContracting by decide)]
  rfl
theorem arr_lhs_col (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 1).val = (q ⟨0, by decide⟩).val :=
  Cert.ReferenceIdeal.dot_S50000x128_S128x128_S50000x128_1_0_0_1_n_n.lhsIdx_val_of_single rfl i q
theorem arr_rhs_row (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 0).val = (q ⟨0, by decide⟩).val :=
  Cert.ReferenceIdeal.dot_S50000x128_S128x128_S50000x128_1_0_0_1_n_n.rhsIdx_val_of_single rfl i q
theorem arr_rhs_col (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 1).val = (i 1).val := by
  unfold DotDims.rhsIdx
  rw [dif_neg (show ¬(1 : Fin Cert.ReferenceIdeal.S128x128.rank) ∈ Cert.ReferenceIdeal.dot_S50000x128_S128x128_S50000x128_1_0_0_1_n_n.rhsBatch by decide),
    dif_pos (show (1 : Fin Cert.ReferenceIdeal.S128x128.rank) ∈ Cert.ReferenceIdeal.dot_S50000x128_S128x128_S50000x128_1_0_0_1_n_n.rhsNonContracting by decide)]
  rfl

/-- Entry `(r, q)` of the whole-array product is `Σ_k x[r, k] · w[k, q]`. -/
theorem arr_product_entry (x : FVec Ideal Cert.ReferenceIdeal.S50000x128 .f32) (w : FVec Ideal Cert.ReferenceIdeal.S128x128 .f32)
    (r : Fin 50000) (q : Fin 128) :
    Host.dotGeneral Cert.ReferenceIdeal.dot_S50000x128_S128x128_S50000x128_1_0_0_1_n_n none x w (ix2 r q) = ∑ k : Fin 128, x (ix2 r k) * w (ix2 k q) := by
  simp only [Host.dotGeneral]
  rw [Ideal.dotGeneral_apply, ← Equiv.sum_comp (contrEquiv1 Cert.ReferenceIdeal.dot_S50000x128_S128x128_S50000x128_1_0_0_1_n_n 128 rfl rfl).symm]
  refine Finset.sum_congr rfl fun k _ => ?_
  have hk := contrEquiv1_symm_val Cert.ReferenceIdeal.dot_S50000x128_S128x128_S50000x128_1_0_0_1_n_n 128 rfl rfl k
  have el : Cert.ReferenceIdeal.dot_S50000x128_S128x128_S50000x128_1_0_0_1_n_n.lhsIdx (ix2 r q) ((contrEquiv1 Cert.ReferenceIdeal.dot_S50000x128_S128x128_S50000x128_1_0_0_1_n_n 128 rfl rfl).symm k) = ix2 r k := funext fun a => Fin.ext (by
    match a with
    | ⟨0, _⟩ => exact arr_lhs_row _ _
    | ⟨1, _⟩ => exact (arr_lhs_col _ _).trans hk)
  have er : Cert.ReferenceIdeal.dot_S50000x128_S128x128_S50000x128_1_0_0_1_n_n.rhsIdx (ix2 r q) ((contrEquiv1 Cert.ReferenceIdeal.dot_S50000x128_S128x128_S50000x128_1_0_0_1_n_n 128 rfl rfl).symm k) = ix2 k q := funext fun a => Fin.ext (by
    match a with
    | ⟨0, _⟩ => exact (arr_rhs_row _ _).trans hk
    | ⟨1, _⟩ => exact arr_rhs_col _ _)
  rw [el, er]

/-- A vector laid out as one row reads, at `(0, q)`, its entry `q`. -/
theorem vec_as_row {α : Type} {m : Nat} (v : (⟨1, ![m]⟩ : Shape).Idx → α)
    (h : (⟨1, ![m]⟩ : Shape).BroadcastsInDim ⟨2, ![1, m]⟩ ![1]) (u : Fin 1) (q : Fin m) :
    broadcastInDim ⟨2, ![1, m]⟩ ![1] h v (ix2 u q) = v (ix1 q) := by
  refine broadcastInDim_apply _ h v (ix2 u q) (ix1 q) fun a => ?_
  match a with
  | ⟨0, _⟩ =>
    show q.val = if m = 1 then 0 else q.val
    split
    · have := q.isLt; omega
    · rfl

/-- One row repeated over `n` rows reads, at `(r, q)`, the row's entry `q`. -/
theorem row_over_rows {α : Type} {n m : Nat} (v : (⟨2, ![1, m]⟩ : Shape).Idx → α)
    (h : (⟨2, ![1, m]⟩ : Shape).BroadcastsInDim ⟨2, ![n, m]⟩ ![0, 1]) (r : Fin n) (q : Fin m) :
    broadcastInDim ⟨2, ![n, m]⟩ ![0, 1] h v (ix2 r q) = v (ix2 (0 : Fin 1) q) := by
  refine broadcastInDim_apply _ h v (ix2 r q) (ix2 (0 : Fin 1) q) fun a => ?_
  match a with
  | ⟨0, _⟩ => rfl
  | ⟨1, _⟩ =>
    show q.val = if m = 1 then 0 else q.val
    split
    · have := q.isLt; omega
    · rfl

/-- Entry `(r, q)` of `x · w + b` is `Σ_k x[r, k] · w[k, q] + b[q]`. -/
theorem linear_entry (x : Cert.Spec.RA Cert.ReferenceIdeal.S50000x128) (w : Cert.Spec.RA Cert.ReferenceIdeal.S128x128)
    (b : Cert.Spec.RA Cert.ReferenceIdeal.S128) (r : Fin 50000) (q : Fin 128) :
    Cert.Spec.lin128x128 x w b (ix2 r q) = (∑ k : Fin 128, x (ix2 r k) * w (ix2 k q)) + b (ix1 q) := by
  unfold Cert.Spec.lin128x128
  rw [addf_apply, arr_product_entry, row_over_rows, vec_as_row]

/-! ## The grid: which block of each array a point reads or writes -/

/-- At point `t` the row-tiled arrays (`x` and the result) are at block `(t, 0)`, the weights and the bias at
    their one block `(0, 0)`. -/
theorem block_indices : ∀ t : Fin cfg14.N,
    win14_0.index t (0 : Fin 2) = t.val ∧ win14_0.index t (1 : Fin 2) = 0
    ∧ win14_1.index t (0 : Fin 2) = 0 ∧ win14_1.index t (1 : Fin 2) = 0
    ∧ win14_2.index t (0 : Fin 2) = 0 ∧ win14_2.index t (1 : Fin 2) = 0
    ∧ win14_3.index t (0 : Fin 2) = t.val ∧ win14_3.index t (1 : Fin 2) = 0 :=
  (by decide +kernel : ∀ t : Fin grid14.N, _)

variable (c : Dev nD)

/-- The block of `x` at point `t`, at `y`, is `x` at row `2000·t + y₀`, column `y₁`. -/
theorem x_block (A : Buf (Elt Ideal) ((c : Thread nD τ).loc main_v265)) (t : Fin cfg14.N) (y : S2000x128.Idx) (k : S50000x128.Idx)
    (hk0 : (k 0).val = 2000 * t.val + (y 0).val) (hk1 : (k 1).val = (y 1).val) :
    (((cfg14.win 0).blk t).view.read (Elt Ideal) A : Vec Ideal S2000x128 .f32) y = (A : S50000x128.Idx → Elt Ideal .f32) k := by
  obtain ⟨e0, e1, -⟩ := block_indices t
  rw [View.read_apply]
  refine congrArg (A : S50000x128.Idx → Elt Ideal .f32) (funext fun a => Fin.ext ?_)
  match a with
  | ⟨0, _⟩ => show win14_0.index t (0 : Fin 2) * 2000 + 1 * (y 0).val = (k 0).val; rw [e0, hk0]; omega
  | ⟨1, _⟩ => show win14_0.index t (1 : Fin 2) * 128 + 1 * (y 1).val = (k 1).val; rw [e1, hk1]; omega

/-- The weights' block at every point is the whole weight array. -/
theorem w_block (A : Buf (Elt Ideal) ((c : Thread nD τ).loc main_v266)) (t : Fin cfg14.N) :
    (((cfg14.win 1).blk t).view.read (Elt Ideal) A : Vec Ideal S128x128 .bf16) = (A : S128x128.Idx → Elt Ideal .bf16) := by
  obtain ⟨-, -, e2, e3, -⟩ := block_indices t
  funext y
  rw [View.read_apply]
  refine congrArg (A : S128x128.Idx → Elt Ideal .bf16) (funext fun a => Fin.ext ?_)
  match a with
  | ⟨0, _⟩ => show win14_1.index t (0 : Fin 2) * 128 + 1 * (y 0).val = (y 0).val; rw [e2]; omega
  | ⟨1, _⟩ => show win14_1.index t (1 : Fin 2) * 128 + 1 * (y 1).val = (y 1).val; rw [e3]; omega

/-- The bias row's block at every point is the whole row. -/
theorem b_block (A : Buf (Elt Ideal) ((c : Thread nD τ).loc main_v267)) (t : Fin cfg14.N) :
    (((cfg14.win 2).blk t).view.read (Elt Ideal) A : Vec Ideal S1x128 .f32) = (A : S1x128.Idx → Elt Ideal .f32) := by
  obtain ⟨-, -, -, -, e4, e5, -⟩ := block_indices t
  funext y
  rw [View.read_apply]
  refine congrArg (A : S1x128.Idx → Elt Ideal .f32) (funext fun a => Fin.ext ?_)
  match a with
  | ⟨0, _⟩ => show win14_2.index t (0 : Fin 2) * 1 + 1 * (y 0).val = (y 0).val; rw [e4]; omega
  | ⟨1, _⟩ => show win14_2.index t (1 : Fin 2) * 128 + 1 * (y 1).val = (y 1).val; rw [e5]; omega

/-- What the body stores from rows `2000·n …` of `X`, the weights `W` and the bias `B` as a row is, entry by
    entry, `X · W + B` at the rows `2000·n …`. -/
theorem block_is_linear (X : Cert.Spec.RA Cert.ReferenceIdeal.S50000x128) (W : Cert.Spec.RA Cert.ReferenceIdeal.S128x128)
    (B : Cert.Spec.RA Cert.ReferenceIdeal.S128)
    (x0 : Vec Ideal S2000x128 .f32) (x1 : Vec Ideal S128x128 .bf16) (x2 : Vec Ideal S1x128 .f32) (n : Nat)
    (h0 : ∀ (y : S2000x128.Idx) (k : S50000x128.Idx), (k 0).val = 2000 * n + (y 0).val → (k 1).val = (y 1).val → x0 y = X k)
    (h1 : x1 = truncf .bf16 W bitsLt_bf16_f32) (h2 : x2 = shapeCast S1x128 B shapeCasts_S128_S1x128)
    (y : S2000x128.Idx) (i : S50000x128.Idx) (hi0 : (i 0).val = 2000 * n + (y 0).val) (hi1 : (i 1).val = (y 1).val) :
    k14_pay1 (F := Ideal) x0 x1 x2 y = Cert.Spec.lin128x128 X W B i := by
  obtain ⟨p, q, rfl⟩ : ∃ (p : Fin 2000) (q : Fin 128), y = ix2 p q := ⟨y 0, y 1, eq_ix2 y⟩
  obtain ⟨r, q', rfl⟩ : ∃ (r : Fin 50000) (q' : Fin 128), i = ix2 r q' := ⟨i 0, i 1, eq_ix2 i⟩
  obtain rfl : q' = q := Fin.ext hi1
  rw [stored_entry, linear_entry]
  have hs : ∀ k : Fin 128, x0 (ix2 p k) * x1 (ix2 k q') = X (ix2 r k) * W (ix2 k q') := fun k => by
    rw [h0 (ix2 p k) (ix2 r k) hi0 rfl, h1, truncf_apply]
  have hb : x2 (ix2 (0 : Fin 1) q') = B (ix1 q') := by
    rw [h2, shapeCast_a_1a_apply]
  rw [Finset.sum_congr rfl fun k _ => hs k, hb]

/-- Every entry of the result lies in a block that is written back: row `r` in the block of point `r / 2000`. -/
theorem rows_covered (i : ((cfg14.win 3).arr.view.loc (c.tc : Thread nD τ)).2.ty.Idx) :
    ∃ t : Fin cfg14.N, (cfg14.win 3).flush t = true ∧ i ∈ ((cfg14.win 3).blk t).view.set := by
  have h0 : (i 0 : Nat) < 50000 := (i 0).isLt
  have h1 : (i 1 : Nat) < 128 := (i 1).isLt
  have hN : cfg14.N = 25 := N_14
  let t : Fin cfg14.N := ⟨(i 0 : Nat) / 2000, by rw [hN]; omega⟩
  obtain ⟨-, -, -, -, -, -, e6, e7⟩ := block_indices t
  refine ⟨t, flush14_3 t, ?_⟩
  show i ∈ ((View.whole main_v268).slice (win14_3.rect t)).set
  rw [View.set_slice_whole, Rect.mem_set_unit]
  intro a
  match a with
  | ⟨0, _⟩ =>
    show win14_3.index t (0 : Fin 2) * 2000 ≤ (i 0 : Nat) ∧ (i 0 : Nat) < win14_3.index t (0 : Fin 2) * 2000 + 2000
    rw [e6]; show (i 0 : Nat) / 2000 * 2000 ≤ (i 0 : Nat) ∧ (i 0 : Nat) < (i 0 : Nat) / 2000 * 2000 + 2000; omega
  | ⟨1, _⟩ =>
    show win14_3.index t (1 : Fin 2) * 128 ≤ (i 1 : Nat) ∧ (i 1 : Nat) < win14_3.index t (1 : Fin 2) * 128 + 128
    rw [e7]; omega

theorem zero_offsets : (![0, 0] : Fin 2 → Nat) = fun _ => 0 := funext fun a => by fin_cases a <;> rfl

/-- What point `t` writes back is block `t` of `x · w + b`, `x` the first array's contents at entry. -/
theorem written_back (V : (c : Dev nD) → (b : Ref sig .tc) → Buf (Elt Ideal) ((c : Thread nD τ).loc b))
    (w : Cert.Spec.RA Cert.ReferenceIdeal.S128x128) (b : Cert.Spec.RA Cert.ReferenceIdeal.S128)
    (hw : V c main_v266 = truncf .bf16 w bitsLt_bf16_f32)
    (hb : V c main_v267 = shapeCast S1x128 b shapeCasts_S128_S1x128) (t : Fin cfg14.N) :
    (dat14 (F := Ideal) V c).flushed 3 t
      = ((cfg14.win 3).blk t).view.read (Elt Ideal) (Cert.Spec.lin128x128 (V c main_v265) w b) := by
  show (cfg14.win 3).cut (grid14.coords t) ((dat14 V c).after 3 t) = _
  rw [after14_3]
  unfold out14_3
  rw [View.canon_unit_zero zero_offsets]
  simp only [View.ld_unit_zero (S := S2000x128) zero_offsets, View.ld_unit_zero (S := S128x128) zero_offsets,
    View.ld_unit_zero (S := S1x128) zero_offsets]
  obtain ⟨-, -, -, -, -, -, e6, e7⟩ := block_indices t
  funext j
  rw [View.read_apply]
  refine block_is_linear (V c main_v265) w b (iblk14 V c 0 t) (iblk14 V c 1 t) (iblk14 V c 2 t) t.val
    (fun y k hk0 hk1 => x_block c (V c main_v265) t y k hk0 hk1)
    ((w_block c (V c main_v266) t).trans hw) ((b_block c (V c main_v267) t).trans hb)
    ((cfg14.win 3).xinj (grid14.coords t) j) (((cfg14.win 3).blk t).view.emb j) ?_ ?_
  · show win14_3.index t (0 : Fin 2) * 2000 + 1 * (j 0).val = 2000 * t.val + (j 0).val
    rw [e6]; omega
  · show win14_3.index t (1 : Fin 2) * 128 + 1 * (j 1).val = (j 1).val
    rw [e7]; omega

end Cert.KernelIdeal.RegVal.Lin14

namespace Cert.KernelIdeal.RegVal

open Idealize.ShloMosaic Idealize.ShloMosaic.TcCoe Idealize.SL.Sem
open Idealize.ShloMosaic.Pipeline (Dat)
open Cert.KernelIdeal Cert.KernelIdeal.Gen

/-- THE RESULT ARRAY after the launch is `x · w + b` of the first array's entry contents, for any entry contents
    whose weight buffer is `w` and whose bias buffer is `b` as a row. -/
theorem lin14 (V : (c : Dev nD) → (b : Ref sig .tc) → Buf (Elt Ideal) ((c : Thread nD τ).loc b)) (c : Dev nD)
    (w : Cert.Spec.RA Cert.ReferenceIdeal.S128x128) (b : Cert.Spec.RA Cert.ReferenceIdeal.S128)
    (hw : V c main_v266 = truncf .bf16 w bitsLt_bf16_f32)
    (hb : V c main_v267 = shapeCast S1x128 b shapeCasts_S128_S1x128) :
    (dat14 (F := Ideal) V c).arrAt 3 cfg14.N = Cert.Spec.lin128x128 (V c main_v265) w b :=
  (dat14 V c).arrAt_eq_of_cover 3 (Cert.Spec.lin128x128 (V c main_v265) w b)
    (fun t _ => Lin14.written_back c V w b hw hb t) (Lin14.rows_covered c)

end Cert.KernelIdeal.RegVal

end
-- ==== Proof.RegBnLin15.lean ====
/-
  The value of one normalise-rectify-then-linear stage, read off the block pipeline.

  The stage takes a 50000 × 128 array x, four vectors over its 128 columns (a mean, a variance, a scale g and a shift β),
  a 128 × 41 weight and a bias over the 41 output columns, and produces the 50000 × 41 array

      y[r, q] = Σ_k max (g[k] · (x[r, k] − mean[k]) · rsqrt (var[k] + 1e-5) + β[k]) 0 · w[k, q]  +  bias[q].

  The pipeline computes it in 25 steps: step t reads rows 2000·t … 2000·t + 1999 of x and the whole of every small
  operand, forms exactly this expression for those rows and writes rows 2000·t … 2000·t + 1999 of the result. Row r of
  the result depends on row r of x only, so each written block is the corresponding block of the whole-array function,
  and the 25 blocks tile the 50000 rows: the result array ends holding the whole-array function. Over the extended
  reals the change of float format before the product is the identity, the product into a zero accumulator is the
  plain sum over the contracted index, and the two reciprocal square roots are one function, so the two sides agree
  term by term.
-/
import proofs.«107430_j24575802868448_1_alg».proof.Proof.FPKernelIdealR15
import proofs.«107430_j24575802868448_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegVal

open Idealize.ShloMosaic Idealize.ShloMosaic.TcCoe Idealize.SL.Sem Idealize.ShloMosaic.ValueIdx Cert.KernelIdeal Cert.KernelIdeal.Gen
open Idealize.ShloMosaic.Pipeline (Dat)

namespace BnLin15

/-- One entry normalised with its column's statistics, scaled, shifted and rectified:
    `max (g · (x − m) · rsqrt (v + 1e-5) + b) 0`. -/
def act (x m v g b : EReal) : EReal :=
  max (g * (x - m) * Ideal.rsqrt (v + Ideal.ofBits .f32 0x3727C5AC#32) + b) (Ideal.ofBits .f32 0x00000000#32)

/-! ## The block product: a row of the left block against a column of the right one -/

/-- The left operand's row coordinate is the output's. -/
theorem klhs_0 (j : S2000x41.Idx) (k : dot_S2000x128_S128x41_S2000x41_1_0_0_1_n_n.contr.Idx) :
    (dot_S2000x128_S128x41_S2000x41_1_0_0_1_n_n.lhsIdx j k 0).val = (j 0).val := by
  simp [DotDims.lhsIdx, dot_S2000x128_S128x41_S2000x41_1_0_0_1_n_n]; rfl

/-- The left operand's column coordinate is the contracted one. -/
theorem klhs_1 (j : S2000x41.Idx) (k : dot_S2000x128_S128x41_S2000x41_1_0_0_1_n_n.contr.Idx) :
    (dot_S2000x128_S128x41_S2000x41_1_0_0_1_n_n.lhsIdx j k 1).val = (k ⟨0, by decide⟩).val :=
  dot_S2000x128_S128x41_S2000x41_1_0_0_1_n_n.lhsIdx_val_of_single rfl j k

/-- The right operand's row coordinate is the contracted one. -/
theorem krhs_0 (j : S2000x41.Idx) (k : dot_S2000x128_S128x41_S2000x41_1_0_0_1_n_n.contr.Idx) :
    (dot_S2000x128_S128x41_S2000x41_1_0_0_1_n_n.rhsIdx j k 0).val = (k ⟨0, by decide⟩).val :=
  dot_S2000x128_S128x41_S2000x41_1_0_0_1_n_n.rhsIdx_val_of_single rfl j k

/-- The right operand's column coordinate is the output's. -/
theorem krhs_1 (j : S2000x41.Idx) (k : dot_S2000x128_S128x41_S2000x41_1_0_0_1_n_n.contr.Idx) :
    (dot_S2000x128_S128x41_S2000x41_1_0_0_1_n_n.rhsIdx j k 1).val = (j 1).val := by
  simp [DotDims.rhsIdx, dot_S2000x128_S128x41_S2000x41_1_0_0_1_n_n]; rfl

/-- The block product into a zero accumulator, entry by entry: the sum over the 128 contracted columns. -/
theorem kmatmul_apply (A : FVec Ideal S2000x128 .bf16) (B : FVec Ideal S128x41 .bf16) (p : Fin 2000) (q : Fin 41) :
    matmul dot_S2000x128_S128x41_S2000x41_1_0_0_1_n_n none A B (constant S2000x41 .f32 0x00000000#32) (ix2 p q)
      = ∑ k : Fin 128, A (ix2 p k) * B (ix2 k q) := by
  show FloatOps.matmul _ none A B _ (ix2 p q) = _
  rw [Ideal.matmul_constant_zero_apply,
    ← Equiv.sum_comp (contrEquiv1 dot_S2000x128_S128x41_S2000x41_1_0_0_1_n_n 128 rfl rfl).symm]
  refine Finset.sum_congr rfl fun k _ => ?_
  have ck := contrEquiv1_symm_val dot_S2000x128_S128x41_S2000x41_1_0_0_1_n_n 128 rfl rfl k
  have hl : dot_S2000x128_S128x41_S2000x41_1_0_0_1_n_n.lhsIdx (ix2 p q) ((contrEquiv1 _ 128 rfl rfl).symm k) = ix2 p k := by
    funext a; apply Fin.ext
    match a with
    | ⟨0, _⟩ => exact klhs_0 _ _
    | ⟨1, _⟩ => exact (klhs_1 _ _).trans ck
  have hr : dot_S2000x128_S128x41_S2000x41_1_0_0_1_n_n.rhsIdx (ix2 p q) ((contrEquiv1 _ 128 rfl rfl).symm k) = ix2 k q := by
    funext a; apply Fin.ext
    match a with
    | ⟨0, _⟩ => exact (krhs_0 _ _).trans ck
    | ⟨1, _⟩ => exact krhs_1 _ _
  rw [hl, hr]

/-- The body's stored value at row `p`, column `q` of the block: the rectified normalised row against column `q` of
    the weight, plus the bias. -/
theorem pay_apply (x0 : Vec Ideal S2000x128 .f32) (x1 x2 x3 x4 : Vec Ideal S1x128 .f32) (x5 : Vec Ideal S128x41 .bf16)
    (x6 : Vec Ideal S1x41 .f32) (p : Fin 2000) (q : Fin 41) :
    k15_pay1 (F := Ideal) x0 x1 x2 x3 x4 x5 x6 (ix2 p q)
      = (∑ k : Fin 128, act (x0 (ix2 p k)) (x1 (ix2 (0 : Fin 1) k)) (x2 (ix2 (0 : Fin 1) k)) (x3 (ix2 (0 : Fin 1) k))
            (x4 (ix2 (0 : Fin 1) k)) * x5 (ix2 k q)) + x6 (ix2 (0 : Fin 1) q) := by
  unfold k15_pay1
  simp only [shapeCast_self]
  rw [addf_apply, kmatmul_apply, broadcastTo_1b_ab_apply]
  congr 1
  refine Finset.sum_congr rfl fun k _ => ?_
  congr 1
  simp only [truncf_apply, maximumf_apply, addf_apply, mulf_apply, subf_apply, broadcastTo_1b_ab_apply, broadcast_apply]
  rfl

/-! ## The whole-array stage at an entry -/

theorem rlhs_0 (j : Cert.ReferenceIdeal.S50000x41.Idx) (k : Cert.ReferenceIdeal.dot_S50000x128_S128x41_S50000x41_1_0_0_1_n_n.contr.Idx) :
    (Cert.ReferenceIdeal.dot_S50000x128_S128x41_S50000x41_1_0_0_1_n_n.lhsIdx j k 0).val = (j 0).val := by
  simp [DotDims.lhsIdx, Cert.ReferenceIdeal.dot_S50000x128_S128x41_S50000x41_1_0_0_1_n_n]; rfl

theorem rlhs_1 (j : Cert.ReferenceIdeal.S50000x41.Idx) (k : Cert.ReferenceIdeal.dot_S50000x128_S128x41_S50000x41_1_0_0_1_n_n.contr.Idx) :
    (Cert.ReferenceIdeal.dot_S50000x128_S128x41_S50000x41_1_0_0_1_n_n.lhsIdx j k 1).val = (k ⟨0, by decide⟩).val :=
  Cert.ReferenceIdeal.dot_S50000x128_S128x41_S50000x41_1_0_0_1_n_n.lhsIdx_val_of_single rfl j k

theorem rrhs_0 (j : Cert.ReferenceIdeal.S50000x41.Idx) (k : Cert.ReferenceIdeal.dot_S50000x128_S128x41_S50000x41_1_0_0_1_n_n.contr.Idx) :
    (Cert.ReferenceIdeal.dot_S50000x128_S128x41_S50000x41_1_0_0_1_n_n.rhsIdx j k 0).val = (k ⟨0, by decide⟩).val :=
  Cert.ReferenceIdeal.dot_S50000x128_S128x41_S50000x41_1_0_0_1_n_n.rhsIdx_val_of_single rfl j k

theorem rrhs_1 (j : Cert.ReferenceIdeal.S50000x41.Idx) (k : Cert.ReferenceIdeal.dot_S50000x128_S128x41_S50000x41_1_0_0_1_n_n.contr.Idx) :
    (Cert.ReferenceIdeal.dot_S50000x128_S128x41_S50000x41_1_0_0_1_n_n.rhsIdx j k 1).val = (j 1).val := by
  simp [DotDims.rhsIdx, Cert.ReferenceIdeal.dot_S50000x128_S128x41_S50000x41_1_0_0_1_n_n]; rfl

/-- The whole-array product, entry by entry: the sum over the 128 contracted columns. -/
theorem rdot_apply (A : FVec Ideal Cert.ReferenceIdeal.S50000x128 .f32) (B : FVec Ideal Cert.ReferenceIdeal.S128x41 .f32) (r : Fin 50000) (q : Fin 41) :
    Host.dotGeneral Cert.ReferenceIdeal.dot_S50000x128_S128x41_S50000x41_1_0_0_1_n_n none A B (ix2 r q)
      = ∑ k : Fin 128, A (ix2 r k) * B (ix2 k q) := by
  show FloatOps.dotGeneral _ none _ A B (ix2 r q) = _
  rw [Ideal.dotGeneral_apply,
    ← Equiv.sum_comp (contrEquiv1 Cert.ReferenceIdeal.dot_S50000x128_S128x41_S50000x41_1_0_0_1_n_n 128 rfl rfl).symm]
  refine Finset.sum_congr rfl fun k _ => ?_
  have ck := contrEquiv1_symm_val Cert.ReferenceIdeal.dot_S50000x128_S128x41_S50000x41_1_0_0_1_n_n 128 rfl rfl k
  have hl : Cert.ReferenceIdeal.dot_S50000x128_S128x41_S50000x41_1_0_0_1_n_n.lhsIdx (ix2 r q) ((contrEquiv1 _ 128 rfl rfl).symm k) = ix2 r k := by
    funext a; apply Fin.ext
    match a with
    | ⟨0, _⟩ => exact rlhs_0 _ _
    | ⟨1, _⟩ => exact (rlhs_1 _ _).trans ck
  have hr : Cert.ReferenceIdeal.dot_S50000x128_S128x41_S50000x41_1_0_0_1_n_n.rhsIdx (ix2 r q) ((contrEquiv1 _ 128 rfl rfl).symm k) = ix2 k q := by
    funext a; apply Fin.ext
    match a with
    | ⟨0, _⟩ => exact (rrhs_0 _ _).trans ck
    | ⟨1, _⟩ => exact rrhs_1 _ _
  rw [hl, hr]

/-- A vector over the 128 columns laid out as one row and copied down the 50000 rows reads, at `(r, k)`, its entry `k`. -/
theorem rowB128_apply (v : FVec Ideal Cert.ReferenceIdeal.S128 .f32)
    (h1 : Cert.ReferenceIdeal.S128.BroadcastsInDim Cert.ReferenceIdeal.S1x128 (![1] : Fin 1 → Fin Cert.ReferenceIdeal.S1x128.rank))
    (h2 : Cert.ReferenceIdeal.S1x128.BroadcastsInDim Cert.ReferenceIdeal.S50000x128 (![0, 1] : Fin 2 → Fin Cert.ReferenceIdeal.S50000x128.rank))
    (r : Fin 50000) (k : Fin 128) :
    broadcastInDim Cert.ReferenceIdeal.S50000x128 ![0, 1] h2 (broadcastInDim Cert.ReferenceIdeal.S1x128 ![1] h1 v) (ix2 r k) = v (ix1 k) := by
  refine (broadcastInDim_apply _ h2 _ (ix2 r k) (ix2 (0 : Fin 1) k) fun a => ?_).trans
    (broadcastInDim_apply _ h1 v (ix2 (0 : Fin 1) k) (ix1 k) fun a => ?_)
  · match a with
    | ⟨0, _⟩ => rfl
    | ⟨1, _⟩ => rfl
  · match a with
    | ⟨0, _⟩ => rfl

/-- The same for a vector over the 41 output columns. -/
theorem rowB41_apply (v : FVec Ideal Cert.ReferenceIdeal.S41 .f32)
    (h1 : Cert.ReferenceIdeal.S41.BroadcastsInDim Cert.ReferenceIdeal.S1x41 (![1] : Fin 1 → Fin Cert.ReferenceIdeal.S1x41.rank))
    (h2 : Cert.ReferenceIdeal.S1x41.BroadcastsInDim Cert.ReferenceIdeal.S50000x41 (![0, 1] : Fin 2 → Fin Cert.ReferenceIdeal.S50000x41.rank))
    (r : Fin 50000) (k : Fin 41) :
    broadcastInDim Cert.ReferenceIdeal.S50000x41 ![0, 1] h2 (broadcastInDim Cert.ReferenceIdeal.S1x41 ![1] h1 v) (ix2 r k) = v (ix1 k) := by
  refine (broadcastInDim_apply _ h2 _ (ix2 r k) (ix2 (0 : Fin 1) k) fun a => ?_).trans
    (broadcastInDim_apply _ h1 v (ix2 (0 : Fin 1) k) (ix1 k) fun a => ?_)
  · match a with
    | ⟨0, _⟩ => rfl
    | ⟨1, _⟩ => rfl
  · match a with
    | ⟨0, _⟩ => rfl

/-- The whole-array stage at row `r`, column `q`. -/
theorem spec_apply (X : Cert.Spec.RA Cert.ReferenceIdeal.S50000x128) (mean var g beta : Cert.Spec.RA Cert.ReferenceIdeal.S128)
    (w : Cert.Spec.RA Cert.ReferenceIdeal.S128x41) (b : Cert.Spec.RA Cert.ReferenceIdeal.S41) (r : Fin 50000) (q : Fin 41) :
    Cert.Spec.lin128x41 (Cert.Spec.bnrelu128 X mean var g beta) w b (ix2 r q)
      = (∑ k : Fin 128, act (X (ix2 r k)) (mean (ix1 k)) (var (ix1 k)) (g (ix1 k)) (beta (ix1 k)) * w (ix2 k q)) + b (ix1 q) := by
  unfold Cert.Spec.lin128x41 Cert.Spec.bnrelu128
  rw [addf_apply, rdot_apply, rowB41_apply]
  congr 1
  refine Finset.sum_congr rfl fun k _ => ?_
  congr 1
  rw [maximumf_apply, addf_apply, mulf_apply, mulf_apply, subf_apply, rowB128_apply, rowB128_apply, rowB128_apply, rowB128_apply]
  rfl

/-! ## A block of the pipeline against the rows of the whole array it stands for -/

/-- If a block `xb` holds the rows of `X` from some row on, and the small blocks hold the statistics, the parameters,
    the weight and the bias, then the body's stored value at `(p, q)` is the whole-array stage at the row `r` that
    block row `p` stands for. -/
theorem block_value (xb : Vec Ideal S2000x128 .f32) (mb vb gb bb : Vec Ideal S1x128 .f32) (wb : Vec Ideal S128x41 .bf16)
    (cb : Vec Ideal S1x41 .f32)
    (X : Cert.Spec.RA Cert.ReferenceIdeal.S50000x128) (mean var g beta : Cert.Spec.RA Cert.ReferenceIdeal.S128)
    (w : Cert.Spec.RA Cert.ReferenceIdeal.S128x41) (b : Cert.Spec.RA Cert.ReferenceIdeal.S41) (p : Fin 2000) (q : Fin 41) (r : Fin 50000)
    (hx : ∀ k : Fin 128, xb (ix2 p k) = X (ix2 r k))
    (hm : ∀ k : Fin 128, mb (ix2 (0 : Fin 1) k) = mean (ix1 k)) (hv : ∀ k : Fin 128, vb (ix2 (0 : Fin 1) k) = var (ix1 k))
    (hg : ∀ k : Fin 128, gb (ix2 (0 : Fin 1) k) = g (ix1 k)) (hb : ∀ k : Fin 128, bb (ix2 (0 : Fin 1) k) = beta (ix1 k))
    (hw : ∀ k : Fin 128, wb (ix2 k q) = w (ix2 k q)) (hc : cb (ix2 (0 : Fin 1) q) = b (ix1 q)) :
    k15_pay1 (F := Ideal) xb mb vb gb bb wb cb (ix2 p q)
      = Cert.Spec.lin128x41 (Cert.Spec.bnrelu128 X mean var g beta) w b (ix2 r q) := by
  rw [pay_apply, spec_apply, hc]
  congr 1
  refine Finset.sum_congr rfl fun k _ => ?_
  rw [hx k, hm k, hv k, hg k, hb k, hw k]

/-! ## The pipeline's blocks as parts of the arrays -/

variable (V : (c : Dev nD) → (b : Ref sig .tc) → Buf (Elt Ideal) ((c : Thread nD τ).loc b))

theorem hz : (![0, 0] : Fin 2 → Nat) = fun _ => 0 := funext fun a => by fin_cases a <;> rfl

/-- The block index maps, decided over the 25 steps: the row-tiled operand and the result sit at block `(t, 0)`,
    every small operand at block `(0, 0)`. -/
theorem idx_facts : ∀ t : Fin cfg15.N,
    win15_0.index t (0 : Fin 2) = t.val ∧ win15_0.index t (1 : Fin 2) = 0
    ∧ win15_1.index t (0 : Fin 2) = 0 ∧ win15_1.index t (1 : Fin 2) = 0
    ∧ win15_2.index t (0 : Fin 2) = 0 ∧ win15_2.index t (1 : Fin 2) = 0
    ∧ win15_3.index t (0 : Fin 2) = 0 ∧ win15_3.index t (1 : Fin 2) = 0
    ∧ win15_4.index t (0 : Fin 2) = 0 ∧ win15_4.index t (1 : Fin 2) = 0
    ∧ win15_5.index t (0 : Fin 2) = 0 ∧ win15_5.index t (1 : Fin 2) = 0
    ∧ win15_6.index t (0 : Fin 2) = 0 ∧ win15_6.index t (1 : Fin 2) = 0
    ∧ win15_7.index t (0 : Fin 2) = t.val ∧ win15_7.index t (1 : Fin 2) = 0 :=
  (by decide +kernel : ∀ t : Fin grid15.N, _)

/-- Row `p` of the row-tiled operand's block at step `t` is row `2000·t + p` of the array. -/
theorem xblk_apply (c : Dev nD) (t : Fin cfg15.N) (p : Fin 2000) (k : Fin 128) (i : S50000x128.Idx)
    (h0 : (i 0).val = 2000 * t.val + p.val) (h1 : (i 1).val = k.val) :
    (iblk15 V c 0 t : Vec Ideal S2000x128 .f32) (ix2 p k) = (V c main_v268 : S50000x128.Idx → Elt Ideal .f32) i := by
  obtain ⟨e0, e1, -⟩ := idx_facts t
  unfold iblk15
  rw [View.read_apply]
  show V c main_v268 _ = V c main_v268 i
  congr 1
  funext a
  apply Fin.ext
  match a with
  | ⟨0, _⟩ => show win15_0.index t (0 : Fin 2) * 2000 + 1 * p.val = (i 0).val; rw [e0, h0]; omega
  | ⟨1, _⟩ => show win15_0.index t (1 : Fin 2) * 128 + 1 * k.val = (i 1).val; rw [e1, h1]; omega

/-- A small operand's one block is its whole array, at every step. -/
theorem blk1_eq (c : Dev nD) (t : Fin cfg15.N) :
    (iblk15 V c 1 t : Vec Ideal S1x128 .f32) = V c main_v275 := by
  obtain ⟨-, -, e0, e1, -⟩ := idx_facts t
  unfold iblk15
  funext y
  rw [View.read_apply]
  show V c main_v275 _ = V c main_v275 y
  congr 1
  funext a
  apply Fin.ext
  match a with
  | ⟨0, _⟩ => show win15_1.index t (0 : Fin 2) * 1 + 1 * (y 0).val = (y 0).val; rw [e0]; omega
  | ⟨1, _⟩ => show win15_1.index t (1 : Fin 2) * 128 + 1 * (y 1).val = (y 1).val; rw [e1]; omega

theorem blk2_eq (c : Dev nD) (t : Fin cfg15.N) :
    (iblk15 V c 2 t : Vec Ideal S1x128 .f32) = V c main_v276 := by
  obtain ⟨-, -, -, -, e0, e1, -⟩ := idx_facts t
  unfold iblk15
  funext y
  rw [View.read_apply]
  show V c main_v276 _ = V c main_v276 y
  congr 1
  funext a
  apply Fin.ext
  match a with
  | ⟨0, _⟩ => show win15_2.index t (0 : Fin 2) * 1 + 1 * (y 0).val = (y 0).val; rw [e0]; omega
  | ⟨1, _⟩ => show win15_2.index t (1 : Fin 2) * 128 + 1 * (y 1).val = (y 1).val; rw [e1]; omega

theorem blk3_eq (c : Dev nD) (t : Fin cfg15.N) :
    (iblk15 V c 3 t : Vec Ideal S1x128 .f32) = V c main_v277 := by
  obtain ⟨-, -, -, -, -, -, e0, e1, -⟩ := idx_facts t
  unfold iblk15
  funext y
  rw [View.read_apply]
  show V c main_v277 _ = V c main_v277 y
  congr 1
  funext a
  apply Fin.ext
  match a with
  | ⟨0, _⟩ => show win15_3.index t (0 : Fin 2) * 1 + 1 * (y 0).val = (y 0).val; rw [e0]; omega
  | ⟨1, _⟩ => show win15_3.index t (1 : Fin 2) * 128 + 1 * (y 1).val = (y 1).val; rw [e1]; omega

theorem blk4_eq (c : Dev nD) (t : Fin cfg15.N) :
    (iblk15 V c 4 t : Vec Ideal S1x128 .f32) = V c main_v278 := by
  obtain ⟨-, -, -, -, -, -, -, -, e0, e1, -⟩ := idx_facts t
  unfold iblk15
  funext y
  rw [View.read_apply]
  show V c main_v278 _ = V c main_v278 y
  congr 1
  funext a
  apply Fin.ext
  match a with
  | ⟨0, _⟩ => show win15_4.index t (0 : Fin 2) * 1 + 1 * (y 0).val = (y 0).val; rw [e0]; omega
  | ⟨1, _⟩ => show win15_4.index t (1 : Fin 2) * 128 + 1 * (y 1).val = (y 1).val; rw [e1]; omega

theorem blk5_eq (c : Dev nD) (t : Fin cfg15.N) :
    (iblk15 V c 5 t : Vec Ideal S128x41 .bf16) = V c main_v273 := by
  obtain ⟨-, -, -, -, -, -, -, -, -, -, e0, e1, -⟩ := idx_facts t
  unfold iblk15
  funext y
  rw [View.read_apply]
  show V c main_v273 _ = V c main_v273 y
  congr 1
  funext a
  apply Fin.ext
  match a with
  | ⟨0, _⟩ => show win15_5.index t (0 : Fin 2) * 128 + 1 * (y 0).val = (y 0).val; rw [e0]; omega
  | ⟨1, _⟩ => show win15_5.index t (1 : Fin 2) * 41 + 1 * (y 1).val = (y 1).val; rw [e1]; omega

theorem blk6_eq (c : Dev nD) (t : Fin cfg15.N) :
    (iblk15 V c 6 t : Vec Ideal S1x41 .f32) = V c main_v274 := by
  obtain ⟨-, -, -, -, -, -, -, -, -, -, -, -, e0, e1, -⟩ := idx_facts t
  unfold iblk15
  funext y
  rw [View.read_apply]
  show V c main_v274 _ = V c main_v274 y
  congr 1
  funext a
  apply Fin.ext
  match a with
  | ⟨0, _⟩ => show win15_6.index t (0 : Fin 2) * 1 + 1 * (y 0).val = (y 0).val; rw [e0]; omega
  | ⟨1, _⟩ => show win15_6.index t (1 : Fin 2) * 41 + 1 * (y 1).val = (y 1).val; rw [e1]; omega

/-! ## What each step writes back, and the array after the last step -/

/-- Step `t` writes back rows `2000·t … 2000·t + 1999` of the whole-array stage. -/
theorem flushed_eq (c : Dev nD) (mean var g beta : Cert.Spec.RA Cert.ReferenceIdeal.S128) (w : Cert.Spec.RA Cert.ReferenceIdeal.S128x41) (b : Cert.Spec.RA Cert.ReferenceIdeal.S41)
    (h1 : V c main_v275 = shapeCast S1x128 mean shapeCasts_S128_S1x128) (h2 : V c main_v276 = shapeCast S1x128 var shapeCasts_S128_S1x128)
    (h3 : V c main_v277 = shapeCast S1x128 g shapeCasts_S128_S1x128) (h4 : V c main_v278 = shapeCast S1x128 beta shapeCasts_S128_S1x128)
    (hw : V c main_v273 = truncf .bf16 w bitsLt_bf16_f32) (hb : V c main_v274 = shapeCast S1x41 b shapeCasts_S41_S1x41)
    (t : Fin cfg15.N) :
    (dat15 (F := Ideal) V c).flushed 7 t = ((cfg15.win 7).blk t).view.read (Elt Ideal) (Cert.Spec.lin128x41 (Cert.Spec.bnrelu128 (V c main_v268) mean var g beta) w b) := by
  show (cfg15.win 7).cut (grid15.coords t) ((dat15 V c).after 7 t) = _
  rw [after15_7]
  unfold out15_7
  rw [View.canon_unit_zero hz]
  simp only [View.ld_unit_zero (S := S2000x128) hz, View.ld_unit_zero (S := S1x128) hz, View.ld_unit_zero (S := S128x41) hz,
    View.ld_unit_zero (S := S1x41) hz]
  rw [blk1_eq V c t, blk2_eq V c t, blk3_eq V c t, blk4_eq V c t, blk5_eq V c t, blk6_eq V c t]
  have ht : t.val < 25 := lt_of_lt_of_eq t.isLt N_15
  obtain ⟨-, -, -, -, -, -, -, -, -, -, -, -, -, -, e0, e1⟩ := idx_facts t
  funext y
  obtain ⟨p, q, rfl⟩ : ∃ (p : Fin 2000) (q : Fin 41), y = ix2 p q := ⟨y 0, y 1, eq_ix2 y⟩
  have hr : 2000 * t.val + p.val < 50000 := by have hp := p.isLt; omega
  have hemb : ((cfg15.win 7).blk t).view.emb (ix2 p q) = ix2 (⟨2000 * t.val + p.val, hr⟩ : Fin 50000) q := by
    funext a
    apply Fin.ext
    match a with
    | ⟨0, _⟩ => show win15_7.index t (0 : Fin 2) * 2000 + 1 * p.val = 2000 * t.val + p.val; rw [e0]; omega
    | ⟨1, _⟩ => show win15_7.index t (1 : Fin 2) * 41 + 1 * q.val = q.val; rw [e1]; omega
  rw [View.read_apply, hemb]
  exact block_value (iblk15 V c 0 t) (V c main_v275) (V c main_v276) (V c main_v277) (V c main_v278) (V c main_v273) (V c main_v274)
    (V c main_v268) mean var g beta w b p q ⟨2000 * t.val + p.val, hr⟩
    (fun k => xblk_apply V c t p k _ rfl rfl)
    (fun k => (congrFun h1 _).trans (shapeCast_a_1a_apply mean _ 0 k))
    (fun k => (congrFun h2 _).trans (shapeCast_a_1a_apply var _ 0 k))
    (fun k => (congrFun h3 _).trans (shapeCast_a_1a_apply g _ 0 k))
    (fun k => (congrFun h4 _).trans (shapeCast_a_1a_apply beta _ 0 k))
    (fun k => congrFun hw _)
    ((congrFun hb _).trans (shapeCast_a_1a_apply b _ 0 q))

/-- Row `r` of the result lies in the block of step `r / 2000`, which is written back. -/
theorem cover (i : S50000x41.Idx) :
    ∃ t : Fin cfg15.N, (cfg15.win 7).flush t = true ∧ i ∈ ((cfg15.win 7).blk t).view.set := by
  have hi0 : (i 0).val < 50000 := (i 0).isLt
  have hi1 : (i 1).val < 41 := (i 1).isLt
  have hN : cfg15.N = 25 := N_15
  have ht0 : (i 0).val / 2000 < cfg15.N := by rw [hN]; omega
  refine ⟨⟨(i 0).val / 2000, ht0⟩, flush15_7 _, ?_⟩
  obtain ⟨-, -, -, -, -, -, -, -, -, -, -, -, -, -, e0, e1⟩ := idx_facts ⟨(i 0).val / 2000, ht0⟩
  have e0' : win15_7.index ⟨(i 0).val / 2000, ht0⟩ (0 : Fin 2) = (i 0).val / 2000 := e0
  show i ∈ ((View.whole main_v279).slice (win15_7.rect ⟨(i 0).val / 2000, ht0⟩)).set
  rw [View.set_slice_whole, Rect.mem_set_unit]
  intro a
  match a with
  | ⟨0, _⟩ =>
    show win15_7.index ⟨(i 0).val / 2000, ht0⟩ (0 : Fin 2) * 2000 ≤ (i 0).val
      ∧ (i 0).val < win15_7.index ⟨(i 0).val / 2000, ht0⟩ (0 : Fin 2) * 2000 + 2000
    rw [e0']; omega
  | ⟨1, _⟩ =>
    show win15_7.index ⟨(i 0).val / 2000, ht0⟩ (1 : Fin 2) * 41 ≤ (i 1).val
      ∧ (i 1).val < win15_7.index ⟨(i 0).val / 2000, ht0⟩ (1 : Fin 2) * 41 + 41
    rw [e1]; omega

end BnLin15

/-- After the 25 steps the result array holds the whole-array stage of the row-tiled operand as the stage found it:
    the normalisation with the given statistics, the rectifier, the product with the weight and the bias. -/
theorem bnlin15 (V : (c : Dev nD) → (b : Ref sig .tc) → Buf (Elt Ideal) ((c : Thread nD τ).loc b)) (c : Dev nD)
    (mean var g beta : Cert.Spec.RA Cert.ReferenceIdeal.S128) (w : Cert.Spec.RA Cert.ReferenceIdeal.S128x41) (b : Cert.Spec.RA Cert.ReferenceIdeal.S41)
    (h1 : V c main_v275 = shapeCast S1x128 mean shapeCasts_S128_S1x128) (h2 : V c main_v276 = shapeCast S1x128 var shapeCasts_S128_S1x128)
    (h3 : V c main_v277 = shapeCast S1x128 g shapeCasts_S128_S1x128) (h4 : V c main_v278 = shapeCast S1x128 beta shapeCasts_S128_S1x128)
    (hw : V c main_v273 = truncf .bf16 w bitsLt_bf16_f32) (hb : V c main_v274 = shapeCast S1x41 b shapeCasts_S41_S1x41) :
    (dat15 (F := Ideal) V c).arrAt 7 cfg15.N = Cert.Spec.lin128x41 (Cert.Spec.bnrelu128 (V c main_v268) mean var g beta) w b :=
  (dat15 (F := Ideal) V c).arrAt_eq_of_cover 7 (Cert.Spec.lin128x41 (Cert.Spec.bnrelu128 (V c main_v268) mean var g beta) w b)
    (fun t _ => BnLin15.flushed_eq V c mean var g beta w b h1 h2 h3 h4 hw hb t) BnLin15.cover

end Cert.KernelIdeal.RegVal

end
-- ==== Proof.KChainTail.lean ====
/-
  The last layer, the head and the result of the blocked program, as the specification's functions of the launch's
  argument arrays `A`.

  Entering layer 4 the previous output buffer holds `h4 A`. Region 12 leaves the layer's `z1`, region 13 its `z2`, which is
  the last layer's output `h5 A` (no outer normalisation). Region 14 leaves the head's first linear map `y1 A`, region 15 the
  class scores `logits A`, and the host's log-softmax of those is the result: `out A`.
-/
import proofs.«107430_j24575802868448_1_alg».proof.Proof.FPKernelIdealW
import proofs.«107430_j24575802868448_1_alg».proof.Proof.Spec
import proofs.«107430_j24575802868448_1_alg».proof.Proof.KArgs
import proofs.«107430_j24575802868448_1_alg».proof.Proof.KHostTail
import proofs.«107430_j24575802868448_1_alg».proof.Proof.KChainL3
import proofs.«107430_j24575802868448_1_alg».proof.Proof.RegLin12
import proofs.«107430_j24575802868448_1_alg».proof.Proof.RegBnLin13
import proofs.«107430_j24575802868448_1_alg».proof.Proof.RegLin14
import proofs.«107430_j24575802868448_1_alg».proof.Proof.RegBnLin15

set_option maxRecDepth 16384

noncomputable section

namespace Cert.KernelIdeal.Chain

open Idealize.ShloMosaic Idealize.ShloMosaic.TcCoe Idealize.SL.Sem Idealize.ShloMosaic.StableHlo Cert.KernelIdeal Cert.KernelIdeal.Gen
open Cert.Spec

variable (m : (ℓ : Loc nD τ sig) → Buf (Elt Ideal) ℓ) (ρ : Dev nD → PrngReg) (c : Dev nD)

/-! ## Layer 4: regions 12 and 13 -/

theorem b41_args : Host.argsOf (W41 m ρ c) = A m ρ c := (Host.e12_args _).trans (b40_args m ρ c)

theorem b42_z1 : W42 m ρ c (Proc.devRef .tc main_v246) = z1 (P4 (A m ρ c)) (h4 (A m ρ c)) (sA m ρ c) (dA m ρ c) := by
  refine (W42_arr m ρ c 3).trans ?_
  rw [RegVal.lin12 (V41 m ρ) c (P4 (Host.argsOf (W40 m ρ c))).w1 (P4 (Host.argsOf (W40 m ρ c))).b1 (Host.e12_w _) (Host.e12_b _)]
  rw [show V41 m ρ c main_v239 = _ from Host.e12_x _, b40_h, b40_src, b40_dst, b40_args]
  rfl
theorem b42_args : Host.argsOf (W42 m ρ c) = A m ρ c :=
  (Host.argsOf_congr_of fun b hb => W42_of_ne m ρ c b ((by decide : ∀ b ∈ Host.argRefs, ∀ w, Pipeline.arrRef spec12 w ≠ b) b hb)).trans (b41_args m ρ c)

theorem b45_args : Host.argsOf (W45 m ρ c) = A m ρ c := (Host.e13_args _).trans (b42_args m ρ c)
theorem b45_x : W45 m ρ c (Proc.devRef .tc main_v246) = z1 (P4 (A m ρ c)) (h4 (A m ρ c)) (sA m ρ c) (dA m ρ c) := (Host.e13_x _).trans (b42_z1 m ρ c)

theorem b46_h : W46 m ρ c (Proc.devRef .tc main_v265) = h5 (A m ρ c) := by
  refine (W46_arr m ρ c 7).trans ?_
  rw [RegVal.bnlin13 (V45 m ρ) c (mean256 (W42 m ρ c (Proc.devRef .tc main_v246))) (var256 (W42 m ρ c (Proc.devRef .tc main_v246)))
    (P4 (Host.argsOf (W42 m ρ c))).g1 (P4 (Host.argsOf (W42 m ρ c))).be1 (P4 (Host.argsOf (W42 m ρ c))).w2 (P4 (Host.argsOf (W42 m ρ c))).b2
    (Host.e13_mean _) (Host.e13_var _) (Host.e13_g _) (Host.e13_beta _) (Host.e13_w _) (Host.e13_b _)]
  rw [show V45 m ρ c main_v246 = _ from b45_x m ρ c, b42_z1, b42_args]
  rfl
theorem b46_args : Host.argsOf (W46 m ρ c) = A m ρ c :=
  (Host.argsOf_congr_of fun b hb => W46_of_ne m ρ c b ((by decide : ∀ b ∈ Host.argRefs, ∀ w, Pipeline.arrRef spec13 w ≠ b) b hb)).trans (b45_args m ρ c)

/-! ## The head: regions 14 and 15 -/

theorem b47_args : Host.argsOf (W47 m ρ c) = A m ρ c := (Host.e14_args _).trans (b46_args m ρ c)
theorem b47_x : W47 m ρ c (Proc.devRef .tc main_v265) = h5 (A m ρ c) := (Host.e14_x _).trans (b46_h m ρ c)

theorem b48_y : W48 m ρ c (Proc.devRef .tc main_v268) = y1 (A m ρ c) := by
  refine (W48_arr m ρ c 3).trans ?_
  rw [RegVal.lin14 (V47 m ρ) c (Host.argsOf (W46 m ρ c)).lin1_w (Host.argsOf (W46 m ρ c)).lin1_b (Host.e14_w _) (Host.e14_b _)]
  rw [show V47 m ρ c main_v265 = _ from b47_x m ρ c, b46_args]
  rfl
theorem b48_args : Host.argsOf (W48 m ρ c) = A m ρ c :=
  (Host.argsOf_congr_of fun b hb => W48_of_ne m ρ c b ((by decide : ∀ b ∈ Host.argRefs, ∀ w, Pipeline.arrRef spec14 w ≠ b) b hb)).trans (b47_args m ρ c)

theorem b51_args : Host.argsOf (W51 m ρ c) = A m ρ c := (Host.e15_args _).trans (b48_args m ρ c)
theorem b51_x : W51 m ρ c (Proc.devRef .tc main_v268) = y1 (A m ρ c) := (Host.e15_x _).trans (b48_y m ρ c)

theorem b52_logits : W52 m ρ c (Proc.devRef .tc main_v279) = logits (A m ρ c) := by
  refine (W52_arr m ρ c 7).trans ?_
  rw [RegVal.bnlin15 (V51 m ρ) c (mean128 (W48 m ρ c (Proc.devRef .tc main_v268))) (var128 (W48 m ρ c (Proc.devRef .tc main_v268)))
    (Host.argsOf (W48 m ρ c)).bn1_g (Host.argsOf (W48 m ρ c)).bn1_b (Host.argsOf (W48 m ρ c)).lin2_w (Host.argsOf (W48 m ρ c)).lin2_b
    (Host.e15_mean _) (Host.e15_var _) (Host.e15_g _) (Host.e15_beta _) (Host.e15_w _) (Host.e15_b _)]
  rw [show V51 m ρ c main_v268 = _ from b51_x m ρ c, b48_y, b48_args]
  rfl

theorem b52_args : Host.argsOf (W52 m ρ c) = A m ρ c :=
  (Host.argsOf_congr_of fun b hb => W52_of_ne m ρ c b ((by decide : ∀ b ∈ Host.argRefs, ∀ w, Pipeline.arrRef spec15 w ≠ b) b hb)).trans (b51_args m ρ c)

/-! ## The result -/

/-- At the last boundary the argument arrays are the launch's: nothing along the run writes one. -/
theorem end_args : Host.argsOf (W53 m ρ c) = A m ρ c := (Host.e16_args _).trans (b52_args m ρ c)

/-- The blocked program's result buffer, at the last boundary, holds the network's result. -/
theorem result_eq : W53 m ρ c (Proc.devRef .tc main_v280) = out (A m ρ c) := by
  refine (Host.e16_out (W52 m ρ c)).trans ?_
  rw [b52_logits]
  rfl

end Cert.KernelIdeal.Chain

end
-- ==== Proof.RefOps.lean ====
import proofs.«107430_j24575802868448_1_alg».proof.Proof.Gen.ReferenceIdeal
import Idealize.ShloMosaic.Lib.StableHlo.Run

noncomputable section

namespace Cert.ReferenceIdeal.Ops

open Idealize.ShloMosaic Idealize.ShloMosaic.TcCoe Idealize.SL.Sem Cert.ReferenceIdeal Cert.ReferenceIdeal.Facts₀ Cert.ReferenceIdeal.Facts

variable {F : FTy → Type} [FloatOps F]

/-- The 83 operations of the printed window main_part0, calls listed inline. -/
abbrev p0 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_c (constantI S_ 32 0#32),
    StableHlo.unary main_c main_v4 (broadcastInDim S800000 ![] bcast_S_S800000 : (⟨S_, .i32⟩ : BufTy).Contents (Elt F) → (⟨S800000, .i32⟩ : BufTy).Contents (Elt F)),
    StableHlo.binary main_v1 main_v4 main_v5 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v6 (broadcastInDim S800000 ![] bcast_S_S800000 : (⟨S_, .i32⟩ : BufTy).Contents (Elt F) → (⟨S800000, .i32⟩ : BufTy).Contents (Elt F)),
    StableHlo.binary main_v1 main_v6 main_v7 (addi : (⟨S800000, .i32⟩ : BufTy).Contents (Elt F) → (⟨S800000, .i32⟩ : BufTy).Contents (Elt F) → (⟨S800000, .i32⟩ : BufTy).Contents (Elt F)),
    StableHlo.ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v8 main_v9 (broadcastInDim S800000x1 ![0] bcast_S800000_S800000x1_0 : (⟨S800000, .i32⟩ : BufTy).Contents (Elt F) → (⟨S800000x1, .i32⟩ : BufTy).Contents (Elt F)),
    StableHlo.binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst (constant S_ .f32 0x00000000#32),
    StableHlo.unary main_cst main_v11 (broadcastInDim S50000x128 ![] bcast_S_S50000x128 : (⟨S_, .f32⟩ : BufTy).Contents (Elt F) → (⟨S50000x128, .f32⟩ : BufTy).Contents (Elt F)),
    StableHlo.unary main_v3 main_v12 (broadcastInDim S800000x1 ![0] bcast_S800000_S800000x1_0 : (⟨S800000, .i32⟩ : BufTy).Contents (Elt F) → (⟨S800000x1, .i32⟩ : BufTy).Contents (Elt F)),
    StableHlo.ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_arg8 main_v14 ((extractStridedSlice S1 ![0] · slices_S5_S1_0) : (⟨S5, .f32⟩ : BufTy).Contents (Elt F) → (⟨S1, .f32⟩ : BufTy).Contents (Elt F)),
    StableHlo.reshape main_v14 main_v15 rfl shapeCasts_S1_S_,
    StableHlo.nullary main_cst_1 (constant S_ .f32 0x3F800000#32),
    StableHlo.binary main_cst_1 main_v15 main_v16 (addf : (⟨S_, .f32⟩ : BufTy).Contents (Elt F) → (⟨S_, .f32⟩ : BufTy).Contents (Elt F) → (⟨S_, .f32⟩ : BufTy).Contents (Elt F)),
    StableHlo.unary main_v16 main_v17 (broadcastInDim S50000x128 ![] bcast_S_S50000x128 : (⟨S_, .f32⟩ : BufTy).Contents (Elt F) → (⟨S50000x128, .f32⟩ : BufTy).Contents (Elt F)),
    StableHlo.binary main_v17 main_arg0 main_v18 (mulf : (⟨S50000x128, .f32⟩ : BufTy).Contents (Elt F) → (⟨S50000x128, .f32⟩ : BufTy).Contents (Elt F) → (⟨S50000x128, .f32⟩ : BufTy).Contents (Elt F)),
    StableHlo.binary main_v18 main_v13 main_v19 (addf : (⟨S50000x128, .f32⟩ : BufTy).Contents (Elt F) → (⟨S50000x128, .f32⟩ : BufTy).Contents (Elt F) → (⟨S50000x128, .f32⟩ : BufTy).Contents (Elt F)),
    StableHlo.unary main_arg2 main_v20 ((extractStridedSlice S1x128x256 ![0, 0, 0] · slices_S5x128x256_S1x128x256_0_0_0) : (⟨S5x128x256, .f32⟩ : BufTy).Contents (Elt F) → (⟨S1x128x256, .f32⟩ : BufTy).Contents (Elt F)),
    StableHlo.reshape main_v20 main_v21 rfl shapeCasts_S1x128x256_S128x256,
    StableHlo.binary main_v19 main_v21 main_v22 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.unary main_arg3 main_v23 ((extractStridedSlice S1x256 ![0, 0] · slices_S5x256_S1x256_0_0) : (⟨S5x256, .f32⟩ : BufTy).Contents (Elt F) → (⟨S1x256, .f32⟩ : BufTy).Contents (Elt F)),
    StableHlo.reshape main_v23 main_v24 rfl shapeCasts_S1x256_S256,
    StableHlo.unary main_v24 main_v25 (broadcastInDim S1x256 ![1] bcast_S256_S1x256_1 : (⟨S256, .f32⟩ : BufTy).Contents (Elt F) → (⟨S1x256, .f32⟩ : BufTy).Contents (Elt F)),
    StableHlo.unary main_v25 main_v26 (broadcastInDim S50000x256 ![0, 1] bcast_S1x256_S50000x256_0_1 : (⟨S1x256, .f32⟩ : BufTy).Contents (Elt F) → (⟨S50000x256, .f32⟩ : BufTy).Contents (Elt F)),
    StableHlo.binary main_v22 main_v26 main_v27 (addf : (⟨S50000x256, .f32⟩ : BufTy).Contents (Elt F) → (⟨S50000x256, .f32⟩ : BufTy).Contents (Elt F) → (⟨S50000x256, .f32⟩ : BufTy).Contents (Elt F)),
    StableHlo.unary main_arg4 main_v28 ((extractStridedSlice S1x256 ![0, 0] · slices_S5x256_S1x256_0_0) : (⟨S5x256, .f32⟩ : BufTy).Contents (Elt F) → (⟨S1x256, .f32⟩ : BufTy).Contents (Elt F)),
    StableHlo.reshape main_v28 main_v29 rfl shapeCasts_S1x256_S256,
    StableHlo.unary main_arg5 main_v30 ((extractStridedSlice S1x256 ![0, 0] · slices_S5x256_S1x256_0_0) : (⟨S5x256, .f32⟩ : BufTy).Contents (Elt F) → (⟨S1x256, .f32⟩ : BufTy).Contents (Elt F)),
    StableHlo.reshape main_v30 main_v31 rfl shapeCasts_S1x256_S256,
    StableHlo.nullary main_cst_2 (constant S_ .f32 0x00000000#32),
    StableHlo.binary main_v27 main_cst_2 main_v32 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_3 (constant S_ .f32 0x47435000#32),
    StableHlo.unary main_cst_3 main_v33 (broadcastInDim S256 ![] bcast_S_S256 : (⟨S_, .f32⟩ : BufTy).Contents (Elt F) → (⟨S256, .f32⟩ : BufTy).Contents (Elt F)),
    StableHlo.binary main_v32 main_v33 main_v34 (Host.divf : (⟨S256, .f32⟩ : BufTy).Contents (Elt F) → (⟨S256, .f32⟩ : BufTy).Contents (Elt F) → (⟨S256, .f32⟩ : BufTy).Contents (Elt F)),
    StableHlo.nullary main_c_4 (constantI S_ 32 0#32),
    StableHlo.TRef.nullary main_call0.cst (constant S_ .f32 0x00000000#32),
    StableHlo.TRef.binary (.of main_v27 : StableHlo.TRef sig ⟨S50000x256, .f32⟩) main_call0.cst main_call0.v0 (fun x v => Host.reduceAdd x v reducesTo_S50000x256_S256_d0 h_S_),
    StableHlo.TRef.unary main_call0.v0 main_call0.v1 (broadcastInDim S1x256 ![1] bcast_S256_S1x256_1),
    StableHlo.TRef.nullary main_call0.cst_0 (constant S_ .f32 0x47435000#32),
    StableHlo.TRef.unary main_call0.cst_0 main_call0.v2 (broadcastInDim S1x256 ![] bcast_S_S1x256),
    StableHlo.TRef.binary main_call0.v1 main_call0.v2 main_call0.v3 Host.divf,
    StableHlo.TRef.unary main_call0.v3 main_call0.v4 (broadcastInDim S50000x256 ![0, 1] bcast_S1x256_S50000x256_0_1),
    StableHlo.TRef.binary (.of main_v27 : StableHlo.TRef sig ⟨S50000x256, .f32⟩) main_call0.v4 main_call0.v5 subf,
    StableHlo.TRef.binary main_call0.v5 main_call0.v5 main_call0.v6 mulf,
    StableHlo.TRef.unary (.of main_c_4 : StableHlo.TRef sig ⟨S_, .i32⟩) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x256_S256_d0 h_S_),
    StableHlo.TRef.unary main_call0.v8 main_call0.v10 (broadcastInDim S256 ![] bcast_S_S256),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S256 ![] bcast_S_S256),
    StableHlo.TRef.ternary main_call0.v12 main_call0.v11 main_call0.call0.v1 main_call0.call0.v2 (fun p a b => select (broadcastInDim S256 ![] bcast_S_S256 p) a b),
    StableHlo.unary main_v34 main_v36 (broadcastInDim S1x256 ![1] bcast_S256_S1x256_1 : (⟨S256, .f32⟩ : BufTy).Contents (Elt F) → (⟨S1x256, .f32⟩ : BufTy).Contents (Elt F)),
    StableHlo.unary main_v36 main_v37 (broadcastInDim S50000x256 ![0, 1] bcast_S1x256_S50000x256_0_1 : (⟨S1x256, .f32⟩ : BufTy).Contents (Elt F) → (⟨S50000x256, .f32⟩ : BufTy).Contents (Elt F)),
    StableHlo.binary main_v27 main_v37 main_v38 (subf : (⟨S50000x256, .f32⟩ : BufTy).Contents (Elt F) → (⟨S50000x256, .f32⟩ : BufTy).Contents (Elt F) → (⟨S50000x256, .f32⟩ : BufTy).Contents (Elt F)),
    StableHlo.unary main_v29 main_v39 (broadcastInDim S1x256 ![1] bcast_S256_S1x256_1 : (⟨S256, .f32⟩ : BufTy).Contents (Elt F) → (⟨S1x256, .f32⟩ : BufTy).Contents (Elt F)),
    StableHlo.unary main_v39 main_v40 (broadcastInDim S50000x256 ![0, 1] bcast_S1x256_S50000x256_0_1 : (⟨S1x256, .f32⟩ : BufTy).Contents (Elt F) → (⟨S50000x256, .f32⟩ : BufTy).Contents (Elt F)),
    StableHlo.binary main_v40 main_v38 main_v41 (mulf : (⟨S50000x256, .f32⟩ : BufTy).Contents (Elt F) → (⟨S50000x256, .f32⟩ : BufTy).Contents (Elt F) → (⟨S50000x256, .f32⟩ : BufTy).Contents (Elt F)),
    StableHlo.nullary main_cst_5 (constant S_ .f32 0x3727C5AC#32),
    StableHlo.unary main_cst_5 main_v42 (broadcastInDim S256 ![] bcast_S_S256 : (⟨S_, .f32⟩ : BufTy).Contents (Elt F) → (⟨S256, .f32⟩ : BufTy).Contents (Elt F)),
    StableHlo.binary main_v35 main_v42 main_v43 (addf : (⟨S256, .f32⟩ : BufTy).Contents (Elt F) → (⟨S256, .f32⟩ : BufTy).Contents (Elt F) → (⟨S256, .f32⟩ : BufTy).Contents (Elt F)),
    StableHlo.unary main_v43 main_v44 (Host.rsqrt : (⟨S256, .f32⟩ : BufTy).Contents (Elt F) → (⟨S256, .f32⟩ : BufTy).Contents (Elt F)),
    StableHlo.unary main_v44 main_v45 (broadcastInDim S1x256 ![1] bcast_S256_S1x256_1 : (⟨S256, .f32⟩ : BufTy).Contents (Elt F) → (⟨S1x256, .f32⟩ : BufTy).Contents (Elt F)),
    StableHlo.unary main_v45 main_v46 (broadcastInDim S50000x256 ![0, 1] bcast_S1x256_S50000x256_0_1 : (⟨S1x256, .f32⟩ : BufTy).Contents (Elt F) → (⟨S50000x256, .f32⟩ : BufTy).Contents (Elt F)),
    StableHlo.binary main_v41 main_v46 main_v47 (mulf : (⟨S50000x256, .f32⟩ : BufTy).Contents (Elt F) → (⟨S50000x256, .f32⟩ : BufTy).Contents (Elt F) → (⟨S50000x256, .f32⟩ : BufTy).Contents (Elt F)),
    StableHlo.unary main_v31 main_v48 (broadcastInDim S1x256 ![1] bcast_S256_S1x256_1 : (⟨S256, .f32⟩ : BufTy).Contents (Elt F) → (⟨S1x256, .f32⟩ : BufTy).Contents (Elt F)),
    StableHlo.unary main_v48 main_v49 (broadcastInDim S50000x256 ![0, 1] bcast_S1x256_S50000x256_0_1 : (⟨S1x256, .f32⟩ : BufTy).Contents (Elt F) → (⟨S50000x256, .f32⟩ : BufTy).Contents (Elt F)),
    StableHlo.binary main_v47 main_v49 main_v50 (addf : (⟨S50000x256, .f32⟩ : BufTy).Contents (Elt F) → (⟨S50000x256, .f32⟩ : BufTy).Contents (Elt F) → (⟨S50000x256, .f32⟩ : BufTy).Contents (Elt F)),
    StableHlo.TRef.nullary main_call1.cst (constant S_ .f32 0x00000000#32),
    StableHlo.TRef.unary main_call1.cst main_call1.v0 (broadcastInDim S50000x256 ![] bcast_S_S50000x256),
    StableHlo.TRef.binary (.of main_v50 : StableHlo.TRef sig ⟨S50000x256, .f32⟩) main_call1.v0 main_call1.v1 maximumf ]

theorem p0_sub : (p0 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.reshape_bufs_sub .., StableHlo.nullary_bufs_sub .., StableHlo.binary_bufs_sub .., StableHlo.unary_bufs_sub .., StableHlo.binary_bufs_sub .., StableHlo.binary_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub ..⟩

/-- The 83 operations of the printed window main_part1, calls listed inline. -/
abbrev p1 : List (HloOp τ sig (Elt F)) :=
  [ StableHlo.unary main_arg6 main_v52 ((extractStridedSlice S1x256x128 ![0, 0, 0] · slices_S5x256x128_S1x256x128_0_0_0) : (⟨S5x256x128, .f32⟩ : BufTy).Contents (Elt F) → (⟨S1x256x128, .f32⟩ : BufTy).Contents (Elt F)),
    StableHlo.reshape main_v52 main_v53 rfl shapeCasts_S1x256x128_S256x128,
    StableHlo.binary main_v51 main_v53 main_v54 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg7 main_v55 ((extractStridedSlice S1x128 ![0, 0] · slices_S5x128_S1x128_0_0) : (⟨S5x128, .f32⟩ : BufTy).Contents (Elt F) → (⟨S1x128, .f32⟩ : BufTy).Contents (Elt F)),
    StableHlo.reshape main_v55 main_v56 rfl shapeCasts_S1x128_S128,
    StableHlo.unary main_v56 main_v57 (broadcastInDim S1x128 ![1] bcast_S128_S1x128_1 : (⟨S128, .f32⟩ : BufTy).Contents (Elt F) → (⟨S1x128, .f32⟩ : BufTy).Contents (Elt F)),
    StableHlo.unary main_v57 main_v58 (broadcastInDim S50000x128 ![0, 1] bcast_S1x128_S50000x128_0_1 : (⟨S1x128, .f32⟩ : BufTy).Contents (Elt F) → (⟨S50000x128, .f32⟩ : BufTy).Contents (Elt F)),
    StableHlo.binary main_v54 main_v58 main_v59 (addf : (⟨S50000x128, .f32⟩ : BufTy).Contents (Elt F) → (⟨S50000x128, .f32⟩ : BufTy).Contents (Elt F) → (⟨S50000x128, .f32⟩ : BufTy).Contents (Elt F)),
    StableHlo.unary main_arg9 main_v60 ((extractStridedSlice S1x128 ![0, 0] · slices_S5x128_S1x128_0_0) : (⟨S5x128, .f32⟩ : BufTy).Contents (Elt F) → (⟨S1x128, .f32⟩ : BufTy).Contents (Elt F)),
    StableHlo.reshape main_v60 main_v61 rfl shapeCasts_S1x128_S128,
    StableHlo.unary main_arg10 main_v62 ((extractStridedSlice S1x128 ![0, 0] · slices_S5x128_S1x128_0_0) : (⟨S5x128, .f32⟩ : BufTy).Contents (Elt F) → (⟨S1x128, .f32⟩ : BufTy).Contents (Elt F)),
    StableHlo.reshape main_v62 main_v63 rfl shapeCasts_S1x128_S128,
    StableHlo.nullary main_cst_6 (constant S_ .f32 0x00000000#32),
    StableHlo.binary main_v59 main_cst_6 main_v64 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_7 (constant S_ .f32 0x47435000#32),
    StableHlo.unary main_cst_7 main_v65 (broadcastInDim S128 ![] bcast_S_S128 : (⟨S_, .f32⟩ : BufTy).Contents (Elt F) → (⟨S128, .f32⟩ : BufTy).Contents (Elt F)),
    StableHlo.binary main_v64 main_v65 main_v66 (Host.divf : (⟨S128, .f32⟩ : BufTy).Contents (Elt F) → (⟨S128, .f32⟩ : BufTy).Contents (Elt F) → (⟨S128, .f32⟩ : BufTy).Contents (Elt F)),
    StableHlo.nullary main_c_8 (constantI S_ 32 0#32),
    StableHlo.TRef.nullary main_call2.cst (constant S_ .f32 0x00000000#32),
    StableHlo.TRef.binary (.of main_v59 : StableHlo.TRef sig ⟨S50000x128, .f32⟩) main_call2.cst main_call2.v0 (fun x v => Host.reduceAdd x v reducesTo_S50000x128_S128_d0 h_S_),
    StableHlo.TRef.unary main_call2.v0 main_call2.v1 (broadcastInDim S1x128 ![1] bcast_S128_S1x128_1),
    StableHlo.TRef.nullary main_call2.cst_0 (constant S_ .f32 0x47435000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S50000x128 ![0, 1] bcast_S1x128_S50000x128_0_1),
    StableHlo.TRef.binary (.of main_v59 : StableHlo.TRef sig ⟨S50000x128, .f32⟩) main_call2.v4 main_call2.v5 subf,
    StableHlo.TRef.binary main_call2.v5 main_call2.v5 main_call2.v6 mulf,
    StableHlo.TRef.unary (.of main_c_8 : StableHlo.TRef sig ⟨S_, .i32⟩) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v66 main_v68 (broadcastInDim S1x128 ![1] bcast_S128_S1x128_1 : (⟨S128, .f32⟩ : BufTy).Contents (Elt F) → (⟨S1x128, .f32⟩ : BufTy).Contents (Elt F)),
    StableHlo.unary main_v68 main_v69 (broadcastInDim S50000x128 ![0, 1] bcast_S1x128_S50000x128_0_1 : (⟨S1x128, .f32⟩ : BufTy).Contents (Elt F) → (⟨S50000x128, .f32⟩ : BufTy).Contents (Elt F)),
    StableHlo.binary main_v59 main_v69 main_v70 (subf : (⟨S50000x128, .f32⟩ : BufTy).Contents (Elt F) → (⟨S50000x128, .f32⟩ : BufTy).Contents (Elt F) → (⟨S50000x128, .f32⟩ : BufTy).Contents (Elt F)),
    StableHlo.unary main_v61 main_v71 (broadcastInDim S1x128 ![1] bcast_S128_S1x128_1 : (⟨S128, .f32⟩ : BufTy).Contents (Elt F) → (⟨S1x128, .f32⟩ : BufTy).Contents (Elt F)),
    StableHlo.unary main_v71 main_v72 (broadcastInDim S50000x128 ![0, 1] bcast_S1x128_S50000x128_0_1 : (⟨S1x128, .f32⟩ : BufTy).Contents (Elt F) → (⟨S50000x128, .f32⟩ : BufTy).Contents (Elt F)),
    StableHlo.binary main_v72 main_v70 main_v73 (mulf : (⟨S50000x128, .f32⟩ : BufTy).Contents (Elt F) → (⟨S50000x128, .f32⟩ : BufTy).Contents (Elt F) → (⟨S50000x128, .f32⟩ : BufTy).Contents (Elt F)),
    StableHlo.nullary main_cst_9 (constant S_ .f32 0x3727C5AC#32),
    StableHlo.unary main_cst_9 main_v74 (broadcastInDim S128 ![] bcast_S_S128 : (⟨S_, .f32⟩ : BufTy).Contents (Elt F) → (⟨S128, .f32⟩ : BufTy).Contents (Elt F)),
    StableHlo.binary main_v67 main_v74 main_v75 (addf : (⟨S128, .f32⟩ : BufTy).Contents (Elt F) → (⟨S128, .f32⟩ : BufTy).Contents (Elt F) → (⟨S128, .f32⟩ : BufTy).Contents (Elt F)),
    StableHlo.unary main_v75 main_v76 (Host.rsqrt : (⟨S128, .f32⟩ : BufTy).Contents (Elt F) → (⟨S128, .f32⟩ : BufTy).Contents (Elt F)),
    StableHlo.unary main_v76 main_v77 (broadcastInDim S1x128 ![1] bcast_S128_S1x128_1 : (⟨S128, .f32⟩ : BufTy).Contents (Elt F) → (⟨S1x128, .f32⟩ : BufTy).Contents (Elt F)),
    StableHlo.unary main_v77 main_v78 (broadcastInDim S50000x128 ![0, 1] bcast_S1x128_S50000x128_0_1 : (⟨S1x128, .f32⟩ : BufTy).Contents (Elt F) → (⟨S50000x128, .f32⟩ : BufTy).Contents (Elt F)),
    StableHlo.binary main_v73 main_v78 main_v79 (mulf : (⟨S50000x128, .f32⟩ : BufTy).Contents (Elt F) → (⟨S50000x128, .f32⟩ : BufTy).Contents (Elt F) → (⟨S50000x128, .f32⟩ : BufTy).Contents (Elt F)),
    StableHlo.unary main_v63 main_v80 (broadcastInDim S1x128 ![1] bcast_S128_S1x128_1 : (⟨S128, .f32⟩ : BufTy).Contents (Elt F) → (⟨S1x128, .f32⟩ : BufTy).Contents (Elt F)),
    StableHlo.unary main_v80 main_v81 (broadcastInDim S50000x128 ![0, 1] bcast_S1x128_S50000x128_0_1 : (⟨S1x128, .f32⟩ : BufTy).Contents (Elt F) → (⟨S50000x128, .f32⟩ : BufTy).Contents (Elt F)),
    StableHlo.binary main_v79 main_v81 main_v82 (addf : (⟨S50000x128, .f32⟩ : BufTy).Contents (Elt F) → (⟨S50000x128, .f32⟩ : BufTy).Contents (Elt F) → (⟨S50000x128, .f32⟩ : BufTy).Contents (Elt F)),
    StableHlo.TRef.nullary main_call3.cst (constant S_ .f32 0x00000000#32),
    StableHlo.TRef.unary main_call3.cst main_call3.v0 (broadcastInDim S50000x128 ![] bcast_S_S50000x128),
    StableHlo.TRef.binary (.of main_v82 : StableHlo.TRef sig ⟨S50000x128, .f32⟩) main_call3.v0 main_call3.v1 maximumf,
    StableHlo.nullary main_c_10 (constantI S_ 32 0#32),
    StableHlo.unary main_c_10 main_v84 (broadcastInDim S800000 ![] bcast_S_S800000 : (⟨S_, .i32⟩ : BufTy).Contents (Elt F) → (⟨S800000, .i32⟩ : BufTy).Contents (Elt F)),
    StableHlo.binary main_v1 main_v84 main_v85 (cmpi .slt : (⟨S800000, .i32⟩ : BufTy).Contents (Elt F) → (⟨S800000, .i32⟩ : BufTy).Contents (Elt F) → (⟨S800000, .i1⟩ : BufTy).Contents (Elt F)),
    StableHlo.nullary main_c_11 (constantI S_ 32 50000#32),
    StableHlo.unary main_c_11 main_v86 (broadcastInDim S800000 ![] bcast_S_S800000 : (⟨S_, .i32⟩ : BufTy).Contents (Elt F) → (⟨S800000, .i32⟩ : BufTy).Contents (Elt F)),
    StableHlo.binary main_v1 main_v86 main_v87 (addi : (⟨S800000, .i32⟩ : BufTy).Contents (Elt F) → (⟨S800000, .i32⟩ : BufTy).Contents (Elt F) → (⟨S800000, .i32⟩ : BufTy).Contents (Elt F)),
    StableHlo.ternary main_v85 main_v87 main_v1 main_v88 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v88 main_v89 (broadcastInDim S800000x1 ![0] bcast_S800000_S800000x1_0 : (⟨S800000, .i32⟩ : BufTy).Contents (Elt F) → (⟨S800000x1, .i32⟩ : BufTy).Contents (Elt F)),
    StableHlo.binary main_v83 main_v89 main_v90 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_12 (constant S_ .f32 0x00000000#32),
    StableHlo.unary main_cst_12 main_v91 (broadcastInDim S50000x128 ![] bcast_S_S50000x128 : (⟨S_, .f32⟩ : BufTy).Contents (Elt F) → (⟨S50000x128, .f32⟩ : BufTy).Contents (Elt F)),
    StableHlo.unary main_v3 main_v92 (broadcastInDim S800000x1 ![0] bcast_S800000_S800000x1_0 : (⟨S800000, .i32⟩ : BufTy).Contents (Elt F) → (⟨S800000x1, .i32⟩ : BufTy).Contents (Elt F)),
    StableHlo.ternary main_v91 main_v92 main_v90 main_v93 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_arg8 main_v94 ((extractStridedSlice S1 ![1] · slices_S5_S1_1) : (⟨S5, .f32⟩ : BufTy).Contents (Elt F) → (⟨S1, .f32⟩ : BufTy).Contents (Elt F)),
    StableHlo.reshape main_v94 main_v95 rfl shapeCasts_S1_S_,
    StableHlo.nullary main_cst_13 (constant S_ .f32 0x3F800000#32),
    StableHlo.binary main_cst_13 main_v95 main_v96 (addf : (⟨S_, .f32⟩ : BufTy).Contents (Elt F) → (⟨S_, .f32⟩ : BufTy).Contents (Elt F) → (⟨S_, .f32⟩ : BufTy).Contents (Elt F)),
    StableHlo.unary main_v96 main_v97 (broadcastInDim S50000x128 ![] bcast_S_S50000x128 : (⟨S_, .f32⟩ : BufTy).Contents (Elt F) → (⟨S50000x128, .f32⟩ : BufTy).Contents (Elt F)),
    StableHlo.binary main_v97 main_v83 main_v98 (mulf : (⟨S50000x128, .f32⟩ : BufTy).Contents (Elt F) → (⟨S50000x128, .f32⟩ : BufTy).Contents (Elt F) → (⟨S50000x128, .f32⟩ : BufTy).Contents (Elt F)),
    StableHlo.binary main_v98 main_v93 main_v99 (addf : (⟨S50000x128, .f32⟩ : BufTy).Contents (Elt F) → (⟨S50000x128, .f32⟩ : BufTy).Contents (Elt F) → (⟨S50000x128, .f32⟩ : BufTy).Contents (Elt F)),
    StableHlo.unary main_arg2 main_v100 ((extractStridedSlice S1x128x256 ![1, 0, 0] · slices_S5x128x256_S1x128x256_1_0_0) : (⟨S5x128x256, .f32⟩ : BufTy).Contents (Elt F) → (⟨S1x128x256, .f32⟩ : BufTy).Contents (Elt F)),
    StableHlo.reshape main_v100 main_v101 rfl shapeCasts_S1x128x256_S128x256,
    StableHlo.binary main_v99 main_v101 main_v102 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.unary main_arg3 main_v103 ((extractStridedSlice S1x256 ![1, 0] · slices_S5x256_S1x256_1_0) : (⟨S5x256, .f32⟩ : BufTy).Contents (Elt F) → (⟨S1x256, .f32⟩ : BufTy).Contents (Elt F)) ]

theorem p1_sub : (p1 : List (HloOp τ sig (Elt F))).Forall fun op => op.bufs ⊆ StableHlo.tcRefs τ sig :=
  ⟨StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.reshape_bufs_sub .., StableHlo.nullary_bufs_sub .., StableHlo.binary_bufs_sub .., StableHlo.unary_bufs_sub .., StableHlo.binary_bufs_sub .., StableHlo.binary_bufs_sub .., StableHlo.unary_bufs_sub .., StableHlo.reshape_bufs_sub .., StableHlo.binary_bufs_sub .., StableHlo.unary_bufs_sub ..⟩

/-- The 104 operations of the printed window main_part2, calls listed inline. -/
abbrev p2 : List (HloOp τ sig (Elt F)) :=
  [ StableHlo.reshape main_v103 main_v104 rfl shapeCasts_S1x256_S256,
    StableHlo.unary main_v104 main_v105 (broadcastInDim S1x256 ![1] bcast_S256_S1x256_1 : (⟨S256, .f32⟩ : BufTy).Contents (Elt F) → (⟨S1x256, .f32⟩ : BufTy).Contents (Elt F)),
    StableHlo.unary main_v105 main_v106 (broadcastInDim S50000x256 ![0, 1] bcast_S1x256_S50000x256_0_1 : (⟨S1x256, .f32⟩ : BufTy).Contents (Elt F) → (⟨S50000x256, .f32⟩ : BufTy).Contents (Elt F)),
    StableHlo.binary main_v102 main_v106 main_v107 (addf : (⟨S50000x256, .f32⟩ : BufTy).Contents (Elt F) → (⟨S50000x256, .f32⟩ : BufTy).Contents (Elt F) → (⟨S50000x256, .f32⟩ : BufTy).Contents (Elt F)),
    StableHlo.unary main_arg4 main_v108 ((extractStridedSlice S1x256 ![1, 0] · slices_S5x256_S1x256_1_0) : (⟨S5x256, .f32⟩ : BufTy).Contents (Elt F) → (⟨S1x256, .f32⟩ : BufTy).Contents (Elt F)),
    StableHlo.reshape main_v108 main_v109 rfl shapeCasts_S1x256_S256,
    StableHlo.unary main_arg5 main_v110 ((extractStridedSlice S1x256 ![1, 0] · slices_S5x256_S1x256_1_0) : (⟨S5x256, .f32⟩ : BufTy).Contents (Elt F) → (⟨S1x256, .f32⟩ : BufTy).Contents (Elt F)),
    StableHlo.reshape main_v110 main_v111 rfl shapeCasts_S1x256_S256,
    StableHlo.nullary main_cst_14 (constant S_ .f32 0x00000000#32),
    StableHlo.binary main_v107 main_cst_14 main_v112 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_15 (constant S_ .f32 0x47435000#32),
    StableHlo.unary main_cst_15 main_v113 (broadcastInDim S256 ![] bcast_S_S256 : (⟨S_, .f32⟩ : BufTy).Contents (Elt F) → (⟨S256, .f32⟩ : BufTy).Contents (Elt F)),
    StableHlo.binary main_v112 main_v113 main_v114 (Host.divf : (⟨S256, .f32⟩ : BufTy).Contents (Elt F) → (⟨S256, .f32⟩ : BufTy).Contents (Elt F) → (⟨S256, .f32⟩ : BufTy).Contents (Elt F)),
    StableHlo.nullary main_c_16 (constantI S_ 32 0#32),
    StableHlo.TRef.nullary main_call4.cst (constant S_ .f32 0x00000000#32),
    StableHlo.TRef.binary (.of main_v107 : StableHlo.TRef sig ⟨S50000x256, .f32⟩) main_call4.cst main_call4.v0 (fun x v => Host.reduceAdd x v reducesTo_S50000x256_S256_d0 h_S_),
    StableHlo.TRef.unary main_call4.v0 main_call4.v1 (broadcastInDim S1x256 ![1] bcast_S256_S1x256_1),
    StableHlo.TRef.nullary main_call4.cst_0 (constant S_ .f32 0x47435000#32),
    StableHlo.TRef.unary main_call4.cst_0 main_call4.v2 (broadcastInDim S1x256 ![] bcast_S_S1x256),
    StableHlo.TRef.binary main_call4.v1 main_call4.v2 main_call4.v3 Host.divf,
    StableHlo.TRef.unary main_call4.v3 main_call4.v4 (broadcastInDim S50000x256 ![0, 1] bcast_S1x256_S50000x256_0_1),
    StableHlo.TRef.binary (.of main_v107 : StableHlo.TRef sig ⟨S50000x256, .f32⟩) main_call4.v4 main_call4.v5 subf,
    StableHlo.TRef.binary main_call4.v5 main_call4.v5 main_call4.v6 mulf,
    StableHlo.TRef.unary (.of main_c_16 : StableHlo.TRef sig ⟨S_, .i32⟩) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x256_S256_d0 h_S_),
    StableHlo.TRef.unary main_call4.v8 main_call4.v10 (broadcastInDim S256 ![] bcast_S_S256),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S256 ![] bcast_S_S256),
    StableHlo.TRef.ternary main_call4.v12 main_call4.v11 main_call4.call0.v1 main_call4.call0.v2 (fun p a b => select (broadcastInDim S256 ![] bcast_S_S256 p) a b),
    StableHlo.unary main_v114 main_v116 (broadcastInDim S1x256 ![1] bcast_S256_S1x256_1 : (⟨S256, .f32⟩ : BufTy).Contents (Elt F) → (⟨S1x256, .f32⟩ : BufTy).Contents (Elt F)),
    StableHlo.unary main_v116 main_v117 (broadcastInDim S50000x256 ![0, 1] bcast_S1x256_S50000x256_0_1 : (⟨S1x256, .f32⟩ : BufTy).Contents (Elt F) → (⟨S50000x256, .f32⟩ : BufTy).Contents (Elt F)),
    StableHlo.binary main_v107 main_v117 main_v118 (subf : (⟨S50000x256, .f32⟩ : BufTy).Contents (Elt F) → (⟨S50000x256, .f32⟩ : BufTy).Contents (Elt F) → (⟨S50000x256, .f32⟩ : BufTy).Contents (Elt F)),
    StableHlo.unary main_v109 main_v119 (broadcastInDim S1x256 ![1] bcast_S256_S1x256_1 : (⟨S256, .f32⟩ : BufTy).Contents (Elt F) → (⟨S1x256, .f32⟩ : BufTy).Contents (Elt F)),
    StableHlo.unary main_v119 main_v120 (broadcastInDim S50000x256 ![0, 1] bcast_S1x256_S50000x256_0_1 : (⟨S1x256, .f32⟩ : BufTy).Contents (Elt F) → (⟨S50000x256, .f32⟩ : BufTy).Contents (Elt F)),
    StableHlo.binary main_v120 main_v118 main_v121 (mulf : (⟨S50000x256, .f32⟩ : BufTy).Contents (Elt F) → (⟨S50000x256, .f32⟩ : BufTy).Contents (Elt F) → (⟨S50000x256, .f32⟩ : BufTy).Contents (Elt F)),
    StableHlo.nullary main_cst_17 (constant S_ .f32 0x3727C5AC#32),
    StableHlo.unary main_cst_17 main_v122 (broadcastInDim S256 ![] bcast_S_S256 : (⟨S_, .f32⟩ : BufTy).Contents (Elt F) → (⟨S256, .f32⟩ : BufTy).Contents (Elt F)),
    StableHlo.binary main_v115 main_v122 main_v123 (addf : (⟨S256, .f32⟩ : BufTy).Contents (Elt F) → (⟨S256, .f32⟩ : BufTy).Contents (Elt F) → (⟨S256, .f32⟩ : BufTy).Contents (Elt F)),
    StableHlo.unary main_v123 main_v124 (Host.rsqrt : (⟨S256, .f32⟩ : BufTy).Contents (Elt F) → (⟨S256, .f32⟩ : BufTy).Contents (Elt F)),
    StableHlo.unary main_v124 main_v125 (broadcastInDim S1x256 ![1] bcast_S256_S1x256_1 : (⟨S256, .f32⟩ : BufTy).Contents (Elt F) → (⟨S1x256, .f32⟩ : BufTy).Contents (Elt F)),
    StableHlo.unary main_v125 main_v126 (broadcastInDim S50000x256 ![0, 1] bcast_S1x256_S50000x256_0_1 : (⟨S1x256, .f32⟩ : BufTy).Contents (Elt F) → (⟨S50000x256, .f32⟩ : BufTy).Contents (Elt F)),
    StableHlo.binary main_v121 main_v126 main_v127 (mulf : (⟨S50000x256, .f32⟩ : BufTy).Contents (Elt F) → (⟨S50000x256, .f32⟩ : BufTy).Contents (Elt F) → (⟨S50000x256, .f32⟩ : BufTy).Contents (Elt F)),
    StableHlo.unary main_v111 main_v128 (broadcastInDim S1x256 ![1] bcast_S256_S1x256_1 : (⟨S256, .f32⟩ : BufTy).Contents (Elt F) → (⟨S1x256, .f32⟩ : BufTy).Contents (Elt F)),
    StableHlo.unary main_v128 main_v129 (broadcastInDim S50000x256 ![0, 1] bcast_S1x256_S50000x256_0_1 : (⟨S1x256, .f32⟩ : BufTy).Contents (Elt F) → (⟨S50000x256, .f32⟩ : BufTy).Contents (Elt F)),
    StableHlo.binary main_v127 main_v129 main_v130 (addf : (⟨S50000x256, .f32⟩ : BufTy).Contents (Elt F) → (⟨S50000x256, .f32⟩ : BufTy).Contents (Elt F) → (⟨S50000x256, .f32⟩ : BufTy).Contents (Elt F)),
    StableHlo.TRef.nullary main_call5.cst (constant S_ .f32 0x00000000#32),
    StableHlo.TRef.unary main_call5.cst main_call5.v0 (broadcastInDim S50000x256 ![] bcast_S_S50000x256),
    StableHlo.TRef.binary (.of main_v130 : StableHlo.TRef sig ⟨S50000x256, .f32⟩) main_call5.v0 main_call5.v1 maximumf,
    StableHlo.unary main_arg6 main_v132 ((extractStridedSlice S1x256x128 ![1, 0, 0] · slices_S5x256x128_S1x256x128_1_0_0) : (⟨S5x256x128, .f32⟩ : BufTy).Contents (Elt F) → (⟨S1x256x128, .f32⟩ : BufTy).Contents (Elt F)),
    StableHlo.reshape main_v132 main_v133 rfl shapeCasts_S1x256x128_S256x128,
    StableHlo.binary main_v131 main_v133 main_v134 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg7 main_v135 ((extractStridedSlice S1x128 ![1, 0] · slices_S5x128_S1x128_1_0) : (⟨S5x128, .f32⟩ : BufTy).Contents (Elt F) → (⟨S1x128, .f32⟩ : BufTy).Contents (Elt F)),
    StableHlo.reshape main_v135 main_v136 rfl shapeCasts_S1x128_S128,
    StableHlo.unary main_v136 main_v137 (broadcastInDim S1x128 ![1] bcast_S128_S1x128_1 : (⟨S128, .f32⟩ : BufTy).Contents (Elt F) → (⟨S1x128, .f32⟩ : BufTy).Contents (Elt F)),
    StableHlo.unary main_v137 main_v138 (broadcastInDim S50000x128 ![0, 1] bcast_S1x128_S50000x128_0_1 : (⟨S1x128, .f32⟩ : BufTy).Contents (Elt F) → (⟨S50000x128, .f32⟩ : BufTy).Contents (Elt F)),
    StableHlo.binary main_v134 main_v138 main_v139 (addf : (⟨S50000x128, .f32⟩ : BufTy).Contents (Elt F) → (⟨S50000x128, .f32⟩ : BufTy).Contents (Elt F) → (⟨S50000x128, .f32⟩ : BufTy).Contents (Elt F)),
    StableHlo.unary main_arg9 main_v140 ((extractStridedSlice S1x128 ![1, 0] · slices_S5x128_S1x128_1_0) : (⟨S5x128, .f32⟩ : BufTy).Contents (Elt F) → (⟨S1x128, .f32⟩ : BufTy).Contents (Elt F)),
    StableHlo.reshape main_v140 main_v141 rfl shapeCasts_S1x128_S128,
    StableHlo.unary main_arg10 main_v142 ((extractStridedSlice S1x128 ![1, 0] · slices_S5x128_S1x128_1_0) : (⟨S5x128, .f32⟩ : BufTy).Contents (Elt F) → (⟨S1x128, .f32⟩ : BufTy).Contents (Elt F)),
    StableHlo.reshape main_v142 main_v143 rfl shapeCasts_S1x128_S128,
    StableHlo.nullary main_cst_18 (constant S_ .f32 0x00000000#32),
    StableHlo.binary main_v139 main_cst_18 main_v144 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_19 (constant S_ .f32 0x47435000#32),
    StableHlo.unary main_cst_19 main_v145 (broadcastInDim S128 ![] bcast_S_S128 : (⟨S_, .f32⟩ : BufTy).Contents (Elt F) → (⟨S128, .f32⟩ : BufTy).Contents (Elt F)),
    StableHlo.binary main_v144 main_v145 main_v146 (Host.divf : (⟨S128, .f32⟩ : BufTy).Contents (Elt F) → (⟨S128, .f32⟩ : BufTy).Contents (Elt F) → (⟨S128, .f32⟩ : BufTy).Contents (Elt F)),
    StableHlo.nullary main_c_20 (constantI S_ 32 0#32),
    StableHlo.TRef.nullary main_call6.cst (constant S_ .f32 0x00000000#32),
    StableHlo.TRef.binary (.of main_v139 : StableHlo.TRef sig ⟨S50000x128, .f32⟩) main_call6.cst main_call6.v0 (fun x v => Host.reduceAdd x v reducesTo_S50000x128_S128_d0 h_S_),
    StableHlo.TRef.unary main_call6.v0 main_call6.v1 (broadcastInDim S1x128 ![1] bcast_S128_S1x128_1),
    StableHlo.TRef.nullary main_call6.cst_0 (constant S_ .f32 0x47435000#32),
    StableHlo.TRef.unary main_call6.cst_0 main_call6.v2 (broadcastInDim S1x128 ![] bcast_S_S1x128),
    StableHlo.TRef.binary main_call6.v1 main_call6.v2 main_call6.v3 Host.divf,
    StableHlo.TRef.unary main_call6.v3 main_call6.v4 (broadcastInDim S50000x128 ![0, 1] bcast_S1x128_S50000x128_0_1),
    StableHlo.TRef.binary (.of main_v139 : StableHlo.TRef sig ⟨S50000x128, .f32⟩) main_call6.v4 main_call6.v5 subf,
    StableHlo.TRef.binary main_call6.v5 main_call6.v5 main_call6.v6 mulf,
    StableHlo.TRef.unary (.of main_c_20 : StableHlo.TRef sig ⟨S_, .i32⟩) main_call6.v7 (sitofp .f32),
    StableHlo.TRef.nullary main_call6.cst_1 (constant S_ .f32 0x47435000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S50000x128_S128_d0 h_S_),
    StableHlo.TRef.unary main_call6.v8 main_call6.v10 (broadcastInDim S128 ![] bcast_S_S128),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S128 ![] bcast_S_S128),
    StableHlo.TRef.ternary main_call6.v12 main_call6.v11 main_call6.call0.v1 main_call6.call0.v2 (fun p a b => select (broadcastInDim S128 ![] bcast_S_S128 p) a b),
    StableHlo.unary main_v146 main_v148 (broadcastInDim S1x128 ![1] bcast_S128_S1x128_1 : (⟨S128, .f32⟩ : BufTy).Contents (Elt F) → (⟨S1x128, .f32⟩ : BufTy).Contents (Elt F)),
    StableHlo.unary main_v148 main_v149 (broadcastInDim S50000x128 ![0, 1] bcast_S1x128_S50000x128_0_1 : (⟨S1x128, .f32⟩ : BufTy).Contents (Elt F) → (⟨S50000x128, .f32⟩ : BufTy).Contents (Elt F)),
    StableHlo.binary main_v139 main_v149 main_v150 (subf : (⟨S50000x128, .f32⟩ : BufTy).Contents (Elt F) → (⟨S50000x128, .f32⟩ : BufTy).Contents (Elt F) → (⟨S50000x128, .f32⟩ : BufTy).Contents (Elt F)),
    StableHlo.unary main_v141 main_v151 (broadcastInDim S1x128 ![1] bcast_S128_S1x128_1 : (⟨S128, .f32⟩ : BufTy).Contents (Elt F) → (⟨S1x128, .f32⟩ : BufTy).Contents (Elt F)),
    StableHlo.unary main_v151 main_v152 (broadcastInDim S50000x128 ![0, 1] bcast_S1x128_S50000x128_0_1 : (⟨S1x128, .f32⟩ : BufTy).Contents (Elt F) → (⟨S50000x128, .f32⟩ : BufTy).Contents (Elt F)),
    StableHlo.binary main_v152 main_v150 main_v153 (mulf : (⟨S50000x128, .f32⟩ : BufTy).Contents (Elt F) → (⟨S50000x128, .f32⟩ : BufTy).Contents (Elt F) → (⟨S50000x128, .f32⟩ : BufTy).Contents (Elt F)),
    StableHlo.nullary main_cst_21 (constant S_ .f32 0x3727C5AC#32),
    StableHlo.unary main_cst_21 main_v154 (broadcastInDim S128 ![] bcast_S_S128 : (⟨S_, .f32⟩ : BufTy).Contents (Elt F) → (⟨S128, .f32⟩ : BufTy).Contents (Elt F)),
    StableHlo.binary main_v147 main_v154 main_v155 (addf : (⟨S128, .f32⟩ : BufTy).Contents (Elt F) → (⟨S128, .f32⟩ : BufTy).Contents (Elt F) → (⟨S128, .f32⟩ : BufTy).Contents (Elt F)) ]

theorem p2_sub : (p2 : List (HloOp τ sig (Elt F))).Forall fun op => op.bufs ⊆ StableHlo.tcRefs τ sig :=
  ⟨StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub ..⟩

/-- The 83 operations of the printed window main_part3, calls listed inline. -/
abbrev p3 : List (HloOp τ sig (Elt F)) :=
  [ StableHlo.unary main_v155 main_v156 (Host.rsqrt : (⟨S128, .f32⟩ : BufTy).Contents (Elt F) → (⟨S128, .f32⟩ : BufTy).Contents (Elt F)),
    StableHlo.unary main_v156 main_v157 (broadcastInDim S1x128 ![1] bcast_S128_S1x128_1 : (⟨S128, .f32⟩ : BufTy).Contents (Elt F) → (⟨S1x128, .f32⟩ : BufTy).Contents (Elt F)),
    StableHlo.unary main_v157 main_v158 (broadcastInDim S50000x128 ![0, 1] bcast_S1x128_S50000x128_0_1 : (⟨S1x128, .f32⟩ : BufTy).Contents (Elt F) → (⟨S50000x128, .f32⟩ : BufTy).Contents (Elt F)),
    StableHlo.binary main_v153 main_v158 main_v159 (mulf : (⟨S50000x128, .f32⟩ : BufTy).Contents (Elt F) → (⟨S50000x128, .f32⟩ : BufTy).Contents (Elt F) → (⟨S50000x128, .f32⟩ : BufTy).Contents (Elt F)),
    StableHlo.unary main_v143 main_v160 (broadcastInDim S1x128 ![1] bcast_S128_S1x128_1 : (⟨S128, .f32⟩ : BufTy).Contents (Elt F) → (⟨S1x128, .f32⟩ : BufTy).Contents (Elt F)),
    StableHlo.unary main_v160 main_v161 (broadcastInDim S50000x128 ![0, 1] bcast_S1x128_S50000x128_0_1 : (⟨S1x128, .f32⟩ : BufTy).Contents (Elt F) → (⟨S50000x128, .f32⟩ : BufTy).Contents (Elt F)),
    StableHlo.binary main_v159 main_v161 main_v162 (addf : (⟨S50000x128, .f32⟩ : BufTy).Contents (Elt F) → (⟨S50000x128, .f32⟩ : BufTy).Contents (Elt F) → (⟨S50000x128, .f32⟩ : BufTy).Contents (Elt F)),
    StableHlo.TRef.nullary main_call7.cst (constant S_ .f32 0x00000000#32),
    StableHlo.TRef.unary main_call7.cst main_call7.v0 (broadcastInDim S50000x128 ![] bcast_S_S50000x128),
    StableHlo.TRef.binary (.of main_v162 : StableHlo.TRef sig ⟨S50000x128, .f32⟩) main_call7.v0 main_call7.v1 maximumf,
    StableHlo.nullary main_c_22 (constantI S_ 32 0#32),
    StableHlo.unary main_c_22 main_v164 (broadcastInDim S800000 ![] bcast_S_S800000 : (⟨S_, .i32⟩ : BufTy).Contents (Elt F) → (⟨S800000, .i32⟩ : BufTy).Contents (Elt F)),
    StableHlo.binary main_v1 main_v164 main_v165 (cmpi .slt : (⟨S800000, .i32⟩ : BufTy).Contents (Elt F) → (⟨S800000, .i32⟩ : BufTy).Contents (Elt F) → (⟨S800000, .i1⟩ : BufTy).Contents (Elt F)),
    StableHlo.nullary main_c_23 (constantI S_ 32 50000#32),
    StableHlo.unary main_c_23 main_v166 (broadcastInDim S800000 ![] bcast_S_S800000 : (⟨S_, .i32⟩ : BufTy).Contents (Elt F) → (⟨S800000, .i32⟩ : BufTy).Contents (Elt F)),
    StableHlo.binary main_v1 main_v166 main_v167 (addi : (⟨S800000, .i32⟩ : BufTy).Contents (Elt F) → (⟨S800000, .i32⟩ : BufTy).Contents (Elt F) → (⟨S800000, .i32⟩ : BufTy).Contents (Elt F)),
    StableHlo.ternary main_v165 main_v167 main_v1 main_v168 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v168 main_v169 (broadcastInDim S800000x1 ![0] bcast_S800000_S800000x1_0 : (⟨S800000, .i32⟩ : BufTy).Contents (Elt F) → (⟨S800000x1, .i32⟩ : BufTy).Contents (Elt F)),
    StableHlo.binary main_v163 main_v169 main_v170 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_24 (constant S_ .f32 0x00000000#32),
    StableHlo.unary main_cst_24 main_v171 (broadcastInDim S50000x128 ![] bcast_S_S50000x128 : (⟨S_, .f32⟩ : BufTy).Contents (Elt F) → (⟨S50000x128, .f32⟩ : BufTy).Contents (Elt F)),
    StableHlo.unary main_v3 main_v172 (broadcastInDim S800000x1 ![0] bcast_S800000_S800000x1_0 : (⟨S800000, .i32⟩ : BufTy).Contents (Elt F) → (⟨S800000x1, .i32⟩ : BufTy).Contents (Elt F)),
    StableHlo.ternary main_v171 main_v172 main_v170 main_v173 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_arg8 main_v174 ((extractStridedSlice S1 ![2] · slices_S5_S1_2) : (⟨S5, .f32⟩ : BufTy).Contents (Elt F) → (⟨S1, .f32⟩ : BufTy).Contents (Elt F)),
    StableHlo.reshape main_v174 main_v175 rfl shapeCasts_S1_S_,
    StableHlo.nullary main_cst_25 (constant S_ .f32 0x3F800000#32),
    StableHlo.binary main_cst_25 main_v175 main_v176 (addf : (⟨S_, .f32⟩ : BufTy).Contents (Elt F) → (⟨S_, .f32⟩ : BufTy).Contents (Elt F) → (⟨S_, .f32⟩ : BufTy).Contents (Elt F)),
    StableHlo.unary main_v176 main_v177 (broadcastInDim S50000x128 ![] bcast_S_S50000x128 : (⟨S_, .f32⟩ : BufTy).Contents (Elt F) → (⟨S50000x128, .f32⟩ : BufTy).Contents (Elt F)),
    StableHlo.binary main_v177 main_v163 main_v178 (mulf : (⟨S50000x128, .f32⟩ : BufTy).Contents (Elt F) → (⟨S50000x128, .f32⟩ : BufTy).Contents (Elt F) → (⟨S50000x128, .f32⟩ : BufTy).Contents (Elt F)),
    StableHlo.binary main_v178 main_v173 main_v179 (addf : (⟨S50000x128, .f32⟩ : BufTy).Contents (Elt F) → (⟨S50000x128, .f32⟩ : BufTy).Contents (Elt F) → (⟨S50000x128, .f32⟩ : BufTy).Contents (Elt F)),
    StableHlo.unary main_arg2 main_v180 ((extractStridedSlice S1x128x256 ![2, 0, 0] · slices_S5x128x256_S1x128x256_2_0_0) : (⟨S5x128x256, .f32⟩ : BufTy).Contents (Elt F) → (⟨S1x128x256, .f32⟩ : BufTy).Contents (Elt F)),
    StableHlo.reshape main_v180 main_v181 rfl shapeCasts_S1x128x256_S128x256,
    StableHlo.binary main_v179 main_v181 main_v182 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.unary main_arg3 main_v183 ((extractStridedSlice S1x256 ![2, 0] · slices_S5x256_S1x256_2_0) : (⟨S5x256, .f32⟩ : BufTy).Contents (Elt F) → (⟨S1x256, .f32⟩ : BufTy).Contents (Elt F)),
    StableHlo.reshape main_v183 main_v184 rfl shapeCasts_S1x256_S256,
    StableHlo.unary main_v184 main_v185 (broadcastInDim S1x256 ![1] bcast_S256_S1x256_1 : (⟨S256, .f32⟩ : BufTy).Contents (Elt F) → (⟨S1x256, .f32⟩ : BufTy).Contents (Elt F)),
    StableHlo.unary main_v185 main_v186 (broadcastInDim S50000x256 ![0, 1] bcast_S1x256_S50000x256_0_1 : (⟨S1x256, .f32⟩ : BufTy).Contents (Elt F) → (⟨S50000x256, .f32⟩ : BufTy).Contents (Elt F)),
    StableHlo.binary main_v182 main_v186 main_v187 (addf : (⟨S50000x256, .f32⟩ : BufTy).Contents (Elt F) → (⟨S50000x256, .f32⟩ : BufTy).Contents (Elt F) → (⟨S50000x256, .f32⟩ : BufTy).Contents (Elt F)),
    StableHlo.unary main_arg4 main_v188 ((extractStridedSlice S1x256 ![2, 0] · slices_S5x256_S1x256_2_0) : (⟨S5x256, .f32⟩ : BufTy).Contents (Elt F) → (⟨S1x256, .f32⟩ : BufTy).Contents (Elt F)),
    StableHlo.reshape main_v188 main_v189 rfl shapeCasts_S1x256_S256,
    StableHlo.unary main_arg5 main_v190 ((extractStridedSlice S1x256 ![2, 0] · slices_S5x256_S1x256_2_0) : (⟨S5x256, .f32⟩ : BufTy).Contents (Elt F) → (⟨S1x256, .f32⟩ : BufTy).Contents (Elt F)),
    StableHlo.reshape main_v190 main_v191 rfl shapeCasts_S1x256_S256,
    StableHlo.nullary main_cst_26 (constant S_ .f32 0x00000000#32),
    StableHlo.binary main_v187 main_cst_26 main_v192 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_27 (constant S_ .f32 0x47435000#32),
    StableHlo.unary main_cst_27 main_v193 (broadcastInDim S256 ![] bcast_S_S256 : (⟨S_, .f32⟩ : BufTy).Contents (Elt F) → (⟨S256, .f32⟩ : BufTy).Contents (Elt F)),
    StableHlo.binary main_v192 main_v193 main_v194 (Host.divf : (⟨S256, .f32⟩ : BufTy).Contents (Elt F) → (⟨S256, .f32⟩ : BufTy).Contents (Elt F) → (⟨S256, .f32⟩ : BufTy).Contents (Elt F)),
    StableHlo.nullary main_c_28 (constantI S_ 32 0#32),
    StableHlo.TRef.nullary main_call8.cst (constant S_ .f32 0x00000000#32),
    StableHlo.TRef.binary (.of main_v187 : StableHlo.TRef sig ⟨S50000x256, .f32⟩) main_call8.cst main_call8.v0 (fun x v => Host.reduceAdd x v reducesTo_S50000x256_S256_d0 h_S_),
    StableHlo.TRef.unary main_call8.v0 main_call8.v1 (broadcastInDim S1x256 ![1] bcast_S256_S1x256_1),
    StableHlo.TRef.nullary main_call8.cst_0 (constant S_ .f32 0x47435000#32),
    StableHlo.TRef.unary main_call8.cst_0 main_call8.v2 (broadcastInDim S1x256 ![] bcast_S_S1x256),
    StableHlo.TRef.binary main_call8.v1 main_call8.v2 main_call8.v3 Host.divf,
    StableHlo.TRef.unary main_call8.v3 main_call8.v4 (broadcastInDim S50000x256 ![0, 1] bcast_S1x256_S50000x256_0_1),
    StableHlo.TRef.binary (.of main_v187 : StableHlo.TRef sig ⟨S50000x256, .f32⟩) main_call8.v4 main_call8.v5 subf,
    StableHlo.TRef.binary main_call8.v5 main_call8.v5 main_call8.v6 mulf,
    StableHlo.TRef.unary (.of main_c_28 : StableHlo.TRef sig ⟨S_, .i32⟩) main_call8.v7 (sitofp .f32),
    StableHlo.TRef.nullary main_call8.cst_1 (constant S_ .f32 0x47435000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S50000x256_S256_d0 h_S_),
    StableHlo.TRef.unary main_call8.v8 main_call8.v10 (broadcastInDim S256 ![] bcast_S_S256),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S256 ![] bcast_S_S256),
    StableHlo.TRef.ternary main_call8.v12 main_call8.v11 main_call8.call0.v1 main_call8.call0.v2 (fun p a b => select (broadcastInDim S256 ![] bcast_S_S256 p) a b),
    StableHlo.unary main_v194 main_v196 (broadcastInDim S1x256 ![1] bcast_S256_S1x256_1 : (⟨S256, .f32⟩ : BufTy).Contents (Elt F) → (⟨S1x256, .f32⟩ : BufTy).Contents (Elt F)),
    StableHlo.unary main_v196 main_v197 (broadcastInDim S50000x256 ![0, 1] bcast_S1x256_S50000x256_0_1 : (⟨S1x256, .f32⟩ : BufTy).Contents (Elt F) → (⟨S50000x256, .f32⟩ : BufTy).Contents (Elt F)),
    StableHlo.binary main_v187 main_v197 main_v198 (subf : (⟨S50000x256, .f32⟩ : BufTy).Contents (Elt F) → (⟨S50000x256, .f32⟩ : BufTy).Contents (Elt F) → (⟨S50000x256, .f32⟩ : BufTy).Contents (Elt F)),
    StableHlo.unary main_v189 main_v199 (broadcastInDim S1x256 ![1] bcast_S256_S1x256_1 : (⟨S256, .f32⟩ : BufTy).Contents (Elt F) → (⟨S1x256, .f32⟩ : BufTy).Contents (Elt F)),
    StableHlo.unary main_v199 main_v200 (broadcastInDim S50000x256 ![0, 1] bcast_S1x256_S50000x256_0_1 : (⟨S1x256, .f32⟩ : BufTy).Contents (Elt F) → (⟨S50000x256, .f32⟩ : BufTy).Contents (Elt F)),
    StableHlo.binary main_v200 main_v198 main_v201 (mulf : (⟨S50000x256, .f32⟩ : BufTy).Contents (Elt F) → (⟨S50000x256, .f32⟩ : BufTy).Contents (Elt F) → (⟨S50000x256, .f32⟩ : BufTy).Contents (Elt F)),
    StableHlo.nullary main_cst_29 (constant S_ .f32 0x3727C5AC#32),
    StableHlo.unary main_cst_29 main_v202 (broadcastInDim S256 ![] bcast_S_S256 : (⟨S_, .f32⟩ : BufTy).Contents (Elt F) → (⟨S256, .f32⟩ : BufTy).Contents (Elt F)),
    StableHlo.binary main_v195 main_v202 main_v203 (addf : (⟨S256, .f32⟩ : BufTy).Contents (Elt F) → (⟨S256, .f32⟩ : BufTy).Contents (Elt F) → (⟨S256, .f32⟩ : BufTy).Contents (Elt F)),
    StableHlo.unary main_v203 main_v204 (Host.rsqrt : (⟨S256, .f32⟩ : BufTy).Contents (Elt F) → (⟨S256, .f32⟩ : BufTy).Contents (Elt F)),
    StableHlo.unary main_v204 main_v205 (broadcastInDim S1x256 ![1] bcast_S256_S1x256_1 : (⟨S256, .f32⟩ : BufTy).Contents (Elt F) → (⟨S1x256, .f32⟩ : BufTy).Contents (Elt F)),
    StableHlo.unary main_v205 main_v206 (broadcastInDim S50000x256 ![0, 1] bcast_S1x256_S50000x256_0_1 : (⟨S1x256, .f32⟩ : BufTy).Contents (Elt F) → (⟨S50000x256, .f32⟩ : BufTy).Contents (Elt F)),
    StableHlo.binary main_v201 main_v206 main_v207 (mulf : (⟨S50000x256, .f32⟩ : BufTy).Contents (Elt F) → (⟨S50000x256, .f32⟩ : BufTy).Contents (Elt F) → (⟨S50000x256, .f32⟩ : BufTy).Contents (Elt F)) ]

theorem p3_sub : (p3 : List (HloOp τ sig (Elt F))).Forall fun op => op.bufs ⊆ StableHlo.tcRefs τ sig :=
  ⟨StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.reshape_bufs_sub .., StableHlo.nullary_bufs_sub .., StableHlo.binary_bufs_sub .., StableHlo.unary_bufs_sub .., StableHlo.binary_bufs_sub .., StableHlo.binary_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub ..⟩

/-- The 85 operations of the printed window main_part4, calls listed inline. -/
abbrev p4 : List (HloOp τ sig (Elt F)) :=
  [ StableHlo.unary main_v191 main_v208 (broadcastInDim S1x256 ![1] bcast_S256_S1x256_1 : (⟨S256, .f32⟩ : BufTy).Contents (Elt F) → (⟨S1x256, .f32⟩ : BufTy).Contents (Elt F)),
    StableHlo.unary main_v208 main_v209 (broadcastInDim S50000x256 ![0, 1] bcast_S1x256_S50000x256_0_1 : (⟨S1x256, .f32⟩ : BufTy).Contents (Elt F) → (⟨S50000x256, .f32⟩ : BufTy).Contents (Elt F)),
    StableHlo.binary main_v207 main_v209 main_v210 (addf : (⟨S50000x256, .f32⟩ : BufTy).Contents (Elt F) → (⟨S50000x256, .f32⟩ : BufTy).Contents (Elt F) → (⟨S50000x256, .f32⟩ : BufTy).Contents (Elt F)),
    StableHlo.TRef.nullary main_call9.cst (constant S_ .f32 0x00000000#32),
    StableHlo.TRef.unary main_call9.cst main_call9.v0 (broadcastInDim S50000x256 ![] bcast_S_S50000x256),
    StableHlo.TRef.binary (.of main_v210 : StableHlo.TRef sig ⟨S50000x256, .f32⟩) main_call9.v0 main_call9.v1 maximumf,
    StableHlo.unary main_arg6 main_v212 ((extractStridedSlice S1x256x128 ![2, 0, 0] · slices_S5x256x128_S1x256x128_2_0_0) : (⟨S5x256x128, .f32⟩ : BufTy).Contents (Elt F) → (⟨S1x256x128, .f32⟩ : BufTy).Contents (Elt F)),
    StableHlo.reshape main_v212 main_v213 rfl shapeCasts_S1x256x128_S256x128,
    StableHlo.binary main_v211 main_v213 main_v214 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg7 main_v215 ((extractStridedSlice S1x128 ![2, 0] · slices_S5x128_S1x128_2_0) : (⟨S5x128, .f32⟩ : BufTy).Contents (Elt F) → (⟨S1x128, .f32⟩ : BufTy).Contents (Elt F)),
    StableHlo.reshape main_v215 main_v216 rfl shapeCasts_S1x128_S128,
    StableHlo.unary main_v216 main_v217 (broadcastInDim S1x128 ![1] bcast_S128_S1x128_1 : (⟨S128, .f32⟩ : BufTy).Contents (Elt F) → (⟨S1x128, .f32⟩ : BufTy).Contents (Elt F)),
    StableHlo.unary main_v217 main_v218 (broadcastInDim S50000x128 ![0, 1] bcast_S1x128_S50000x128_0_1 : (⟨S1x128, .f32⟩ : BufTy).Contents (Elt F) → (⟨S50000x128, .f32⟩ : BufTy).Contents (Elt F)),
    StableHlo.binary main_v214 main_v218 main_v219 (addf : (⟨S50000x128, .f32⟩ : BufTy).Contents (Elt F) → (⟨S50000x128, .f32⟩ : BufTy).Contents (Elt F) → (⟨S50000x128, .f32⟩ : BufTy).Contents (Elt F)),
    StableHlo.unary main_arg9 main_v220 ((extractStridedSlice S1x128 ![2, 0] · slices_S5x128_S1x128_2_0) : (⟨S5x128, .f32⟩ : BufTy).Contents (Elt F) → (⟨S1x128, .f32⟩ : BufTy).Contents (Elt F)),
    StableHlo.reshape main_v220 main_v221 rfl shapeCasts_S1x128_S128,
    StableHlo.unary main_arg10 main_v222 ((extractStridedSlice S1x128 ![2, 0] · slices_S5x128_S1x128_2_0) : (⟨S5x128, .f32⟩ : BufTy).Contents (Elt F) → (⟨S1x128, .f32⟩ : BufTy).Contents (Elt F)),
    StableHlo.reshape main_v222 main_v223 rfl shapeCasts_S1x128_S128,
    StableHlo.nullary main_cst_30 (constant S_ .f32 0x00000000#32),
    StableHlo.binary main_v219 main_cst_30 main_v224 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_31 (constant S_ .f32 0x47435000#32),
    StableHlo.unary main_cst_31 main_v225 (broadcastInDim S128 ![] bcast_S_S128 : (⟨S_, .f32⟩ : BufTy).Contents (Elt F) → (⟨S128, .f32⟩ : BufTy).Contents (Elt F)),
    StableHlo.binary main_v224 main_v225 main_v226 (Host.divf : (⟨S128, .f32⟩ : BufTy).Contents (Elt F) → (⟨S128, .f32⟩ : BufTy).Contents (Elt F) → (⟨S128, .f32⟩ : BufTy).Contents (Elt F)),
    StableHlo.nullary main_c_32 (constantI S_ 32 0#32),
    StableHlo.TRef.nullary main_call10.cst (constant S_ .f32 0x00000000#32),
    StableHlo.TRef.binary (.of main_v219 : StableHlo.TRef sig ⟨S50000x128, .f32⟩) main_call10.cst main_call10.v0 (fun x v => Host.reduceAdd x v reducesTo_S50000x128_S128_d0 h_S_),
    StableHlo.TRef.unary main_call10.v0 main_call10.v1 (broadcastInDim S1x128 ![1] bcast_S128_S1x128_1),
    StableHlo.TRef.nullary main_call10.cst_0 (constant S_ .f32 0x47435000#32),
    StableHlo.TRef.unary main_call10.cst_0 main_call10.v2 (broadcastInDim S1x128 ![] bcast_S_S1x128),
    StableHlo.TRef.binary main_call10.v1 main_call10.v2 main_call10.v3 Host.divf,
    StableHlo.TRef.unary main_call10.v3 main_call10.v4 (broadcastInDim S50000x128 ![0, 1] bcast_S1x128_S50000x128_0_1),
    StableHlo.TRef.binary (.of main_v219 : StableHlo.TRef sig ⟨S50000x128, .f32⟩) main_call10.v4 main_call10.v5 subf,
    StableHlo.TRef.binary main_call10.v5 main_call10.v5 main_call10.v6 mulf,
    StableHlo.TRef.unary (.of main_c_32 : StableHlo.TRef sig ⟨S_, .i32⟩) main_call10.v7 (sitofp .f32),
    StableHlo.TRef.nullary main_call10.cst_1 (constant S_ .f32 0x47435000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S50000x128_S128_d0 h_S_),
    StableHlo.TRef.unary main_call10.v8 main_call10.v10 (broadcastInDim S128 ![] bcast_S_S128),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S128 ![] bcast_S_S128),
    StableHlo.TRef.ternary main_call10.v12 main_call10.v11 main_call10.call0.v1 main_call10.call0.v2 (fun p a b => select (broadcastInDim S128 ![] bcast_S_S128 p) a b),
    StableHlo.unary main_v226 main_v228 (broadcastInDim S1x128 ![1] bcast_S128_S1x128_1 : (⟨S128, .f32⟩ : BufTy).Contents (Elt F) → (⟨S1x128, .f32⟩ : BufTy).Contents (Elt F)),
    StableHlo.unary main_v228 main_v229 (broadcastInDim S50000x128 ![0, 1] bcast_S1x128_S50000x128_0_1 : (⟨S1x128, .f32⟩ : BufTy).Contents (Elt F) → (⟨S50000x128, .f32⟩ : BufTy).Contents (Elt F)),
    StableHlo.binary main_v219 main_v229 main_v230 (subf : (⟨S50000x128, .f32⟩ : BufTy).Contents (Elt F) → (⟨S50000x128, .f32⟩ : BufTy).Contents (Elt F) → (⟨S50000x128, .f32⟩ : BufTy).Contents (Elt F)),
    StableHlo.unary main_v221 main_v231 (broadcastInDim S1x128 ![1] bcast_S128_S1x128_1 : (⟨S128, .f32⟩ : BufTy).Contents (Elt F) → (⟨S1x128, .f32⟩ : BufTy).Contents (Elt F)),
    StableHlo.unary main_v231 main_v232 (broadcastInDim S50000x128 ![0, 1] bcast_S1x128_S50000x128_0_1 : (⟨S1x128, .f32⟩ : BufTy).Contents (Elt F) → (⟨S50000x128, .f32⟩ : BufTy).Contents (Elt F)),
    StableHlo.binary main_v232 main_v230 main_v233 (mulf : (⟨S50000x128, .f32⟩ : BufTy).Contents (Elt F) → (⟨S50000x128, .f32⟩ : BufTy).Contents (Elt F) → (⟨S50000x128, .f32⟩ : BufTy).Contents (Elt F)),
    StableHlo.nullary main_cst_33 (constant S_ .f32 0x3727C5AC#32),
    StableHlo.unary main_cst_33 main_v234 (broadcastInDim S128 ![] bcast_S_S128 : (⟨S_, .f32⟩ : BufTy).Contents (Elt F) → (⟨S128, .f32⟩ : BufTy).Contents (Elt F)),
    StableHlo.binary main_v227 main_v234 main_v235 (addf : (⟨S128, .f32⟩ : BufTy).Contents (Elt F) → (⟨S128, .f32⟩ : BufTy).Contents (Elt F) → (⟨S128, .f32⟩ : BufTy).Contents (Elt F)),
    StableHlo.unary main_v235 main_v236 (Host.rsqrt : (⟨S128, .f32⟩ : BufTy).Contents (Elt F) → (⟨S128, .f32⟩ : BufTy).Contents (Elt F)),
    StableHlo.unary main_v236 main_v237 (broadcastInDim S1x128 ![1] bcast_S128_S1x128_1 : (⟨S128, .f32⟩ : BufTy).Contents (Elt F) → (⟨S1x128, .f32⟩ : BufTy).Contents (Elt F)),
    StableHlo.unary main_v237 main_v238 (broadcastInDim S50000x128 ![0, 1] bcast_S1x128_S50000x128_0_1 : (⟨S1x128, .f32⟩ : BufTy).Contents (Elt F) → (⟨S50000x128, .f32⟩ : BufTy).Contents (Elt F)),
    StableHlo.binary main_v233 main_v238 main_v239 (mulf : (⟨S50000x128, .f32⟩ : BufTy).Contents (Elt F) → (⟨S50000x128, .f32⟩ : BufTy).Contents (Elt F) → (⟨S50000x128, .f32⟩ : BufTy).Contents (Elt F)),
    StableHlo.unary main_v223 main_v240 (broadcastInDim S1x128 ![1] bcast_S128_S1x128_1 : (⟨S128, .f32⟩ : BufTy).Contents (Elt F) → (⟨S1x128, .f32⟩ : BufTy).Contents (Elt F)),
    StableHlo.unary main_v240 main_v241 (broadcastInDim S50000x128 ![0, 1] bcast_S1x128_S50000x128_0_1 : (⟨S1x128, .f32⟩ : BufTy).Contents (Elt F) → (⟨S50000x128, .f32⟩ : BufTy).Contents (Elt F)),
    StableHlo.binary main_v239 main_v241 main_v242 (addf : (⟨S50000x128, .f32⟩ : BufTy).Contents (Elt F) → (⟨S50000x128, .f32⟩ : BufTy).Contents (Elt F) → (⟨S50000x128, .f32⟩ : BufTy).Contents (Elt F)),
    StableHlo.TRef.nullary main_call11.cst (constant S_ .f32 0x00000000#32),
    StableHlo.TRef.unary main_call11.cst main_call11.v0 (broadcastInDim S50000x128 ![] bcast_S_S50000x128),
    StableHlo.TRef.binary (.of main_v242 : StableHlo.TRef sig ⟨S50000x128, .f32⟩) main_call11.v0 main_call11.v1 maximumf,
    StableHlo.nullary main_c_34 (constantI S_ 32 0#32),
    StableHlo.unary main_c_34 main_v244 (broadcastInDim S800000 ![] bcast_S_S800000 : (⟨S_, .i32⟩ : BufTy).Contents (Elt F) → (⟨S800000, .i32⟩ : BufTy).Contents (Elt F)),
    StableHlo.binary main_v1 main_v244 main_v245 (cmpi .slt : (⟨S800000, .i32⟩ : BufTy).Contents (Elt F) → (⟨S800000, .i32⟩ : BufTy).Contents (Elt F) → (⟨S800000, .i1⟩ : BufTy).Contents (Elt F)),
    StableHlo.nullary main_c_35 (constantI S_ 32 50000#32),
    StableHlo.unary main_c_35 main_v246 (broadcastInDim S800000 ![] bcast_S_S800000 : (⟨S_, .i32⟩ : BufTy).Contents (Elt F) → (⟨S800000, .i32⟩ : BufTy).Contents (Elt F)),
    StableHlo.binary main_v1 main_v246 main_v247 (addi : (⟨S800000, .i32⟩ : BufTy).Contents (Elt F) → (⟨S800000, .i32⟩ : BufTy).Contents (Elt F) → (⟨S800000, .i32⟩ : BufTy).Contents (Elt F)),
    StableHlo.ternary main_v245 main_v247 main_v1 main_v248 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v248 main_v249 (broadcastInDim S800000x1 ![0] bcast_S800000_S800000x1_0 : (⟨S800000, .i32⟩ : BufTy).Contents (Elt F) → (⟨S800000x1, .i32⟩ : BufTy).Contents (Elt F)),
    StableHlo.binary main_v243 main_v249 main_v250 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_36 (constant S_ .f32 0x00000000#32),
    StableHlo.unary main_cst_36 main_v251 (broadcastInDim S50000x128 ![] bcast_S_S50000x128 : (⟨S_, .f32⟩ : BufTy).Contents (Elt F) → (⟨S50000x128, .f32⟩ : BufTy).Contents (Elt F)),
    StableHlo.unary main_v3 main_v252 (broadcastInDim S800000x1 ![0] bcast_S800000_S800000x1_0 : (⟨S800000, .i32⟩ : BufTy).Contents (Elt F) → (⟨S800000x1, .i32⟩ : BufTy).Contents (Elt F)),
    StableHlo.ternary main_v251 main_v252 main_v250 main_v253 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_arg8 main_v254 ((extractStridedSlice S1 ![3] · slices_S5_S1_3) : (⟨S5, .f32⟩ : BufTy).Contents (Elt F) → (⟨S1, .f32⟩ : BufTy).Contents (Elt F)),
    StableHlo.reshape main_v254 main_v255 rfl shapeCasts_S1_S_,
    StableHlo.nullary main_cst_37 (constant S_ .f32 0x3F800000#32),
    StableHlo.binary main_cst_37 main_v255 main_v256 (addf : (⟨S_, .f32⟩ : BufTy).Contents (Elt F) → (⟨S_, .f32⟩ : BufTy).Contents (Elt F) → (⟨S_, .f32⟩ : BufTy).Contents (Elt F)),
    StableHlo.unary main_v256 main_v257 (broadcastInDim S50000x128 ![] bcast_S_S50000x128 : (⟨S_, .f32⟩ : BufTy).Contents (Elt F) → (⟨S50000x128, .f32⟩ : BufTy).Contents (Elt F)),
    StableHlo.binary main_v257 main_v243 main_v258 (mulf : (⟨S50000x128, .f32⟩ : BufTy).Contents (Elt F) → (⟨S50000x128, .f32⟩ : BufTy).Contents (Elt F) → (⟨S50000x128, .f32⟩ : BufTy).Contents (Elt F)),
    StableHlo.binary main_v258 main_v253 main_v259 (addf : (⟨S50000x128, .f32⟩ : BufTy).Contents (Elt F) → (⟨S50000x128, .f32⟩ : BufTy).Contents (Elt F) → (⟨S50000x128, .f32⟩ : BufTy).Contents (Elt F)) ]

theorem p4_sub : (p4 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.reshape_bufs_sub .., StableHlo.nullary_bufs_sub .., StableHlo.binary_bufs_sub .., StableHlo.unary_bufs_sub .., StableHlo.binary_bufs_sub .., StableHlo.binary_bufs_sub ..⟩

/-- The 104 operations of the printed window main_part5, calls listed inline. -/
abbrev p5 : List (HloOp τ sig (Elt F)) :=
  [ StableHlo.unary main_arg2 main_v260 ((extractStridedSlice S1x128x256 ![3, 0, 0] · slices_S5x128x256_S1x128x256_3_0_0) : (⟨S5x128x256, .f32⟩ : BufTy).Contents (Elt F) → (⟨S1x128x256, .f32⟩ : BufTy).Contents (Elt F)),
    StableHlo.reshape main_v260 main_v261 rfl shapeCasts_S1x128x256_S128x256,
    StableHlo.binary main_v259 main_v261 main_v262 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.unary main_arg3 main_v263 ((extractStridedSlice S1x256 ![3, 0] · slices_S5x256_S1x256_3_0) : (⟨S5x256, .f32⟩ : BufTy).Contents (Elt F) → (⟨S1x256, .f32⟩ : BufTy).Contents (Elt F)),
    StableHlo.reshape main_v263 main_v264 rfl shapeCasts_S1x256_S256,
    StableHlo.unary main_v264 main_v265 (broadcastInDim S1x256 ![1] bcast_S256_S1x256_1 : (⟨S256, .f32⟩ : BufTy).Contents (Elt F) → (⟨S1x256, .f32⟩ : BufTy).Contents (Elt F)),
    StableHlo.unary main_v265 main_v266 (broadcastInDim S50000x256 ![0, 1] bcast_S1x256_S50000x256_0_1 : (⟨S1x256, .f32⟩ : BufTy).Contents (Elt F) → (⟨S50000x256, .f32⟩ : BufTy).Contents (Elt F)),
    StableHlo.binary main_v262 main_v266 main_v267 (addf : (⟨S50000x256, .f32⟩ : BufTy).Contents (Elt F) → (⟨S50000x256, .f32⟩ : BufTy).Contents (Elt F) → (⟨S50000x256, .f32⟩ : BufTy).Contents (Elt F)),
    StableHlo.unary main_arg4 main_v268 ((extractStridedSlice S1x256 ![3, 0] · slices_S5x256_S1x256_3_0) : (⟨S5x256, .f32⟩ : BufTy).Contents (Elt F) → (⟨S1x256, .f32⟩ : BufTy).Contents (Elt F)),
    StableHlo.reshape main_v268 main_v269 rfl shapeCasts_S1x256_S256,
    StableHlo.unary main_arg5 main_v270 ((extractStridedSlice S1x256 ![3, 0] · slices_S5x256_S1x256_3_0) : (⟨S5x256, .f32⟩ : BufTy).Contents (Elt F) → (⟨S1x256, .f32⟩ : BufTy).Contents (Elt F)),
    StableHlo.reshape main_v270 main_v271 rfl shapeCasts_S1x256_S256,
    StableHlo.nullary main_cst_38 (constant S_ .f32 0x00000000#32),
    StableHlo.binary main_v267 main_cst_38 main_v272 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_39 (constant S_ .f32 0x47435000#32),
    StableHlo.unary main_cst_39 main_v273 (broadcastInDim S256 ![] bcast_S_S256 : (⟨S_, .f32⟩ : BufTy).Contents (Elt F) → (⟨S256, .f32⟩ : BufTy).Contents (Elt F)),
    StableHlo.binary main_v272 main_v273 main_v274 (Host.divf : (⟨S256, .f32⟩ : BufTy).Contents (Elt F) → (⟨S256, .f32⟩ : BufTy).Contents (Elt F) → (⟨S256, .f32⟩ : BufTy).Contents (Elt F)),
    StableHlo.nullary main_c_40 (constantI S_ 32 0#32),
    StableHlo.TRef.nullary main_call12.cst (constant S_ .f32 0x00000000#32),
    StableHlo.TRef.binary (.of main_v267 : StableHlo.TRef sig ⟨S50000x256, .f32⟩) main_call12.cst main_call12.v0 (fun x v => Host.reduceAdd x v reducesTo_S50000x256_S256_d0 h_S_),
    StableHlo.TRef.unary main_call12.v0 main_call12.v1 (broadcastInDim S1x256 ![1] bcast_S256_S1x256_1),
    StableHlo.TRef.nullary main_call12.cst_0 (constant S_ .f32 0x47435000#32),
    StableHlo.TRef.unary main_call12.cst_0 main_call12.v2 (broadcastInDim S1x256 ![] bcast_S_S1x256),
    StableHlo.TRef.binary main_call12.v1 main_call12.v2 main_call12.v3 Host.divf,
    StableHlo.TRef.unary main_call12.v3 main_call12.v4 (broadcastInDim S50000x256 ![0, 1] bcast_S1x256_S50000x256_0_1),
    StableHlo.TRef.binary (.of main_v267 : StableHlo.TRef sig ⟨S50000x256, .f32⟩) main_call12.v4 main_call12.v5 subf,
    StableHlo.TRef.binary main_call12.v5 main_call12.v5 main_call12.v6 mulf,
    StableHlo.TRef.unary (.of main_c_40 : StableHlo.TRef sig ⟨S_, .i32⟩) main_call12.v7 (sitofp .f32),
    StableHlo.TRef.nullary main_call12.cst_1 (constant S_ .f32 0x47435000#32),
    StableHlo.TRef.binary main_call12.cst_1 main_call12.v7 main_call12.v8 subf,
    StableHlo.TRef.nullary main_call12.cst_2 (constant S_ .f32 0x00000000#32),
    StableHlo.TRef.binary main_call12.v6 main_call12.cst_2 main_call12.v9 (fun x v => Host.reduceAdd x v reducesTo_S50000x256_S256_d0 h_S_),
    StableHlo.TRef.unary main_call12.v8 main_call12.v10 (broadcastInDim S256 ![] bcast_S_S256),
    StableHlo.TRef.binary main_call12.v9 main_call12.v10 main_call12.v11 Host.divf,
    StableHlo.TRef.nullary main_call12.cst_3 (constant S_ .f32 0x00000000#32),
    StableHlo.TRef.binary main_call12.v8 main_call12.cst_3 main_call12.v12 (cmpf .ogt),
    StableHlo.TRef.nullary main_call12.cst_4 (constant S_ .f32 0x7FC00000#32),
    StableHlo.TRef.unary main_call12.cst_4 main_call12.call0.v0 id,
    StableHlo.TRef.unary main_call12.call0.v0 main_call12.call0.v1 (broadcastInDim S256 ![] bcast_S_S256),
    StableHlo.TRef.ternary main_call12.v12 main_call12.v11 main_call12.call0.v1 main_call12.call0.v2 (fun p a b => select (broadcastInDim S256 ![] bcast_S_S256 p) a b),
    StableHlo.unary main_v274 main_v276 (broadcastInDim S1x256 ![1] bcast_S256_S1x256_1 : (⟨S256, .f32⟩ : BufTy).Contents (Elt F) → (⟨S1x256, .f32⟩ : BufTy).Contents (Elt F)),
    StableHlo.unary main_v276 main_v277 (broadcastInDim S50000x256 ![0, 1] bcast_S1x256_S50000x256_0_1 : (⟨S1x256, .f32⟩ : BufTy).Contents (Elt F) → (⟨S50000x256, .f32⟩ : BufTy).Contents (Elt F)),
    StableHlo.binary main_v267 main_v277 main_v278 (subf : (⟨S50000x256, .f32⟩ : BufTy).Contents (Elt F) → (⟨S50000x256, .f32⟩ : BufTy).Contents (Elt F) → (⟨S50000x256, .f32⟩ : BufTy).Contents (Elt F)),
    StableHlo.unary main_v269 main_v279 (broadcastInDim S1x256 ![1] bcast_S256_S1x256_1 : (⟨S256, .f32⟩ : BufTy).Contents (Elt F) → (⟨S1x256, .f32⟩ : BufTy).Contents (Elt F)),
    StableHlo.unary main_v279 main_v280 (broadcastInDim S50000x256 ![0, 1] bcast_S1x256_S50000x256_0_1 : (⟨S1x256, .f32⟩ : BufTy).Contents (Elt F) → (⟨S50000x256, .f32⟩ : BufTy).Contents (Elt F)),
    StableHlo.binary main_v280 main_v278 main_v281 (mulf : (⟨S50000x256, .f32⟩ : BufTy).Contents (Elt F) → (⟨S50000x256, .f32⟩ : BufTy).Contents (Elt F) → (⟨S50000x256, .f32⟩ : BufTy).Contents (Elt F)),
    StableHlo.nullary main_cst_41 (constant S_ .f32 0x3727C5AC#32),
    StableHlo.unary main_cst_41 main_v282 (broadcastInDim S256 ![] bcast_S_S256 : (⟨S_, .f32⟩ : BufTy).Contents (Elt F) → (⟨S256, .f32⟩ : BufTy).Contents (Elt F)),
    StableHlo.binary main_v275 main_v282 main_v283 (addf : (⟨S256, .f32⟩ : BufTy).Contents (Elt F) → (⟨S256, .f32⟩ : BufTy).Contents (Elt F) → (⟨S256, .f32⟩ : BufTy).Contents (Elt F)),
    StableHlo.unary main_v283 main_v284 (Host.rsqrt : (⟨S256, .f32⟩ : BufTy).Contents (Elt F) → (⟨S256, .f32⟩ : BufTy).Contents (Elt F)),
    StableHlo.unary main_v284 main_v285 (broadcastInDim S1x256 ![1] bcast_S256_S1x256_1 : (⟨S256, .f32⟩ : BufTy).Contents (Elt F) → (⟨S1x256, .f32⟩ : BufTy).Contents (Elt F)),
    StableHlo.unary main_v285 main_v286 (broadcastInDim S50000x256 ![0, 1] bcast_S1x256_S50000x256_0_1 : (⟨S1x256, .f32⟩ : BufTy).Contents (Elt F) → (⟨S50000x256, .f32⟩ : BufTy).Contents (Elt F)),
    StableHlo.binary main_v281 main_v286 main_v287 (mulf : (⟨S50000x256, .f32⟩ : BufTy).Contents (Elt F) → (⟨S50000x256, .f32⟩ : BufTy).Contents (Elt F) → (⟨S50000x256, .f32⟩ : BufTy).Contents (Elt F)),
    StableHlo.unary main_v271 main_v288 (broadcastInDim S1x256 ![1] bcast_S256_S1x256_1 : (⟨S256, .f32⟩ : BufTy).Contents (Elt F) → (⟨S1x256, .f32⟩ : BufTy).Contents (Elt F)),
    StableHlo.unary main_v288 main_v289 (broadcastInDim S50000x256 ![0, 1] bcast_S1x256_S50000x256_0_1 : (⟨S1x256, .f32⟩ : BufTy).Contents (Elt F) → (⟨S50000x256, .f32⟩ : BufTy).Contents (Elt F)),
    StableHlo.binary main_v287 main_v289 main_v290 (addf : (⟨S50000x256, .f32⟩ : BufTy).Contents (Elt F) → (⟨S50000x256, .f32⟩ : BufTy).Contents (Elt F) → (⟨S50000x256, .f32⟩ : BufTy).Contents (Elt F)),
    StableHlo.TRef.nullary main_call13.cst (constant S_ .f32 0x00000000#32),
    StableHlo.TRef.unary main_call13.cst main_call13.v0 (broadcastInDim S50000x256 ![] bcast_S_S50000x256),
    StableHlo.TRef.binary (.of main_v290 : StableHlo.TRef sig ⟨S50000x256, .f32⟩) main_call13.v0 main_call13.v1 maximumf,
    StableHlo.unary main_arg6 main_v292 ((extractStridedSlice S1x256x128 ![3, 0, 0] · slices_S5x256x128_S1x256x128_3_0_0) : (⟨S5x256x128, .f32⟩ : BufTy).Contents (Elt F) → (⟨S1x256x128, .f32⟩ : BufTy).Contents (Elt F)),
    StableHlo.reshape main_v292 main_v293 rfl shapeCasts_S1x256x128_S256x128,
    StableHlo.binary main_v291 main_v293 main_v294 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg7 main_v295 ((extractStridedSlice S1x128 ![3, 0] · slices_S5x128_S1x128_3_0) : (⟨S5x128, .f32⟩ : BufTy).Contents (Elt F) → (⟨S1x128, .f32⟩ : BufTy).Contents (Elt F)),
    StableHlo.reshape main_v295 main_v296 rfl shapeCasts_S1x128_S128,
    StableHlo.unary main_v296 main_v297 (broadcastInDim S1x128 ![1] bcast_S128_S1x128_1 : (⟨S128, .f32⟩ : BufTy).Contents (Elt F) → (⟨S1x128, .f32⟩ : BufTy).Contents (Elt F)),
    StableHlo.unary main_v297 main_v298 (broadcastInDim S50000x128 ![0, 1] bcast_S1x128_S50000x128_0_1 : (⟨S1x128, .f32⟩ : BufTy).Contents (Elt F) → (⟨S50000x128, .f32⟩ : BufTy).Contents (Elt F)),
    StableHlo.binary main_v294 main_v298 main_v299 (addf : (⟨S50000x128, .f32⟩ : BufTy).Contents (Elt F) → (⟨S50000x128, .f32⟩ : BufTy).Contents (Elt F) → (⟨S50000x128, .f32⟩ : BufTy).Contents (Elt F)),
    StableHlo.unary main_arg9 main_v300 ((extractStridedSlice S1x128 ![3, 0] · slices_S5x128_S1x128_3_0) : (⟨S5x128, .f32⟩ : BufTy).Contents (Elt F) → (⟨S1x128, .f32⟩ : BufTy).Contents (Elt F)),
    StableHlo.reshape main_v300 main_v301 rfl shapeCasts_S1x128_S128,
    StableHlo.unary main_arg10 main_v302 ((extractStridedSlice S1x128 ![3, 0] · slices_S5x128_S1x128_3_0) : (⟨S5x128, .f32⟩ : BufTy).Contents (Elt F) → (⟨S1x128, .f32⟩ : BufTy).Contents (Elt F)),
    StableHlo.reshape main_v302 main_v303 rfl shapeCasts_S1x128_S128,
    StableHlo.nullary main_cst_42 (constant S_ .f32 0x00000000#32),
    StableHlo.binary main_v299 main_cst_42 main_v304 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_43 (constant S_ .f32 0x47435000#32),
    StableHlo.unary main_cst_43 main_v305 (broadcastInDim S128 ![] bcast_S_S128 : (⟨S_, .f32⟩ : BufTy).Contents (Elt F) → (⟨S128, .f32⟩ : BufTy).Contents (Elt F)),
    StableHlo.binary main_v304 main_v305 main_v306 (Host.divf : (⟨S128, .f32⟩ : BufTy).Contents (Elt F) → (⟨S128, .f32⟩ : BufTy).Contents (Elt F) → (⟨S128, .f32⟩ : BufTy).Contents (Elt F)),
    StableHlo.nullary main_c_44 (constantI S_ 32 0#32),
    StableHlo.TRef.nullary main_call14.cst (constant S_ .f32 0x00000000#32),
    StableHlo.TRef.binary (.of main_v299 : StableHlo.TRef sig ⟨S50000x128, .f32⟩) main_call14.cst main_call14.v0 (fun x v => Host.reduceAdd x v reducesTo_S50000x128_S128_d0 h_S_),
    StableHlo.TRef.unary main_call14.v0 main_call14.v1 (broadcastInDim S1x128 ![1] bcast_S128_S1x128_1),
    StableHlo.TRef.nullary main_call14.cst_0 (constant S_ .f32 0x47435000#32),
    StableHlo.TRef.unary main_call14.cst_0 main_call14.v2 (broadcastInDim S1x128 ![] bcast_S_S1x128),
    StableHlo.TRef.binary main_call14.v1 main_call14.v2 main_call14.v3 Host.divf,
    StableHlo.TRef.unary main_call14.v3 main_call14.v4 (broadcastInDim S50000x128 ![0, 1] bcast_S1x128_S50000x128_0_1),
    StableHlo.TRef.binary (.of main_v299 : StableHlo.TRef sig ⟨S50000x128, .f32⟩) main_call14.v4 main_call14.v5 subf,
    StableHlo.TRef.binary main_call14.v5 main_call14.v5 main_call14.v6 mulf,
    StableHlo.TRef.unary (.of main_c_44 : StableHlo.TRef sig ⟨S_, .i32⟩) main_call14.v7 (sitofp .f32),
    StableHlo.TRef.nullary main_call14.cst_1 (constant S_ .f32 0x47435000#32),
    StableHlo.TRef.binary main_call14.cst_1 main_call14.v7 main_call14.v8 subf,
    StableHlo.TRef.nullary main_call14.cst_2 (constant S_ .f32 0x00000000#32),
    StableHlo.TRef.binary main_call14.v6 main_call14.cst_2 main_call14.v9 (fun x v => Host.reduceAdd x v reducesTo_S50000x128_S128_d0 h_S_),
    StableHlo.TRef.unary main_call14.v8 main_call14.v10 (broadcastInDim S128 ![] bcast_S_S128),
    StableHlo.TRef.binary main_call14.v9 main_call14.v10 main_call14.v11 Host.divf,
    StableHlo.TRef.nullary main_call14.cst_3 (constant S_ .f32 0x00000000#32),
    StableHlo.TRef.binary main_call14.v8 main_call14.cst_3 main_call14.v12 (cmpf .ogt),
    StableHlo.TRef.nullary main_call14.cst_4 (constant S_ .f32 0x7FC00000#32),
    StableHlo.TRef.unary main_call14.cst_4 main_call14.call0.v0 id,
    StableHlo.TRef.unary main_call14.call0.v0 main_call14.call0.v1 (broadcastInDim S128 ![] bcast_S_S128),
    StableHlo.TRef.ternary main_call14.v12 main_call14.v11 main_call14.call0.v1 main_call14.call0.v2 (fun p a b => select (broadcastInDim S128 ![] bcast_S_S128 p) a b),
    StableHlo.unary main_v306 main_v308 (broadcastInDim S1x128 ![1] bcast_S128_S1x128_1 : (⟨S128, .f32⟩ : BufTy).Contents (Elt F) → (⟨S1x128, .f32⟩ : BufTy).Contents (Elt F)),
    StableHlo.unary main_v308 main_v309 (broadcastInDim S50000x128 ![0, 1] bcast_S1x128_S50000x128_0_1 : (⟨S1x128, .f32⟩ : BufTy).Contents (Elt F) → (⟨S50000x128, .f32⟩ : BufTy).Contents (Elt F)),
    StableHlo.binary main_v299 main_v309 main_v310 (subf : (⟨S50000x128, .f32⟩ : BufTy).Contents (Elt F) → (⟨S50000x128, .f32⟩ : BufTy).Contents (Elt F) → (⟨S50000x128, .f32⟩ : BufTy).Contents (Elt F)),
    StableHlo.unary main_v301 main_v311 (broadcastInDim S1x128 ![1] bcast_S128_S1x128_1 : (⟨S128, .f32⟩ : BufTy).Contents (Elt F) → (⟨S1x128, .f32⟩ : BufTy).Contents (Elt F)),
    StableHlo.unary main_v311 main_v312 (broadcastInDim S50000x128 ![0, 1] bcast_S1x128_S50000x128_0_1 : (⟨S1x128, .f32⟩ : BufTy).Contents (Elt F) → (⟨S50000x128, .f32⟩ : BufTy).Contents (Elt F)) ]

theorem p5_sub : (p5 : List (HloOp τ sig (Elt F))).Forall fun op => op.bufs ⊆ StableHlo.tcRefs τ sig :=
  ⟨StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub ..⟩

/-- The 83 operations of the printed window main_part6, calls listed inline. -/
abbrev p6 : List (HloOp τ sig (Elt F)) :=
  [ StableHlo.binary main_v312 main_v310 main_v313 (mulf : (⟨S50000x128, .f32⟩ : BufTy).Contents (Elt F) → (⟨S50000x128, .f32⟩ : BufTy).Contents (Elt F) → (⟨S50000x128, .f32⟩ : BufTy).Contents (Elt F)),
    StableHlo.nullary main_cst_45 (constant S_ .f32 0x3727C5AC#32),
    StableHlo.unary main_cst_45 main_v314 (broadcastInDim S128 ![] bcast_S_S128 : (⟨S_, .f32⟩ : BufTy).Contents (Elt F) → (⟨S128, .f32⟩ : BufTy).Contents (Elt F)),
    StableHlo.binary main_v307 main_v314 main_v315 (addf : (⟨S128, .f32⟩ : BufTy).Contents (Elt F) → (⟨S128, .f32⟩ : BufTy).Contents (Elt F) → (⟨S128, .f32⟩ : BufTy).Contents (Elt F)),
    StableHlo.unary main_v315 main_v316 (Host.rsqrt : (⟨S128, .f32⟩ : BufTy).Contents (Elt F) → (⟨S128, .f32⟩ : BufTy).Contents (Elt F)),
    StableHlo.unary main_v316 main_v317 (broadcastInDim S1x128 ![1] bcast_S128_S1x128_1 : (⟨S128, .f32⟩ : BufTy).Contents (Elt F) → (⟨S1x128, .f32⟩ : BufTy).Contents (Elt F)),
    StableHlo.unary main_v317 main_v318 (broadcastInDim S50000x128 ![0, 1] bcast_S1x128_S50000x128_0_1 : (⟨S1x128, .f32⟩ : BufTy).Contents (Elt F) → (⟨S50000x128, .f32⟩ : BufTy).Contents (Elt F)),
    StableHlo.binary main_v313 main_v318 main_v319 (mulf : (⟨S50000x128, .f32⟩ : BufTy).Contents (Elt F) → (⟨S50000x128, .f32⟩ : BufTy).Contents (Elt F) → (⟨S50000x128, .f32⟩ : BufTy).Contents (Elt F)),
    StableHlo.unary main_v303 main_v320 (broadcastInDim S1x128 ![1] bcast_S128_S1x128_1 : (⟨S128, .f32⟩ : BufTy).Contents (Elt F) → (⟨S1x128, .f32⟩ : BufTy).Contents (Elt F)),
    StableHlo.unary main_v320 main_v321 (broadcastInDim S50000x128 ![0, 1] bcast_S1x128_S50000x128_0_1 : (⟨S1x128, .f32⟩ : BufTy).Contents (Elt F) → (⟨S50000x128, .f32⟩ : BufTy).Contents (Elt F)),
    StableHlo.binary main_v319 main_v321 main_v322 (addf : (⟨S50000x128, .f32⟩ : BufTy).Contents (Elt F) → (⟨S50000x128, .f32⟩ : BufTy).Contents (Elt F) → (⟨S50000x128, .f32⟩ : BufTy).Contents (Elt F)),
    StableHlo.TRef.nullary main_call15.cst (constant S_ .f32 0x00000000#32),
    StableHlo.TRef.unary main_call15.cst main_call15.v0 (broadcastInDim S50000x128 ![] bcast_S_S50000x128),
    StableHlo.TRef.binary (.of main_v322 : StableHlo.TRef sig ⟨S50000x128, .f32⟩) main_call15.v0 main_call15.v1 maximumf,
    StableHlo.nullary main_c_46 (constantI S_ 32 0#32),
    StableHlo.unary main_c_46 main_v324 (broadcastInDim S800000 ![] bcast_S_S800000 : (⟨S_, .i32⟩ : BufTy).Contents (Elt F) → (⟨S800000, .i32⟩ : BufTy).Contents (Elt F)),
    StableHlo.binary main_v1 main_v324 main_v325 (cmpi .slt : (⟨S800000, .i32⟩ : BufTy).Contents (Elt F) → (⟨S800000, .i32⟩ : BufTy).Contents (Elt F) → (⟨S800000, .i1⟩ : BufTy).Contents (Elt F)),
    StableHlo.nullary main_c_47 (constantI S_ 32 50000#32),
    StableHlo.unary main_c_47 main_v326 (broadcastInDim S800000 ![] bcast_S_S800000 : (⟨S_, .i32⟩ : BufTy).Contents (Elt F) → (⟨S800000, .i32⟩ : BufTy).Contents (Elt F)),
    StableHlo.binary main_v1 main_v326 main_v327 (addi : (⟨S800000, .i32⟩ : BufTy).Contents (Elt F) → (⟨S800000, .i32⟩ : BufTy).Contents (Elt F) → (⟨S800000, .i32⟩ : BufTy).Contents (Elt F)),
    StableHlo.ternary main_v325 main_v327 main_v1 main_v328 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v328 main_v329 (broadcastInDim S800000x1 ![0] bcast_S800000_S800000x1_0 : (⟨S800000, .i32⟩ : BufTy).Contents (Elt F) → (⟨S800000x1, .i32⟩ : BufTy).Contents (Elt F)),
    StableHlo.binary main_v323 main_v329 main_v330 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_48 (constant S_ .f32 0x00000000#32),
    StableHlo.unary main_cst_48 main_v331 (broadcastInDim S50000x128 ![] bcast_S_S50000x128 : (⟨S_, .f32⟩ : BufTy).Contents (Elt F) → (⟨S50000x128, .f32⟩ : BufTy).Contents (Elt F)),
    StableHlo.unary main_v3 main_v332 (broadcastInDim S800000x1 ![0] bcast_S800000_S800000x1_0 : (⟨S800000, .i32⟩ : BufTy).Contents (Elt F) → (⟨S800000x1, .i32⟩ : BufTy).Contents (Elt F)),
    StableHlo.ternary main_v331 main_v332 main_v330 main_v333 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_arg8 main_v334 ((extractStridedSlice S1 ![4] · slices_S5_S1_4) : (⟨S5, .f32⟩ : BufTy).Contents (Elt F) → (⟨S1, .f32⟩ : BufTy).Contents (Elt F)),
    StableHlo.reshape main_v334 main_v335 rfl shapeCasts_S1_S_,
    StableHlo.nullary main_cst_49 (constant S_ .f32 0x3F800000#32),
    StableHlo.binary main_cst_49 main_v335 main_v336 (addf : (⟨S_, .f32⟩ : BufTy).Contents (Elt F) → (⟨S_, .f32⟩ : BufTy).Contents (Elt F) → (⟨S_, .f32⟩ : BufTy).Contents (Elt F)),
    StableHlo.unary main_v336 main_v337 (broadcastInDim S50000x128 ![] bcast_S_S50000x128 : (⟨S_, .f32⟩ : BufTy).Contents (Elt F) → (⟨S50000x128, .f32⟩ : BufTy).Contents (Elt F)),
    StableHlo.binary main_v337 main_v323 main_v338 (mulf : (⟨S50000x128, .f32⟩ : BufTy).Contents (Elt F) → (⟨S50000x128, .f32⟩ : BufTy).Contents (Elt F) → (⟨S50000x128, .f32⟩ : BufTy).Contents (Elt F)),
    StableHlo.binary main_v338 main_v333 main_v339 (addf : (⟨S50000x128, .f32⟩ : BufTy).Contents (Elt F) → (⟨S50000x128, .f32⟩ : BufTy).Contents (Elt F) → (⟨S50000x128, .f32⟩ : BufTy).Contents (Elt F)),
    StableHlo.unary main_arg2 main_v340 ((extractStridedSlice S1x128x256 ![4, 0, 0] · slices_S5x128x256_S1x128x256_4_0_0) : (⟨S5x128x256, .f32⟩ : BufTy).Contents (Elt F) → (⟨S1x128x256, .f32⟩ : BufTy).Contents (Elt F)),
    StableHlo.reshape main_v340 main_v341 rfl shapeCasts_S1x128x256_S128x256,
    StableHlo.binary main_v339 main_v341 main_v342 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.unary main_arg3 main_v343 ((extractStridedSlice S1x256 ![4, 0] · slices_S5x256_S1x256_4_0) : (⟨S5x256, .f32⟩ : BufTy).Contents (Elt F) → (⟨S1x256, .f32⟩ : BufTy).Contents (Elt F)),
    StableHlo.reshape main_v343 main_v344 rfl shapeCasts_S1x256_S256,
    StableHlo.unary main_v344 main_v345 (broadcastInDim S1x256 ![1] bcast_S256_S1x256_1 : (⟨S256, .f32⟩ : BufTy).Contents (Elt F) → (⟨S1x256, .f32⟩ : BufTy).Contents (Elt F)),
    StableHlo.unary main_v345 main_v346 (broadcastInDim S50000x256 ![0, 1] bcast_S1x256_S50000x256_0_1 : (⟨S1x256, .f32⟩ : BufTy).Contents (Elt F) → (⟨S50000x256, .f32⟩ : BufTy).Contents (Elt F)),
    StableHlo.binary main_v342 main_v346 main_v347 (addf : (⟨S50000x256, .f32⟩ : BufTy).Contents (Elt F) → (⟨S50000x256, .f32⟩ : BufTy).Contents (Elt F) → (⟨S50000x256, .f32⟩ : BufTy).Contents (Elt F)),
    StableHlo.unary main_arg4 main_v348 ((extractStridedSlice S1x256 ![4, 0] · slices_S5x256_S1x256_4_0) : (⟨S5x256, .f32⟩ : BufTy).Contents (Elt F) → (⟨S1x256, .f32⟩ : BufTy).Contents (Elt F)),
    StableHlo.reshape main_v348 main_v349 rfl shapeCasts_S1x256_S256,
    StableHlo.unary main_arg5 main_v350 ((extractStridedSlice S1x256 ![4, 0] · slices_S5x256_S1x256_4_0) : (⟨S5x256, .f32⟩ : BufTy).Contents (Elt F) → (⟨S1x256, .f32⟩ : BufTy).Contents (Elt F)),
    StableHlo.reshape main_v350 main_v351 rfl shapeCasts_S1x256_S256,
    StableHlo.nullary main_cst_50 (constant S_ .f32 0x00000000#32),
    StableHlo.binary main_v347 main_cst_50 main_v352 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_51 (constant S_ .f32 0x47435000#32),
    StableHlo.unary main_cst_51 main_v353 (broadcastInDim S256 ![] bcast_S_S256 : (⟨S_, .f32⟩ : BufTy).Contents (Elt F) → (⟨S256, .f32⟩ : BufTy).Contents (Elt F)),
    StableHlo.binary main_v352 main_v353 main_v354 (Host.divf : (⟨S256, .f32⟩ : BufTy).Contents (Elt F) → (⟨S256, .f32⟩ : BufTy).Contents (Elt F) → (⟨S256, .f32⟩ : BufTy).Contents (Elt F)),
    StableHlo.nullary main_c_52 (constantI S_ 32 0#32),
    StableHlo.TRef.nullary main_call16.cst (constant S_ .f32 0x00000000#32),
    StableHlo.TRef.binary (.of main_v347 : StableHlo.TRef sig ⟨S50000x256, .f32⟩) main_call16.cst main_call16.v0 (fun x v => Host.reduceAdd x v reducesTo_S50000x256_S256_d0 h_S_),
    StableHlo.TRef.unary main_call16.v0 main_call16.v1 (broadcastInDim S1x256 ![1] bcast_S256_S1x256_1),
    StableHlo.TRef.nullary main_call16.cst_0 (constant S_ .f32 0x47435000#32),
    StableHlo.TRef.unary main_call16.cst_0 main_call16.v2 (broadcastInDim S1x256 ![] bcast_S_S1x256),
    StableHlo.TRef.binary main_call16.v1 main_call16.v2 main_call16.v3 Host.divf,
    StableHlo.TRef.unary main_call16.v3 main_call16.v4 (broadcastInDim S50000x256 ![0, 1] bcast_S1x256_S50000x256_0_1),
    StableHlo.TRef.binary (.of main_v347 : StableHlo.TRef sig ⟨S50000x256, .f32⟩) main_call16.v4 main_call16.v5 subf,
    StableHlo.TRef.binary main_call16.v5 main_call16.v5 main_call16.v6 mulf,
    StableHlo.TRef.unary (.of main_c_52 : StableHlo.TRef sig ⟨S_, .i32⟩) main_call16.v7 (sitofp .f32),
    StableHlo.TRef.nullary main_call16.cst_1 (constant S_ .f32 0x47435000#32),
    StableHlo.TRef.binary main_call16.cst_1 main_call16.v7 main_call16.v8 subf,
    StableHlo.TRef.nullary main_call16.cst_2 (constant S_ .f32 0x00000000#32),
    StableHlo.TRef.binary main_call16.v6 main_call16.cst_2 main_call16.v9 (fun x v => Host.reduceAdd x v reducesTo_S50000x256_S256_d0 h_S_),
    StableHlo.TRef.unary main_call16.v8 main_call16.v10 (broadcastInDim S256 ![] bcast_S_S256),
    StableHlo.TRef.binary main_call16.v9 main_call16.v10 main_call16.v11 Host.divf,
    StableHlo.TRef.nullary main_call16.cst_3 (constant S_ .f32 0x00000000#32),
    StableHlo.TRef.binary main_call16.v8 main_call16.cst_3 main_call16.v12 (cmpf .ogt),
    StableHlo.TRef.nullary main_call16.cst_4 (constant S_ .f32 0x7FC00000#32),
    StableHlo.TRef.unary main_call16.cst_4 main_call16.call0.v0 id,
    StableHlo.TRef.unary main_call16.call0.v0 main_call16.call0.v1 (broadcastInDim S256 ![] bcast_S_S256),
    StableHlo.TRef.ternary main_call16.v12 main_call16.v11 main_call16.call0.v1 main_call16.call0.v2 (fun p a b => select (broadcastInDim S256 ![] bcast_S_S256 p) a b),
    StableHlo.unary main_v354 main_v356 (broadcastInDim S1x256 ![1] bcast_S256_S1x256_1 : (⟨S256, .f32⟩ : BufTy).Contents (Elt F) → (⟨S1x256, .f32⟩ : BufTy).Contents (Elt F)),
    StableHlo.unary main_v356 main_v357 (broadcastInDim S50000x256 ![0, 1] bcast_S1x256_S50000x256_0_1 : (⟨S1x256, .f32⟩ : BufTy).Contents (Elt F) → (⟨S50000x256, .f32⟩ : BufTy).Contents (Elt F)),
    StableHlo.binary main_v347 main_v357 main_v358 (subf : (⟨S50000x256, .f32⟩ : BufTy).Contents (Elt F) → (⟨S50000x256, .f32⟩ : BufTy).Contents (Elt F) → (⟨S50000x256, .f32⟩ : BufTy).Contents (Elt F)),
    StableHlo.unary main_v349 main_v359 (broadcastInDim S1x256 ![1] bcast_S256_S1x256_1 : (⟨S256, .f32⟩ : BufTy).Contents (Elt F) → (⟨S1x256, .f32⟩ : BufTy).Contents (Elt F)),
    StableHlo.unary main_v359 main_v360 (broadcastInDim S50000x256 ![0, 1] bcast_S1x256_S50000x256_0_1 : (⟨S1x256, .f32⟩ : BufTy).Contents (Elt F) → (⟨S50000x256, .f32⟩ : BufTy).Contents (Elt F)),
    StableHlo.binary main_v360 main_v358 main_v361 (mulf : (⟨S50000x256, .f32⟩ : BufTy).Contents (Elt F) → (⟨S50000x256, .f32⟩ : BufTy).Contents (Elt F) → (⟨S50000x256, .f32⟩ : BufTy).Contents (Elt F)),
    StableHlo.nullary main_cst_53 (constant S_ .f32 0x3727C5AC#32),
    StableHlo.unary main_cst_53 main_v362 (broadcastInDim S256 ![] bcast_S_S256 : (⟨S_, .f32⟩ : BufTy).Contents (Elt F) → (⟨S256, .f32⟩ : BufTy).Contents (Elt F)),
    StableHlo.binary main_v355 main_v362 main_v363 (addf : (⟨S256, .f32⟩ : BufTy).Contents (Elt F) → (⟨S256, .f32⟩ : BufTy).Contents (Elt F) → (⟨S256, .f32⟩ : BufTy).Contents (Elt F)) ]

theorem p6_sub : (p6 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.reshape_bufs_sub .., StableHlo.nullary_bufs_sub .., StableHlo.binary_bufs_sub .., StableHlo.unary_bufs_sub .., StableHlo.binary_bufs_sub .., StableHlo.binary_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub ..⟩

/-- The 88 operations of the printed window main_part7, calls listed inline. -/
abbrev p7 : List (HloOp τ sig (Elt F)) :=
  [ StableHlo.unary main_v363 main_v364 (Host.rsqrt : (⟨S256, .f32⟩ : BufTy).Contents (Elt F) → (⟨S256, .f32⟩ : BufTy).Contents (Elt F)),
    StableHlo.unary main_v364 main_v365 (broadcastInDim S1x256 ![1] bcast_S256_S1x256_1 : (⟨S256, .f32⟩ : BufTy).Contents (Elt F) → (⟨S1x256, .f32⟩ : BufTy).Contents (Elt F)),
    StableHlo.unary main_v365 main_v366 (broadcastInDim S50000x256 ![0, 1] bcast_S1x256_S50000x256_0_1 : (⟨S1x256, .f32⟩ : BufTy).Contents (Elt F) → (⟨S50000x256, .f32⟩ : BufTy).Contents (Elt F)),
    StableHlo.binary main_v361 main_v366 main_v367 (mulf : (⟨S50000x256, .f32⟩ : BufTy).Contents (Elt F) → (⟨S50000x256, .f32⟩ : BufTy).Contents (Elt F) → (⟨S50000x256, .f32⟩ : BufTy).Contents (Elt F)),
    StableHlo.unary main_v351 main_v368 (broadcastInDim S1x256 ![1] bcast_S256_S1x256_1 : (⟨S256, .f32⟩ : BufTy).Contents (Elt F) → (⟨S1x256, .f32⟩ : BufTy).Contents (Elt F)),
    StableHlo.unary main_v368 main_v369 (broadcastInDim S50000x256 ![0, 1] bcast_S1x256_S50000x256_0_1 : (⟨S1x256, .f32⟩ : BufTy).Contents (Elt F) → (⟨S50000x256, .f32⟩ : BufTy).Contents (Elt F)),
    StableHlo.binary main_v367 main_v369 main_v370 (addf : (⟨S50000x256, .f32⟩ : BufTy).Contents (Elt F) → (⟨S50000x256, .f32⟩ : BufTy).Contents (Elt F) → (⟨S50000x256, .f32⟩ : BufTy).Contents (Elt F)),
    StableHlo.TRef.nullary main_call17.cst (constant S_ .f32 0x00000000#32),
    StableHlo.TRef.unary main_call17.cst main_call17.v0 (broadcastInDim S50000x256 ![] bcast_S_S50000x256),
    StableHlo.TRef.binary (.of main_v370 : StableHlo.TRef sig ⟨S50000x256, .f32⟩) main_call17.v0 main_call17.v1 maximumf,
    StableHlo.unary main_arg6 main_v372 ((extractStridedSlice S1x256x128 ![4, 0, 0] · slices_S5x256x128_S1x256x128_4_0_0) : (⟨S5x256x128, .f32⟩ : BufTy).Contents (Elt F) → (⟨S1x256x128, .f32⟩ : BufTy).Contents (Elt F)),
    StableHlo.reshape main_v372 main_v373 rfl shapeCasts_S1x256x128_S256x128,
    StableHlo.binary main_v371 main_v373 main_v374 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg7 main_v375 ((extractStridedSlice S1x128 ![4, 0] · slices_S5x128_S1x128_4_0) : (⟨S5x128, .f32⟩ : BufTy).Contents (Elt F) → (⟨S1x128, .f32⟩ : BufTy).Contents (Elt F)),
    StableHlo.reshape main_v375 main_v376 rfl shapeCasts_S1x128_S128,
    StableHlo.unary main_v376 main_v377 (broadcastInDim S1x128 ![1] bcast_S128_S1x128_1 : (⟨S128, .f32⟩ : BufTy).Contents (Elt F) → (⟨S1x128, .f32⟩ : BufTy).Contents (Elt F)),
    StableHlo.unary main_v377 main_v378 (broadcastInDim S50000x128 ![0, 1] bcast_S1x128_S50000x128_0_1 : (⟨S1x128, .f32⟩ : BufTy).Contents (Elt F) → (⟨S50000x128, .f32⟩ : BufTy).Contents (Elt F)),
    StableHlo.binary main_v374 main_v378 main_v379 (addf : (⟨S50000x128, .f32⟩ : BufTy).Contents (Elt F) → (⟨S50000x128, .f32⟩ : BufTy).Contents (Elt F) → (⟨S50000x128, .f32⟩ : BufTy).Contents (Elt F)),
    StableHlo.binary main_v379 main_arg11 main_v380 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg12 main_v381 (broadcastInDim S1x128 ![1] bcast_S128_S1x128_1 : (⟨S128, .f32⟩ : BufTy).Contents (Elt F) → (⟨S1x128, .f32⟩ : BufTy).Contents (Elt F)),
    StableHlo.unary main_v381 main_v382 (broadcastInDim S50000x128 ![0, 1] bcast_S1x128_S50000x128_0_1 : (⟨S1x128, .f32⟩ : BufTy).Contents (Elt F) → (⟨S50000x128, .f32⟩ : BufTy).Contents (Elt F)),
    StableHlo.binary main_v380 main_v382 main_v383 (addf : (⟨S50000x128, .f32⟩ : BufTy).Contents (Elt F) → (⟨S50000x128, .f32⟩ : BufTy).Contents (Elt F) → (⟨S50000x128, .f32⟩ : BufTy).Contents (Elt F)),
    StableHlo.nullary main_cst_54 (constant S_ .f32 0x00000000#32),
    StableHlo.binary main_v383 main_cst_54 main_v384 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_55 (constant S_ .f32 0x47435000#32),
    StableHlo.unary main_cst_55 main_v385 (broadcastInDim S128 ![] bcast_S_S128 : (⟨S_, .f32⟩ : BufTy).Contents (Elt F) → (⟨S128, .f32⟩ : BufTy).Contents (Elt F)),
    StableHlo.binary main_v384 main_v385 main_v386 (Host.divf : (⟨S128, .f32⟩ : BufTy).Contents (Elt F) → (⟨S128, .f32⟩ : BufTy).Contents (Elt F) → (⟨S128, .f32⟩ : BufTy).Contents (Elt F)),
    StableHlo.nullary main_c_56 (constantI S_ 32 0#32),
    StableHlo.TRef.nullary main_call18.cst (constant S_ .f32 0x00000000#32),
    StableHlo.TRef.binary (.of main_v383 : StableHlo.TRef sig ⟨S50000x128, .f32⟩) main_call18.cst main_call18.v0 (fun x v => Host.reduceAdd x v reducesTo_S50000x128_S128_d0 h_S_),
    StableHlo.TRef.unary main_call18.v0 main_call18.v1 (broadcastInDim S1x128 ![1] bcast_S128_S1x128_1),
    StableHlo.TRef.nullary main_call18.cst_0 (constant S_ .f32 0x47435000#32),
    StableHlo.TRef.unary main_call18.cst_0 main_call18.v2 (broadcastInDim S1x128 ![] bcast_S_S1x128),
    StableHlo.TRef.binary main_call18.v1 main_call18.v2 main_call18.v3 Host.divf,
    StableHlo.TRef.unary main_call18.v3 main_call18.v4 (broadcastInDim S50000x128 ![0, 1] bcast_S1x128_S50000x128_0_1),
    StableHlo.TRef.binary (.of main_v383 : StableHlo.TRef sig ⟨S50000x128, .f32⟩) main_call18.v4 main_call18.v5 subf,
    StableHlo.TRef.binary main_call18.v5 main_call18.v5 main_call18.v6 mulf,
    StableHlo.TRef.unary (.of main_c_56 : StableHlo.TRef sig ⟨S_, .i32⟩) main_call18.v7 (sitofp .f32),
    StableHlo.TRef.nullary main_call18.cst_1 (constant S_ .f32 0x47435000#32),
    StableHlo.TRef.binary main_call18.cst_1 main_call18.v7 main_call18.v8 subf,
    StableHlo.TRef.nullary main_call18.cst_2 (constant S_ .f32 0x00000000#32),
    StableHlo.TRef.binary main_call18.v6 main_call18.cst_2 main_call18.v9 (fun x v => Host.reduceAdd x v reducesTo_S50000x128_S128_d0 h_S_),
    StableHlo.TRef.unary main_call18.v8 main_call18.v10 (broadcastInDim S128 ![] bcast_S_S128),
    StableHlo.TRef.binary main_call18.v9 main_call18.v10 main_call18.v11 Host.divf,
    StableHlo.TRef.nullary main_call18.cst_3 (constant S_ .f32 0x00000000#32),
    StableHlo.TRef.binary main_call18.v8 main_call18.cst_3 main_call18.v12 (cmpf .ogt),
    StableHlo.TRef.nullary main_call18.cst_4 (constant S_ .f32 0x7FC00000#32),
    StableHlo.TRef.unary main_call18.cst_4 main_call18.call0.v0 id,
    StableHlo.TRef.unary main_call18.call0.v0 main_call18.call0.v1 (broadcastInDim S128 ![] bcast_S_S128),
    StableHlo.TRef.ternary main_call18.v12 main_call18.v11 main_call18.call0.v1 main_call18.call0.v2 (fun p a b => select (broadcastInDim S128 ![] bcast_S_S128 p) a b),
    StableHlo.unary main_v386 main_v388 (broadcastInDim S1x128 ![1] bcast_S128_S1x128_1 : (⟨S128, .f32⟩ : BufTy).Contents (Elt F) → (⟨S1x128, .f32⟩ : BufTy).Contents (Elt F)),
    StableHlo.unary main_v388 main_v389 (broadcastInDim S50000x128 ![0, 1] bcast_S1x128_S50000x128_0_1 : (⟨S1x128, .f32⟩ : BufTy).Contents (Elt F) → (⟨S50000x128, .f32⟩ : BufTy).Contents (Elt F)),
    StableHlo.binary main_v383 main_v389 main_v390 (subf : (⟨S50000x128, .f32⟩ : BufTy).Contents (Elt F) → (⟨S50000x128, .f32⟩ : BufTy).Contents (Elt F) → (⟨S50000x128, .f32⟩ : BufTy).Contents (Elt F)),
    StableHlo.unary main_arg13 main_v391 (broadcastInDim S1x128 ![1] bcast_S128_S1x128_1 : (⟨S128, .f32⟩ : BufTy).Contents (Elt F) → (⟨S1x128, .f32⟩ : BufTy).Contents (Elt F)),
    StableHlo.unary main_v391 main_v392 (broadcastInDim S50000x128 ![0, 1] bcast_S1x128_S50000x128_0_1 : (⟨S1x128, .f32⟩ : BufTy).Contents (Elt F) → (⟨S50000x128, .f32⟩ : BufTy).Contents (Elt F)),
    StableHlo.binary main_v392 main_v390 main_v393 (mulf : (⟨S50000x128, .f32⟩ : BufTy).Contents (Elt F) → (⟨S50000x128, .f32⟩ : BufTy).Contents (Elt F) → (⟨S50000x128, .f32⟩ : BufTy).Contents (Elt F)),
    StableHlo.nullary main_cst_57 (constant S_ .f32 0x3727C5AC#32),
    StableHlo.unary main_cst_57 main_v394 (broadcastInDim S128 ![] bcast_S_S128 : (⟨S_, .f32⟩ : BufTy).Contents (Elt F) → (⟨S128, .f32⟩ : BufTy).Contents (Elt F)),
    StableHlo.binary main_v387 main_v394 main_v395 (addf : (⟨S128, .f32⟩ : BufTy).Contents (Elt F) → (⟨S128, .f32⟩ : BufTy).Contents (Elt F) → (⟨S128, .f32⟩ : BufTy).Contents (Elt F)),
    StableHlo.unary main_v395 main_v396 (Host.rsqrt : (⟨S128, .f32⟩ : BufTy).Contents (Elt F) → (⟨S128, .f32⟩ : BufTy).Contents (Elt F)),
    StableHlo.unary main_v396 main_v397 (broadcastInDim S1x128 ![1] bcast_S128_S1x128_1 : (⟨S128, .f32⟩ : BufTy).Contents (Elt F) → (⟨S1x128, .f32⟩ : BufTy).Contents (Elt F)),
    StableHlo.unary main_v397 main_v398 (broadcastInDim S50000x128 ![0, 1] bcast_S1x128_S50000x128_0_1 : (⟨S1x128, .f32⟩ : BufTy).Contents (Elt F) → (⟨S50000x128, .f32⟩ : BufTy).Contents (Elt F)),
    StableHlo.binary main_v393 main_v398 main_v399 (mulf : (⟨S50000x128, .f32⟩ : BufTy).Contents (Elt F) → (⟨S50000x128, .f32⟩ : BufTy).Contents (Elt F) → (⟨S50000x128, .f32⟩ : BufTy).Contents (Elt F)),
    StableHlo.unary main_arg14 main_v400 (broadcastInDim S1x128 ![1] bcast_S128_S1x128_1 : (⟨S128, .f32⟩ : BufTy).Contents (Elt F) → (⟨S1x128, .f32⟩ : BufTy).Contents (Elt F)),
    StableHlo.unary main_v400 main_v401 (broadcastInDim S50000x128 ![0, 1] bcast_S1x128_S50000x128_0_1 : (⟨S1x128, .f32⟩ : BufTy).Contents (Elt F) → (⟨S50000x128, .f32⟩ : BufTy).Contents (Elt F)),
    StableHlo.binary main_v399 main_v401 main_v402 (addf : (⟨S50000x128, .f32⟩ : BufTy).Contents (Elt F) → (⟨S50000x128, .f32⟩ : BufTy).Contents (Elt F) → (⟨S50000x128, .f32⟩ : BufTy).Contents (Elt F)),
    StableHlo.TRef.nullary main_call19.cst (constant S_ .f32 0x00000000#32),
    StableHlo.TRef.unary main_call19.cst main_call19.v0 (broadcastInDim S50000x128 ![] bcast_S_S50000x128),
    StableHlo.TRef.binary (.of main_v402 : StableHlo.TRef sig ⟨S50000x128, .f32⟩) main_call19.v0 main_call19.v1 maximumf,
    StableHlo.binary main_v403 main_arg15 main_v404 ((fun l r => Host.dotGeneral dot_S50000x128_S128x41_S50000x41_1_0_0_1_n_n none l r) : (⟨S50000x128, .f32⟩ : BufTy).Contents (Elt F) → (⟨S128x41, .f32⟩ : BufTy).Contents (Elt F) → (⟨S50000x41, .f32⟩ : BufTy).Contents (Elt F)),
    StableHlo.unary main_arg16 main_v405 (broadcastInDim S1x41 ![1] bcast_S41_S1x41_1 : (⟨S41, .f32⟩ : BufTy).Contents (Elt F) → (⟨S1x41, .f32⟩ : BufTy).Contents (Elt F)),
    StableHlo.unary main_v405 main_v406 (broadcastInDim S50000x41 ![0, 1] bcast_S1x41_S50000x41_0_1 : (⟨S1x41, .f32⟩ : BufTy).Contents (Elt F) → (⟨S50000x41, .f32⟩ : BufTy).Contents (Elt F)),
    StableHlo.binary main_v404 main_v406 main_v407 (addf : (⟨S50000x41, .f32⟩ : BufTy).Contents (Elt F) → (⟨S50000x41, .f32⟩ : BufTy).Contents (Elt F) → (⟨S50000x41, .f32⟩ : BufTy).Contents (Elt F)),
    StableHlo.TRef.nullary main_call20.cst (constant S_ .f32 0xFF800000#32),
    StableHlo.TRef.binary (.of main_v407 : StableHlo.TRef sig ⟨S50000x41, .f32⟩) main_call20.cst main_call20.v0 (fun x v => Host.reduce FloatOps.maximumf x v reducesTo_S50000x41_S50000_d1 h_S_),
    StableHlo.TRef.nullary main_call20.cst_0 (constant S_ .f32 0xFF800000#32),
    StableHlo.TRef.unary main_call20.cst_0 main_call20.v1 (broadcastInDim S50000 ![] bcast_S_S50000),
    StableHlo.TRef.binary main_call20.v1 main_call20.v0 main_call20.v2 maximumf,
    StableHlo.TRef.unary main_call20.v2 main_call20.v3 (broadcastInDim S50000x1 ![0] bcast_S50000_S50000x1_0),
    StableHlo.TRef.unary main_call20.v3 main_call20.v4 (broadcastInDim S50000x41 ![0, 1] bcast_S50000x1_S50000x41_0_1),
    StableHlo.TRef.binary (.of main_v407 : StableHlo.TRef sig ⟨S50000x41, .f32⟩) main_call20.v4 main_call20.v5 subf,
    StableHlo.TRef.unary main_call20.v5 main_call20.v6 Host.exp,
    StableHlo.TRef.nullary main_call20.cst_1 (constant S_ .f32 0x00000000#32),
    StableHlo.TRef.binary main_call20.v6 main_call20.cst_1 main_call20.v7 (fun x v => Host.reduceAdd x v reducesTo_S50000x41_S50000_d1 h_S_),
    StableHlo.TRef.unary main_call20.v7 main_call20.v8 (broadcastInDim S50000x1 ![0] bcast_S50000_S50000x1_0),
    StableHlo.TRef.unary main_call20.v8 main_call20.v9 Host.log,
    StableHlo.TRef.unary main_call20.v9 main_call20.v10 (broadcastInDim S50000x41 ![0, 1] bcast_S50000x1_S50000x41_0_1),
    StableHlo.TRef.binary main_call20.v5 main_call20.v10 main_call20.v11 subf ]

theorem p7_sub : (p7 : List (HloOp τ sig (Elt F))).Forall fun op => op.bufs ⊆ StableHlo.tcRefs τ sig :=
  ⟨StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.unary_bufs_sub .., StableHlo.binary_bufs_sub ..⟩

/-- Stage 0: operations 1 to 32 of @main (calls listed inline). -/
abbrev st0 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_c (constantI S_ 32 0#32),
    StableHlo.unary main_c main_v4 (broadcastInDim S800000 ![] bcast_S_S800000 : (⟨S_, .i32⟩ : BufTy).Contents (Elt F) → (⟨S800000, .i32⟩ : BufTy).Contents (Elt F)),
    StableHlo.binary main_v1 main_v4 main_v5 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v6 (broadcastInDim S800000 ![] bcast_S_S800000 : (⟨S_, .i32⟩ : BufTy).Contents (Elt F) → (⟨S800000, .i32⟩ : BufTy).Contents (Elt F)),
    StableHlo.binary main_v1 main_v6 main_v7 (addi : (⟨S800000, .i32⟩ : BufTy).Contents (Elt F) → (⟨S800000, .i32⟩ : BufTy).Contents (Elt F) → (⟨S800000, .i32⟩ : BufTy).Contents (Elt F)),
    StableHlo.ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v8 main_v9 (broadcastInDim S800000x1 ![0] bcast_S800000_S800000x1_0 : (⟨S800000, .i32⟩ : BufTy).Contents (Elt F) → (⟨S800000x1, .i32⟩ : BufTy).Contents (Elt F)),
    StableHlo.binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst (constant S_ .f32 0x00000000#32),
    StableHlo.unary main_cst main_v11 (broadcastInDim S50000x128 ![] bcast_S_S50000x128 : (⟨S_, .f32⟩ : BufTy).Contents (Elt F) → (⟨S50000x128, .f32⟩ : BufTy).Contents (Elt F)),
    StableHlo.unary main_v3 main_v12 (broadcastInDim S800000x1 ![0] bcast_S800000_S800000x1_0 : (⟨S800000, .i32⟩ : BufTy).Contents (Elt F) → (⟨S800000x1, .i32⟩ : BufTy).Contents (Elt F)),
    StableHlo.ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_arg8 main_v14 ((extractStridedSlice S1 ![0] · slices_S5_S1_0) : (⟨S5, .f32⟩ : BufTy).Contents (Elt F) → (⟨S1, .f32⟩ : BufTy).Contents (Elt F)),
    StableHlo.reshape main_v14 main_v15 rfl shapeCasts_S1_S_,
    StableHlo.nullary main_cst_1 (constant S_ .f32 0x3F800000#32),
    StableHlo.binary main_cst_1 main_v15 main_v16 (addf : (⟨S_, .f32⟩ : BufTy).Contents (Elt F) → (⟨S_, .f32⟩ : BufTy).Contents (Elt F) → (⟨S_, .f32⟩ : BufTy).Contents (Elt F)),
    StableHlo.unary main_v16 main_v17 (broadcastInDim S50000x128 ![] bcast_S_S50000x128 : (⟨S_, .f32⟩ : BufTy).Contents (Elt F) → (⟨S50000x128, .f32⟩ : BufTy).Contents (Elt F)),
    StableHlo.binary main_v17 main_arg0 main_v18 (mulf : (⟨S50000x128, .f32⟩ : BufTy).Contents (Elt F) → (⟨S50000x128, .f32⟩ : BufTy).Contents (Elt F) → (⟨S50000x128, .f32⟩ : BufTy).Contents (Elt F)),
    StableHlo.binary main_v18 main_v13 main_v19 (addf : (⟨S50000x128, .f32⟩ : BufTy).Contents (Elt F) → (⟨S50000x128, .f32⟩ : BufTy).Contents (Elt F) → (⟨S50000x128, .f32⟩ : BufTy).Contents (Elt F)),
    StableHlo.unary main_arg2 main_v20 ((extractStridedSlice S1x128x256 ![0, 0, 0] · slices_S5x128x256_S1x128x256_0_0_0) : (⟨S5x128x256, .f32⟩ : BufTy).Contents (Elt F) → (⟨S1x128x256, .f32⟩ : BufTy).Contents (Elt F)),
    StableHlo.reshape main_v20 main_v21 rfl shapeCasts_S1x128x256_S128x256,
    StableHlo.binary main_v19 main_v21 main_v22 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.unary main_arg3 main_v23 ((extractStridedSlice S1x256 ![0, 0] · slices_S5x256_S1x256_0_0) : (⟨S5x256, .f32⟩ : BufTy).Contents (Elt F) → (⟨S1x256, .f32⟩ : BufTy).Contents (Elt F)),
    StableHlo.reshape main_v23 main_v24 rfl shapeCasts_S1x256_S256,
    StableHlo.unary main_v24 main_v25 (broadcastInDim S1x256 ![1] bcast_S256_S1x256_1 : (⟨S256, .f32⟩ : BufTy).Contents (Elt F) → (⟨S1x256, .f32⟩ : BufTy).Contents (Elt F)),
    StableHlo.unary main_v25 main_v26 (broadcastInDim S50000x256 ![0, 1] bcast_S1x256_S50000x256_0_1 : (⟨S1x256, .f32⟩ : BufTy).Contents (Elt F) → (⟨S50000x256, .f32⟩ : BufTy).Contents (Elt F)),
    StableHlo.binary main_v22 main_v26 main_v27 (addf : (⟨S50000x256, .f32⟩ : BufTy).Contents (Elt F) → (⟨S50000x256, .f32⟩ : BufTy).Contents (Elt F) → (⟨S50000x256, .f32⟩ : BufTy).Contents (Elt F)) ]

/-- Stage 1: operations 33 to 91 of @main (calls listed inline). -/
abbrev st1 : List (HloOp τ sig (Elt F)) :=
  [ StableHlo.unary main_arg4 main_v28 ((extractStridedSlice S1x256 ![0, 0] · slices_S5x256_S1x256_0_0) : (⟨S5x256, .f32⟩ : BufTy).Contents (Elt F) → (⟨S1x256, .f32⟩ : BufTy).Contents (Elt F)),
    StableHlo.reshape main_v28 main_v29 rfl shapeCasts_S1x256_S256,
    StableHlo.unary main_arg5 main_v30 ((extractStridedSlice S1x256 ![0, 0] · slices_S5x256_S1x256_0_0) : (⟨S5x256, .f32⟩ : BufTy).Contents (Elt F) → (⟨S1x256, .f32⟩ : BufTy).Contents (Elt F)),
    StableHlo.reshape main_v30 main_v31 rfl shapeCasts_S1x256_S256,
    StableHlo.nullary main_cst_2 (constant S_ .f32 0x00000000#32),
    StableHlo.binary main_v27 main_cst_2 main_v32 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_3 (constant S_ .f32 0x47435000#32),
    StableHlo.unary main_cst_3 main_v33 (broadcastInDim S256 ![] bcast_S_S256 : (⟨S_, .f32⟩ : BufTy).Contents (Elt F) → (⟨S256, .f32⟩ : BufTy).Contents (Elt F)),
    StableHlo.binary main_v32 main_v33 main_v34 (Host.divf : (⟨S256, .f32⟩ : BufTy).Contents (Elt F) → (⟨S256, .f32⟩ : BufTy).Contents (Elt F) → (⟨S256, .f32⟩ : BufTy).Contents (Elt F)),
    StableHlo.nullary main_c_4 (constantI S_ 32 0#32),
    StableHlo.TRef.nullary main_call0.cst (constant S_ .f32 0x00000000#32),
    StableHlo.TRef.binary (.of main_v27 : StableHlo.TRef sig ⟨S50000x256, .f32⟩) main_call0.cst main_call0.v0 (fun x v => Host.reduceAdd x v reducesTo_S50000x256_S256_d0 h_S_),
    StableHlo.TRef.unary main_call0.v0 main_call0.v1 (broadcastInDim S1x256 ![1] bcast_S256_S1x256_1),
    StableHlo.TRef.nullary main_call0.cst_0 (constant S_ .f32 0x47435000#32),
    StableHlo.TRef.unary main_call0.cst_0 main_call0.v2 (broadcastInDim S1x256 ![] bcast_S_S1x256),
    StableHlo.TRef.binary main_call0.v1 main_call0.v2 main_call0.v3 Host.divf,
    StableHlo.TRef.unary main_call0.v3 main_call0.v4 (broadcastInDim S50000x256 ![0, 1] bcast_S1x256_S50000x256_0_1),
    StableHlo.TRef.binary (.of main_v27 : StableHlo.TRef sig ⟨S50000x256, .f32⟩) main_call0.v4 main_call0.v5 subf,
    StableHlo.TRef.binary main_call0.v5 main_call0.v5 main_call0.v6 mulf,
    StableHlo.TRef.unary (.of main_c_4 : StableHlo.TRef sig ⟨S_, .i32⟩) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x256_S256_d0 h_S_),
    StableHlo.TRef.unary main_call0.v8 main_call0.v10 (broadcastInDim S256 ![] bcast_S_S256),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S256 ![] bcast_S_S256),
    StableHlo.TRef.ternary main_call0.v12 main_call0.v11 main_call0.call0.v1 main_call0.call0.v2 (fun p a b => select (broadcastInDim S256 ![] bcast_S_S256 p) a b),
    StableHlo.unary main_v34 main_v36 (broadcastInDim S1x256 ![1] bcast_S256_S1x256_1 : (⟨S256, .f32⟩ : BufTy).Contents (Elt F) → (⟨S1x256, .f32⟩ : BufTy).Contents (Elt F)),
    StableHlo.unary main_v36 main_v37 (broadcastInDim S50000x256 ![0, 1] bcast_S1x256_S50000x256_0_1 : (⟨S1x256, .f32⟩ : BufTy).Contents (Elt F) → (⟨S50000x256, .f32⟩ : BufTy).Contents (Elt F)),
    StableHlo.binary main_v27 main_v37 main_v38 (subf : (⟨S50000x256, .f32⟩ : BufTy).Contents (Elt F) → (⟨S50000x256, .f32⟩ : BufTy).Contents (Elt F) → (⟨S50000x256, .f32⟩ : BufTy).Contents (Elt F)),
    StableHlo.unary main_v29 main_v39 (broadcastInDim S1x256 ![1] bcast_S256_S1x256_1 : (⟨S256, .f32⟩ : BufTy).Contents (Elt F) → (⟨S1x256, .f32⟩ : BufTy).Contents (Elt F)),
    StableHlo.unary main_v39 main_v40 (broadcastInDim S50000x256 ![0, 1] bcast_S1x256_S50000x256_0_1 : (⟨S1x256, .f32⟩ : BufTy).Contents (Elt F) → (⟨S50000x256, .f32⟩ : BufTy).Contents (Elt F)),
    StableHlo.binary main_v40 main_v38 main_v41 (mulf : (⟨S50000x256, .f32⟩ : BufTy).Contents (Elt F) → (⟨S50000x256, .f32⟩ : BufTy).Contents (Elt F) → (⟨S50000x256, .f32⟩ : BufTy).Contents (Elt F)),
    StableHlo.nullary main_cst_5 (constant S_ .f32 0x3727C5AC#32),
    StableHlo.unary main_cst_5 main_v42 (broadcastInDim S256 ![] bcast_S_S256 : (⟨S_, .f32⟩ : BufTy).Contents (Elt F) → (⟨S256, .f32⟩ : BufTy).Contents (Elt F)),
    StableHlo.binary main_v35 main_v42 main_v43 (addf : (⟨S256, .f32⟩ : BufTy).Contents (Elt F) → (⟨S256, .f32⟩ : BufTy).Contents (Elt F) → (⟨S256, .f32⟩ : BufTy).Contents (Elt F)),
    StableHlo.unary main_v43 main_v44 (Host.rsqrt : (⟨S256, .f32⟩ : BufTy).Contents (Elt F) → (⟨S256, .f32⟩ : BufTy).Contents (Elt F)),
    StableHlo.unary main_v44 main_v45 (broadcastInDim S1x256 ![1] bcast_S256_S1x256_1 : (⟨S256, .f32⟩ : BufTy).Contents (Elt F) → (⟨S1x256, .f32⟩ : BufTy).Contents (Elt F)),
    StableHlo.unary main_v45 main_v46 (broadcastInDim S50000x256 ![0, 1] bcast_S1x256_S50000x256_0_1 : (⟨S1x256, .f32⟩ : BufTy).Contents (Elt F) → (⟨S50000x256, .f32⟩ : BufTy).Contents (Elt F)),
    StableHlo.binary main_v41 main_v46 main_v47 (mulf : (⟨S50000x256, .f32⟩ : BufTy).Contents (Elt F) → (⟨S50000x256, .f32⟩ : BufTy).Contents (Elt F) → (⟨S50000x256, .f32⟩ : BufTy).Contents (Elt F)),
    StableHlo.unary main_v31 main_v48 (broadcastInDim S1x256 ![1] bcast_S256_S1x256_1 : (⟨S256, .f32⟩ : BufTy).Contents (Elt F) → (⟨S1x256, .f32⟩ : BufTy).Contents (Elt F)),
    StableHlo.unary main_v48 main_v49 (broadcastInDim S50000x256 ![0, 1] bcast_S1x256_S50000x256_0_1 : (⟨S1x256, .f32⟩ : BufTy).Contents (Elt F) → (⟨S50000x256, .f32⟩ : BufTy).Contents (Elt F)),
    StableHlo.binary main_v47 main_v49 main_v50 (addf : (⟨S50000x256, .f32⟩ : BufTy).Contents (Elt F) → (⟨S50000x256, .f32⟩ : BufTy).Contents (Elt F) → (⟨S50000x256, .f32⟩ : BufTy).Contents (Elt F)),
    StableHlo.TRef.nullary main_call1.cst (constant S_ .f32 0x00000000#32),
    StableHlo.TRef.unary main_call1.cst main_call1.v0 (broadcastInDim S50000x256 ![] bcast_S_S50000x256),
    StableHlo.TRef.binary (.of main_v50 : StableHlo.TRef sig ⟨S50000x256, .f32⟩) main_call1.v0 main_call1.v1 maximumf,
    StableHlo.unary main_arg6 main_v52 ((extractStridedSlice S1x256x128 ![0, 0, 0] · slices_S5x256x128_S1x256x128_0_0_0) : (⟨S5x256x128, .f32⟩ : BufTy).Contents (Elt F) → (⟨S1x256x128, .f32⟩ : BufTy).Contents (Elt F)),
    StableHlo.reshape main_v52 main_v53 rfl shapeCasts_S1x256x128_S256x128,
    StableHlo.binary main_v51 main_v53 main_v54 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg7 main_v55 ((extractStridedSlice S1x128 ![0, 0] · slices_S5x128_S1x128_0_0) : (⟨S5x128, .f32⟩ : BufTy).Contents (Elt F) → (⟨S1x128, .f32⟩ : BufTy).Contents (Elt F)),
    StableHlo.reshape main_v55 main_v56 rfl shapeCasts_S1x128_S128,
    StableHlo.unary main_v56 main_v57 (broadcastInDim S1x128 ![1] bcast_S128_S1x128_1 : (⟨S128, .f32⟩ : BufTy).Contents (Elt F) → (⟨S1x128, .f32⟩ : BufTy).Contents (Elt F)),
    StableHlo.unary main_v57 main_v58 (broadcastInDim S50000x128 ![0, 1] bcast_S1x128_S50000x128_0_1 : (⟨S1x128, .f32⟩ : BufTy).Contents (Elt F) → (⟨S50000x128, .f32⟩ : BufTy).Contents (Elt F)),
    StableHlo.binary main_v54 main_v58 main_v59 (addf : (⟨S50000x128, .f32⟩ : BufTy).Contents (Elt F) → (⟨S50000x128, .f32⟩ : BufTy).Contents (Elt F) → (⟨S50000x128, .f32⟩ : BufTy).Contents (Elt F)) ]

/-- Stage 2: operations 92 to 142 of @main (calls listed inline). -/
abbrev st2 : List (HloOp τ sig (Elt F)) :=
  [ StableHlo.unary main_arg9 main_v60 ((extractStridedSlice S1x128 ![0, 0] · slices_S5x128_S1x128_0_0) : (⟨S5x128, .f32⟩ : BufTy).Contents (Elt F) → (⟨S1x128, .f32⟩ : BufTy).Contents (Elt F)),
    StableHlo.reshape main_v60 main_v61 rfl shapeCasts_S1x128_S128,
    StableHlo.unary main_arg10 main_v62 ((extractStridedSlice S1x128 ![0, 0] · slices_S5x128_S1x128_0_0) : (⟨S5x128, .f32⟩ : BufTy).Contents (Elt F) → (⟨S1x128, .f32⟩ : BufTy).Contents (Elt F)),
    StableHlo.reshape main_v62 main_v63 rfl shapeCasts_S1x128_S128,
    StableHlo.nullary main_cst_6 (constant S_ .f32 0x00000000#32),
    StableHlo.binary main_v59 main_cst_6 main_v64 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_7 (constant S_ .f32 0x47435000#32),
    StableHlo.unary main_cst_7 main_v65 (broadcastInDim S128 ![] bcast_S_S128 : (⟨S_, .f32⟩ : BufTy).Contents (Elt F) → (⟨S128, .f32⟩ : BufTy).Contents (Elt F)),
    StableHlo.binary main_v64 main_v65 main_v66 (Host.divf : (⟨S128, .f32⟩ : BufTy).Contents (Elt F) → (⟨S128, .f32⟩ : BufTy).Contents (Elt F) → (⟨S128, .f32⟩ : BufTy).Contents (Elt F)),
    StableHlo.nullary main_c_8 (constantI S_ 32 0#32),
    StableHlo.TRef.nullary main_call2.cst (constant S_ .f32 0x00000000#32),
    StableHlo.TRef.binary (.of main_v59 : StableHlo.TRef sig ⟨S50000x128, .f32⟩) main_call2.cst main_call2.v0 (fun x v => Host.reduceAdd x v reducesTo_S50000x128_S128_d0 h_S_),
    StableHlo.TRef.unary main_call2.v0 main_call2.v1 (broadcastInDim S1x128 ![1] bcast_S128_S1x128_1),
    StableHlo.TRef.nullary main_call2.cst_0 (constant S_ .f32 0x47435000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S50000x128 ![0, 1] bcast_S1x128_S50000x128_0_1),
    StableHlo.TRef.binary (.of main_v59 : StableHlo.TRef sig ⟨S50000x128, .f32⟩) main_call2.v4 main_call2.v5 subf,
    StableHlo.TRef.binary main_call2.v5 main_call2.v5 main_call2.v6 mulf,
    StableHlo.TRef.unary (.of main_c_8 : StableHlo.TRef sig ⟨S_, .i32⟩) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v66 main_v68 (broadcastInDim S1x128 ![1] bcast_S128_S1x128_1 : (⟨S128, .f32⟩ : BufTy).Contents (Elt F) → (⟨S1x128, .f32⟩ : BufTy).Contents (Elt F)),
    StableHlo.unary main_v68 main_v69 (broadcastInDim S50000x128 ![0, 1] bcast_S1x128_S50000x128_0_1 : (⟨S1x128, .f32⟩ : BufTy).Contents (Elt F) → (⟨S50000x128, .f32⟩ : BufTy).Contents (Elt F)),
    StableHlo.binary main_v59 main_v69 main_v70 (subf : (⟨S50000x128, .f32⟩ : BufTy).Contents (Elt F) → (⟨S50000x128, .f32⟩ : BufTy).Contents (Elt F) → (⟨S50000x128, .f32⟩ : BufTy).Contents (Elt F)),
    StableHlo.unary main_v61 main_v71 (broadcastInDim S1x128 ![1] bcast_S128_S1x128_1 : (⟨S128, .f32⟩ : BufTy).Contents (Elt F) → (⟨S1x128, .f32⟩ : BufTy).Contents (Elt F)),
    StableHlo.unary main_v71 main_v72 (broadcastInDim S50000x128 ![0, 1] bcast_S1x128_S50000x128_0_1 : (⟨S1x128, .f32⟩ : BufTy).Contents (Elt F) → (⟨S50000x128, .f32⟩ : BufTy).Contents (Elt F)),
    StableHlo.binary main_v72 main_v70 main_v73 (mulf : (⟨S50000x128, .f32⟩ : BufTy).Contents (Elt F) → (⟨S50000x128, .f32⟩ : BufTy).Contents (Elt F) → (⟨S50000x128, .f32⟩ : BufTy).Contents (Elt F)),
    StableHlo.nullary main_cst_9 (constant S_ .f32 0x3727C5AC#32),
    StableHlo.unary main_cst_9 main_v74 (broadcastInDim S128 ![] bcast_S_S128 : (⟨S_, .f32⟩ : BufTy).Contents (Elt F) → (⟨S128, .f32⟩ : BufTy).Contents (Elt F)),
    StableHlo.binary main_v67 main_v74 main_v75 (addf : (⟨S128, .f32⟩ : BufTy).Contents (Elt F) → (⟨S128, .f32⟩ : BufTy).Contents (Elt F) → (⟨S128, .f32⟩ : BufTy).Contents (Elt F)),
    StableHlo.unary main_v75 main_v76 (Host.rsqrt : (⟨S128, .f32⟩ : BufTy).Contents (Elt F) → (⟨S128, .f32⟩ : BufTy).Contents (Elt F)),
    StableHlo.unary main_v76 main_v77 (broadcastInDim S1x128 ![1] bcast_S128_S1x128_1 : (⟨S128, .f32⟩ : BufTy).Contents (Elt F) → (⟨S1x128, .f32⟩ : BufTy).Contents (Elt F)),
    StableHlo.unary main_v77 main_v78 (broadcastInDim S50000x128 ![0, 1] bcast_S1x128_S50000x128_0_1 : (⟨S1x128, .f32⟩ : BufTy).Contents (Elt F) → (⟨S50000x128, .f32⟩ : BufTy).Contents (Elt F)),
    StableHlo.binary main_v73 main_v78 main_v79 (mulf : (⟨S50000x128, .f32⟩ : BufTy).Contents (Elt F) → (⟨S50000x128, .f32⟩ : BufTy).Contents (Elt F) → (⟨S50000x128, .f32⟩ : BufTy).Contents (Elt F)),
    StableHlo.unary main_v63 main_v80 (broadcastInDim S1x128 ![1] bcast_S128_S1x128_1 : (⟨S128, .f32⟩ : BufTy).Contents (Elt F) → (⟨S1x128, .f32⟩ : BufTy).Contents (Elt F)),
    StableHlo.unary main_v80 main_v81 (broadcastInDim S50000x128 ![0, 1] bcast_S1x128_S50000x128_0_1 : (⟨S1x128, .f32⟩ : BufTy).Contents (Elt F) → (⟨S50000x128, .f32⟩ : BufTy).Contents (Elt F)),
    StableHlo.binary main_v79 main_v81 main_v82 (addf : (⟨S50000x128, .f32⟩ : BufTy).Contents (Elt F) → (⟨S50000x128, .f32⟩ : BufTy).Contents (Elt F) → (⟨S50000x128, .f32⟩ : BufTy).Contents (Elt F)),
    StableHlo.TRef.nullary main_call3.cst (constant S_ .f32 0x00000000#32),
    StableHlo.TRef.unary main_call3.cst main_call3.v0 (broadcastInDim S50000x128 ![] bcast_S_S50000x128),
    StableHlo.TRef.binary (.of main_v82 : StableHlo.TRef sig ⟨S50000x128, .f32⟩) main_call3.v0 main_call3.v1 maximumf ]

/-- Stage 3: operations 143 to 170 of @main (calls listed inline). -/
abbrev st3 : List (HloOp τ sig (Elt F)) :=
  [ StableHlo.nullary main_c_10 (constantI S_ 32 0#32),
    StableHlo.unary main_c_10 main_v84 (broadcastInDim S800000 ![] bcast_S_S800000 : (⟨S_, .i32⟩ : BufTy).Contents (Elt F) → (⟨S800000, .i32⟩ : BufTy).Contents (Elt F)),
    StableHlo.binary main_v1 main_v84 main_v85 (cmpi .slt : (⟨S800000, .i32⟩ : BufTy).Contents (Elt F) → (⟨S800000, .i32⟩ : BufTy).Contents (Elt F) → (⟨S800000, .i1⟩ : BufTy).Contents (Elt F)),
    StableHlo.nullary main_c_11 (constantI S_ 32 50000#32),
    StableHlo.unary main_c_11 main_v86 (broadcastInDim S800000 ![] bcast_S_S800000 : (⟨S_, .i32⟩ : BufTy).Contents (Elt F) → (⟨S800000, .i32⟩ : BufTy).Contents (Elt F)),
    StableHlo.binary main_v1 main_v86 main_v87 (addi : (⟨S800000, .i32⟩ : BufTy).Contents (Elt F) → (⟨S800000, .i32⟩ : BufTy).Contents (Elt F) → (⟨S800000, .i32⟩ : BufTy).Contents (Elt F)),
    StableHlo.ternary main_v85 main_v87 main_v1 main_v88 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v88 main_v89 (broadcastInDim S800000x1 ![0] bcast_S800000_S800000x1_0 : (⟨S800000, .i32⟩ : BufTy).Contents (Elt F) → (⟨S800000x1, .i32⟩ : BufTy).Contents (Elt F)),
    StableHlo.binary main_v83 main_v89 main_v90 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_12 (constant S_ .f32 0x00000000#32),
    StableHlo.unary main_cst_12 main_v91 (broadcastInDim S50000x128 ![] bcast_S_S50000x128 : (⟨S_, .f32⟩ : BufTy).Contents (Elt F) → (⟨S50000x128, .f32⟩ : BufTy).Contents (Elt F)),
    StableHlo.unary main_v3 main_v92 (broadcastInDim S800000x1 ![0] bcast_S800000_S800000x1_0 : (⟨S800000, .i32⟩ : BufTy).Contents (Elt F) → (⟨S800000x1, .i32⟩ : BufTy).Contents (Elt F)),
    StableHlo.ternary main_v91 main_v92 main_v90 main_v93 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_arg8 main_v94 ((extractStridedSlice S1 ![1] · slices_S5_S1_1) : (⟨S5, .f32⟩ : BufTy).Contents (Elt F) → (⟨S1, .f32⟩ : BufTy).Contents (Elt F)),
    StableHlo.reshape main_v94 main_v95 rfl shapeCasts_S1_S_,
    StableHlo.nullary main_cst_13 (constant S_ .f32 0x3F800000#32),
    StableHlo.binary main_cst_13 main_v95 main_v96 (addf : (⟨S_, .f32⟩ : BufTy).Contents (Elt F) → (⟨S_, .f32⟩ : BufTy).Contents (Elt F) → (⟨S_, .f32⟩ : BufTy).Contents (Elt F)),
    StableHlo.unary main_v96 main_v97 (broadcastInDim S50000x128 ![] bcast_S_S50000x128 : (⟨S_, .f32⟩ : BufTy).Contents (Elt F) → (⟨S50000x128, .f32⟩ : BufTy).Contents (Elt F)),
    StableHlo.binary main_v97 main_v83 main_v98 (mulf : (⟨S50000x128, .f32⟩ : BufTy).Contents (Elt F) → (⟨S50000x128, .f32⟩ : BufTy).Contents (Elt F) → (⟨S50000x128, .f32⟩ : BufTy).Contents (Elt F)),
    StableHlo.binary main_v98 main_v93 main_v99 (addf : (⟨S50000x128, .f32⟩ : BufTy).Contents (Elt F) → (⟨S50000x128, .f32⟩ : BufTy).Contents (Elt F) → (⟨S50000x128, .f32⟩ : BufTy).Contents (Elt F)),
    StableHlo.unary main_arg2 main_v100 ((extractStridedSlice S1x128x256 ![1, 0, 0] · slices_S5x128x256_S1x128x256_1_0_0) : (⟨S5x128x256, .f32⟩ : BufTy).Contents (Elt F) → (⟨S1x128x256, .f32⟩ : BufTy).Contents (Elt F)),
    StableHlo.reshape main_v100 main_v101 rfl shapeCasts_S1x128x256_S128x256,
    StableHlo.binary main_v99 main_v101 main_v102 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.unary main_arg3 main_v103 ((extractStridedSlice S1x256 ![1, 0] · slices_S5x256_S1x256_1_0) : (⟨S5x256, .f32⟩ : BufTy).Contents (Elt F) → (⟨S1x256, .f32⟩ : BufTy).Contents (Elt F)),
    StableHlo.reshape main_v103 main_v104 rfl shapeCasts_S1x256_S256,
    StableHlo.unary main_v104 main_v105 (broadcastInDim S1x256 ![1] bcast_S256_S1x256_1 : (⟨S256, .f32⟩ : BufTy).Contents (Elt F) → (⟨S1x256, .f32⟩ : BufTy).Contents (Elt F)),
    StableHlo.unary main_v105 main_v106 (broadcastInDim S50000x256 ![0, 1] bcast_S1x256_S50000x256_0_1 : (⟨S1x256, .f32⟩ : BufTy).Contents (Elt F) → (⟨S50000x256, .f32⟩ : BufTy).Contents (Elt F)),
    StableHlo.binary main_v102 main_v106 main_v107 (addf : (⟨S50000x256, .f32⟩ : BufTy).Contents (Elt F) → (⟨S50000x256, .f32⟩ : BufTy).Contents (Elt F) → (⟨S50000x256, .f32⟩ : BufTy).Contents (Elt F)) ]

/-- Stage 4: operations 171 to 229 of @main (calls listed inline). -/
abbrev st4 : List (HloOp τ sig (Elt F)) :=
  [ StableHlo.unary main_arg4 main_v108 ((extractStridedSlice S1x256 ![1, 0] · slices_S5x256_S1x256_1_0) : (⟨S5x256, .f32⟩ : BufTy).Contents (Elt F) → (⟨S1x256, .f32⟩ : BufTy).Contents (Elt F)),
    StableHlo.reshape main_v108 main_v109 rfl shapeCasts_S1x256_S256,
    StableHlo.unary main_arg5 main_v110 ((extractStridedSlice S1x256 ![1, 0] · slices_S5x256_S1x256_1_0) : (⟨S5x256, .f32⟩ : BufTy).Contents (Elt F) → (⟨S1x256, .f32⟩ : BufTy).Contents (Elt F)),
    StableHlo.reshape main_v110 main_v111 rfl shapeCasts_S1x256_S256,
    StableHlo.nullary main_cst_14 (constant S_ .f32 0x00000000#32),
    StableHlo.binary main_v107 main_cst_14 main_v112 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_15 (constant S_ .f32 0x47435000#32),
    StableHlo.unary main_cst_15 main_v113 (broadcastInDim S256 ![] bcast_S_S256 : (⟨S_, .f32⟩ : BufTy).Contents (Elt F) → (⟨S256, .f32⟩ : BufTy).Contents (Elt F)),
    StableHlo.binary main_v112 main_v113 main_v114 (Host.divf : (⟨S256, .f32⟩ : BufTy).Contents (Elt F) → (⟨S256, .f32⟩ : BufTy).Contents (Elt F) → (⟨S256, .f32⟩ : BufTy).Contents (Elt F)),
    StableHlo.nullary main_c_16 (constantI S_ 32 0#32),
    StableHlo.TRef.nullary main_call4.cst (constant S_ .f32 0x00000000#32),
    StableHlo.TRef.binary (.of main_v107 : StableHlo.TRef sig ⟨S50000x256, .f32⟩) main_call4.cst main_call4.v0 (fun x v => Host.reduceAdd x v reducesTo_S50000x256_S256_d0 h_S_),
    StableHlo.TRef.unary main_call4.v0 main_call4.v1 (broadcastInDim S1x256 ![1] bcast_S256_S1x256_1),
    StableHlo.TRef.nullary main_call4.cst_0 (constant S_ .f32 0x47435000#32),
    StableHlo.TRef.unary main_call4.cst_0 main_call4.v2 (broadcastInDim S1x256 ![] bcast_S_S1x256),
    StableHlo.TRef.binary main_call4.v1 main_call4.v2 main_call4.v3 Host.divf,
    StableHlo.TRef.unary main_call4.v3 main_call4.v4 (broadcastInDim S50000x256 ![0, 1] bcast_S1x256_S50000x256_0_1),
    StableHlo.TRef.binary (.of main_v107 : StableHlo.TRef sig ⟨S50000x256, .f32⟩) main_call4.v4 main_call4.v5 subf,
    StableHlo.TRef.binary main_call4.v5 main_call4.v5 main_call4.v6 mulf,
    StableHlo.TRef.unary (.of main_c_16 : StableHlo.TRef sig ⟨S_, .i32⟩) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x256_S256_d0 h_S_),
    StableHlo.TRef.unary main_call4.v8 main_call4.v10 (broadcastInDim S256 ![] bcast_S_S256),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S256 ![] bcast_S_S256),
    StableHlo.TRef.ternary main_call4.v12 main_call4.v11 main_call4.call0.v1 main_call4.call0.v2 (fun p a b => select (broadcastInDim S256 ![] bcast_S_S256 p) a b),
    StableHlo.unary main_v114 main_v116 (broadcastInDim S1x256 ![1] bcast_S256_S1x256_1 : (⟨S256, .f32⟩ : BufTy).Contents (Elt F) → (⟨S1x256, .f32⟩ : BufTy).Contents (Elt F)),
    StableHlo.unary main_v116 main_v117 (broadcastInDim S50000x256 ![0, 1] bcast_S1x256_S50000x256_0_1 : (⟨S1x256, .f32⟩ : BufTy).Contents (Elt F) → (⟨S50000x256, .f32⟩ : BufTy).Contents (Elt F)),
    StableHlo.binary main_v107 main_v117 main_v118 (subf : (⟨S50000x256, .f32⟩ : BufTy).Contents (Elt F) → (⟨S50000x256, .f32⟩ : BufTy).Contents (Elt F) → (⟨S50000x256, .f32⟩ : BufTy).Contents (Elt F)),
    StableHlo.unary main_v109 main_v119 (broadcastInDim S1x256 ![1] bcast_S256_S1x256_1 : (⟨S256, .f32⟩ : BufTy).Contents (Elt F) → (⟨S1x256, .f32⟩ : BufTy).Contents (Elt F)),
    StableHlo.unary main_v119 main_v120 (broadcastInDim S50000x256 ![0, 1] bcast_S1x256_S50000x256_0_1 : (⟨S1x256, .f32⟩ : BufTy).Contents (Elt F) → (⟨S50000x256, .f32⟩ : BufTy).Contents (Elt F)),
    StableHlo.binary main_v120 main_v118 main_v121 (mulf : (⟨S50000x256, .f32⟩ : BufTy).Contents (Elt F) → (⟨S50000x256, .f32⟩ : BufTy).Contents (Elt F) → (⟨S50000x256, .f32⟩ : BufTy).Contents (Elt F)),
    StableHlo.nullary main_cst_17 (constant S_ .f32 0x3727C5AC#32),
    StableHlo.unary main_cst_17 main_v122 (broadcastInDim S256 ![] bcast_S_S256 : (⟨S_, .f32⟩ : BufTy).Contents (Elt F) → (⟨S256, .f32⟩ : BufTy).Contents (Elt F)),
    StableHlo.binary main_v115 main_v122 main_v123 (addf : (⟨S256, .f32⟩ : BufTy).Contents (Elt F) → (⟨S256, .f32⟩ : BufTy).Contents (Elt F) → (⟨S256, .f32⟩ : BufTy).Contents (Elt F)),
    StableHlo.unary main_v123 main_v124 (Host.rsqrt : (⟨S256, .f32⟩ : BufTy).Contents (Elt F) → (⟨S256, .f32⟩ : BufTy).Contents (Elt F)),
    StableHlo.unary main_v124 main_v125 (broadcastInDim S1x256 ![1] bcast_S256_S1x256_1 : (⟨S256, .f32⟩ : BufTy).Contents (Elt F) → (⟨S1x256, .f32⟩ : BufTy).Contents (Elt F)),
    StableHlo.unary main_v125 main_v126 (broadcastInDim S50000x256 ![0, 1] bcast_S1x256_S50000x256_0_1 : (⟨S1x256, .f32⟩ : BufTy).Contents (Elt F) → (⟨S50000x256, .f32⟩ : BufTy).Contents (Elt F)),
    StableHlo.binary main_v121 main_v126 main_v127 (mulf : (⟨S50000x256, .f32⟩ : BufTy).Contents (Elt F) → (⟨S50000x256, .f32⟩ : BufTy).Contents (Elt F) → (⟨S50000x256, .f32⟩ : BufTy).Contents (Elt F)),
    StableHlo.unary main_v111 main_v128 (broadcastInDim S1x256 ![1] bcast_S256_S1x256_1 : (⟨S256, .f32⟩ : BufTy).Contents (Elt F) → (⟨S1x256, .f32⟩ : BufTy).Contents (Elt F)),
    StableHlo.unary main_v128 main_v129 (broadcastInDim S50000x256 ![0, 1] bcast_S1x256_S50000x256_0_1 : (⟨S1x256, .f32⟩ : BufTy).Contents (Elt F) → (⟨S50000x256, .f32⟩ : BufTy).Contents (Elt F)),
    StableHlo.binary main_v127 main_v129 main_v130 (addf : (⟨S50000x256, .f32⟩ : BufTy).Contents (Elt F) → (⟨S50000x256, .f32⟩ : BufTy).Contents (Elt F) → (⟨S50000x256, .f32⟩ : BufTy).Contents (Elt F)),
    StableHlo.TRef.nullary main_call5.cst (constant S_ .f32 0x00000000#32),
    StableHlo.TRef.unary main_call5.cst main_call5.v0 (broadcastInDim S50000x256 ![] bcast_S_S50000x256),
    StableHlo.TRef.binary (.of main_v130 : StableHlo.TRef sig ⟨S50000x256, .f32⟩) main_call5.v0 main_call5.v1 maximumf,
    StableHlo.unary main_arg6 main_v132 ((extractStridedSlice S1x256x128 ![1, 0, 0] · slices_S5x256x128_S1x256x128_1_0_0) : (⟨S5x256x128, .f32⟩ : BufTy).Contents (Elt F) → (⟨S1x256x128, .f32⟩ : BufTy).Contents (Elt F)),
    StableHlo.reshape main_v132 main_v133 rfl shapeCasts_S1x256x128_S256x128,
    StableHlo.binary main_v131 main_v133 main_v134 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg7 main_v135 ((extractStridedSlice S1x128 ![1, 0] · slices_S5x128_S1x128_1_0) : (⟨S5x128, .f32⟩ : BufTy).Contents (Elt F) → (⟨S1x128, .f32⟩ : BufTy).Contents (Elt F)),
    StableHlo.reshape main_v135 main_v136 rfl shapeCasts_S1x128_S128,
    StableHlo.unary main_v136 main_v137 (broadcastInDim S1x128 ![1] bcast_S128_S1x128_1 : (⟨S128, .f32⟩ : BufTy).Contents (Elt F) → (⟨S1x128, .f32⟩ : BufTy).Contents (Elt F)),
    StableHlo.unary main_v137 main_v138 (broadcastInDim S50000x128 ![0, 1] bcast_S1x128_S50000x128_0_1 : (⟨S1x128, .f32⟩ : BufTy).Contents (Elt F) → (⟨S50000x128, .f32⟩ : BufTy).Contents (Elt F)),
    StableHlo.binary main_v134 main_v138 main_v139 (addf : (⟨S50000x128, .f32⟩ : BufTy).Contents (Elt F) → (⟨S50000x128, .f32⟩ : BufTy).Contents (Elt F) → (⟨S50000x128, .f32⟩ : BufTy).Contents (Elt F)) ]

/-- Stage 5: operations 230 to 280 of @main (calls listed inline). -/
abbrev st5 : List (HloOp τ sig (Elt F)) :=
  [ StableHlo.unary main_arg9 main_v140 ((extractStridedSlice S1x128 ![1, 0] · slices_S5x128_S1x128_1_0) : (⟨S5x128, .f32⟩ : BufTy).Contents (Elt F) → (⟨S1x128, .f32⟩ : BufTy).Contents (Elt F)),
    StableHlo.reshape main_v140 main_v141 rfl shapeCasts_S1x128_S128,
    StableHlo.unary main_arg10 main_v142 ((extractStridedSlice S1x128 ![1, 0] · slices_S5x128_S1x128_1_0) : (⟨S5x128, .f32⟩ : BufTy).Contents (Elt F) → (⟨S1x128, .f32⟩ : BufTy).Contents (Elt F)),
    StableHlo.reshape main_v142 main_v143 rfl shapeCasts_S1x128_S128,
    StableHlo.nullary main_cst_18 (constant S_ .f32 0x00000000#32),
    StableHlo.binary main_v139 main_cst_18 main_v144 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_19 (constant S_ .f32 0x47435000#32),
    StableHlo.unary main_cst_19 main_v145 (broadcastInDim S128 ![] bcast_S_S128 : (⟨S_, .f32⟩ : BufTy).Contents (Elt F) → (⟨S128, .f32⟩ : BufTy).Contents (Elt F)),
    StableHlo.binary main_v144 main_v145 main_v146 (Host.divf : (⟨S128, .f32⟩ : BufTy).Contents (Elt F) → (⟨S128, .f32⟩ : BufTy).Contents (Elt F) → (⟨S128, .f32⟩ : BufTy).Contents (Elt F)),
    StableHlo.nullary main_c_20 (constantI S_ 32 0#32),
    StableHlo.TRef.nullary main_call6.cst (constant S_ .f32 0x00000000#32),
    StableHlo.TRef.binary (.of main_v139 : StableHlo.TRef sig ⟨S50000x128, .f32⟩) main_call6.cst main_call6.v0 (fun x v => Host.reduceAdd x v reducesTo_S50000x128_S128_d0 h_S_),
    StableHlo.TRef.unary main_call6.v0 main_call6.v1 (broadcastInDim S1x128 ![1] bcast_S128_S1x128_1),
    StableHlo.TRef.nullary main_call6.cst_0 (constant S_ .f32 0x47435000#32),
    StableHlo.TRef.unary main_call6.cst_0 main_call6.v2 (broadcastInDim S1x128 ![] bcast_S_S1x128),
    StableHlo.TRef.binary main_call6.v1 main_call6.v2 main_call6.v3 Host.divf,
    StableHlo.TRef.unary main_call6.v3 main_call6.v4 (broadcastInDim S50000x128 ![0, 1] bcast_S1x128_S50000x128_0_1),
    StableHlo.TRef.binary (.of main_v139 : StableHlo.TRef sig ⟨S50000x128, .f32⟩) main_call6.v4 main_call6.v5 subf,
    StableHlo.TRef.binary main_call6.v5 main_call6.v5 main_call6.v6 mulf,
    StableHlo.TRef.unary (.of main_c_20 : StableHlo.TRef sig ⟨S_, .i32⟩) main_call6.v7 (sitofp .f32),
    StableHlo.TRef.nullary main_call6.cst_1 (constant S_ .f32 0x47435000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S50000x128_S128_d0 h_S_),
    StableHlo.TRef.unary main_call6.v8 main_call6.v10 (broadcastInDim S128 ![] bcast_S_S128),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S128 ![] bcast_S_S128),
    StableHlo.TRef.ternary main_call6.v12 main_call6.v11 main_call6.call0.v1 main_call6.call0.v2 (fun p a b => select (broadcastInDim S128 ![] bcast_S_S128 p) a b),
    StableHlo.unary main_v146 main_v148 (broadcastInDim S1x128 ![1] bcast_S128_S1x128_1 : (⟨S128, .f32⟩ : BufTy).Contents (Elt F) → (⟨S1x128, .f32⟩ : BufTy).Contents (Elt F)),
    StableHlo.unary main_v148 main_v149 (broadcastInDim S50000x128 ![0, 1] bcast_S1x128_S50000x128_0_1 : (⟨S1x128, .f32⟩ : BufTy).Contents (Elt F) → (⟨S50000x128, .f32⟩ : BufTy).Contents (Elt F)),
    StableHlo.binary main_v139 main_v149 main_v150 (subf : (⟨S50000x128, .f32⟩ : BufTy).Contents (Elt F) → (⟨S50000x128, .f32⟩ : BufTy).Contents (Elt F) → (⟨S50000x128, .f32⟩ : BufTy).Contents (Elt F)),
    StableHlo.unary main_v141 main_v151 (broadcastInDim S1x128 ![1] bcast_S128_S1x128_1 : (⟨S128, .f32⟩ : BufTy).Contents (Elt F) → (⟨S1x128, .f32⟩ : BufTy).Contents (Elt F)),
    StableHlo.unary main_v151 main_v152 (broadcastInDim S50000x128 ![0, 1] bcast_S1x128_S50000x128_0_1 : (⟨S1x128, .f32⟩ : BufTy).Contents (Elt F) → (⟨S50000x128, .f32⟩ : BufTy).Contents (Elt F)),
    StableHlo.binary main_v152 main_v150 main_v153 (mulf : (⟨S50000x128, .f32⟩ : BufTy).Contents (Elt F) → (⟨S50000x128, .f32⟩ : BufTy).Contents (Elt F) → (⟨S50000x128, .f32⟩ : BufTy).Contents (Elt F)),
    StableHlo.nullary main_cst_21 (constant S_ .f32 0x3727C5AC#32),
    StableHlo.unary main_cst_21 main_v154 (broadcastInDim S128 ![] bcast_S_S128 : (⟨S_, .f32⟩ : BufTy).Contents (Elt F) → (⟨S128, .f32⟩ : BufTy).Contents (Elt F)),
    StableHlo.binary main_v147 main_v154 main_v155 (addf : (⟨S128, .f32⟩ : BufTy).Contents (Elt F) → (⟨S128, .f32⟩ : BufTy).Contents (Elt F) → (⟨S128, .f32⟩ : BufTy).Contents (Elt F)),
    StableHlo.unary main_v155 main_v156 (Host.rsqrt : (⟨S128, .f32⟩ : BufTy).Contents (Elt F) → (⟨S128, .f32⟩ : BufTy).Contents (Elt F)),
    StableHlo.unary main_v156 main_v157 (broadcastInDim S1x128 ![1] bcast_S128_S1x128_1 : (⟨S128, .f32⟩ : BufTy).Contents (Elt F) → (⟨S1x128, .f32⟩ : BufTy).Contents (Elt F)),
    StableHlo.unary main_v157 main_v158 (broadcastInDim S50000x128 ![0, 1] bcast_S1x128_S50000x128_0_1 : (⟨S1x128, .f32⟩ : BufTy).Contents (Elt F) → (⟨S50000x128, .f32⟩ : BufTy).Contents (Elt F)),
    StableHlo.binary main_v153 main_v158 main_v159 (mulf : (⟨S50000x128, .f32⟩ : BufTy).Contents (Elt F) → (⟨S50000x128, .f32⟩ : BufTy).Contents (Elt F) → (⟨S50000x128, .f32⟩ : BufTy).Contents (Elt F)),
    StableHlo.unary main_v143 main_v160 (broadcastInDim S1x128 ![1] bcast_S128_S1x128_1 : (⟨S128, .f32⟩ : BufTy).Contents (Elt F) → (⟨S1x128, .f32⟩ : BufTy).Contents (Elt F)),
    StableHlo.unary main_v160 main_v161 (broadcastInDim S50000x128 ![0, 1] bcast_S1x128_S50000x128_0_1 : (⟨S1x128, .f32⟩ : BufTy).Contents (Elt F) → (⟨S50000x128, .f32⟩ : BufTy).Contents (Elt F)),
    StableHlo.binary main_v159 main_v161 main_v162 (addf : (⟨S50000x128, .f32⟩ : BufTy).Contents (Elt F) → (⟨S50000x128, .f32⟩ : BufTy).Contents (Elt F) → (⟨S50000x128, .f32⟩ : BufTy).Contents (Elt F)),
    StableHlo.TRef.nullary main_call7.cst (constant S_ .f32 0x00000000#32),
    StableHlo.TRef.unary main_call7.cst main_call7.v0 (broadcastInDim S50000x128 ![] bcast_S_S50000x128),
    StableHlo.TRef.binary (.of main_v162 : StableHlo.TRef sig ⟨S50000x128, .f32⟩) main_call7.v0 main_call7.v1 maximumf ]

/-- Stage 6: operations 281 to 308 of @main (calls listed inline). -/
abbrev st6 : List (HloOp τ sig (Elt F)) :=
  [ StableHlo.nullary main_c_22 (constantI S_ 32 0#32),
    StableHlo.unary main_c_22 main_v164 (broadcastInDim S800000 ![] bcast_S_S800000 : (⟨S_, .i32⟩ : BufTy).Contents (Elt F) → (⟨S800000, .i32⟩ : BufTy).Contents (Elt F)),
    StableHlo.binary main_v1 main_v164 main_v165 (cmpi .slt : (⟨S800000, .i32⟩ : BufTy).Contents (Elt F) → (⟨S800000, .i32⟩ : BufTy).Contents (Elt F) → (⟨S800000, .i1⟩ : BufTy).Contents (Elt F)),
    StableHlo.nullary main_c_23 (constantI S_ 32 50000#32),
    StableHlo.unary main_c_23 main_v166 (broadcastInDim S800000 ![] bcast_S_S800000 : (⟨S_, .i32⟩ : BufTy).Contents (Elt F) → (⟨S800000, .i32⟩ : BufTy).Contents (Elt F)),
    StableHlo.binary main_v1 main_v166 main_v167 (addi : (⟨S800000, .i32⟩ : BufTy).Contents (Elt F) → (⟨S800000, .i32⟩ : BufTy).Contents (Elt F) → (⟨S800000, .i32⟩ : BufTy).Contents (Elt F)),
    StableHlo.ternary main_v165 main_v167 main_v1 main_v168 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v168 main_v169 (broadcastInDim S800000x1 ![0] bcast_S800000_S800000x1_0 : (⟨S800000, .i32⟩ : BufTy).Contents (Elt F) → (⟨S800000x1, .i32⟩ : BufTy).Contents (Elt F)),
    StableHlo.binary main_v163 main_v169 main_v170 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_24 (constant S_ .f32 0x00000000#32),
    StableHlo.unary main_cst_24 main_v171 (broadcastInDim S50000x128 ![] bcast_S_S50000x128 : (⟨S_, .f32⟩ : BufTy).Contents (Elt F) → (⟨S50000x128, .f32⟩ : BufTy).Contents (Elt F)),
    StableHlo.unary main_v3 main_v172 (broadcastInDim S800000x1 ![0] bcast_S800000_S800000x1_0 : (⟨S800000, .i32⟩ : BufTy).Contents (Elt F) → (⟨S800000x1, .i32⟩ : BufTy).Contents (Elt F)),
    StableHlo.ternary main_v171 main_v172 main_v170 main_v173 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_arg8 main_v174 ((extractStridedSlice S1 ![2] · slices_S5_S1_2) : (⟨S5, .f32⟩ : BufTy).Contents (Elt F) → (⟨S1, .f32⟩ : BufTy).Contents (Elt F)),
    StableHlo.reshape main_v174 main_v175 rfl shapeCasts_S1_S_,
    StableHlo.nullary main_cst_25 (constant S_ .f32 0x3F800000#32),
    StableHlo.binary main_cst_25 main_v175 main_v176 (addf : (⟨S_, .f32⟩ : BufTy).Contents (Elt F) → (⟨S_, .f32⟩ : BufTy).Contents (Elt F) → (⟨S_, .f32⟩ : BufTy).Contents (Elt F)),
    StableHlo.unary main_v176 main_v177 (broadcastInDim S50000x128 ![] bcast_S_S50000x128 : (⟨S_, .f32⟩ : BufTy).Contents (Elt F) → (⟨S50000x128, .f32⟩ : BufTy).Contents (Elt F)),
    StableHlo.binary main_v177 main_v163 main_v178 (mulf : (⟨S50000x128, .f32⟩ : BufTy).Contents (Elt F) → (⟨S50000x128, .f32⟩ : BufTy).Contents (Elt F) → (⟨S50000x128, .f32⟩ : BufTy).Contents (Elt F)),
    StableHlo.binary main_v178 main_v173 main_v179 (addf : (⟨S50000x128, .f32⟩ : BufTy).Contents (Elt F) → (⟨S50000x128, .f32⟩ : BufTy).Contents (Elt F) → (⟨S50000x128, .f32⟩ : BufTy).Contents (Elt F)),
    StableHlo.unary main_arg2 main_v180 ((extractStridedSlice S1x128x256 ![2, 0, 0] · slices_S5x128x256_S1x128x256_2_0_0) : (⟨S5x128x256, .f32⟩ : BufTy).Contents (Elt F) → (⟨S1x128x256, .f32⟩ : BufTy).Contents (Elt F)),
    StableHlo.reshape main_v180 main_v181 rfl shapeCasts_S1x128x256_S128x256,
    StableHlo.binary main_v179 main_v181 main_v182 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.unary main_arg3 main_v183 ((extractStridedSlice S1x256 ![2, 0] · slices_S5x256_S1x256_2_0) : (⟨S5x256, .f32⟩ : BufTy).Contents (Elt F) → (⟨S1x256, .f32⟩ : BufTy).Contents (Elt F)),
    StableHlo.reshape main_v183 main_v184 rfl shapeCasts_S1x256_S256,
    StableHlo.unary main_v184 main_v185 (broadcastInDim S1x256 ![1] bcast_S256_S1x256_1 : (⟨S256, .f32⟩ : BufTy).Contents (Elt F) → (⟨S1x256, .f32⟩ : BufTy).Contents (Elt F)),
    StableHlo.unary main_v185 main_v186 (broadcastInDim S50000x256 ![0, 1] bcast_S1x256_S50000x256_0_1 : (⟨S1x256, .f32⟩ : BufTy).Contents (Elt F) → (⟨S50000x256, .f32⟩ : BufTy).Contents (Elt F)),
    StableHlo.binary main_v182 main_v186 main_v187 (addf : (⟨S50000x256, .f32⟩ : BufTy).Contents (Elt F) → (⟨S50000x256, .f32⟩ : BufTy).Contents (Elt F) → (⟨S50000x256, .f32⟩ : BufTy).Contents (Elt F)) ]

/-- Stage 7: operations 309 to 367 of @main (calls listed inline). -/
abbrev st7 : List (HloOp τ sig (Elt F)) :=
  [ StableHlo.unary main_arg4 main_v188 ((extractStridedSlice S1x256 ![2, 0] · slices_S5x256_S1x256_2_0) : (⟨S5x256, .f32⟩ : BufTy).Contents (Elt F) → (⟨S1x256, .f32⟩ : BufTy).Contents (Elt F)),
    StableHlo.reshape main_v188 main_v189 rfl shapeCasts_S1x256_S256,
    StableHlo.unary main_arg5 main_v190 ((extractStridedSlice S1x256 ![2, 0] · slices_S5x256_S1x256_2_0) : (⟨S5x256, .f32⟩ : BufTy).Contents (Elt F) → (⟨S1x256, .f32⟩ : BufTy).Contents (Elt F)),
    StableHlo.reshape main_v190 main_v191 rfl shapeCasts_S1x256_S256,
    StableHlo.nullary main_cst_26 (constant S_ .f32 0x00000000#32),
    StableHlo.binary main_v187 main_cst_26 main_v192 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_27 (constant S_ .f32 0x47435000#32),
    StableHlo.unary main_cst_27 main_v193 (broadcastInDim S256 ![] bcast_S_S256 : (⟨S_, .f32⟩ : BufTy).Contents (Elt F) → (⟨S256, .f32⟩ : BufTy).Contents (Elt F)),
    StableHlo.binary main_v192 main_v193 main_v194 (Host.divf : (⟨S256, .f32⟩ : BufTy).Contents (Elt F) → (⟨S256, .f32⟩ : BufTy).Contents (Elt F) → (⟨S256, .f32⟩ : BufTy).Contents (Elt F)),
    StableHlo.nullary main_c_28 (constantI S_ 32 0#32),
    StableHlo.TRef.nullary main_call8.cst (constant S_ .f32 0x00000000#32),
    StableHlo.TRef.binary (.of main_v187 : StableHlo.TRef sig ⟨S50000x256, .f32⟩) main_call8.cst main_call8.v0 (fun x v => Host.reduceAdd x v reducesTo_S50000x256_S256_d0 h_S_),
    StableHlo.TRef.unary main_call8.v0 main_call8.v1 (broadcastInDim S1x256 ![1] bcast_S256_S1x256_1),
    StableHlo.TRef.nullary main_call8.cst_0 (constant S_ .f32 0x47435000#32),
    StableHlo.TRef.unary main_call8.cst_0 main_call8.v2 (broadcastInDim S1x256 ![] bcast_S_S1x256),
    StableHlo.TRef.binary main_call8.v1 main_call8.v2 main_call8.v3 Host.divf,
    StableHlo.TRef.unary main_call8.v3 main_call8.v4 (broadcastInDim S50000x256 ![0, 1] bcast_S1x256_S50000x256_0_1),
    StableHlo.TRef.binary (.of main_v187 : StableHlo.TRef sig ⟨S50000x256, .f32⟩) main_call8.v4 main_call8.v5 subf,
    StableHlo.TRef.binary main_call8.v5 main_call8.v5 main_call8.v6 mulf,
    StableHlo.TRef.unary (.of main_c_28 : StableHlo.TRef sig ⟨S_, .i32⟩) main_call8.v7 (sitofp .f32),
    StableHlo.TRef.nullary main_call8.cst_1 (constant S_ .f32 0x47435000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S50000x256_S256_d0 h_S_),
    StableHlo.TRef.unary main_call8.v8 main_call8.v10 (broadcastInDim S256 ![] bcast_S_S256),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S256 ![] bcast_S_S256),
    StableHlo.TRef.ternary main_call8.v12 main_call8.v11 main_call8.call0.v1 main_call8.call0.v2 (fun p a b => select (broadcastInDim S256 ![] bcast_S_S256 p) a b),
    StableHlo.unary main_v194 main_v196 (broadcastInDim S1x256 ![1] bcast_S256_S1x256_1 : (⟨S256, .f32⟩ : BufTy).Contents (Elt F) → (⟨S1x256, .f32⟩ : BufTy).Contents (Elt F)),
    StableHlo.unary main_v196 main_v197 (broadcastInDim S50000x256 ![0, 1] bcast_S1x256_S50000x256_0_1 : (⟨S1x256, .f32⟩ : BufTy).Contents (Elt F) → (⟨S50000x256, .f32⟩ : BufTy).Contents (Elt F)),
    StableHlo.binary main_v187 main_v197 main_v198 (subf : (⟨S50000x256, .f32⟩ : BufTy).Contents (Elt F) → (⟨S50000x256, .f32⟩ : BufTy).Contents (Elt F) → (⟨S50000x256, .f32⟩ : BufTy).Contents (Elt F)),
    StableHlo.unary main_v189 main_v199 (broadcastInDim S1x256 ![1] bcast_S256_S1x256_1 : (⟨S256, .f32⟩ : BufTy).Contents (Elt F) → (⟨S1x256, .f32⟩ : BufTy).Contents (Elt F)),
    StableHlo.unary main_v199 main_v200 (broadcastInDim S50000x256 ![0, 1] bcast_S1x256_S50000x256_0_1 : (⟨S1x256, .f32⟩ : BufTy).Contents (Elt F) → (⟨S50000x256, .f32⟩ : BufTy).Contents (Elt F)),
    StableHlo.binary main_v200 main_v198 main_v201 (mulf : (⟨S50000x256, .f32⟩ : BufTy).Contents (Elt F) → (⟨S50000x256, .f32⟩ : BufTy).Contents (Elt F) → (⟨S50000x256, .f32⟩ : BufTy).Contents (Elt F)),
    StableHlo.nullary main_cst_29 (constant S_ .f32 0x3727C5AC#32),
    StableHlo.unary main_cst_29 main_v202 (broadcastInDim S256 ![] bcast_S_S256 : (⟨S_, .f32⟩ : BufTy).Contents (Elt F) → (⟨S256, .f32⟩ : BufTy).Contents (Elt F)),
    StableHlo.binary main_v195 main_v202 main_v203 (addf : (⟨S256, .f32⟩ : BufTy).Contents (Elt F) → (⟨S256, .f32⟩ : BufTy).Contents (Elt F) → (⟨S256, .f32⟩ : BufTy).Contents (Elt F)),
    StableHlo.unary main_v203 main_v204 (Host.rsqrt : (⟨S256, .f32⟩ : BufTy).Contents (Elt F) → (⟨S256, .f32⟩ : BufTy).Contents (Elt F)),
    StableHlo.unary main_v204 main_v205 (broadcastInDim S1x256 ![1] bcast_S256_S1x256_1 : (⟨S256, .f32⟩ : BufTy).Contents (Elt F) → (⟨S1x256, .f32⟩ : BufTy).Contents (Elt F)),
    StableHlo.unary main_v205 main_v206 (broadcastInDim S50000x256 ![0, 1] bcast_S1x256_S50000x256_0_1 : (⟨S1x256, .f32⟩ : BufTy).Contents (Elt F) → (⟨S50000x256, .f32⟩ : BufTy).Contents (Elt F)),
    StableHlo.binary main_v201 main_v206 main_v207 (mulf : (⟨S50000x256, .f32⟩ : BufTy).Contents (Elt F) → (⟨S50000x256, .f32⟩ : BufTy).Contents (Elt F) → (⟨S50000x256, .f32⟩ : BufTy).Contents (Elt F)),
    StableHlo.unary main_v191 main_v208 (broadcastInDim S1x256 ![1] bcast_S256_S1x256_1 : (⟨S256, .f32⟩ : BufTy).Contents (Elt F) → (⟨S1x256, .f32⟩ : BufTy).Contents (Elt F)),
    StableHlo.unary main_v208 main_v209 (broadcastInDim S50000x256 ![0, 1] bcast_S1x256_S50000x256_0_1 : (⟨S1x256, .f32⟩ : BufTy).Contents (Elt F) → (⟨S50000x256, .f32⟩ : BufTy).Contents (Elt F)),
    StableHlo.binary main_v207 main_v209 main_v210 (addf : (⟨S50000x256, .f32⟩ : BufTy).Contents (Elt F) → (⟨S50000x256, .f32⟩ : BufTy).Contents (Elt F) → (⟨S50000x256, .f32⟩ : BufTy).Contents (Elt F)),
    StableHlo.TRef.nullary main_call9.cst (constant S_ .f32 0x00000000#32),
    StableHlo.TRef.unary main_call9.cst main_call9.v0 (broadcastInDim S50000x256 ![] bcast_S_S50000x256),
    StableHlo.TRef.binary (.of main_v210 : StableHlo.TRef sig ⟨S50000x256, .f32⟩) main_call9.v0 main_call9.v1 maximumf,
    StableHlo.unary main_arg6 main_v212 ((extractStridedSlice S1x256x128 ![2, 0, 0] · slices_S5x256x128_S1x256x128_2_0_0) : (⟨S5x256x128, .f32⟩ : BufTy).Contents (Elt F) → (⟨S1x256x128, .f32⟩ : BufTy).Contents (Elt F)),
    StableHlo.reshape main_v212 main_v213 rfl shapeCasts_S1x256x128_S256x128,
    StableHlo.binary main_v211 main_v213 main_v214 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg7 main_v215 ((extractStridedSlice S1x128 ![2, 0] · slices_S5x128_S1x128_2_0) : (⟨S5x128, .f32⟩ : BufTy).Contents (Elt F) → (⟨S1x128, .f32⟩ : BufTy).Contents (Elt F)),
    StableHlo.reshape main_v215 main_v216 rfl shapeCasts_S1x128_S128,
    StableHlo.unary main_v216 main_v217 (broadcastInDim S1x128 ![1] bcast_S128_S1x128_1 : (⟨S128, .f32⟩ : BufTy).Contents (Elt F) → (⟨S1x128, .f32⟩ : BufTy).Contents (Elt F)),
    StableHlo.unary main_v217 main_v218 (broadcastInDim S50000x128 ![0, 1] bcast_S1x128_S50000x128_0_1 : (⟨S1x128, .f32⟩ : BufTy).Contents (Elt F) → (⟨S50000x128, .f32⟩ : BufTy).Contents (Elt F)),
    StableHlo.binary main_v214 main_v218 main_v219 (addf : (⟨S50000x128, .f32⟩ : BufTy).Contents (Elt F) → (⟨S50000x128, .f32⟩ : BufTy).Contents (Elt F) → (⟨S50000x128, .f32⟩ : BufTy).Contents (Elt F)) ]

/-- Stage 8: operations 368 to 418 of @main (calls listed inline). -/
abbrev st8 : List (HloOp τ sig (Elt F)) :=
  [ StableHlo.unary main_arg9 main_v220 ((extractStridedSlice S1x128 ![2, 0] · slices_S5x128_S1x128_2_0) : (⟨S5x128, .f32⟩ : BufTy).Contents (Elt F) → (⟨S1x128, .f32⟩ : BufTy).Contents (Elt F)),
    StableHlo.reshape main_v220 main_v221 rfl shapeCasts_S1x128_S128,
    StableHlo.unary main_arg10 main_v222 ((extractStridedSlice S1x128 ![2, 0] · slices_S5x128_S1x128_2_0) : (⟨S5x128, .f32⟩ : BufTy).Contents (Elt F) → (⟨S1x128, .f32⟩ : BufTy).Contents (Elt F)),
    StableHlo.reshape main_v222 main_v223 rfl shapeCasts_S1x128_S128,
    StableHlo.nullary main_cst_30 (constant S_ .f32 0x00000000#32),
    StableHlo.binary main_v219 main_cst_30 main_v224 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_31 (constant S_ .f32 0x47435000#32),
    StableHlo.unary main_cst_31 main_v225 (broadcastInDim S128 ![] bcast_S_S128 : (⟨S_, .f32⟩ : BufTy).Contents (Elt F) → (⟨S128, .f32⟩ : BufTy).Contents (Elt F)),
    StableHlo.binary main_v224 main_v225 main_v226 (Host.divf : (⟨S128, .f32⟩ : BufTy).Contents (Elt F) → (⟨S128, .f32⟩ : BufTy).Contents (Elt F) → (⟨S128, .f32⟩ : BufTy).Contents (Elt F)),
    StableHlo.nullary main_c_32 (constantI S_ 32 0#32),
    StableHlo.TRef.nullary main_call10.cst (constant S_ .f32 0x00000000#32),
    StableHlo.TRef.binary (.of main_v219 : StableHlo.TRef sig ⟨S50000x128, .f32⟩) main_call10.cst main_call10.v0 (fun x v => Host.reduceAdd x v reducesTo_S50000x128_S128_d0 h_S_),
    StableHlo.TRef.unary main_call10.v0 main_call10.v1 (broadcastInDim S1x128 ![1] bcast_S128_S1x128_1),
    StableHlo.TRef.nullary main_call10.cst_0 (constant S_ .f32 0x47435000#32),
    StableHlo.TRef.unary main_call10.cst_0 main_call10.v2 (broadcastInDim S1x128 ![] bcast_S_S1x128),
    StableHlo.TRef.binary main_call10.v1 main_call10.v2 main_call10.v3 Host.divf,
    StableHlo.TRef.unary main_call10.v3 main_call10.v4 (broadcastInDim S50000x128 ![0, 1] bcast_S1x128_S50000x128_0_1),
    StableHlo.TRef.binary (.of main_v219 : StableHlo.TRef sig ⟨S50000x128, .f32⟩) main_call10.v4 main_call10.v5 subf,
    StableHlo.TRef.binary main_call10.v5 main_call10.v5 main_call10.v6 mulf,
    StableHlo.TRef.unary (.of main_c_32 : StableHlo.TRef sig ⟨S_, .i32⟩) main_call10.v7 (sitofp .f32),
    StableHlo.TRef.nullary main_call10.cst_1 (constant S_ .f32 0x47435000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S50000x128_S128_d0 h_S_),
    StableHlo.TRef.unary main_call10.v8 main_call10.v10 (broadcastInDim S128 ![] bcast_S_S128),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S128 ![] bcast_S_S128),
    StableHlo.TRef.ternary main_call10.v12 main_call10.v11 main_call10.call0.v1 main_call10.call0.v2 (fun p a b => select (broadcastInDim S128 ![] bcast_S_S128 p) a b),
    StableHlo.unary main_v226 main_v228 (broadcastInDim S1x128 ![1] bcast_S128_S1x128_1 : (⟨S128, .f32⟩ : BufTy).Contents (Elt F) → (⟨S1x128, .f32⟩ : BufTy).Contents (Elt F)),
    StableHlo.unary main_v228 main_v229 (broadcastInDim S50000x128 ![0, 1] bcast_S1x128_S50000x128_0_1 : (⟨S1x128, .f32⟩ : BufTy).Contents (Elt F) → (⟨S50000x128, .f32⟩ : BufTy).Contents (Elt F)),
    StableHlo.binary main_v219 main_v229 main_v230 (subf : (⟨S50000x128, .f32⟩ : BufTy).Contents (Elt F) → (⟨S50000x128, .f32⟩ : BufTy).Contents (Elt F) → (⟨S50000x128, .f32⟩ : BufTy).Contents (Elt F)),
    StableHlo.unary main_v221 main_v231 (broadcastInDim S1x128 ![1] bcast_S128_S1x128_1 : (⟨S128, .f32⟩ : BufTy).Contents (Elt F) → (⟨S1x128, .f32⟩ : BufTy).Contents (Elt F)),
    StableHlo.unary main_v231 main_v232 (broadcastInDim S50000x128 ![0, 1] bcast_S1x128_S50000x128_0_1 : (⟨S1x128, .f32⟩ : BufTy).Contents (Elt F) → (⟨S50000x128, .f32⟩ : BufTy).Contents (Elt F)),
    StableHlo.binary main_v232 main_v230 main_v233 (mulf : (⟨S50000x128, .f32⟩ : BufTy).Contents (Elt F) → (⟨S50000x128, .f32⟩ : BufTy).Contents (Elt F) → (⟨S50000x128, .f32⟩ : BufTy).Contents (Elt F)),
    StableHlo.nullary main_cst_33 (constant S_ .f32 0x3727C5AC#32),
    StableHlo.unary main_cst_33 main_v234 (broadcastInDim S128 ![] bcast_S_S128 : (⟨S_, .f32⟩ : BufTy).Contents (Elt F) → (⟨S128, .f32⟩ : BufTy).Contents (Elt F)),
    StableHlo.binary main_v227 main_v234 main_v235 (addf : (⟨S128, .f32⟩ : BufTy).Contents (Elt F) → (⟨S128, .f32⟩ : BufTy).Contents (Elt F) → (⟨S128, .f32⟩ : BufTy).Contents (Elt F)),
    StableHlo.unary main_v235 main_v236 (Host.rsqrt : (⟨S128, .f32⟩ : BufTy).Contents (Elt F) → (⟨S128, .f32⟩ : BufTy).Contents (Elt F)),
    StableHlo.unary main_v236 main_v237 (broadcastInDim S1x128 ![1] bcast_S128_S1x128_1 : (⟨S128, .f32⟩ : BufTy).Contents (Elt F) → (⟨S1x128, .f32⟩ : BufTy).Contents (Elt F)),
    StableHlo.unary main_v237 main_v238 (broadcastInDim S50000x128 ![0, 1] bcast_S1x128_S50000x128_0_1 : (⟨S1x128, .f32⟩ : BufTy).Contents (Elt F) → (⟨S50000x128, .f32⟩ : BufTy).Contents (Elt F)),
    StableHlo.binary main_v233 main_v238 main_v239 (mulf : (⟨S50000x128, .f32⟩ : BufTy).Contents (Elt F) → (⟨S50000x128, .f32⟩ : BufTy).Contents (Elt F) → (⟨S50000x128, .f32⟩ : BufTy).Contents (Elt F)),
    StableHlo.unary main_v223 main_v240 (broadcastInDim S1x128 ![1] bcast_S128_S1x128_1 : (⟨S128, .f32⟩ : BufTy).Contents (Elt F) → (⟨S1x128, .f32⟩ : BufTy).Contents (Elt F)),
    StableHlo.unary main_v240 main_v241 (broadcastInDim S50000x128 ![0, 1] bcast_S1x128_S50000x128_0_1 : (⟨S1x128, .f32⟩ : BufTy).Contents (Elt F) → (⟨S50000x128, .f32⟩ : BufTy).Contents (Elt F)),
    StableHlo.binary main_v239 main_v241 main_v242 (addf : (⟨S50000x128, .f32⟩ : BufTy).Contents (Elt F) → (⟨S50000x128, .f32⟩ : BufTy).Contents (Elt F) → (⟨S50000x128, .f32⟩ : BufTy).Contents (Elt F)),
    StableHlo.TRef.nullary main_call11.cst (constant S_ .f32 0x00000000#32),
    StableHlo.TRef.unary main_call11.cst main_call11.v0 (broadcastInDim S50000x128 ![] bcast_S_S50000x128),
    StableHlo.TRef.binary (.of main_v242 : StableHlo.TRef sig ⟨S50000x128, .f32⟩) main_call11.v0 main_call11.v1 maximumf ]

/-- Stage 9: operations 419 to 446 of @main (calls listed inline). -/
abbrev st9 : List (HloOp τ sig (Elt F)) :=
  [ StableHlo.nullary main_c_34 (constantI S_ 32 0#32),
    StableHlo.unary main_c_34 main_v244 (broadcastInDim S800000 ![] bcast_S_S800000 : (⟨S_, .i32⟩ : BufTy).Contents (Elt F) → (⟨S800000, .i32⟩ : BufTy).Contents (Elt F)),
    StableHlo.binary main_v1 main_v244 main_v245 (cmpi .slt : (⟨S800000, .i32⟩ : BufTy).Contents (Elt F) → (⟨S800000, .i32⟩ : BufTy).Contents (Elt F) → (⟨S800000, .i1⟩ : BufTy).Contents (Elt F)),
    StableHlo.nullary main_c_35 (constantI S_ 32 50000#32),
    StableHlo.unary main_c_35 main_v246 (broadcastInDim S800000 ![] bcast_S_S800000 : (⟨S_, .i32⟩ : BufTy).Contents (Elt F) → (⟨S800000, .i32⟩ : BufTy).Contents (Elt F)),
    StableHlo.binary main_v1 main_v246 main_v247 (addi : (⟨S800000, .i32⟩ : BufTy).Contents (Elt F) → (⟨S800000, .i32⟩ : BufTy).Contents (Elt F) → (⟨S800000, .i32⟩ : BufTy).Contents (Elt F)),
    StableHlo.ternary main_v245 main_v247 main_v1 main_v248 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v248 main_v249 (broadcastInDim S800000x1 ![0] bcast_S800000_S800000x1_0 : (⟨S800000, .i32⟩ : BufTy).Contents (Elt F) → (⟨S800000x1, .i32⟩ : BufTy).Contents (Elt F)),
    StableHlo.binary main_v243 main_v249 main_v250 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_36 (constant S_ .f32 0x00000000#32),
    StableHlo.unary main_cst_36 main_v251 (broadcastInDim S50000x128 ![] bcast_S_S50000x128 : (⟨S_, .f32⟩ : BufTy).Contents (Elt F) → (⟨S50000x128, .f32⟩ : BufTy).Contents (Elt F)),
    StableHlo.unary main_v3 main_v252 (broadcastInDim S800000x1 ![0] bcast_S800000_S800000x1_0 : (⟨S800000, .i32⟩ : BufTy).Contents (Elt F) → (⟨S800000x1, .i32⟩ : BufTy).Contents (Elt F)),
    StableHlo.ternary main_v251 main_v252 main_v250 main_v253 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_arg8 main_v254 ((extractStridedSlice S1 ![3] · slices_S5_S1_3) : (⟨S5, .f32⟩ : BufTy).Contents (Elt F) → (⟨S1, .f32⟩ : BufTy).Contents (Elt F)),
    StableHlo.reshape main_v254 main_v255 rfl shapeCasts_S1_S_,
    StableHlo.nullary main_cst_37 (constant S_ .f32 0x3F800000#32),
    StableHlo.binary main_cst_37 main_v255 main_v256 (addf : (⟨S_, .f32⟩ : BufTy).Contents (Elt F) → (⟨S_, .f32⟩ : BufTy).Contents (Elt F) → (⟨S_, .f32⟩ : BufTy).Contents (Elt F)),
    StableHlo.unary main_v256 main_v257 (broadcastInDim S50000x128 ![] bcast_S_S50000x128 : (⟨S_, .f32⟩ : BufTy).Contents (Elt F) → (⟨S50000x128, .f32⟩ : BufTy).Contents (Elt F)),
    StableHlo.binary main_v257 main_v243 main_v258 (mulf : (⟨S50000x128, .f32⟩ : BufTy).Contents (Elt F) → (⟨S50000x128, .f32⟩ : BufTy).Contents (Elt F) → (⟨S50000x128, .f32⟩ : BufTy).Contents (Elt F)),
    StableHlo.binary main_v258 main_v253 main_v259 (addf : (⟨S50000x128, .f32⟩ : BufTy).Contents (Elt F) → (⟨S50000x128, .f32⟩ : BufTy).Contents (Elt F) → (⟨S50000x128, .f32⟩ : BufTy).Contents (Elt F)),
    StableHlo.unary main_arg2 main_v260 ((extractStridedSlice S1x128x256 ![3, 0, 0] · slices_S5x128x256_S1x128x256_3_0_0) : (⟨S5x128x256, .f32⟩ : BufTy).Contents (Elt F) → (⟨S1x128x256, .f32⟩ : BufTy).Contents (Elt F)),
    StableHlo.reshape main_v260 main_v261 rfl shapeCasts_S1x128x256_S128x256,
    StableHlo.binary main_v259 main_v261 main_v262 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.unary main_arg3 main_v263 ((extractStridedSlice S1x256 ![3, 0] · slices_S5x256_S1x256_3_0) : (⟨S5x256, .f32⟩ : BufTy).Contents (Elt F) → (⟨S1x256, .f32⟩ : BufTy).Contents (Elt F)),
    StableHlo.reshape main_v263 main_v264 rfl shapeCasts_S1x256_S256,
    StableHlo.unary main_v264 main_v265 (broadcastInDim S1x256 ![1] bcast_S256_S1x256_1 : (⟨S256, .f32⟩ : BufTy).Contents (Elt F) → (⟨S1x256, .f32⟩ : BufTy).Contents (Elt F)),
    StableHlo.unary main_v265 main_v266 (broadcastInDim S50000x256 ![0, 1] bcast_S1x256_S50000x256_0_1 : (⟨S1x256, .f32⟩ : BufTy).Contents (Elt F) → (⟨S50000x256, .f32⟩ : BufTy).Contents (Elt F)),
    StableHlo.binary main_v262 main_v266 main_v267 (addf : (⟨S50000x256, .f32⟩ : BufTy).Contents (Elt F) → (⟨S50000x256, .f32⟩ : BufTy).Contents (Elt F) → (⟨S50000x256, .f32⟩ : BufTy).Contents (Elt F)) ]

/-- Stage 10: operations 447 to 505 of @main (calls listed inline). -/
abbrev st10 : List (HloOp τ sig (Elt F)) :=
  [ StableHlo.unary main_arg4 main_v268 ((extractStridedSlice S1x256 ![3, 0] · slices_S5x256_S1x256_3_0) : (⟨S5x256, .f32⟩ : BufTy).Contents (Elt F) → (⟨S1x256, .f32⟩ : BufTy).Contents (Elt F)),
    StableHlo.reshape main_v268 main_v269 rfl shapeCasts_S1x256_S256,
    StableHlo.unary main_arg5 main_v270 ((extractStridedSlice S1x256 ![3, 0] · slices_S5x256_S1x256_3_0) : (⟨S5x256, .f32⟩ : BufTy).Contents (Elt F) → (⟨S1x256, .f32⟩ : BufTy).Contents (Elt F)),
    StableHlo.reshape main_v270 main_v271 rfl shapeCasts_S1x256_S256,
    StableHlo.nullary main_cst_38 (constant S_ .f32 0x00000000#32),
    StableHlo.binary main_v267 main_cst_38 main_v272 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_39 (constant S_ .f32 0x47435000#32),
    StableHlo.unary main_cst_39 main_v273 (broadcastInDim S256 ![] bcast_S_S256 : (⟨S_, .f32⟩ : BufTy).Contents (Elt F) → (⟨S256, .f32⟩ : BufTy).Contents (Elt F)),
    StableHlo.binary main_v272 main_v273 main_v274 (Host.divf : (⟨S256, .f32⟩ : BufTy).Contents (Elt F) → (⟨S256, .f32⟩ : BufTy).Contents (Elt F) → (⟨S256, .f32⟩ : BufTy).Contents (Elt F)),
    StableHlo.nullary main_c_40 (constantI S_ 32 0#32),
    StableHlo.TRef.nullary main_call12.cst (constant S_ .f32 0x00000000#32),
    StableHlo.TRef.binary (.of main_v267 : StableHlo.TRef sig ⟨S50000x256, .f32⟩) main_call12.cst main_call12.v0 (fun x v => Host.reduceAdd x v reducesTo_S50000x256_S256_d0 h_S_),
    StableHlo.TRef.unary main_call12.v0 main_call12.v1 (broadcastInDim S1x256 ![1] bcast_S256_S1x256_1),
    StableHlo.TRef.nullary main_call12.cst_0 (constant S_ .f32 0x47435000#32),
    StableHlo.TRef.unary main_call12.cst_0 main_call12.v2 (broadcastInDim S1x256 ![] bcast_S_S1x256),
    StableHlo.TRef.binary main_call12.v1 main_call12.v2 main_call12.v3 Host.divf,
    StableHlo.TRef.unary main_call12.v3 main_call12.v4 (broadcastInDim S50000x256 ![0, 1] bcast_S1x256_S50000x256_0_1),
    StableHlo.TRef.binary (.of main_v267 : StableHlo.TRef sig ⟨S50000x256, .f32⟩) main_call12.v4 main_call12.v5 subf,
    StableHlo.TRef.binary main_call12.v5 main_call12.v5 main_call12.v6 mulf,
    StableHlo.TRef.unary (.of main_c_40 : StableHlo.TRef sig ⟨S_, .i32⟩) main_call12.v7 (sitofp .f32),
    StableHlo.TRef.nullary main_call12.cst_1 (constant S_ .f32 0x47435000#32),
    StableHlo.TRef.binary main_call12.cst_1 main_call12.v7 main_call12.v8 subf,
    StableHlo.TRef.nullary main_call12.cst_2 (constant S_ .f32 0x00000000#32),
    StableHlo.TRef.binary main_call12.v6 main_call12.cst_2 main_call12.v9 (fun x v => Host.reduceAdd x v reducesTo_S50000x256_S256_d0 h_S_),
    StableHlo.TRef.unary main_call12.v8 main_call12.v10 (broadcastInDim S256 ![] bcast_S_S256),
    StableHlo.TRef.binary main_call12.v9 main_call12.v10 main_call12.v11 Host.divf,
    StableHlo.TRef.nullary main_call12.cst_3 (constant S_ .f32 0x00000000#32),
    StableHlo.TRef.binary main_call12.v8 main_call12.cst_3 main_call12.v12 (cmpf .ogt),
    StableHlo.TRef.nullary main_call12.cst_4 (constant S_ .f32 0x7FC00000#32),
    StableHlo.TRef.unary main_call12.cst_4 main_call12.call0.v0 id,
    StableHlo.TRef.unary main_call12.call0.v0 main_call12.call0.v1 (broadcastInDim S256 ![] bcast_S_S256),
    StableHlo.TRef.ternary main_call12.v12 main_call12.v11 main_call12.call0.v1 main_call12.call0.v2 (fun p a b => select (broadcastInDim S256 ![] bcast_S_S256 p) a b),
    StableHlo.unary main_v274 main_v276 (broadcastInDim S1x256 ![1] bcast_S256_S1x256_1 : (⟨S256, .f32⟩ : BufTy).Contents (Elt F) → (⟨S1x256, .f32⟩ : BufTy).Contents (Elt F)),
    StableHlo.unary main_v276 main_v277 (broadcastInDim S50000x256 ![0, 1] bcast_S1x256_S50000x256_0_1 : (⟨S1x256, .f32⟩ : BufTy).Contents (Elt F) → (⟨S50000x256, .f32⟩ : BufTy).Contents (Elt F)),
    StableHlo.binary main_v267 main_v277 main_v278 (subf : (⟨S50000x256, .f32⟩ : BufTy).Contents (Elt F) → (⟨S50000x256, .f32⟩ : BufTy).Contents (Elt F) → (⟨S50000x256, .f32⟩ : BufTy).Contents (Elt F)),
    StableHlo.unary main_v269 main_v279 (broadcastInDim S1x256 ![1] bcast_S256_S1x256_1 : (⟨S256, .f32⟩ : BufTy).Contents (Elt F) → (⟨S1x256, .f32⟩ : BufTy).Contents (Elt F)),
    StableHlo.unary main_v279 main_v280 (broadcastInDim S50000x256 ![0, 1] bcast_S1x256_S50000x256_0_1 : (⟨S1x256, .f32⟩ : BufTy).Contents (Elt F) → (⟨S50000x256, .f32⟩ : BufTy).Contents (Elt F)),
    StableHlo.binary main_v280 main_v278 main_v281 (mulf : (⟨S50000x256, .f32⟩ : BufTy).Contents (Elt F) → (⟨S50000x256, .f32⟩ : BufTy).Contents (Elt F) → (⟨S50000x256, .f32⟩ : BufTy).Contents (Elt F)),
    StableHlo.nullary main_cst_41 (constant S_ .f32 0x3727C5AC#32),
    StableHlo.unary main_cst_41 main_v282 (broadcastInDim S256 ![] bcast_S_S256 : (⟨S_, .f32⟩ : BufTy).Contents (Elt F) → (⟨S256, .f32⟩ : BufTy).Contents (Elt F)),
    StableHlo.binary main_v275 main_v282 main_v283 (addf : (⟨S256, .f32⟩ : BufTy).Contents (Elt F) → (⟨S256, .f32⟩ : BufTy).Contents (Elt F) → (⟨S256, .f32⟩ : BufTy).Contents (Elt F)),
    StableHlo.unary main_v283 main_v284 (Host.rsqrt : (⟨S256, .f32⟩ : BufTy).Contents (Elt F) → (⟨S256, .f32⟩ : BufTy).Contents (Elt F)),
    StableHlo.unary main_v284 main_v285 (broadcastInDim S1x256 ![1] bcast_S256_S1x256_1 : (⟨S256, .f32⟩ : BufTy).Contents (Elt F) → (⟨S1x256, .f32⟩ : BufTy).Contents (Elt F)),
    StableHlo.unary main_v285 main_v286 (broadcastInDim S50000x256 ![0, 1] bcast_S1x256_S50000x256_0_1 : (⟨S1x256, .f32⟩ : BufTy).Contents (Elt F) → (⟨S50000x256, .f32⟩ : BufTy).Contents (Elt F)),
    StableHlo.binary main_v281 main_v286 main_v287 (mulf : (⟨S50000x256, .f32⟩ : BufTy).Contents (Elt F) → (⟨S50000x256, .f32⟩ : BufTy).Contents (Elt F) → (⟨S50000x256, .f32⟩ : BufTy).Contents (Elt F)),
    StableHlo.unary main_v271 main_v288 (broadcastInDim S1x256 ![1] bcast_S256_S1x256_1 : (⟨S256, .f32⟩ : BufTy).Contents (Elt F) → (⟨S1x256, .f32⟩ : BufTy).Contents (Elt F)),
    StableHlo.unary main_v288 main_v289 (broadcastInDim S50000x256 ![0, 1] bcast_S1x256_S50000x256_0_1 : (⟨S1x256, .f32⟩ : BufTy).Contents (Elt F) → (⟨S50000x256, .f32⟩ : BufTy).Contents (Elt F)),
    StableHlo.binary main_v287 main_v289 main_v290 (addf : (⟨S50000x256, .f32⟩ : BufTy).Contents (Elt F) → (⟨S50000x256, .f32⟩ : BufTy).Contents (Elt F) → (⟨S50000x256, .f32⟩ : BufTy).Contents (Elt F)),
    StableHlo.TRef.nullary main_call13.cst (constant S_ .f32 0x00000000#32),
    StableHlo.TRef.unary main_call13.cst main_call13.v0 (broadcastInDim S50000x256 ![] bcast_S_S50000x256),
    StableHlo.TRef.binary (.of main_v290 : StableHlo.TRef sig ⟨S50000x256, .f32⟩) main_call13.v0 main_call13.v1 maximumf,
    StableHlo.unary main_arg6 main_v292 ((extractStridedSlice S1x256x128 ![3, 0, 0] · slices_S5x256x128_S1x256x128_3_0_0) : (⟨S5x256x128, .f32⟩ : BufTy).Contents (Elt F) → (⟨S1x256x128, .f32⟩ : BufTy).Contents (Elt F)),
    StableHlo.reshape main_v292 main_v293 rfl shapeCasts_S1x256x128_S256x128,
    StableHlo.binary main_v291 main_v293 main_v294 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg7 main_v295 ((extractStridedSlice S1x128 ![3, 0] · slices_S5x128_S1x128_3_0) : (⟨S5x128, .f32⟩ : BufTy).Contents (Elt F) → (⟨S1x128, .f32⟩ : BufTy).Contents (Elt F)),
    StableHlo.reshape main_v295 main_v296 rfl shapeCasts_S1x128_S128,
    StableHlo.unary main_v296 main_v297 (broadcastInDim S1x128 ![1] bcast_S128_S1x128_1 : (⟨S128, .f32⟩ : BufTy).Contents (Elt F) → (⟨S1x128, .f32⟩ : BufTy).Contents (Elt F)),
    StableHlo.unary main_v297 main_v298 (broadcastInDim S50000x128 ![0, 1] bcast_S1x128_S50000x128_0_1 : (⟨S1x128, .f32⟩ : BufTy).Contents (Elt F) → (⟨S50000x128, .f32⟩ : BufTy).Contents (Elt F)),
    StableHlo.binary main_v294 main_v298 main_v299 (addf : (⟨S50000x128, .f32⟩ : BufTy).Contents (Elt F) → (⟨S50000x128, .f32⟩ : BufTy).Contents (Elt F) → (⟨S50000x128, .f32⟩ : BufTy).Contents (Elt F)) ]

/-- Stage 11: operations 506 to 556 of @main (calls listed inline). -/
abbrev st11 : List (HloOp τ sig (Elt F)) :=
  [ StableHlo.unary main_arg9 main_v300 ((extractStridedSlice S1x128 ![3, 0] · slices_S5x128_S1x128_3_0) : (⟨S5x128, .f32⟩ : BufTy).Contents (Elt F) → (⟨S1x128, .f32⟩ : BufTy).Contents (Elt F)),
    StableHlo.reshape main_v300 main_v301 rfl shapeCasts_S1x128_S128,
    StableHlo.unary main_arg10 main_v302 ((extractStridedSlice S1x128 ![3, 0] · slices_S5x128_S1x128_3_0) : (⟨S5x128, .f32⟩ : BufTy).Contents (Elt F) → (⟨S1x128, .f32⟩ : BufTy).Contents (Elt F)),
    StableHlo.reshape main_v302 main_v303 rfl shapeCasts_S1x128_S128,
    StableHlo.nullary main_cst_42 (constant S_ .f32 0x00000000#32),
    StableHlo.binary main_v299 main_cst_42 main_v304 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_43 (constant S_ .f32 0x47435000#32),
    StableHlo.unary main_cst_43 main_v305 (broadcastInDim S128 ![] bcast_S_S128 : (⟨S_, .f32⟩ : BufTy).Contents (Elt F) → (⟨S128, .f32⟩ : BufTy).Contents (Elt F)),
    StableHlo.binary main_v304 main_v305 main_v306 (Host.divf : (⟨S128, .f32⟩ : BufTy).Contents (Elt F) → (⟨S128, .f32⟩ : BufTy).Contents (Elt F) → (⟨S128, .f32⟩ : BufTy).Contents (Elt F)),
    StableHlo.nullary main_c_44 (constantI S_ 32 0#32),
    StableHlo.TRef.nullary main_call14.cst (constant S_ .f32 0x00000000#32),
    StableHlo.TRef.binary (.of main_v299 : StableHlo.TRef sig ⟨S50000x128, .f32⟩) main_call14.cst main_call14.v0 (fun x v => Host.reduceAdd x v reducesTo_S50000x128_S128_d0 h_S_),
    StableHlo.TRef.unary main_call14.v0 main_call14.v1 (broadcastInDim S1x128 ![1] bcast_S128_S1x128_1),
    StableHlo.TRef.nullary main_call14.cst_0 (constant S_ .f32 0x47435000#32),
    StableHlo.TRef.unary main_call14.cst_0 main_call14.v2 (broadcastInDim S1x128 ![] bcast_S_S1x128),
    StableHlo.TRef.binary main_call14.v1 main_call14.v2 main_call14.v3 Host.divf,
    StableHlo.TRef.unary main_call14.v3 main_call14.v4 (broadcastInDim S50000x128 ![0, 1] bcast_S1x128_S50000x128_0_1),
    StableHlo.TRef.binary (.of main_v299 : StableHlo.TRef sig ⟨S50000x128, .f32⟩) main_call14.v4 main_call14.v5 subf,
    StableHlo.TRef.binary main_call14.v5 main_call14.v5 main_call14.v6 mulf,
    StableHlo.TRef.unary (.of main_c_44 : StableHlo.TRef sig ⟨S_, .i32⟩) main_call14.v7 (sitofp .f32),
    StableHlo.TRef.nullary main_call14.cst_1 (constant S_ .f32 0x47435000#32),
    StableHlo.TRef.binary main_call14.cst_1 main_call14.v7 main_call14.v8 subf,
    StableHlo.TRef.nullary main_call14.cst_2 (constant S_ .f32 0x00000000#32),
    StableHlo.TRef.binary main_call14.v6 main_call14.cst_2 main_call14.v9 (fun x v => Host.reduceAdd x v reducesTo_S50000x128_S128_d0 h_S_),
    StableHlo.TRef.unary main_call14.v8 main_call14.v10 (broadcastInDim S128 ![] bcast_S_S128),
    StableHlo.TRef.binary main_call14.v9 main_call14.v10 main_call14.v11 Host.divf,
    StableHlo.TRef.nullary main_call14.cst_3 (constant S_ .f32 0x00000000#32),
    StableHlo.TRef.binary main_call14.v8 main_call14.cst_3 main_call14.v12 (cmpf .ogt),
    StableHlo.TRef.nullary main_call14.cst_4 (constant S_ .f32 0x7FC00000#32),
    StableHlo.TRef.unary main_call14.cst_4 main_call14.call0.v0 id,
    StableHlo.TRef.unary main_call14.call0.v0 main_call14.call0.v1 (broadcastInDim S128 ![] bcast_S_S128),
    StableHlo.TRef.ternary main_call14.v12 main_call14.v11 main_call14.call0.v1 main_call14.call0.v2 (fun p a b => select (broadcastInDim S128 ![] bcast_S_S128 p) a b),
    StableHlo.unary main_v306 main_v308 (broadcastInDim S1x128 ![1] bcast_S128_S1x128_1 : (⟨S128, .f32⟩ : BufTy).Contents (Elt F) → (⟨S1x128, .f32⟩ : BufTy).Contents (Elt F)),
    StableHlo.unary main_v308 main_v309 (broadcastInDim S50000x128 ![0, 1] bcast_S1x128_S50000x128_0_1 : (⟨S1x128, .f32⟩ : BufTy).Contents (Elt F) → (⟨S50000x128, .f32⟩ : BufTy).Contents (Elt F)),
    StableHlo.binary main_v299 main_v309 main_v310 (subf : (⟨S50000x128, .f32⟩ : BufTy).Contents (Elt F) → (⟨S50000x128, .f32⟩ : BufTy).Contents (Elt F) → (⟨S50000x128, .f32⟩ : BufTy).Contents (Elt F)),
    StableHlo.unary main_v301 main_v311 (broadcastInDim S1x128 ![1] bcast_S128_S1x128_1 : (⟨S128, .f32⟩ : BufTy).Contents (Elt F) → (⟨S1x128, .f32⟩ : BufTy).Contents (Elt F)),
    StableHlo.unary main_v311 main_v312 (broadcastInDim S50000x128 ![0, 1] bcast_S1x128_S50000x128_0_1 : (⟨S1x128, .f32⟩ : BufTy).Contents (Elt F) → (⟨S50000x128, .f32⟩ : BufTy).Contents (Elt F)),
    StableHlo.binary main_v312 main_v310 main_v313 (mulf : (⟨S50000x128, .f32⟩ : BufTy).Contents (Elt F) → (⟨S50000x128, .f32⟩ : BufTy).Contents (Elt F) → (⟨S50000x128, .f32⟩ : BufTy).Contents (Elt F)),
    StableHlo.nullary main_cst_45 (constant S_ .f32 0x3727C5AC#32),
    StableHlo.unary main_cst_45 main_v314 (broadcastInDim S128 ![] bcast_S_S128 : (⟨S_, .f32⟩ : BufTy).Contents (Elt F) → (⟨S128, .f32⟩ : BufTy).Contents (Elt F)),
    StableHlo.binary main_v307 main_v314 main_v315 (addf : (⟨S128, .f32⟩ : BufTy).Contents (Elt F) → (⟨S128, .f32⟩ : BufTy).Contents (Elt F) → (⟨S128, .f32⟩ : BufTy).Contents (Elt F)),
    StableHlo.unary main_v315 main_v316 (Host.rsqrt : (⟨S128, .f32⟩ : BufTy).Contents (Elt F) → (⟨S128, .f32⟩ : BufTy).Contents (Elt F)),
    StableHlo.unary main_v316 main_v317 (broadcastInDim S1x128 ![1] bcast_S128_S1x128_1 : (⟨S128, .f32⟩ : BufTy).Contents (Elt F) → (⟨S1x128, .f32⟩ : BufTy).Contents (Elt F)),
    StableHlo.unary main_v317 main_v318 (broadcastInDim S50000x128 ![0, 1] bcast_S1x128_S50000x128_0_1 : (⟨S1x128, .f32⟩ : BufTy).Contents (Elt F) → (⟨S50000x128, .f32⟩ : BufTy).Contents (Elt F)),
    StableHlo.binary main_v313 main_v318 main_v319 (mulf : (⟨S50000x128, .f32⟩ : BufTy).Contents (Elt F) → (⟨S50000x128, .f32⟩ : BufTy).Contents (Elt F) → (⟨S50000x128, .f32⟩ : BufTy).Contents (Elt F)),
    StableHlo.unary main_v303 main_v320 (broadcastInDim S1x128 ![1] bcast_S128_S1x128_1 : (⟨S128, .f32⟩ : BufTy).Contents (Elt F) → (⟨S1x128, .f32⟩ : BufTy).Contents (Elt F)),
    StableHlo.unary main_v320 main_v321 (broadcastInDim S50000x128 ![0, 1] bcast_S1x128_S50000x128_0_1 : (⟨S1x128, .f32⟩ : BufTy).Contents (Elt F) → (⟨S50000x128, .f32⟩ : BufTy).Contents (Elt F)),
    StableHlo.binary main_v319 main_v321 main_v322 (addf : (⟨S50000x128, .f32⟩ : BufTy).Contents (Elt F) → (⟨S50000x128, .f32⟩ : BufTy).Contents (Elt F) → (⟨S50000x128, .f32⟩ : BufTy).Contents (Elt F)),
    StableHlo.TRef.nullary main_call15.cst (constant S_ .f32 0x00000000#32),
    StableHlo.TRef.unary main_call15.cst main_call15.v0 (broadcastInDim S50000x128 ![] bcast_S_S50000x128),
    StableHlo.TRef.binary (.of main_v322 : StableHlo.TRef sig ⟨S50000x128, .f32⟩) main_call15.v0 main_call15.v1 maximumf ]

/-- Stage 12: operations 557 to 584 of @main (calls listed inline). -/
abbrev st12 : List (HloOp τ sig (Elt F)) :=
  [ StableHlo.nullary main_c_46 (constantI S_ 32 0#32),
    StableHlo.unary main_c_46 main_v324 (broadcastInDim S800000 ![] bcast_S_S800000 : (⟨S_, .i32⟩ : BufTy).Contents (Elt F) → (⟨S800000, .i32⟩ : BufTy).Contents (Elt F)),
    StableHlo.binary main_v1 main_v324 main_v325 (cmpi .slt : (⟨S800000, .i32⟩ : BufTy).Contents (Elt F) → (⟨S800000, .i32⟩ : BufTy).Contents (Elt F) → (⟨S800000, .i1⟩ : BufTy).Contents (Elt F)),
    StableHlo.nullary main_c_47 (constantI S_ 32 50000#32),
    StableHlo.unary main_c_47 main_v326 (broadcastInDim S800000 ![] bcast_S_S800000 : (⟨S_, .i32⟩ : BufTy).Contents (Elt F) → (⟨S800000, .i32⟩ : BufTy).Contents (Elt F)),
    StableHlo.binary main_v1 main_v326 main_v327 (addi : (⟨S800000, .i32⟩ : BufTy).Contents (Elt F) → (⟨S800000, .i32⟩ : BufTy).Contents (Elt F) → (⟨S800000, .i32⟩ : BufTy).Contents (Elt F)),
    StableHlo.ternary main_v325 main_v327 main_v1 main_v328 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v328 main_v329 (broadcastInDim S800000x1 ![0] bcast_S800000_S800000x1_0 : (⟨S800000, .i32⟩ : BufTy).Contents (Elt F) → (⟨S800000x1, .i32⟩ : BufTy).Contents (Elt F)),
    StableHlo.binary main_v323 main_v329 main_v330 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_48 (constant S_ .f32 0x00000000#32),
    StableHlo.unary main_cst_48 main_v331 (broadcastInDim S50000x128 ![] bcast_S_S50000x128 : (⟨S_, .f32⟩ : BufTy).Contents (Elt F) → (⟨S50000x128, .f32⟩ : BufTy).Contents (Elt F)),
    StableHlo.unary main_v3 main_v332 (broadcastInDim S800000x1 ![0] bcast_S800000_S800000x1_0 : (⟨S800000, .i32⟩ : BufTy).Contents (Elt F) → (⟨S800000x1, .i32⟩ : BufTy).Contents (Elt F)),
    StableHlo.ternary main_v331 main_v332 main_v330 main_v333 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_arg8 main_v334 ((extractStridedSlice S1 ![4] · slices_S5_S1_4) : (⟨S5, .f32⟩ : BufTy).Contents (Elt F) → (⟨S1, .f32⟩ : BufTy).Contents (Elt F)),
    StableHlo.reshape main_v334 main_v335 rfl shapeCasts_S1_S_,
    StableHlo.nullary main_cst_49 (constant S_ .f32 0x3F800000#32),
    StableHlo.binary main_cst_49 main_v335 main_v336 (addf : (⟨S_, .f32⟩ : BufTy).Contents (Elt F) → (⟨S_, .f32⟩ : BufTy).Contents (Elt F) → (⟨S_, .f32⟩ : BufTy).Contents (Elt F)),
    StableHlo.unary main_v336 main_v337 (broadcastInDim S50000x128 ![] bcast_S_S50000x128 : (⟨S_, .f32⟩ : BufTy).Contents (Elt F) → (⟨S50000x128, .f32⟩ : BufTy).Contents (Elt F)),
    StableHlo.binary main_v337 main_v323 main_v338 (mulf : (⟨S50000x128, .f32⟩ : BufTy).Contents (Elt F) → (⟨S50000x128, .f32⟩ : BufTy).Contents (Elt F) → (⟨S50000x128, .f32⟩ : BufTy).Contents (Elt F)),
    StableHlo.binary main_v338 main_v333 main_v339 (addf : (⟨S50000x128, .f32⟩ : BufTy).Contents (Elt F) → (⟨S50000x128, .f32⟩ : BufTy).Contents (Elt F) → (⟨S50000x128, .f32⟩ : BufTy).Contents (Elt F)),
    StableHlo.unary main_arg2 main_v340 ((extractStridedSlice S1x128x256 ![4, 0, 0] · slices_S5x128x256_S1x128x256_4_0_0) : (⟨S5x128x256, .f32⟩ : BufTy).Contents (Elt F) → (⟨S1x128x256, .f32⟩ : BufTy).Contents (Elt F)),
    StableHlo.reshape main_v340 main_v341 rfl shapeCasts_S1x128x256_S128x256,
    StableHlo.binary main_v339 main_v341 main_v342 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.unary main_arg3 main_v343 ((extractStridedSlice S1x256 ![4, 0] · slices_S5x256_S1x256_4_0) : (⟨S5x256, .f32⟩ : BufTy).Contents (Elt F) → (⟨S1x256, .f32⟩ : BufTy).Contents (Elt F)),
    StableHlo.reshape main_v343 main_v344 rfl shapeCasts_S1x256_S256,
    StableHlo.unary main_v344 main_v345 (broadcastInDim S1x256 ![1] bcast_S256_S1x256_1 : (⟨S256, .f32⟩ : BufTy).Contents (Elt F) → (⟨S1x256, .f32⟩ : BufTy).Contents (Elt F)),
    StableHlo.unary main_v345 main_v346 (broadcastInDim S50000x256 ![0, 1] bcast_S1x256_S50000x256_0_1 : (⟨S1x256, .f32⟩ : BufTy).Contents (Elt F) → (⟨S50000x256, .f32⟩ : BufTy).Contents (Elt F)),
    StableHlo.binary main_v342 main_v346 main_v347 (addf : (⟨S50000x256, .f32⟩ : BufTy).Contents (Elt F) → (⟨S50000x256, .f32⟩ : BufTy).Contents (Elt F) → (⟨S50000x256, .f32⟩ : BufTy).Contents (Elt F)) ]

/-- Stage 13: operations 585 to 643 of @main (calls listed inline). -/
abbrev st13 : List (HloOp τ sig (Elt F)) :=
  [ StableHlo.unary main_arg4 main_v348 ((extractStridedSlice S1x256 ![4, 0] · slices_S5x256_S1x256_4_0) : (⟨S5x256, .f32⟩ : BufTy).Contents (Elt F) → (⟨S1x256, .f32⟩ : BufTy).Contents (Elt F)),
    StableHlo.reshape main_v348 main_v349 rfl shapeCasts_S1x256_S256,
    StableHlo.unary main_arg5 main_v350 ((extractStridedSlice S1x256 ![4, 0] · slices_S5x256_S1x256_4_0) : (⟨S5x256, .f32⟩ : BufTy).Contents (Elt F) → (⟨S1x256, .f32⟩ : BufTy).Contents (Elt F)),
    StableHlo.reshape main_v350 main_v351 rfl shapeCasts_S1x256_S256,
    StableHlo.nullary main_cst_50 (constant S_ .f32 0x00000000#32),
    StableHlo.binary main_v347 main_cst_50 main_v352 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_51 (constant S_ .f32 0x47435000#32),
    StableHlo.unary main_cst_51 main_v353 (broadcastInDim S256 ![] bcast_S_S256 : (⟨S_, .f32⟩ : BufTy).Contents (Elt F) → (⟨S256, .f32⟩ : BufTy).Contents (Elt F)),
    StableHlo.binary main_v352 main_v353 main_v354 (Host.divf : (⟨S256, .f32⟩ : BufTy).Contents (Elt F) → (⟨S256, .f32⟩ : BufTy).Contents (Elt F) → (⟨S256, .f32⟩ : BufTy).Contents (Elt F)),
    StableHlo.nullary main_c_52 (constantI S_ 32 0#32),
    StableHlo.TRef.nullary main_call16.cst (constant S_ .f32 0x00000000#32),
    StableHlo.TRef.binary (.of main_v347 : StableHlo.TRef sig ⟨S50000x256, .f32⟩) main_call16.cst main_call16.v0 (fun x v => Host.reduceAdd x v reducesTo_S50000x256_S256_d0 h_S_),
    StableHlo.TRef.unary main_call16.v0 main_call16.v1 (broadcastInDim S1x256 ![1] bcast_S256_S1x256_1),
    StableHlo.TRef.nullary main_call16.cst_0 (constant S_ .f32 0x47435000#32),
    StableHlo.TRef.unary main_call16.cst_0 main_call16.v2 (broadcastInDim S1x256 ![] bcast_S_S1x256),
    StableHlo.TRef.binary main_call16.v1 main_call16.v2 main_call16.v3 Host.divf,
    StableHlo.TRef.unary main_call16.v3 main_call16.v4 (broadcastInDim S50000x256 ![0, 1] bcast_S1x256_S50000x256_0_1),
    StableHlo.TRef.binary (.of main_v347 : StableHlo.TRef sig ⟨S50000x256, .f32⟩) main_call16.v4 main_call16.v5 subf,
    StableHlo.TRef.binary main_call16.v5 main_call16.v5 main_call16.v6 mulf,
    StableHlo.TRef.unary (.of main_c_52 : StableHlo.TRef sig ⟨S_, .i32⟩) main_call16.v7 (sitofp .f32),
    StableHlo.TRef.nullary main_call16.cst_1 (constant S_ .f32 0x47435000#32),
    StableHlo.TRef.binary main_call16.cst_1 main_call16.v7 main_call16.v8 subf,
    StableHlo.TRef.nullary main_call16.cst_2 (constant S_ .f32 0x00000000#32),
    StableHlo.TRef.binary main_call16.v6 main_call16.cst_2 main_call16.v9 (fun x v => Host.reduceAdd x v reducesTo_S50000x256_S256_d0 h_S_),
    StableHlo.TRef.unary main_call16.v8 main_call16.v10 (broadcastInDim S256 ![] bcast_S_S256),
    StableHlo.TRef.binary main_call16.v9 main_call16.v10 main_call16.v11 Host.divf,
    StableHlo.TRef.nullary main_call16.cst_3 (constant S_ .f32 0x00000000#32),
    StableHlo.TRef.binary main_call16.v8 main_call16.cst_3 main_call16.v12 (cmpf .ogt),
    StableHlo.TRef.nullary main_call16.cst_4 (constant S_ .f32 0x7FC00000#32),
    StableHlo.TRef.unary main_call16.cst_4 main_call16.call0.v0 id,
    StableHlo.TRef.unary main_call16.call0.v0 main_call16.call0.v1 (broadcastInDim S256 ![] bcast_S_S256),
    StableHlo.TRef.ternary main_call16.v12 main_call16.v11 main_call16.call0.v1 main_call16.call0.v2 (fun p a b => select (broadcastInDim S256 ![] bcast_S_S256 p) a b),
    StableHlo.unary main_v354 main_v356 (broadcastInDim S1x256 ![1] bcast_S256_S1x256_1 : (⟨S256, .f32⟩ : BufTy).Contents (Elt F) → (⟨S1x256, .f32⟩ : BufTy).Contents (Elt F)),
    StableHlo.unary main_v356 main_v357 (broadcastInDim S50000x256 ![0, 1] bcast_S1x256_S50000x256_0_1 : (⟨S1x256, .f32⟩ : BufTy).Contents (Elt F) → (⟨S50000x256, .f32⟩ : BufTy).Contents (Elt F)),
    StableHlo.binary main_v347 main_v357 main_v358 (subf : (⟨S50000x256, .f32⟩ : BufTy).Contents (Elt F) → (⟨S50000x256, .f32⟩ : BufTy).Contents (Elt F) → (⟨S50000x256, .f32⟩ : BufTy).Contents (Elt F)),
    StableHlo.unary main_v349 main_v359 (broadcastInDim S1x256 ![1] bcast_S256_S1x256_1 : (⟨S256, .f32⟩ : BufTy).Contents (Elt F) → (⟨S1x256, .f32⟩ : BufTy).Contents (Elt F)),
    StableHlo.unary main_v359 main_v360 (broadcastInDim S50000x256 ![0, 1] bcast_S1x256_S50000x256_0_1 : (⟨S1x256, .f32⟩ : BufTy).Contents (Elt F) → (⟨S50000x256, .f32⟩ : BufTy).Contents (Elt F)),
    StableHlo.binary main_v360 main_v358 main_v361 (mulf : (⟨S50000x256, .f32⟩ : BufTy).Contents (Elt F) → (⟨S50000x256, .f32⟩ : BufTy).Contents (Elt F) → (⟨S50000x256, .f32⟩ : BufTy).Contents (Elt F)),
    StableHlo.nullary main_cst_53 (constant S_ .f32 0x3727C5AC#32),
    StableHlo.unary main_cst_53 main_v362 (broadcastInDim S256 ![] bcast_S_S256 : (⟨S_, .f32⟩ : BufTy).Contents (Elt F) → (⟨S256, .f32⟩ : BufTy).Contents (Elt F)),
    StableHlo.binary main_v355 main_v362 main_v363 (addf : (⟨S256, .f32⟩ : BufTy).Contents (Elt F) → (⟨S256, .f32⟩ : BufTy).Contents (Elt F) → (⟨S256, .f32⟩ : BufTy).Contents (Elt F)),
    StableHlo.unary main_v363 main_v364 (Host.rsqrt : (⟨S256, .f32⟩ : BufTy).Contents (Elt F) → (⟨S256, .f32⟩ : BufTy).Contents (Elt F)),
    StableHlo.unary main_v364 main_v365 (broadcastInDim S1x256 ![1] bcast_S256_S1x256_1 : (⟨S256, .f32⟩ : BufTy).Contents (Elt F) → (⟨S1x256, .f32⟩ : BufTy).Contents (Elt F)),
    StableHlo.unary main_v365 main_v366 (broadcastInDim S50000x256 ![0, 1] bcast_S1x256_S50000x256_0_1 : (⟨S1x256, .f32⟩ : BufTy).Contents (Elt F) → (⟨S50000x256, .f32⟩ : BufTy).Contents (Elt F)),
    StableHlo.binary main_v361 main_v366 main_v367 (mulf : (⟨S50000x256, .f32⟩ : BufTy).Contents (Elt F) → (⟨S50000x256, .f32⟩ : BufTy).Contents (Elt F) → (⟨S50000x256, .f32⟩ : BufTy).Contents (Elt F)),
    StableHlo.unary main_v351 main_v368 (broadcastInDim S1x256 ![1] bcast_S256_S1x256_1 : (⟨S256, .f32⟩ : BufTy).Contents (Elt F) → (⟨S1x256, .f32⟩ : BufTy).Contents (Elt F)),
    StableHlo.unary main_v368 main_v369 (broadcastInDim S50000x256 ![0, 1] bcast_S1x256_S50000x256_0_1 : (⟨S1x256, .f32⟩ : BufTy).Contents (Elt F) → (⟨S50000x256, .f32⟩ : BufTy).Contents (Elt F)),
    StableHlo.binary main_v367 main_v369 main_v370 (addf : (⟨S50000x256, .f32⟩ : BufTy).Contents (Elt F) → (⟨S50000x256, .f32⟩ : BufTy).Contents (Elt F) → (⟨S50000x256, .f32⟩ : BufTy).Contents (Elt F)),
    StableHlo.TRef.nullary main_call17.cst (constant S_ .f32 0x00000000#32),
    StableHlo.TRef.unary main_call17.cst main_call17.v0 (broadcastInDim S50000x256 ![] bcast_S_S50000x256),
    StableHlo.TRef.binary (.of main_v370 : StableHlo.TRef sig ⟨S50000x256, .f32⟩) main_call17.v0 main_call17.v1 maximumf,
    StableHlo.unary main_arg6 main_v372 ((extractStridedSlice S1x256x128 ![4, 0, 0] · slices_S5x256x128_S1x256x128_4_0_0) : (⟨S5x256x128, .f32⟩ : BufTy).Contents (Elt F) → (⟨S1x256x128, .f32⟩ : BufTy).Contents (Elt F)),
    StableHlo.reshape main_v372 main_v373 rfl shapeCasts_S1x256x128_S256x128,
    StableHlo.binary main_v371 main_v373 main_v374 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg7 main_v375 ((extractStridedSlice S1x128 ![4, 0] · slices_S5x128_S1x128_4_0) : (⟨S5x128, .f32⟩ : BufTy).Contents (Elt F) → (⟨S1x128, .f32⟩ : BufTy).Contents (Elt F)),
    StableHlo.reshape main_v375 main_v376 rfl shapeCasts_S1x128_S128,
    StableHlo.unary main_v376 main_v377 (broadcastInDim S1x128 ![1] bcast_S128_S1x128_1 : (⟨S128, .f32⟩ : BufTy).Contents (Elt F) → (⟨S1x128, .f32⟩ : BufTy).Contents (Elt F)),
    StableHlo.unary main_v377 main_v378 (broadcastInDim S50000x128 ![0, 1] bcast_S1x128_S50000x128_0_1 : (⟨S1x128, .f32⟩ : BufTy).Contents (Elt F) → (⟨S50000x128, .f32⟩ : BufTy).Contents (Elt F)),
    StableHlo.binary main_v374 main_v378 main_v379 (addf : (⟨S50000x128, .f32⟩ : BufTy).Contents (Elt F) → (⟨S50000x128, .f32⟩ : BufTy).Contents (Elt F) → (⟨S50000x128, .f32⟩ : BufTy).Contents (Elt F)) ]

/-- Stage 14: operations 644 to 647 of @main (calls listed inline). -/
abbrev st14 : List (HloOp τ sig (Elt F)) :=
  [ StableHlo.binary main_v379 main_arg11 main_v380 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg12 main_v381 (broadcastInDim S1x128 ![1] bcast_S128_S1x128_1 : (⟨S128, .f32⟩ : BufTy).Contents (Elt F) → (⟨S1x128, .f32⟩ : BufTy).Contents (Elt F)),
    StableHlo.unary main_v381 main_v382 (broadcastInDim S50000x128 ![0, 1] bcast_S1x128_S50000x128_0_1 : (⟨S1x128, .f32⟩ : BufTy).Contents (Elt F) → (⟨S50000x128, .f32⟩ : BufTy).Contents (Elt F)),
    StableHlo.binary main_v380 main_v382 main_v383 (addf : (⟨S50000x128, .f32⟩ : BufTy).Contents (Elt F) → (⟨S50000x128, .f32⟩ : BufTy).Contents (Elt F) → (⟨S50000x128, .f32⟩ : BufTy).Contents (Elt F)) ]

/-- Stage 15: operations 648 to 694 of @main (calls listed inline). -/
abbrev st15 : List (HloOp τ sig (Elt F)) :=
  [ StableHlo.nullary main_cst_54 (constant S_ .f32 0x00000000#32),
    StableHlo.binary main_v383 main_cst_54 main_v384 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_55 (constant S_ .f32 0x47435000#32),
    StableHlo.unary main_cst_55 main_v385 (broadcastInDim S128 ![] bcast_S_S128 : (⟨S_, .f32⟩ : BufTy).Contents (Elt F) → (⟨S128, .f32⟩ : BufTy).Contents (Elt F)),
    StableHlo.binary main_v384 main_v385 main_v386 (Host.divf : (⟨S128, .f32⟩ : BufTy).Contents (Elt F) → (⟨S128, .f32⟩ : BufTy).Contents (Elt F) → (⟨S128, .f32⟩ : BufTy).Contents (Elt F)),
    StableHlo.nullary main_c_56 (constantI S_ 32 0#32),
    StableHlo.TRef.nullary main_call18.cst (constant S_ .f32 0x00000000#32),
    StableHlo.TRef.binary (.of main_v383 : StableHlo.TRef sig ⟨S50000x128, .f32⟩) main_call18.cst main_call18.v0 (fun x v => Host.reduceAdd x v reducesTo_S50000x128_S128_d0 h_S_),
    StableHlo.TRef.unary main_call18.v0 main_call18.v1 (broadcastInDim S1x128 ![1] bcast_S128_S1x128_1),
    StableHlo.TRef.nullary main_call18.cst_0 (constant S_ .f32 0x47435000#32),
    StableHlo.TRef.unary main_call18.cst_0 main_call18.v2 (broadcastInDim S1x128 ![] bcast_S_S1x128),
    StableHlo.TRef.binary main_call18.v1 main_call18.v2 main_call18.v3 Host.divf,
    StableHlo.TRef.unary main_call18.v3 main_call18.v4 (broadcastInDim S50000x128 ![0, 1] bcast_S1x128_S50000x128_0_1),
    StableHlo.TRef.binary (.of main_v383 : StableHlo.TRef sig ⟨S50000x128, .f32⟩) main_call18.v4 main_call18.v5 subf,
    StableHlo.TRef.binary main_call18.v5 main_call18.v5 main_call18.v6 mulf,
    StableHlo.TRef.unary (.of main_c_56 : StableHlo.TRef sig ⟨S_, .i32⟩) main_call18.v7 (sitofp .f32),
    StableHlo.TRef.nullary main_call18.cst_1 (constant S_ .f32 0x47435000#32),
    StableHlo.TRef.binary main_call18.cst_1 main_call18.v7 main_call18.v8 subf,
    StableHlo.TRef.nullary main_call18.cst_2 (constant S_ .f32 0x00000000#32),
    StableHlo.TRef.binary main_call18.v6 main_call18.cst_2 main_call18.v9 (fun x v => Host.reduceAdd x v reducesTo_S50000x128_S128_d0 h_S_),
    StableHlo.TRef.unary main_call18.v8 main_call18.v10 (broadcastInDim S128 ![] bcast_S_S128),
    StableHlo.TRef.binary main_call18.v9 main_call18.v10 main_call18.v11 Host.divf,
    StableHlo.TRef.nullary main_call18.cst_3 (constant S_ .f32 0x00000000#32),
    StableHlo.TRef.binary main_call18.v8 main_call18.cst_3 main_call18.v12 (cmpf .ogt),
    StableHlo.TRef.nullary main_call18.cst_4 (constant S_ .f32 0x7FC00000#32),
    StableHlo.TRef.unary main_call18.cst_4 main_call18.call0.v0 id,
    StableHlo.TRef.unary main_call18.call0.v0 main_call18.call0.v1 (broadcastInDim S128 ![] bcast_S_S128),
    StableHlo.TRef.ternary main_call18.v12 main_call18.v11 main_call18.call0.v1 main_call18.call0.v2 (fun p a b => select (broadcastInDim S128 ![] bcast_S_S128 p) a b),
    StableHlo.unary main_v386 main_v388 (broadcastInDim S1x128 ![1] bcast_S128_S1x128_1 : (⟨S128, .f32⟩ : BufTy).Contents (Elt F) → (⟨S1x128, .f32⟩ : BufTy).Contents (Elt F)),
    StableHlo.unary main_v388 main_v389 (broadcastInDim S50000x128 ![0, 1] bcast_S1x128_S50000x128_0_1 : (⟨S1x128, .f32⟩ : BufTy).Contents (Elt F) → (⟨S50000x128, .f32⟩ : BufTy).Contents (Elt F)),
    StableHlo.binary main_v383 main_v389 main_v390 (subf : (⟨S50000x128, .f32⟩ : BufTy).Contents (Elt F) → (⟨S50000x128, .f32⟩ : BufTy).Contents (Elt F) → (⟨S50000x128, .f32⟩ : BufTy).Contents (Elt F)),
    StableHlo.unary main_arg13 main_v391 (broadcastInDim S1x128 ![1] bcast_S128_S1x128_1 : (⟨S128, .f32⟩ : BufTy).Contents (Elt F) → (⟨S1x128, .f32⟩ : BufTy).Contents (Elt F)),
    StableHlo.unary main_v391 main_v392 (broadcastInDim S50000x128 ![0, 1] bcast_S1x128_S50000x128_0_1 : (⟨S1x128, .f32⟩ : BufTy).Contents (Elt F) → (⟨S50000x128, .f32⟩ : BufTy).Contents (Elt F)),
    StableHlo.binary main_v392 main_v390 main_v393 (mulf : (⟨S50000x128, .f32⟩ : BufTy).Contents (Elt F) → (⟨S50000x128, .f32⟩ : BufTy).Contents (Elt F) → (⟨S50000x128, .f32⟩ : BufTy).Contents (Elt F)),
    StableHlo.nullary main_cst_57 (constant S_ .f32 0x3727C5AC#32),
    StableHlo.unary main_cst_57 main_v394 (broadcastInDim S128 ![] bcast_S_S128 : (⟨S_, .f32⟩ : BufTy).Contents (Elt F) → (⟨S128, .f32⟩ : BufTy).Contents (Elt F)),
    StableHlo.binary main_v387 main_v394 main_v395 (addf : (⟨S128, .f32⟩ : BufTy).Contents (Elt F) → (⟨S128, .f32⟩ : BufTy).Contents (Elt F) → (⟨S128, .f32⟩ : BufTy).Contents (Elt F)),
    StableHlo.unary main_v395 main_v396 (Host.rsqrt : (⟨S128, .f32⟩ : BufTy).Contents (Elt F) → (⟨S128, .f32⟩ : BufTy).Contents (Elt F)),
    StableHlo.unary main_v396 main_v397 (broadcastInDim S1x128 ![1] bcast_S128_S1x128_1 : (⟨S128, .f32⟩ : BufTy).Contents (Elt F) → (⟨S1x128, .f32⟩ : BufTy).Contents (Elt F)),
    StableHlo.unary main_v397 main_v398 (broadcastInDim S50000x128 ![0, 1] bcast_S1x128_S50000x128_0_1 : (⟨S1x128, .f32⟩ : BufTy).Contents (Elt F) → (⟨S50000x128, .f32⟩ : BufTy).Contents (Elt F)),
    StableHlo.binary main_v393 main_v398 main_v399 (mulf : (⟨S50000x128, .f32⟩ : BufTy).Contents (Elt F) → (⟨S50000x128, .f32⟩ : BufTy).Contents (Elt F) → (⟨S50000x128, .f32⟩ : BufTy).Contents (Elt F)),
    StableHlo.unary main_arg14 main_v400 (broadcastInDim S1x128 ![1] bcast_S128_S1x128_1 : (⟨S128, .f32⟩ : BufTy).Contents (Elt F) → (⟨S1x128, .f32⟩ : BufTy).Contents (Elt F)),
    StableHlo.unary main_v400 main_v401 (broadcastInDim S50000x128 ![0, 1] bcast_S1x128_S50000x128_0_1 : (⟨S1x128, .f32⟩ : BufTy).Contents (Elt F) → (⟨S50000x128, .f32⟩ : BufTy).Contents (Elt F)),
    StableHlo.binary main_v399 main_v401 main_v402 (addf : (⟨S50000x128, .f32⟩ : BufTy).Contents (Elt F) → (⟨S50000x128, .f32⟩ : BufTy).Contents (Elt F) → (⟨S50000x128, .f32⟩ : BufTy).Contents (Elt F)),
    StableHlo.TRef.nullary main_call19.cst (constant S_ .f32 0x00000000#32),
    StableHlo.TRef.unary main_call19.cst main_call19.v0 (broadcastInDim S50000x128 ![] bcast_S_S50000x128),
    StableHlo.TRef.binary (.of main_v402 : StableHlo.TRef sig ⟨S50000x128, .f32⟩) main_call19.v0 main_call19.v1 maximumf ]

/-- Stage 16: operations 695 to 698 of @main (calls listed inline). -/
abbrev st16 : List (HloOp τ sig (Elt F)) :=
  [ StableHlo.binary main_v403 main_arg15 main_v404 ((fun l r => Host.dotGeneral dot_S50000x128_S128x41_S50000x41_1_0_0_1_n_n none l r) : (⟨S50000x128, .f32⟩ : BufTy).Contents (Elt F) → (⟨S128x41, .f32⟩ : BufTy).Contents (Elt F) → (⟨S50000x41, .f32⟩ : BufTy).Contents (Elt F)),
    StableHlo.unary main_arg16 main_v405 (broadcastInDim S1x41 ![1] bcast_S41_S1x41_1 : (⟨S41, .f32⟩ : BufTy).Contents (Elt F) → (⟨S1x41, .f32⟩ : BufTy).Contents (Elt F)),
    StableHlo.unary main_v405 main_v406 (broadcastInDim S50000x41 ![0, 1] bcast_S1x41_S50000x41_0_1 : (⟨S1x41, .f32⟩ : BufTy).Contents (Elt F) → (⟨S50000x41, .f32⟩ : BufTy).Contents (Elt F)),
    StableHlo.binary main_v404 main_v406 main_v407 (addf : (⟨S50000x41, .f32⟩ : BufTy).Contents (Elt F) → (⟨S50000x41, .f32⟩ : BufTy).Contents (Elt F) → (⟨S50000x41, .f32⟩ : BufTy).Contents (Elt F)) ]

/-- Stage 17: operations 699 to 713 of @main (calls listed inline). -/
abbrev st17 : List (HloOp τ sig (Elt F)) :=
  [ StableHlo.TRef.nullary main_call20.cst (constant S_ .f32 0xFF800000#32),
    StableHlo.TRef.binary (.of main_v407 : StableHlo.TRef sig ⟨S50000x41, .f32⟩) main_call20.cst main_call20.v0 (fun x v => Host.reduce FloatOps.maximumf x v reducesTo_S50000x41_S50000_d1 h_S_),
    StableHlo.TRef.nullary main_call20.cst_0 (constant S_ .f32 0xFF800000#32),
    StableHlo.TRef.unary main_call20.cst_0 main_call20.v1 (broadcastInDim S50000 ![] bcast_S_S50000),
    StableHlo.TRef.binary main_call20.v1 main_call20.v0 main_call20.v2 maximumf,
    StableHlo.TRef.unary main_call20.v2 main_call20.v3 (broadcastInDim S50000x1 ![0] bcast_S50000_S50000x1_0),
    StableHlo.TRef.unary main_call20.v3 main_call20.v4 (broadcastInDim S50000x41 ![0, 1] bcast_S50000x1_S50000x41_0_1),
    StableHlo.TRef.binary (.of main_v407 : StableHlo.TRef sig ⟨S50000x41, .f32⟩) main_call20.v4 main_call20.v5 subf,
    StableHlo.TRef.unary main_call20.v5 main_call20.v6 Host.exp,
    StableHlo.TRef.nullary main_call20.cst_1 (constant S_ .f32 0x00000000#32),
    StableHlo.TRef.binary main_call20.v6 main_call20.cst_1 main_call20.v7 (fun x v => Host.reduceAdd x v reducesTo_S50000x41_S50000_d1 h_S_),
    StableHlo.TRef.unary main_call20.v7 main_call20.v8 (broadcastInDim S50000x1 ![0] bcast_S50000_S50000x1_0),
    StableHlo.TRef.unary main_call20.v8 main_call20.v9 Host.log,
    StableHlo.TRef.unary main_call20.v9 main_call20.v10 (broadcastInDim S50000x41 ![0, 1] bcast_S50000x1_S50000x41_0_1),
    StableHlo.TRef.binary main_call20.v5 main_call20.v10 main_call20.v11 subf ]

end Cert.ReferenceIdeal.Ops

end
-- ==== Proof.RefRun.lean ====
/-
  The whole-array program's run.

  The whole-array program's @main is printed as eight consecutive windows of statements, twenty-one of
  which call an outlined function (the variance of each column, reduced along axis 0, which itself calls a
  select on a scalar condition; the maximum with zero; the log-softmax of each row, reduced along axis 1), a
  call executing the callee's body over the call's own record of buffers. Every statement, inside a callee
  or not, is one array operation that binds nothing.

  This module shows that the program is a STRAIGHT LINE and reads off what it leaves in memory:
  * `partK_eq`: window K is the straight line `seq pK` of its operations, a callee's operations standing at
    the call site (unfolding a callee at its call and re-associating the sequencing is all there is to it,
    so each equation holds by computation);
  * `main_eq`: @main, the eight windows in order, is the straight line of the concatenated lists;
  * `all_eq`: the concatenation of the eight windows' lists and the concatenation of the eighteen stages'
    lists are one and the same list of 713 operations (only the cuts differ);
  * `run`: from any memory with zero counters every weakly fair execution of @main terminates, and each
    buffer of each device then holds the fold of the operations' results, in stage order, over the
    device's launch contents. No operation allocates a buffer (`pK_fresh`) and each touches TensorCore
    references only, which is what the straight-line run theorem asks.
-/
import proofs.«107430_j24575802868448_1_alg».proof.Proof.RefOps
import Idealize.ShloMosaic.Lib.StableHlo.Run
import Idealize.ShloMosaic.Lib.Pipeline.Regions

noncomputable section

namespace Cert.ReferenceIdeal.Value

open Idealize.ShloMosaic Idealize.ShloMosaic.TcCoe Idealize.SL.Sem Idealize.ShloMosaic.StableHlo Cert.ReferenceIdeal Cert.ReferenceIdeal.Ops Cert.ReferenceIdeal.Facts₀ Cert.ReferenceIdeal.Facts

variable {F : FTy → Type} [FloatOps F]

/-! ## Each window is a straight line

A window is a right-nested sequence of unit statements. A statement that is an operation is the head of
`seq`'s list; a statement that is a call unfolds to the callee's own right-nested sequence ending in
`pure ⟨⟩`, and sequencing after it re-associates (`(a >>= f) >>= g = a >>= fun x => f x >>= g`,
`pure ⟨⟩ >>= g = g ⟨⟩`), both by computation on the program's constructors. So both sides reduce to the
same chain of steps: the equation holds by computation. -/

theorem part0_eq (c : Dev nD) : main_part0 (F := F) c = seq p0 := by chain_rfl
theorem part1_eq (c : Dev nD) : main_part1 (F := F) c = seq p1 := by chain_rfl
theorem part2_eq (c : Dev nD) : main_part2 (F := F) c = seq p2 := by chain_rfl
theorem part3_eq (c : Dev nD) : main_part3 (F := F) c = seq p3 := by chain_rfl
theorem part4_eq (c : Dev nD) : main_part4 (F := F) c = seq p4 := by chain_rfl
theorem part5_eq (c : Dev nD) : main_part5 (F := F) c = seq p5 := by chain_rfl
theorem part6_eq (c : Dev nD) : main_part6 (F := F) c = seq p6 := by chain_rfl
theorem part7_eq (c : Dev nD) : main_part7 (F := F) c = seq p7 := by chain_rfl

/-! ## @main is the straight line of all of them

Two straight lines run one after the other are their concatenation run as one (`seq_append`). -/

theorem main_eq (c : Dev nD) : main (F := F) c = seq (p0 ++ p1 ++ p2 ++ p3 ++ p4 ++ p5 ++ p6 ++ p7) := by
  show (main_part0 (F := F) c >>= fun _ => main_part1 (F := F) c >>= fun _ => main_part2 (F := F) c >>= fun _ =>
    main_part3 (F := F) c >>= fun _ => main_part4 (F := F) c >>= fun _ => main_part5 (F := F) c >>= fun _ =>
    main_part6 (F := F) c >>= fun _ => main_part7 (F := F) c) = _
  rw [part0_eq, part1_eq, part2_eq, part3_eq, part4_eq, part5_eq, part6_eq, part7_eq]
  simp only [seq_append, bind_assoc]

/-! ## The windows' lists and the stages' lists are one list -/

theorem all_eq : (p0 ++ p1 ++ p2 ++ p3 ++ p4 ++ p5 ++ p6 ++ p7 : List (HloOp τ sig (Elt F)))
    = st0 ++ st1 ++ st2 ++ st3 ++ st4 ++ st5 ++ st6 ++ st7 ++ st8 ++ st9 ++ st10 ++ st11 ++ st12 ++ st13 ++ st14
      ++ st15 ++ st16 ++ st17 := by
  chain_rfl

/-! ## The side conditions of the straight-line run -/

/-- The signature scopes no TensorCore buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

/-- No operation of window 0 allocates a buffer: every one determines its results. -/
theorem p0_fresh : (p0 : List (HloOp τ sig (Elt F))).Forall fun op => op.fresh = ∅ := by
  simp only [List.Forall]; repeat' constructor
theorem p1_fresh : (p1 : List (HloOp τ sig (Elt F))).Forall fun op => op.fresh = ∅ := by
  simp only [List.Forall]; repeat' constructor
theorem p2_fresh : (p2 : List (HloOp τ sig (Elt F))).Forall fun op => op.fresh = ∅ := by
  simp only [List.Forall]; repeat' constructor
theorem p3_fresh : (p3 : List (HloOp τ sig (Elt F))).Forall fun op => op.fresh = ∅ := by
  simp only [List.Forall]; repeat' constructor
theorem p4_fresh : (p4 : List (HloOp τ sig (Elt F))).Forall fun op => op.fresh = ∅ := by
  simp only [List.Forall]; repeat' constructor
theorem p5_fresh : (p5 : List (HloOp τ sig (Elt F))).Forall fun op => op.fresh = ∅ := by
  simp only [List.Forall]; repeat' constructor
theorem p6_fresh : (p6 : List (HloOp τ sig (Elt F))).Forall fun op => op.fresh = ∅ := by
  simp only [List.Forall]; repeat' constructor
theorem p7_fresh : (p7 : List (HloOp τ sig (Elt F))).Forall fun op => op.fresh = ∅ := by
  simp only [List.Forall]; repeat' constructor

/-- A property of every element of two lists is one of every element of their concatenation. -/
theorem forall_mem_append {α : Type} {P : α → Prop} {l₁ l₂ : List α} (h₁ : ∀ x ∈ l₁, P x) (h₂ : ∀ x ∈ l₂, P x) :
    ∀ x ∈ l₁ ++ l₂, P x :=
  fun x hx => (List.mem_append.mp hx).elim (h₁ x) (h₂ x)

/-- Every operation of @main touches TensorCore references only. -/
theorem ops_sub : (p0 ++ p1 ++ p2 ++ p3 ++ p4 ++ p5 ++ p6 ++ p7 : List (HloOp τ sig (Elt F))).Forall
    fun op => op.bufs ⊆ tcRefs τ sig :=
  List.forall_iff_forall_mem.mpr
    (forall_mem_append (forall_mem_append (forall_mem_append (forall_mem_append (forall_mem_append (forall_mem_append
      (forall_mem_append (List.forall_iff_forall_mem.mp p0_sub) (List.forall_iff_forall_mem.mp p1_sub))
      (List.forall_iff_forall_mem.mp p2_sub)) (List.forall_iff_forall_mem.mp p3_sub)) (List.forall_iff_forall_mem.mp p4_sub))
      (List.forall_iff_forall_mem.mp p5_sub)) (List.forall_iff_forall_mem.mp p6_sub)) (List.forall_iff_forall_mem.mp p7_sub))

/-- No operation of @main allocates a buffer. -/
theorem ops_fresh : ∀ op ∈ (p0 ++ p1 ++ p2 ++ p3 ++ p4 ++ p5 ++ p6 ++ p7 : List (HloOp τ sig (Elt F))), op.fresh = ∅ :=
  forall_mem_append (forall_mem_append (forall_mem_append (forall_mem_append (forall_mem_append (forall_mem_append
    (forall_mem_append (List.forall_iff_forall_mem.mp p0_fresh) (List.forall_iff_forall_mem.mp p1_fresh))
    (List.forall_iff_forall_mem.mp p2_fresh)) (List.forall_iff_forall_mem.mp p3_fresh)) (List.forall_iff_forall_mem.mp p4_fresh))
    (List.forall_iff_forall_mem.mp p5_fresh)) (List.forall_iff_forall_mem.mp p6_fresh)) (List.forall_iff_forall_mem.mp p7_fresh)

/-! ## The run -/

/-- On every device, for any float values, from any memory with zero counters: every weakly fair execution of
    @main terminates, and each TensorCore buffer then holds the fold of the eighteen stages' operations, in order,
    over the device's launch contents. -/
theorem run (m : (ℓ : Loc nD τ sig) → Buf (Elt F) ℓ) (ρ : Dev nD → PrngReg) :
    θ_run defs (onTc (τ := τ) (main (F := F))) ⟨m, fun _ => 0, ρ⟩ fun r => ∀ (d : Dev nD) (b : Ref sig .tc),
      r.2.mem ((d.tc : Thread nD τ).loc b)
        = after (st0 ++ st1 ++ st2 ++ st3 ++ st4 ++ st5 ++ st6 ++ st7 ++ st8 ++ st9 ++ st10 ++ st11 ++ st12 ++ st13
            ++ st14 ++ st15 ++ st16 ++ st17) (launchContents m d) (Proc.devRef .tc b) := by
  rw [← all_eq]
  exact run_seq scopedRefs_eq scopedSems_eq defs main (fun _ => p0 ++ p1 ++ p2 ++ p3 ++ p4 ++ p5 ++ p6 ++ p7)
    main_eq (fun _ => ops_sub) m ρ (hfresh := fun _ => ops_fresh)

end Cert.ReferenceIdeal.Value

end
-- ==== Proof.RefChainA.lean ====
/-
  What the whole-array program computes, stage by stage (part 1: the argument record, and the first layer).

  The whole-array program is one straight line of 713 array operations, cut into eighteen stages. This family of
  modules reads each stage ONCE, for arbitrary buffer contents `V` at its start, and says what the stage leaves in the
  one buffer the next stage reads, as a function of `V` at the few buffers the stage itself reads:

  * the first stage of a layer leaves `((1 + ε)·h + Σ_{s→d} h[s])·W₁ + b₁` of the node features `h` it finds, of the
    edge list's two rows and of the layer's rows of the stacked parameters;
  * the second leaves `relu(bn(z))·W₂ + b₂` of the first stage's result `z`, the normalisation taken with the batch's
    own column means and biased column variances;
  * the third (absent from the last layer) normalises and rectifies once more;
  * the head is a linear map, one more normalise-and-rectify, a last linear map, and the row-wise log-softmax.

  Besides its result, each stage is shown to leave alone the seventeen argument arrays and (after the first stage has
  written them) the two rows of the edge list, which every later layer's neighbour sum reads again. Reading each stage
  at arbitrary contents keeps every statement small: a later module composes the eighteen readings by rewriting only.

  This part: the record of the seventeen arguments a valuation holds, the rule that running two lists of operations
  one after the other is running their concatenation, and stages 0 to 2 (layer 0).
-/
import proofs.«107430_j24575802868448_1_alg».proof.Proof.RefOps
import proofs.«107430_j24575802868448_1_alg».proof.Proof.Spec
import Idealize.ShloMosaic.Lib.StableHlo.Run

set_option maxHeartbeats 1000000

noncomputable section

namespace Cert.ReferenceIdeal.Chain

open Idealize.ShloMosaic Idealize.ShloMosaic.TcCoe Idealize.SL.Sem Idealize.ShloMosaic.StableHlo Cert.ReferenceIdeal Cert.ReferenceIdeal.Ops
open Cert.Spec

/-- The seventeen argument arrays as a valuation holds them. -/
def argsOf (V : Valuation τ sig (Elt Ideal)) : Cert.Spec.Args where
  x := V (Proc.devRef .tc main_arg0)
  ei := V (Proc.devRef .tc main_arg1)
  W1 := V (Proc.devRef .tc main_arg2)
  b1 := V (Proc.devRef .tc main_arg3)
  g1 := V (Proc.devRef .tc main_arg4)
  beta1 := V (Proc.devRef .tc main_arg5)
  W2 := V (Proc.devRef .tc main_arg6)
  b2 := V (Proc.devRef .tc main_arg7)
  eps := V (Proc.devRef .tc main_arg8)
  g2 := V (Proc.devRef .tc main_arg9)
  beta2 := V (Proc.devRef .tc main_arg10)
  lin1_w := V (Proc.devRef .tc main_arg11)
  lin1_b := V (Proc.devRef .tc main_arg12)
  bn1_g := V (Proc.devRef .tc main_arg13)
  bn1_b := V (Proc.devRef .tc main_arg14)
  lin2_w := V (Proc.devRef .tc main_arg15)
  lin2_b := V (Proc.devRef .tc main_arg16)

/-- Two valuations that agree on the seventeen argument buffers hold the same argument arrays. -/
theorem argsOf_congr {V V' : Valuation τ sig (Elt Ideal)}
    (h0 : V' (Proc.devRef .tc main_arg0) = V (Proc.devRef .tc main_arg0)) (h1 : V' (Proc.devRef .tc main_arg1) = V (Proc.devRef .tc main_arg1))
    (h2 : V' (Proc.devRef .tc main_arg2) = V (Proc.devRef .tc main_arg2)) (h3 : V' (Proc.devRef .tc main_arg3) = V (Proc.devRef .tc main_arg3))
    (h4 : V' (Proc.devRef .tc main_arg4) = V (Proc.devRef .tc main_arg4)) (h5 : V' (Proc.devRef .tc main_arg5) = V (Proc.devRef .tc main_arg5))
    (h6 : V' (Proc.devRef .tc main_arg6) = V (Proc.devRef .tc main_arg6)) (h7 : V' (Proc.devRef .tc main_arg7) = V (Proc.devRef .tc main_arg7))
    (h8 : V' (Proc.devRef .tc main_arg8) = V (Proc.devRef .tc main_arg8)) (h9 : V' (Proc.devRef .tc main_arg9) = V (Proc.devRef .tc main_arg9))
    (h10 : V' (Proc.devRef .tc main_arg10) = V (Proc.devRef .tc main_arg10)) (h11 : V' (Proc.devRef .tc main_arg11) = V (Proc.devRef .tc main_arg11))
    (h12 : V' (Proc.devRef .tc main_arg12) = V (Proc.devRef .tc main_arg12)) (h13 : V' (Proc.devRef .tc main_arg13) = V (Proc.devRef .tc main_arg13))
    (h14 : V' (Proc.devRef .tc main_arg14) = V (Proc.devRef .tc main_arg14)) (h15 : V' (Proc.devRef .tc main_arg15) = V (Proc.devRef .tc main_arg15))
    (h16 : V' (Proc.devRef .tc main_arg16) = V (Proc.devRef .tc main_arg16)) : argsOf V' = argsOf V := by
  unfold argsOf
  rw [h0, h1, h2, h3, h4, h5, h6, h7, h8, h9, h10, h11, h12, h13, h14, h15, h16]

/-- The contents of each argument buffer are read off an equality of the two records. -/
theorem arg0_of_args {V V' : Valuation τ sig (Elt Ideal)} (h : argsOf V' = argsOf V) : V' (Proc.devRef .tc main_arg0) = V (Proc.devRef .tc main_arg0) := congrArg Args.x h
theorem arg1_of_args {V V' : Valuation τ sig (Elt Ideal)} (h : argsOf V' = argsOf V) : V' (Proc.devRef .tc main_arg1) = V (Proc.devRef .tc main_arg1) := congrArg Args.ei h
theorem arg2_of_args {V V' : Valuation τ sig (Elt Ideal)} (h : argsOf V' = argsOf V) : V' (Proc.devRef .tc main_arg2) = V (Proc.devRef .tc main_arg2) := congrArg Args.W1 h
theorem arg3_of_args {V V' : Valuation τ sig (Elt Ideal)} (h : argsOf V' = argsOf V) : V' (Proc.devRef .tc main_arg3) = V (Proc.devRef .tc main_arg3) := congrArg Args.b1 h
theorem arg4_of_args {V V' : Valuation τ sig (Elt Ideal)} (h : argsOf V' = argsOf V) : V' (Proc.devRef .tc main_arg4) = V (Proc.devRef .tc main_arg4) := congrArg Args.g1 h
theorem arg5_of_args {V V' : Valuation τ sig (Elt Ideal)} (h : argsOf V' = argsOf V) : V' (Proc.devRef .tc main_arg5) = V (Proc.devRef .tc main_arg5) := congrArg Args.beta1 h
theorem arg6_of_args {V V' : Valuation τ sig (Elt Ideal)} (h : argsOf V' = argsOf V) : V' (Proc.devRef .tc main_arg6) = V (Proc.devRef .tc main_arg6) := congrArg Args.W2 h
theorem arg7_of_args {V V' : Valuation τ sig (Elt Ideal)} (h : argsOf V' = argsOf V) : V' (Proc.devRef .tc main_arg7) = V (Proc.devRef .tc main_arg7) := congrArg Args.b2 h
theorem arg8_of_args {V V' : Valuation τ sig (Elt Ideal)} (h : argsOf V' = argsOf V) : V' (Proc.devRef .tc main_arg8) = V (Proc.devRef .tc main_arg8) := congrArg Args.eps h
theorem arg9_of_args {V V' : Valuation τ sig (Elt Ideal)} (h : argsOf V' = argsOf V) : V' (Proc.devRef .tc main_arg9) = V (Proc.devRef .tc main_arg9) := congrArg Args.g2 h
theorem arg10_of_args {V V' : Valuation τ sig (Elt Ideal)} (h : argsOf V' = argsOf V) : V' (Proc.devRef .tc main_arg10) = V (Proc.devRef .tc main_arg10) := congrArg Args.beta2 h
theorem arg11_of_args {V V' : Valuation τ sig (Elt Ideal)} (h : argsOf V' = argsOf V) : V' (Proc.devRef .tc main_arg11) = V (Proc.devRef .tc main_arg11) := congrArg Args.lin1_w h
theorem arg12_of_args {V V' : Valuation τ sig (Elt Ideal)} (h : argsOf V' = argsOf V) : V' (Proc.devRef .tc main_arg12) = V (Proc.devRef .tc main_arg12) := congrArg Args.lin1_b h
theorem arg13_of_args {V V' : Valuation τ sig (Elt Ideal)} (h : argsOf V' = argsOf V) : V' (Proc.devRef .tc main_arg13) = V (Proc.devRef .tc main_arg13) := congrArg Args.bn1_g h
theorem arg14_of_args {V V' : Valuation τ sig (Elt Ideal)} (h : argsOf V' = argsOf V) : V' (Proc.devRef .tc main_arg14) = V (Proc.devRef .tc main_arg14) := congrArg Args.bn1_b h
theorem arg15_of_args {V V' : Valuation τ sig (Elt Ideal)} (h : argsOf V' = argsOf V) : V' (Proc.devRef .tc main_arg15) = V (Proc.devRef .tc main_arg15) := congrArg Args.lin2_w h
theorem arg16_of_args {V V' : Valuation τ sig (Elt Ideal)} (h : argsOf V' = argsOf V) : V' (Proc.devRef .tc main_arg16) = V (Proc.devRef .tc main_arg16) := congrArg Args.lin2_b h

/-- Two lists of operations run one after the other leave what their concatenation leaves. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => simp only [List.cons_append, after_cons]; exact ih (op.result V)

variable (V : Valuation τ sig (Elt Ideal))

/-! ## Stage 0: the edge list's rows and layer 0's first linear map -/

theorem st0_out : after (st0 (F := Ideal)) V (Proc.devRef .tc main_v27)
    = z1 (P0 (argsOf V)) (argsOf V).x (src (argsOf V).ei) (dst (argsOf V).ei) := by
  dsimp only [st0]; after_results_simp; rfl
theorem st0_src : after (st0 (F := Ideal)) V (Proc.devRef .tc main_v1) = src (argsOf V).ei := by
  dsimp only [st0]; after_results_simp; rfl
theorem st0_dst : after (st0 (F := Ideal)) V (Proc.devRef .tc main_v3) = dst (argsOf V).ei := by
  dsimp only [st0]; after_results_simp; rfl
theorem st0_args : argsOf (after (st0 (F := Ideal)) V) = argsOf V := by
  refine argsOf_congr ?_ ?_ ?_ ?_ ?_ ?_ ?_ ?_ ?_ ?_ ?_ ?_ ?_ ?_ ?_ ?_ ?_ <;>
    exact after_of_forall_not_mem _ _ (by decide)

/-! ## Stage 1: normalise, rectify, layer 0's second linear map -/

theorem st1_out : after (st1 (F := Ideal)) V (Proc.devRef .tc main_v59)
    = lin256x128 (bn256 (V (Proc.devRef .tc main_v27)) (P0 (argsOf V)).g1 (P0 (argsOf V)).be1) (P0 (argsOf V)).w2 (P0 (argsOf V)).b2 := by
  dsimp only [st1]; after_results_simp; rfl
theorem st1_src : after (st1 (F := Ideal)) V (Proc.devRef .tc main_v1) = V (Proc.devRef .tc main_v1) :=
  after_of_forall_not_mem _ _ (by decide)
theorem st1_dst : after (st1 (F := Ideal)) V (Proc.devRef .tc main_v3) = V (Proc.devRef .tc main_v3) :=
  after_of_forall_not_mem _ _ (by decide)
theorem st1_args : argsOf (after (st1 (F := Ideal)) V) = argsOf V := by
  refine argsOf_congr ?_ ?_ ?_ ?_ ?_ ?_ ?_ ?_ ?_ ?_ ?_ ?_ ?_ ?_ ?_ ?_ ?_ <;>
    exact after_of_forall_not_mem _ _ (by decide)

/-! ## Stage 2: layer 0's outer normalise-and-rectify -/

theorem st2_out : after (st2 (F := Ideal)) V (Proc.devRef .tc main_v83)
    = bn128 (V (Proc.devRef .tc main_v59)) (P0 (argsOf V)).g2 (P0 (argsOf V)).be2 := by
  dsimp only [st2]; after_results_simp; rfl
theorem st2_src : after (st2 (F := Ideal)) V (Proc.devRef .tc main_v1) = V (Proc.devRef .tc main_v1) :=
  after_of_forall_not_mem _ _ (by decide)
theorem st2_dst : after (st2 (F := Ideal)) V (Proc.devRef .tc main_v3) = V (Proc.devRef .tc main_v3) :=
  after_of_forall_not_mem _ _ (by decide)
theorem st2_args : argsOf (after (st2 (F := Ideal)) V) = argsOf V := by
  refine argsOf_congr ?_ ?_ ?_ ?_ ?_ ?_ ?_ ?_ ?_ ?_ ?_ ?_ ?_ ?_ ?_ ?_ ?_ <;>
    exact after_of_forall_not_mem _ _ (by decide)

end Cert.ReferenceIdeal.Chain

end
-- ==== Proof.RefChainB.lean ====
/-
  What the whole-array program computes, stage by stage (part 2: layer 1).

  As in part 1, each stage is read once at arbitrary starting contents `V`: its result buffer holds the stated function
  of `V` at the buffers the stage reads (the previous stage's result, the two rows of the edge list, the layer's rows
  of the stacked parameters); the edge list's rows and the seventeen argument arrays are left as they were.
-/
import proofs.«107430_j24575802868448_1_alg».proof.Proof.RefChainA

set_option maxHeartbeats 1000000

noncomputable section

namespace Cert.ReferenceIdeal.Chain

open Idealize.ShloMosaic Idealize.ShloMosaic.TcCoe Idealize.SL.Sem Idealize.ShloMosaic.StableHlo Cert.ReferenceIdeal Cert.ReferenceIdeal.Ops
open Cert.Spec

variable (V : Valuation τ sig (Elt Ideal))

/-! ## Stage 3: layer 1's neighbour sum, mix and first linear map -/

theorem st3_out : after (st3 (F := Ideal)) V (Proc.devRef .tc main_v107)
    = z1 (P1 (argsOf V)) (V (Proc.devRef .tc main_v83)) (V (Proc.devRef .tc main_v1)) (V (Proc.devRef .tc main_v3)) := by
  dsimp only [st3]; after_results_simp; rfl
theorem st3_src : after (st3 (F := Ideal)) V (Proc.devRef .tc main_v1) = V (Proc.devRef .tc main_v1) :=
  after_of_forall_not_mem _ _ (by decide)
theorem st3_dst : after (st3 (F := Ideal)) V (Proc.devRef .tc main_v3) = V (Proc.devRef .tc main_v3) :=
  after_of_forall_not_mem _ _ (by decide)
theorem st3_args : argsOf (after (st3 (F := Ideal)) V) = argsOf V := by
  refine argsOf_congr ?_ ?_ ?_ ?_ ?_ ?_ ?_ ?_ ?_ ?_ ?_ ?_ ?_ ?_ ?_ ?_ ?_ <;>
    exact after_of_forall_not_mem _ _ (by decide)

/-! ## Stage 4: normalise, rectify, layer 1's second linear map -/

theorem st4_out : after (st4 (F := Ideal)) V (Proc.devRef .tc main_v139)
    = lin256x128 (bn256 (V (Proc.devRef .tc main_v107)) (P1 (argsOf V)).g1 (P1 (argsOf V)).be1) (P1 (argsOf V)).w2 (P1 (argsOf V)).b2 := by
  dsimp only [st4]; after_results_simp; rfl
theorem st4_src : after (st4 (F := Ideal)) V (Proc.devRef .tc main_v1) = V (Proc.devRef .tc main_v1) :=
  after_of_forall_not_mem _ _ (by decide)
theorem st4_dst : after (st4 (F := Ideal)) V (Proc.devRef .tc main_v3) = V (Proc.devRef .tc main_v3) :=
  after_of_forall_not_mem _ _ (by decide)
theorem st4_args : argsOf (after (st4 (F := Ideal)) V) = argsOf V := by
  refine argsOf_congr ?_ ?_ ?_ ?_ ?_ ?_ ?_ ?_ ?_ ?_ ?_ ?_ ?_ ?_ ?_ ?_ ?_ <;>
    exact after_of_forall_not_mem _ _ (by decide)

/-! ## Stage 5: layer 1's outer normalise-and-rectify -/

theorem st5_out : after (st5 (F := Ideal)) V (Proc.devRef .tc main_v163)
    = bn128 (V (Proc.devRef .tc main_v139)) (P1 (argsOf V)).g2 (P1 (argsOf V)).be2 := by
  dsimp only [st5]; after_results_simp; rfl
theorem st5_src : after (st5 (F := Ideal)) V (Proc.devRef .tc main_v1) = V (Proc.devRef .tc main_v1) :=
  after_of_forall_not_mem _ _ (by decide)
theorem st5_dst : after (st5 (F := Ideal)) V (Proc.devRef .tc main_v3) = V (Proc.devRef .tc main_v3) :=
  after_of_forall_not_mem _ _ (by decide)
theorem st5_args : argsOf (after (st5 (F := Ideal)) V) = argsOf V := by
  refine argsOf_congr ?_ ?_ ?_ ?_ ?_ ?_ ?_ ?_ ?_ ?_ ?_ ?_ ?_ ?_ ?_ ?_ ?_ <;>
    exact after_of_forall_not_mem _ _ (by decide)

end Cert.ReferenceIdeal.Chain

end
-- ==== Proof.RefChainC.lean ====
/-
  What the whole-array program computes, stage by stage (part 3: layer 2).

  As in part 1, each stage is read once at arbitrary starting contents `V`: its result buffer holds the stated function
  of `V` at the buffers the stage reads (the previous stage's result, the two rows of the edge list, the layer's rows
  of the stacked parameters); the edge list's rows and the seventeen argument arrays are left as they were.
-/
import proofs.«107430_j24575802868448_1_alg».proof.Proof.RefChainA

set_option maxHeartbeats 1000000

noncomputable section

namespace Cert.ReferenceIdeal.Chain

open Idealize.ShloMosaic Idealize.ShloMosaic.TcCoe Idealize.SL.Sem Idealize.ShloMosaic.StableHlo Cert.ReferenceIdeal Cert.ReferenceIdeal.Ops
open Cert.Spec

variable (V : Valuation τ sig (Elt Ideal))

/-! ## Stage 6: layer 2's neighbour sum, mix and first linear map -/

theorem st6_out : after (st6 (F := Ideal)) V (Proc.devRef .tc main_v187)
    = z1 (P2 (argsOf V)) (V (Proc.devRef .tc main_v163)) (V (Proc.devRef .tc main_v1)) (V (Proc.devRef .tc main_v3)) := by
  dsimp only [st6]; after_results_simp; rfl
theorem st6_src : after (st6 (F := Ideal)) V (Proc.devRef .tc main_v1) = V (Proc.devRef .tc main_v1) :=
  after_of_forall_not_mem _ _ (by decide)
theorem st6_dst : after (st6 (F := Ideal)) V (Proc.devRef .tc main_v3) = V (Proc.devRef .tc main_v3) :=
  after_of_forall_not_mem _ _ (by decide)
theorem st6_args : argsOf (after (st6 (F := Ideal)) V) = argsOf V := by
  refine argsOf_congr ?_ ?_ ?_ ?_ ?_ ?_ ?_ ?_ ?_ ?_ ?_ ?_ ?_ ?_ ?_ ?_ ?_ <;>
    exact after_of_forall_not_mem _ _ (by decide)

/-! ## Stage 7: normalise, rectify, layer 2's second linear map -/

theorem st7_out : after (st7 (F := Ideal)) V (Proc.devRef .tc main_v219)
    = lin256x128 (bn256 (V (Proc.devRef .tc main_v187)) (P2 (argsOf V)).g1 (P2 (argsOf V)).be1) (P2 (argsOf V)).w2 (P2 (argsOf V)).b2 := by
  dsimp only [st7]; after_results_simp; rfl
theorem st7_src : after (st7 (F := Ideal)) V (Proc.devRef .tc main_v1) = V (Proc.devRef .tc main_v1) :=
  after_of_forall_not_mem _ _ (by decide)
theorem st7_dst : after (st7 (F := Ideal)) V (Proc.devRef .tc main_v3) = V (Proc.devRef .tc main_v3) :=
  after_of_forall_not_mem _ _ (by decide)
theorem st7_args : argsOf (after (st7 (F := Ideal)) V) = argsOf V := by
  refine argsOf_congr ?_ ?_ ?_ ?_ ?_ ?_ ?_ ?_ ?_ ?_ ?_ ?_ ?_ ?_ ?_ ?_ ?_ <;>
    exact after_of_forall_not_mem _ _ (by decide)

/-! ## Stage 8: layer 2's outer normalise-and-rectify -/

theorem st8_out : after (st8 (F := Ideal)) V (Proc.devRef .tc main_v243)
    = bn128 (V (Proc.devRef .tc main_v219)) (P2 (argsOf V)).g2 (P2 (argsOf V)).be2 := by
  dsimp only [st8]; after_results_simp; rfl
theorem st8_src : after (st8 (F := Ideal)) V (Proc.devRef .tc main_v1) = V (Proc.devRef .tc main_v1) :=
  after_of_forall_not_mem _ _ (by decide)
theorem st8_dst : after (st8 (F := Ideal)) V (Proc.devRef .tc main_v3) = V (Proc.devRef .tc main_v3) :=
  after_of_forall_not_mem _ _ (by decide)
theorem st8_args : argsOf (after (st8 (F := Ideal)) V) = argsOf V := by
  refine argsOf_congr ?_ ?_ ?_ ?_ ?_ ?_ ?_ ?_ ?_ ?_ ?_ ?_ ?_ ?_ ?_ ?_ ?_ <;>
    exact after_of_forall_not_mem _ _ (by decide)

end Cert.ReferenceIdeal.Chain

end
-- ==== Proof.RefChainD.lean ====
/-
  What the whole-array program computes, stage by stage (part 4: layer 3).

  As in part 1, each stage is read once at arbitrary starting contents `V`: its result buffer holds the stated function
  of `V` at the buffers the stage reads (the previous stage's result, the two rows of the edge list, the layer's rows
  of the stacked parameters); the edge list's rows and the seventeen argument arrays are left as they were.
-/
import proofs.«107430_j24575802868448_1_alg».proof.Proof.RefChainA

set_option maxHeartbeats 1000000

noncomputable section

namespace Cert.ReferenceIdeal.Chain

open Idealize.ShloMosaic Idealize.ShloMosaic.TcCoe Idealize.SL.Sem Idealize.ShloMosaic.StableHlo Cert.ReferenceIdeal Cert.ReferenceIdeal.Ops
open Cert.Spec

variable (V : Valuation τ sig (Elt Ideal))

/-! ## Stage 9: layer 3's neighbour sum, mix and first linear map -/

theorem st9_out : after (st9 (F := Ideal)) V (Proc.devRef .tc main_v267)
    = z1 (P3 (argsOf V)) (V (Proc.devRef .tc main_v243)) (V (Proc.devRef .tc main_v1)) (V (Proc.devRef .tc main_v3)) := by
  dsimp only [st9]; after_results_simp; rfl
theorem st9_src : after (st9 (F := Ideal)) V (Proc.devRef .tc main_v1) = V (Proc.devRef .tc main_v1) :=
  after_of_forall_not_mem _ _ (by decide)
theorem st9_dst : after (st9 (F := Ideal)) V (Proc.devRef .tc main_v3) = V (Proc.devRef .tc main_v3) :=
  after_of_forall_not_mem _ _ (by decide)
theorem st9_args : argsOf (after (st9 (F := Ideal)) V) = argsOf V := by
  refine argsOf_congr ?_ ?_ ?_ ?_ ?_ ?_ ?_ ?_ ?_ ?_ ?_ ?_ ?_ ?_ ?_ ?_ ?_ <;>
    exact after_of_forall_not_mem _ _ (by decide)

/-! ## Stage 10: normalise, rectify, layer 3's second linear map -/

theorem st10_out : after (st10 (F := Ideal)) V (Proc.devRef .tc main_v299)
    = lin256x128 (bn256 (V (Proc.devRef .tc main_v267)) (P3 (argsOf V)).g1 (P3 (argsOf V)).be1) (P3 (argsOf V)).w2 (P3 (argsOf V)).b2 := by
  dsimp only [st10]; after_results_simp; rfl
theorem st10_src : after (st10 (F := Ideal)) V (Proc.devRef .tc main_v1) = V (Proc.devRef .tc main_v1) :=
  after_of_forall_not_mem _ _ (by decide)
theorem st10_dst : after (st10 (F := Ideal)) V (Proc.devRef .tc main_v3) = V (Proc.devRef .tc main_v3) :=
  after_of_forall_not_mem _ _ (by decide)
theorem st10_args : argsOf (after (st10 (F := Ideal)) V) = argsOf V := by
  refine argsOf_congr ?_ ?_ ?_ ?_ ?_ ?_ ?_ ?_ ?_ ?_ ?_ ?_ ?_ ?_ ?_ ?_ ?_ <;>
    exact after_of_forall_not_mem _ _ (by decide)

/-! ## Stage 11: layer 3's outer normalise-and-rectify -/

theorem st11_out : after (st11 (F := Ideal)) V (Proc.devRef .tc main_v323)
    = bn128 (V (Proc.devRef .tc main_v299)) (P3 (argsOf V)).g2 (P3 (argsOf V)).be2 := by
  dsimp only [st11]; after_results_simp; rfl
theorem st11_src : after (st11 (F := Ideal)) V (Proc.devRef .tc main_v1) = V (Proc.devRef .tc main_v1) :=
  after_of_forall_not_mem _ _ (by decide)
theorem st11_dst : after (st11 (F := Ideal)) V (Proc.devRef .tc main_v3) = V (Proc.devRef .tc main_v3) :=
  after_of_forall_not_mem _ _ (by decide)
theorem st11_args : argsOf (after (st11 (F := Ideal)) V) = argsOf V := by
  refine argsOf_congr ?_ ?_ ?_ ?_ ?_ ?_ ?_ ?_ ?_ ?_ ?_ ?_ ?_ ?_ ?_ ?_ ?_ <;>
    exact after_of_forall_not_mem _ _ (by decide)

end Cert.ReferenceIdeal.Chain

end
-- ==== Proof.RefChainE.lean ====
/-
  What the whole-array program computes, stage by stage (part 5: the last layer and the head).

  As in part 1, each stage is read once at arbitrary starting contents `V`: its result buffer holds the stated function
  of `V` at the buffers the stage reads (the previous stage's result, the two rows of the edge list, the layer's rows
  of the stacked parameters); the edge list's rows and the seventeen argument arrays are left as they were.
-/
import proofs.«107430_j24575802868448_1_alg».proof.Proof.RefChainA

set_option maxHeartbeats 1000000

noncomputable section

namespace Cert.ReferenceIdeal.Chain

open Idealize.ShloMosaic Idealize.ShloMosaic.TcCoe Idealize.SL.Sem Idealize.ShloMosaic.StableHlo Cert.ReferenceIdeal Cert.ReferenceIdeal.Ops
open Cert.Spec

variable (V : Valuation τ sig (Elt Ideal))

/-! ## Stage 12: layer 4's neighbour sum, mix and first linear map -/

theorem st12_out : after (st12 (F := Ideal)) V (Proc.devRef .tc main_v347)
    = z1 (P4 (argsOf V)) (V (Proc.devRef .tc main_v323)) (V (Proc.devRef .tc main_v1)) (V (Proc.devRef .tc main_v3)) := by
  dsimp only [st12]; after_results_simp; rfl
theorem st12_args : argsOf (after (st12 (F := Ideal)) V) = argsOf V := by
  refine argsOf_congr ?_ ?_ ?_ ?_ ?_ ?_ ?_ ?_ ?_ ?_ ?_ ?_ ?_ ?_ ?_ ?_ ?_ <;>
    exact after_of_forall_not_mem _ _ (by decide)

/-! ## Stage 13: normalise, rectify, layer 4's second linear map (the last layer's result) -/

theorem st13_out : after (st13 (F := Ideal)) V (Proc.devRef .tc main_v379)
    = lin256x128 (bn256 (V (Proc.devRef .tc main_v347)) (P4 (argsOf V)).g1 (P4 (argsOf V)).be1) (P4 (argsOf V)).w2 (P4 (argsOf V)).b2 := by
  dsimp only [st13]; after_results_simp; rfl
theorem st13_args : argsOf (after (st13 (F := Ideal)) V) = argsOf V := by
  refine argsOf_congr ?_ ?_ ?_ ?_ ?_ ?_ ?_ ?_ ?_ ?_ ?_ ?_ ?_ ?_ ?_ ?_ ?_ <;>
    exact after_of_forall_not_mem _ _ (by decide)

/-! ## Stage 14: the head's first linear map -/

theorem st14_out : after (st14 (F := Ideal)) V (Proc.devRef .tc main_v383)
    = lin128x128 (V (Proc.devRef .tc main_v379)) (argsOf V).lin1_w (argsOf V).lin1_b := by
  dsimp only [st14]; after_results_simp; rfl
theorem st14_args : argsOf (after (st14 (F := Ideal)) V) = argsOf V := by
  refine argsOf_congr ?_ ?_ ?_ ?_ ?_ ?_ ?_ ?_ ?_ ?_ ?_ ?_ ?_ ?_ ?_ ?_ ?_ <;>
    exact after_of_forall_not_mem _ _ (by decide)

/-! ## Stage 15: the head's normalise-and-rectify -/

theorem st15_out : after (st15 (F := Ideal)) V (Proc.devRef .tc main_v403)
    = bn128 (V (Proc.devRef .tc main_v383)) (argsOf V).bn1_g (argsOf V).bn1_b := by
  dsimp only [st15]; after_results_simp; rfl
theorem st15_args : argsOf (after (st15 (F := Ideal)) V) = argsOf V := by
  refine argsOf_congr ?_ ?_ ?_ ?_ ?_ ?_ ?_ ?_ ?_ ?_ ?_ ?_ ?_ ?_ ?_ ?_ ?_ <;>
    exact after_of_forall_not_mem _ _ (by decide)

/-! ## Stage 16: the head's last linear map (the class scores) -/

theorem st16_out : after (st16 (F := Ideal)) V (Proc.devRef .tc main_v407)
    = lin128x41 (V (Proc.devRef .tc main_v403)) (argsOf V).lin2_w (argsOf V).lin2_b := by
  dsimp only [st16]; after_results_simp; rfl
theorem st16_args : argsOf (after (st16 (F := Ideal)) V) = argsOf V := by
  refine argsOf_congr ?_ ?_ ?_ ?_ ?_ ?_ ?_ ?_ ?_ ?_ ?_ ?_ ?_ ?_ ?_ ?_ ?_ <;>
    exact after_of_forall_not_mem _ _ (by decide)

/-! ## Stage 17: the row-wise log-softmax -/

/-- Moving a value to a typed reference's buffer type and back is the identity, whatever the reference. -/
theorem ofBuf_toBuf {T : BufTy} (x : TRef sig T) (v : T.Contents (Elt Ideal)) : x.ofBuf (x.toBuf v) = v := by
  obtain ⟨r, h, h2, h3⟩ := x
  subst h
  rfl

/-- Every operation of this stage belongs to the outlined log-softmax, whose values pass through their buffers' own
    types and back; with those round trips removed the result is the specification's term, literally. -/
theorem st17_out : after (st17 (F := Ideal)) V (Proc.devRef .tc main_v408) = logsoftmax (V (Proc.devRef .tc main_v407)) := by
  dsimp only [st17]; after_results_simp
  simp only [ofBuf_toBuf]
  rfl
theorem st17_args : argsOf (after (st17 (F := Ideal)) V) = argsOf V := by
  refine argsOf_congr ?_ ?_ ?_ ?_ ?_ ?_ ?_ ?_ ?_ ?_ ?_ ?_ ?_ ?_ ?_ ?_ ?_ <;>
    exact after_of_forall_not_mem _ _ (by decide)

end Cert.ReferenceIdeal.Chain

end
-- ==== Proof.RefChain.lean ====
/-
  What the whole-array program's result buffer holds: the network's function of the seventeen argument arrays.

  The program's 713 operations are eighteen stages run in order. The sibling modules read each stage at arbitrary
  starting contents; here the readings are composed. `W k V` names the buffer contents after stages 0 to k, run from
  `V`. By induction along the stages — each step only rewrites with the stage's reading and the previous step's facts —
  after stage k the seventeen argument buffers still hold what `V` held, the edge list's two rows hold its source and
  destination vectors, and the stage's result buffer holds the network's value at that depth: the first linear map of a
  layer applied to the mixed features, then the layer's second linear map, then the layer's output `h₁ … h₄` (the last
  layer stops at its second linear map, `h₅`), then the head's first linear map, its normalise-and-rectify, the class
  scores and finally their row-wise log-softmax, which is the network's result. Running the concatenated list is
  running the stages one after the other, so the same holds of the whole program: its result buffer holds the
  network's function of the arguments, and each argument buffer is as it was.
-/
import proofs.«107430_j24575802868448_1_alg».proof.Proof.RefChainA
import proofs.«107430_j24575802868448_1_alg».proof.Proof.RefChainB
import proofs.«107430_j24575802868448_1_alg».proof.Proof.RefChainC
import proofs.«107430_j24575802868448_1_alg».proof.Proof.RefChainD
import proofs.«107430_j24575802868448_1_alg».proof.Proof.RefChainE

noncomputable section

namespace Cert.ReferenceIdeal.Chain

open Idealize.ShloMosaic Idealize.ShloMosaic.TcCoe Idealize.SL.Sem Idealize.ShloMosaic.StableHlo Cert.ReferenceIdeal Cert.ReferenceIdeal.Ops
open Cert.Spec

variable (V : Valuation τ sig (Elt Ideal))

/-! ## The contents after stages 0 to k -/

def W0 : Valuation τ sig (Elt Ideal) := after (st0 (F := Ideal)) V
def W1 : Valuation τ sig (Elt Ideal) := after (st1 (F := Ideal)) (W0 V)
def W2 : Valuation τ sig (Elt Ideal) := after (st2 (F := Ideal)) (W1 V)
def W3 : Valuation τ sig (Elt Ideal) := after (st3 (F := Ideal)) (W2 V)
def W4 : Valuation τ sig (Elt Ideal) := after (st4 (F := Ideal)) (W3 V)
def W5 : Valuation τ sig (Elt Ideal) := after (st5 (F := Ideal)) (W4 V)
def W6 : Valuation τ sig (Elt Ideal) := after (st6 (F := Ideal)) (W5 V)
def W7 : Valuation τ sig (Elt Ideal) := after (st7 (F := Ideal)) (W6 V)
def W8 : Valuation τ sig (Elt Ideal) := after (st8 (F := Ideal)) (W7 V)
def W9 : Valuation τ sig (Elt Ideal) := after (st9 (F := Ideal)) (W8 V)
def W10 : Valuation τ sig (Elt Ideal) := after (st10 (F := Ideal)) (W9 V)
def W11 : Valuation τ sig (Elt Ideal) := after (st11 (F := Ideal)) (W10 V)
def W12 : Valuation τ sig (Elt Ideal) := after (st12 (F := Ideal)) (W11 V)
def W13 : Valuation τ sig (Elt Ideal) := after (st13 (F := Ideal)) (W12 V)
def W14 : Valuation τ sig (Elt Ideal) := after (st14 (F := Ideal)) (W13 V)
def W15 : Valuation τ sig (Elt Ideal) := after (st15 (F := Ideal)) (W14 V)
def W16 : Valuation τ sig (Elt Ideal) := after (st16 (F := Ideal)) (W15 V)
def W17 : Valuation τ sig (Elt Ideal) := after (st17 (F := Ideal)) (W16 V)

/-- The whole program is its eighteen stages run in order. -/
theorem after_all : after (st0 ++ st1 ++ st2 ++ st3 ++ st4 ++ st5 ++ st6 ++ st7 ++ st8 ++ st9 ++ st10 ++ st11 ++ st12 ++ st13 ++ st14 ++ st15 ++ st16 ++ st17 : List (HloOp τ sig (Elt Ideal))) V = W17 V := by
  simp only [after_append, W17, W16, W15, W14, W13, W12, W11, W10, W9, W8, W7, W6, W5, W4, W3, W2, W1, W0]

/-! ## Layer 0 -/

theorem w0_args : argsOf (W0 V) = argsOf V := by rw [W0, st0_args]
theorem w0_src : W0 V (Proc.devRef .tc main_v1) = src (argsOf V).ei := by rw [W0, st0_src]
theorem w0_dst : W0 V (Proc.devRef .tc main_v3) = dst (argsOf V).ei := by rw [W0, st0_dst]
theorem w0_out : W0 V (Proc.devRef .tc main_v27) = z1 (P0 (argsOf V)) (argsOf V).x (src (argsOf V).ei) (dst (argsOf V).ei) := by
  rw [W0, st0_out]

theorem w1_args : argsOf (W1 V) = argsOf V := by rw [W1, st1_args, w0_args]
theorem w1_src : W1 V (Proc.devRef .tc main_v1) = src (argsOf V).ei := by rw [W1, st1_src, w0_src]
theorem w1_dst : W1 V (Proc.devRef .tc main_v3) = dst (argsOf V).ei := by rw [W1, st1_dst, w0_dst]
theorem w1_out : W1 V (Proc.devRef .tc main_v59) = z2 (P0 (argsOf V)) (argsOf V).x (src (argsOf V).ei) (dst (argsOf V).ei) := by
  rw [W1, st1_out, w0_args, w0_out]; rfl

theorem w2_args : argsOf (W2 V) = argsOf V := by rw [W2, st2_args, w1_args]
theorem w2_src : W2 V (Proc.devRef .tc main_v1) = src (argsOf V).ei := by rw [W2, st2_src, w1_src]
theorem w2_dst : W2 V (Proc.devRef .tc main_v3) = dst (argsOf V).ei := by rw [W2, st2_dst, w1_dst]
theorem w2_out : W2 V (Proc.devRef .tc main_v83) = h1 (argsOf V) := by
  rw [W2, st2_out, w1_args, w1_out]; rfl

/-! ## Layer 1 -/

theorem w3_args : argsOf (W3 V) = argsOf V := by rw [W3, st3_args, w2_args]
theorem w3_src : W3 V (Proc.devRef .tc main_v1) = src (argsOf V).ei := by rw [W3, st3_src, w2_src]
theorem w3_dst : W3 V (Proc.devRef .tc main_v3) = dst (argsOf V).ei := by rw [W3, st3_dst, w2_dst]
theorem w3_out : W3 V (Proc.devRef .tc main_v107) = z1 (P1 (argsOf V)) (h1 (argsOf V)) (src (argsOf V).ei) (dst (argsOf V).ei) := by
  rw [W3, st3_out, w2_args, w2_out, w2_src, w2_dst]

theorem w4_args : argsOf (W4 V) = argsOf V := by rw [W4, st4_args, w3_args]
theorem w4_src : W4 V (Proc.devRef .tc main_v1) = src (argsOf V).ei := by rw [W4, st4_src, w3_src]
theorem w4_dst : W4 V (Proc.devRef .tc main_v3) = dst (argsOf V).ei := by rw [W4, st4_dst, w3_dst]
theorem w4_out : W4 V (Proc.devRef .tc main_v139) = z2 (P1 (argsOf V)) (h1 (argsOf V)) (src (argsOf V).ei) (dst (argsOf V).ei) := by
  rw [W4, st4_out, w3_args, w3_out]; rfl

theorem w5_args : argsOf (W5 V) = argsOf V := by rw [W5, st5_args, w4_args]
theorem w5_src : W5 V (Proc.devRef .tc main_v1) = src (argsOf V).ei := by rw [W5, st5_src, w4_src]
theorem w5_dst : W5 V (Proc.devRef .tc main_v3) = dst (argsOf V).ei := by rw [W5, st5_dst, w4_dst]
theorem w5_out : W5 V (Proc.devRef .tc main_v163) = h2 (argsOf V) := by
  rw [W5, st5_out, w4_args, w4_out]; rfl

/-! ## Layer 2 -/

theorem w6_args : argsOf (W6 V) = argsOf V := by rw [W6, st6_args, w5_args]
theorem w6_src : W6 V (Proc.devRef .tc main_v1) = src (argsOf V).ei := by rw [W6, st6_src, w5_src]
theorem w6_dst : W6 V (Proc.devRef .tc main_v3) = dst (argsOf V).ei := by rw [W6, st6_dst, w5_dst]
theorem w6_out : W6 V (Proc.devRef .tc main_v187) = z1 (P2 (argsOf V)) (h2 (argsOf V)) (src (argsOf V).ei) (dst (argsOf V).ei) := by
  rw [W6, st6_out, w5_args, w5_out, w5_src, w5_dst]

theorem w7_args : argsOf (W7 V) = argsOf V := by rw [W7, st7_args, w6_args]
theorem w7_src : W7 V (Proc.devRef .tc main_v1) = src (argsOf V).ei := by rw [W7, st7_src, w6_src]
theorem w7_dst : W7 V (Proc.devRef .tc main_v3) = dst (argsOf V).ei := by rw [W7, st7_dst, w6_dst]
theorem w7_out : W7 V (Proc.devRef .tc main_v219) = z2 (P2 (argsOf V)) (h2 (argsOf V)) (src (argsOf V).ei) (dst (argsOf V).ei) := by
  rw [W7, st7_out, w6_args, w6_out]; rfl

theorem w8_args : argsOf (W8 V) = argsOf V := by rw [W8, st8_args, w7_args]
theorem w8_src : W8 V (Proc.devRef .tc main_v1) = src (argsOf V).ei := by rw [W8, st8_src, w7_src]
theorem w8_dst : W8 V (Proc.devRef .tc main_v3) = dst (argsOf V).ei := by rw [W8, st8_dst, w7_dst]
theorem w8_out : W8 V (Proc.devRef .tc main_v243) = h3 (argsOf V) := by
  rw [W8, st8_out, w7_args, w7_out]; rfl

/-! ## Layer 3 -/

theorem w9_args : argsOf (W9 V) = argsOf V := by rw [W9, st9_args, w8_args]
theorem w9_src : W9 V (Proc.devRef .tc main_v1) = src (argsOf V).ei := by rw [W9, st9_src, w8_src]
theorem w9_dst : W9 V (Proc.devRef .tc main_v3) = dst (argsOf V).ei := by rw [W9, st9_dst, w8_dst]
theorem w9_out : W9 V (Proc.devRef .tc main_v267) = z1 (P3 (argsOf V)) (h3 (argsOf V)) (src (argsOf V).ei) (dst (argsOf V).ei) := by
  rw [W9, st9_out, w8_args, w8_out, w8_src, w8_dst]

theorem w10_args : argsOf (W10 V) = argsOf V := by rw [W10, st10_args, w9_args]
theorem w10_src : W10 V (Proc.devRef .tc main_v1) = src (argsOf V).ei := by rw [W10, st10_src, w9_src]
theorem w10_dst : W10 V (Proc.devRef .tc main_v3) = dst (argsOf V).ei := by rw [W10, st10_dst, w9_dst]
theorem w10_out : W10 V (Proc.devRef .tc main_v299) = z2 (P3 (argsOf V)) (h3 (argsOf V)) (src (argsOf V).ei) (dst (argsOf V).ei) := by
  rw [W10, st10_out, w9_args, w9_out]; rfl

theorem w11_args : argsOf (W11 V) = argsOf V := by rw [W11, st11_args, w10_args]
theorem w11_src : W11 V (Proc.devRef .tc main_v1) = src (argsOf V).ei := by rw [W11, st11_src, w10_src]
theorem w11_dst : W11 V (Proc.devRef .tc main_v3) = dst (argsOf V).ei := by rw [W11, st11_dst, w10_dst]
theorem w11_out : W11 V (Proc.devRef .tc main_v323) = h4 (argsOf V) := by
  rw [W11, st11_out, w10_args, w10_out]; rfl

/-! ## Layer 4 and the head -/

theorem w12_args : argsOf (W12 V) = argsOf V := by rw [W12, st12_args, w11_args]
theorem w12_out : W12 V (Proc.devRef .tc main_v347) = z1 (P4 (argsOf V)) (h4 (argsOf V)) (src (argsOf V).ei) (dst (argsOf V).ei) := by
  rw [W12, st12_out, w11_args, w11_out, w11_src, w11_dst]

theorem w13_args : argsOf (W13 V) = argsOf V := by rw [W13, st13_args, w12_args]
theorem w13_out : W13 V (Proc.devRef .tc main_v379) = h5 (argsOf V) := by
  rw [W13, st13_out, w12_args, w12_out]; rfl

theorem w14_args : argsOf (W14 V) = argsOf V := by rw [W14, st14_args, w13_args]
theorem w14_out : W14 V (Proc.devRef .tc main_v383) = y1 (argsOf V) := by
  rw [W14, st14_out, w13_args, w13_out]; rfl

theorem w15_args : argsOf (W15 V) = argsOf V := by rw [W15, st15_args, w14_args]
theorem w15_out : W15 V (Proc.devRef .tc main_v403) = bn128 (y1 (argsOf V)) (argsOf V).bn1_g (argsOf V).bn1_b := by
  rw [W15, st15_out, w14_args, w14_out]

theorem w16_args : argsOf (W16 V) = argsOf V := by rw [W16, st16_args, w15_args]
theorem w16_out : W16 V (Proc.devRef .tc main_v407) = logits (argsOf V) := by
  rw [W16, st16_out, w15_args, w15_out]; rfl

theorem w17_args : argsOf (W17 V) = argsOf V := by rw [W17, st17_args, w16_args]
theorem w17_out : W17 V (Proc.devRef .tc main_v408) = out (argsOf V) := by
  rw [W17, st17_out, w16_out]; rfl

/-! ## The whole program -/

/-- The result buffer holds the network's function of the arguments. -/
theorem out_eq :
    StableHlo.after (st0 ++ st1 ++ st2 ++ st3 ++ st4 ++ st5 ++ st6 ++ st7 ++ st8 ++ st9 ++ st10 ++ st11 ++ st12 ++ st13 ++ st14 ++ st15 ++ st16 ++ st17 : List (HloOp τ sig (Elt Ideal))) V (Proc.devRef .tc main_v408) = Cert.Spec.out (argsOf V) := by
  rw [after_all, w17_out]

/-- The argument record is as it was. -/
theorem args_kept :
    argsOf (StableHlo.after (st0 ++ st1 ++ st2 ++ st3 ++ st4 ++ st5 ++ st6 ++ st7 ++ st8 ++ st9 ++ st10 ++ st11 ++ st12 ++ st13 ++ st14 ++ st15 ++ st16 ++ st17 : List (HloOp τ sig (Elt Ideal))) V) = argsOf V := by
  rw [after_all, w17_args]

/-! Each argument buffer is as it was. -/
theorem arg0_kept :
    StableHlo.after (st0 ++ st1 ++ st2 ++ st3 ++ st4 ++ st5 ++ st6 ++ st7 ++ st8 ++ st9 ++ st10 ++ st11 ++ st12 ++ st13 ++ st14 ++ st15 ++ st16 ++ st17 : List (HloOp τ sig (Elt Ideal))) V (Proc.devRef .tc main_arg0) = V (Proc.devRef .tc main_arg0) :=
  arg0_of_args (args_kept V)
theorem arg1_kept :
    StableHlo.after (st0 ++ st1 ++ st2 ++ st3 ++ st4 ++ st5 ++ st6 ++ st7 ++ st8 ++ st9 ++ st10 ++ st11 ++ st12 ++ st13 ++ st14 ++ st15 ++ st16 ++ st17 : List (HloOp τ sig (Elt Ideal))) V (Proc.devRef .tc main_arg1) = V (Proc.devRef .tc main_arg1) :=
  arg1_of_args (args_kept V)
theorem arg2_kept :
    StableHlo.after (st0 ++ st1 ++ st2 ++ st3 ++ st4 ++ st5 ++ st6 ++ st7 ++ st8 ++ st9 ++ st10 ++ st11 ++ st12 ++ st13 ++ st14 ++ st15 ++ st16 ++ st17 : List (HloOp τ sig (Elt Ideal))) V (Proc.devRef .tc main_arg2) = V (Proc.devRef .tc main_arg2) :=
  arg2_of_args (args_kept V)
theorem arg3_kept :
    StableHlo.after (st0 ++ st1 ++ st2 ++ st3 ++ st4 ++ st5 ++ st6 ++ st7 ++ st8 ++ st9 ++ st10 ++ st11 ++ st12 ++ st13 ++ st14 ++ st15 ++ st16 ++ st17 : List (HloOp τ sig (Elt Ideal))) V (Proc.devRef .tc main_arg3) = V (Proc.devRef .tc main_arg3) :=
  arg3_of_args (args_kept V)
theorem arg4_kept :
    StableHlo.after (st0 ++ st1 ++ st2 ++ st3 ++ st4 ++ st5 ++ st6 ++ st7 ++ st8 ++ st9 ++ st10 ++ st11 ++ st12 ++ st13 ++ st14 ++ st15 ++ st16 ++ st17 : List (HloOp τ sig (Elt Ideal))) V (Proc.devRef .tc main_arg4) = V (Proc.devRef .tc main_arg4) :=
  arg4_of_args (args_kept V)
theorem arg5_kept :
    StableHlo.after (st0 ++ st1 ++ st2 ++ st3 ++ st4 ++ st5 ++ st6 ++ st7 ++ st8 ++ st9 ++ st10 ++ st11 ++ st12 ++ st13 ++ st14 ++ st15 ++ st16 ++ st17 : List (HloOp τ sig (Elt Ideal))) V (Proc.devRef .tc main_arg5) = V (Proc.devRef .tc main_arg5) :=
  arg5_of_args (args_kept V)
theorem arg6_kept :
    StableHlo.after (st0 ++ st1 ++ st2 ++ st3 ++ st4 ++ st5 ++ st6 ++ st7 ++ st8 ++ st9 ++ st10 ++ st11 ++ st12 ++ st13 ++ st14 ++ st15 ++ st16 ++ st17 : List (HloOp τ sig (Elt Ideal))) V (Proc.devRef .tc main_arg6) = V (Proc.devRef .tc main_arg6) :=
  arg6_of_args (args_kept V)
theorem arg7_kept :
    StableHlo.after (st0 ++ st1 ++ st2 ++ st3 ++ st4 ++ st5 ++ st6 ++ st7 ++ st8 ++ st9 ++ st10 ++ st11 ++ st12 ++ st13 ++ st14 ++ st15 ++ st16 ++ st17 : List (HloOp τ sig (Elt Ideal))) V (Proc.devRef .tc main_arg7) = V (Proc.devRef .tc main_arg7) :=
  arg7_of_args (args_kept V)
theorem arg8_kept :
    StableHlo.after (st0 ++ st1 ++ st2 ++ st3 ++ st4 ++ st5 ++ st6 ++ st7 ++ st8 ++ st9 ++ st10 ++ st11 ++ st12 ++ st13 ++ st14 ++ st15 ++ st16 ++ st17 : List (HloOp τ sig (Elt Ideal))) V (Proc.devRef .tc main_arg8) = V (Proc.devRef .tc main_arg8) :=
  arg8_of_args (args_kept V)
theorem arg9_kept :
    StableHlo.after (st0 ++ st1 ++ st2 ++ st3 ++ st4 ++ st5 ++ st6 ++ st7 ++ st8 ++ st9 ++ st10 ++ st11 ++ st12 ++ st13 ++ st14 ++ st15 ++ st16 ++ st17 : List (HloOp τ sig (Elt Ideal))) V (Proc.devRef .tc main_arg9) = V (Proc.devRef .tc main_arg9) :=
  arg9_of_args (args_kept V)
theorem arg10_kept :
    StableHlo.after (st0 ++ st1 ++ st2 ++ st3 ++ st4 ++ st5 ++ st6 ++ st7 ++ st8 ++ st9 ++ st10 ++ st11 ++ st12 ++ st13 ++ st14 ++ st15 ++ st16 ++ st17 : List (HloOp τ sig (Elt Ideal))) V (Proc.devRef .tc main_arg10) = V (Proc.devRef .tc main_arg10) :=
  arg10_of_args (args_kept V)
theorem arg11_kept :
    StableHlo.after (st0 ++ st1 ++ st2 ++ st3 ++ st4 ++ st5 ++ st6 ++ st7 ++ st8 ++ st9 ++ st10 ++ st11 ++ st12 ++ st13 ++ st14 ++ st15 ++ st16 ++ st17 : List (HloOp τ sig (Elt Ideal))) V (Proc.devRef .tc main_arg11) = V (Proc.devRef .tc main_arg11) :=
  arg11_of_args (args_kept V)
theorem arg12_kept :
    StableHlo.after (st0 ++ st1 ++ st2 ++ st3 ++ st4 ++ st5 ++ st6 ++ st7 ++ st8 ++ st9 ++ st10 ++ st11 ++ st12 ++ st13 ++ st14 ++ st15 ++ st16 ++ st17 : List (HloOp τ sig (Elt Ideal))) V (Proc.devRef .tc main_arg12) = V (Proc.devRef .tc main_arg12) :=
  arg12_of_args (args_kept V)
theorem arg13_kept :
    StableHlo.after (st0 ++ st1 ++ st2 ++ st3 ++ st4 ++ st5 ++ st6 ++ st7 ++ st8 ++ st9 ++ st10 ++ st11 ++ st12 ++ st13 ++ st14 ++ st15 ++ st16 ++ st17 : List (HloOp τ sig (Elt Ideal))) V (Proc.devRef .tc main_arg13) = V (Proc.devRef .tc main_arg13) :=
  arg13_of_args (args_kept V)
theorem arg14_kept :
    StableHlo.after (st0 ++ st1 ++ st2 ++ st3 ++ st4 ++ st5 ++ st6 ++ st7 ++ st8 ++ st9 ++ st10 ++ st11 ++ st12 ++ st13 ++ st14 ++ st15 ++ st16 ++ st17 : List (HloOp τ sig (Elt Ideal))) V (Proc.devRef .tc main_arg14) = V (Proc.devRef .tc main_arg14) :=
  arg14_of_args (args_kept V)
theorem arg15_kept :
    StableHlo.after (st0 ++ st1 ++ st2 ++ st3 ++ st4 ++ st5 ++ st6 ++ st7 ++ st8 ++ st9 ++ st10 ++ st11 ++ st12 ++ st13 ++ st14 ++ st15 ++ st16 ++ st17 : List (HloOp τ sig (Elt Ideal))) V (Proc.devRef .tc main_arg15) = V (Proc.devRef .tc main_arg15) :=
  arg15_of_args (args_kept V)
theorem arg16_kept :
    StableHlo.after (st0 ++ st1 ++ st2 ++ st3 ++ st4 ++ st5 ++ st6 ++ st7 ++ st8 ++ st9 ++ st10 ++ st11 ++ st12 ++ st13 ++ st14 ++ st15 ++ st16 ++ st17 : List (HloOp τ sig (Elt Ideal))) V (Proc.devRef .tc main_arg16) = V (Proc.devRef .tc main_arg16) :=
  arg16_of_args (args_kept V)

end Cert.ReferenceIdeal.Chain

end
-- ==== Proof.lean ====
/-
  The certificate of the graph network computed block by block against the same network in whole-array operations,
  over the extended reals.

  Both programs are the same composition of stages (the specification, Proof/Spec.lean): five layers of neighbour sum,
  linear map, batch normalisation with the batch's own statistics, rectifier and second linear map, a head of the same
  kind, and a row-wise log-softmax. The blocked program computes each linear map and each normalise-and-rectify step as
  a kernel over 25 blocks of 2000 rows; a block of the result depends only on the same rows of the input and on whole
  small arrays (weights, bias, the column statistics computed on the host from the previous kernel's whole result), so
  the blocks tile the whole-array operation exactly: no sum is re-associated, and the narrow float format the kernel
  passes through is the identity on extended reals. Hence both result buffers hold `Spec.out` of the arguments.

  The three frames: the word-level blocked program's is the generated frame; the idealized one's is its run with the result dropped; the whole-array program's is its run (a straight line of
  host operations) with the result dropped. The idealisation rewrote nothing, so `preserves` is trivial.
-/
import proofs.«107430_j24575802868448_1_alg».proof.Defs
import proofs.«107430_j24575802868448_1_alg».proof.Proof.Gen.Kernel
import proofs.«107430_j24575802868448_1_alg».proof.Proof.FPKernelS
import proofs.«107430_j24575802868448_1_alg».proof.Proof.Gen.KernelIdeal
import proofs.«107430_j24575802868448_1_alg».proof.Proof.Gen.ReferenceIdeal
import proofs.«107430_j24575802868448_1_alg».proof.Proof.Gen.Pre_finite_inputs
import proofs.«107430_j24575802868448_1_alg».proof.Proof.Spec
import proofs.«107430_j24575802868448_1_alg».proof.Proof.KernelRun
import proofs.«107430_j24575802868448_1_alg».proof.Proof.KChainTail
import proofs.«107430_j24575802868448_1_alg».proof.Proof.RefRun
import proofs.«107430_j24575802868448_1_alg».proof.Proof.RefChain
import Idealize.ShloMosaic.Adequacy
import Idealize.ShloMosaic.Init

noncomputable section

namespace Cert.Proof

open Idealize.ShloMosaic Idealize.ShloMosaic.TcCoe Idealize.SL.Sem

/-! ## The frames -/

theorem frame_k : Cert.frame_Kernel := fun m ρ _ => Cert.Kernel.Gen.frame m ρ
/-- The idealized blocked program's frame: its run with the result named, the result dropped. -/
theorem frame_ki : Cert.frame_KernelIdeal := fun m ρ _ =>
  (θ_run Cert.KernelIdeal.defs _ _).mono (fun _ h c => (h c).2) (Cert.KernelIdeal.Run.run m ρ)

/-- The whole-array program runs and leaves its arguments as they were: no operation of its line writes one. -/
theorem frame_r : Cert.frame_ReferenceIdeal := fun m ρ _ =>
  (θ_run Cert.ReferenceIdeal.defs _ _).mono (fun _ h c =>
    ⟨(h c Cert.ReferenceIdeal.main_arg0).trans (Cert.ReferenceIdeal.Chain.arg0_kept _),
     (h c Cert.ReferenceIdeal.main_arg1).trans (Cert.ReferenceIdeal.Chain.arg1_kept _),
     (h c Cert.ReferenceIdeal.main_arg2).trans (Cert.ReferenceIdeal.Chain.arg2_kept _),
     (h c Cert.ReferenceIdeal.main_arg3).trans (Cert.ReferenceIdeal.Chain.arg3_kept _),
     (h c Cert.ReferenceIdeal.main_arg4).trans (Cert.ReferenceIdeal.Chain.arg4_kept _),
     (h c Cert.ReferenceIdeal.main_arg5).trans (Cert.ReferenceIdeal.Chain.arg5_kept _),
     (h c Cert.ReferenceIdeal.main_arg6).trans (Cert.ReferenceIdeal.Chain.arg6_kept _),
     (h c Cert.ReferenceIdeal.main_arg7).trans (Cert.ReferenceIdeal.Chain.arg7_kept _),
     (h c Cert.ReferenceIdeal.main_arg8).trans (Cert.ReferenceIdeal.Chain.arg8_kept _),
     (h c Cert.ReferenceIdeal.main_arg9).trans (Cert.ReferenceIdeal.Chain.arg9_kept _),
     (h c Cert.ReferenceIdeal.main_arg10).trans (Cert.ReferenceIdeal.Chain.arg10_kept _),
     (h c Cert.ReferenceIdeal.main_arg11).trans (Cert.ReferenceIdeal.Chain.arg11_kept _),
     (h c Cert.ReferenceIdeal.main_arg12).trans (Cert.ReferenceIdeal.Chain.arg12_kept _),
     (h c Cert.ReferenceIdeal.main_arg13).trans (Cert.ReferenceIdeal.Chain.arg13_kept _),
     (h c Cert.ReferenceIdeal.main_arg14).trans (Cert.ReferenceIdeal.Chain.arg14_kept _),
     (h c Cert.ReferenceIdeal.main_arg15).trans (Cert.ReferenceIdeal.Chain.arg15_kept _),
     (h c Cert.ReferenceIdeal.main_arg16).trans (Cert.ReferenceIdeal.Chain.arg16_kept _)⟩)
    (Cert.ReferenceIdeal.Value.run (F := Ideal) m ρ)

/-! ## The two results are one function of the arguments -/

/-- From memories that agree on the arguments, the two programs' argument records are the same. -/
theorem args_agree (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) :
    Cert.ReferenceIdeal.Chain.argsOf (StableHlo.launchContents m' c) = Cert.KernelIdeal.Chain.A m ρ c := by
  obtain ⟨h0, h1, h2, h3, h4, h5, h6, h7, h8, h9, h10, h11, h12, h13, h14, h15, h16⟩ := h
  unfold Cert.ReferenceIdeal.Chain.argsOf
  show Cert.Spec.Args.mk _ _ _ _ _ _ _ _ _ _ _ _ _ _ _ _ _ = Cert.Spec.Args.mk _ _ _ _ _ _ _ _ _ _ _ _ _ _ _ _ _
  congr 1

theorem algebraic : Cert.algebraic_KernelIdeal_ReferenceIdeal := by
  intro m ρ m' ρ' _ hagree
  refine ⟨fun c => Cert.Spec.out (Cert.KernelIdeal.Chain.A m ρ c), ?_, ?_⟩
  · exact (θ_run Cert.KernelIdeal.defs _ _).mono
      (fun _ h c => ⟨(h c).1.trans (Cert.KernelIdeal.Chain.result_eq m ρ c), (h c).2⟩)
      (Cert.KernelIdeal.Run.run m ρ)
  · refine (θ_run Cert.ReferenceIdeal.defs _ _).mono (fun _ h c => ?_) (Cert.ReferenceIdeal.Value.run (F := Ideal) m' ρ')
    refine ⟨((h c Cert.ReferenceIdeal.main_v408).trans (Cert.ReferenceIdeal.Chain.out_eq _)).trans
        (congrArg Cert.Spec.out (args_agree m ρ m' c (hagree c))),
      (h c Cert.ReferenceIdeal.main_arg0).trans (Cert.ReferenceIdeal.Chain.arg0_kept _),
      (h c Cert.ReferenceIdeal.main_arg1).trans (Cert.ReferenceIdeal.Chain.arg1_kept _),
      (h c Cert.ReferenceIdeal.main_arg2).trans (Cert.ReferenceIdeal.Chain.arg2_kept _),
      (h c Cert.ReferenceIdeal.main_arg3).trans (Cert.ReferenceIdeal.Chain.arg3_kept _),
      (h c Cert.ReferenceIdeal.main_arg4).trans (Cert.ReferenceIdeal.Chain.arg4_kept _),
      (h c Cert.ReferenceIdeal.main_arg5).trans (Cert.ReferenceIdeal.Chain.arg5_kept _),
      (h c Cert.ReferenceIdeal.main_arg6).trans (Cert.ReferenceIdeal.Chain.arg6_kept _),
      (h c Cert.ReferenceIdeal.main_arg7).trans (Cert.ReferenceIdeal.Chain.arg7_kept _),
      (h c Cert.ReferenceIdeal.main_arg8).trans (Cert.ReferenceIdeal.Chain.arg8_kept _),
      (h c Cert.ReferenceIdeal.main_arg9).trans (Cert.ReferenceIdeal.Chain.arg9_kept _),
      (h c Cert.ReferenceIdeal.main_arg10).trans (Cert.ReferenceIdeal.Chain.arg10_kept _),
      (h c Cert.ReferenceIdeal.main_arg11).trans (Cert.ReferenceIdeal.Chain.arg11_kept _),
      (h c Cert.ReferenceIdeal.main_arg12).trans (Cert.ReferenceIdeal.Chain.arg12_kept _),
      (h c Cert.ReferenceIdeal.main_arg13).trans (Cert.ReferenceIdeal.Chain.arg13_kept _),
      (h c Cert.ReferenceIdeal.main_arg14).trans (Cert.ReferenceIdeal.Chain.arg14_kept _),
      (h c Cert.ReferenceIdeal.main_arg15).trans (Cert.ReferenceIdeal.Chain.arg15_kept _),
      (h c Cert.ReferenceIdeal.main_arg16).trans (Cert.ReferenceIdeal.Chain.arg16_kept _)⟩

theorem claim : Cert.Claim :=
  ⟨Cert.Kernel.Gen.facts, Cert.KernelIdeal.Gen.facts, Cert.ReferenceIdeal.Gen.facts, Cert.Pre_finite_inputs.Gen.facts,
    frame_k, frame_ki, frame_r, trivial, algebraic⟩

end Cert.Proof

end
